-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x2x128 : Shape := ⟨3, ![4096, 2, 128]⟩
abbrev S2x65536 : Shape := ⟨2, ![2, 65536]⟩
abbrev S2x4096x4096 : Shape := ⟨3, ![2, 4096, 4096]⟩
abbrev S3x128x128 : Shape := ⟨3, ![3, 128, 128]⟩
abbrev S3x128 : Shape := ⟨2, ![3, 128]⟩
abbrev S_ : Shape := ⟨0, ![]⟩

class Facts : Prop where
  bcast_S_S4096x2x128 : S_.BroadcastsInDim S4096x2x128 (![] : Fin 0 → Fin S4096x2x128.rank)
  reducesTo_S4096x2x128_S_d0_1_2 : S4096x2x128.ReducesTo [0, 1, 2] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x65536 : S_.BroadcastsInDim S2x65536 (![] : Fin 0 → Fin S2x65536.rank)
  reducesTo_S2x65536_S_d0_1 : S2x65536.ReducesTo [0, 1] S_

variable [Facts]

def fn_part1 {F : FTy → Type} [FloatOps F] (main_arg1 : IVec S2x65536 32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_c_6 : IVec S_ 32 := constantI S_ 32 0#32
  let main_v19 : IVec S2x65536 32 := broadcastInDim S2x65536 ![] bcast_S_S2x65536 main_c_6
  let main_v20 : IVec S2x65536 1 := cmpi .sge main_arg1 main_v19
  let main_c_7 : IVec S_ 32 := constantI S_ 32 4095#32
  let main_v21 : IVec S2x65536 32 := broadcastInDim S2x65536 ![] bcast_S_S2x65536 main_c_7
  let main_v22 : IVec S2x65536 1 := cmpi .sle main_arg1 main_v21
  let main_v23 : IVec S2x65536 1 := andi main_v20 main_v22
  let main_c_8 : IVec S_ 1 := constantI S_ 1 1#1
  let main_v24 : IVec S_ 1 := (fun x v => Host.reduce IntOp.andi x v reducesTo_S2x65536_S_d0_1 h_S_) main_v23 main_c_8
  let main_v25 : IVec S_ 1 := andi main_v18 main_v24
  main_v25

def fn {F : FTy → Type} [FloatOps F] (main_arg0 : FVec F S4096x2x128 .f32) (main_arg1 : IVec S2x65536 32) (main_arg2 : FVec F S2x4096x4096 .f32) (main_arg3 : FVec F S3x128x128 .f32) (main_arg4 : FVec F S3x128 .f32) : IVec S_ 1 :=
  let main_v0 : FVec F S4096x2x128 .f32 := Host.absf main_arg0
  let main_cst : FVec F S_ .f32 := constant S_ .f32 0x7F800000#32
  let main_v1 : FVec F S4096x2x128 .f32 := broadcastInDim S4096x2x128 ![] bcast_S_S4096x2x128 main_cst
  let main_v2 : IVec S4096x2x128 1 := cmpf .olt main_v0 main_v1
  let main_c : IVec S_ 1 := constantI S_ 1 1#1
  let main_v3 : IVec S_ 1 := (fun x v => Host.reduce IntOp.andi x v reducesTo_S4096x2x128_S_d0_1_2 h_S_) main_v2 main_c
  let main_v4 : FVec F S2x4096x4096 .f32 := Host.absf main_arg2
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_v13 main_v16
-- ==== Kernel.lean ====
abbrev S4096x2x128 : Shape := ⟨3, ![4096, 2, 128]⟩
abbrev S2x65536 : Shape := ⟨2, ![2, 65536]⟩
abbrev S2x4096x4096 : Shape := ⟨3, ![2, 4096, 4096]⟩
abbrev S3x128x128 : Shape := ⟨3, ![3, 128, 128]⟩
abbrev S3x128 : Shape := ⟨2, ![3, 128]⟩
abbrev S4096x256 : Shape := ⟨2, ![4096, 256]⟩
abbrev S256x4096 : Shape := ⟨2, ![256, 4096]⟩
abbrev S1x65536 : Shape := ⟨2, ![1, 65536]⟩
abbrev S65536 : Shape := ⟨1, ![65536]⟩
abbrev S2x2 : Shape := ⟨2, ![2, 2]⟩
abbrev S_ : Shape := ⟨0, ![]⟩
abbrev S1x128x128 : Shape := ⟨3, ![1, 128, 128]⟩
abbrev S128x128 : Shape := ⟨2, ![128, 128]⟩
abbrev S2x1x2x1 : Shape := ⟨4, ![2, 1, 2, 1]⟩
abbrev S1x128x1x128 : Shape := ⟨4, ![1, 128, 1, 128]⟩
abbrev S2x128x2x128 : Shape := ⟨4, ![2, 128, 2, 128]⟩
abbrev S256x256 : Shape := ⟨2, ![256, 256]⟩
abbrev S1x128 : Shape := ⟨2, ![1, 128]⟩
abbrev S128 : Shape := ⟨1, ![128]⟩
abbrev S2x128 : Shape := ⟨2, ![2, 128]⟩
abbrev S256 : Shape := ⟨1, ![256]⟩
abbrev S1x256 : Shape := ⟨2, ![1, 256]⟩
abbrev S4096 : Shape := ⟨1, ![4096]⟩
abbrev S16x4096 : Shape := ⟨2, ![16, 4096]⟩
abbrev S32x4096 : Shape := ⟨2, ![32, 4096]⟩
abbrev S2048 : Shape := ⟨1, ![2048]⟩
abbrev S16 : Shape := ⟨1, ![16]⟩
abbrev S1x4096 : Shape := ⟨2, ![1, 4096]⟩
abbrev S1x4096x4096 : Shape := ⟨3, ![1, 4096, 4096]⟩
abbrev S4096x4096 : Shape := ⟨2, ![4096, 4096]⟩
abbrev S32x256 : Shape := ⟨2, ![32, 256]⟩
abbrev S8x4096 : Shape := ⟨2, ![8, 4096]⟩
abbrev S8192 : Shape := ⟨1, ![8192]⟩
abbrev S1x16 : Shape := ⟨2, ![1, 16]⟩

abbrev nBuf : Table → Nat
  | .hbm => 62
  | .local .tc .vmem => 25
  | .local .scVector .vmem => 6
  | _ => 0

abbrev bufTy : (tb : Table) → Fin (nBuf tb) → BufTy
  | .hbm, ⟨0, _⟩ => ⟨S4096x2x128, .f32⟩
  | .hbm, ⟨1, _⟩ => ⟨S2x65536, .i32⟩
  | .hbm, ⟨2, _⟩ => ⟨S2x4096x4096, .f32⟩
  | .hbm, ⟨3, _⟩ => ⟨S3x128x128, .f32⟩
  | .hbm, ⟨4, _⟩ => ⟨S3x128, .f32⟩
  | .hbm, ⟨5, _⟩ => ⟨S4096x256, .f32⟩
  | .hbm, ⟨6, _⟩ => ⟨S256x4096, .f32⟩
  | .hbm, ⟨7, _⟩ => ⟨S1x65536, .i32⟩
  | .hbm, ⟨8, _⟩ => ⟨S65536, .i32⟩
  | .hbm, ⟨9, _⟩ => ⟨S1x65536, .i32⟩
  | .hbm, ⟨10, _⟩ => ⟨S65536, .i32⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .f32⟩
  | .hbm, ⟨18, _⟩ => ⟨S1x128x128, .f32⟩
  | .hbm, ⟨19, _⟩ => ⟨S128x128, .f32⟩
  | .hbm, ⟨20, _⟩ => ⟨S128x128, .f32⟩
  | .hbm, ⟨21, _⟩ => ⟨S2x1x2x1, .f32⟩
  | .hbm, ⟨22, _⟩ => ⟨S1x128x1x128, .f32⟩
  | .hbm, ⟨23, _⟩ => ⟨S2x128x2x128, .f32⟩
  | .hbm, ⟨24, _⟩ => ⟨S2x128x2x128, .f32⟩
  | .hbm, ⟨25, _⟩ => ⟨S2x128x2x128, .f32⟩
  | .hbm, ⟨26, _⟩ => ⟨S256x256, .f32⟩
  | .hbm, ⟨27, _⟩ => ⟨S1x128x128, .f32⟩
  | .hbm, ⟨28, _⟩ => ⟨S128x128, .f32⟩
  | .hbm, ⟨29, _⟩ => ⟨S128x128, .f32⟩
  | .hbm, ⟨30, _⟩ => ⟨S2x1x2x1, .f32⟩
  | .hbm, ⟨31, _⟩ => ⟨S1x128x1x128, .f32⟩
  | .hbm, ⟨32, _⟩ => ⟨S2x128x2x128, .f32⟩
  | .hbm, ⟨33, _⟩ => ⟨S2x128x2x128, .f32⟩
  | .hbm, ⟨34, _⟩ => ⟨S2x128x2x128, .f32⟩
  | .hbm, ⟨35, _⟩ => ⟨S256x256, .f32⟩
  | .hbm, ⟨36, _⟩ => ⟨S1x128, .f32⟩
  | .hbm, ⟨37, _⟩ => ⟨S128, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S2x128, .f32⟩
  | .hbm, ⟨46, _⟩ => ⟨S256, .f32⟩
  | .hbm, ⟨47, _⟩ => ⟨S1x256, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S16x4096, .f32⟩
  | .hbm, ⟨52, _⟩ => ⟨S32x4096, .f32⟩
  | .hbm, ⟨53, _⟩ => ⟨S1x4096x4096, .f32⟩
  | .hbm, ⟨54, _⟩ => ⟨S4096x4096, .f32⟩
  | .hbm, ⟨55, _⟩ => ⟨S256x4096, .f32⟩
  | .hbm, ⟨56, _⟩ => ⟨S1x4096x4096, .f32⟩
  | .hbm, ⟨57, _⟩ => ⟨S4096x4096, .f32⟩
  | .hbm, ⟨58, _⟩ => ⟨S256x4096, .f32⟩
  | .hbm, ⟨59, _⟩ => ⟨S256x4096, .f32⟩
  | .hbm, ⟨60, _⟩ => ⟨S4096x256, .f32⟩
  | .hbm, ⟨61, _⟩ => ⟨S4096x2x128, .f32⟩
  | .local .tc .vmem, ⟨0, _⟩ => ⟨S256x4096, .f32⟩
  | .local .tc .vmem, ⟨1, _⟩ => ⟨S256x4096, .f32⟩
  | .local .tc .vmem, ⟨2, _⟩ => ⟨S256x4096, .f32⟩
  | .local .tc .vmem, ⟨3, _⟩ => ⟨S256x256, .f32⟩
  | .local .tc .vmem, ⟨4, _⟩ => ⟨S256x256, .f32⟩
  | .local .tc .vmem, ⟨5, _⟩ => ⟨S256x4096, .f32⟩
  | .local .tc .vmem, ⟨6, _⟩ => ⟨S256x4096, .f32⟩
  | .local .tc .vmem, ⟨7, _⟩ => ⟨S256x4096, .f32⟩
  | .local .tc .vmem, ⟨8, _⟩ => ⟨S256x256, .f32⟩
  | .local .tc .vmem, ⟨9, _⟩ => ⟨S256x256, .f32⟩
  | .local .tc .vmem, ⟨10, _⟩ => ⟨S32x256, .f32⟩
  | .local .tc .vmem, ⟨11, _⟩ => ⟨S32x256, .f32⟩
  | .local .tc .vmem, ⟨12, _⟩ => ⟨S256x256, .f32⟩
  | .local .tc .vmem, ⟨13, _⟩ => ⟨S256x256, .f32⟩
  | .local .tc .vmem, ⟨14, _⟩ => ⟨S256x256, .f32⟩
  | .local .tc .vmem, ⟨15, _⟩ => ⟨S256x256, .f32⟩
  | .local .tc .vmem, ⟨16, _⟩ => ⟨S256x256, .f32⟩
  | .local .tc .vmem, ⟨17, _⟩ => ⟨S256x256, .f32⟩
  | .local .tc .vmem, ⟨18, _⟩ => ⟨S256x256, .f32⟩
  | .local .tc .vmem, ⟨19, _⟩ => ⟨S256x256, .f32⟩
  | .local .tc .vmem, ⟨20, _⟩ => ⟨S32x256, .f32⟩
  | .local .tc .vmem, ⟨21, _⟩ => ⟨S32x256, .f32⟩
  | .local .tc .vmem, ⟨22, _⟩ => ⟨S1x256, .f32⟩
  | .local .tc .vmem, ⟨23, _⟩ => ⟨S256x256, .f32⟩
  | .local .tc .vmem, ⟨24, _⟩ => ⟨S256x256, .f32⟩
  | .local .scVector .vmem, ⟨0, _⟩ => ⟨S4096, .f32⟩
  | .local .scVector .vmem, ⟨1, _⟩ => ⟨S2048, .i32⟩
  | .local .scVector .vmem, ⟨2, _⟩ => ⟨S8x4096, .f32⟩
  | .local .scVector .vmem, ⟨3, _⟩ => ⟨S16x4096, .f32⟩
  | .local .scVector .vmem, ⟨4, _⟩ => ⟨S8192, .i32⟩
  | .local .scVector .vmem, ⟨5, _⟩ => ⟨S8192, .i32⟩
  | _, _ => ⟨S4096x2x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_cst_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v5_scv : Ref sig .scVector := ⟨.hbm, 10, rfl⟩
abbrev main_v31_scv : Ref sig .scVector := ⟨.hbm, 49, rfl⟩
abbrev main_v33_scv : Ref sig .scVector := ⟨.hbm, 52, rfl⟩
abbrev main_v3_scv : Ref sig .scVector := ⟨.hbm, 8, rfl⟩
abbrev main_v39_scv : Ref sig .scVector := ⟨.hbm, 58, rfl⟩
abbrev main_v32_scv : Ref sig .scVector := ⟨.hbm, 51, rfl⟩
abbrev main_v40_scv : Ref sig .scVector := ⟨.hbm, 59, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg6_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg4_0 : Ref sig .tc := ⟨.vmem, 23, rfl⟩
abbrev cc4_stg4_1 : Ref sig .tc := ⟨.vmem, 24, rfl⟩
abbrev cc0_scratch0 : Ref sig .scVector := ⟨.vmem, 0, rfl⟩
abbrev cc0_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc3_scratch2 : Ref sig .scVector := ⟨.vmem, 4, rfl⟩
abbrev cc3_scratch3 : Ref sig .scVector := ⟨.vmem, 5, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem5_0 : DmaSem sig := 16
abbrev cc2_sem6_0 : DmaSem sig := 17
abbrev cc2_sem6_1 : DmaSem sig := 18
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32 : BitVec 32 := 2048#32
  let v2 : BitVec 32 := Scalar.muli v1 c2048_i32
  ![v2.toNat]
@[reducible] def k0_t1_loop : Scf.Loop 32 :=
  let c0_i32_1 : BitVec 32 := 0#32
  let c128_i32 : BitVec 32 := 128#32
  let v37 : BitVec 32 := Scalar.addi c0_i32_1 c128_i32
  let c1_i32_2 : BitVec 32 := 1#32
  ⟨c0_i32_1, v37, c1_i32_2⟩
def k0_off2 (k0_t1 : Fin k0_t1_loop.trips) : Fin 1 → Nat :=
  let c0_i32_1 : BitVec 32 := 0#32
  let c1_i32_2 : BitVec 32 := 1#32
  let arg7 : BitVec 32 := Scf.iv c0_i32_1 c1_i32_2 k0_t1
  let c16_i32_4 : BitVec 32 := 16#32
  let v38 : BitVec 32 := Scalar.muli arg7 c16_i32_4
  let v39 : Index := Scalar.indexCast v38
  ![v39.toNat]

def k0_chk1 (v40 : IVec S16 32) : Prop :=
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a) ∧
  (∀ a x, ((![v40] : Fin 1 → IVec S16 32) a x).toNat < S4096.size a)
instance k0_chk1.dec : ∀ (v40 : IVec S16 32), Decidable (k0_chk1 v40) := fun v40 => decidable_of_iff' _ (Iff.of_eq (k0_chk1.eq_1 v40))
theorem k0_idx1_inb : ∀ (v40 : IVec S16 32) (k0_hw1 : k0_chk1 v40), ∀ a x, ((![v40] : Fin 1 → IVec S16 32) a x).toNat < S4096.size a := fun v40 k0_hw1 => k0_hw1.1
theorem k0_idx2_inb : ∀ (v40 : IVec S16 32) (k0_hw1 : k0_chk1 v40), ∀ a x, ((![v40] : Fin 1 → IVec S16 32) a x).toNat < S4096.size a := fun v40 k0_hw1 => k0_hw1.2.1
theorem k0_idx3_inb : ∀ (v40 : IVec S16 32) (k0_hw1 : k0_chk1 v40), ∀ a x, ((![v40] : Fin 1 → IVec S16 32) a x).toNat < S4096.size a := fun v40 k0_hw1 => k0_hw1.2.2.1
theorem k0_idx4_inb : ∀ (v40 : IVec S16 32) (k0_hw1 : k0_chk1 v40), ∀ a x, ((![v40] : Fin 1 → IVec S16 32) a x).toNat < S4096.size a := fun v40 k0_hw1 => k0_hw1.2.2.2.1
theorem k0_idx5_inb : ∀ (v40 : IVec S16 32) (k0_hw1 : k0_chk1 v40), ∀ a x, ((![v40] : Fin 1 → IVec S16 32) a x).toNat < S4096.size a := fun v40 k0_hw1 => k0_hw1.2.2.2.2.1
theorem k0_idx6_inb : ∀ (v40 : IVec S16 32) (k0_hw1 : k0_chk1 v40), ∀ a x, ((![v40] : Fin 1 → IVec S16 32) a x).toNat < S4096.size a := fun v40 k0_hw1 => k0_hw1.2.2.2.2.2.1
theorem k0_idx7_inb : ∀ (v40 : IVec S16 32) (k0_hw1 : k0_chk1 v40), ∀ a x, ((![v40] : Fin 1 → IVec S16 32) a x).toNat < S4096.size a := fun v40 k0_hw1 => k0_hw1.2.2.2.2.2.2.1
theorem k0_idx8_inb : ∀ (v40 : IVec S16 32) (k0_hw1 : k0_chk1 v40), ∀ a x, ((![v40] : Fin 1 → IVec S16 32) a x).toNat < S4096.size a := fun v40 k0_hw1 => k0_hw1.2.2.2.2.2.2.2.1
theorem k0_idx9_inb : ∀ (v40 : IVec S16 32) (k0_hw1 : k0_chk1 v40), ∀ a x, ((![v40] : Fin 1 → IVec S16 32) a x).toNat < S4096.size a := fun v40 k0_hw1 => k0_hw1.2.2.2.2.2.2.2.2.1
theorem k0_idx10_inb : ∀ (v40 : IVec S16 32) (k0_hw1 : k0_chk1 v40), ∀ a x, ((![v40] : Fin 1 → IVec S16 32) a x).toNat < S4096.size a := fun v40 k0_hw1 => k0_hw1.2.2.2.2.2.2.2.2.2.1
theorem k0_idx11_inb : ∀ (v40 : IVec S16 32) (k0_hw1 : k0_chk1 v40), ∀ a x, ((![v40] : Fin 1 → IVec S16 32) a x).toNat < S4096.size a := fun v40 k0_hw1 => k0_hw1.2.2.2.2.2.2.2.2.2.2.1
theorem k0_idx12_inb : ∀ (v40 : IVec S16 32) (k0_hw1 : k0_chk1 v40), ∀ a x, ((![v40] : Fin 1 → IVec S16 32) a x).toNat < S4096.size a := fun v40 k0_hw1 => k0_hw1.2.2.2.2.2.2.2.2.2.2.2.1
theorem k0_idx13_inb : ∀ (v40 : IVec S16 32) (k0_hw1 : k0_chk1 v40), ∀ a x, ((![v40] : Fin 1 → IVec S16 32) a x).toNat < S4096.size a := fun v40 k0_hw1 => k0_hw1.2.2.2.2.2.2.2.2.2.2.2.2.1
theorem k0_idx14_inb : ∀ (v40 : IVec S16 32) (k0_hw1 : k0_chk1 v40), ∀ a x, ((![v40] : Fin 1 → IVec S16 32) a x).toNat < S4096.size a := fun v40 k0_hw1 => k0_hw1.2.2.2.2.2.2.2.2.2.2.2.2.2.1
theorem k0_idx15_inb : ∀ (v40 : IVec S16 32) (k0_hw1 : k0_chk1 v40), ∀ a x, ((![v40] : Fin 1 → IVec S16 32) a x).toNat < S4096.size a := fun v40 k0_hw1 => k0_hw1.2.2.2.2.2.2.2.2.2.2.2.2.2.2.1
theorem k0_idx16_inb : ∀ (v40 : IVec S16 32) (k0_hw1 : k0_chk1 v40), ∀ a x, ((![v40] : Fin 1 → IVec S16 32) a x).toNat < S4096.size a := fun v40 k0_hw1 => k0_hw1.2.2.2.2.2.2.2.2.2.2.2.2.2.2.2
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4_r2 : BitVec 32 := 0#32
  ![v1.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def k2_off1 (i : grid2.Coords) : Fin 2 → Nat :=
  let c0_1 : Index := 0#32
  let arg0 : BitVec 32 := BitVec.ofNat 32 (i 0).val
  let c256_i32 : BitVec 32 := 256#32
  let v2 : BitVec 32 := Scalar.muli arg0 c256_i32
  let v3 : Index := Scalar.indexCast v2
  ![0, v3.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S32x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![2, 16], ![false, false]⟩

def k3_off1 (i : grid3.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32 : BitVec 32 := 8#32
  let v2 : BitVec 32 := Scalar.muli v1 c8_i32
  let c0_i32_33_r0 : BitVec 32 := 0#32
  ![v2.toNat, 0]
@[reducible] def k3_t1_loop : Scf.Loop 32 :=
  let c0_i32_24 : BitVec 32 := 0#32
  let c8_i32_25 : BitVec 32 := 8#32
  let v68 : BitVec 32 := Scalar.addi c0_i32_24 c8_i32_25
  let c1_i32_26 : BitVec 32 := 1#32
  ⟨c0_i32_24, v68, c1_i32_26⟩
def k3_off2 (k3_t1 : Fin k3_t1_loop.trips) : Fin 1 → Nat :=
  let c0_i32_24 : BitVec 32 := 0#32
  let c1_i32_26 : BitVec 32 := 1#32
  let arg11 : BitVec 32 := Scf.iv c0_i32_24 c1_i32_26 k3_t1
  let c8192_i32 : BitVec 32 := 8192#32
  let v71 : BitVec 32 := Scalar.muli arg11 c8192_i32
  ![v71.toNat]
@[reducible] def k3_t2_loop : Scf.Loop 32 :=
  let c0_i32_35 : BitVec 32 := 0#32
  let c128_i32 : BitVec 32 := 128#32
  let v73 : BitVec 32 := Scalar.addi c0_i32_35 c128_i32
  let c1_i32_36 : BitVec 32 := 1#32
  ⟨c0_i32_35, v73, c1_i32_36⟩
def k3_off3 (k3_t2 : Fin k3_t2_loop.trips) (c0_i32_39 : BitVec 32) : Fin 1 → Nat :=
  let c0_i32_35 : BitVec 32 := 0#32
  let c1_i32_36 : BitVec 32 := 1#32
  let arg12 : BitVec 32 := Scf.iv c0_i32_35 c1_i32_36 k3_t2
  let c4_i32_38 : BitVec 32 := 4#32
  let v74 : BitVec 32 := Scalar.muli arg12 c4_i32_38
  let v75 : BitVec 32 := Scalar.addi v74 c0_i32_39
  let c16_i32_40 : BitVec 32 := 16#32
  let v76 : BitVec 32 := Scalar.muli v75 c16_i32_40
  let v77 : Index := Scalar.indexCast v76
  ![v77.toNat]

def k3_chk1 (v7 : IVec S16 32) (v11 : IVec S16 32) (v15 : IVec S16 32) (v19 : IVec S16 32) (v23 : IVec S16 32) (v27 : IVec S16 32) (v31 : IVec S16 32) (v35 : IVec S16 32) (v78 : IVec S16 32) : Prop :=
  (∀ a x, ((![v7, v78] : Fin 2 → IVec S16 32) a x).toNat < S8x4096.size a) ∧
  (∀ a x, ((![v11, v78] : Fin 2 → IVec S16 32) a x).toNat < S8x4096.size a) ∧
  (∀ a x, ((![v15, v78] : Fin 2 → IVec S16 32) a x).toNat < S8x4096.size a) ∧
  (∀ a x, ((![v19, v78] : Fin 2 → IVec S16 32) a x).toNat < S8x4096.size a) ∧
  (∀ a x, ((![v23, v78] : Fin 2 → IVec S16 32) a x).toNat < S8x4096.size a) ∧
  (∀ a x, ((![v27, v78] : Fin 2 → IVec S16 32) a x).toNat < S8x4096.size a) ∧
  (∀ a x, ((![v31, v78] : Fin 2 → IVec S16 32) a x).toNat < S8x4096.size a) ∧
  (∀ a x, ((![v35, v78] : Fin 2 → IVec S16 32) a x).toNat < S8x4096.size a)
instance k3_chk1.dec : ∀ (v7 : IVec S16 32) (v11 : IVec S16 32) (v15 : IVec S16 32) (v19 : IVec S16 32) (v23 : IVec S16 32) (v27 : IVec S16 32) (v31 : IVec S16 32) (v35 : IVec S16 32) (v78 : IVec S16 32), Decidable (k3_chk1 v7 v11 v15 v19 v23 v27 v31 v35 v78) := fun v7 v11 v15 v19 v23 v27 v31 v35 v78 => decidable_of_iff' _ (Iff.of_eq (k3_chk1.eq_1 v7 v11 v15 v19 v23 v27 v31 v35 v78))
theorem k3_idx1_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v7, v78] : Fin 2 → IVec S16 32) a x).toNat < S8x4096.size a := fun v7 v11 v15 v19 v23 v27 v31 v35 v78 k3_hw1 => k3_hw1.1
theorem k3_idx2_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v11, v78] : Fin 2 → IVec S16 32) a x).toNat < S8x4096.size a := fun v7 v11 v15 v19 v23 v27 v31 v35 v78 k3_hw1 => k3_hw1.2.1
theorem k3_idx3_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v15, v78] : Fin 2 → IVec S16 32) a x).toNat < S8x4096.size a := fun v7 v11 v15 v19 v23 v27 v31 v35 v78 k3_hw1 => k3_hw1.2.2.1
theorem k3_idx4_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v19, v78] : Fin 2 → IVec S16 32) a x).toNat < S8x4096.size a := fun v7 v11 v15 v19 v23 v27 v31 v35 v78 k3_hw1 => k3_hw1.2.2.2.1
theorem k3_idx5_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v23, v78] : Fin 2 → IVec S16 32) a x).toNat < S8x4096.size a := fun v7 v11 v15 v19 v23 v27 v31 v35 v78 k3_hw1 => k3_hw1.2.2.2.2.1
theorem k3_idx6_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v27, v78] : Fin 2 → IVec S16 32) a x).toNat < S8x4096.size a := fun v7 v11 v15 v19 v23 v27 v31 v35 v78 k3_hw1 => k3_hw1.2.2.2.2.2.1
theorem k3_idx7_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v31, v78] : Fin 2 → IVec S16 32) a x).toNat < S8x4096.size a := fun v7 v11 v15 v19 v23 v27 v31 v35 v78 k3_hw1 => k3_hw1.2.2.2.2.2.2.1
theorem k3_idx8_inb : ∀ (v7 : IVec S16 32) (v11 : IVec S16 32) (v15 : IVec S16 32) (v19 : IVec S16 32) (v23 : IVec S16 32) (v27 : IVec S16 32) (v31 : IVec S16 32) (v35 : IVec S16 32) (v78 : IVec S16 32) (k3_hw1 : k3_chk1 v7 v11 v15 v19 v23 v27 v31 v35 v78), ∀ a x, ((![v35, v78] : Fin 2 → IVec S16 32) a x).toNat < S8x4096.size a := fun v7 v11 v15 v19 v23 v27 v31 v35 v78 k3_hw1 => k3_hw1.2.2.2.2.2.2.2

def k3_chk2 (v7 : IVec S16 32) (v11 : IVec S16 32) (v15 : IVec S16 32) (v19 : IVec S16 32) (v23 : IVec S16 32) (v27 : IVec S16 32) (v31 : IVec S16 32) (v35 : IVec S16 32) (v88 : IVec S16 32) : Prop :=
  (∀ a x, ((![v7, v88] : Fin 2 → IVec S16 32) a x).toNat < S8x4096.size a) ∧
  (∀ a x, ((![v11, v88] : Fin 2 → IVec S16 32) a x).toNat < S8x4096.size a) ∧
  (∀ a x, ((![v15, v88] : Fin 2 → IVec S16 32) a x).toNat < S8x4096.size a) ∧
  (∀ a x, ((![v19, v88] : Fin 2 → IVec S16 32) a x).toNat < S8x4096.size a) ∧
  (∀ a x, ((![v23, v88] : Fin 2 → IVec S16 32) a x).toNat < S8x4096.size a) ∧
  (∀ a x, ((![v27, v88] : Fin 2 → IVec S16 32) a x).toNat < S8x4096.size a) ∧
  (∀ a x, ((![v31, v88] : Fin 2 → IVec S16 32) a x).toNat < S8x4096.size a) ∧
  (∀ a x, ((![v35, v88] : Fin 2 → IVec S16 32) a x).toNat < S8x4096.size a)
instance k3_chk2.dec : ∀ (v7 : IVec S16 32) (v11 : IVec S16 32) (v15 : IVec S16 32) (v19 : IVec S16 32) (v23 : IVec S16 32) (v27 : IVec S16 32) (v31 : IVec S16 32) (v35 : IVec S16 32) (v88 : IVec S16 32), Decidable (k3_chk2 v7 v11 v15 v19 v23 v27 v31 v35 v88) := fun v7 v11 v15 v19 v23 v27 v31 v35 v88 => decidable_of_iff' _ (Iff.of_eq (k3_chk2.eq_1 v7 v11 v15 v19 v23 v27 v31 v35 v88))
theorem k3_idx9_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v7, v88] : Fin 2 → IVec S16 32) a x).toNat < S8x4096.size a := fun v7 v11 v15 v19 v23 v27 v31 v35 v88 k3_hw2 => k3_hw2.1
theorem k3_idx10_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v11, v88] : Fin 2 → IVec S16 32) a x).toNat < S8x4096.size a := fun v7 v11 v15 v19 v23 v27 v31 v35 v88 k3_hw2 => k3_hw2.2.1
theorem k3_idx11_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v15, v88] : Fin 2 → IVec S16 32) a x).toNat < S8x4096.size a := fun v7 v11 v15 v19 v23 v27 v31 v35 v88 k3_hw2 => k3_hw2.2.2.1
theorem k3_idx12_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v19, v88] : Fin 2 → IVec S16 32) a x).toNat < S8x4096.size a := fun v7 v11 v15 v19 v23 v27 v31 v35 v88 k3_hw2 => k3_hw2.2.2.2.1
theorem k3_idx13_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v23, v88] : Fin 2 → IVec S16 32) a x).toNat < S8x4096.size a := fun v7 v11 v15 v19 v23 v27 v31 v35 v88 k3_hw2 => k3_hw2.2.2.2.2.1
theorem k3_idx14_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v27, v88] : Fin 2 → IVec S16 32) a x).toNat < S8x4096.size a := fun v7 v11 v15 v19 v23 v27 v31 v35 v88 k3_hw2 => k3_hw2.2.2.2.2.2.1
theorem k3_idx15_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v31, v88] : Fin 2 → IVec S16 32) a x).toNat < S8x4096.size a := fun v7 v11 v15 v19 v23 v27 v31 v35 v88 k3_hw2 => k3_hw2.2.2.2.2.2.2.1
theorem k3_idx16_inb : ∀ (v7 : IVec S16 32) (v11 : IVec S16 32) (v15 : IVec S16 32) (v19 : IVec S16 32) (v23 : IVec S16 32) (v27 : IVec S16 32) (v31 : IVec S16 32) (v35 : IVec S16 32) (v88 : IVec S16 32) (k3_hw2 : k3_chk2 v7 v11 v15 v19 v23 v27 v31 v35 v88), ∀ a x, ((![v35, v88] : Fin 2 → IVec S16 32) a x).toNat < S8x4096.size a := fun v7 v11 v15 v19 v23 v27 v31 v35 v88 k3_hw2 => k3_hw2.2.2.2.2.2.2.2

def k3_chk3 (v7 : IVec S16 32) (v11 : IVec S16 32) (v15 : IVec S16 32) (v19 : IVec S16 32) (v23 : IVec S16 32) (v27 : IVec S16 32) (v31 : IVec S16 32) (v35 : IVec S16 32) (v98 : IVec S16 32) : Prop :=
  (∀ a x, ((![v7, v98] : Fin 2 → IVec S16 32) a x).toNat < S8x4096.size a) ∧
  (∀ a x, ((![v11, v98] : Fin 2 → IVec S16 32) a x).toNat < S8x4096.size a) ∧
  (∀ a x, ((![v15, v98] : Fin 2 → IVec S16 32) a x).toNat < S8x4096.size a) ∧
  (∀ a x, ((![v19, v98] : Fin 2 → IVec S16 32) a x).toNat < S8x4096.size a) ∧
  (∀ a x, ((![v23, v98] : Fin 2 → IVec S16 32) a x).toNat < S8x4096.size a) ∧
  (∀ a x, ((![v27, v98] : Fin 2 → IVec S16 32) a x).toNat < S8x4096.size a) ∧
  (∀ a x, ((![v31, v98] : Fin 2 → IVec S16 32) a x).toNat < S8x4096.size a) ∧
  (∀ a x, ((![v35, v98] : Fin 2 → IVec S16 32) a x).toNat < S8x4096.size a)
instance k3_chk3.dec : ∀ (v7 : IVec S16 32) (v11 : IVec S16 32) (v15 : IVec S16 32) (v19 : IVec S16 32) (v23 : IVec S16 32) (v27 : IVec S16 32) (v31 : IVec S16 32) (v35 : IVec S16 32) (v98 : IVec S16 32), Decidable (k3_chk3 v7 v11 v15 v19 v23 v27 v31 v35 v98) := fun v7 v11 v15 v19 v23 v27 v31 v35 v98 => decidable_of_iff' _ (Iff.of_eq (k3_chk3.eq_1 v7 v11 v15 v19 v23 v27 v31 v35 v98))
theorem k3_idx17_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v7, v98] : Fin 2 → IVec S16 32) a x).toNat < S8x4096.size a := fun v7 v11 v15 v19 v23 v27 v31 v35 v98 k3_hw3 => k3_hw3.1
theorem k3_idx18_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v11, v98] : Fin 2 → IVec S16 32) a x).toNat < S8x4096.size a := fun v7 v11 v15 v19 v23 v27 v31 v35 v98 k3_hw3 => k3_hw3.2.1
theorem k3_idx19_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v15, v98] : Fin 2 → IVec S16 32) a x).toNat < S8x4096.size a := fun v7 v11 v15 v19 v23 v27 v31 v35 v98 k3_hw3 => k3_hw3.2.2.1
theorem k3_idx20_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v19, v98] : Fin 2 → IVec S16 32) a x).toNat < S8x4096.size a := fun v7 v11 v15 v19 v23 v27 v31 v35 v98 k3_hw3 => k3_hw3.2.2.2.1
theorem k3_idx21_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v23, v98] : Fin 2 → IVec S16 32) a x).toNat < S8x4096.size a := fun v7 v11 v15 v19 v23 v27 v31 v35 v98 k3_hw3 => k3_hw3.2.2.2.2.1
theorem k3_idx22_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v27, v98] : Fin 2 → IVec S16 32) a x).toNat < S8x4096.size a := fun v7 v11 v15 v19 v23 v27 v31 v35 v98 k3_hw3 => k3_hw3.2.2.2.2.2.1
theorem k3_idx23_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v31, v98] : Fin 2 → IVec S16 32) a x).toNat < S8x4096.size a := fun v7 v11 v15 v19 v23 v27 v31 v35 v98 k3_hw3 => k3_hw3.2.2.2.2.2.2.1
theorem k3_idx24_inb : ∀ (v7 : IVec S16 32) (v11 : IVec S16 32) (v15 : IVec S16 32) (v19 : IVec S16 32) (v23 : IVec S16 32) (v27 : IVec S16 32) (v31 : IVec S16 32) (v35 : IVec S16 32) (v98 : IVec S16 32) (k3_hw3 : k3_chk3 v7 v11 v15 v19 v23 v27 v31 v35 v98), ∀ a x, ((![v35, v98] : Fin 2 → IVec S16 32) a x).toNat < S8x4096.size a := fun v7 v11 v15 v19 v23 v27 v31 v35 v98 k3_hw3 => k3_hw3.2.2.2.2.2.2.2

def k3_chk4 (v7 : IVec S16 32) (v11 : IVec S16 32) (v15 : IVec S16 32) (v19 : IVec S16 32) (v23 : IVec S16 32) (v27 : IVec S16 32) (v31 : IVec S16 32) (v35 : IVec S16 32) (v108 : IVec S16 32) : Prop :=
  (∀ a x, ((![v7, v108] : Fin 2 → IVec S16 32) a x).toNat < S8x4096.size a) ∧
  (∀ a x, ((![v11, v108] : Fin 2 → IVec S16 32) a x).toNat < S8x4096.size a) ∧
  (∀ a x, ((![v15, v108] : Fin 2 → IVec S16 32) a x).toNat < S8x4096.size a) ∧
  (∀ a x, ((![v19, v108] : Fin 2 → IVec S16 32) a x).toNat < S8x4096.size a) ∧
  (∀ a x, ((![v23, v108] : Fin 2 → IVec S16 32) a x).toNat < S8x4096.size a) ∧
  (∀ a x, ((![v27, v108] : Fin 2 → IVec S16 32) a x).toNat < S8x4096.size a) ∧
  (∀ a x, ((![v31, v108] : Fin 2 → IVec S16 32) a x).toNat < S8x4096.size a) ∧
  (∀ a x, ((![v35, v108] : Fin 2 → IVec S16 32) a x).toNat < S8x4096.size a)
instance k3_chk4.dec : ∀ (v7 : IVec S16 32) (v11 : IVec S16 32) (v15 : IVec S16 32) (v19 : IVec S16 32) (v23 : IVec S16 32) (v27 : IVec S16 32) (v31 : IVec S16 32) (v35 : IVec S16 32) (v108 : IVec S16 32), Decidable (k3_chk4 v7 v11 v15 v19 v23 v27 v31 v35 v108) := fun v7 v11 v15 v19 v23 v27 v31 v35 v108 => decidable_of_iff' _ (Iff.of_eq (k3_chk4.eq_1 v7 v11 v15 v19 v23 v27 v31 v35 v108))
theorem k3_idx25_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v7, v108] : Fin 2 → IVec S16 32) a x).toNat < S8x4096.size a := fun v7 v11 v15 v19 v23 v27 v31 v35 v108 k3_hw4 => k3_hw4.1
theorem k3_idx26_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v11, v108] : Fin 2 → IVec S16 32) a x).toNat < S8x4096.size a := fun v7 v11 v15 v19 v23 v27 v31 v35 v108 k3_hw4 => k3_hw4.2.1
theorem k3_idx27_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v15, v108] : Fin 2 → IVec S16 32) a x).toNat < S8x4096.size a := fun v7 v11 v15 v19 v23 v27 v31 v35 v108 k3_hw4 => k3_hw4.2.2.1
theorem k3_idx28_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v19, v108] : Fin 2 → IVec S16 32) a x).toNat < S8x4096.size a := fun v7 v11 v15 v19 v23 v27 v31 v35 v108 k3_hw4 => k3_hw4.2.2.2.1
theorem k3_idx29_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v23, v108] : Fin 2 → IVec S16 32) a x).toNat < S8x4096.size a := fun v7 v11 v15 v19 v23 v27 v31 v35 v108 k3_hw4 => k3_hw4.2.2.2.2.1
theorem k3_idx30_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v27, v108] : Fin 2 → IVec S16 32) a x).toNat < S8x4096.size a := fun v7 v11 v15 v19 v23 v27 v31 v35 v108 k3_hw4 => k3_hw4.2.2.2.2.2.1
theorem k3_idx31_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v31, v108] : Fin 2 → IVec S16 32) a x).toNat < S8x4096.size a := fun v7 v11 v15 v19 v23 v27 v31 v35 v108 k3_hw4 => k3_hw4.2.2.2.2.2.2.1
theorem k3_idx32_inb : ∀ (v7 : IVec S16 32) (v11 : IVec S16 32) (v15 : IVec S16 32) (v19 : IVec S16 32) (v23 : IVec S16 32) (v27 : IVec S16 32) (v31 : IVec S16 32) (v35 : IVec S16 32) (v108 : IVec S16 32) (k3_hw4 : k3_chk4 v7 v11 v15 v19 v23 v27 v31 v35 v108), ∀ a x, ((![v35, v108] : Fin 2 → IVec S16 32) a x).toNat < S8x4096.size a := fun v7 v11 v15 v19 v23 v27 v31 v35 v108 k3_hw4 => k3_hw4.2.2.2.2.2.2.2

def k3_chk5 (v39 : IVec S16 32) (v43 : IVec S16 32) (v47 : IVec S16 32) (v51 : IVec S16 32) (v55 : IVec S16 32) (v59 : IVec S16 32) (v63 : IVec S16 32) (v67 : IVec S16 32) (v83 : IVec S16 32) : Prop :=
  (∀ a x, ((![v39, v83] : Fin 2 → IVec S16 32) a x).toNat < S16x4096.size a) ∧
  (∀ a x, ((![v43, v83] : Fin 2 → IVec S16 32) a x).toNat < S16x4096.size a) ∧
  (∀ a x, ((![v47, v83] : Fin 2 → IVec S16 32) a x).toNat < S16x4096.size a) ∧
  (∀ a x, ((![v51, v83] : Fin 2 → IVec S16 32) a x).toNat < S16x4096.size a) ∧
  (∀ a x, ((![v55, v83] : Fin 2 → IVec S16 32) a x).toNat < S16x4096.size a) ∧
  (∀ a x, ((![v59, v83] : Fin 2 → IVec S16 32) a x).toNat < S16x4096.size a) ∧
  (∀ a x, ((![v63, v83] : Fin 2 → IVec S16 32) a x).toNat < S16x4096.size a) ∧
  (∀ a x, ((![v67, v83] : Fin 2 → IVec S16 32) a x).toNat < S16x4096.size a)
instance k3_chk5.dec : ∀ (v39 : IVec S16 32) (v43 : IVec S16 32) (v47 : IVec S16 32) (v51 : IVec S16 32) (v55 : IVec S16 32) (v59 : IVec S16 32) (v63 : IVec S16 32) (v67 : IVec S16 32) (v83 : IVec S16 32), Decidable (k3_chk5 v39 v43 v47 v51 v55 v59 v63 v67 v83) := fun v39 v43 v47 v51 v55 v59 v63 v67 v83 => decidable_of_iff' _ (Iff.of_eq (k3_chk5.eq_1 v39 v43 v47 v51 v55 v59 v63 v67 v83))
theorem k3_idx33_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v39, v83] : Fin 2 → IVec S16 32) a x).toNat < S16x4096.size a := fun v39 v43 v47 v51 v55 v59 v63 v67 v83 k3_hw5 => k3_hw5.1
theorem k3_idx34_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v43, v83] : Fin 2 → IVec S16 32) a x).toNat < S16x4096.size a := fun v39 v43 v47 v51 v55 v59 v63 v67 v83 k3_hw5 => k3_hw5.2.1
theorem k3_idx35_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v47, v83] : Fin 2 → IVec S16 32) a x).toNat < S16x4096.size a := fun v39 v43 v47 v51 v55 v59 v63 v67 v83 k3_hw5 => k3_hw5.2.2.1
theorem k3_idx36_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v51, v83] : Fin 2 → IVec S16 32) a x).toNat < S16x4096.size a := fun v39 v43 v47 v51 v55 v59 v63 v67 v83 k3_hw5 => k3_hw5.2.2.2.1
theorem k3_idx37_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v55, v83] : Fin 2 → IVec S16 32) a x).toNat < S16x4096.size a := fun v39 v43 v47 v51 v55 v59 v63 v67 v83 k3_hw5 => k3_hw5.2.2.2.2.1
theorem k3_idx38_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v59, v83] : Fin 2 → IVec S16 32) a x).toNat < S16x4096.size a := fun v39 v43 v47 v51 v55 v59 v63 v67 v83 k3_hw5 => k3_hw5.2.2.2.2.2.1
theorem k3_idx39_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v63, v83] : Fin 2 → IVec S16 32) a x).toNat < S16x4096.size a := fun v39 v43 v47 v51 v55 v59 v63 v67 v83 k3_hw5 => k3_hw5.2.2.2.2.2.2.1
theorem k3_idx40_inb : ∀ (v39 : IVec S16 32) (v43 : IVec S16 32) (v47 : IVec S16 32) (v51 : IVec S16 32) (v55 : IVec S16 32) (v59 : IVec S16 32) (v63 : IVec S16 32) (v67 : IVec S16 32) (v83 : IVec S16 32) (k3_hw5 : k3_chk5 v39 v43 v47 v51 v55 v59 v63 v67 v83), ∀ a x, ((![v67, v83] : Fin 2 → IVec S16 32) a x).toNat < S16x4096.size a := fun v39 v43 v47 v51 v55 v59 v63 v67 v83 k3_hw5 => k3_hw5.2.2.2.2.2.2.2

def k3_chk6 (v39 : IVec S16 32) (v43 : IVec S16 32) (v47 : IVec S16 32) (v51 : IVec S16 32) (v55 : IVec S16 32) (v59 : IVec S16 32) (v63 : IVec S16 32) (v67 : IVec S16 32) (v93 : IVec S16 32) : Prop :=
  (∀ a x, ((![v39, v93] : Fin 2 → IVec S16 32) a x).toNat < S16x4096.size a) ∧
  (∀ a x, ((![v43, v93] : Fin 2 → IVec S16 32) a x).toNat < S16x4096.size a) ∧
  (∀ a x, ((![v47, v93] : Fin 2 → IVec S16 32) a x).toNat < S16x4096.size a) ∧
  (∀ a x, ((![v51, v93] : Fin 2 → IVec S16 32) a x).toNat < S16x4096.size a) ∧
  (∀ a x, ((![v55, v93] : Fin 2 → IVec S16 32) a x).toNat < S16x4096.size a) ∧
  (∀ a x, ((![v59, v93] : Fin 2 → IVec S16 32) a x).toNat < S16x4096.size a) ∧
  (∀ a x, ((![v63, v93] : Fin 2 → IVec S16 32) a x).toNat < S16x4096.size a) ∧
  (∀ a x, ((![v67, v93] : Fin 2 → IVec S16 32) a x).toNat < S16x4096.size a)
instance k3_chk6.dec : ∀ (v39 : IVec S16 32) (v43 : IVec S16 32) (v47 : IVec S16 32) (v51 : IVec S16 32) (v55 : IVec S16 32) (v59 : IVec S16 32) (v63 : IVec S16 32) (v67 : IVec S16 32) (v93 : IVec S16 32), Decidable (k3_chk6 v39 v43 v47 v51 v55 v59 v63 v67 v93) := fun v39 v43 v47 v51 v55 v59 v63 v67 v93 => decidable_of_iff' _ (Iff.of_eq (k3_chk6.eq_1 v39 v43 v47 v51 v55 v59 v63 v67 v93))
theorem k3_idx41_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v39, v93] : Fin 2 → IVec S16 32) a x).toNat < S16x4096.size a := fun v39 v43 v47 v51 v55 v59 v63 v67 v93 k3_hw6 => k3_hw6.1
theorem k3_idx42_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v43, v93] : Fin 2 → IVec S16 32) a x).toNat < S16x4096.size a := fun v39 v43 v47 v51 v55 v59 v63 v67 v93 k3_hw6 => k3_hw6.2.1
theorem k3_idx43_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v47, v93] : Fin 2 → IVec S16 32) a x).toNat < S16x4096.size a := fun v39 v43 v47 v51 v55 v59 v63 v67 v93 k3_hw6 => k3_hw6.2.2.1
theorem k3_idx44_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v51, v93] : Fin 2 → IVec S16 32) a x).toNat < S16x4096.size a := fun v39 v43 v47 v51 v55 v59 v63 v67 v93 k3_hw6 => k3_hw6.2.2.2.1
theorem k3_idx45_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v55, v93] : Fin 2 → IVec S16 32) a x).toNat < S16x4096.size a := fun v39 v43 v47 v51 v55 v59 v63 v67 v93 k3_hw6 => k3_hw6.2.2.2.2.1
theorem k3_idx46_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v59, v93] : Fin 2 → IVec S16 32) a x).toNat < S16x4096.size a := fun v39 v43 v47 v51 v55 v59 v63 v67 v93 k3_hw6 => k3_hw6.2.2.2.2.2.1
theorem k3_idx47_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v63, v93] : Fin 2 → IVec S16 32) a x).toNat < S16x4096.size a := fun v39 v43 v47 v51 v55 v59 v63 v67 v93 k3_hw6 => k3_hw6.2.2.2.2.2.2.1
theorem k3_idx48_inb : ∀ (v39 : IVec S16 32) (v43 : IVec S16 32) (v47 : IVec S16 32) (v51 : IVec S16 32) (v55 : IVec S16 32) (v59 : IVec S16 32) (v63 : IVec S16 32) (v67 : IVec S16 32) (v93 : IVec S16 32) (k3_hw6 : k3_chk6 v39 v43 v47 v51 v55 v59 v63 v67 v93), ∀ a x, ((![v67, v93] : Fin 2 → IVec S16 32) a x).toNat < S16x4096.size a := fun v39 v43 v47 v51 v55 v59 v63 v67 v93 k3_hw6 => k3_hw6.2.2.2.2.2.2.2

def k3_chk7 (v39 : IVec S16 32) (v43 : IVec S16 32) (v47 : IVec S16 32) (v51 : IVec S16 32) (v55 : IVec S16 32) (v59 : IVec S16 32) (v63 : IVec S16 32) (v67 : IVec S16 32) (v103 : IVec S16 32) : Prop :=
  (∀ a x, ((![v39, v103] : Fin 2 → IVec S16 32) a x).toNat < S16x4096.size a) ∧
  (∀ a x, ((![v43, v103] : Fin 2 → IVec S16 32) a x).toNat < S16x4096.size a) ∧
  (∀ a x, ((![v47, v103] : Fin 2 → IVec S16 32) a x).toNat < S16x4096.size a) ∧
  (∀ a x, ((![v51, v103] : Fin 2 → IVec S16 32) a x).toNat < S16x4096.size a) ∧
  (∀ a x, ((![v55, v103] : Fin 2 → IVec S16 32) a x).toNat < S16x4096.size a) ∧
  (∀ a x, ((![v59, v103] : Fin 2 → IVec S16 32) a x).toNat < S16x4096.size a) ∧
  (∀ a x, ((![v63, v103] : Fin 2 → IVec S16 32) a x).toNat < S16x4096.size a) ∧
  (∀ a x, ((![v67, v103] : Fin 2 → IVec S16 32) a x).toNat < S16x4096.size a)
instance k3_chk7.dec : ∀ (v39 : IVec S16 32) (v43 : IVec S16 32) (v47 : IVec S16 32) (v51 : IVec S16 32) (v55 : IVec S16 32) (v59 : IVec S16 32) (v63 : IVec S16 32) (v67 : IVec S16 32) (v103 : IVec S16 32), Decidable (k3_chk7 v39 v43 v47 v51 v55 v59 v63 v67 v103) := fun v39 v43 v47 v51 v55 v59 v63 v67 v103 => decidable_of_iff' _ (Iff.of_eq (k3_chk7.eq_1 v39 v43 v47 v51 v55 v59 v63 v67 v103))
theorem k3_idx49_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v39, v103] : Fin 2 → IVec S16 32) a x).toNat < S16x4096.size a := fun v39 v43 v47 v51 v55 v59 v63 v67 v103 k3_hw7 => k3_hw7.1
theorem k3_idx50_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v43, v103] : Fin 2 → IVec S16 32) a x).toNat < S16x4096.size a := fun v39 v43 v47 v51 v55 v59 v63 v67 v103 k3_hw7 => k3_hw7.2.1
theorem k3_idx51_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v47, v103] : Fin 2 → IVec S16 32) a x).toNat < S16x4096.size a := fun v39 v43 v47 v51 v55 v59 v63 v67 v103 k3_hw7 => k3_hw7.2.2.1
theorem k3_idx52_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v51, v103] : Fin 2 → IVec S16 32) a x).toNat < S16x4096.size a := fun v39 v43 v47 v51 v55 v59 v63 v67 v103 k3_hw7 => k3_hw7.2.2.2.1
theorem k3_idx53_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v55, v103] : Fin 2 → IVec S16 32) a x).toNat < S16x4096.size a := fun v39 v43 v47 v51 v55 v59 v63 v67 v103 k3_hw7 => k3_hw7.2.2.2.2.1
theorem k3_idx54_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v59, v103] : Fin 2 → IVec S16 32) a x).toNat < S16x4096.size a := fun v39 v43 v47 v51 v55 v59 v63 v67 v103 k3_hw7 => k3_hw7.2.2.2.2.2.1
theorem k3_idx55_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v63, v103] : Fin 2 → IVec S16 32) a x).toNat < S16x4096.size a := fun v39 v43 v47 v51 v55 v59 v63 v67 v103 k3_hw7 => k3_hw7.2.2.2.2.2.2.1
theorem k3_idx56_inb : ∀ (v39 : IVec S16 32) (v43 : IVec S16 32) (v47 : IVec S16 32) (v51 : IVec S16 32) (v55 : IVec S16 32) (v59 : IVec S16 32) (v63 : IVec S16 32) (v67 : IVec S16 32) (v103 : IVec S16 32) (k3_hw7 : k3_chk7 v39 v43 v47 v51 v55 v59 v63 v67 v103), ∀ a x, ((![v67, v103] : Fin 2 → IVec S16 32) a x).toNat < S16x4096.size a := fun v39 v43 v47 v51 v55 v59 v63 v67 v103 k3_hw7 => k3_hw7.2.2.2.2.2.2.2

def k3_chk8 (v39 : IVec S16 32) (v43 : IVec S16 32) (v47 : IVec S16 32) (v51 : IVec S16 32) (v55 : IVec S16 32) (v59 : IVec S16 32) (v63 : IVec S16 32) (v67 : IVec S16 32) (v113 : IVec S16 32) : Prop :=
  (∀ a x, ((![v39, v113] : Fin 2 → IVec S16 32) a x).toNat < S16x4096.size a) ∧
  (∀ a x, ((![v43, v113] : Fin 2 → IVec S16 32) a x).toNat < S16x4096.size a) ∧
  (∀ a x, ((![v47, v113] : Fin 2 → IVec S16 32) a x).toNat < S16x4096.size a) ∧
  (∀ a x, ((![v51, v113] : Fin 2 → IVec S16 32) a x).toNat < S16x4096.size a) ∧
  (∀ a x, ((![v55, v113] : Fin 2 → IVec S16 32) a x).toNat < S16x4096.size a) ∧
  (∀ a x, ((![v59, v113] : Fin 2 → IVec S16 32) a x).toNat < S16x4096.size a) ∧
  (∀ a x, ((![v63, v113] : Fin 2 → IVec S16 32) a x).toNat < S16x4096.size a) ∧
  (∀ a x, ((![v67, v113] : Fin 2 → IVec S16 32) a x).toNat < S16x4096.size a)
instance k3_chk8.dec : ∀ (v39 : IVec S16 32) (v43 : IVec S16 32) (v47 : IVec S16 32) (v51 : IVec S16 32) (v55 : IVec S16 32) (v59 : IVec S16 32) (v63 : IVec S16 32) (v67 : IVec S16 32) (v113 : IVec S16 32), Decidable (k3_chk8 v39 v43 v47 v51 v55 v59 v63 v67 v113) := fun v39 v43 v47 v51 v55 v59 v63 v67 v113 => decidable_of_iff' _ (Iff.of_eq (k3_chk8.eq_1 v39 v43 v47 v51 v55 v59 v63 v67 v113))
theorem k3_idx57_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v39, v113] : Fin 2 → IVec S16 32) a x).toNat < S16x4096.size a := fun v39 v43 v47 v51 v55 v59 v63 v67 v113 k3_hw8 => k3_hw8.1
theorem k3_idx58_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v43, v113] : Fin 2 → IVec S16 32) a x).toNat < S16x4096.size a := fun v39 v43 v47 v51 v55 v59 v63 v67 v113 k3_hw8 => k3_hw8.2.1
theorem k3_idx59_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v47, v113] : Fin 2 → IVec S16 32) a x).toNat < S16x4096.size a := fun v39 v43 v47 v51 v55 v59 v63 v67 v113 k3_hw8 => k3_hw8.2.2.1
theorem k3_idx60_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v51, v113] : Fin 2 → IVec S16 32) a x).toNat < S16x4096.size a := fun v39 v43 v47 v51 v55 v59 v63 v67 v113 k3_hw8 => k3_hw8.2.2.2.1
theorem k3_idx61_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v55, v113] : Fin 2 → IVec S16 32) a x).toNat < S16x4096.size a := fun v39 v43 v47 v51 v55 v59 v63 v67 v113 k3_hw8 => k3_hw8.2.2.2.2.1
theorem k3_idx62_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v59, v113] : Fin 2 → IVec S16 32) a x).toNat < S16x4096.size a := fun v39 v43 v47 v51 v55 v59 v63 v67 v113 k3_hw8 => k3_hw8.2.2.2.2.2.1
theorem k3_idx63_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v63, v113] : Fin 2 → IVec S16 32) a x).toNat < S16x4096.size a := fun v39 v43 v47 v51 v55 v59 v63 v67 v113 k3_hw8 => k3_hw8.2.2.2.2.2.2.1
theorem k3_idx64_inb : ∀ (v39 : IVec S16 32) (v43 : IVec S16 32) (v47 : IVec S16 32) (v51 : IVec S16 32) (v55 : IVec S16 32) (v59 : IVec S16 32) (v63 : IVec S16 32) (v67 : IVec S16 32) (v113 : IVec S16 32) (k3_hw8 : k3_chk8 v39 v43 v47 v51 v55 v59 v63 v67 v113), ∀ a x, ((![v67, v113] : Fin 2 → IVec S16 32) a x).toNat < S16x4096.size a := fun v39 v43 v47 v51 v55 v59 v63 v67 v113 k3_hw8 => k3_hw8.2.2.2.2.2.2.2
@[reducible] def k3_t3_loop : Scf.Loop 32 :=
  let c0_i32_29 : BitVec 32 := 0#32
  let c256_i32 : BitVec 32 := 256#32
  let v69 : BitVec 32 := Scalar.addi c0_i32_29 c256_i32
  let c1_i32_30 : BitVec 32 := 1#32
  ⟨c0_i32_29, v69, c1_i32_30⟩
def k3_off4 (k3_t3 : Fin k3_t3_loop.trips) : Fin 2 → Nat :=
  let c0_i32_34 : BitVec 32 := 0#32
  let v72 : Index := Scalar.indexCast c0_i32_34
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v73 : Index := Scalar.indexCast v71
  ![0, v73.toNat]
def k3_off5 (k3_t3 : Fin k3_t3_loop.trips) : Fin 2 → Nat :=
  let c8_i32_35 : BitVec 32 := 8#32
  let v75 : Index := Scalar.indexCast c8_i32_35
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v76 : Index := Scalar.indexCast v71
  ![8, v76.toNat]
def k3_off6 (k3_t3 : Fin k3_t3_loop.trips) : Fin 2 → Nat :=
  let c1_i32_37 : BitVec 32 := 1#32
  let v82 : Index := Scalar.indexCast c1_i32_37
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v83 : Index := Scalar.indexCast v71
  ![1, v83.toNat]
def k3_off7 (k3_t3 : Fin k3_t3_loop.trips) : Fin 2 → Nat :=
  let c9_i32 : BitVec 32 := 9#32
  let v85 : Index := Scalar.indexCast c9_i32
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v86 : Index := Scalar.indexCast v71
  ![9, v86.toNat]
def k3_off8 (k3_t3 : Fin k3_t3_loop.trips) : Fin 2 → Nat :=
  let c2_i32_39 : BitVec 32 := 2#32
  let v92 : Index := Scalar.indexCast c2_i32_39
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v93 : Index := Scalar.indexCast v71
  ![2, v93.toNat]
def k3_off9 (k3_t3 : Fin k3_t3_loop.trips) : Fin 2 → Nat :=
  let c10_i32 : BitVec 32 := 10#32
  let v95 : Index := Scalar.indexCast c10_i32
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v96 : Index := Scalar.indexCast v71
  ![10, v96.toNat]
def k3_off10 (k3_t3 : Fin k3_t3_loop.trips) : Fin 2 → Nat :=
  let c3_i32_41 : BitVec 32 := 3#32
  let v102 : Index := Scalar.indexCast c3_i32_41
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v103 : Index := Scalar.indexCast v71
  ![3, v103.toNat]
def k3_off11 (k3_t3 : Fin k3_t3_loop.trips) : Fin 2 → Nat :=
  let c11_i32 : BitVec 32 := 11#32
  let v105 : Index := Scalar.indexCast c11_i32
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v106 : Index := Scalar.indexCast v71
  ![11, v106.toNat]
def k3_off12 (k3_t3 : Fin k3_t3_loop.trips) : Fin 2 → Nat :=
  let c4_i32_43 : BitVec 32 := 4#32
  let v112 : Index := Scalar.indexCast c4_i32_43
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v113 : Index := Scalar.indexCast v71
  ![4, v113.toNat]
def k3_off13 (k3_t3 : Fin k3_t3_loop.trips) : Fin 2 → Nat :=
  let c12_i32 : BitVec 32 := 12#32
  let v115 : Index := Scalar.indexCast c12_i32
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v116 : Index := Scalar.indexCast v71
  ![12, v116.toNat]
def k3_off14 (k3_t3 : Fin k3_t3_loop.trips) : Fin 2 → Nat :=
  let c5_i32_45 : BitVec 32 := 5#32
  let v122 : Index := Scalar.indexCast c5_i32_45
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v123 : Index := Scalar.indexCast v71
  ![5, v123.toNat]
def k3_off15 (k3_t3 : Fin k3_t3_loop.trips) : Fin 2 → Nat :=
  let c13_i32 : BitVec 32 := 13#32
  let v125 : Index := Scalar.indexCast c13_i32
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v126 : Index := Scalar.indexCast v71
  ![13, v126.toNat]
def k3_off16 (k3_t3 : Fin k3_t3_loop.trips) : Fin 2 → Nat :=
  let c6_i32_47 : BitVec 32 := 6#32
  let v132 : Index := Scalar.indexCast c6_i32_47
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v133 : Index := Scalar.indexCast v71
  ![6, v133.toNat]
def k3_off17 (k3_t3 : Fin k3_t3_loop.trips) : Fin 2 → Nat :=
  let c14_i32 : BitVec 32 := 14#32
  let v135 : Index := Scalar.indexCast c14_i32
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v136 : Index := Scalar.indexCast v71
  ![14, v136.toNat]
def k3_off18 (k3_t3 : Fin k3_t3_loop.trips) : Fin 2 → Nat :=
  let c7_i32_49 : BitVec 32 := 7#32
  let v142 : Index := Scalar.indexCast c7_i32_49
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v143 : Index := Scalar.indexCast v71
  ![7, v143.toNat]
def k3_off19 (k3_t3 : Fin k3_t3_loop.trips) : Fin 2 → Nat :=
  let c15_i32_50 : BitVec 32 := 15#32
  let v145 : Index := Scalar.indexCast c15_i32_50
  let c0_i32_29 : BitVec 32 := 0#32
  let c1_i32_30 : BitVec 32 := 1#32
  let arg11 : BitVec 32 := Scf.iv c0_i32_29 c1_i32_30 k3_t3
  let c16_i32_33 : BitVec 32 := 16#32
  let v71 : BitVec 32 := Scalar.muli arg11 c16_i32_33
  let v146 : Index := Scalar.indexCast v71
  ![15, v146.toNat]
def k3_off20 (i : grid3.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c8_i32_32 : BitVec 32 := 8#32
  let v70 : BitVec 32 := Scalar.muli v1 c8_i32_32
  let c0_i32_35_r4 : BitVec 32 := 0#32
  ![v70.toNat, 0]
abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S32x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S4096x2x128_S4096x256 : S4096x2x128.ShapeCasts S4096x256
  transposes_S4096x256_S256x4096_1_0 : S4096x256.Transposes [1, 0] S256x4096
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S2x2 : S_.BroadcastsInDim S2x2 (![] : Fin 0 → Fin S2x2.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bcast_S2x2_S2x1x2x1_0_2 : S2x2.BroadcastsInDim S2x1x2x1 (![0, 2] : Fin 2 → Fin S2x1x2x1.rank)
  bcast_S128x128_S1x128x1x128_1_3 : S128x128.BroadcastsInDim S1x128x1x128 (![1, 3] : Fin 2 → Fin S1x128x1x128.rank)
  bcast_S2x1x2x1_S2x128x2x128_0_1_2_3 : S2x1x2x1.BroadcastsInDim S2x128x2x128 (![0, 1, 2, 3] : Fin 4 → Fin S2x128x2x128.rank)
  bcast_S1x128x1x128_S2x128x2x128_0_1_2_3 : S1x128x1x128.BroadcastsInDim S2x128x2x128 (![0, 1, 2, 3] : Fin 4 → Fin S2x128x2x128.rank)
  shapeCasts_S2x128x2x128_S256x256 : S2x128x2x128.ShapeCasts S256x256
  slices_S3x128x128_S1x128x128_1_0_0 : S3x128x128.Slices ![1, 0, 0] S1x128x128
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128_S1x128_1_0 : S3x128.Slices ![1, 0] S1x128
  shapeCasts_S128_S1x128 : S128.ShapeCasts S1x128
  bcast_S1x128_S2x128_0_1 : S1x128.BroadcastsInDim S2x128 (![0, 1] : Fin 2 → Fin S2x128.rank)
  shapeCasts_S2x128_S256 : S2x128.ShapeCasts S256
  shapeCasts_S256_S1x256 : S256.ShapeCasts S1x256
  bcast_S_S4096 : S_.BroadcastsInDim S4096 (![] : Fin 0 → Fin S4096.rank)
  bcast_S_S16x4096 : S_.BroadcastsInDim S16x4096 (![] : Fin 0 → Fin S16x4096.rank)
  iota_S16_d0_w32_scVector : S16.Iotas .scVector 32 [0]
  h_S16 : 0 < S16.numel
  h_S4096 : 0 < S4096.numel
  squeezes_S1x4096_S4096 : S1x4096.Squeezes S4096
  slices_S2x4096x4096_S1x4096x4096_0_0_0 : S2x4096x4096.Slices ![0, 0, 0] S1x4096x4096
  shapeCasts_S1x4096x4096_S4096x4096 : S1x4096x4096.ShapeCasts S4096x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x256_S256x256_0_0 : ∀ a, (![0, 0] : Fin 2 → Nat) a + S256x256.size a ≤ S256x256.size a
  h_S256x256 : 0 < S256x256.numel
  slices_S2x4096x4096_S1x4096x4096_1_0_0 : S2x4096x4096.Slices ![1, 0, 0] S1x4096x4096
  shapeCasts_S256x256_S256x256 : S256x256.ShapeCasts S256x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  reduces_S32x256_S256 : S32x256.Reduces [0] S256
  iota_S256x256_d0_w32 : S256x256.Iotas .tc 32 [0]
  iota_S256x256_d1_w32 : S256x256.Iotas .tc 32 [1]
  shapeCasts_S1x256_S1x256 : S1x256.ShapeCasts S1x256
  broadcasts_S1x256_S256x256 : S1x256.Broadcasts S256x256
  h_S8x4096 : 0 < S8x4096.numel
  h_S16x4096 : 0 < S16x4096.numel
  h_S1x16 : 0 < S1x16.numel
  shapeCasts_S1x16_S16 : S1x16.ShapeCasts S16
  shapeCasts_S16_S1x16 : S16.ShapeCasts S1x16
  inb_S16x4096_S8x4096_0_0 : ∀ a, (![0, 0] : Fin 2 → Nat) a + S8x4096.size a ≤ S16x4096.size a
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S4096x256_S4096x2x128 : S4096x256.ShapeCasts S4096x2x128
  dot_S256x4096_S256x4096_S256x256_1_1_0_0_n_n_wf : DotDims.WF S256x4096 S256x4096 S256x256 [1] [1] [0] [0] [] []
  dot_S256x256_S256x256_S256x256_1_0_0_1_n_n_wf : DotDims.WF S256x256 S256x256 S256x256 [1] [0] [0] [1] [] []
  hcc0_scoped0 : 0 + S_.numel ≤ 33
  hcc0_scoped1 : 1 + S_.numel ≤ 33
  hcc0_scoped2 : 2 + S_.numel ≤ 33
  hcc3_scoped0 : 19 + S_.numel ≤ 33
  hcc3_scoped1 : 20 + S_.numel ≤ 33
  hcc3_scoped2 : 21 + S_.numel ≤ 33
  hcc3_scoped3 : 22 + S_.numel ≤ 33
  hcc3_scoped4 : 23 + S_.numel ≤ 33
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S2048.size a ≤ S65536.size a
  k0_t1_ok : k0_t1_loop.OK
  k0_off2_inb : ∀ k0_t1 : Fin k0_t1_loop.trips, ∀ a, (k0_off2 k0_t1) a + S16.size a ≤ S2048.size a
  k0_off3_inb : ∀ i : grid0.Coords, ∀ a, (k0_off3 i) a + S1x4096.size a ≤ S32x4096.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x4096.size a
  hwx1_0 : ∀ i : grid1.Coords, EltTy.bits .f32 = 32 ∨ (Rect.block (s := S256x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x4096.size a
  hwx1_2 : ∀ i : grid1.Coords, EltTy.bits .f32 = 32 ∨ (Rect.block (s := S256x4096) S256x256.size (cc1_transform_2 i) (hinb1_2 i)).WholeWords (EltTy.packing .f32)
  hrank2 : 0 < grid2.rank
  k2_off1_inb : ∀ i : grid2.Coords, ∀ a, (k2_off1 i) a + S256x256.size a ≤ S256x4096.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S256x4096.size a
  hwx2_1 : ∀ i : grid2.Coords, EltTy.bits .f32 = 32 ∨ (Rect.block (s := S256x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x4096.size a
  hwx2_2 : ∀ i : grid2.Coords, EltTy.bits .f32 = 32 ∨ (Rect.block (s := S256x4096) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x256.size a ≤ S32x4096.size a
  hwx2_3 : ∀ i : grid2.Coords, EltTy.bits .f32 = 32 ∨ (Rect.block (s := S32x4096) S32x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x4096.size a
  hwx2_6 : ∀ i : grid2.Coords, EltTy.bits .f32 = 32 ∨ (Rect.block (s := S256x4096) S256x256.size (cc2_transform_6 i) (hinb2_6 i)).WholeWords (EltTy.packing .f32)
  hcore3 : grid3.bound 0 ≤ τ.nSC
  hsub3 : grid3.bound 1 ≤ τ.nSub
  k3_off1_inb : ∀ i : grid3.Coords, ∀ a, (k3_off1 i) a + S8x4096.size a ≤ S256x4096.size a
  k3_t1_ok : k3_t1_loop.OK
  k3_off2_inb : ∀ k3_t1 : Fin k3_t1_loop.trips, ∀ a, (k3_off2 k3_t1) a + S8192.size a ≤ S65536.size a
  k3_t2_ok : k3_t2_loop.OK
  k3_off3_inb : ∀ k3_t2 : Fin k3_t2_loop.trips, ∀ (r : Fin 4), ∀ a, (k3_off3 k3_t2 (BitVec.ofNat 32 r.val)) a + S16.size a ≤ S8192.size a
  k3_t3_ok : k3_t3_loop.OK
  k3_off4_inb : ∀ k3_t3 : Fin k3_t3_loop.trips, ∀ a, (k3_off4 k3_t3) a + S1x16.size a ≤ S16x4096.size a
  k3_off5_inb : ∀ k3_t3 : Fin k3_t3_loop.trips, ∀ a, (k3_off5 k3_t3) a + S1x16.size a ≤ S16x4096.size a
  k3_off6_inb : ∀ k3_t3 : Fin k3_t3_loop.trips, ∀ a, (k3_off6 k3_t3) a + S1x16.size a ≤ S16x4096.size a
  k3_off7_inb : ∀ k3_t3 : Fin k3_t3_loop.trips, ∀ a, (k3_off7 k3_t3) a + S1x16.size a ≤ S16x4096.size a
  k3_off8_inb : ∀ k3_t3 : Fin k3_t3_loop.trips, ∀ a, (k3_off8 k3_t3) a + S1x16.size a ≤ S16x4096.size a
  k3_off9_inb : ∀ k3_t3 : Fin k3_t3_loop.trips, ∀ a, (k3_off9 k3_t3) a + S1x16.size a ≤ S16x4096.size a
  k3_off10_inb : ∀ k3_t3 : Fin k3_t3_loop.trips, ∀ a, (k3_off10 k3_t3) a + S1x16.size a ≤ S16x4096.size a
  k3_off11_inb : ∀ k3_t3 : Fin k3_t3_loop.trips, ∀ a, (k3_off11 k3_t3) a + S1x16.size a ≤ S16x4096.size a
  k3_off12_inb : ∀ k3_t3 : Fin k3_t3_loop.trips, ∀ a, (k3_off12 k3_t3) a + S1x16.size a ≤ S16x4096.size a
  k3_off13_inb : ∀ k3_t3 : Fin k3_t3_loop.trips, ∀ a, (k3_off13 k3_t3) a + S1x16.size a ≤ S16x4096.size a
  k3_off14_inb : ∀ k3_t3 : Fin k3_t3_loop.trips, ∀ a, (k3_off14 k3_t3) a + S1x16.size a ≤ S16x4096.size a
  k3_off15_inb : ∀ k3_t3 : Fin k3_t3_loop.trips, ∀ a, (k3_off15 k3_t3) a + S1x16.size a ≤ S16x4096.size a
  k3_off16_inb : ∀ k3_t3 : Fin k3_t3_loop.trips, ∀ a, (k3_off16 k3_t3) a + S1x16.size a ≤ S16x4096.size a
  k3_off17_inb : ∀ k3_t3 : Fin k3_t3_loop.trips, ∀ a, (k3_off17 k3_t3) a + S1x16.size a ≤ S16x4096.size a
  k3_off18_inb : ∀ k3_t3 : Fin k3_t3_loop.trips, ∀ a, (k3_off18 k3_t3) a + S1x16.size a ≤ S16x4096.size a
  k3_off19_inb : ∀ k3_t3 : Fin k3_t3_loop.trips, ∀ a, (k3_off19 k3_t3) a + S1x16.size a ≤ S16x4096.size a
  k3_off20_inb : ∀ i : grid3.Coords, ∀ a, (k3_off20 i) a + S8x4096.size a ≤ S256x4096.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x256.size a ≤ S256x4096.size a
  hwx4_0 : ∀ i : grid4.Coords, EltTy.bits .f32 = 32 ∨ (Rect.block (s := S256x4096) S256x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x4096.size a
  hwx4_1 : ∀ i : grid4.Coords, EltTy.bits .f32 = 32 ∨ (Rect.block (s := S256x4096) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S32x256.size a ≤ S32x4096.size a
  hwx4_2 : ∀ i : grid4.Coords, EltTy.bits .f32 = 32 ∨ (Rect.block (s := S32x4096) S32x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S4096x256.size a
  hwx4_4 : ∀ i : grid4.Coords, EltTy.bits .f32 = 32 ∨ (Rect.block (s := S4096x256) S256x256.size (cc4_transform_4 i) (hinb4_4 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc3_scoped0 : DmaSems sig S_ := SemArray.consecutive 19 S_ hcc3_scoped0
abbrev cc3_scoped1 : DmaSems sig S_ := SemArray.consecutive 20 S_ hcc3_scoped1
abbrev cc3_scoped2 : DmaSems sig S_ := SemArray.consecutive 21 S_ hcc3_scoped2
abbrev cc3_scoped3 : DmaSems sig S_ := SemArray.consecutive 22 S_ hcc3_scoped3
abbrev cc3_scoped4 : DmaSems sig S_ := SemArray.consecutive 23 S_ hcc3_scoped4
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win1_0 : Pipeline.Window sig grid1 :=
  Pipeline.Window.ofSpec (Memref.whole main_v1) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v35) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S256x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S256x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S32x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S256x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win4_0 : Pipeline.Window sig grid4 :=
  Pipeline.Window.ofSpec (Memref.whole main_v40) S256x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v39) S256x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S32x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v41) S256x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S4096x2x128 : Shape := ⟨3, ![4096, 2, 128]⟩
abbrev S2x65536 : Shape := ⟨2, ![2, 65536]⟩
abbrev S2x4096x4096 : Shape := ⟨3, ![2, 4096, 4096]⟩
abbrev S3x128x128 : Shape := ⟨3, ![3, 128, 128]⟩
abbrev S3x128 : Shape := ⟨2, ![3, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x65536 : Shape := ⟨2, ![1, 65536]⟩
abbrev S65536 : Shape := ⟨1, ![65536]⟩
abbrev S4096 : Shape := ⟨1, ![4096]⟩
abbrev S69632 : Shape := ⟨1, ![69632]⟩
abbrev S_ : Shape := ⟨0, ![]⟩
abbrev S69632x1 : Shape := ⟨2, ![69632, 1]⟩
abbrev S1 : Shape := ⟨1, ![1]⟩
abbrev S1x1 : Shape := ⟨2, ![1, 1]⟩
abbrev S69632x2x128 : Shape := ⟨3, ![69632, 2, 128]⟩
abbrev S69632x1x1 : Shape := ⟨3, ![69632, 1, 1]⟩
abbrev S1x1x128 : Shape := ⟨3, ![1, 1, 128]⟩
abbrev S1x4096x4096 : Shape := ⟨3, ![1, 4096, 4096]⟩
abbrev S4096x4096 : Shape := ⟨2, ![4096, 4096]⟩

abbrev nBuf : Space → Nat
  | .hbm => 259
  | .vmem => 0
  | .smem => 0
  | _ => 0

abbrev hbmTy0_0 (i : Nat) : BufTy := match i % 128 with
  | 0 => ⟨S4096x2x128, .f32⟩
  | 1 => ⟨S2x65536, .i32⟩
  | 2 => ⟨S2x4096x4096, .f32⟩
  | 3 => ⟨S3x128x128, .f32⟩
  | 4 => ⟨S3x128, .f32⟩
  | 5 => ⟨S1x128x128, .f32⟩
  | 6 => ⟨S128x128, .f32⟩
  | 7 => ⟨S1x128, .f32⟩
  | 8 => ⟨S128, .f32⟩
  | 9 => ⟨S1x65536, .i32⟩
  | 10 => ⟨S65536, .i32⟩
  | 11 => ⟨S4096, .i32⟩
  | 12 => ⟨S69632, .i32⟩
  | 13 => ⟨S1x65536, .i32⟩
  | 14 => ⟨S65536, .i32⟩
  | 15 => ⟨S4096, .i32⟩
  | 16 => ⟨S69632, .i32⟩
  | 17 => ⟨S_, .f32⟩
  | 18 => ⟨S69632, .f32⟩
  | 19 => ⟨S_, .f32⟩
  | 20 => ⟨S4096, .f32⟩
  | 21 => ⟨S69632x1, .i32⟩
  | 22 => ⟨S4096, .f32⟩
  | 23 => ⟨S_, .f32⟩
  | 24 => ⟨S4096, .f32⟩
  | 25 => ⟨S4096, .i1⟩
  | 26 => ⟨S_, .f32⟩
  | 27 => ⟨S4096, .f32⟩
  | 28 => ⟨S4096, .f32⟩
  | 29 => ⟨S4096, .f32⟩
  | 30 => ⟨S_, .f32⟩
  | 31 => ⟨S_, .f32⟩
  | 32 => ⟨S4096, .f32⟩
  | 33 => ⟨S4096, .f32⟩
  | 34 => ⟨S_, .i32⟩
  | 35 => ⟨S69632, .i32⟩
  | 36 => ⟨S69632, .i1⟩
  | 37 => ⟨S_, .i32⟩
  | 38 => ⟨S69632, .i32⟩
  | 39 => ⟨S69632, .i32⟩
  | 40 => ⟨S69632, .i32⟩
  | 41 => ⟨S69632x1, .i32⟩
  | 42 => ⟨S69632, .f32⟩
  | 43 => ⟨S_, .i32⟩
  | 44 => ⟨S69632, .i32⟩
  | 45 => ⟨S69632, .i1⟩
  | 46 => ⟨S_, .i32⟩
  | 47 => ⟨S69632, .i32⟩
  | 48 => ⟨S69632, .i32⟩
  | 49 => ⟨S69632, .i32⟩
  | 50 => ⟨S69632x1, .i32⟩
  | 51 => ⟨S69632, .f32⟩
  | 52 => ⟨S69632, .f32⟩
  | 53 => ⟨S4096x2x128, .f32⟩
  | 54 => ⟨S_, .i32⟩
  | 55 => ⟨S69632, .i32⟩
  | 56 => ⟨S69632, .i1⟩
  | 57 => ⟨S_, .i32⟩
  | 58 => ⟨S69632, .i32⟩
  | 59 => ⟨S69632, .i32⟩
  | 60 => ⟨S69632, .i32⟩
  | 61 => ⟨S69632x1, .i32⟩
  | 62 => ⟨S1, .i32⟩
  | 63 => ⟨S_, .i32⟩
  | 64 => ⟨S69632x1, .i32⟩
  | 65 => ⟨S69632x1, .i1⟩
  | 66 => ⟨S1x1, .i32⟩
  | 67 => ⟨S69632x1, .i32⟩
  | 68 => ⟨S69632x1, .i1⟩
  | 69 => ⟨S69632x1, .i1⟩
  | 70 => ⟨S_, .i1⟩
  | 71 => ⟨S69632, .i1⟩
  | 72 => ⟨S69632x2x128, .f32⟩
  | 73 => ⟨S69632x2x128, .i1⟩
  | 74 => ⟨S_, .f32⟩
  | 75 => ⟨S69632x2x128, .f32⟩
  | 76 => ⟨S69632x2x128, .f32⟩
  | 77 => ⟨S69632x1x1, .f32⟩
  | 78 => ⟨S69632x2x128, .f32⟩
  | 79 => ⟨S69632x2x128, .f32⟩
  | 80 => ⟨S_, .f32⟩
  | 81 => ⟨S4096x2x128, .f32⟩
  | 82 => ⟨S69632x1, .i32⟩
  | 83 => ⟨S4096x2x128, .f32⟩
  | 84 => ⟨S1x1x128, .f32⟩
  | 85 => ⟨S4096x2x128, .f32⟩
  | 86 => ⟨S4096x2x128, .f32⟩
  | 87 => ⟨S1x4096x4096, .f32⟩
  | 88 => ⟨S4096x4096, .f32⟩
  | 89 => ⟨S4096x2x128, .f32⟩
  | 90 => ⟨S1x128x128, .f32⟩
  | 91 => ⟨S128x128, .f32⟩
  | 92 => ⟨S1x128, .f32⟩
  | 93 => ⟨S128, .f32⟩
  | 94 => ⟨S1x65536, .i32⟩
  | 95 => ⟨S65536, .i32⟩
  | 96 => ⟨S4096, .i32⟩
  | 97 => ⟨S69632, .i32⟩
  | 98 => ⟨S1x65536, .i32⟩
  | 99 => ⟨S65536, .i32⟩
  | 100 => ⟨S4096, .i32⟩
  | 101 => ⟨S69632, .i32⟩
  | 102 => ⟨S_, .f32⟩
  | 103 => ⟨S69632, .f32⟩
  | 104 => ⟨S_, .f32⟩
  | 105 => ⟨S4096, .f32⟩
  | 106 => ⟨S69632x1, .i32⟩
  | 107 => ⟨S4096, .f32⟩
  | 108 => ⟨S_, .f32⟩
  | 109 => ⟨S4096, .f32⟩
  | 110 => ⟨S4096, .i1⟩
  | 111 => ⟨S_, .f32⟩
  | 112 => ⟨S4096, .f32⟩
  | 113 => ⟨S4096, .f32⟩
  | 114 => ⟨S4096, .f32⟩
  | 115 => ⟨S_, .f32⟩
  | 116 => ⟨S_, .f32⟩
  | 117 => ⟨S4096, .f32⟩
  | 118 => ⟨S4096, .f32⟩
  | 119 => ⟨S_, .i32⟩
  | 120 => ⟨S69632, .i32⟩
  | 121 => ⟨S69632, .i1⟩
  | 122 => ⟨S_, .i32⟩
  | 123 => ⟨S69632, .i32⟩
  | 124 => ⟨S69632, .i32⟩
  | 125 => ⟨S69632, .i32⟩
  | 126 => ⟨S69632x1, .i32⟩
  | 127 => ⟨S69632, .f32⟩
  | _ => ⟨S4096x2x128, .f32⟩

abbrev hbmTy0_1 (i : Nat) : BufTy := match i % 128 with
  | 0 => ⟨S_, .i32⟩
  | 1 => ⟨S69632, .i32⟩
  | 2 => ⟨S69632, .i1⟩
  | 3 => ⟨S_, .i32⟩
  | 4 => ⟨S69632, .i32⟩
  | 5 => ⟨S69632, .i32⟩
  | 6 => ⟨S69632, .i32⟩
  | 7 => ⟨S69632x1, .i32⟩
  | 8 => ⟨S69632, .f32⟩
  | 9 => ⟨S69632, .f32⟩
  | 10 => ⟨S4096x2x128, .f32⟩
  | 11 => ⟨S_, .i32⟩
  | 12 => ⟨S69632, .i32⟩
  | 13 => ⟨S69632, .i1⟩
  | 14 => ⟨S_, .i32⟩
  | 15 => ⟨S69632, .i32⟩
  | 16 => ⟨S69632, .i32⟩
  | 17 => ⟨S69632, .i32⟩
  | 18 => ⟨S69632x1, .i32⟩
  | 19 => ⟨S1, .i32⟩
  | 20 => ⟨S_, .i32⟩
  | 21 => ⟨S69632x1, .i32⟩
  | 22 => ⟨S69632x1, .i1⟩
  | 23 => ⟨S1x1, .i32⟩
  | 24 => ⟨S69632x1, .i32⟩
  | 25 => ⟨S69632x1, .i1⟩
  | 26 => ⟨S69632x1, .i1⟩
  | 27 => ⟨S_, .i1⟩
  | 28 => ⟨S69632, .i1⟩
  | 29 => ⟨S69632x2x128, .f32⟩
  | 30 => ⟨S69632x2x128, .i1⟩
  | 31 => ⟨S_, .f32⟩
  | 32 => ⟨S69632x2x128, .f32⟩
  | 33 => ⟨S69632x2x128, .f32⟩
  | 34 => ⟨S69632x1x1, .f32⟩
  | 35 => ⟨S69632x2x128, .f32⟩
  | 36 => ⟨S69632x2x128, .f32⟩
  | 37 => ⟨S_, .f32⟩
  | 38 => ⟨S4096x2x128, .f32⟩
  | 39 => ⟨S69632x1, .i32⟩
  | 40 => ⟨S4096x2x128, .f32⟩
  | 41 => ⟨S1x1x128, .f32⟩
  | 42 => ⟨S4096x2x128, .f32⟩
  | 43 => ⟨S4096x2x128, .f32⟩
  | 44 => ⟨S4096x2x128, .f32⟩
  | 45 => ⟨S1x4096x4096, .f32⟩
  | 46 => ⟨S4096x4096, .f32⟩
  | 47 => ⟨S4096x2x128, .f32⟩
  | 48 => ⟨S1x128x128, .f32⟩
  | 49 => ⟨S128x128, .f32⟩
  | 50 => ⟨S1x128, .f32⟩
  | 51 => ⟨S128, .f32⟩
  | 52 => ⟨S1x65536, .i32⟩
  | 53 => ⟨S65536, .i32⟩
  | 54 => ⟨S4096, .i32⟩
  | 55 => ⟨S69632, .i32⟩
  | 56 => ⟨S1x65536, .i32⟩
  | 57 => ⟨S65536, .i32⟩
  | 58 => ⟨S4096, .i32⟩
  | 59 => ⟨S69632, .i32⟩
  | 60 => ⟨S_, .f32⟩
  | 61 => ⟨S69632, .f32⟩
  | 62 => ⟨S_, .f32⟩
  | 63 => ⟨S4096, .f32⟩
  | 64 => ⟨S69632x1, .i32⟩
  | 65 => ⟨S4096, .f32⟩
  | 66 => ⟨S_, .f32⟩
  | 67 => ⟨S4096, .f32⟩
  | 68 => ⟨S4096, .i1⟩
  | 69 => ⟨S_, .f32⟩
  | 70 => ⟨S4096, .f32⟩
  | 71 => ⟨S4096, .f32⟩
  | 72 => ⟨S4096, .f32⟩
  | 73 => ⟨S_, .f32⟩
  | 74 => ⟨S_, .f32⟩
  | 75 => ⟨S4096, .f32⟩
  | 76 => ⟨S4096, .f32⟩
  | 77 => ⟨S_, .i32⟩
  | 78 => ⟨S69632, .i32⟩
  | 79 => ⟨S69632, .i1⟩
  | 80 => ⟨S_, .i32⟩
  | 81 => ⟨S69632, .i32⟩
  | 82 => ⟨S69632, .i32⟩
  | 83 => ⟨S69632, .i32⟩
  | 84 => ⟨S69632x1, .i32⟩
  | 85 => ⟨S69632, .f32⟩
  | 86 => ⟨S_, .i32⟩
  | 87 => ⟨S69632, .i32⟩
  | 88 => ⟨S69632, .i1⟩
  | 89 => ⟨S_, .i32⟩
  | 90 => ⟨S69632, .i32⟩
  | 91 => ⟨S69632, .i32⟩
  | 92 => ⟨S69632, .i32⟩
  | 93 => ⟨S69632x1, .i32⟩
  | 94 => ⟨S69632, .f32⟩
  | 95 => ⟨S69632, .f32⟩
  | 96 => ⟨S4096x2x128, .f32⟩
  | 97 => ⟨S_, .i32⟩
  | 98 => ⟨S69632, .i32⟩
  | 99 => ⟨S69632, .i1⟩
  | 100 => ⟨S_, .i32⟩
  | 101 => ⟨S69632, .i32⟩
  | 102 => ⟨S69632, .i32⟩
  | 103 => ⟨S69632, .i32⟩
  | 104 => ⟨S69632x1, .i32⟩
  | 105 => ⟨S1, .i32⟩
  | 106 => ⟨S_, .i32⟩
  | 107 => ⟨S69632x1, .i32⟩
  | 108 => ⟨S69632x1, .i1⟩
  | 109 => ⟨S1x1, .i32⟩
  | 110 => ⟨S69632x1, .i32⟩
  | 111 => ⟨S69632x1, .i1⟩
  | 112 => ⟨S69632x1, .i1⟩
  | 113 => ⟨S_, .i1⟩
  | 114 => ⟨S69632, .i1⟩
  | 115 => ⟨S69632x2x128, .f32⟩
  | 116 => ⟨S69632x2x128, .i1⟩
  | 117 => ⟨S_, .f32⟩
  | 118 => ⟨S69632x2x128, .f32⟩
  | 119 => ⟨S69632x2x128, .f32⟩
  | 120 => ⟨S69632x1x1, .f32⟩
  | 121 => ⟨S69632x2x128, .f32⟩
  | 122 => ⟨S69632x2x128, .f32⟩
  | 123 => ⟨S_, .f32⟩
  | 124 => ⟨S4096x2x128, .f32⟩
  | 125 => ⟨S69632x1, .i32⟩
  | 126 => ⟨S4096x2x128, .f32⟩
  | 127 => ⟨S1x1x128, .f32⟩
  | _ => ⟨S4096x2x128, .f32⟩

abbrev hbmTy0_2 (i : Nat) : BufTy := match i % 128 with
  | 0 => ⟨S4096x2x128, .f32⟩
  | 1 => ⟨S4096x2x128, .f32⟩
  | 2 => ⟨S4096x2x128, .f32⟩
  | _ => ⟨S4096x2x128, .f32⟩

abbrev hbmTy (i : Nat) : BufTy := match i / 128 with
  | 0 => hbmTy0_0 i
  | 1 => hbmTy0_1 i
  | 2 => hbmTy0_2 i
  | _ => ⟨S4096x2x128, .f32⟩

abbrev bufTy : (tb : Table) → Fin (tcTables nBuf tb) → BufTy
  | .hbm, ⟨i, _⟩ => hbmTy i
  | _, _ => ⟨S4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_7 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_8 : Ref sig .tc := ⟨.hbm, 102, rfl⟩
abbrev main_v63 : Ref sig .tc := ⟨.hbm, 103, rfl⟩
abbrev main_cst_9 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_10 : Ref sig .tc := ⟨.hbm, 108, rfl⟩
abbrev main_v67 : Ref sig .tc := ⟨.hbm, 109, rfl⟩
abbrev main_v68 : Ref sig .tc := ⟨.hbm, 110, rfl⟩
abbrev main_cst_11 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_12 : Ref sig .tc := ⟨.hbm, 115, rfl⟩
abbrev main_call2_v0 : Ref sig .tc := ⟨.hbm, 116, rfl⟩
abbrev main_call2_v1 : Ref sig .tc := ⟨.hbm, 117, rfl⟩
abbrev main_v72 : Ref sig .tc := ⟨.hbm, 118, rfl⟩
abbrev main_c_13 : Ref sig .tc := ⟨.hbm, 119, rfl⟩
abbrev main_v73 : Ref sig .tc := ⟨.hbm, 120, rfl⟩
abbrev main_v74 : Ref sig .tc := ⟨.hbm, 121, rfl⟩
abbrev main_c_14 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_15 : Ref sig .tc := ⟨.hbm, 128, rfl⟩
abbrev main_v80 : Ref sig .tc := ⟨.hbm, 129, rfl⟩
abbrev main_v81 : Ref sig .tc := ⟨.hbm, 130, rfl⟩
abbrev main_c_16 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_call3_c : Ref sig .tc := ⟨.hbm, 139, rfl⟩
abbrev main_call3_v0 : Ref sig .tc := ⟨.hbm, 140, rfl⟩
abbrev main_call3_v1 : Ref sig .tc := ⟨.hbm, 141, rfl⟩
abbrev main_call3_c_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_c_1 : Ref sig .tc := ⟨.hbm, 147, rfl⟩
abbrev main_call3_c_2 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_c_3 : Ref sig .tc := ⟨.hbm, 155, rfl⟩
abbrev main_call3_v12 : Ref sig .tc := ⟨.hbm, 156, rfl⟩
abbrev main_call3_v13 : Ref sig .tc := ⟨.hbm, 157, rfl⟩
abbrev main_call3_v14 : Ref sig .tc := ⟨.hbm, 158, rfl⟩
abbrev main_call3_cst : Ref sig .tc := ⟨.hbm, 159, rfl⟩
abbrev main_call3_v15 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_cst_17 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_18 : Ref sig .tc := ⟨.hbm, 188, rfl⟩
abbrev main_v115 : Ref sig .tc := ⟨.hbm, 189, rfl⟩
abbrev main_cst_19 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_cst_20 : Ref sig .tc := ⟨.hbm, 194, rfl⟩
abbrev main_v119 : Ref sig .tc := ⟨.hbm, 195, rfl⟩
abbrev main_v120 : Ref sig .tc := ⟨.hbm, 196, rfl⟩
abbrev main_cst_21 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_cst_22 : Ref sig .tc := ⟨.hbm, 201, rfl⟩
abbrev main_call4_v0 : Ref sig .tc := ⟨.hbm, 202, rfl⟩
abbrev main_call4_v1 : Ref sig .tc := ⟨.hbm, 203, rfl⟩
abbrev main_v124 : Ref sig .tc := ⟨.hbm, 204, rfl⟩
abbrev main_c_23 : Ref sig .tc := ⟨.hbm, 205, rfl⟩
abbrev main_v125 : Ref sig .tc := ⟨.hbm, 206, rfl⟩
abbrev main_v126 : Ref sig .tc := ⟨.hbm, 207, rfl⟩
abbrev main_c_24 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_c_25 : Ref sig .tc := ⟨.hbm, 214, rfl⟩
abbrev main_v132 : Ref sig .tc := ⟨.hbm, 215, rfl⟩
abbrev main_v133 : Ref sig .tc := ⟨.hbm, 216, rfl⟩
abbrev main_c_26 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_call5_c : Ref sig .tc := ⟨.hbm, 225, rfl⟩
abbrev main_call5_v0 : Ref sig .tc := ⟨.hbm, 226, rfl⟩
abbrev main_call5_v1 : Ref sig .tc := ⟨.hbm, 227, rfl⟩
abbrev main_call5_c_0 : Ref sig .tc := ⟨.hbm, 228, rfl⟩
abbrev main_call5_v2 : Ref sig .tc := ⟨.hbm, 229, rfl⟩
abbrev main_call5_v3 : Ref sig .tc := ⟨.hbm, 230, rfl⟩
abbrev main_call5_v4 : Ref sig .tc := ⟨.hbm, 231, rfl⟩
abbrev main_call5_v5 : Ref sig .tc := ⟨.hbm, 232, rfl⟩
abbrev main_call5_c_1 : Ref sig .tc := ⟨.hbm, 233, rfl⟩
abbrev main_call5_c_2 : Ref sig .tc := ⟨.hbm, 234, rfl⟩
abbrev main_call5_v6 : Ref sig .tc := ⟨.hbm, 235, rfl⟩
abbrev main_call5_v7 : Ref sig .tc := ⟨.hbm, 236, rfl⟩
abbrev main_call5_v8 : Ref sig .tc := ⟨.hbm, 237, rfl⟩
abbrev main_call5_v9 : Ref sig .tc := ⟨.hbm, 238, rfl⟩
abbrev main_call5_v10 : Ref sig .tc := ⟨.hbm, 239, rfl⟩
abbrev main_call5_v11 : Ref sig .tc := ⟨.hbm, 240, rfl⟩
abbrev main_call5_c_3 : Ref sig .tc := ⟨.hbm, 241, rfl⟩
abbrev main_call5_v12 : Ref sig .tc := ⟨.hbm, 242, rfl⟩
abbrev main_call5_v13 : Ref sig .tc := ⟨.hbm, 243, rfl⟩
abbrev main_call5_v14 : Ref sig .tc := ⟨.hbm, 244, rfl⟩
abbrev main_call5_cst : Ref sig .tc := ⟨.hbm, 245, rfl⟩
abbrev main_call5_v15 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_cst_27 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x65536_S1x65536_0_0 : S2x65536.Slices ![0, 0] S1x65536
  shapeCasts_S1x65536_S65536 : S1x65536.ShapeCasts S65536
  concatenates_S65536_S4096_S69632_d0 : Shape.Concatenates [S65536, S4096] S69632 0
  slices_S2x65536_S1x65536_1_0 : S2x65536.Slices ![1, 0] S1x65536
  bcast_S_S69632 : S_.BroadcastsInDim S69632 (![] : Fin 0 → Fin S69632.rank)
  bcast_S_S4096 : S_.BroadcastsInDim S4096 (![] : Fin 0 → Fin S4096.rank)
  bcast_S69632_S69632x1_0 : S69632.BroadcastsInDim S69632x1 (![0] : Fin 1 → Fin S69632x1.rank)
  bcast_S_S69632x1 : S_.BroadcastsInDim S69632x1 (![] : Fin 0 → Fin S69632x1.rank)
  bcast_S1_S1x1_1 : S1.BroadcastsInDim S1x1 (![1] : Fin 1 → Fin S1x1.rank)
  bcast_S1x1_S69632x1_0_1 : S1x1.BroadcastsInDim S69632x1 (![0, 1] : Fin 2 → Fin S69632x1.rank)
  reducesTo_S69632x1_S69632_d1 : S69632x1.ReducesTo [1] S69632
  h_S_ : 0 < S_.numel
  bcast_S69632_S69632x2x128_0 : S69632.BroadcastsInDim S69632x2x128 (![0] : Fin 1 → Fin S69632x2x128.rank)
  bcast_S_S69632x2x128 : S_.BroadcastsInDim S69632x2x128 (![] : Fin 0 → Fin S69632x2x128.rank)
  bcast_S69632_S69632x1x1_0 : S69632.BroadcastsInDim S69632x1x1 (![0] : Fin 1 → Fin S69632x1x1.rank)
  bcast_S69632x1x1_S69632x2x128_0_1_2 : S69632x1x1.BroadcastsInDim S69632x2x128 (![0, 1, 2] : Fin 3 → Fin S69632x2x128.rank)
  bcast_S_S4096x2x128 : S_.BroadcastsInDim S4096x2x128 (![] : Fin 0 → Fin S4096x2x128.rank)
  bcast_S128_S1x1x128_2 : S128.BroadcastsInDim S1x1x128 (![2] : Fin 1 → Fin S1x1x128.rank)
  bcast_S1x1x128_S4096x2x128_0_1_2 : S1x1x128.BroadcastsInDim S4096x2x128 (![0, 1, 2] : Fin 3 → Fin S4096x2x128.rank)
  slices_S2x4096x4096_S1x4096x4096_0_0_0 : S2x4096x4096.Slices ![0, 0, 0] S1x4096x4096
  shapeCasts_S1x4096x4096_S4096x4096 : S1x4096x4096.ShapeCasts S4096x4096
  slices_S2x4096x4096_S1x4096x4096_1_0_0 : S2x4096x4096.Slices ![1, 0, 0] S1x4096x4096
  slices_S3x128x128_S1x128x128_1_0_0 : S3x128x128.Slices ![1, 0, 0] S1x128x128
  slices_S3x128_S1x128_1_0 : S3x128.Slices ![1, 0] S1x128
  scatter_S4096_S69632x1_S69632_n_0_0_1_wf : ScatterDims.WF S4096 S69632x1 S69632 [] [0] [0] 1
  gather_S4096_S69632x1_S69632_n_0_n_n_0_1_1_wf : GatherDims.WF S4096 S69632x1 S69632 [] [0] [] [0] [] 1 ![1]
  dot_S4096x2x128_S128x128_S4096x2x128_2_0_01_1_n_n_wf : DotDims.WF S4096x2x128 S128x128 S4096x2x128 [2] [0] [0, 1] [1] [] []
  gather_S4096x2x128_S69632x1_S69632x2x128_12_0_n_n_0_1_12128_wf : GatherDims.WF S4096x2x128 S69632x1 S69632x2x128 [1, 2] [0] [] [0] [] 1 ![1, 2, 128]
  scatter_S4096x2x128_S69632x1_S69632x2x128_12_0_0_1_wf : ScatterDims.WF S4096x2x128 S69632x1 S69632x2x128 [1, 2] [0] [0] 1
  dot_S4096x4096_S4096x2x128_S4096x2x128_1_0_0_12_n_n_wf : DotDims.WF S4096x4096 S4096x2x128 S4096x2x128 [1] [0] [0] [1, 2] [] []

variable [Facts₀]

def scatter_S4096_S69632x1_S69632_n_0_0_1 : ScatterDims S4096 S69632x1 S69632 where
  updateWindowDims := []
  insertedWindowDims := [0]
  scatterDimsToOperandDims := [0]
  indexVectorDim := 1
  wf := scatter_S4096_S69632x1_S69632_n_0_0_1_wf
def gather_S4096_S69632x1_S69632_n_0_n_n_0_1_1 : GatherDims S4096 S69632x1 S69632 where
  offsetDims := []
  collapsedSliceDims := [0]
  operandBatchingDims := []
  startIndicesBatchingDims := []
  startIndexMap := [0]
  indexVectorDim := 1
  sliceSizes := ![1]
  wf := gather_S4096_S69632x1_S69632_n_0_n_n_0_1_1_wf
def dot_S4096x2x128_S128x128_S4096x2x128_2_0_01_1_n_n : DotDims S4096x2x128 S128x128 S4096x2x128 where
  lhsContracting := [2]
  rhsContracting := [0]
  lhsNonContracting := [0, 1]
  rhsNonContracting := [1]
  lhsBatch := []
  rhsBatch := []
  wf := dot_S4096x2x128_S128x128_S4096x2x128_2_0_01_1_n_n_wf
def gather_S4096x2x128_S69632x1_S69632x2x128_12_0_n_n_0_1_12128 : GatherDims S4096x2x128 S69632x1 S69632x2x128 where
  offsetDims := [1, 2]
  collapsedSliceDims := [0]
  operandBatchingDims := []
  startIndicesBatchingDims := []
  startIndexMap := [0]
  indexVectorDim := 1
  sliceSizes := ![1, 2, 128]
  wf := gather_S4096x2x128_S69632x1_S69632x2x128_12_0_n_n_0_1_12128_wf
def scatter_S4096x2x128_S69632x1_S69632x2x128_12_0_0_1 : ScatterDims S4096x2x128 S69632x1 S69632x2x128 where
  updateWindowDims := [1, 2]
  insertedWindowDims := [0]
  scatterDimsToOperandDims := [0]
  indexVectorDim := 1
  wf := scatter_S4096x2x128_S69632x1_S69632x2x128_12_0_0_1_wf
def dot_S4096x4096_S4096x2x128_S4096x2x128_1_0_0_12_n_n : DotDims S4096x4096 S4096x2x128 S4096x2x128 where
  lhsContracting := [1]
  rhsContracting := [0]
  lhsNonContracting := [0]
  rhsNonContracting := [1, 2]
  lhsBatch := []
  rhsBatch := []
  wf := dot_S4096x4096_S4096x2x128_S4096x2x128_1_0_0_12_n_n_wf

class Facts : Prop extends Facts₀ where

variable [Facts]
-- ==== Proof.Setup.lean ====
/-
  The idealized program as the SparseCore launch theorem reads it: two vector-subcore calls (the degree histogram
  and the edge aggregation) on 2 SparseCores of 16 vector subcores each, three TensorCore pallas_calls between and
  after them, all on one device. Fixed here once: the launch configuration, the body table, the resource algebra
  (the handshakes' rounds beside the TensorCore pipelines' staging cells and the transfers' counters), and the
  names of the arrays every later module speaks of.
-/
import proofs.«205814_g58841051955373_cont_9to1_m_133_55_alg».proof.KernelIdeal
import proofs.«205814_g58841051955373_cont_9to1_m_133_55_alg».proof.Proof.Gen.KernelIdeal
import proofs.«205814_g58841051955373_cont_9to1_m_133_55_alg».proof.Proof.Gen.KernelIdeal.Skeleton
import proofs.«205814_g58841051955373_cont_9to1_m_133_55_alg».proof.Proof.Gen.KernelIdeal.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nSub_zero : (K (F := F)).nSub 0 = 16 := rfl
theorem nSub_one : (K (F := F)).nSub 1 = 16 := rfl
theorem nCore_zero : (K (F := F)).nCore 0 = 2 := rfl
theorem nCore_one : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds, the left factor; the counters of the kernels' own copies are found by instance in the right. -/
abbrev EH : Emb UH (MT nD τ sig (HIx 2) (Elt F) ℕ UU ℕ) := embL

/-! ## The arrays -/

/-- The edge sources and targets, the transposed features, the zero rows, and the five kernels' results, as locations of device `d`. -/
abbrev srcLoc (d : Dev nD) : Loc nD τ sig := (SparseCore.T d).loc main_v3
abbrev dstLoc (d : Dev nD) : Loc nD τ sig := (SparseCore.T d).loc main_v5
abbrev z1Loc (d : Dev nD) : Loc nD τ sig := (SparseCore.T d).loc main_v31
abbrev z2Loc (d : Dev nD) : Loc nD τ sig := (SparseCore.T d).loc main_v32
abbrev histLoc (d : Dev nD) : Loc nD τ sig := (SparseCore.T d).loc main_v33
abbrev ystLoc (d : Dev nD) : Loc nD τ sig := (SparseCore.T d).loc main_v39
abbrev stLoc (d : Dev nD) : Loc nD τ sig := (SparseCore.T d).loc main_v40

def coordsV0 (c : Fin (grid0.bound 0)) (s : Fin (grid0.bound 1)) : grid0.Coords :=
  fun | 0 => c | 1 => s | ⟨_ + 2, h⟩ => absurd h (Nat.not_lt.2 (Nat.le_add_left _ _))
def coordsV3 (c : Fin (grid3.bound 0)) (s : Fin (grid3.bound 1)) : grid3.Coords :=
  fun | 0 => c | 1 => s | ⟨_ + 2, h⟩ => absurd h (Nat.not_lt.2 (Nat.le_add_left _ _))

end Cert.Proof.KI

end
-- ==== Proof.HostOpsTable.lean ====
import proofs.«205814_g58841051955373_cont_9to1_m_133_55_alg».proof.Proof.Setup

noncomputable section

namespace Cert.Proof.KI

open Cert.KernelIdeal Cert.KernelIdeal.Gen
open Idealize.ShloMosaic Idealize.ShloMosaic.TcCoe Idealize.SL.Sem Idealize.ShloMosaic.StableHlo

variable {F : FTy → Type} [FloatOps F]

/-- Before the histogram call. -/
abbrev opsA : List (HloOp τ sig (Elt F)) :=
  [ reshape main_arg0 main_v0 rfl shapeCasts_S4096x2x128_S4096x256,
    unary main_v0 main_v1 ((transpose S256x4096 [1, 0] · transposes_S4096x256_S256x4096_1_0) : (⟨S4096x256, .f32⟩ : BufTy).Contents (Elt F) → (⟨S256x4096, .f32⟩ : BufTy).Contents (Elt F)),
    unary main_arg1 main_v2 ((extractStridedSlice S1x65536 ![0, 0] · slices_S2x65536_S1x65536_0_0) : (⟨S2x65536, .i32⟩ : BufTy).Contents (Elt F) → (⟨S1x65536, .i32⟩ : BufTy).Contents (Elt F)),
    reshape main_v2 main_v3 rfl shapeCasts_S1x65536_S65536,
    unary main_arg1 main_v4 ((extractStridedSlice S1x65536 ![1, 0] · slices_S2x65536_S1x65536_1_0) : (⟨S2x65536, .i32⟩ : BufTy).Contents (Elt F) → (⟨S1x65536, .i32⟩ : BufTy).Contents (Elt F)),
    reshape main_v4 main_v5 rfl shapeCasts_S1x65536_S65536,
    nullary main_v6 (iotaInDim S2x2 32 0),
    nullary main_v7 (iotaInDim S2x2 32 1),
    nullary main_c (constantI S_ 32 0#32),
    unary main_c main_v8 (broadcastInDim S2x2 ![] bcast_S_S2x2 : (⟨S_, .i32⟩ : BufTy).Contents (Elt F) → (⟨S2x2, .i32⟩ : BufTy).Contents (Elt F)),
    binary main_v6 main_v8 main_v9 (addi : (⟨S2x2, .i32⟩ : BufTy).Contents (Elt F) → (⟨S2x2, .i32⟩ : BufTy).Contents (Elt F) → (⟨S2x2, .i32⟩ : BufTy).Contents (Elt F)),
    binary main_v9 main_v7 main_v10 (cmpi .eq : (⟨S2x2, .i32⟩ : BufTy).Contents (Elt F) → (⟨S2x2, .i32⟩ : BufTy).Contents (Elt F) → (⟨S2x2, .i1⟩ : BufTy).Contents (Elt F)),
    unary main_v10 main_v11 (uitofp .f32 : (⟨S2x2, .i1⟩ : BufTy).Contents (Elt F) → (⟨S2x2, .f32⟩ : BufTy).Contents (Elt F)),
    unary main_arg3 main_v12 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v12 main_v13 rfl shapeCasts_S1x128x128_S128x128,
    unary main_v13 main_v14 ((transpose S128x128 [1, 0] · transposes_S128x128_S128x128_1_0) : (⟨S128x128, .f32⟩ : BufTy).Contents (Elt F) → (⟨S128x128, .f32⟩ : BufTy).Contents (Elt F)),
    TRef.unary (.of main_v11 : TRef sig ⟨S2x2, .f32⟩) main_call0.v0 (broadcastInDim S2x1x2x1 ![0, 2] bcast_S2x2_S2x1x2x1_0_2),
    TRef.unary (.of main_v14 : TRef sig ⟨S128x128, .f32⟩) main_call0.v1 (broadcastInDim S1x128x1x128 ![1, 3] bcast_S128x128_S1x128x1x128_1_3),
    TRef.unary main_call0.v0 main_call0.v2 (broadcastInDim S2x128x2x128 ![0, 1, 2, 3] bcast_S2x1x2x1_S2x128x2x128_0_1_2_3),
    TRef.unary main_call0.v1 main_call0.v3 (broadcastInDim S2x128x2x128 ![0, 1, 2, 3] bcast_S1x128x1x128_S2x128x2x128_0_1_2_3),
    TRef.binary main_call0.v2 main_call0.v3 main_call0.v4 mulf,
    TRef.reshape main_call0.v4 main_call0.v5 rfl shapeCasts_S2x128x2x128_S256x256,
    unary main_arg3 main_v16 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v16 main_v17 rfl shapeCasts_S1x128x128_S128x128,
    unary main_v17 main_v18 ((transpose S128x128 [1, 0] · transposes_S128x128_S128x128_1_0) : (⟨S128x128, .f32⟩ : BufTy).Contents (Elt F) → (⟨S128x128, .f32⟩ : BufTy).Contents (Elt F)),
    TRef.unary (.of main_v11 : TRef sig ⟨S2x2, .f32⟩) main_call1.v0 (broadcastInDim S2x1x2x1 ![0, 2] bcast_S2x2_S2x1x2x1_0_2),
    TRef.unary (.of main_v18 : TRef sig ⟨S128x128, .f32⟩) main_call1.v1 (broadcastInDim S1x128x1x128 ![1, 3] bcast_S128x128_S1x128x1x128_1_3),
    TRef.unary main_call1.v0 main_call1.v2 (broadcastInDim S2x128x2x128 ![0, 1, 2, 3] bcast_S2x1x2x1_S2x128x2x128_0_1_2_3),
    TRef.unary main_call1.v1 main_call1.v3 (broadcastInDim S2x128x2x128 ![0, 1, 2, 3] bcast_S1x128x1x128_S2x128x2x128_0_1_2_3),
    TRef.binary main_call1.v2 main_call1.v3 main_call1.v4 mulf,
    TRef.reshape main_call1.v4 main_call1.v5 rfl shapeCasts_S2x128x2x128_S256x256,
    unary main_arg4 main_v20 ((extractStridedSlice S1x128 ![0, 0] · slices_S3x128_S1x128_0_0) : (⟨S3x128, .f32⟩ : BufTy).Contents (Elt F) → (⟨S1x128, .f32⟩ : BufTy).Contents (Elt F)),
    reshape main_v20 main_v21 rfl shapeCasts_S1x128_S128,
    nullary main_cst (constant S_ .f32 0x40000000#32),
    unary main_cst main_v22 (broadcastInDim S128 ![] bcast_S_S128 : (⟨S_, .f32⟩ : BufTy).Contents (Elt F) → (⟨S128, .f32⟩ : BufTy).Contents (Elt F)),
    binary main_v22 main_v21 main_v23 (mulf : (⟨S128, .f32⟩ : BufTy).Contents (Elt F) → (⟨S128, .f32⟩ : BufTy).Contents (Elt F) → (⟨S128, .f32⟩ : BufTy).Contents (Elt F)),
    unary main_arg4 main_v24 ((extractStridedSlice S1x128 ![1, 0] · slices_S3x128_S1x128_1_0) : (⟨S3x128, .f32⟩ : BufTy).Contents (Elt F) → (⟨S1x128, .f32⟩ : BufTy).Contents (Elt F)),
    reshape main_v24 main_v25 rfl shapeCasts_S1x128_S128,
    binary main_v23 main_v25 main_v26 (addf : (⟨S128, .f32⟩ : BufTy).Contents (Elt F) → (⟨S128, .f32⟩ : BufTy).Contents (Elt F) → (⟨S128, .f32⟩ : BufTy).Contents (Elt F)),
    reshape main_v26 main_v27 rfl shapeCasts_S128_S1x128,
    unary main_v27 main_v28 (broadcastInDim S2x128 ![0, 1] bcast_S1x128_S2x128_0_1 : (⟨S1x128, .f32⟩ : BufTy).Contents (Elt F) → (⟨S2x128, .f32⟩ : BufTy).Contents (Elt F)),
    reshape main_v28 main_v29 rfl shapeCasts_S2x128_S256,
    reshape main_v29 main_v30 rfl shapeCasts_S256_S1x256,
    nullary main_cst_0 (constant S_ .f32 0x00000000#32),
    unary main_cst_0 main_v31 (broadcastInDim S4096 ![] bcast_S_S4096 : (⟨S_, .f32⟩ : BufTy).Contents (Elt F) → (⟨S4096, .f32⟩ : BufTy).Contents (Elt F)),
    nullary main_cst_1 (constant S_ .f32 0x00000000#32),
    unary main_cst_1 main_v32 (broadcastInDim S16x4096 ![] bcast_S_S16x4096 : (⟨S_, .f32⟩ : BufTy).Contents (Elt F) → (⟨S16x4096, .f32⟩ : BufTy).Contents (Elt F)) ]

/-- Before the first TensorCore call. -/
abbrev opsB : List (HloOp τ sig (Elt F)) :=
  [ unary main_arg2 main_v34 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v34 main_v35 rfl shapeCasts_S1x4096x4096_S4096x4096 ]

/-- Before the second TensorCore call. -/
abbrev opsC : List (HloOp τ sig (Elt F)) :=
  [ unary main_arg2 main_v37 ((extractStridedSlice S1x4096x4096 ![1, 0, 0] · slices_S2x4096x4096_S1x4096x4096_1_0_0) : (⟨S2x4096x4096, .f32⟩ : BufTy).Contents (Elt F) → (⟨S1x4096x4096, .f32⟩ : BufTy).Contents (Elt F)),
    reshape main_v37 main_v38 rfl shapeCasts_S1x4096x4096_S4096x4096 ]

/-- After the last TensorCore call. -/
abbrev opsD : List (HloOp τ sig (Elt F)) :=
  [ reshape main_v41 main_v42 rfl shapeCasts_S4096x256_S4096x2x128 ]

end Cert.Proof.KI

end
-- ==== Proof.HostOps.lean ====
/-
  @main is its four stretches of host operations with the five launches between them: the histogram call, the first
  two TensorCore calls (each after a slice of the cached operators), the aggregation call, the last TensorCore call,
  and the closing reshape.
-/
import proofs.«205814_g58841051955373_cont_9to1_m_133_55_alg».proof.Proof.HostOpsTable

noncomputable section

namespace Cert.Proof.KI

open Cert.KernelIdeal Cert.KernelIdeal.Gen
open Idealize.ShloMosaic Idealize.ShloMosaic.TcCoe Idealize.SL.Sem Idealize.ShloMosaic.StableHlo

variable {F : FTy → Type} [FloatOps F]

/-- A TensorCore pallas_call's line of @main. -/
abbrev entry (p : Fin 3) : Prog (TpuEff nD τ sig (Elt F) (SparseCore.Sig (ΛP (F := F)) 2) .tc) PUnit :=
  Prog.lift (.customCall (SparseCore.inner (Pipeline.entry p)) ())

theorem main_eq (d : Dev nD) : main (F := F) d =
    (seq opsA >>= fun _ => sc.run d 0 >>= fun _ => seq opsB >>= fun _ => entry 0 >>= fun _ => seq opsC >>= fun _ => entry 1 >>= fun _ =>
      sc.run d 1 >>= fun _ => entry 2 >>= fun _ => seq opsD) := rfl

end Cert.Proof.KI

end
-- ==== Proof.Pay.lean ====
/-
  What the two SparseCore calls hand each vector subcore and take back. Tile w = 16·core + subcore (32 tiles).
  Call 0 (degree histogram): tile w owns targets [2048·w, 2048·(w+1)) and row w of the 32 × 4096 histogram, and reads
  the zero vector through a read share. Call 1 (edge aggregation): tile w owns rows [8·w, 8·(w+1)) of the transposed
  features and of the result, and reads all sources, all targets and the zero block through read shares. A
  SparseCore's share is its sixteen tiles' shares, so the split of a core's operands among its tiles is the identity.
  The arrays' contents are parameters: the launch instantiates them with the values the program computes.
-/
import proofs.«205814_g58841051955373_cont_9to1_m_133_55_alg».proof.Proof.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 2) (Elt F) ℕ UU ℕ

/-! ## The tiles' parts of the arrays -/

theorem hdiv_dst : 32 ∣ S65536.size 0 := ⟨2048, rfl⟩
theorem hdiv_hist : 32 ∣ S32x4096.size 0 := ⟨1, rfl⟩
theorem hdiv_rows : 32 ∣ S256x4096.size 0 := ⟨8, rfl⟩

/-- Targets [2048·w, 2048·(w+1)). -/
abbrev dstPart (w : Fin 32) : Rect S65536 := Rect.part (s := S65536) (a₀ := 0) hdiv_dst w
abbrev dstSet (w : Fin 32) : Finset S65536.Idx := ((Memref.whole main_v5_scv : Memref sig .scVector .hbm S65536 .i32).view.slice (dstPart w)).set
/-- Row w of the histogram. -/
abbrev histPart (w : Fin 32) : Rect S32x4096 := Rect.part (s := S32x4096) (a₀ := 0) hdiv_hist w
abbrev histSet (w : Fin 32) : Finset S32x4096.Idx := ((Memref.whole main_v33_scv : Memref sig .scVector .hbm S32x4096 .f32).view.slice (histPart w)).set
/-- Rows [8·w, 8·(w+1)) of a 256 × 4096 array. -/
abbrev rowsPart (w : Fin 32) : Rect S256x4096 := Rect.part (s := S256x4096) (a₀ := 0) hdiv_rows w
abbrev rowsSet (w : Fin 32) : Finset S256x4096.Idx := ((Memref.whole main_v39_scv : Memref sig .scVector .hbm S256x4096 .f32).view.slice (rowsPart w)).set

/-- The tile number of subcore i of SparseCore c. -/
def wid (c : Fin 2) (i : Fin 16) : Fin 32 := ⟨16 * c.val + i.val, by omega⟩

/-! ## The contents the calls meet and leave -/

/-- The arrays' contents at the two calls: targets (as the first call meets them, and as the second does), sources, the two zero arrays, the transposed scaled features the
    second call reads, and what the calls leave in the histogram and in the aggregate. -/
structure Conts (F : FTy → Type) where
  dst : (d : Dev nD) → Buf (Elt F) (dstLoc d)
  dst1 : (d : Dev nD) → Buf (Elt F) (dstLoc d)
  src : (d : Dev nD) → Buf (Elt F) (srcLoc d)
  z1 : (d : Dev nD) → Buf (Elt F) (z1Loc d)
  z2 : (d : Dev nD) → Buf (Elt F) (z2Loc d)
  yst : (d : Dev nD) → Buf (Elt F) (ystLoc d)
  hist : (d : Dev nD) → Buf (Elt F) (histLoc d)
  st : (d : Dev nD) → Buf (Elt F) (stLoc d)

variable (C : Conts F)

/-- Tile w's share of a whole array that every tile reads. -/
abbrev rd (w : Fin 32) : PosShare TreeShare := shareTok fullShare 32 w

def go0 (d : Dev nD) (w : Fin 32) : sProp 𝕄 :=
  iprop((dstLoc d ↦[dstSet w]{fullShare} C.dst d) ∗ (z1Loc d ↦{rd w} C.z1 d) ∗ ∃ f, histLoc d ↦[histSet w]{fullShare} f)
def td0 (d : Dev nD) (w : Fin 32) : sProp 𝕄 :=
  iprop((dstLoc d ↦[dstSet w]{fullShare} C.dst d) ∗ (z1Loc d ↦{rd w} C.z1 d) ∗ histLoc d ↦[histSet w]{fullShare} C.hist d)
def go1 (d : Dev nD) (w : Fin 32) : sProp 𝕄 :=
  iprop((srcLoc d ↦{rd w} C.src d) ∗ (dstLoc d ↦{rd w} C.dst1 d) ∗ (ystLoc d ↦[rowsSet w]{fullShare} C.yst d) ∗ (z2Loc d ↦{rd w} C.z2 d)
    ∗ ∃ f, stLoc d ↦[rowsSet w]{fullShare} f)
def td1 (d : Dev nD) (w : Fin 32) : sProp 𝕄 :=
  iprop((srcLoc d ↦{rd w} C.src d) ∗ (dstLoc d ↦{rd w} C.dst1 d) ∗ (ystLoc d ↦[rowsSet w]{fullShare} C.yst d) ∗ (z2Loc d ↦{rd w} C.z2 d)
    ∗ stLoc d ↦[rowsSet w]{fullShare} C.st d)

instance go0_storable (d : Dev nD) (w : Fin 32) : BI.Storable (upEmb : UEmb _ 𝕄) (go0 C d w) := by unfold go0; infer_instance
instance td0_storable (d : Dev nD) (w : Fin 32) : BI.Storable (upEmb : UEmb _ 𝕄) (td0 C d w) := by unfold td0; infer_instance
instance go1_storable (d : Dev nD) (w : Fin 32) : BI.Storable (upEmb : UEmb _ 𝕄) (go1 C d w) := by unfold go1; infer_instance
instance td1_storable (d : Dev nD) (w : Fin 32) : BI.Storable (upEmb : UEmb _ 𝕄) (td1 C d w) := by unfold td1; infer_instance

/-- What the handshakes carry: a SparseCore's start its sixteen tiles' operands, a tile's go its own, and back. -/
def P : (K (F := F)).Pay (nD := nD) (Val := Elt F) (Name := ℕ) (U := UU) where
  st := fun q d c => match q with
    | 0 => bigSep Finset.univ fun i : Fin 16 => go0 C d (wid (Fin.cast nCore_zero c) i)
    | 1 => bigSep Finset.univ fun i : Fin 16 => go1 C d (wid (Fin.cast nCore_one c) i)
  dn := fun q d c => match q with
    | 0 => bigSep Finset.univ fun i : Fin 16 => td0 C d (wid (Fin.cast nCore_zero c) i)
    | 1 => bigSep Finset.univ fun i : Fin 16 => td1 C d (wid (Fin.cast nCore_one c) i)
  go := fun q d c i => match q with
    | 0 => go0 C d (wid (Fin.cast nCore_zero c) (Fin.cast nSub_zero i))
    | 1 => go1 C d (wid (Fin.cast nCore_one c) (Fin.cast nSub_one i))
  td := fun q d c i => match q with
    | 0 => td0 C d (wid (Fin.cast nCore_zero c) (Fin.cast nSub_zero i))
    | 1 => td1 C d (wid (Fin.cast nCore_one c) (Fin.cast nSub_one i))
  x := fun _ _ => iprop(emp)

instance P_storable : (P (F := F) C).IsStorable where
  st q d c := match q with
    | 0 => (inferInstance : BI.Storable (upEmb : UEmb _ 𝕄) (bigSep Finset.univ fun i : Fin 16 => go0 C d (wid (Fin.cast nCore_zero c) i)))
    | 1 => (inferInstance : BI.Storable (upEmb : UEmb _ 𝕄) (bigSep Finset.univ fun i : Fin 16 => go1 C d (wid (Fin.cast nCore_one c) i)))
  dn q d c := match q with
    | 0 => (inferInstance : BI.Storable (upEmb : UEmb _ 𝕄) (bigSep Finset.univ fun i : Fin 16 => td0 C d (wid (Fin.cast nCore_zero c) i)))
    | 1 => (inferInstance : BI.Storable (upEmb : UEmb _ 𝕄) (bigSep Finset.univ fun i : Fin 16 => td1 C d (wid (Fin.cast nCore_one c) i)))
  go q d c i := match q with
    | 0 => (inferInstance : BI.Storable (upEmb : UEmb _ 𝕄) (go0 C d (wid (Fin.cast nCore_zero c) (Fin.cast nSub_zero i))))
    | 1 => (inferInstance : BI.Storable (upEmb : UEmb _ 𝕄) (go1 C d (wid (Fin.cast nCore_one c) (Fin.cast nSub_one i))))
  td q d c i := match q with
    | 0 => (inferInstance : BI.Storable (upEmb : UEmb _ 𝕄) (td0 C d (wid (Fin.cast nCore_zero c) (Fin.cast nSub_zero i))))
    | 1 => (inferInstance : BI.Storable (upEmb : UEmb _ 𝕄) (td1 C d (wid (Fin.cast nCore_one c) (Fin.cast nSub_one i))))

/-! ## A SparseCore's operands are its tiles' -/

theorem bigSep_tasks0 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_tasks1 (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)

theorem vecSplit0 : (K (F := F)).VecSplit' (P C) 0 := by
  intro d c
  show (bigSep Finset.univ fun i : Fin 16 => go0 C d (wid (Fin.cast nCore_zero c) i)) ⊢ |={Set.univ}=> iprop(
      (bigSep Finset.univ fun i : Fin ((K (F := F)).nSub 0) => go0 C d (wid (Fin.cast nCore_zero c) (Fin.cast nSub_zero i)))
      ∗ ((bigSep Finset.univ fun i : Fin ((K (F := F)).nSub 0) => td0 C d (wid (Fin.cast nCore_zero c) (Fin.cast nSub_zero i)))
          -∗ bigSep Finset.univ fun i : Fin 16 => td0 C d (wid (Fin.cast nCore_zero c) i)))
  rw [bigSep_tasks0 (F := F) (fun i => go0 C d (wid (Fin.cast nCore_zero c) i)), bigSep_tasks0 (F := F) (fun i => td0 C d (wid (Fin.cast nCore_zero c) i))]
  iintro H; imodintro
  isplitl [H]; · iexact H
  iintro H; iexact H

theorem vecSplit1 : (K (F := F)).VecSplit' (P C) 1 := by
  intro d c
  show (bigSep Finset.univ fun i : Fin 16 => go1 C d (wid (Fin.cast nCore_one c) i)) ⊢ |={Set.univ}=> iprop(
      (bigSep Finset.univ fun i : Fin ((K (F := F)).nSub 1) => go1 C d (wid (Fin.cast nCore_one c) (Fin.cast nSub_one i)))
      ∗ ((bigSep Finset.univ fun i : Fin ((K (F := F)).nSub 1) => td1 C d (wid (Fin.cast nCore_one c) (Fin.cast nSub_one i)))
          -∗ bigSep Finset.univ fun i : Fin 16 => td1 C d (wid (Fin.cast nCore_one c) i)))
  rw [bigSep_tasks1 (F := F) (fun i => go1 C d (wid (Fin.cast nCore_one c) i)), bigSep_tasks1 (F := F) (fun i => td1 C d (wid (Fin.cast nCore_one c) i))]
  iintro H; imodintro
  isplitl [H]; · iexact H
  iintro H; iexact H

end Cert.Proof.KI

end
-- ==== Proof.Handover.lean ====
/-
  The hand-over at the two SparseCore calls, on the TensorCore's side. An array held whole is the sum of its 32 tiles'
  parts (targets: 32 slices of 2048; the histogram: its 32 rows; a 256 × 4096 array: 32 bands of 8 rows); an array every
  tile reads splits into 32 read shares and a remainder kept aside; the 32 tiles are the 2 × 16 (core, subcore) pairs.
  So what a call takes for its SparseCores is carved out of the whole arrays, and what it hands back joins into them,
  the histogram (and the aggregate) at the contents the tiles leave.
-/
import proofs.«205814_g58841051955373_cont_9to1_m_133_55_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 2) (Elt F) ℕ UU ℕ

/-! ## An array is its tiles' parts -/

theorem dstSet_eq (w : Fin 32) : dstSet w = (dstPart w).set := by
  show ((View.whole (main_v5_scv : Ref sig .scVector)).slice (dstPart w)).set = _
  rw [View.set_slice]; exact Finset.map_refl
theorem dst_disjoint : ∀ i ∈ (Finset.univ : Finset (Fin 32)), ∀ j ∈ (Finset.univ : Finset (Fin 32)), i ≠ j → Disjoint (dstSet i) (dstSet j) :=
  fun i _ j _ h => by rw [dstSet_eq, dstSet_eq]; exact Rect.part_disjoint hdiv_dst h
theorem dst_cover : (Finset.univ : Finset (Fin 32)).biUnion dstSet = Finset.univ :=
  (Finset.biUnion_congr rfl fun i _ => dstSet_eq i).trans (Rect.biUnion_part hdiv_dst)
theorem dst_parts (d : Dev nD) (q : PosShare TreeShare) (f : Buf (Elt F) (dstLoc d)) :
    (dstLoc d ↦{q} f : sProp 𝕄) = bigSep Finset.univ fun w : Fin 32 => dstLoc d ↦[dstSet w]{q} f := by
  rw [← pointsTo_biUnion Finset.univ (ℓ := dstLoc d) dstSet dst_disjoint, dst_cover]; try rfl

theorem histSet_eq (w : Fin 32) : histSet w = (histPart w).set := by
  show ((View.whole (main_v33_scv : Ref sig .scVector)).slice (histPart w)).set = _
  rw [View.set_slice]; exact Finset.map_refl
theorem hist_disjoint : ∀ i ∈ (Finset.univ : Finset (Fin 32)), ∀ j ∈ (Finset.univ : Finset (Fin 32)), i ≠ j → Disjoint (histSet i) (histSet j) :=
  fun i _ j _ h => by rw [histSet_eq, histSet_eq]; exact Rect.part_disjoint hdiv_hist h
theorem hist_cover : (Finset.univ : Finset (Fin 32)).biUnion histSet = Finset.univ :=
  (Finset.biUnion_congr rfl fun i _ => histSet_eq i).trans (Rect.biUnion_part hdiv_hist)
theorem hist_parts (d : Dev nD) (q : PosShare TreeShare) (f : Buf (Elt F) (histLoc d)) :
    (histLoc d ↦{q} f : sProp 𝕄) = bigSep Finset.univ fun w : Fin 32 => histLoc d ↦[histSet w]{q} f := by
  rw [← pointsTo_biUnion Finset.univ (ℓ := histLoc d) histSet hist_disjoint, hist_cover]; try rfl

theorem rowsSet_eq (w : Fin 32) : rowsSet w = (rowsPart w).set := by
  show ((View.whole (main_v39_scv : Ref sig .scVector)).slice (rowsPart w)).set = _
  rw [View.set_slice]; exact Finset.map_refl
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint hdiv_rows h
theorem rows_cover : (Finset.univ : Finset (Fin 32)).biUnion rowsSet = Finset.univ :=
  (Finset.biUnion_congr rfl fun i _ => rowsSet_eq i).trans (Rect.biUnion_part hdiv_rows)
theorem yst_parts (d : Dev nD) (q : PosShare TreeShare) (f : Buf (Elt F) (ystLoc d)) :
    (ystLoc d ↦{q} f : sProp 𝕄) = bigSep Finset.univ fun w : Fin 32 => ystLoc d ↦[rowsSet w]{q} f := by
  rw [← pointsTo_biUnion Finset.univ (ℓ := ystLoc d) rowsSet rows_disjoint, rows_cover]; try rfl
theorem st_parts (d : Dev nD) (q : PosShare TreeShare) (f : Buf (Elt F) (stLoc d)) :
    (stLoc d ↦{q} f : sProp 𝕄) = bigSep Finset.univ fun w : Fin 32 => stLoc d ↦[rowsSet w]{q} f := by
  rw [← pointsTo_biUnion Finset.univ (ℓ := stLoc d) rowsSet rows_disjoint, rows_cover]; try rfl

/-! ## The 32 tiles are the 2 × 16 (core, subcore) pairs -/

theorem wid_eq (p : Fin 2 × Fin 16) : wid p.1 p.2 = finProdFinEquiv p := by
  apply Fin.ext; show 16 * p.1.val + p.2.val = p.2.val + 16 * p.1.val; omega

theorem bigSep_wid (Φ : Fin 32 → sProp 𝕄) :
    bigSep Finset.univ Φ = bigSep Finset.univ fun c : Fin 2 => bigSep Finset.univ fun i : Fin 16 => Φ (wid c i) := by
  rw [← bigSep_univ_prod (fun p : Fin 2 × Fin 16 => Φ (wid p.1 p.2)),
    show (Finset.univ : Finset (Fin 32)) = (Finset.univ : Finset (Fin 2 × Fin 16)).map (finProdFinEquiv : Fin 2 × Fin 16 ≃ Fin 32).toEmbedding from
      (Finset.map_univ_equiv _).symm, BI.bigSep_map]
  exact bigSep_congr fun p _ => congrArg Φ (wid_eq p).symm

variable (C : Conts F)

theorem st0_eq (d : Dev nD) :
    (bigSep Finset.univ fun c : Fin ((K (F := F)).nCore 0) => (P C).st 0 d c) = bigSep Finset.univ fun w : Fin 32 => go0 C d w := by
  rw [bigSep_wid (fun w => go0 C d w)]; rfl
theorem dn0_eq (d : Dev nD) :
    (bigSep Finset.univ fun c : Fin ((K (F := F)).nCore 0) => (P C).dn 0 d c) = bigSep Finset.univ fun w : Fin 32 => td0 C d w := by
  rw [bigSep_wid (fun w => td0 C d w)]; rfl
theorem st1_eq (d : Dev nD) :
    (bigSep Finset.univ fun c : Fin ((K (F := F)).nCore 1) => (P C).st 1 d c) = bigSep Finset.univ fun w : Fin 32 => go1 C d w := by
  rw [bigSep_wid (fun w => go1 C d w)]; rfl
theorem dn1_eq (d : Dev nD) :
    (bigSep Finset.univ fun c : Fin ((K (F := F)).nCore 1) => (P C).dn 1 d c) = bigSep Finset.univ fun w : Fin 32 => td1 C d w := by
  rw [bigSep_wid (fun w => td1 C d w)]; rfl

/-- A part held at given contents is a part held at some contents. -/
theorem hist_row_any (d : Dev nD) (f : Buf (Elt F) (histLoc d)) (w : Fin 32) :
    (histLoc d ↦[histSet w]{fullShare} f : sProp 𝕄) ⊢ iprop(∃ f, histLoc d ↦[histSet w]{fullShare} f) := by
  iintro H; iexists f; iexact H
theorem st_row_any (d : Dev nD) (f : Buf (Elt F) (stLoc d)) (w : Fin 32) :
    (stLoc d ↦[rowsSet w]{fullShare} f : sProp 𝕄) ⊢ iprop(∃ f, stLoc d ↦[rowsSet w]{fullShare} f) := by
  iintro H; iexists f; iexact H
theorem hist_rows_any (d : Dev nD) (f : Buf (Elt F) (histLoc d)) :
    (bigSep Finset.univ fun w : Fin 32 => (histLoc d ↦[histSet w]{fullShare} f : sProp 𝕄))
      ⊢ (bigSep Finset.univ fun w : Fin 32 => iprop(∃ f, histLoc d ↦[histSet w]{fullShare} f) : sProp 𝕄) :=
  bigSep_mono fun w _ => hist_row_any d f w
theorem st_rows_any (d : Dev nD) (f : Buf (Elt F) (stLoc d)) :
    (bigSep Finset.univ fun w : Fin 32 => (stLoc d ↦[rowsSet w]{fullShare} f : sProp 𝕄))
      ⊢ (bigSep Finset.univ fun w : Fin 32 => iprop(∃ f, stLoc d ↦[rowsSet w]{fullShare} f) : sProp 𝕄) :=
  bigSep_mono fun w _ => st_row_any d f w

/-! ## The histogram call -/

/-- Out: the targets by slices, the zero vector by read shares (the remainder kept), the histogram by rows. -/
theorem call0_out (d : Dev nD) (f : Buf (Elt F) (histLoc d)) :
    iprop((dstLoc d ↦{fullShare} C.dst d) ∗ (z1Loc d ↦{fullShare} C.z1 d) ∗ (histLoc d ↦{fullShare} f))
      ⊢ (iprop((z1Loc d ↦{shareDrop fullShare 32} C.z1 d) ∗ bigSep Finset.univ fun c : Fin ((K (F := F)).nCore 0) => (P C).st 0 d c) : sProp 𝕄) := by
  rw [st0_eq, dst_parts, hist_parts]
  unfold go0
  rw [bigSep_sep', bigSep_sep']
  iintro ⟨Hd, Hz, Hh⟩
  ihave Hz' := (pointsTo_toks_split (ℓ := z1Loc d) (f := C.z1 d) fullShare 32) $$ Hz
  icases Hz' with ⟨Hzr, Hzt⟩
  isplitl [Hzr]; · iexact Hzr
  isplitl [Hd]; · iexact Hd
  isplitl [Hzt]; · iexact Hzt
  iapply (hist_rows_any d f)
  iexact Hh

/-- Back: the slices and the shares rejoin; the rows join at what the tiles left. -/
theorem call0_back (d : Dev nD) :
    (iprop((z1Loc d ↦{shareDrop fullShare 32} C.z1 d) ∗ bigSep Finset.univ fun c : Fin ((K (F := F)).nCore 0) => (P C).dn 0 d c) : sProp 𝕄)
      ⊢ iprop((dstLoc d ↦{fullShare} C.dst d) ∗ (z1Loc d ↦{fullShare} C.z1 d) ∗ (histLoc d ↦{fullShare} C.hist d)) := by
  rw [dn0_eq, dst_parts, hist_parts]
  unfold td0
  rw [bigSep_sep', bigSep_sep']
  iintro ⟨Hzr, Hd, Hzt, Hh⟩
  isplitl [Hd]; · iexact Hd
  isplitl [Hzr Hzt]
  · iapply (pointsTo_toks_join (ℓ := z1Loc d) (f := C.z1 d) fullShare 32)
    isplitl [Hzr] <;> iassumption
  iexact Hh

/-! ## The aggregation call -/

theorem call1_out (d : Dev nD) (f : Buf (Elt F) (stLoc d)) :
    iprop((srcLoc d ↦{fullShare} C.src d) ∗ (dstLoc d ↦{fullShare} C.dst1 d) ∗ (ystLoc d ↦{fullShare} C.yst d) ∗ (z2Loc d ↦{fullShare} C.z2 d) ∗ (stLoc d ↦{fullShare} f))
      ⊢ (iprop(((srcLoc d ↦{shareDrop fullShare 32} C.src d) ∗ (dstLoc d ↦{shareDrop fullShare 32} C.dst1 d) ∗ (z2Loc d ↦{shareDrop fullShare 32} C.z2 d))
          ∗ bigSep Finset.univ fun c : Fin ((K (F := F)).nCore 1) => (P C).st 1 d c) : sProp 𝕄) := by
  rw [st1_eq, yst_parts, st_parts]
  unfold go1
  rw [bigSep_sep', bigSep_sep', bigSep_sep', bigSep_sep']
  iintro ⟨Hs, Hd, Hy, Hz, Ho⟩
  ihave Hs' := (pointsTo_toks_split (ℓ := srcLoc d) (f := C.src d) fullShare 32) $$ Hs
  icases Hs' with ⟨Hsr, Hst⟩
  ihave Hd' := (pointsTo_toks_split (ℓ := dstLoc d) (f := C.dst1 d) fullShare 32) $$ Hd
  icases Hd' with ⟨Hdr, Hdt⟩
  ihave Hz' := (pointsTo_toks_split (ℓ := z2Loc d) (f := C.z2 d) fullShare 32) $$ Hz
  icases Hz' with ⟨Hzr, Hzt⟩
  isplitl [Hsr Hdr Hzr]
  · isplitl [Hsr]; · iexact Hsr
    isplitl [Hdr]; · iexact Hdr
    iexact Hzr
  isplitl [Hst]; · iexact Hst
  isplitl [Hdt]; · iexact Hdt
  isplitl [Hy]; · iexact Hy
  isplitl [Hzt]; · iexact Hzt
  iapply (st_rows_any d f)
  iexact Ho

theorem call1_back (d : Dev nD) :
    (iprop(((srcLoc d ↦{shareDrop fullShare 32} C.src d) ∗ (dstLoc d ↦{shareDrop fullShare 32} C.dst1 d) ∗ (z2Loc d ↦{shareDrop fullShare 32} C.z2 d))
          ∗ bigSep Finset.univ fun c : Fin ((K (F := F)).nCore 1) => (P C).dn 1 d c) : sProp 𝕄)
      ⊢ iprop((srcLoc d ↦{fullShare} C.src d) ∗ (dstLoc d ↦{fullShare} C.dst1 d) ∗ (ystLoc d ↦{fullShare} C.yst d) ∗ (z2Loc d ↦{fullShare} C.z2 d) ∗ (stLoc d ↦{fullShare} C.st d)) := by
  rw [dn1_eq, yst_parts, st_parts]
  unfold td1
  rw [bigSep_sep', bigSep_sep', bigSep_sep', bigSep_sep']
  iintro ⟨⟨Hsr, Hdr, Hzr⟩, Hst, Hdt, Hy, Hzt, Ho⟩
  isplitl [Hsr Hst]
  · iapply (pointsTo_toks_join (ℓ := srcLoc d) (f := C.src d) fullShare 32)
    isplitl [Hsr] <;> iassumption
  isplitl [Hdr Hdt]
  · iapply (pointsTo_toks_join (ℓ := dstLoc d) (f := C.dst1 d) fullShare 32)
    isplitl [Hdr] <;> iassumption
  isplitl [Hy]; · iexact Hy
  isplitl [Hzr Hzt]
  · iapply (pointsTo_toks_join (ℓ := z2Loc d) (f := C.z2 d) fullShare 32)
    isplitl [Hzr] <;> iassumption
  iexact Ho

end Cert.Proof.KI

end
-- ==== Proof.PipeGhost.lean ====
/-
  The TensorCore pipelines' staging cells in the resource algebra: their rounds are the left summand of the right
  summand (beside the transfers' counters, after the handshakes' rounds); what the launch deals each device for each
  of the three pipelines is its cells' launch state and its transfers' duty tokens, all funded from one element.
-/
import proofs.«205814_g58841051955373_cont_9to1_m_133_55_alg».proof.Proof.Setup
import Idealize.ShloMosaic.Lib.Pipeline.Regions

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The staging cells' rounds: the left factor of the right factor. -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP (F := F)).LandsIn (upEmb : UEmb _ 𝕄) := by unfold EP; infer_instance

/-- No pipeline has a prefetched table. -/
abbrev adm : (p : Fin 3) → (pcfgs (F := F) p).Adm := fun p => (cfgs p).toPCfg_adm

/-- What the launch deals device `d` for pipeline `p`: its staging cells' launch state and its transfers' duty tokens. -/
abbrev pipeGhost (p : Fin 3) (d : Dev nD) : sProp 𝕄 :=
  iprop(Pipeline.cellsGhost (Pipeline.pin (pcfgs (F := F)) adm) EP p d ∗ Pipeline.toksInit (Pipeline.pin (pcfgs (F := F)) adm) EP p d)

/-- The pipelines' summand of the launch element. -/
def uP₀ : UP := initOf (Pipeline.cells (Pipeline.pin (pcfgs (F := F)) adm) cellOf_inj) (Pipeline.launchToks (Pipeline.pin (pcfgs (F := F)) adm) cellOf_inj)

theorem fund_pipes : (BI.own (EP (F := F) (uP₀ (F := F))) : sProp 𝕄)
    ⊢ iprop(|==> bigSep Finset.univ fun d : Dev nD => bigSep Finset.univ fun p : Fin 3 => pipeGhost p d) := by
  unfold uP₀
  refine (Pipeline.fund_ghost (Pipeline.pin (pcfgs (F := F)) adm) EP cellOf_inj).trans ?_
  simp only [pipeGhost, bigSep_sep']
  exact BI.Entails.refl _

end Cert.Proof.KI

end
-- ==== Proof.LaunchVals.lean ====
/-
  @main on the TensorCore, from the launch to the claim. The thread holds every unscoped array at a valuation; each
  host stretch advances the valuation by its operations; each SparseCore call takes its arrays out of it (carved for
  the 32 tiles), and puts them back with the call's result array at the value the tiles leave; each TensorCore call
  takes its arrays whole and puts them back with its result at the value its grid leaves. The values are parameters
  of this module (what each of the five kernels computes, as a function of its operands' contents), and so are the
  five kernels' proofs: the launch is proved once over them.
-/
import proofs.«205814_g58841051955373_cont_9to1_m_133_55_alg».proof.Proof.HostOps
import proofs.«205814_g58841051955373_cont_9to1_m_133_55_alg».proof.Proof.Handover
import proofs.«205814_g58841051955373_cont_9to1_m_133_55_alg».proof.Proof.PipeGhost
import Idealize.ShloMosaic.Lib.Pipeline.Frame

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq tcRefs devRef_mem_tcRefs)
open Idealize.ShloMosaic.Pipeline (ucRefs unscopedBufs_held sub_ucRefs)
open Idealize.ShloMosaic.Transfers (shareTok shareDrop)

variable {F : FTy → Type} [FloatOps F]

local notation "𝕄" => MT nD τ sig (HIx 2) (Elt F) ℕ UU ℕ

/-! ## The arrays as device buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v1' : DevRef τ sig := Proc.devRef .tc (main_v1 : Ref sig .tc)
abbrev v3' : DevRef τ sig := Proc.devRef .tc (main_v3 : Ref sig .tc)
abbrev v5' : DevRef τ sig := Proc.devRef .tc (main_v5 : Ref sig .tc)
abbrev v15' : DevRef τ sig := Proc.devRef .tc (main_v15 : Ref sig .tc)
abbrev v19' : DevRef τ sig := Proc.devRef .tc (main_v19 : Ref sig .tc)
abbrev v30' : DevRef τ sig := Proc.devRef .tc (main_v30 : Ref sig .tc)
abbrev v31' : DevRef τ sig := Proc.devRef .tc (main_v31 : Ref sig .tc)
abbrev v32' : DevRef τ sig := Proc.devRef .tc (main_v32 : Ref sig .tc)
abbrev v33' : DevRef τ sig := Proc.devRef .tc (main_v33 : Ref sig .tc)
abbrev v35' : DevRef τ sig := Proc.devRef .tc (main_v35 : Ref sig .tc)
abbrev v36' : DevRef τ sig := Proc.devRef .tc (main_v36 : Ref sig .tc)
abbrev v38' : DevRef τ sig := Proc.devRef .tc (main_v38 : Ref sig .tc)
abbrev v39' : DevRef τ sig := Proc.devRef .tc (main_v39 : Ref sig .tc)
abbrev v40' : DevRef τ sig := Proc.devRef .tc (main_v40 : Ref sig .tc)
abbrev v41' : DevRef τ sig := Proc.devRef .tc (main_v41 : Ref sig .tc)
abbrev v42' : DevRef τ sig := Proc.devRef .tc (main_v42 : Ref sig .tc)

theorem mem_uc (b : Ref sig .tc) (h : (Proc.devRef (τ := τ) .tc b).isScoped = false) : Proc.devRef (τ := τ) .tc b ∈ ucRefs τ sig :=
  Finset.mem_filter.mpr ⟨devRef_mem_tcRefs b, by rw [h]; exact Bool.false_ne_true⟩

/-! ## The host stretches' side conditions -/

theorem opsA_tc : (opsA (F := F)).Forall fun op => op.bufs ⊆ tcRefs τ sig := by
  simp only [List.Forall, StableHlo.nullary_bufs_sub, StableHlo.unary_bufs_sub, StableHlo.binary_bufs_sub, StableHlo.reshape_bufs_sub, StableHlo.TRef.unary, StableHlo.TRef.binary, StableHlo.TRef.reshape, and_self]
theorem opsB_tc : (opsB (F := F)).Forall fun op => op.bufs ⊆ tcRefs τ sig := by
  simp only [List.Forall, StableHlo.unary_bufs_sub, StableHlo.reshape_bufs_sub, and_self]
theorem opsC_tc : (opsC (F := F)).Forall fun op => op.bufs ⊆ tcRefs τ sig := by
  simp only [List.Forall, StableHlo.unary_bufs_sub, StableHlo.reshape_bufs_sub, and_self]
theorem opsD_tc : (opsD (F := F)).Forall fun op => op.bufs ⊆ tcRefs τ sig := by
  simp only [List.Forall, StableHlo.reshape_bufs_sub]
theorem opsA_uc : ∀ op ∈ (opsA (F := F)), op.bufs ⊆ ucRefs τ sig := fun op h => sub_ucRefs op (List.forall_iff_forall_mem.mp opsA_tc op h)
theorem opsB_uc : ∀ op ∈ (opsB (F := F)), op.bufs ⊆ ucRefs τ sig := fun op h => sub_ucRefs op (List.forall_iff_forall_mem.mp opsB_tc op h)
theorem opsC_uc : ∀ op ∈ (opsC (F := F)), op.bufs ⊆ ucRefs τ sig := fun op h => sub_ucRefs op (List.forall_iff_forall_mem.mp opsC_tc op h)
theorem opsD_uc : ∀ op ∈ (opsD (F := F)), op.bufs ⊆ ucRefs τ sig := fun op h => sub_ucRefs op (List.forall_iff_forall_mem.mp opsD_tc op h)
theorem opsA_fresh : ∀ op ∈ (opsA (F := F)), op.fresh = ∅ := by
  intro _ h; (repeat (cases h with | head => rfl | tail _ h => ?_)); exact nomatch h
theorem opsB_fresh : ∀ op ∈ (opsB (F := F)), op.fresh = ∅ := by
  intro _ h; (repeat (cases h with | head => rfl | tail _ h => ?_)); exact nomatch h
theorem opsC_fresh : ∀ op ∈ (opsC (F := F)), op.fresh = ∅ := by
  intro _ h; (repeat (cases h with | head => rfl | tail _ h => ?_)); exact nomatch h
theorem opsD_fresh : ∀ op ∈ (opsD (F := F)), op.fresh = ∅ := by
  intro _ h; (repeat (cases h with | head => rfl | tail _ h => ?_)); exact nomatch h

/-! ## What the five kernels compute, and the valuations along @main -/

/-- The five kernels' values, each as a function of its operands' contents. -/
structure Vals (F : FTy → Type) where
  hist : (d : Dev nD) → Buf (Elt F) (dstLoc d) → Buf (Elt F) (z1Loc d) → Buf (Elt F) (histLoc d)
  x1t : (d : Dev nD) → Buf (Elt F) ((T d : Thread nD τ).loc main_v1) → Buf (Elt F) ((T d : Thread nD τ).loc main_v35) → Buf (Elt F) ((T d : Thread nD τ).loc main_v36)
  yst : (d : Dev nD) → Buf (Elt F) ((T d : Thread nD τ).loc main_v38) → Buf (Elt F) ((T d : Thread nD τ).loc main_v36) → Buf (Elt F) ((T d : Thread nD τ).loc main_v1)
    → Buf (Elt F) (histLoc d) → Buf (Elt F) ((T d : Thread nD τ).loc main_v15) → Buf (Elt F) ((T d : Thread nD τ).loc main_v19) → Buf (Elt F) (ystLoc d)
  st : (d : Dev nD) → Buf (Elt F) (srcLoc d) → Buf (Elt F) (dstLoc d) → Buf (Elt F) (ystLoc d) → Buf (Elt F) (z2Loc d) → Buf (Elt F) (stLoc d)
  out : (d : Dev nD) → Buf (Elt F) (stLoc d) → Buf (Elt F) (ystLoc d) → Buf (Elt F) (histLoc d) → Buf (Elt F) ((T d : Thread nD τ).loc main_v30)
    → Buf (Elt F) ((T d : Thread nD τ).loc main_v41)

variable (Vl : Vals F) (m : (ℓ : Loc nD τ sig) → Buf (Elt F) ℓ) (ρ : Dev nD → PrngReg)

def V0 (d : Dev nD) : Valuation τ sig (Elt F) := fun b => m (d, b)
def VA (d : Dev nD) : Valuation τ sig (Elt F) := after opsA (V0 m d)
def cHist (d : Dev nD) : Buf (Elt F) (histLoc d) := Vl.hist d (VA m d v5') (VA m d v31')
def V1 (d : Dev nD) : Valuation τ sig (Elt F) := Function.update (VA m d) v33' (cHist Vl m d)
def VB (d : Dev nD) : Valuation τ sig (Elt F) := after opsB (V1 Vl m d)
def cX1 (d : Dev nD) : Buf (Elt F) ((T d : Thread nD τ).loc main_v36) := Vl.x1t d (VB Vl m d v1') (VB Vl m d v35')
def V2 (d : Dev nD) : Valuation τ sig (Elt F) := Function.update (VB Vl m d) v36' (cX1 Vl m d)
def VC (d : Dev nD) : Valuation τ sig (Elt F) := after opsC (V2 Vl m d)
def cYst (d : Dev nD) : Buf (Elt F) (ystLoc d) :=
  Vl.yst d (VC Vl m d v38') (VC Vl m d v36') (VC Vl m d v1') (VC Vl m d v33') (VC Vl m d v15') (VC Vl m d v19')
def V3 (d : Dev nD) : Valuation τ sig (Elt F) := Function.update (VC Vl m d) v39' (cYst Vl m d)
def cSt (d : Dev nD) : Buf (Elt F) (stLoc d) := Vl.st d (V3 Vl m d v3') (V3 Vl m d v5') (cYst Vl m d) (V3 Vl m d v32')
def V4 (d : Dev nD) : Valuation τ sig (Elt F) := Function.update (V3 Vl m d) v40' (cSt Vl m d)
def cOut (d : Dev nD) : Buf (Elt F) ((T d : Thread nD τ).loc main_v41) := Vl.out d (cSt Vl m d) (V4 Vl m d v39') (V4 Vl m d v33') (V4 Vl m d v30')
def V5 (d : Dev nD) : Valuation τ sig (Elt F) := Function.update (V4 Vl m d) v41' (cOut Vl m d)
def VF (d : Dev nD) : Valuation τ sig (Elt F) := after opsD (V5 Vl m d)

/-- The contents the two SparseCore calls meet and leave. -/
def CC : Conts F where
  dst := fun d => VA m d v5'
  dst1 := fun d => V3 Vl m d v5'
  src := fun d => V3 Vl m d v3'
  z1 := fun d => VA m d v31'
  z2 := fun d => V3 Vl m d v32'
  yst := fun d => cYst Vl m d
  hist := fun d => cHist Vl m d
  st := fun d => cSt Vl m d

end Cert.Proof.KI

end
-- ==== Proof.Launch.lean ====
/-
  @main on the TensorCore: the proof. See LaunchVals.lean for the valuations V0 … VF along @main.
-/
import proofs.«205814_g58841051955373_cont_9to1_m_133_55_alg».proof.Proof.LaunchVals

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq tcRefs devRef_mem_tcRefs)
open Idealize.ShloMosaic.Pipeline (ucRefs unscopedBufs_held sub_ucRefs)
open Idealize.ShloMosaic.Transfers (shareTok shareDrop)

variable {F : FTy → Type} [FloatOps F]

local notation "𝕄" => MT nD τ sig (HIx 2) (Elt F) ℕ UU ℕ

/-! ## Taking a few arrays out of the valuation, and putting them back -/

theorem held_take (d : Dev nD) (Ts : Finset (DevRef τ sig)) (hT : Ts ⊆ ucRefs τ sig) (W : Valuation τ sig (Elt F)) :
    (held (T d : Thread nD τ) (ucRefs τ sig) W : sProp 𝕄) ⊢ iprop(held (T d : Thread nD τ) Ts W ∗ held (T d : Thread nD τ) (ucRefs τ sig \ Ts) W) :=
  Entails.of_eq (held_sub_split (T d : Thread nD τ) hT W)

theorem held_put (d : Dev nD) (Ts : Finset (DevRef τ sig)) (hT : Ts ⊆ ucRefs τ sig) (W W' : Valuation τ sig (Elt F))
    (h : ∀ b, b ∉ Ts → W' b = W b) :
    (iprop(held (T d : Thread nD τ) Ts W' ∗ held (T d : Thread nD τ) (ucRefs τ sig \ Ts) W) : sProp 𝕄) ⊢ held (T d : Thread nD τ) (ucRefs τ sig) W' := by
  rw [held_sub_split (T d : Thread nD τ) hT W',
    held_congr (T d : Thread nD τ) (S := ucRefs τ sig \ Ts) (V := W') (V' := W) (fun b hb => h b (Finset.mem_sdiff.mp hb).2)]

/-- The histogram call's arrays. -/
abbrev T0 : Finset (DevRef τ sig) := {v5', v31', v33'}
theorem T0_sub : (T0 : Finset (DevRef τ sig)) ⊆ ucRefs τ sig := by
  intro b hb
  simp only [T0, Finset.mem_insert, Finset.mem_singleton] at hb
  rcases hb with rfl | rfl | rfl <;> exact mem_uc _ (by decide)
theorem held_T0 (d : Dev nD) (W : Valuation τ sig (Elt F)) :
    (held (T d : Thread nD τ) T0 W : sProp 𝕄) = iprop((dstLoc d ↦{fullShare} W v5') ∗ (z1Loc d ↦{fullShare} W v31') ∗ (histLoc d ↦{fullShare} W v33')) := by
  unfold held T0
  rw [SparseCore.bigSep_insert' (by decide), SparseCore.bigSep_insert' (by decide), bigSep_singleton]

variable (Vl : Vals F) (m : (ℓ : Loc nD τ sig) → Buf (Elt F) ℓ) (ρ : Dev nD → PrngReg)

theorem unscoped_held (d : Dev nD) :
    (unscopedBufs d (fun b => m ((T d : Thread nD τ).loc b)) : sProp 𝕄) = held (T d : Thread nD τ) (ucRefs τ sig) (V0 m d) :=
  unscopedBufs_held d (V0 m d)

/-! ## The arrays each launch takes, read out of a valuation -/

theorem held_T0_V1 (d : Dev nD) :
    (held (T d : Thread nD τ) T0 (V1 Vl m d) : sProp 𝕄)
      = iprop((dstLoc d ↦{fullShare} (CC Vl m).dst d) ∗ (z1Loc d ↦{fullShare} (CC Vl m).z1 d) ∗ (histLoc d ↦{fullShare} (CC Vl m).hist d)) := by
  rw [held_T0]; unfold V1
  rw [Function.update_of_ne (show v5' ≠ v33' by decide), Function.update_of_ne (show v31' ≠ v33' by decide), Function.update_self]
  rfl

/-- The first TensorCore call's arrays. -/
abbrev R0s : Finset (DevRef τ sig) := {v1', v35', v36'}
theorem R0s_sub : (R0s : Finset (DevRef τ sig)) ⊆ ucRefs τ sig := by
  intro b hb
  simp only [R0s, Finset.mem_insert, Finset.mem_singleton] at hb
  rcases hb with rfl | rfl | rfl <;> exact mem_uc _ (by decide)
theorem held_R0s (d : Dev nD) (W : Valuation τ sig (Elt F)) :
    (held (T d : Thread nD τ) R0s W : sProp 𝕄) = iprop((((T d : Thread nD τ).loc main_v1) ↦{fullShare} W v1') ∗ (((T d : Thread nD τ).loc main_v35) ↦{fullShare} W v35')
      ∗ (((T d : Thread nD τ).loc main_v36) ↦{fullShare} W v36')) := by
  unfold held R0s
  rw [SparseCore.bigSep_insert' (by decide), SparseCore.bigSep_insert' (by decide), bigSep_singleton]

/-- The second TensorCore call's arrays. -/
abbrev R1s : Finset (DevRef τ sig) := {v38', v36', v1', v33', v15', v19', v39'}
theorem R1s_sub : (R1s : Finset (DevRef τ sig)) ⊆ ucRefs τ sig := by
  intro b hb
  simp only [R1s, Finset.mem_insert, Finset.mem_singleton] at hb
  rcases hb with rfl | rfl | rfl | rfl | rfl | rfl | rfl <;> exact mem_uc _ (by decide)
theorem held_R1s (d : Dev nD) (W : Valuation τ sig (Elt F)) :
    (held (T d : Thread nD τ) R1s W : sProp 𝕄) = iprop((((T d : Thread nD τ).loc main_v38) ↦{fullShare} W v38') ∗ (((T d : Thread nD τ).loc main_v36) ↦{fullShare} W v36')
      ∗ (((T d : Thread nD τ).loc main_v1) ↦{fullShare} W v1') ∗ (histLoc d ↦{fullShare} W v33') ∗ (((T d : Thread nD τ).loc main_v15) ↦{fullShare} W v15')
      ∗ (((T d : Thread nD τ).loc main_v19) ↦{fullShare} W v19') ∗ (ystLoc d ↦{fullShare} W v39')) := by
  unfold held R1s
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The aggregation call's arrays. -/
abbrev C1s : Finset (DevRef τ sig) := {v3', v5', v39', v32', v40'}
theorem C1s_sub : (C1s : Finset (DevRef τ sig)) ⊆ ucRefs τ sig := by
  intro b hb
  simp only [C1s, Finset.mem_insert, Finset.mem_singleton] at hb
  rcases hb with rfl | rfl | rfl | rfl | rfl <;> exact mem_uc _ (by decide)
theorem held_C1s (d : Dev nD) (W : Valuation τ sig (Elt F)) :
    (held (T d : Thread nD τ) C1s W : sProp 𝕄) = iprop((srcLoc d ↦{fullShare} W v3') ∗ (dstLoc d ↦{fullShare} W v5') ∗ (ystLoc d ↦{fullShare} W v39')
      ∗ (z2Loc d ↦{fullShare} W v32') ∗ (stLoc d ↦{fullShare} W v40')) := by
  unfold held C1s
  rw [SparseCore.bigSep_insert' (by decide), SparseCore.bigSep_insert' (by decide), SparseCore.bigSep_insert' (by decide), SparseCore.bigSep_insert' (by decide), bigSep_singleton]

/-- The last TensorCore call's arrays. -/
abbrev R2s : Finset (DevRef τ sig) := {v40', v39', v33', v30', v41'}
theorem R2s_sub : (R2s : Finset (DevRef τ sig)) ⊆ ucRefs τ sig := by
  intro b hb
  simp only [R2s, Finset.mem_insert, Finset.mem_singleton] at hb
  rcases hb with rfl | rfl | rfl | rfl | rfl <;> exact mem_uc _ (by decide)
theorem held_R2s (d : Dev nD) (W : Valuation τ sig (Elt F)) :
    (held (T d : Thread nD τ) R2s W : sProp 𝕄) = iprop((stLoc d ↦{fullShare} W v40') ∗ (ystLoc d ↦{fullShare} W v39') ∗ (histLoc d ↦{fullShare} W v33')
      ∗ (((T d : Thread nD τ).loc main_v30) ↦{fullShare} W v30') ∗ (((T d : Thread nD τ).loc main_v41) ↦{fullShare} W v41')) := by
  unfold held R2s
  rw [SparseCore.bigSep_insert' (by decide), SparseCore.bigSep_insert' (by decide), SparseCore.bigSep_insert' (by decide), SparseCore.bigSep_insert' (by decide), bigSep_singleton]

/-! ## The three TensorCore calls, as obligations -/

def Region0 : Prop := ∀ (P : (K (F := F)).Pay (nD := nD) (Val := Elt F) (Name := ℕ) (U := UU)) (κ : GSem nD τ sig → ℕ) (d : Dev nD)
    (X : Buf (Elt F) ((T d : Thread nD τ).loc main_v1)) (A : Buf (Elt F) ((T d : Thread nD τ).loc main_v35)),
    iprop((K (F := F)).ctx EH P κ ∗ (K (F := F)).tcSt EH d 1 ∗ boundary (T d : Thread nD τ) ∗ pipeGhost 0 d
        ∗ (((T d : Thread nD τ).loc main_v1) ↦{fullShare} X) ∗ (((T d : Thread nD τ).loc main_v35) ↦{fullShare} A)
        ∗ (∃ f : Buf (Elt F) ((T d : Thread nD τ).loc main_v36), ((T d : Thread nD τ).loc main_v36) ↦{fullShare} f))
      ⊢ wp frame (wpE ((K (F := F)).defs (D (F := F))) 𝒱 (T d) none) Set.univ (entry (F := F) 0)
          (fun _ => iprop((K (F := F)).tcSt EH d 1 ∗ boundary (T d : Thread nD τ)
            ∗ (((T d : Thread nD τ).loc main_v1) ↦{fullShare} X) ∗ (((T d : Thread nD τ).loc main_v35) ↦{fullShare} A)
            ∗ (((T d : Thread nD τ).loc main_v36) ↦{fullShare} Vl.x1t d X A)))

def Region1 : Prop := ∀ (P : (K (F := F)).Pay (nD := nD) (Val := Elt F) (Name := ℕ) (U := UU)) (κ : GSem nD τ sig → ℕ) (d : Dev nD)
    (A1 : Buf (Elt F) ((T d : Thread nD τ).loc main_v38)) (X1 : Buf (Elt F) ((T d : Thread nD τ).loc main_v36)) (X : Buf (Elt F) ((T d : Thread nD τ).loc main_v1))
    (H : Buf (Elt F) (histLoc d)) (W0 : Buf (Elt F) ((T d : Thread nD τ).loc main_v15)) (W1 : Buf (Elt F) ((T d : Thread nD τ).loc main_v19)),
    iprop((K (F := F)).ctx EH P κ ∗ (K (F := F)).tcSt EH d 1 ∗ boundary (T d : Thread nD τ) ∗ pipeGhost 1 d
        ∗ (((T d : Thread nD τ).loc main_v38) ↦{fullShare} A1) ∗ (((T d : Thread nD τ).loc main_v36) ↦{fullShare} X1) ∗ (((T d : Thread nD τ).loc main_v1) ↦{fullShare} X)
        ∗ (histLoc d ↦{fullShare} H) ∗ (((T d : Thread nD τ).loc main_v15) ↦{fullShare} W0) ∗ (((T d : Thread nD τ).loc main_v19) ↦{fullShare} W1)
        ∗ (∃ f : Buf (Elt F) (ystLoc d), ystLoc d ↦{fullShare} f))
      ⊢ wp frame (wpE ((K (F := F)).defs (D (F := F))) 𝒱 (T d) none) Set.univ (entry (F := F) 1)
          (fun _ => iprop((K (F := F)).tcSt EH d 1 ∗ boundary (T d : Thread nD τ)
            ∗ (((T d : Thread nD τ).loc main_v38) ↦{fullShare} A1) ∗ (((T d : Thread nD τ).loc main_v36) ↦{fullShare} X1) ∗ (((T d : Thread nD τ).loc main_v1) ↦{fullShare} X)
            ∗ (histLoc d ↦{fullShare} H) ∗ (((T d : Thread nD τ).loc main_v15) ↦{fullShare} W0) ∗ (((T d : Thread nD τ).loc main_v19) ↦{fullShare} W1)
            ∗ (ystLoc d ↦{fullShare} Vl.yst d A1 X1 X H W0 W1)))

def Region2 : Prop := ∀ (P : (K (F := F)).Pay (nD := nD) (Val := Elt F) (Name := ℕ) (U := UU)) (κ : GSem nD τ sig → ℕ) (d : Dev nD)
    (ST : Buf (Elt F) (stLoc d)) (Y : Buf (Elt F) (ystLoc d)) (H : Buf (Elt F) (histLoc d)) (B : Buf (Elt F) ((T d : Thread nD τ).loc main_v30)),
    iprop((K (F := F)).ctx EH P κ ∗ (K (F := F)).tcSt EH d 2 ∗ boundary (T d : Thread nD τ) ∗ pipeGhost 2 d
        ∗ (stLoc d ↦{fullShare} ST) ∗ (ystLoc d ↦{fullShare} Y) ∗ (histLoc d ↦{fullShare} H) ∗ (((T d : Thread nD τ).loc main_v30) ↦{fullShare} B)
        ∗ (∃ f : Buf (Elt F) ((T d : Thread nD τ).loc main_v41), ((T d : Thread nD τ).loc main_v41) ↦{fullShare} f))
      ⊢ wp frame (wpE ((K (F := F)).defs (D (F := F))) 𝒱 (T d) none) Set.univ (entry (F := F) 2)
          (fun _ => iprop((K (F := F)).tcSt EH d 2 ∗ boundary (T d : Thread nD τ)
            ∗ (stLoc d ↦{fullShare} ST) ∗ (ystLoc d ↦{fullShare} Y) ∗ (histLoc d ↦{fullShare} H) ∗ (((T d : Thread nD τ).loc main_v30) ↦{fullShare} B)
            ∗ (((T d : Thread nD τ).loc main_v41) ↦{fullShare} Vl.out d ST Y H B)))

/-- What @main leaves the claim: every array at the last valuation. -/
abbrev FIN (d : Dev nD) : sProp 𝕄 := held (T d : Thread nD τ) (ucRefs τ sig) (VF Vl m d)

theorem held_R0s_V2 (d : Dev nD) :
    (held (T d : Thread nD τ) R0s (V2 Vl m d) : sProp 𝕄) = iprop((((T d : Thread nD τ).loc main_v1) ↦{fullShare} VB Vl m d v1') ∗ (((T d : Thread nD τ).loc main_v35) ↦{fullShare} VB Vl m d v35')
      ∗ (((T d : Thread nD τ).loc main_v36) ↦{fullShare} Vl.x1t d (VB Vl m d v1') (VB Vl m d v35'))) := by
  rw [held_R0s]; unfold V2
  rw [Function.update_of_ne (show v1' ≠ v36' by decide), Function.update_of_ne (show v35' ≠ v36' by decide), Function.update_self]
  rfl

theorem held_R1s_V3 (d : Dev nD) :
    (held (T d : Thread nD τ) R1s (V3 Vl m d) : sProp 𝕄) = iprop((((T d : Thread nD τ).loc main_v38) ↦{fullShare} VC Vl m d v38') ∗ (((T d : Thread nD τ).loc main_v36) ↦{fullShare} VC Vl m d v36')
      ∗ (((T d : Thread nD τ).loc main_v1) ↦{fullShare} VC Vl m d v1') ∗ (histLoc d ↦{fullShare} VC Vl m d v33') ∗ (((T d : Thread nD τ).loc main_v15) ↦{fullShare} VC Vl m d v15')
      ∗ (((T d : Thread nD τ).loc main_v19) ↦{fullShare} VC Vl m d v19')
      ∗ (ystLoc d ↦{fullShare} Vl.yst d (VC Vl m d v38') (VC Vl m d v36') (VC Vl m d v1') (VC Vl m d v33') (VC Vl m d v15') (VC Vl m d v19'))) := by
  rw [held_R1s]; unfold V3
  rw [Function.update_of_ne (show v38' ≠ v39' by decide), Function.update_of_ne (show v36' ≠ v39' by decide), Function.update_of_ne (show v1' ≠ v39' by decide),
    Function.update_of_ne (show v33' ≠ v39' by decide), Function.update_of_ne (show v15' ≠ v39' by decide), Function.update_of_ne (show v19' ≠ v39' by decide), Function.update_self]
  rfl

theorem held_C1s_V3 (d : Dev nD) :
    (held (T d : Thread nD τ) C1s (V3 Vl m d) : sProp 𝕄) = iprop((srcLoc d ↦{fullShare} (CC Vl m).src d) ∗ (dstLoc d ↦{fullShare} (CC Vl m).dst1 d) ∗ (ystLoc d ↦{fullShare} (CC Vl m).yst d)
      ∗ (z2Loc d ↦{fullShare} (CC Vl m).z2 d) ∗ (stLoc d ↦{fullShare} V3 Vl m d v40')) := by
  rw [held_C1s]
  have : V3 Vl m d v39' = (CC Vl m).yst d := by unfold V3; rw [Function.update_self]; rfl
  rw [this]; rfl

theorem held_C1s_V4 (d : Dev nD) :
    (held (T d : Thread nD τ) C1s (V4 Vl m d) : sProp 𝕄) = iprop((srcLoc d ↦{fullShare} (CC Vl m).src d) ∗ (dstLoc d ↦{fullShare} (CC Vl m).dst1 d) ∗ (ystLoc d ↦{fullShare} (CC Vl m).yst d)
      ∗ (z2Loc d ↦{fullShare} (CC Vl m).z2 d) ∗ (stLoc d ↦{fullShare} (CC Vl m).st d)) := by
  rw [held_C1s]; unfold V4
  rw [Function.update_of_ne (show v3' ≠ v40' by decide), Function.update_of_ne (show v5' ≠ v40' by decide), Function.update_of_ne (show v39' ≠ v40' by decide),
    Function.update_of_ne (show v32' ≠ v40' by decide), Function.update_self]
  have : V3 Vl m d v39' = (CC Vl m).yst d := by unfold V3; rw [Function.update_self]; rfl
  rw [this]; rfl

theorem held_R2s_V4 (d : Dev nD) :
    (held (T d : Thread nD τ) R2s (V4 Vl m d) : sProp 𝕄) = iprop((stLoc d ↦{fullShare} cSt Vl m d) ∗ (ystLoc d ↦{fullShare} V4 Vl m d v39') ∗ (histLoc d ↦{fullShare} V4 Vl m d v33')
      ∗ (((T d : Thread nD τ).loc main_v30) ↦{fullShare} V4 Vl m d v30') ∗ (((T d : Thread nD τ).loc main_v41) ↦{fullShare} V4 Vl m d v41')) := by
  rw [held_R2s]
  have : V4 Vl m d v40' = cSt Vl m d := by unfold V4; rw [Function.update_self]
  rw [this]

theorem held_R2s_V5 (d : Dev nD) :
    (held (T d : Thread nD τ) R2s (V5 Vl m d) : sProp 𝕄) = iprop((stLoc d ↦{fullShare} cSt Vl m d) ∗ (ystLoc d ↦{fullShare} V4 Vl m d v39') ∗ (histLoc d ↦{fullShare} V4 Vl m d v33')
      ∗ (((T d : Thread nD τ).loc main_v30) ↦{fullShare} V4 Vl m d v30')
      ∗ (((T d : Thread nD τ).loc main_v41) ↦{fullShare} Vl.out d (cSt Vl m d) (V4 Vl m d v39') (V4 Vl m d v33') (V4 Vl m d v30'))) := by
  rw [held_R2s]; unfold V5
  rw [Function.update_of_ne (show v40' ≠ v41' by decide), Function.update_of_ne (show v39' ≠ v41' by decide), Function.update_of_ne (show v33' ≠ v41' by decide),
    Function.update_of_ne (show v30' ≠ v41' by decide), Function.update_self]
  have : V4 Vl m d v40' = cSt Vl m d := by unfold V4; rw [Function.update_self]
  rw [this]; rfl

set_option backward.isDefEq.respectTransparency.types false in
theorem hmain (hR0 : Region0 Vl) (hR1 : Region1 Vl) (hR2 : Region2 Vl) (κ : GSem nD τ sig → ℕ) (d : Dev nD) :
    iprop((K (F := F)).ctx EH (P (CC Vl m)) κ ∗ (K (F := F)).tcSt EH d 0 ∗ (K (F := F)).tcRes m ρ d ∗ (pipeGhost 0 d ∗ pipeGhost 1 d ∗ pipeGhost 2 d))
      ⊢ wp frame (wpE ((K (F := F)).defs (D (F := F))) 𝒱 (SparseCore.T d) none) Set.univ (main d)
          fun _ => iprop((K (F := F)).tcSt EH d 2 ∗ FIN Vl m d) := by
  unfold SparseCore.Cfg.tcRes
  rw [unscoped_held, main_eq]
  iintro ⟨#Hctx, Hst, ⟨Hb, Hheld, Hsems, Hprng⟩, Hg0, Hg1, Hg2⟩
  -- the first stretch of host operations
  iapply (wp_seq (defs := (K (F := F)).defs (D (F := F))) 𝒱 none Set.univ d (ucRefs τ sig) _ opsA opsA_uc opsA_fresh (V0 m d)) $$ [Hb Hheld]
  · isplitl [Hb] <;> iassumption
  iintro ⟨Hb, Hheld⟩
  -- the histogram call
  rw [wp_bind]
  ihave HheldA := (Entails.of_eq (show (held (T d : Thread nD τ) (ucRefs τ sig) (after opsA (V0 m d)) : sProp 𝕄) = held (T d : Thread nD τ) (ucRefs τ sig) (VA m d) from rfl)) $$ Hheld
  ihave H := (held_take d T0 T0_sub (VA m d)) $$ HheldA
  icases H with ⟨H0, Hrest⟩
  ihave H0' := (Entails.of_eq ((held_T0 d (VA m d)).trans (show _ = (iprop((dstLoc d ↦{fullShare} (CC Vl m).dst d) ∗ (z1Loc d ↦{fullShare} (CC Vl m).z1 d) ∗ (histLoc d ↦{fullShare} VA m d v33')) : sProp 𝕄) from rfl))) $$ H0
  ihave Hout := (call0_out (CC Vl m) d (VA m d v33')) $$ H0'
  icases Hout with ⟨Hzr, Hst0⟩
  iapply ((K (F := F)).wp_run (D (F := F)) 𝒱 (EH := EH) (P := P (CC Vl m)) κ d 0) $$ [Hst Hst0 Hb Hrest Hzr Hg0 Hg1 Hg2 Hsems Hprng]
  isplitr; · iexact Hctx
  isplitl [Hst]; · iexact Hst
  isplitl [Hst0]; · iexact Hst0
  iintro ⟨Hst, Hdn⟩
  ihave Hback := (call0_back (CC Vl m) d) $$ [Hzr Hdn]
  · isplitl [Hzr] <;> iassumption
  ihave HT := (Entails.of_eq (held_T0_V1 Vl m d).symm) $$ Hback
  ihave Hheld := (held_put d T0 T0_sub (VA m d) (V1 Vl m d) (fun b hb => Function.update_of_ne (fun e => hb (by rw [e]; decide)) _ _)) $$ [HT Hrest]
  · isplitl [HT] <;> iassumption
  -- the second stretch, and the first TensorCore call
  iapply (wp_seq (defs := (K (F := F)).defs (D (F := F))) 𝒱 none Set.univ d (ucRefs τ sig) _ opsB opsB_uc opsB_fresh (V1 Vl m d)) $$ [Hb Hheld]
  · isplitl [Hb] <;> iassumption
  iintro ⟨Hb, Hheld⟩
  ihave HheldB := (Entails.of_eq (show (held (T d : Thread nD τ) (ucRefs τ sig) (after opsB (V1 Vl m d)) : sProp 𝕄) = held (T d : Thread nD τ) (ucRefs τ sig) (VB Vl m d) from rfl)) $$ Hheld
  rw [wp_bind]
  ihave H := (held_take d R0s R0s_sub (VB Vl m d)) $$ HheldB
  icases H with ⟨H0, Hrest⟩
  ihave H0' := (Entails.of_eq (held_R0s d (VB Vl m d))) $$ H0
  icases H0' with ⟨HX, HA, Hf⟩
  ihave Hst1 := (Entails.of_eq (show ((K (F := F)).tcSt EH d ((0 : Fin 2).val + 1) : sProp 𝕄) = (K (F := F)).tcSt EH d 1 from rfl)) $$ Hst
  iapply (wp_wand_r frame _ Set.univ)
  isplitl [Hst1 Hb Hg0 HX HA Hf]
  · iapply (hR0 (P (CC Vl m)) κ d (VB Vl m d v1') (VB Vl m d v35'))
    isplitr; · iexact Hctx
    isplitl [Hst1]; · iexact Hst1
    isplitl [Hb]; · iexact Hb
    isplitl [Hg0]; · iexact Hg0
    isplitl [HX]; · iexact HX
    isplitl [HA]; · iexact HA
    iexists _; iexact Hf
  iintro %_ ⟨Hst, Hb, HX, HA, Hf⟩
  ihave HT := (Entails.of_eq (held_R0s_V2 Vl m d).symm) $$ [HX HA Hf]
  · isplitl [HX]; · iexact HX
    isplitl [HA] <;> iassumption
  ihave Hheld := (held_put d R0s R0s_sub (VB Vl m d) (V2 Vl m d) (fun b hb => Function.update_of_ne (fun e => hb (by rw [e]; decide)) _ _)) $$ [HT Hrest]
  · isplitl [HT] <;> iassumption
  -- the third stretch, and the second TensorCore call
  iapply (wp_seq (defs := (K (F := F)).defs (D (F := F))) 𝒱 none Set.univ d (ucRefs τ sig) _ opsC opsC_uc opsC_fresh (V2 Vl m d)) $$ [Hb Hheld]
  · isplitl [Hb] <;> iassumption
  iintro ⟨Hb, Hheld⟩
  ihave HheldC := (Entails.of_eq (show (held (T d : Thread nD τ) (ucRefs τ sig) (after opsC (V2 Vl m d)) : sProp 𝕄) = held (T d : Thread nD τ) (ucRefs τ sig) (VC Vl m d) from rfl)) $$ Hheld
  rw [wp_bind]
  ihave H := (held_take d R1s R1s_sub (VC Vl m d)) $$ HheldC
  icases H with ⟨H0, Hrest⟩
  ihave H0' := (Entails.of_eq (held_R1s d (VC Vl m d))) $$ H0
  icases H0' with ⟨HA1, HX1, HX, HH, HW0, HW1, Hf⟩
  iapply (wp_wand_r frame _ Set.univ)
  isplitl [Hst Hb Hg1 HA1 HX1 HX HH HW0 HW1 Hf]
  · iapply (hR1 (P (CC Vl m)) κ d (VC Vl m d v38') (VC Vl m d v36') (VC Vl m d v1') (VC Vl m d v33') (VC Vl m d v15') (VC Vl m d v19'))
    isplitr; · iexact Hctx
    isplitl [Hst]; · iexact Hst
    isplitl [Hb]; · iexact Hb
    isplitl [Hg1]; · iexact Hg1
    isplitl [HA1]; · iexact HA1
    isplitl [HX1]; · iexact HX1
    isplitl [HX]; · iexact HX
    isplitl [HH]; · iexact HH
    isplitl [HW0]; · iexact HW0
    isplitl [HW1]; · iexact HW1
    iexists _; iexact Hf
  iintro %_ ⟨Hst, Hb, HA1, HX1, HX, HH, HW0, HW1, Hf⟩
  ihave HT := (Entails.of_eq (held_R1s_V3 Vl m d).symm) $$ [HA1 HX1 HX HH HW0 HW1 Hf]
  · isplitl [HA1]; · iexact HA1
    isplitl [HX1]; · iexact HX1
    isplitl [HX]; · iexact HX
    isplitl [HH]; · iexact HH
    isplitl [HW0]; · iexact HW0
    isplitl [HW1] <;> iassumption
  ihave Hheld := (held_put d R1s R1s_sub (VC Vl m d) (V3 Vl m d) (fun b hb => Function.update_of_ne (fun e => hb (by rw [e]; decide)) _ _)) $$ [HT Hrest]
  · isplitl [HT] <;> iassumption
  -- the aggregation call
  rw [wp_bind]
  ihave H := (held_take d C1s C1s_sub (V3 Vl m d)) $$ Hheld
  icases H with ⟨H0, Hrest⟩
  ihave H0' := (Entails.of_eq (held_C1s_V3 Vl m d)) $$ H0
  ihave Hout := (call1_out (CC Vl m) d (V3 Vl m d v40')) $$ H0'
  icases Hout with ⟨Hrem, Hst1'⟩
  iapply ((K (F := F)).wp_run (D (F := F)) 𝒱 (EH := EH) (P := P (CC Vl m)) κ d 1) $$ [Hst Hst1' Hb Hrest Hrem Hg2 Hsems Hprng]
  isplitr; · iexact Hctx
  isplitl [Hst]; · iexact Hst
  isplitl [Hst1']; · iexact Hst1'
  iintro ⟨Hst, Hdn⟩
  ihave Hback := (call1_back (CC Vl m) d) $$ [Hrem Hdn]
  · isplitl [Hrem] <;> iassumption
  ihave HT := (Entails.of_eq (held_C1s_V4 Vl m d).symm) $$ Hback
  ihave Hheld := (held_put d C1s C1s_sub (V3 Vl m d) (V4 Vl m d) (fun b hb => Function.update_of_ne (fun e => hb (by rw [e]; decide)) _ _)) $$ [HT Hrest]
  · isplitl [HT] <;> iassumption
  -- the last TensorCore call
  rw [wp_bind]
  ihave H := (held_take d R2s R2s_sub (V4 Vl m d)) $$ Hheld
  icases H with ⟨H0, Hrest⟩
  ihave H0' := (Entails.of_eq (held_R2s_V4 Vl m d)) $$ H0
  icases H0' with ⟨HS, HY, HH, HB, Hf⟩
  ihave Hst2 := (Entails.of_eq (show ((K (F := F)).tcSt EH d ((1 : Fin 2).val + 1) : sProp 𝕄) = (K (F := F)).tcSt EH d 2 from rfl)) $$ Hst
  iapply (wp_wand_r frame _ Set.univ)
  isplitl [Hst2 Hb Hg2 HS HY HH HB Hf]
  · iapply (hR2 (P (CC Vl m)) κ d (cSt Vl m d) (V4 Vl m d v39') (V4 Vl m d v33') (V4 Vl m d v30'))
    isplitr; · iexact Hctx
    isplitl [Hst2]; · iexact Hst2
    isplitl [Hb]; · iexact Hb
    isplitl [Hg2]; · iexact Hg2
    isplitl [HS]; · iexact HS
    isplitl [HY]; · iexact HY
    isplitl [HH]; · iexact HH
    isplitl [HB]; · iexact HB
    iexists _; iexact Hf
  iintro %_ ⟨Hst, Hb, HS, HY, HH, HB, Hf⟩
  ihave HT := (Entails.of_eq (held_R2s_V5 Vl m d).symm) $$ [HS HY HH HB Hf]
  · isplitl [HS]; · iexact HS
    isplitl [HY]; · iexact HY
    isplitl [HH]; · iexact HH
    isplitl [HB] <;> iassumption
  ihave Hheld := (held_put d R2s R2s_sub (V4 Vl m d) (V5 Vl m d) (fun b hb => Function.update_of_ne (fun e => hb (by rw [e]; decide)) _ _)) $$ [HT Hrest]
  · isplitl [HT] <;> iassumption
  -- the closing stretch
  rw [← bind_pure (seq opsD)]
  iapply (wp_seq (defs := (K (F := F)).defs (D (F := F))) 𝒱 none Set.univ d (ucRefs τ sig) _ opsD opsD_uc opsD_fresh (V5 Vl m d)) $$ [Hb Hheld]
  · isplitl [Hb] <;> iassumption
  iintro ⟨Hb, Hheld⟩
  rw [wp_pure]; imodintro
  isplitl [Hst]; · iexact Hst
  iexact Hheld

end Cert.Proof.KI

end
-- ==== Proof.LaunchRun.lean ====
/-
  The program's run: the launch element (the handshakes' rounds, the three pipelines' staging cells funded for every
  device, nothing for the SparseCore kernels, whose copies need no schedule), how the final memory reads the last
  valuation at the result and at the five arguments, and the launch theorem applied: every weakly fair execution of
  the 35 threads terminates, faults nowhere, and ends with those six arrays at the last valuation.
-/
import proofs.«205814_g58841051955373_cont_9to1_m_133_55_alg».proof.Proof.Launch

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq tcRefs)
open Idealize.ShloMosaic.Pipeline (ucRefs)

variable {F : FTy → Type} [FloatOps F]

local notation "𝕄" => MT nD τ sig (HIx 2) (Elt F) ℕ UU ℕ

/-! ## The launch element -/

def u₀ : UU := (initOf (K (F := F)).hsCells (K (F := F)).hsToks, (uP₀ (F := F), (1 : Counters)))

/-- What the launch deals the TensorCore of a device beyond the library's: its three pipelines' cells and tokens. -/
abbrev G (d : Dev nD) : sProp 𝕄 := iprop(pipeGhost 0 d ∗ pipeGhost 1 d ∗ pipeGhost 2 d)

theorem pipes_three (d : Dev nD) : (bigSep Finset.univ fun p : Fin 3 => (pipeGhost p d : sProp 𝕄)) = G d := by
  rw [show (Finset.univ : Finset (Fin 3)) = {0, 1, 2} by decide, SparseCore.bigSep_insert' (by decide), SparseCore.bigSep_insert' (by decide), bigSep_singleton]

theorem bigSep_emp' {I : Type} (s : Finset I) : (bigSep s fun _ => iprop(emp)) = (iprop(emp) : sProp 𝕄) := bigSep_emp_const s

theorem hu₀ (C : Conts F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P C).x q thr) := by
  unfold u₀
  iintro Hu
  ihave H := (ownU_pair _ _) $$ Hu
  icases H with ⟨HH, HR⟩
  ihave H2 := (own_pair_emb (embR : Emb (UP × Counters) 𝕄) (uP₀ (F := F)) (1 : Counters)) $$ HR
  icases H2 with ⟨HP, -⟩
  ihave HP' := (Entails.of_eq (show (BI.own (((Emb.inl : Emb UP (UP × Counters)).trans (embR : Emb (UP × Counters) 𝕄)) (uP₀ (F := F))) : sProp 𝕄) = BI.own (EP (F := F) (uP₀ (F := F))) from rfl)) $$ HP
  imod (fund_pipes (F := F)) $$ HP' with Hg
  imodintro
  isplitl [HH]; · iexact HH
  isplitl [Hg]
  · rw [show (bigSep Finset.univ fun d : Dev nD => (G d : sProp 𝕄)) = bigSep Finset.univ fun d : Dev nD => bigSep Finset.univ fun p : Fin 3 => (pipeGhost p d : sProp 𝕄) from
      bigSep_congr fun d _ => (pipes_three d).symm]
    iexact Hg
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## Reading the claim off the final memory -/

variable (Vl : Vals F) (m : (ℓ : Loc nD τ sig) → Buf (Elt F) ℓ) (ρ : Dev nD → PrngReg)

abbrev Fs : Finset (DevRef τ sig) := {v42', a0', a1', a2', a3', a4'}
theorem Fs_sub : (Fs : Finset (DevRef τ sig)) ⊆ ucRefs τ sig := by
  intro b hb
  simp only [Fs, Finset.mem_insert, Finset.mem_singleton] at hb
  rcases hb with rfl | rfl | rfl | rfl | rfl | rfl <;> exact mem_uc _ (by decide)
theorem held_Fs (d : Dev nD) (W : Valuation τ sig (Elt F)) :
    (held (T d : Thread nD τ) Fs W : sProp 𝕄) = iprop((((T d : Thread nD τ).loc main_v42) ↦{fullShare} W v42') ∗ (((T d : Thread nD τ).loc main_arg0) ↦{fullShare} W a0')
      ∗ (((T d : Thread nD τ).loc main_arg1) ↦{fullShare} W a1') ∗ (((T d : Thread nD τ).loc main_arg2) ↦{fullShare} W a2')
      ∗ (((T d : Thread nD τ).loc main_arg3) ↦{fullShare} W a3') ∗ (((T d : Thread nD τ).loc main_arg4) ↦{fullShare} W a4')) := by
  unfold held Fs
  rw [SparseCore.bigSep_insert' (by decide), SparseCore.bigSep_insert' (by decide), SparseCore.bigSep_insert' (by decide), SparseCore.bigSep_insert' (by decide),
    SparseCore.bigSep_insert' (by decide), bigSep_singleton]

def fq (d : Dev nD) (s' : Phys nD τ sig (Elt F)) : Prop :=
  s'.mem.mem ((T d : Thread nD τ).loc main_v42) = VF Vl m d v42' ∧ s'.mem.mem ((T d : Thread nD τ).loc main_arg0) = VF Vl m d a0'
  ∧ s'.mem.mem ((T d : Thread nD τ).loc main_arg1) = VF Vl m d a1' ∧ s'.mem.mem ((T d : Thread nD τ).loc main_arg2) = VF Vl m d a2'
  ∧ s'.mem.mem ((T d : Thread nD τ).loc main_arg3) = VF Vl m d a3' ∧ s'.mem.mem ((T d : Thread nD τ).loc main_arg4) = VF Vl m d a4'

theorem hfin (d : Dev nD) (s' : Phys nD τ sig (Elt F)) : iprop(FIN Vl m d ∗ SI s') ⊢ (⌜fq Vl m d s'⌝ : sProp 𝕄) := by
  iintro ⟨Hheld, HSI⟩
  ihave H := (held_take d Fs Fs_sub (VF Vl m d)) $$ Hheld
  icases H with ⟨H0, -⟩
  ihave H0' := (Entails.of_eq (held_Fs d (VF Vl m d))) $$ H0
  icases H0' with ⟨Hr, H0, H1, H2, H3, H4⟩
  ihave H := (persistent_entails_right (SI_pointsTo_agree (st := s') (ℓ := (T d : Thread nD τ).loc main_v42) (I := Finset.univ) (q := fullShare) (f := VF Vl m d v42'))) $$ [HSI Hr]
  · isplitl [HSI] <;> iassumption
  icases H with ⟨%hr, HSI, -⟩
  ihave H := (persistent_entails_right (SI_pointsTo_agree (st := s') (ℓ := (T d : Thread nD τ).loc main_arg0) (I := Finset.univ) (q := fullShare) (f := VF Vl m d a0'))) $$ [HSI H0]
  · isplitl [HSI] <;> iassumption
  icases H with ⟨%h0, HSI, -⟩
  ihave H := (persistent_entails_right (SI_pointsTo_agree (st := s') (ℓ := (T d : Thread nD τ).loc main_arg1) (I := Finset.univ) (q := fullShare) (f := VF Vl m d a1'))) $$ [HSI H1]
  · isplitl [HSI] <;> iassumption
  icases H with ⟨%h1, HSI, -⟩
  ihave H := (persistent_entails_right (SI_pointsTo_agree (st := s') (ℓ := (T d : Thread nD τ).loc main_arg2) (I := Finset.univ) (q := fullShare) (f := VF Vl m d a2'))) $$ [HSI H2]
  · isplitl [HSI] <;> iassumption
  icases H with ⟨%h2, HSI, -⟩
  ihave H := (persistent_entails_right (SI_pointsTo_agree (st := s') (ℓ := (T d : Thread nD τ).loc main_arg3) (I := Finset.univ) (q := fullShare) (f := VF Vl m d a3'))) $$ [HSI H3]
  · isplitl [HSI] <;> iassumption
  icases H with ⟨%h3, HSI, -⟩
  ihave H := (SI_pointsTo_agree (st := s') (ℓ := (T d : Thread nD τ).loc main_arg4) (I := Finset.univ) (q := fullShare) (f := VF Vl m d a4')) $$ [HSI H4]
  · isplitl [HSI] <;> iassumption
  icases H with %h4
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The run -/

def QC : PUnit × MemSt nD τ sig (Elt F) → Prop := fun r => ∀ c : Dev nD,
  r.2.mem ((T c : Thread nD τ).loc main_v42) = VF Vl m c v42' ∧ r.2.mem ((T c : Thread nD τ).loc main_arg0) = VF Vl m c a0'
  ∧ r.2.mem ((T c : Thread nD τ).loc main_arg1) = VF Vl m c a1' ∧ r.2.mem ((T c : Thread nD τ).loc main_arg2) = VF Vl m c a2'
  ∧ r.2.mem ((T c : Thread nD τ).loc main_arg3) = VF Vl m c a3' ∧ r.2.mem ((T c : Thread nD τ).loc main_arg4) = VF Vl m c a4'

theorem run_main [∀ e, Nonempty (Elt F e)] (hR0 : Region0 Vl) (hR1 : Region1 Vl) (hR2 : Region2 Vl)
    (ht0 : (K (F := F)).TileObl (D (F := F)) 𝒱 (P (CC Vl m)) v₀ 0) (ht1 : (K (F := F)).TileObl (D (F := F)) 𝒱 (P (CC Vl m)) v₀ 1) :
    θ_run (Cert.KernelIdeal.defs (F := F)) (Cert.KernelIdeal.threads (F := F)) ⟨m, fun _ => 0, ρ⟩ (QC Vl m) :=
  SparseCore.Cfg.θ_run_sc (K := K (F := F)) (D := D (F := F)) (𝒱 := 𝒱) (EH := EH) (P := P (CC Vl m)) facts v₀
    (fun q hq => match q with | 0 => nomatch hq | 1 => nomatch hq)
    (fun q _ => match q with | 0 => ht0 | 1 => ht1)
    (fun q _ => match q with | 0 => SparseCore.Cfg.VecSplit.of_plain (vecSplit0 (CC Vl m)) | 1 => SparseCore.Cfg.VecSplit.of_plain (vecSplit1 (CC Vl m)))
    m ρ main (fun d => G d) (FIN Vl m) (u₀ (F := F)) (sep_elim_left.trans (hu₀ (CC Vl m))) (hmain Vl m ρ hR0 hR1 hR2) (fq Vl m) (hfin Vl m) (QC Vl m) (fun _ h => h)

end Cert.Proof.KI

end
-- ==== Proof.HostVals.lean ====
/-
  The values @main's host operations compute, read at an index, as functions of the launch contents of the five
  arguments: the transposed feature matrix, the two rows of the edge list, the two block-diagonal weight matrices
  kron(I₂, Wᵀ), the bias row, the zero arrays, the two adjacency matrices and the reshaped result; and the frame
  facts: no operation and no kernel writes an argument, and a later stretch leaves an earlier result alone.
-/
import proofs.«205814_g58841051955373_cont_9to1_m_133_55_alg».proof.Proof.LaunchVals
import Idealize.ShloMosaic.Lib.ValueIdx
import Idealize.ShloMosaic.Lib.ValueLayout
import Idealize.ShloMosaic.Lib.IdealHost
import Idealize.ShloMosaic.Lib.Pipeline.Value

noncomputable section

namespace Cert.Proof.KI

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## The five arguments at the launch -/

section Args
variable (m : (ℓ : Loc nD τ sig) → Buf (Elt F) ℓ)

/-- The node features `x[n, k, f]`, the edge list `adj[r, e]`, the two adjacency matrices `A[k, i, j]`, the three weight
    matrices `Ws[k, i, j]` and the three bias rows `bs[k, f]`, as device `d` holds them at the launch. -/
abbrev argX (d : Dev nD) : S4096x2x128.Idx → F .f32 := m (d, a0')
abbrev argAdj (d : Dev nD) : S2x65536.Idx → BitVec 32 := m (d, a1')
abbrev argA (d : Dev nD) : S2x4096x4096.Idx → F .f32 := m (d, a2')
abbrev argWs (d : Dev nD) : S3x128x128.Idx → F .f32 := m (d, a3')
abbrev argBs (d : Dev nD) : S3x128.Idx → F .f32 := m (d, a4')

end Args

/-! ## Layout results of the first stretch, at any float instance -/

section Layout
variable (m : (ℓ : Loc nD τ sig) → Buf (Elt F) ℓ)

/-- The transposed features: row `f` of the 256 × 4096 matrix holds feature `f % 128` of half `f / 128` of every node. -/
theorem VA_v1 (d : Dev nD) (f : Fin 256) (n : Fin 4096) :
    (VA m d v1' : S256x4096.Idx → F .f32) (ix2 f n)
      = argX m d (ix3 n ⟨f.val / 128, by omega⟩ ⟨f.val % 128, Nat.mod_lt _ (by decide)⟩) := by
  dsimp only [VA, opsA]
  after_results_simp
  refine (transpose_ix2_apply _ _ f n).trans ?_
  refine shapeCast_apply _ _ _ _ ?_
  show ((⟨3, ![4096, 2, 128]⟩ : Shape).rowMajor _).val = ((⟨2, ![4096, 256]⟩ : Shape).rowMajor _).val
  rw [Shape.rowMajor_val_three, Shape.rowMajor_val_two]
  show (n.val * 2 + f.val / 128) * 128 + f.val % 128 = n.val * 256 + f.val
  omega

/-- The edge sources: row 0 of the edge list. -/
theorem VA_v3 (d : Dev nD) (e : Fin 65536) :
    (VA m d v3' : S65536.Idx → BitVec 32) (ix1 e) = argAdj m d (ix2 (0 : Fin 2) e) := by
  dsimp only [VA, opsA]
  after_results_simp
  exact (shapeCast_1a_a_apply _ _ e).trans (slice2_axis0_apply 0 _ _ 0 e 0 rfl)

/-- The edge targets: row 1 of the edge list. -/
theorem VA_v5 (d : Dev nD) (e : Fin 65536) :
    (VA m d v5' : S65536.Idx → BitVec 32) (ix1 e) = argAdj m d (ix2 (1 : Fin 2) e) := by
  dsimp only [VA, opsA]
  after_results_simp
  exact (shapeCast_1a_a_apply _ _ e).trans (slice2_axis0_apply 1 _ _ 0 e 1 rfl)

/-- The histogram's initial value: the word zero everywhere. -/
theorem VA_v31 (d : Dev nD) (n : Fin 4096) :
    (VA m d v31' : S4096.Idx → F .f32) (ix1 n) = FloatOps.ofBits .f32 0x00000000#32 := by
  dsimp only [VA, opsA]
  after_results_simp
  exact broadcastInDim_scalar_apply _ _ _

/-- The aggregation's initial value: the word zero everywhere. -/
theorem VA_v32 (d : Dev nD) (s : Fin 16) (n : Fin 4096) :
    (VA m d v32' : S16x4096.Idx → F .f32) (ix2 s n) = FloatOps.ofBits .f32 0x00000000#32 := by
  dsimp only [VA, opsA]
  after_results_simp
  exact broadcastInDim_scalar_apply _ _ _

theorem VA_v31_eq (d : Dev nD) : (VA m d v31' : S4096.Idx → F .f32) = fun _ => FloatOps.ofBits .f32 0x00000000#32 :=
  funext fun j => by rw [eq_ix1 j]; exact VA_v31 m d _
theorem VA_v32_eq (d : Dev nD) : (VA m d v32' : S16x4096.Idx → F .f32) = fun _ => FloatOps.ofBits .f32 0x00000000#32 :=
  funext fun j => by rw [eq_ix2 j]; exact VA_v32 m d _ _

end Layout

/-! ## What each stretch and each call leaves alone -/

section Frame
variable (Vl : Vals F) (m : (ℓ : Loc nD τ sig) → Buf (Elt F) ℓ)

/-- The references the four stretches write, and the five the calls write. -/
abbrev WA : List (Ref sig .tc) :=
  [main_v0, main_v1, main_v2, main_v3, main_v4, main_v5, main_v6, main_v7, main_c, main_v8, main_v9, main_v10, main_v11,
   main_v12, main_v13, main_v14, main_call0_v0, main_call0_v1, main_call0_v2, main_call0_v3, main_call0_v4, main_v15,
   main_v16, main_v17, main_v18, main_call1_v0, main_call1_v1, main_call1_v2, main_call1_v3, main_call1_v4, main_v19,
   main_v20, main_v21, main_cst, main_v22, main_v23, main_v24, main_v25, main_v26, main_v27, main_v28, main_v29, main_v30,
   main_cst_0, main_v31, main_cst_1, main_v32]
abbrev WB : List (Ref sig .tc) := [main_v34, main_v35]
abbrev WC : List (Ref sig .tc) := [main_v37, main_v38]
abbrev WD : List (Ref sig .tc) := [main_v42]
/-- Everything written after the first stretch: the calls' results and the later stretches'. -/
abbrev WL : List (Ref sig .tc) := [main_v33, main_v34, main_v35, main_v36, main_v37, main_v38, main_v39, main_v40, main_v41, main_v42]
/-- The five arguments. -/
abbrev argRefs : List (Ref sig .tc) := [main_arg0, main_arg1, main_arg2, main_arg3, main_arg4]

theorem opsA_writes : (opsA (F := F)).Forall fun op => op.writes ⊆ (WA.map (Proc.devRef (τ := τ) .tc)).toFinset := by
  simp only [List.Forall, nullary_writes, unary_writes, binary_writes, reshape_writes, TRef.unary, TRef.binary, TRef.reshape,
    Finset.singleton_subset_iff, List.mem_toFinset]
  repeat' apply And.intro
  all_goals exact List.mem_map_of_mem (by decide)
theorem opsB_writes : (opsB (F := F)).Forall fun op => op.writes ⊆ (WB.map (Proc.devRef (τ := τ) .tc)).toFinset := by
  simp only [List.Forall, unary_writes, reshape_writes, Finset.singleton_subset_iff, List.mem_toFinset]
  exact ⟨List.mem_map_of_mem (by decide), List.mem_map_of_mem (by decide)⟩
theorem opsC_writes : (opsC (F := F)).Forall fun op => op.writes ⊆ (WC.map (Proc.devRef (τ := τ) .tc)).toFinset := by
  simp only [List.Forall, unary_writes, reshape_writes, Finset.singleton_subset_iff, List.mem_toFinset]
  exact ⟨List.mem_map_of_mem (by decide), List.mem_map_of_mem (by decide)⟩
theorem opsD_writes : (opsD (F := F)).Forall fun op => op.writes ⊆ (WD.map (Proc.devRef (τ := τ) .tc)).toFinset := by
  simp only [List.Forall, reshape_writes, Finset.singleton_subset_iff, List.mem_toFinset]
  exact List.mem_map_of_mem (by decide)

/-! One step at a time: a reference the step does not write holds what it held. -/

theorem VA_of {r : Ref sig .tc} (d : Dev nD) (h : r ∉ WA) : VA m d (Proc.devRef .tc r) = m (d, Proc.devRef .tc r) :=
  after_of_writes_sub opsA _ opsA_writes h
theorem V1_of {r : Ref sig .tc} (d : Dev nD) (h : r ≠ main_v33) : V1 Vl m d (Proc.devRef .tc r) = VA m d (Proc.devRef .tc r) := by
  unfold V1; exact Function.update_of_ne (devRef_ne_of_ne h) _ _
theorem VB_of {r : Ref sig .tc} (d : Dev nD) (h : r ∉ WB) : VB Vl m d (Proc.devRef .tc r) = V1 Vl m d (Proc.devRef .tc r) :=
  after_of_writes_sub opsB _ opsB_writes h
theorem V2_of {r : Ref sig .tc} (d : Dev nD) (h : r ≠ main_v36) : V2 Vl m d (Proc.devRef .tc r) = VB Vl m d (Proc.devRef .tc r) := by
  unfold V2; exact Function.update_of_ne (devRef_ne_of_ne h) _ _
theorem VC_of {r : Ref sig .tc} (d : Dev nD) (h : r ∉ WC) : VC Vl m d (Proc.devRef .tc r) = V2 Vl m d (Proc.devRef .tc r) :=
  after_of_writes_sub opsC _ opsC_writes h
theorem V3_of {r : Ref sig .tc} (d : Dev nD) (h : r ≠ main_v39) : V3 Vl m d (Proc.devRef .tc r) = VC Vl m d (Proc.devRef .tc r) := by
  unfold V3; exact Function.update_of_ne (devRef_ne_of_ne h) _ _
theorem V4_of {r : Ref sig .tc} (d : Dev nD) (h : r ≠ main_v40) : V4 Vl m d (Proc.devRef .tc r) = V3 Vl m d (Proc.devRef .tc r) := by
  unfold V4; exact Function.update_of_ne (devRef_ne_of_ne h) _ _
theorem V5_of {r : Ref sig .tc} (d : Dev nD) (h : r ≠ main_v41) : V5 Vl m d (Proc.devRef .tc r) = V4 Vl m d (Proc.devRef .tc r) := by
  unfold V5; exact Function.update_of_ne (devRef_ne_of_ne h) _ _
theorem VF_of {r : Ref sig .tc} (d : Dev nD) (h : r ∉ WD) : VF Vl m d (Proc.devRef .tc r) = V5 Vl m d (Proc.devRef .tc r) :=
  after_of_writes_sub opsD _ opsD_writes h

/-! What a call leaves at its own result. -/

theorem V1_v33 (d : Dev nD) : V1 Vl m d v33' = cHist Vl m d := by unfold V1; exact Function.update_self _ _ _
theorem V2_v36 (d : Dev nD) : V2 Vl m d v36' = cX1 Vl m d := by unfold V2; exact Function.update_self _ _ _
theorem V3_v39 (d : Dev nD) : V3 Vl m d v39' = cYst Vl m d := by unfold V3; exact Function.update_self _ _ _
theorem V4_v40 (d : Dev nD) : V4 Vl m d v40' = cSt Vl m d := by unfold V4; exact Function.update_self _ _ _
theorem V5_v41 (d : Dev nD) : V5 Vl m d v41' = cOut Vl m d := by unfold V5; exact Function.update_self _ _ _

/-! All the later steps at once: a reference none of them writes holds what the first stretch left. -/

theorem ne_of_not_mem {l : List (Ref sig .tc)} {r x : Ref sig .tc} (h : r ∉ l) (hx : x ∈ l) : r ≠ x := fun e => h (e ▸ hx)

theorem V1_eq_VA {r : Ref sig .tc} (d : Dev nD) (h : r ∉ WL) : V1 Vl m d (Proc.devRef .tc r) = VA m d (Proc.devRef .tc r) :=
  V1_of Vl m d (ne_of_not_mem h (by decide))
theorem VB_eq_VA {r : Ref sig .tc} (d : Dev nD) (h : r ∉ WL) : VB Vl m d (Proc.devRef .tc r) = VA m d (Proc.devRef .tc r) :=
  (VB_of Vl m d (List.not_mem_cons_of_ne_of_not_mem (ne_of_not_mem h (by decide))
    (List.not_mem_cons_of_ne_of_not_mem (ne_of_not_mem h (by decide)) List.not_mem_nil))).trans (V1_eq_VA Vl m d h)
theorem V2_eq_VA {r : Ref sig .tc} (d : Dev nD) (h : r ∉ WL) : V2 Vl m d (Proc.devRef .tc r) = VA m d (Proc.devRef .tc r) :=
  (V2_of Vl m d (ne_of_not_mem h (by decide))).trans (VB_eq_VA Vl m d h)
theorem VC_eq_VA {r : Ref sig .tc} (d : Dev nD) (h : r ∉ WL) : VC Vl m d (Proc.devRef .tc r) = VA m d (Proc.devRef .tc r) :=
  (VC_of Vl m d (List.not_mem_cons_of_ne_of_not_mem (ne_of_not_mem h (by decide))
    (List.not_mem_cons_of_ne_of_not_mem (ne_of_not_mem h (by decide)) List.not_mem_nil))).trans (V2_eq_VA Vl m d h)
theorem V3_eq_VA {r : Ref sig .tc} (d : Dev nD) (h : r ∉ WL) : V3 Vl m d (Proc.devRef .tc r) = VA m d (Proc.devRef .tc r) :=
  (V3_of Vl m d (ne_of_not_mem h (by decide))).trans (VC_eq_VA Vl m d h)
theorem V4_eq_VA {r : Ref sig .tc} (d : Dev nD) (h : r ∉ WL) : V4 Vl m d (Proc.devRef .tc r) = VA m d (Proc.devRef .tc r) :=
  (V4_of Vl m d (ne_of_not_mem h (by decide))).trans (V3_eq_VA Vl m d h)
theorem V5_eq_VA {r : Ref sig .tc} (d : Dev nD) (h : r ∉ WL) : V5 Vl m d (Proc.devRef .tc r) = VA m d (Proc.devRef .tc r) :=
  (V5_of Vl m d (ne_of_not_mem h (by decide))).trans (V4_eq_VA Vl m d h)
theorem VF_eq_VA {r : Ref sig .tc} (d : Dev nD) (h : r ∉ WL) : VF Vl m d (Proc.devRef .tc r) = VA m d (Proc.devRef .tc r) :=
  (VF_of Vl m d (List.not_mem_cons_of_ne_of_not_mem (ne_of_not_mem h (by decide)) List.not_mem_nil)).trans (V5_eq_VA Vl m d h)

/-! The arguments: nothing writes them, so every valuation along @main holds the launch contents there. -/

theorem args_not_written : ∀ r ∈ argRefs, r ∉ WA ∧ r ∉ WL := by decide

theorem VA_arg {r : Ref sig .tc} (d : Dev nD) (h : r ∈ argRefs) : VA m d (Proc.devRef .tc r) = m (d, Proc.devRef .tc r) :=
  VA_of m d (args_not_written r h).1
theorem V1_arg {r : Ref sig .tc} (d : Dev nD) (h : r ∈ argRefs) : V1 Vl m d (Proc.devRef .tc r) = m (d, Proc.devRef .tc r) :=
  (V1_eq_VA Vl m d (args_not_written r h).2).trans (VA_arg m d h)
theorem VB_arg {r : Ref sig .tc} (d : Dev nD) (h : r ∈ argRefs) : VB Vl m d (Proc.devRef .tc r) = m (d, Proc.devRef .tc r) :=
  (VB_eq_VA Vl m d (args_not_written r h).2).trans (VA_arg m d h)
theorem V2_arg {r : Ref sig .tc} (d : Dev nD) (h : r ∈ argRefs) : V2 Vl m d (Proc.devRef .tc r) = m (d, Proc.devRef .tc r) :=
  (V2_eq_VA Vl m d (args_not_written r h).2).trans (VA_arg m d h)
theorem VC_arg {r : Ref sig .tc} (d : Dev nD) (h : r ∈ argRefs) : VC Vl m d (Proc.devRef .tc r) = m (d, Proc.devRef .tc r) :=
  (VC_eq_VA Vl m d (args_not_written r h).2).trans (VA_arg m d h)
theorem V3_arg {r : Ref sig .tc} (d : Dev nD) (h : r ∈ argRefs) : V3 Vl m d (Proc.devRef .tc r) = m (d, Proc.devRef .tc r) :=
  (V3_eq_VA Vl m d (args_not_written r h).2).trans (VA_arg m d h)
theorem V4_arg {r : Ref sig .tc} (d : Dev nD) (h : r ∈ argRefs) : V4 Vl m d (Proc.devRef .tc r) = m (d, Proc.devRef .tc r) :=
  (V4_eq_VA Vl m d (args_not_written r h).2).trans (VA_arg m d h)
theorem V5_arg {r : Ref sig .tc} (d : Dev nD) (h : r ∈ argRefs) : V5 Vl m d (Proc.devRef .tc r) = m (d, Proc.devRef .tc r) :=
  (V5_eq_VA Vl m d (args_not_written r h).2).trans (VA_arg m d h)
theorem VF_arg {r : Ref sig .tc} (d : Dev nD) (h : r ∈ argRefs) : VF Vl m d (Proc.devRef .tc r) = m (d, Proc.devRef .tc r) :=
  (VF_eq_VA Vl m d (args_not_written r h).2).trans (VA_arg m d h)

/-! The operands the calls read, at the valuation each call meets. -/

theorem VB_v1 (d : Dev nD) : VB Vl m d v1' = VA m d v1' := VB_eq_VA Vl m d (by decide)
theorem VC_v1 (d : Dev nD) : VC Vl m d v1' = VA m d v1' := VC_eq_VA Vl m d (by decide)
theorem VC_v15 (d : Dev nD) : VC Vl m d v15' = VA m d v15' := VC_eq_VA Vl m d (by decide)
theorem VC_v19 (d : Dev nD) : VC Vl m d v19' = VA m d v19' := VC_eq_VA Vl m d (by decide)
theorem V3_v3 (d : Dev nD) : V3 Vl m d v3' = VA m d v3' := V3_eq_VA Vl m d (by decide)
theorem V3_v5 (d : Dev nD) : V3 Vl m d v5' = VA m d v5' := V3_eq_VA Vl m d (by decide)
theorem V3_v32 (d : Dev nD) : V3 Vl m d v32' = VA m d v32' := V3_eq_VA Vl m d (by decide)
theorem V4_v30 (d : Dev nD) : V4 Vl m d v30' = VA m d v30' := V4_eq_VA Vl m d (by decide)
theorem VC_v33 (d : Dev nD) : VC Vl m d v33' = cHist Vl m d :=
  (VC_of Vl m d (by decide)).trans <| (V2_of Vl m d (by decide)).trans <| (VB_of Vl m d (by decide)).trans (V1_v33 Vl m d)
theorem VC_v36 (d : Dev nD) : VC Vl m d v36' = cX1 Vl m d := (VC_of Vl m d (by decide)).trans (V2_v36 Vl m d)
theorem V4_v33 (d : Dev nD) : V4 Vl m d v33' = cHist Vl m d :=
  (V4_of Vl m d (by decide)).trans <| (V3_of Vl m d (by decide)).trans (VC_v33 Vl m d)
theorem V4_v39 (d : Dev nD) : V4 Vl m d v39' = cYst Vl m d := (V4_of Vl m d (by decide)).trans (V3_v39 Vl m d)
theorem VF_v41 (d : Dev nD) : VF Vl m d v41' = cOut Vl m d := (VF_of Vl m d (by decide)).trans (V5_v41 Vl m d)

end Frame

/-! ## The later stretches, at any float instance -/

section Later
variable (Vl : Vals F) (m : (ℓ : Loc nD τ sig) → Buf (Elt F) ℓ)

/-- A leading unit axis of a stack cut at member `k` and dropped: the member. -/
theorem member_apply {n a b : ℕ} (X : (⟨3, ![n, a, b]⟩ : Shape).Idx → F .f32) (o : ℕ) (h : (⟨3, ![n, a, b]⟩ : Shape).Slices ![o, 0, 0] ⟨3, ![1, a, b]⟩)
    (hc : (⟨3, ![1, a, b]⟩ : Shape).ShapeCasts ⟨2, ![a, b]⟩) (k : Fin n) (hk : k.val = o) (i : Fin a) (j : Fin b) :
    shapeCast ⟨2, ![a, b]⟩ (extractStridedSlice ⟨3, ![1, a, b]⟩ ![o, 0, 0] X h) hc (ix2 i j) = X (ix3 k i j) := by
  refine (shapeCast_1ab_ab_apply _ _ i j).trans ?_
  exact extractStridedSlice_apply _ _ _ _ (ix3 k i j) fun ax => match ax with
    | ⟨0, _⟩ => hk.trans (Nat.add_zero _).symm | ⟨1, _⟩ => (Nat.zero_add _).symm | ⟨2, _⟩ => (Nat.zero_add _).symm

/-- The first adjacency matrix, as the first TensorCore call meets it. -/
theorem VB_v35 (d : Dev nD) (i j : Fin 4096) :
    (VB Vl m d v35' : S4096x4096.Idx → F .f32) (ix2 i j) = argA m d (ix3 (0 : Fin 2) i j) := by
  dsimp only [VB, opsB]
  after_results_simp
  refine (member_apply _ 0 _ _ (0 : Fin 2) rfl i j).trans ?_
  exact congrFun (V1_arg Vl m d (r := main_arg2) (by decide)) _

/-- The second adjacency matrix, as the second TensorCore call meets it. -/
theorem VC_v38 (d : Dev nD) (i j : Fin 4096) :
    (VC Vl m d v38' : S4096x4096.Idx → F .f32) (ix2 i j) = argA m d (ix3 (1 : Fin 2) i j) := by
  dsimp only [VC, opsC]
  after_results_simp
  refine (member_apply _ 1 _ _ (1 : Fin 2) rfl i j).trans ?_
  exact congrFun (V2_arg Vl m d (r := main_arg2) (by decide)) _

/-- The result: the last call's 4096 × 256 matrix with each row cut into its two halves. -/
theorem VF_v42 (d : Dev nD) (n : Fin 4096) (k : Fin 2) (f : Fin 128) :
    (VF Vl m d v42' : S4096x2x128.Idx → F .f32) (ix3 n k f)
      = (cOut Vl m d : S4096x256.Idx → F .f32) (ix2 n ⟨128 * k.val + f.val, by omega⟩) := by
  dsimp only [VF, opsD]
  after_results_simp
  refine (shapeCast_apply _ _ _ (ix2 n (⟨128 * k.val + f.val, by omega⟩ : Fin 256)) ?_).trans ?_
  · show ((⟨2, ![4096, 256]⟩ : Shape).rowMajor _).val = ((⟨3, ![4096, 2, 128]⟩ : Shape).rowMajor _).val
    rw [Shape.rowMajor_val_three, Shape.rowMajor_val_two]
    show n.val * 256 + (128 * k.val + f.val) = (n.val * 2 + k.val) * 128 + f.val
    omega
  · exact congrFun (V5_v41 Vl m d) _

end Later

/-! ## The block-diagonal weight matrices and the bias row, at any float instance -/

section Kron

/-- The 2 × 2 identity as @main builds it: the row number against the column number, the bit read as a float. -/
abbrev eye2 : S2x2.Idx → F .f32 :=
  uitofp .f32 (cmpi .eq (addi (iotaInDim S2x2 32 0) (broadcastInDim S2x2 ![] bcast_S_S2x2 (constantI S_ 32 0#32))) (iotaInDim S2x2 32 1))

/-- The Kronecker product of a 2 × 2 and a 128 × 128 matrix as @kron builds it: each factor broadcast twice to
    2 × 128 × 2 × 128, the product, the reshape to 256 × 256. -/
abbrev kron (E : S2x2.Idx → F .f32) (W : S128x128.Idx → F .f32) : S256x256.Idx → F .f32 :=
  shapeCast S256x256
    (mulf (broadcastInDim S2x128x2x128 ![0, 1, 2, 3] bcast_S2x1x2x1_S2x128x2x128_0_1_2_3 (broadcastInDim S2x1x2x1 ![0, 2] bcast_S2x2_S2x1x2x1_0_2 E))
      (broadcastInDim S2x128x2x128 ![0, 1, 2, 3] bcast_S1x128x1x128_S2x128x2x128_0_1_2_3 (broadcastInDim S1x128x1x128 ![1, 3] bcast_S128x128_S1x128x1x128_1_3 W)))
    shapeCasts_S2x128x2x128_S256x256

/-- Entry `(f, g)` of the Kronecker product: entry `(f / 128, g / 128)` of the first factor times entry `(f % 128, g % 128)` of the second. -/
theorem kron_apply (E : S2x2.Idx → F .f32) (W : S128x128.Idx → F .f32) (f g : Fin 256) :
    kron E W (ix2 f g)
      = FloatOps.mulf (E (ix2 ⟨f.val / 128, by omega⟩ ⟨g.val / 128, by omega⟩))
          (W (ix2 ⟨f.val % 128, Nat.mod_lt _ (by decide)⟩ ⟨g.val % 128, Nat.mod_lt _ (by decide)⟩)) := by
  refine (shapeCast_apply _ _ _ (ix4 (⟨f.val / 128, by omega⟩ : Fin 2) (⟨f.val % 128, Nat.mod_lt _ (by decide)⟩ : Fin 128)
    (⟨g.val / 128, by omega⟩ : Fin 2) (⟨g.val % 128, Nat.mod_lt _ (by decide)⟩ : Fin 128)) ?_).trans ?_
  · rw [Shape.rowMajor_val_four, Shape.rowMajor_val_two]
    show ((f.val / 128 * 128 + f.val % 128) * 2 + g.val / 128) * 128 + g.val % 128 = f.val * 256 + g.val
    omega
  · show FloatOps.mulf _ _ = _
    congr 1
    · refine (broadcastInDim_apply _ _ _ _ (ix4 (⟨f.val / 128, by omega⟩ : Fin 2) (0 : Fin 1) (⟨g.val / 128, by omega⟩ : Fin 2) (0 : Fin 1))
        fun a => match a with | ⟨0, _⟩ => rfl | ⟨1, _⟩ => rfl | ⟨2, _⟩ => rfl | ⟨3, _⟩ => rfl).trans ?_
      exact broadcastInDim_apply _ _ _ _ (ix2 _ _) fun a => match a with | ⟨0, _⟩ => rfl | ⟨1, _⟩ => rfl
    · refine (broadcastInDim_apply _ _ _ _ (ix4 (0 : Fin 1) (⟨f.val % 128, Nat.mod_lt _ (by decide)⟩ : Fin 128) (0 : Fin 1) (⟨g.val % 128, Nat.mod_lt _ (by decide)⟩ : Fin 128))
        fun a => match a with | ⟨0, _⟩ => rfl | ⟨1, _⟩ => rfl | ⟨2, _⟩ => rfl | ⟨3, _⟩ => rfl).trans ?_
      exact broadcastInDim_apply _ _ _ _ (ix2 _ _) fun a => match a with | ⟨0, _⟩ => rfl | ⟨1, _⟩ => rfl

/-- Member `k` of a stack of three weight matrices, transposed, read at an entry. -/
theorem wT_apply (Ws : S3x128x128.Idx → F .f32) (o : ℕ) (h : S3x128x128.Slices ![o, 0, 0] S1x128x128) (k : Fin 3) (hk : k.val = o) (b e : Fin 128) :
    transpose S128x128 [1, 0] (shapeCast S128x128 (extractStridedSlice S1x128x128 ![o, 0, 0] Ws h) shapeCasts_S1x128x128_S128x128)
        transposes_S128x128_S128x128_1_0 (ix2 b e) = Ws (ix3 k e b) :=
  (transpose_ix2_apply _ _ b e).trans (member_apply _ o _ _ k hk e b)

variable (m : (ℓ : Loc nD τ sig) → Buf (Elt F) ℓ)

/-- The two weight matrices the second TensorCore call reads, as the terms the first stretch computes. -/
theorem VA_v15_term (d : Dev nD) :
    (VA m d v15' : S256x256.Idx → F .f32)
      = kron eye2 (transpose S128x128 [1, 0] (shapeCast S128x128 (extractStridedSlice S1x128x128 ![0, 0, 0] (argWs m d) slices_S3x128x128_S1x128x128_0_0_0) shapeCasts_S1x128x128_S128x128) transposes_S128x128_S128x128_1_0) := by
  dsimp only [VA, opsA]
  after_results_simp
  rfl
theorem VA_v19_term (d : Dev nD) :
    (VA m d v19' : S256x256.Idx → F .f32)
      = kron eye2 (transpose S128x128 [1, 0] (shapeCast S128x128 (extractStridedSlice S1x128x128 ![1, 0, 0] (argWs m d) slices_S3x128x128_S1x128x128_1_0_0) shapeCasts_S1x128x128_S128x128) transposes_S128x128_S128x128_1_0) := by
  dsimp only [VA, opsA]
  after_results_simp
  rfl

/-- Entry `(f, g)` of kron(I₂, Wsᵀ[0]): the identity's entry `(f / 128, g / 128)` times `Ws[0, g % 128, f % 128]`. -/
theorem VA_v15_raw (d : Dev nD) (f g : Fin 256) :
    (VA m d v15' : S256x256.Idx → F .f32) (ix2 f g)
      = FloatOps.mulf (eye2 (ix2 ⟨f.val / 128, by omega⟩ ⟨g.val / 128, by omega⟩))
          (argWs m d (ix3 (0 : Fin 3) ⟨g.val % 128, Nat.mod_lt _ (by decide)⟩ ⟨f.val % 128, Nat.mod_lt _ (by decide)⟩)) := by
  rw [VA_v15_term, kron_apply, wT_apply _ 0 _ 0 rfl]
theorem VA_v19_raw (d : Dev nD) (f g : Fin 256) :
    (VA m d v19' : S256x256.Idx → F .f32) (ix2 f g)
      = FloatOps.mulf (eye2 (ix2 ⟨f.val / 128, by omega⟩ ⟨g.val / 128, by omega⟩))
          (argWs m d (ix3 (1 : Fin 3) ⟨g.val % 128, Nat.mod_lt _ (by decide)⟩ ⟨f.val % 128, Nat.mod_lt _ (by decide)⟩)) := by
  rw [VA_v19_term, kron_apply, wT_apply _ 1 _ 1 rfl]

/-- Row `k` of the three bias rows, read at an entry. -/
theorem bsRow_apply (Bs : S3x128.Idx → F .f32) (o : ℕ) (h : S3x128.Slices ![o, 0] S1x128) (k : Fin 3) (hk : k.val = o) (b : Fin 128) :
    shapeCast S128 (extractStridedSlice S1x128 ![o, 0] Bs h) shapeCasts_S1x128_S128 (ix1 b) = Bs (ix2 k b) :=
  (shapeCast_1a_a_apply _ _ b).trans (slice2_axis0_apply o _ _ 0 b k (hk.trans (Nat.add_zero _).symm))

/-- Entry `f` of the bias row: the word `0x40000000` times `bs[0, f % 128]`, plus `bs[1, f % 128]`. -/
theorem VA_v30_raw (d : Dev nD) (u : Fin 1) (f : Fin 256) :
    (VA m d v30' : S1x256.Idx → F .f32) (ix2 u f)
      = FloatOps.addf (FloatOps.mulf (FloatOps.ofBits .f32 0x40000000#32) (argBs m d (ix2 (0 : Fin 3) ⟨f.val % 128, Nat.mod_lt _ (by decide)⟩)))
          (argBs m d (ix2 (1 : Fin 3) ⟨f.val % 128, Nat.mod_lt _ (by decide)⟩)) := by
  dsimp only [VA, opsA]
  after_results_simp
  refine (shapeCast_a_1a_apply _ _ u f).trans ?_
  refine (shapeCast_apply _ _ _ (ix2 (⟨f.val / 128, by omega⟩ : Fin 2) (⟨f.val % 128, Nat.mod_lt _ (by decide)⟩ : Fin 128)) ?_).trans ?_
  · show ((⟨2, ![2, 128]⟩ : Shape).rowMajor _).val = ((⟨1, ![256]⟩ : Shape).rowMajor _).val
    rw [Shape.rowMajor_val_two, Shape.rowMajor_val_one]
    show f.val / 128 * 128 + f.val % 128 = f.val
    omega
  refine (broadcastInDim_apply _ _ _ _ (ix2 (0 : Fin 1) (⟨f.val % 128, Nat.mod_lt _ (by decide)⟩ : Fin 128))
    fun a => match a with | ⟨0, _⟩ => rfl | ⟨1, _⟩ => rfl).trans ?_
  refine (shapeCast_a_1a_apply _ _ 0 _).trans ?_
  show FloatOps.addf (FloatOps.mulf (FloatOps.ofBits .f32 0x40000000#32) _) _ = _
  congr 2
  · exact bsRow_apply _ 0 _ 0 rfl _
  · exact bsRow_apply _ 1 _ 1 rfl _

end Kron

/-! ## The same values in the extended reals -/

section AtIdeal
variable (m : (ℓ : Loc nD τ sig) → Buf (Elt Ideal) ℓ)

/-- The binary32 pattern `0x40000000` is the number two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The 2 × 2 identity: one on the diagonal, zero off it. -/
theorem eye2_ideal (a c : Fin 2) : eye2 (F := Ideal) (ix2 a c) = if a.val = c.val then 1 else 0 := by
  have key : ∀ a c : Fin 2, IntOp.cmpi .eq (IntOp.addi (BitVec.ofNat 32 a.val) 0#32) (BitVec.ofNat 32 c.val) = if a.val = c.val then 1#1 else 0#1 := by decide
  show (((IntOp.cmpi .eq (IntOp.addi (BitVec.ofNat 32 a.val) 0#32) (BitVec.ofNat 32 c.val)).toNat : ℝ) : EReal) = _
  rw [key]
  split_ifs <;> simp

/-- kron(I₂, Wsᵀ[0]): block-diagonal, each diagonal block the transposed weight matrix. -/
theorem VA_v15 (d : Dev nD) (f g : Fin 256) :
    (VA m d v15' : S256x256.Idx → EReal) (ix2 f g)
      = if f.val / 128 = g.val / 128 then argWs m d (ix3 (0 : Fin 3) ⟨g.val % 128, Nat.mod_lt _ (by decide)⟩ ⟨f.val % 128, Nat.mod_lt _ (by decide)⟩) else 0 := by
  rw [VA_v15_raw, eye2_ideal]
  show (if f.val / 128 = g.val / 128 then (1 : EReal) else 0) * _ = _
  rw [ite_mul, one_mul, zero_mul]
/-- kron(I₂, Wsᵀ[1]). -/
theorem VA_v19 (d : Dev nD) (f g : Fin 256) :
    (VA m d v19' : S256x256.Idx → EReal) (ix2 f g)
      = if f.val / 128 = g.val / 128 then argWs m d (ix3 (1 : Fin 3) ⟨g.val % 128, Nat.mod_lt _ (by decide)⟩ ⟨f.val % 128, Nat.mod_lt _ (by decide)⟩) else 0 := by
  rw [VA_v19_raw, eye2_ideal]
  show (if f.val / 128 = g.val / 128 then (1 : EReal) else 0) * _ = _
  rw [ite_mul, one_mul, zero_mul]

/-- The bias row: twice the first bias plus the second, the same in both halves. -/
theorem VA_v30 (d : Dev nD) (u : Fin 1) (f : Fin 256) :
    (VA m d v30' : S1x256.Idx → EReal) (ix2 u f)
      = 2 * argBs m d (ix2 (0 : Fin 3) ⟨f.val % 128, Nat.mod_lt _ (by decide)⟩) + argBs m d (ix2 (1 : Fin 3) ⟨f.val % 128, Nat.mod_lt _ (by decide)⟩) := by
  rw [VA_v30_raw]
  show Ideal.ofBits .f32 0x40000000#32 * _ + _ = _
  rw [ofBits_two_f32]

/-- The two initial values are zero. -/
theorem VA_v31_ideal (d : Dev nD) (n : Fin 4096) : (VA m d v31' : S4096.Idx → EReal) (ix1 n) = (0 : EReal) :=
  (VA_v31 m d n).trans Ideal.ofBits_zero_f32
theorem VA_v32_ideal (d : Dev nD) (s : Fin 16) (n : Fin 4096) : (VA m d v32' : S16x4096.Idx → EReal) (ix2 s n) = (0 : EReal) :=
  (VA_v32 m d s n).trans Ideal.ofBits_zero_f32
theorem VA_v31_ideal_eq (d : Dev nD) : (VA m d v31' : S4096.Idx → EReal) = fun _ => (0 : EReal) :=
  (VA_v31_eq m d).trans (funext fun _ => Ideal.ofBits_zero_f32)
theorem VA_v32_ideal_eq (d : Dev nD) : (VA m d v32' : S16x4096.Idx → EReal) = fun _ => (0 : EReal) :=
  (VA_v32_eq m d).trans (funext fun _ => Ideal.ofBits_zero_f32)

end AtIdeal

end Cert.Proof.KI

end
-- ==== Proof.PreFacts.lean ====
/-
  What the precondition gives. The claim's hypothesis says that the printed predicate of the five argument
  arrays is all ones. The predicate is a conjunction of five reductions by "and": four of them say that the
  absolute value of every entry of a float array is below plus infinity, the fifth that every entry of the
  integer array, read as a signed word, lies between 0 and 4095. Read back at one element:

  * at any float instance, every entry of the integer array has a value below 4096;
  * at the extended reals, every entry of the four float arrays is a real number.
-/
import proofs.«205814_g58841051955373_cont_9to1_m_133_55_alg».proof.Pre_input_domain
import proofs.«205814_g58841051955373_cont_9to1_m_133_55_alg».proof.Proof.Gen.Pre_input_domain
import Idealize.ShloMosaic.Lib.ReduceAll
import Idealize.ShloMosaic.Lib.ValueIdx
import Idealize.ShloMosaic.PureOps.Ideal

noncomputable section

namespace Cert.Proof.PreFacts

open Idealize.ShloMosaic Cert.Pre_input_domain

/-- The scalar shape has one index. -/
local instance : Subsingleton S_.Idx := ⟨fun a b => funext fun d => d.elim0⟩

/-! ## One element -/

/-- A one-bit word made from a Boolean is 1 exactly when the Boolean holds. -/
theorem ofBool_one (b : Bool) : BitVec.ofBool b = 1#1 ↔ b = true := by cases b <;> decide

/-- A 32-bit word that is at least 0 and at most 4095 as a SIGNED word has a value below 4096: were its top
    bit set it would read negative. -/
theorem word_range (v : BitVec 32)
    (e : IntOp.andi (IntOp.cmpi .sge v 0#32) (IntOp.cmpi .sle v 4095#32) = 1#1) : v.toNat < 4096 := by
  obtain ⟨e0, e1⟩ := IntOp.andi_eq_one.1 e
  have z : (0#32 : BitVec 32).toInt = 0 := by decide
  have t : (4095#32 : BitVec 32).toInt = 4095 := by decide
  simp only [IntOp.cmpi, ofBool_one, BitVec.sle, decide_eq_true_eq, z, t] at e0 e1
  rw [BitVec.toInt_eq_toNat_cond] at e0 e1
  have hv := v.isLt
  split_ifs at e0 e1 <;> omega

/-- The same fact as the two signed inequalities. -/
theorem word_range_toInt (v : BitVec 32)
    (e : IntOp.andi (IntOp.cmpi .sge v 0#32) (IntOp.cmpi .sle v 4095#32) = 1#1) : 0 ≤ v.toInt ∧ v.toInt ≤ 4095 := by
  obtain ⟨e0, e1⟩ := IntOp.andi_eq_one.1 e
  have z : (0#32 : BitVec 32).toInt = 0 := by decide
  have t : (4095#32 : BitVec 32).toInt = 4095 := by decide
  simp only [IntOp.cmpi, ofBool_one, BitVec.sle, decide_eq_true_eq, z, t] at e0 e1
  exact ⟨e0, e1⟩

/-- The pattern 0x7F800000 denotes plus infinity. -/
theorem inf_pattern : Ideal.ofBits .f32 0x7F800000#32 = ⊤ := by simp [Ideal.ofBits, Ideal.ieee]

/-- An extended real whose absolute value max(y, -y) is below plus infinity is a real: at either infinity the
    absolute value is plus infinity itself. -/
theorem real_of_abs_lt (y : EReal)
    (e : FloatOps.cmpf (F := Ideal) (φ := .f32) .olt (FloatOps.hostAbsf (F := Ideal) (φ := .f32) y)
      (FloatOps.ofBits (F := Ideal) .f32 0x7F800000#32) = 1#1) : ∃ a : ℝ, y = (a : EReal) := by
  change Ideal.cmp .olt (max y (-y)) (Ideal.ofBits .f32 0x7F800000#32) = 1#1 at e
  rw [inf_pattern] at e
  simp only [Ideal.cmp, ofBool_one, decide_eq_true_eq] at e
  induction y using EReal.rec with
  | bot => simp at e
  | coe a => exact ⟨a, rfl⟩
  | top => simp at e

/-! ## The predicate, split -/

section
variable {F : FTy → Type} [FloatOps F]
variable (x : FVec F S4096x2x128 .f32) (adj : IVec S2x65536 32) (A : FVec F S2x4096x4096 .f32)
  (Ws : FVec F S3x128x128 .f32) (bs : FVec F S3x128 .f32)

/-- The element test of a float array: |y| < the pattern of plus infinity. -/
abbrev finTest (y : F .f32) : BitVec 1 :=
  FloatOps.cmpf .olt (FloatOps.hostAbsf y) (FloatOps.ofBits .f32 0x7F800000#32)

/-- The predicate all ones says each of its five element tests holds at every index. -/
theorem tests_of_pre (h : Cert.Pre_input_domain.fn (F := F) x adj A Ws bs = fun _ => 1#1) :
    (∀ i, finTest (x i) = 1#1) ∧ (∀ i, finTest (A i) = 1#1) ∧ (∀ i, finTest (Ws i) = 1#1) ∧ (∀ i, finTest (bs i) = 1#1)
      ∧ ∀ i, IntOp.andi (IntOp.cmpi .sge (adj i) 0#32) (IntOp.cmpi .sle (adj i) 4095#32) = 1#1 := by
  have h0 := congrFun h ValueIdx.ix0
  dsimp only [Cert.Pre_input_domain.fn, Cert.Pre_input_domain.fn_part1] at h0
  simp only [andi, IntOp.andi_eq_one] at h0
  obtain ⟨⟨⟨⟨hx, hA⟩, hW⟩, hb⟩, ha⟩ := h0
  refine ⟨fun i => ?_, fun i => ?_, fun i => ?_, fun i => ?_, fun i => ?_⟩
  · exact Host.reduce_andi_all _ _ _ _ _ hx i
  · exact Host.reduce_andi_all _ _ _ _ _ hA i
  · exact Host.reduce_andi_all _ _ _ _ _ hW i
  · exact Host.reduce_andi_all _ _ _ _ _ hb i
  · exact Host.reduce_andi_all _ _ _ _ _ ha i

/-- Every entry of the integer array has a value below 4096. -/
theorem adj_range (h : Cert.Pre_input_domain.fn (F := F) x adj A Ws bs = fun _ => 1#1) :
    ∀ i, (adj i).toNat < 4096 :=
  fun i => word_range _ ((tests_of_pre x adj A Ws bs h).2.2.2.2 i)

/-- Every entry of the integer array, read signed, lies in [0, 4095]. -/
theorem adj_range_toInt (h : Cert.Pre_input_domain.fn (F := F) x adj A Ws bs = fun _ => 1#1) :
    ∀ i, 0 ≤ (adj i).toInt ∧ (adj i).toInt ≤ 4095 :=
  fun i => word_range_toInt _ ((tests_of_pre x adj A Ws bs h).2.2.2.2 i)

end

/-! ## At the extended reals: every float entry is a real -/

section
variable (x : FVec Ideal S4096x2x128 .f32) (adj : IVec S2x65536 32) (A : FVec Ideal S2x4096x4096 .f32)
  (Ws : FVec Ideal S3x128x128 .f32) (bs : FVec Ideal S3x128 .f32)

theorem x_real (h : Cert.Pre_input_domain.fn (F := Ideal) x adj A Ws bs = fun _ => 1#1) :
    ∀ i, ∃ a : ℝ, x i = (a : EReal) :=
  fun i => real_of_abs_lt _ ((tests_of_pre x adj A Ws bs h).1 i)

theorem A_real (h : Cert.Pre_input_domain.fn (F := Ideal) x adj A Ws bs = fun _ => 1#1) :
    ∀ i, ∃ a : ℝ, A i = (a : EReal) :=
  fun i => real_of_abs_lt _ ((tests_of_pre x adj A Ws bs h).2.1 i)

theorem Ws_real (h : Cert.Pre_input_domain.fn (F := Ideal) x adj A Ws bs = fun _ => 1#1) :
    ∀ i, ∃ a : ℝ, Ws i = (a : EReal) :=
  fun i => real_of_abs_lt _ ((tests_of_pre x adj A Ws bs h).2.2.1 i)

theorem bs_real (h : Cert.Pre_input_domain.fn (F := Ideal) x adj A Ws bs = fun _ => 1#1) :
    ∀ i, ∃ a : ℝ, bs i = (a : EReal) :=
  fun i => real_of_abs_lt _ ((tests_of_pre x adj A Ws bs h).2.2.2.1 i)

end

end Cert.Proof.PreFacts

end
-- ==== Proof.Ranges.lean ====
/-
  What the precondition gives the two SparseCore calls: every edge endpoint, as the calls meet the two index
  arrays (rows 0 and 1 of the edge list, untouched by the launches in between), is a node number below 4096.
-/
import proofs.«205814_g58841051955373_cont_9to1_m_133_55_alg».proof.Proof.HostVals
import proofs.«205814_g58841051955373_cont_9to1_m_133_55_alg».proof.Proof.PreFacts

noncomputable section

namespace Cert.Proof.KI

open Cert.KernelIdeal Cert.KernelIdeal.Gen
open Idealize.ShloMosaic Idealize.ShloMosaic.TcCoe Idealize.SL.Sem
open Idealize.ShloMosaic.ValueIdx

variable {F : FTy → Type} [FloatOps F]
variable (Vl : Vals F) (m : (ℓ : Loc nD τ sig) → Buf (Elt F) ℓ)

/-- The precondition, on every device: the input builder's predicate of the five arguments is all ones. -/
def PreOK : Prop := ∀ c : Dev nD,
  Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1

theorem adj_lt (h : PreOK m) (d : Dev nD) (i : S2x65536.Idx) : ((argAdj m d) i).toNat < 4096 :=
  Cert.Proof.PreFacts.adj_range _ _ _ _ _ (h d) i

theorem dst_range (h : PreOK m) (d : Dev nD) (i : S65536.Idx) : ((VA m d v5' : S65536.Idx → BitVec 32) i).toNat < 4096 := by
  obtain ⟨e, rfl⟩ : ∃ e : Fin 65536, i = ix1 e := ⟨i 0, eq_ix1 i⟩
  have := adj_lt m h d (ix2 (1 : Fin 2) e)
  rwa [← VA_v5 m d e] at this
theorem src_range (h : PreOK m) (d : Dev nD) (i : S65536.Idx) : ((VA m d v3' : S65536.Idx → BitVec 32) i).toNat < 4096 := by
  obtain ⟨e, rfl⟩ : ∃ e : Fin 65536, i = ix1 e := ⟨i 0, eq_ix1 i⟩
  have := adj_lt m h d (ix2 (0 : Fin 2) e)
  rwa [← VA_v3 m d e] at this

theorem cc_dst_range (h : PreOK m) (d : Dev nD) (i : S65536.Idx) : (((CC Vl m).dst d : S65536.Idx → BitVec 32) i).toNat < 4096 := dst_range m h d i
theorem cc_dst1_range (h : PreOK m) (d : Dev nD) (i : S65536.Idx) : (((CC Vl m).dst1 d : S65536.Idx → BitVec 32) i).toNat < 4096 := by
  show ((V3 Vl m d v5' : S65536.Idx → BitVec 32) i).toNat < 4096
  rw [V3_v5]; exact dst_range m h d i
theorem cc_src_range (h : PreOK m) (d : Dev nD) (i : S65536.Idx) : (((CC Vl m).src d : S65536.Idx → BitVec 32) i).toNat < 4096 := by
  show ((V3 Vl m d v3' : S65536.Idx → BitVec 32) i).toNat < 4096
  rw [V3_v3]; exact src_range m h d i

end Cert.Proof.KI

end
-- ==== Proof.DegBody.lean ====
/-
  The degree histogram's task on one vector subcore. The tile numbered w = 16 * (L 0) + (L 1) of 32 copies the
  zero vector into its 4096-word histogram scratch and the w-th block of 2048 edge targets into its index scratch;
  then, in 128 trips of 16 targets each, it adds the constant one onto the histogram word each target names, one
  lane at a time (sixteen indexed add-stores, the l-th masked to lane l alone, so no store has two lanes on one
  word); at last it copies the histogram scratch onto row w of the 32 x 4096 result. Stated once at a symbolic
  tile, generic in the float instance: the value the row ends with is the fold histAfter of the indexed store's
  own addition over the block's 2048 targets in order, from the zero vector's contents.
-/
import proofs.«205814_g58841051955373_cont_9to1_m_133_55_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The value: one more target counted -/

section Value

variable [FloatOps F]

/-- The constant the kernel adds: the float whose bits are those of 1.0. -/
def oneF : Elt F .f32 := (Scalar.ofBits .f32 0x3F800000#32 : F .f32)

/-- One target counted: the word the target names gains the constant, by the indexed store's own addition; every
    other word stays. -/
def bumpAt (f : S4096.Idx → Elt F .f32) (t : BitVec 32) : S4096.Idx → Elt F .f32 :=
  fun j => if (j 0).val = t.toNat then Elt.idxAdd .f32 (f j) oneF else f j

/-- Position k of a block of 2048 targets (positions past the block wrap; none is ever asked for). -/
def laneIx (k : ℕ) : S2048.Idx := Shape.ofLane (d := ![2048]) ⟨k % 2048, Nat.mod_lt _ (by decide)⟩

/-- The histogram after the first k targets of the block tg, from the contents z: the targets counted in order. -/
def histAfter (z : S4096.Idx → Elt F .f32) (tg : S2048.Idx → BitVec 32) : ℕ → S4096.Idx → Elt F .f32
  | 0 => z
  | k + 1 => bumpAt (histAfter z tg k) (tg (laneIx k))

@[simp] theorem histAfter_zero (z : S4096.Idx → Elt F .f32) (tg : S2048.Idx → BitVec 32) : histAfter z tg 0 = z := rfl
theorem histAfter_succ (z : S4096.Idx → Elt F .f32) (tg : S2048.Idx → BitVec 32) (k : ℕ) :
    histAfter z tg (k + 1) = bumpAt (histAfter z tg k) (tg (laneIx k)) := rfl

end Value

/-! ## One masked lane of the indexed add-store -/

section Lane

variable [FloatOps F]

/-- A fold whose step changes the state at one element of the list only is that one change. -/
theorem foldl_single {α β : Type} [DecidableEq β] (step : α → β → α) (upd : α → α) (l : β)
    (hl : ∀ g, step g l = upd g) (hne : ∀ g k, k ≠ l → step g k = g) :
    ∀ (ks : List β), ks.Nodup → ∀ g, ks.foldl step g = if l ∈ ks then upd g else g := by
  intro ks
  induction ks with
  | nil => intro _ g; simp
  | cons k ks ih =>
    intro hnd g
    rw [List.foldl_cons]
    have hnd' := List.nodup_cons.mp hnd
    by_cases hk : k = l
    · subst hk
      rw [hl, ih hnd'.2, if_neg hnd'.1, if_pos List.mem_cons_self]
    · rw [hne g k hk, ih hnd'.2]
      by_cases hm : l ∈ ks
      · rw [if_pos hm, if_pos (List.mem_cons_of_mem _ hm)]
      · rw [if_neg hm, if_neg (fun hc => (List.mem_cons.mp hc).elim (fun e => hk e.symm) hm)]

/-- The mask "lane = c" of the sixteen-lane register: set at lane c, clear elsewhere. -/
theorem lane_mask (c : ℕ) (hc : c < 16) (x : S16.Idx) :
    cmpi .eq (iota .scVector S16 32 [0] iota_S16_d0_w32_scVector) (broadcast S16 (BitVec.ofNat 32 c)) x
      = if (x 0).val = c then 1 else 0 := by
  have hx : (x 0).val < 16 := (x 0).isLt
  simp only [cmpi, IntOp.cmpi, iota, broadcast, List.foldl_cons, List.foldl_nil]
  by_cases h : (x 0).val = c
  · rw [if_pos h, h]; simp
  · rw [if_neg h]
    have hne : BitVec.ofNat 32 (x 0).val ≠ BitVec.ofNat 32 c := by
      intro e
      have := congrArg BitVec.toNat e
      simp only [BitVec.toNat_ofNat] at this
      omega
    simp only [Nat.zero_mul, Nat.zero_add]
    rw [show (BitVec.ofNat 32 (x 0).val == BitVec.ofNat 32 c) = false from beq_false_of_ne hne]
    rfl

end Lane

section LaneStore

variable [FloatOps F]

/-- An indexed add-store of the constant vector masked to lane l alone counts lane l's target once. -/
theorem storeIdx_lane (f : Vec F S4096 .f32) (v40 : IVec S16 32) (mask : IVec S16 1) (l : Fin 16)
    (hmask : ∀ x, mask x = if (x 0).val = l.val then 1 else 0)
    (h : ∀ a x, ((![v40] : Fin 1 → IVec S16 32) a x).toNat < S4096.size a) :
    storeIdx f ![v40] (k0_pay3 (F := F)) mask true h = bumpAt f (v40 (Shape.ofLane (d := ![16]) l)) := by
  unfold storeIdx
  refine (foldl_single _ (fun g => bumpAt g (v40 (Shape.ofLane (d := ![16]) l))) l ?_ ?_ _ (List.nodup_finRange 16) f).trans
    (if_pos (List.mem_finRange l))
  · intro g
    have hm : mask (Shape.ofLane (d := ![16]) l) = 1 := by rw [hmask]; exact if_pos rfl
    simp only [hm, if_true]
    funext j
    unfold bumpAt
    by_cases hj : (j 0).val = (v40 (Shape.ofLane (d := ![16]) l)).toNat
    · have hall : ∀ a, (j a).val = ((idxAt (s := S4096) ![v40] h (Shape.ofLane (d := ![16]) l)) a).val := by
        intro a; obtain rfl : a = 0 := Subsingleton.elim _ _; exact hj
      have hji : idxAt (s := S4096) ![v40] h (Shape.ofLane (d := ![16]) l) = j := by
        funext a; exact Fin.ext (hall a).symm
      rw [if_pos hall, if_pos hj, hji]; rfl
    · have hall : ¬ ∀ a, (j a).val = ((idxAt (s := S4096) ![v40] h (Shape.ofLane (d := ![16]) l)) a).val :=
        fun hc => hj (hc 0)
      rw [if_neg hall, if_neg hj]
  · intro g k hk
    have hm : mask (Shape.ofLane (d := ![16]) k) ≠ 1 := by
      rw [hmask]
      have hkl : ¬ ((Shape.ofLane (d := ![16]) k) 0).val = l.val := fun e => hk (Fin.ext e)
      rw [if_neg hkl]; decide
    simp only [hm, if_false]

/-- Lane l of the sixteen-lane register. -/
def ln (l : Fin 16) : S16.Idx := Shape.ofLane (d := ![16]) l

theorem storeIdx_ln (f : Vec F S4096 .f32) (v40 : IVec S16 32) (mask : IVec S16 1) (l : Fin 16)
    (hmask : ∀ x, mask x = if (x 0).val = l.val then 1 else 0)
    (h : ∀ a x, ((![v40] : Fin 1 → IVec S16 32) a x).toNat < S4096.size a) :
    storeIdx f ![v40] (k0_pay3 (F := F)) mask true h = bumpAt f (v40 (ln l)) :=
  storeIdx_lane f v40 mask l hmask h

end LaneStore
/-! ## The tile's memrefs, as the program spells them -/

abbrev tgtV : Memref sig .scVector .hbm S65536 .i32 := Memref.whole main_v5_scv
abbrev zerV : Memref sig .scVector .hbm S4096 .f32 := Memref.whole main_v31_scv
abbrev hstV : Memref sig .scVector .hbm S32x4096 .f32 := Memref.whole main_v33_scv
abbrev sH : Memref sig .scVector .vmem S4096 .f32 := Memref.whole cc0_scratch0
abbrev sT : Memref sig .scVector .vmem S2048 .i32 := Memref.whole cc0_scratch1

abbrev cV (L : grid0.Coords) : Fin τ.nSC := (L 0).castLE hcore0
abbrev jV (L : grid0.Coords) : Fin τ.nSub := (L 1).castLE hsub0

/-- The tile's block of the targets, and its row of the result, as the program slices them. -/
abbrev tgtSl (L : grid0.Coords) : Memref sig .scVector .hbm S2048 .i32 :=
  (tgtV).slice (Rect.unit (s := S65536) (k0_off1 L) S2048.size (k0_off1_inb L)) (fun _ => rfl)
abbrev hstRow (L : grid0.Coords) : Memref sig .scVector .hbm S4096 .f32 :=
  ((hstV).slice (Rect.unit (s := S32x4096) (k0_off3 L) S1x4096.size (k0_off3_inb L)) (fun _ => rfl)).squeeze S4096 squeezes_S1x4096_S4096

/-- The elements of the targets the tile is handed, and of the result it writes. -/
abbrev tgtSet (L : grid0.Coords) : Finset S65536.Idx := (tgtSl L).view.set
abbrev rowSet (L : grid0.Coords) : Finset S32x4096.Idx := (hstRow L).view.set

/-- The tile's block of targets, read off the array's contents. -/
abbrev tgtOf (d : Dev nD) (L : grid0.Coords) (ft : Buf (Elt F) (dstLoc d)) : S2048.Idx → BitVec 32 :=
  (tgtSl L).view.read (Elt F) ft

/-! ## The tile's own semaphores and scratch, out of the subcore's -/

section Own

variable (d : Dev nD) (L : grid0.Coords)

abbrev c0cell : GSem nD τ sig := (V d (cV L) (jV L), .dma cc0_scoped0.sem)
abbrev c1cell : GSem nD τ sig := (V d (cV L) (jV L), .dma cc0_scoped1.sem)
abbrev c2cell : GSem nD τ sig := (V d (cV L) (jV L), .dma cc0_scoped2.sem)

theorem ownSems0_V :
    (ownSems0 (V d (cV L) (jV L)) : sProp 𝕄)
      = iprop(semVal (c0cell d L) 0 ∗ semVal (c1cell d L) 0 ∗ semVal (c2cell d L) 0
          ∗ bigSep ((((ownCells (V d (cV L) (jV L))).erase (c0cell d L)).erase (c1cell d L)).erase (c2cell d L))
              fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

/-- The histogram and the index scratch are among the subcore's own buffers: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The arrays as the tile's memrefs address them are the device's arrays. -/
theorem pts_tgt (f : Buf (Elt F) (dstLoc d)) :
    ((tgtSl L).view.loc (V d (cV L) (jV L)) ↦[(tgtSl L).view.set]{fullShare} f : sProp 𝕄) = dstLoc d ↦[tgtSet L]{fullShare} f := rfl
theorem pts_zer (q : PosShare TreeShare) (f : Buf (Elt F) (z1Loc d)) :
    ((zerV).view.loc (V d (cV L) (jV L)) ↦{q} f : sProp 𝕄) = z1Loc d ↦{q} f := rfl
theorem pts_row (f : Buf (Elt F) (histLoc d)) :
    ((hstRow L).view.loc (V d (cV L) (jV L)) ↦[(hstRow L).view.set]{fullShare} f : sProp 𝕄) = histLoc d ↦[rowSet L]{fullShare} f := rfl
theorem pts_sH (f : Buf (Elt F) ((V d (cV L) (jV L)).loc cc0_scratch0)) :
    ((sH).view.loc (V d (cV L) (jV L)) ↦{fullShare} f : sProp 𝕄) = (V d (cV L) (jV L)).loc cc0_scratch0 ↦{fullShare} f := rfl
theorem pts_sT (f : Buf (Elt F) ((V d (cV L) (jV L)).loc cc0_scratch1)) :
    ((sT).view.loc (V d (cV L) (jV L)) ↦{fullShare} f : sProp 𝕄) = (V d (cV L) (jV L)).loc cc0_scratch1 ↦{fullShare} f := rfl
theorem pts_sH_whole (f : Buf (Elt F) ((V d (cV L) (jV L)).loc cc0_scratch0)) :
    (((sH).access (.whole S4096)).loc (V d (cV L) (jV L)) ↦[((sH).access (.whole S4096)).set]{fullShare} f : sProp 𝕄)
      = (V d (cV L) (jV L)).loc cc0_scratch0 ↦{fullShare} f := by
  rw [show ((sH).access (.whole S4096)).set = Finset.univ from Memref.set_access_whole (cc0_scratch0 : Ref sig .scVector)]

end Own

section Body

variable [FloatOps F] (d : Dev nD) (L : grid0.Coords)

/-- The tile's block of targets, element by element. -/
theorem tgtOf_apply (ft : Buf (Elt F) (dstLoc d)) (x : S2048.Idx) : tgtOf d L ft x = ft ((tgtSl L).view.emb x) :=
  (View.read_apply _ _).trans (cast_eq _ _)

/-- Lane l of the sixteen targets trip g loads is target 16 g + l of the block. -/
theorem trip_lane (tg : S2048.Idx → BitVec 32) (g : Fin k0_t1_loop.trips) (l : Fin 16) :
    (sT).view.readAt (Elt F) (Rect.unit (s := S2048) (k0_off2 g) S16.size (k0_off2_inb g)).toLoadRect tg (ln l)
      = tg (laneIx (16 * g.val + l.val)) := by
  have hg : g.val < 128 := lt_of_lt_of_le g.isLt k0_t1_abs.2.1
  have hidx : (Rect.unit (s := S2048) (k0_off2 g) S16.size (k0_off2_inb g)).toLoadRect.idx (ln l) = laneIx (16 * g.val + l.val) := by
    funext (a : Fin 1)
    obtain rfl : a = 0 := Subsingleton.elim _ _
    apply Fin.ext
    rw [LoadRect.idx_apply]
    show (k0_off2 g) 0 + 1 * l.val = (16 * g.val + l.val) % 2048
    rw [k0_off2_eq, Nat.mod_eq_of_lt (by have := l.isLt; omega)]
    simp
  simp only [View.readAt_apply, Memref.view_whole, View.read_whole]
  rw [hidx]

/-- The sixteen targets a trip loads are in range: the trip's check holds. -/
theorem chk_ok (ft : Buf (Elt F) (dstLoc d)) (hrange : ∀ i, (ft i).toNat < 4096) (g : Fin k0_t1_loop.trips) :
    k0_chk1 ((sT).view.readAt (Elt F) (Rect.unit (s := S2048) (k0_off2 g) S16.size (k0_off2_inb g)).toLoadRect (tgtOf d L ft)) := by
  have h1 : ∀ a x, ((![(sT).view.readAt (Elt F) (Rect.unit (s := S2048) (k0_off2 g) S16.size (k0_off2_inb g)).toLoadRect (tgtOf d L ft)] : Fin 1 → IVec S16 32) a x).toNat
      < S4096.size a := by
    intro a x
    obtain rfl : a = 0 := Subsingleton.elim _ _
    show (((sT).view.readAt (Elt F) (Rect.unit (s := S2048) (k0_off2 g) S16.size (k0_off2_inb g)).toLoadRect (tgtOf d L ft)) x).toNat < 4096
    rw [View.readAt_apply]
    show (tgtOf d L ft _).toNat < 4096
    rw [tgtOf_apply]
    exact hrange _
  exact ⟨h1, h1, h1, h1, h1, h1, h1, h1, h1, h1, h1, h1, h1, h1, h1, h1⟩

/-- Sixteen targets counted are one trip of the histogram. -/
theorem trip_value (z : S4096.Idx → Elt F .f32) (tg : S2048.Idx → BitVec 32) (k : ℕ) (v : IVec S16 32)
    (hv : ∀ l : Fin 16, v (ln l) = tg (laneIx (16 * k + l.val))) :
    bumpAt (bumpAt (bumpAt (bumpAt (bumpAt (bumpAt (bumpAt (bumpAt (bumpAt (bumpAt (bumpAt (bumpAt (bumpAt (bumpAt (bumpAt (bumpAt
      (histAfter z tg (16 * k))
      (v (ln 0))) (v (ln 1))) (v (ln 2))) (v (ln 3)))
      (v (ln 4))) (v (ln 5))) (v (ln 6))) (v (ln 7)))
      (v (ln 8))) (v (ln 9))) (v (ln 10))) (v (ln 11)))
      (v (ln 12))) (v (ln 13))) (v (ln 14))) (v (ln 15))
      = histAfter z tg (16 * (k + 1)) := by
  rw [hv 0, hv 1, hv 2, hv 3, hv 4, hv 5, hv 6, hv 7, hv 8, hv 9, hv 10, hv 11, hv 12, hv 13, hv 14, hv 15]
  rfl

/-- One lane's indexed add-store on the histogram scratch held outright: the lane's target counted. -/
theorem wp_lane (f : Buf (Elt F) (((sH).access (.whole S4096)).loc (V d (cV L) (jV L)))) (v40 : IVec S16 32) (mask : IVec S16 1) (l : Fin 16)
    (hmask : ∀ x, mask x = if (x 0).val = l.val then 1 else 0)
    (h : ∀ a x, ((![v40] : Fin 1 → IVec S16 32) a x).toNat < S4096.size a)
    (hs : ((sH).access (.whole S4096)).Stores Finset.univ)
    {α : Type} {k : PUnit → Prog (TpuEff nD τ sig (Elt F) Λ₀ (V d (cV L) (jV L)).2) α} {Q : α → sProp 𝕄} :
    (((sH).access (.whole S4096)).loc (V d (cV L) (jV L)) ↦[((sH).access (.whole S4096)).set]{fullShare} f : sProp 𝕄)
      ⊢ iprop(((((sH).access (.whole S4096)).loc (V d (cV L) (jV L)) ↦[((sH).access (.whole S4096)).set]{fullShare}
            (bumpAt f (v40 (ln l)) : Buf (Elt F) (((sH).access (.whole S4096)).loc (V d (cV L) (jV L)))))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx (sH) ![v40] (k0_pay3 (F := F)) mask true h hs >>= k) Q) := by
  have e : ((sH).access (.whole S4096)).write (Elt F) f
      (storeIdx (((sH).access (.whole S4096)).read (Elt F) f) ![v40] (k0_pay3 (F := F)) mask true h) Finset.univ
      = bumpAt f (v40 (ln l)) := by
    have e2 : ((sH).access (.whole S4096)).read (Elt F) f = f := Memref.read_access_whole (Elt F) (cc0_scratch0 : Ref sig .scVector) f
    refine Eq.trans (Memref.write_access_whole_univ (Elt F) (cc0_scratch0 : Ref sig .scVector) f _) ?_
    rw [e2]
    exact storeIdx_ln f v40 mask l hmask h
  rw [← e]
  exact SparseCore.wp_vectorStoreIdx 𝒱₀ (V d (cV L) (jV L)) none Set.univ

theorem trips_eq : k0_t1_loop.trips = 128 := by decide +kernel

end Body

section Run

variable [FloatOps F] (d : Dev nD) (L : grid0.Coords)

/-- Before trip k: the index scratch holds the tile's block of targets, the histogram scratch the first 16 k of them counted. -/
def inv (ft : Buf (Elt F) (dstLoc d)) (z : Buf (Elt F) (z1Loc d)) (k : Nat) (_ : Unit) : sProp 𝕄 :=
  iprop(((sT).view.loc (V d (cV L) (jV L)) ↦{fullShare} (tgtOf d L ft : Buf (Elt F) ((sT).view.loc (V d (cV L) (jV L)))))
    ∗ ((sH).view.loc (V d (cV L) (jV L)) ↦{fullShare} (histAfter z (tgtOf d L ft) (16 * k) : Buf (Elt F) ((sH).view.loc (V d (cV L) (jV L))))))

theorem deg_body (q : PosShare TreeShare) (O : CellTallies nD τ sig (HIx 2)) (W : Waits sig (HIx 2)) (hO : ∀ g, O g none = 0)
    (ft : Buf (Elt F) (dstLoc d)) (z : Buf (Elt F) (z1Loc d)) (fo : Buf (Elt F) (histLoc d))
    (hrange : ∀ i, (ft i).toNat < 4096) :
    iprop((levAts (K (F := F)).L (K (F := F)).lev : sProp 𝕄)
        ∗ (dstLoc d ↦[tgtSet L]{fullShare} ft)
        ∗ (z1Loc d ↦{q} z)
        ∗ (histLoc d ↦[rowSet L]{fullShare} fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__deg_k L tgtV (Memref.isWhole_whole _) zerV (Memref.isWhole_whole _) hstV (Memref.isWhole_whole _)
            sH (Memref.isWhole_whole _) sT (Memref.isWhole_whole _) cc0_scoped0 cc0_scoped1 cc0_scoped2)
          fun _ => iprop((dstLoc d ↦[tgtSet L]{fullShare} ft)
            ∗ (z1Loc d ↦{q} z)
            ∗ (∃ fo' : Buf (Elt F) (histLoc d), ⌜∀ n : S4096.Idx, fo' ((hstRow L).view.emb n) = histAfter z (tgtOf d L ft) 2048 n⌝
                ∗ histLoc d ↦[rowSet L]{fullShare} fo')
            ∗ scopedBufs (V d (cV L) (jV L)) ∗ scopedSems0 (V d (cV L) (jV L))
            ∗ ∃ W', ⌜∀ p ∈ W', p ∈ W ∨ p.2 = none⌝ ∗ owes (V d (cV L) (jV L)) O W') := by
  sl_unfold [cc0__deg_k]
  rw [(K (F := F)).scopedBufs_V facts d (cV L) (jV L), SparseCore.Cfg.scopedSems0_V (Val := Elt F) d (cV L) (jV L), ownSems0_V, ownBufs_V]
  iintro ⟨#Hlv, Ht, Hz, Ho, ⟨⟨%fh, Hh⟩, ⟨%fs, Hs⟩, Hbufs⟩, ⟨Hsem0, Hsem1, Hsem2, Hsems⟩, HO⟩
  ihave Hmw := ((K (F := F)).mayWaits_none (thr := V d (cV L) (jV L)) hO) $$ Hlv
  ihave Ht' := (Entails.of_eq (pts_tgt (F := F) d L _).symm) $$ Ht
  ihave Hz' := (Entails.of_eq (pts_zer (F := F) d L q _).symm) $$ Hz
  ihave Ho' := (Entails.of_eq (pts_row (F := F) d L _).symm) $$ Ho
  ihave Hh' := (Entails.of_eq (pts_sH (F := F) d L _).symm) $$ Hh
  ihave Hs' := (Entails.of_eq (pts_sT (F := F) d L _).symm) $$ Hs
  -- the zero vector and the tile's block of targets, copied into the two scratches
  sl_exec
  have eH : View.write (Elt F) (sH).view fh (deg_body.sl.dma0 d z) Finset.univ = histAfter z (tgtOf d L ft) (16 * 0) :=
    (View.write_whole_univ _ _ _).trans rfl
  have eT : View.write (Elt F) (sT).view fs (deg_body.sl.dma0_1 d L ft) Finset.univ = tgtOf d L ft :=
    (View.write_whole_univ _ _ _).trans rfl
  ihave Hh0 := (Entails.of_eq (congrArg (fun f => ((sH).view.loc (V d (cV L) (jV L)) ↦{fullShare} f : sProp 𝕄)) eH)) $$ Hh'
  ihave Hs0 := (Entails.of_eq (congrArg (fun f => ((sT).view.loc (V d (cV L) (jV L)) ↦{fullShare} f : sProp 𝕄)) eT)) $$ Hs'
  sl_for (inv (F := F) d L ft z) $$ [Hs0 Hh0]
  case region =>
    intro g _
    unfold inv
    iintro ⟨Hs, Hh⟩
    have hchk := chk_ok (F := F) d L ft hrange g
    sl_exec
    ihave Hh := (Entails.of_eq ((pts_sH (F := F) d L _).trans (pts_sH_whole (F := F) d L _).symm)) $$ Hh
    iapply (wp_lane (F := F) d L _ _ _ 0 ?hm0 _ _) $$ Hh
    case hm0 => exact fun x => lane_mask 0 (by decide) x
    iintro Hh
    iapply (wp_lane (F := F) d L _ _ _ 1 ?hm1 _ _) $$ Hh
    case hm1 => exact fun x => lane_mask 1 (by decide) x
    iintro Hh
    iapply (wp_lane (F := F) d L _ _ _ 2 ?hm2 _ _) $$ Hh
    case hm2 => exact fun x => lane_mask 2 (by decide) x
    iintro Hh
    iapply (wp_lane (F := F) d L _ _ _ 3 ?hm3 _ _) $$ Hh
    case hm3 => exact fun x => lane_mask 3 (by decide) x
    iintro Hh
    iapply (wp_lane (F := F) d L _ _ _ 4 ?hm4 _ _) $$ Hh
    case hm4 => exact fun x => lane_mask 4 (by decide) x
    iintro Hh
    iapply (wp_lane (F := F) d L _ _ _ 5 ?hm5 _ _) $$ Hh
    case hm5 => exact fun x => lane_mask 5 (by decide) x
    iintro Hh
    iapply (wp_lane (F := F) d L _ _ _ 6 ?hm6 _ _) $$ Hh
    case hm6 => exact fun x => lane_mask 6 (by decide) x
    iintro Hh
    iapply (wp_lane (F := F) d L _ _ _ 7 ?hm7 _ _) $$ Hh
    case hm7 => exact fun x => lane_mask 7 (by decide) x
    iintro Hh
    iapply (wp_lane (F := F) d L _ _ _ 8 ?hm8 _ _) $$ Hh
    case hm8 => exact fun x => lane_mask 8 (by decide) x
    iintro Hh
    iapply (wp_lane (F := F) d L _ _ _ 9 ?hm9 _ _) $$ Hh
    case hm9 => exact fun x => lane_mask 9 (by decide) x
    iintro Hh
    iapply (wp_lane (F := F) d L _ _ _ 10 ?hm10 _ _) $$ Hh
    case hm10 => exact fun x => lane_mask 10 (by decide) x
    iintro Hh
    iapply (wp_lane (F := F) d L _ _ _ 11 ?hm11 _ _) $$ Hh
    case hm11 => exact fun x => lane_mask 11 (by decide) x
    iintro Hh
    iapply (wp_lane (F := F) d L _ _ _ 12 ?hm12 _ _) $$ Hh
    case hm12 => exact fun x => lane_mask 12 (by decide) x
    iintro Hh
    iapply (wp_lane (F := F) d L _ _ _ 13 ?hm13 _ _) $$ Hh
    case hm13 => exact fun x => lane_mask 13 (by decide) x
    iintro Hh
    iapply (wp_lane (F := F) d L _ _ _ 14 ?hm14 _ _) $$ Hh
    case hm14 => exact fun x => lane_mask 14 (by decide) x
    iintro Hh
    iapply (wp_lane (F := F) d L _ _ _ 15 ?hm15 _ _) $$ Hh
    case hm15 => exact fun x => lane_mask 15 (by decide) x
    iintro Hh
    sl_step
    have eV := trip_value (F := F) z (tgtOf d L ft) g.val
      ((sT).view.readAt (Elt F) (Rect.unit (s := S2048) (k0_off2 g) S16.size (k0_off2_inb g)).toLoadRect (tgtOf d L ft))
      (fun l => trip_lane (F := F) (tgtOf d L ft) g l)
    isplitl [Hs]; · iexact Hs
    ihave Hh := (Entails.of_eq ((congrArg (fun f => ((((sH).access (.whole S4096)).loc (V d (cV L) (jV L)) ↦[((sH).access (.whole S4096)).set]{fullShare} f : sProp 𝕄))) eV).trans
      ((pts_sH_whole (F := F) d L _).trans (pts_sH (F := F) d L _).symm))) $$ Hh
    iexact Hh
  · unfold inv
    isplitl [Hs0]; · iexact Hs0
    iexact Hh0
  iintro %_ HI
  unfold inv
  icases HI with ⟨Hs, Hh⟩
  -- the histogram scratch copied onto the tile's row of the result
  sl_exec
  sl_step
  isplitl [Ht']; · iexact Ht'
  isplitl [Hz']; · iexact Hz'
  isplitl [Ho']
  · iexists _; isplitr
    rotate_left
    · iexact Ho'
    · ipureintro
      intro n
      have e1 : ((hstRow L).view.writes (Elt F) fo [⟨Rect.whole S4096, deg_body.sl.dma0_2 d L ft z⟩]) ((hstRow L).view.emb n)
          = (hstRow L).view.read (Elt F) ((hstRow L).view.writes (Elt F) fo [⟨Rect.whole S4096, deg_body.sl.dma0_2 d L ft z⟩]) n :=
        ((View.read_apply _ _).trans (cast_eq _ _)).symm
      have e2 := View.read_writes_cons_emb (hstRow L).view fo (Rect.whole S4096) (deg_body.sl.dma0_2 d L ft z) [] n
      rw [Rect.emb_whole_apply] at e2
      rw [e1, e2]
      show histAfter z (tgtOf d L ft) (16 * k0_t1_loop.trips) n = _
      rw [trips_eq]
  isplitl [Hh Hs Hbufs]
  · isplitl [Hh]; · iexists _; iexact Hh
    isplitl [Hs]; · iexists _; iexact Hs
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Run

/-! ## The task as the launch asks for it -/

section Obl

variable [FloatOps F]

/-- The tile's block of the targets is part w of the 32 equal parts, w = 16 (L 0) + (L 1); its row of the result is row w. -/
theorem tgtRect_eq (L : grid0.Coords) (w : Fin 32) (hw : w.val = 16 * (L 0).val + (L 1).val) :
    Rect.unit (s := S65536) (k0_off1 L) S2048.size (k0_off1_inb L) = dstPart w := by
  unfold dstPart Rect.part Rect.block
  congr 1 <;> funext a
  · rw [k0_off1_eq]
    obtain rfl : a = 0 := Subsingleton.elim _ _
    simp [Shape.partIx, Shape.partSize, hw]; omega
  · obtain rfl : a = 0 := Subsingleton.elim _ _
    simp [Shape.partSize]

theorem rowRect_eq (L : grid0.Coords) (w : Fin 32) (hw : w.val = 16 * (L 0).val + (L 1).val) :
    Rect.unit (s := S32x4096) (k0_off3 L) S1x4096.size (k0_off3_inb L) = histPart w := by
  unfold histPart Rect.part Rect.block
  congr 1 <;> funext a
  · rw [k0_off3_eq]
    match a with
    | 0 => simp [Shape.partIx, Shape.partSize, hw]
    | 1 => simp [Shape.partIx, Shape.partSize]
  · match a with
    | 0 => simp [Shape.partSize]
    | 1 => simp [Shape.partSize]

theorem tgtSet_eq (L : grid0.Coords) (w : Fin 32) (hw : w.val = 16 * (L 0).val + (L 1).val) : tgtSet L = dstSet w := by
  show ((tgtV).view.slice (Rect.unit (s := S65536) (k0_off1 L) S2048.size (k0_off1_inb L))).set = ((tgtV).view.slice (dstPart w)).set
  rw [tgtRect_eq L w hw]

theorem rowSet_eq (L : grid0.Coords) (w : Fin 32) (hw : w.val = 16 * (L 0).val + (L 1).val) : rowSet L = histSet w := by
  show (((hstV).view.slice (Rect.unit (s := S32x4096) (k0_off3 L) S1x4096.size (k0_off3_inb L))).reshape S4096 squeezes_S1x4096_S4096.numel_eq).set
    = ((hstV).view.slice (histPart w)).set
  rw [View.set_reshape]
  exact rowRect_eq L w hw ▸ rfl

theorem defs₀_vector0 (c : Fin τ.nSC) (s : Fin τ.nSub) :
    defs₀ (F := F) (.scVector c s) 0 ()
      = SparseCore.onTile hcore0 hsub0 (fun c s => cc0__deg_k (coordsV0 c s)
          tgtV (Memref.isWhole_whole _) zerV (Memref.isWhole_whole _) hstV (Memref.isWhole_whole _)
          sH (Memref.isWhole_whole _) sT (Memref.isWhole_whole _) cc0_scoped0 cc0_scoped1 cc0_scoped2) ⟨⟩ c s := rfl

/-- What the task leaves is what the launch takes back: the row at the histogram's stated contents. -/
theorem deg_post (C : Conts F)
    (hhist : ∀ d (L : grid0.Coords) n, C.hist d ((hstRow L).view.emb n) = histAfter (C.z1 d) (tgtOf d L (C.dst d)) 2048 n)
    (d : Dev nD) (L : grid0.Coords) (s : PosShare TreeShare) {thr : Thread nD τ} {A B : sProp 𝕄}
    {O : CellTallies nD τ sig (HIx 2)} {W : Waits sig (HIx 2)} {q : Fin 2} :
    iprop((dstLoc d ↦[tgtSet L]{fullShare} C.dst d) ∗ (z1Loc d ↦{s} C.z1 d)
        ∗ (∃ fo' : Buf (Elt F) (histLoc d), ⌜∀ n : S4096.Idx, fo' ((hstRow L).view.emb n) = histAfter (C.z1 d) (tgtOf d L (C.dst d)) 2048 n⌝
            ∗ histLoc d ↦[rowSet L]{fullShare} fo')
        ∗ A ∗ B ∗ ∃ W', ⌜∀ p ∈ W', p ∈ W ∨ p.2 = none⌝ ∗ owes thr O W')
      ⊢ iprop(((dstLoc d ↦[tgtSet L]{fullShare} C.dst d) ∗ (z1Loc d ↦{s} C.z1 d) ∗ histLoc d ↦[rowSet L]{fullShare} C.hist d)
        ∗ A ∗ B ∗ ∃ W', ⌜∀ p ∈ W', p ∈ W ∨ p.2 = none ∨ p.2 = some q⌝ ∗ owes thr O W') := by
  iintro ⟨Ht, Hz, ⟨%fo', %hfo, Ho⟩, HA, HB, %W', %hW', HO⟩
  have e : (histLoc d ↦[rowSet L]{fullShare} fo' : sProp 𝕄) = histLoc d ↦[rowSet L]{fullShare} C.hist d :=
    pointsTo_congr fun i hi => by
      obtain ⟨n, -, rfl⟩ := Finset.mem_map.mp hi
      exact (hfo n).trans (hhist d L n).symm
  ihave Ho' := (Entails.of_eq e) $$ Ho
  isplitl [Ht Hz Ho']
  · isplitl [Ht]; · iexact Ht
    isplitl [Hz]; · iexact Hz
    iexact Ho'
  isplitl [HA]; · iexact HA
  isplitl [HB]; · iexact HB
  iexists W'; isplitr
  · ipureintro; exact fun p hp => (hW' p hp).imp_right Or.inl
  · iexact HO

/-- The degree histogram's task obligation: every tile of the grid runs the body at its own coordinates. -/
theorem tileObl0 (C : Conts F) (hrange : ∀ d i, (C.dst d i).toNat < 4096)
    (hhist : ∀ d (L : grid0.Coords) n, C.hist d ((hstRow L).view.emb n) = histAfter (C.z1 d) (tgtOf d L (C.dst d)) 2048 n) :
    (K (F := F)).TileObl (D (F := F)) 𝒱 (P C) v₀ 0 := by
  intro d c i O W hO _ _
  -- this kernel owes nothing for a protocol of its own
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  have hw : (wid (Fin.cast nCore_zero c) (Fin.cast nSub_zero i)).val
      = 16 * ((coordsV0 ⟨_, hc.1⟩ ⟨_, hc.2⟩ : grid0.Coords) 0).val + ((coordsV0 ⟨_, hc.1⟩ ⟨_, hc.2⟩ : grid0.Coords) 1).val := rfl
  show iprop(_ ∗ _ ∗ go0 C d (wid (Fin.cast nCore_zero c) (Fin.cast nSub_zero i)) ∗ _)
    ⊢ wp _ _ _ _ (fun _ => iprop(td0 C d (wid (Fin.cast nCore_zero c) (Fin.cast nSub_zero i)) ∗ _))
  unfold go0 td0
  rw [← tgtSet_eq _ _ hw, ← rowSet_eq _ _ hw]
  iintro ⟨Hlv, -, ⟨Ht, Hz, %fo, Ho⟩, Hsb, Hss, HO⟩
  iapply ((deg_body (F := F) d (coordsV0 ⟨_, hc.1⟩ ⟨_, hc.2⟩) (rd (wid (Fin.cast nCore_zero c) (Fin.cast nSub_zero i))) O W hO (C.dst d) (C.z1 d) fo (hrange d)).trans
    (wp_mono frame _ _ fun _ => deg_post C hhist d _ _)) $$ [Hlv Ht Hz Ho Hsb Hss HO]
  isplitl [Hlv]; · iexact Hlv
  isplitl [Ht]; · iexact Ht
  isplitl [Hz]; · iexact Hz
  isplitl [Ho]; · iexact Ho
  isplitl [Hsb]; · iexact Hsb
  isplitl [Hss]; · iexact Hss
  iexact HO

end Obl

end Cert.Proof.KI

end
-- ==== Proof.ScWhole.lean ====
/-
  Each SparseCore call's result as one function of the whole array. The degree histogram: tile w of 32 (SparseCore
  w / 16, subcore w % 16) leaves in row w of the 32 x 4096 result the fold of its own 2048 targets, words
  [2048 w, 2048 w + 2048) of the 65536, over the zero vector's contents. Row w of the result is where tile w's row
  memref places its 4096 indices: a unit rectangle at (w, 0) of extent 1 x 4096 with the unit axis dropped, so index n
  of the row sits at (w, n). Hence one function of the targets and the zero vector that every tile's row agrees with.
-/
import proofs.«205814_g58841051955373_cont_9to1_m_133_55_alg».proof.Proof.DegBody
import Idealize.ShloMosaic.Lib.ValueIdxCoords

noncomputable section

namespace Cert.Proof.KI

open Cert.KernelIdeal Cert.KernelIdeal.Gen

open Idealize.ShloMosaic
open Idealize.ShloMosaic.SparseCore (S V T)
open Idealize.ShloMosaic.ValueIdx

variable {F : FTy → Type}

/-! ## Tiles by number -/

/-- The number of the tile at coordinates L is below 32. -/
theorem tile_lt (L : grid0.Coords) : 16 * (L 0).val + (L 1).val < 32 := by
  have h0 : (L 0).val < 2 := (L 0).isLt
  have h1 : (L 1).val < 16 := (L 1).isLt
  omega

/-- The number of the tile at coordinates L. -/
def tileNo (L : grid0.Coords) : Fin 32 := ⟨16 * (L 0).val + (L 1).val, tile_lt L⟩

/-- The coordinates of tile w of 32: SparseCore w / 16, subcore w % 16. -/
def tileOf (w : Fin 32) : grid0.Coords :=
  coordsV0 ⟨w.val / 16, by have := w.isLt; show w.val / 16 < 2; omega⟩ ⟨w.val % 16, by show w.val % 16 < 16; omega⟩

theorem tileOf_zero (w : Fin 32) : ((tileOf w) 0).val = w.val / 16 := rfl
theorem tileOf_one (w : Fin 32) : ((tileOf w) 1).val = w.val % 16 := rfl

/-- Grid coordinates are their two entries. -/
theorem coordsV0_eta (L : grid0.Coords) : coordsV0 (L 0) (L 1) = L := by
  funext a
  match a with
  | 0 => rfl
  | 1 => rfl
  | ⟨_ + 2, h⟩ => exact absurd h (Nat.not_lt.2 (Nat.le_add_left _ _))

/-- Tile number and coordinates are inverse to each other. -/
theorem tileNo_tileOf (w : Fin 32) : tileNo (tileOf w) = w := by
  apply Fin.ext
  show 16 * ((tileOf w) 0).val + ((tileOf w) 1).val = w.val
  rw [tileOf_zero, tileOf_one]; omega

theorem tileOf_tileNo (L : grid0.Coords) : tileOf (tileNo L) = L := by
  have h0 : (L 0).val < 2 := (L 0).isLt
  have h1 : (L 1).val < 16 := (L 1).isLt
  refine Eq.trans ?_ (coordsV0_eta L)
  unfold tileOf tileNo
  congr 1 <;> apply Fin.ext
  · show (16 * (L 0).val + (L 1).val) / 16 = (L 0).val; omega
  · show (16 * (L 0).val + (L 1).val) % 16 = (L 1).val; omega

/-- The launch's tile number of subcore i of SparseCore c is the number of the tile at those coordinates. -/
theorem wid_tileOf (w : Fin 32) :
    wid ⟨w.val / 16, by have := w.isLt; omega⟩ ⟨w.val % 16, Nat.mod_lt _ (by decide)⟩ = w :=
  Fin.ext (by show 16 * (w.val / 16) + w.val % 16 = w.val; omega)

theorem tileOf_wid (c : Fin 2) (i : Fin 16) : tileOf (wid c i) = coordsV0 ⟨c.val, c.isLt⟩ ⟨i.val, i.isLt⟩ := by
  have hc := c.isLt
  have hi := i.isLt
  unfold tileOf
  congr 1 <;> apply Fin.ext
  · show (16 * c.val + i.val) / 16 = c.val; omega
  · show (16 * c.val + i.val) % 16 = i.val; omega

theorem tileNo_coordsV0 (c : Fin 2) (i : Fin 16) : tileNo (coordsV0 ⟨c.val, c.isLt⟩ ⟨i.val, i.isLt⟩) = wid c i := rfl

/-! ## Where a tile's memrefs place their indices -/

/-- Index n of the row memref of the tile at L is element (16 (L 0) + (L 1), n) of the 32 x 4096 result. -/
theorem hstRow_emb (L : grid0.Coords) (n : S4096.Idx) :
    ((hstRow L).view.emb n : S32x4096.Idx) = ix2 (tileNo L) (⟨(n 0).val, (n 0).isLt⟩ : Fin 4096) := by
  have hq : Shape.reshapeEquiv (s := S1x4096) (s' := S4096) squeezes_S1x4096_S4096.numel_eq n = Fin.cons ⟨0, Nat.one_pos⟩ n :=
    Shape.reshapeEquiv_cons_one (n := 1) (d := ![4096]) _ n
  funext (a : Fin 2)
  apply Fin.ext
  show (k0_off3 L) a + 1 * ((Shape.reshapeEquiv (s := S1x4096) (s' := S4096) squeezes_S1x4096_S4096.numel_eq n) a).val = _
  rw [hq, k0_off3_eq]
  match a with
  | 0 => show (16 * (L 0).val + (L 1).val) + 1 * 0 = 16 * (L 0).val + (L 1).val; omega
  | 1 => show 0 + 1 * (n 0).val = (n 0).val; omega

/-- Index x of the targets memref of the tile at L is word 2048 (16 (L 0) + (L 1)) + x of the 65536 targets. -/
theorem tgtSl_emb (L : grid0.Coords) (x : S2048.Idx) :
    ((tgtSl L).view.emb x : S65536.Idx)
      = ix1 (⟨2048 * (tileNo L).val + (x 0).val, by have := (tileNo L).isLt; have : (x 0).val < 2048 := (x 0).isLt; omega⟩ : Fin 65536) := by
  funext (a : Fin 1)
  obtain rfl : a = 0 := Subsingleton.elim _ _
  apply Fin.ext
  show (k0_off1 L) 0 + 1 * (x 0).val = 2048 * (16 * (L 0).val + (L 1).val) + (x 0).val
  rw [k0_off1_eq]
  show (32768 * (L 0).val + 2048 * (L 1).val) + 1 * (x 0).val = 2048 * (16 * (L 0).val + (L 1).val) + (x 0).val
  omega

section Whole

variable [FloatOps F]

/-- The block of targets of the tile at L, word by word of the whole array. -/
theorem tgtOf_word (d : Dev nD) (L : grid0.Coords) (dst : Buf (Elt F) (dstLoc d)) (x : S2048.Idx) :
    tgtOf d L dst x
      = dst (ix1 (⟨2048 * (tileNo L).val + (x 0).val, by have := (tileNo L).isLt; have : (x 0).val < 2048 := (x 0).isLt; omega⟩ : Fin 65536)) := by
  rw [tgtOf_apply]
  exact congrArg dst (tgtSl_emb L x)

/-- The block of targets of tile w: words [2048 w, 2048 w + 2048). -/
theorem tgtOf_tileOf (d : Dev nD) (w : Fin 32) (dst : Buf (Elt F) (dstLoc d)) (x : S2048.Idx) :
    tgtOf d (tileOf w) dst x
      = dst (ix1 (⟨2048 * w.val + (x 0).val, by have := w.isLt; have : (x 0).val < 2048 := (x 0).isLt; omega⟩ : Fin 65536)) := by
  rw [tgtOf_word]
  congr 3
  rw [tileNo_tileOf]

/-! ## The degree histogram, whole -/

/-- The 32 x 4096 histogram the first call leaves: row w is the fold of tile w's 2048 targets over the zero vector. -/
def histWhole (d : Dev nD) (dst : Buf (Elt F) (dstLoc d)) (z : Buf (Elt F) (z1Loc d)) : Buf (Elt F) (histLoc d) :=
  fun (i : S32x4096.Idx) =>
    histAfter z (tgtOf d (tileOf ⟨(i 0).val, idx2_lt0 i⟩) dst) 2048 (ix1 (⟨(i 1).val, idx2_lt1 i⟩ : Fin 4096))

/-- The histogram at row w, column n. -/
theorem histWhole_ix2 (d : Dev nD) (dst : Buf (Elt F) (dstLoc d)) (z : Buf (Elt F) (z1Loc d)) (w : Fin 32) (n : Fin 4096) :
    histWhole d dst z (ix2 w n) = histAfter z (tgtOf d (tileOf w) dst) 2048 (ix1 n) := rfl

/-- Every tile's row of the whole histogram is that tile's fold: the body's post at the whole-array function. -/
theorem histWhole_emb (d : Dev nD) (dst : Buf (Elt F) (dstLoc d)) (z : Buf (Elt F) (z1Loc d)) (L : grid0.Coords) (n : S4096.Idx) :
    histWhole d dst z ((hstRow L).view.emb n) = histAfter z (tgtOf d L dst) 2048 n := by
  have e : histWhole d dst z ((hstRow L).view.emb n) = histWhole d dst z (ix2 (tileNo L) (⟨(n 0).val, (n 0).isLt⟩ : Fin 4096)) :=
    congrArg (histWhole d dst z) (hstRow_emb L n)
  rw [e, histWhole_ix2, tileOf_tileNo]
  exact congrArg (histAfter z (tgtOf d L dst) 2048) (eq_ix1 n).symm

/-- The first call's task obligation at the whole histogram. -/
theorem tileObl0_whole (C : Conts F) (hrange : ∀ d i, (C.dst d i).toNat < 4096)
    (hC : ∀ d, C.hist d = histWhole d (C.dst d) (C.z1 d)) :
    (K (F := F)).TileObl (D (F := F)) 𝒱 (P C) v₀ 0 :=
  tileObl0 C hrange fun d L n => by rw [hC d]; exact histWhole_emb d (C.dst d) (C.z1 d) L n

end Whole

end Cert.Proof.KI

end
-- ==== Proof.AggTrip.lean ====
/-
  One trip of the inner loop of the edge aggregation on a vector subcore. A trip reads four groups of sixteen
  sources and sixteen targets from the two index lists, gathers for each group and each of the eight rotations
  the sixteen entries of the feature rows the sources name (lane l of rotation cc reads row (cc + l) mod 8), and
  adds them into the accumulator at the columns the targets name (lane l of rotation cc into row (cc + l) mod 16:
  the sixteen lanes of one store meet sixteen different rows). The accumulator after the trip is stated as a pure
  function of the feature rows, the accumulator before and the trip's 64 sources and targets, in the order the
  stores are made.
-/
import proofs.«205814_g58841051955373_cont_9to1_m_133_55_alg».proof.Proof.Setup
import Mathlib.Data.List.Basic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The accumulator after a trip, as a pure function -/

section Pure

variable [FloatOps F]

/-- Row `r`, column `c` of the 8 × 4096 array. -/
def ix8 (r : Fin 8) (c : Fin 4096) : S8x4096.Idx :=
  fun | 0 => r | 1 => c | ⟨_ + 2, h⟩ => absurd h (Nat.not_lt.2 (Nat.le_add_left _ _))
/-- Row `r`, column `c` of the 16 × 4096 array. -/
def ix16 (r : Fin 16) (c : Fin 4096) : S16x4096.Idx :=
  fun | 0 => r | 1 => c | ⟨_ + 2, h⟩ => absurd h (Nat.not_lt.2 (Nat.le_add_left _ _))
/-- Word `k` of an 8192-word list. -/
def ix1 (k : Fin 8192) : S8192.Idx := Shape.ofLane (d := ![8192]) k

/-- The column a word names, read modulo the row length (a word below 4096 names itself). -/
def col (w : BitVec 32) : Fin 4096 := ⟨w.toNat % 4096, Nat.mod_lt _ (by decide)⟩
/-- The feature row lane `l` of rotation `cc` reads. -/
def rot8 (cc : Fin 8) (l : Fin 16) : Fin 8 := ⟨(cc.val + l.val) % 8, Nat.mod_lt _ (by decide)⟩
/-- The accumulator row lane `l` of rotation `cc` adds into. -/
def rot16 (cc : Fin 8) (l : Fin 16) : Fin 16 := ⟨(cc.val + l.val) % 16, Nat.mod_lt _ (by decide)⟩

/-- `y` added onto entry `i`. -/
def addAt (g : Vec F S16x4096 .f32) (i : S16x4096.Idx) (y : Elt F .f32) : Vec F S16x4096 .f32 :=
  fun j => if (∀ a, (j a).val = (i a).val) then FloatOps.idxAddf (g i) y else g j

/-- One indexed add-store: rotation `cc` of a group of sixteen sources `s16` and targets `d16`, lane 0 first. -/
def accAfterStore (ys : Vec F S8x4096 .f32) (s16 d16 : Fin 16 → BitVec 32) (cc : Fin 8) (g : Vec F S16x4096 .f32) : Vec F S16x4096 .f32 :=
  (List.finRange 16).foldl (fun g l => addAt g (ix16 (rot16 cc l) (col (d16 l))) (ys (ix8 (rot8 cc l) (col (s16 l))))) g

/-- The eight add-stores of one group, rotation 0 first. -/
def accAfterGroup (ys : Vec F S8x4096 .f32) (s16 d16 : Fin 16 → BitVec 32) (g : Vec F S16x4096 .f32) : Vec F S16x4096 .f32 :=
  accAfterStore ys s16 d16 7 (accAfterStore ys s16 d16 6 (accAfterStore ys s16 d16 5 (accAfterStore ys s16 d16 4
    (accAfterStore ys s16 d16 3 (accAfterStore ys s16 d16 2 (accAfterStore ys s16 d16 1 (accAfterStore ys s16 d16 0 g)))))))

/-- Group `u` of a trip's 64 words. -/
def grp (w : Fin 64 → BitVec 32) (u : Fin 4) : Fin 16 → BitVec 32 := fun l => w ⟨16 * u.val + l.val, by omega⟩

/-- The accumulator after one trip over the 64 sources `s` and targets `d`: group 0 first. -/
def accAfterTrip (ys : Vec F S8x4096 .f32) (acc : Vec F S16x4096 .f32) (s d : Fin 64 → BitVec 32) : Vec F S16x4096 .f32 :=
  accAfterGroup ys (grp s 3) (grp d 3) (accAfterGroup ys (grp s 2) (grp d 2)
    (accAfterGroup ys (grp s 1) (grp d 1) (accAfterGroup ys (grp s 0) (grp d 0) acc)))

omit [FloatOps F] in
/-- Words `64 g … 64 g + 63` of an index list: the words trip `g` reads. -/
def tripWords (b : Vec F S8192 .i32) (g : ℕ) : Fin 64 → BitVec 32 :=
  fun p => b (ix1 ⟨(64 * g + p.val) % 8192, Nat.mod_lt _ (by decide)⟩)

/-- The accumulator after the first `n` trips over the index lists `sb`, `db`. -/
def accAfterTrips (ys : Vec F S8x4096 .f32) (sb db : Vec F S8192 .i32) : ℕ → Vec F S16x4096 .f32 → Vec F S16x4096 .f32
  | 0, acc => acc
  | n + 1, acc => accAfterTrip ys (accAfterTrips ys sb db n acc) (tripWords sb n) (tripWords db n)

/-- The sixteen lanes of a vector. -/
def lanes (v : IVec S16 32) : Fin 16 → BitVec 32 := fun l => v (Shape.ofLane (d := ![16]) l)

/-- An indexed add-store of an indexed load, at row vectors that are rotation `cc` and column vectors in range, is `accAfterStore`. -/
theorem storeIdx_rot (ys : Vec F S8x4096 .f32) (a : Vec F S16x4096 .f32) (cc : Fin 8)
    (gv av s16 d16 : IVec S16 32)
    (hg : ∀ x, (gv x).toNat = (cc.val + (x 0).val) % 8) (ha : ∀ x, (av x).toNat = (cc.val + (x 0).val) % 16)
    (h1 : ∀ a x, ((![gv, s16] : Fin 2 → IVec S16 32) a x).toNat < S8x4096.size a)
    (h2 : ∀ a x, ((![av, d16] : Fin 2 → IVec S16 32) a x).toNat < S16x4096.size a) :
    storeIdx a ![av, d16] (loadIdx ys ![gv, s16] h1) (fun _ => 1#1) true h2
      = accAfterStore ys (lanes s16) (lanes d16) cc a := by
  unfold storeIdx accAfterStore
  refine List.foldl_ext _ _ _ (fun g k _ => ?_)
  have hi : idxAt ![av, d16] h2 (Shape.ofLane (d := ![16]) k) = ix16 (rot16 cc k) (col (lanes d16 k)) := by
    funext a; apply Fin.ext
    match a with
    | 0 => exact ha (Shape.ofLane (d := ![16]) k)
    | 1 => exact (Nat.mod_eq_of_lt (h2 1 (Shape.ofLane (d := ![16]) k))).symm
  have hy : loadIdx ys ![gv, s16] h1 (Shape.ofLane (d := ![16]) k) = ys (ix8 (rot8 cc k) (col (lanes s16 k))) := by
    unfold loadIdx; congr 1
    funext a; apply Fin.ext
    match a with
    | 0 => exact hg (Shape.ofLane (d := ![16]) k)
    | 1 => exact (Nat.mod_eq_of_lt (h1 1 (Shape.ofLane (d := ![16]) k))).symm
  dsimp only []
  rw [if_pos (show (1#1 : BitVec 1) = 1 from rfl), if_pos rfl, hi, hy]
  unfold addAt
  funext j
  by_cases hj : ∀ a, (j a).val = ((ix16 (rot16 cc k) (col (lanes d16 k))) a).val
  · rw [if_pos hj, if_pos hj]; rfl
  · rw [if_neg hj, if_neg hj]

end Pure

/-! ## The rotations, and the ranges the body assumes -/

/-- The sixteen row vectors of a trip are the rotations: lane `l` of the `cc`-th names row `(cc + l) mod 8` of the
    feature rows, resp. row `(cc + l) mod 16` of the accumulator. -/
def RotOK (v7 v11 v15 v19 v23 v27 v31 v35 v39 v43 v47 v51 v55 v59 v63 v67 : IVec S16 32) : Prop :=
  (∀ (cc : Fin 8) (x : S16.Idx), ((![v7, v11, v15, v19, v23, v27, v31, v35] : Fin 8 → IVec S16 32) cc x).toNat = (cc.val + (x 0).val) % 8) ∧
  (∀ (cc : Fin 8) (x : S16.Idx), ((![v39, v43, v47, v51, v55, v59, v63, v67] : Fin 8 → IVec S16 32) cc x).toNat = (cc.val + (x 0).val) % 16)

theorem inb8 {gv w : IVec S16 32} {cc : ℕ} (hg : ∀ x : S16.Idx, (gv x).toNat = (cc + (x 0).val) % 8) (hw : ∀ x, (w x).toNat < 4096) :
    ∀ a x, ((![gv, w] : Fin 2 → IVec S16 32) a x).toNat < S8x4096.size a := by
  intro a x
  match a with
  | 0 => show (gv x).toNat < 8; rw [hg]; exact Nat.mod_lt _ (by decide)
  | 1 => exact hw x

theorem inb16 {av w : IVec S16 32} {cc : ℕ} (ha : ∀ x : S16.Idx, (av x).toNat = (cc + (x 0).val) % 16) (hw : ∀ x, (w x).toNat < 4096) :
    ∀ a x, ((![av, w] : Fin 2 → IVec S16 32) a x).toNat < S16x4096.size a := by
  intro a x
  match a with
  | 0 => show (av x).toNat < 16; rw [ha]; exact Nat.mod_lt _ (by decide)
  | 1 => exact hw x

/-! ## One trip -/

section Trip

variable [FloatOps F]

local notation "𝕄" => MT nD τ sig (HIx 2) (Elt F) ℕ UU ℕ

variable (d : Dev nD) (L : grid3.Coords)

/-- The vector subcore the tile `L` of the aggregation's grid runs on. -/
abbrev thr3 : Thread nD τ := V d ((L 0).castLE hcore3) ((L 1).castLE hsub3)

/-- The tile's four scratches: the feature rows, the accumulator, the sources and the targets of a chunk. -/
abbrev ysM : Memref sig .scVector .vmem S8x4096 .f32 := Memref.whole cc3_scratch0
abbrev accM : Memref sig .scVector .vmem S16x4096 .f32 := Memref.whole cc3_scratch1
abbrev sM : Memref sig .scVector .vmem S8192 .i32 := Memref.whole cc3_scratch2
abbrev dM : Memref sig .scVector .vmem S8192 .i32 := Memref.whole cc3_scratch3

/-- The sixteen words group `r` of trip `g` reads off an index list. -/
abbrev grpRect (g : Fin k3_t2_loop.trips) (r : Fin 4) : Rect S8192 :=
  Rect.unit (s := S8192) (k3_off3 g (BitVec.ofNat 32 r.val)) S16.size (k3_off3_inb g r)

omit [FloatOps F] in
theorem grpRect_idx (g : Fin k3_t2_loop.trips) (r : Fin 4) (l : Fin 16) :
    (grpRect g r).toLoadRect.idx (Shape.ofLane (d := ![16]) l) = ix1 ⟨(64 * g.val + (16 * r.val + l.val)) % 8192, Nat.mod_lt _ (by decide)⟩ := by
  funext a; apply Fin.ext
  rw [LoadRect.idx_apply, Subsingleton.elim a 0]
  show k3_off3 g (BitVec.ofNat 32 r.val) 0 + 1 * l.val = (64 * g.val + (16 * r.val + l.val)) % 8192
  rw [k3_off3_eq g r]
  have hg : g.val < 128 := lt_of_lt_of_le g.isLt k3_t2_abs.2.1
  have hr := r.isLt; have hl := l.isLt
  show 64 * g.val + 16 * r.val + 1 * l.val = _
  rw [Nat.mod_eq_of_lt (by omega)]; omega

omit [FloatOps F] in
/-- What a trip's load of group `r` reads off the sources. -/
theorem lanes_sLoad (b : Buf (Elt F) ((thr3 d L).loc cc3_scratch2)) (g : Fin k3_t2_loop.trips) (r : Fin 4) :
    lanes ((sM).view.readAt (Elt F) (grpRect g r).toLoadRect b) = grp (tripWords b g.val) r := by
  funext l
  show (sM).view.readAt (Elt F) (grpRect g r).toLoadRect b (Shape.ofLane (d := ![16]) l) = b (ix1 ⟨(64 * g.val + (16 * r.val + l.val)) % 8192, _⟩)
  simp only [View.readAt_apply, Memref.view_whole, View.read_whole]
  rw [grpRect_idx]

omit [FloatOps F] in
/-- What a trip's load of group `r` reads off the targets. -/
theorem lanes_dLoad (b : Buf (Elt F) ((thr3 d L).loc cc3_scratch3)) (g : Fin k3_t2_loop.trips) (r : Fin 4) :
    lanes ((dM).view.readAt (Elt F) (grpRect g r).toLoadRect b) = grp (tripWords b g.val) r := by
  funext l
  show (dM).view.readAt (Elt F) (grpRect g r).toLoadRect b (Shape.ofLane (d := ![16]) l) = b (ix1 ⟨(64 * g.val + (16 * r.val + l.val)) % 8192, _⟩)
  simp only [View.readAt_apply, Memref.view_whole, View.read_whole]
  rw [grpRect_idx]

omit [FloatOps F] in
theorem sLoad_lt (b : Buf (Elt F) ((thr3 d L).loc cc3_scratch2)) (hb : ∀ i, (b i).toNat < 4096) (g : Fin k3_t2_loop.trips) (r : Fin 4) :
    ∀ x, ((sM).view.readAt (Elt F) (grpRect g r).toLoadRect b x).toNat < 4096 := by
  intro x; simp only [View.readAt_apply, Memref.view_whole, View.read_whole]; exact hb _
omit [FloatOps F] in
theorem dLoad_lt (b : Buf (Elt F) ((thr3 d L).loc cc3_scratch3)) (hb : ∀ i, (b i).toNat < 4096) (g : Fin k3_t2_loop.trips) (r : Fin 4) :
    ∀ x, ((dM).view.readAt (Elt F) (grpRect g r).toLoadRect b x).toNat < 4096 := by
  intro x; simp only [View.readAt_apply, Memref.view_whole, View.read_whole]; exact hb _

/-- An indexed load of the feature rows: the program goes on at the gather of their contents. -/
theorem wp_ysLoadIdx {α : Type} {Q : α → sProp 𝕄} (ys : Buf (Elt F) ((thr3 d L).loc cc3_scratch0))
    {idxs : Fin S8x4096.rank → IVec S16 32} {h : ∀ a x, (idxs a x).toNat < S8x4096.size a} {hl : (ysM).view.Loads}
    {k : Vec F S16 .f32 → Prog (TpuEff nD τ sig (Elt F) Λ₀ (thr3 d L).2) α} :
    ((thr3 d L).loc cc3_scratch0 ↦{fullShare} ys : sProp 𝕄)
      ⊢ iprop((((thr3 d L).loc cc3_scratch0 ↦{fullShare} ys) -∗ wp frame (wpE (defs₀ (F := F)) 𝒱₀ (thr3 d L) none) Set.univ (k (loadIdx ys idxs h)) Q)
        -∗ wp frame (wpE (defs₀ (F := F)) 𝒱₀ (thr3 d L) none) Set.univ (SparseCore.vectorLoadIdx ysM idxs h hl >>= k) Q) := by
  have := SparseCore.wp_vectorLoadIdx (defs := defs₀ (F := F)) (Q := Q) 𝒱₀ (thr3 d L) none Set.univ (base := ysM) (idxs := idxs) (h := h) (hl := hl) (k := k)
    (S := Finset.univ) (q := fullShare) (f := ys) (Finset.subset_univ _)
  have e : ((ysM).access (Rect.whole S8x4096)).read (Elt F) ys = ys := Memref.read_access_whole (Elt F) cc3_scratch0 ys
  rw [e] at this
  exact this

/-- An indexed add-store into the accumulator of an indexed load of the feature rows, at rotation `cc`. -/
theorem wp_accStoreRot {α : Type} {Q : α → sProp 𝕄} (ys : Buf (Elt F) ((thr3 d L).loc cc3_scratch0)) (acc : Buf (Elt F) ((thr3 d L).loc cc3_scratch1))
    (cc : Fin 8) {gv av sv dv : IVec S16 32} {s16 d16 : Fin 16 → BitVec 32}
    (hg : ∀ x, (gv x).toNat = (cc.val + (x 0).val) % 8) (ha : ∀ x, (av x).toNat = (cc.val + (x 0).val) % 16)
    (hsv : lanes sv = s16) (hdv : lanes dv = d16)
    {h1 : ∀ a x, ((![gv, sv] : Fin 2 → IVec S16 32) a x).toNat < S8x4096.size a}
    {h2 : ∀ a x, ((![av, dv] : Fin 2 → IVec S16 32) a x).toNat < S16x4096.size a}
    {hs : ((accM).access (.whole S16x4096)).Stores Finset.univ}
    {k : PUnit → Prog (TpuEff nD τ sig (Elt F) Λ₀ (thr3 d L).2) α} :
    ((thr3 d L).loc cc3_scratch1 ↦{fullShare} acc : sProp 𝕄)
      ⊢ iprop((((thr3 d L).loc cc3_scratch1 ↦{fullShare} accAfterStore ys s16 d16 cc acc) -∗ wp frame (wpE (defs₀ (F := F)) 𝒱₀ (thr3 d L) none) Set.univ (k ⟨⟩) Q)
        -∗ wp frame (wpE (defs₀ (F := F)) 𝒱₀ (thr3 d L) none) Set.univ
            (SparseCore.vectorStoreIdx accM ![av, dv] (loadIdx ys ![gv, sv] h1) (fun _ => 1#1) true h2 hs >>= k) Q) := by
  have := SparseCore.wp_vectorStoreIdx (defs := defs₀ (F := F)) (Q := Q) 𝒱₀ (thr3 d L) none Set.univ (base := accM) (idxs := ![av, dv])
    (v := loadIdx ys ![gv, sv] h1) (mask := fun _ => 1#1) (add := true) (h := h2) (hs := hs) (k := k) (f := acc)
  have e1 : ((accM).access (Rect.whole S16x4096)).set = Finset.univ := Memref.set_access_whole cc3_scratch1
  have e2 : ((accM).access (Rect.whole S16x4096)).read (Elt F) acc = acc := Memref.read_access_whole (Elt F) cc3_scratch1 acc
  have e3 : ∀ w, ((accM).access (Rect.whole S16x4096)).write (Elt F) acc w Finset.univ = w := Memref.write_access_whole_univ (Elt F) cc3_scratch1 acc
  rw [e1, e2, e3, storeIdx_rot ys acc cc gv av sv dv hg ha h1 h2, hsv, hdv] at this
  exact this

set_option maxHeartbeats 4000000 in
/-- One trip of the inner loop on tile `L`: holding the four scratches whole — the feature rows at `ys`, the accumulator
    at `acc`, the index lists at `sb` and `db` with every word below 4096 —, the trip ends holding them with the
    accumulator at `accAfterTrip` of the trip's 64 sources and targets. A trip waits for nothing: whatever else the
    thread holds rides in `R`. -/
theorem wp_aggTrip
    (arg2 : Memref sig .scVector .hbm S65536 .i32) (harg2 : arg2.IsWhole) (arg3 : Memref sig .scVector .hbm S65536 .i32) (harg3 : arg3.IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r2 r3 r4 : DmaSems sig S_)
    (v7 v11 v15 v19 v23 v27 v31 v35 v39 v43 v47 v51 v55 v59 v63 v67 : IVec S16 32) (hrot : RotOK v7 v11 v15 v19 v23 v27 v31 v35 v39 v43 v47 v51 v55 v59 v63 v67)
    (g : Fin k3_t2_loop.trips)
    (ys : Buf (Elt F) ((thr3 d L).loc cc3_scratch0)) (acc : Buf (Elt F) ((thr3 d L).loc cc3_scratch1))
    (sb : Buf (Elt F) ((thr3 d L).loc cc3_scratch2)) (db : Buf (Elt F) ((thr3 d L).loc cc3_scratch3))
    (hsb : ∀ i, ((sb : IVec S8192 32) i).toNat < 4096) (hdb : ∀ i, ((db : IVec S8192 32) i).toNat < 4096) (R : sProp 𝕄) :
    iprop(R ∗ ((thr3 d L).loc cc3_scratch0 ↦{fullShare} ys) ∗ ((thr3 d L).loc cc3_scratch1 ↦{fullShare} acc)
        ∗ ((thr3 d L).loc cc3_scratch2 ↦{fullShare} sb) ∗ ((thr3 d L).loc cc3_scratch3 ↦{fullShare} db))
      ⊢ wp frame (wpE (defs₀ (F := F)) 𝒱₀ (thr3 d L) none) Set.univ
          (k3_t2_body L arg2 harg2 arg3 harg3 arg4 harg4 arg5 harg5 arg6 harg6 ysM harg7 accM harg8 sM harg9 dM harg10 r0 r1 r2 r3 r4
            v7 v11 v15 v19 v23 v27 v31 v35 v39 v43 v47 v51 v55 v59 v63 v67 g ⟨⟩)
          fun _ => iprop(R ∗ ((thr3 d L).loc cc3_scratch0 ↦{fullShare} ys)
            ∗ ((thr3 d L).loc cc3_scratch1 ↦{fullShare} accAfterTrip ys acc (tripWords sb g.val) (tripWords db g.val))
            ∗ ((thr3 d L).loc cc3_scratch2 ↦{fullShare} sb) ∗ ((thr3 d L).loc cc3_scratch3 ↦{fullShare} db)) := by
  obtain ⟨hG, hA⟩ := hrot
  have hs0 := sLoad_lt d L sb hsb g 0
  have hs1 := sLoad_lt d L sb hsb g 1
  have hs2 := sLoad_lt d L sb hsb g 2
  have hs3 := sLoad_lt d L sb hsb g 3
  have hd0 := dLoad_lt d L db hdb g 0
  have hd1 := dLoad_lt d L db hdb g 1
  have hd2 := dLoad_lt d L db hdb g 2
  have hd3 := dLoad_lt d L db hdb g 3
  have c1 : k3_chk1 v7 v11 v15 v19 v23 v27 v31 v35 ((sM).view.readAt (Elt F) (Rect.unit (s := S8192) (k3_off3 g 0#32) S16.size (k3_off3_inb g 0)).toLoadRect sb) := by
    unfold k3_chk1; exact ⟨inb8 (hG 0) hs0, inb8 (hG 1) hs0, inb8 (hG 2) hs0, inb8 (hG 3) hs0, inb8 (hG 4) hs0, inb8 (hG 5) hs0, inb8 (hG 6) hs0, inb8 (hG 7) hs0⟩
  have c2 : k3_chk2 v7 v11 v15 v19 v23 v27 v31 v35 ((sM).view.readAt (Elt F) (Rect.unit (s := S8192) (k3_off3 g 1#32) S16.size (k3_off3_inb g 1)).toLoadRect sb) := by
    unfold k3_chk2; exact ⟨inb8 (hG 0) hs1, inb8 (hG 1) hs1, inb8 (hG 2) hs1, inb8 (hG 3) hs1, inb8 (hG 4) hs1, inb8 (hG 5) hs1, inb8 (hG 6) hs1, inb8 (hG 7) hs1⟩
  have c3 : k3_chk3 v7 v11 v15 v19 v23 v27 v31 v35 ((sM).view.readAt (Elt F) (Rect.unit (s := S8192) (k3_off3 g 2#32) S16.size (k3_off3_inb g 2)).toLoadRect sb) := by
    unfold k3_chk3; exact ⟨inb8 (hG 0) hs2, inb8 (hG 1) hs2, inb8 (hG 2) hs2, inb8 (hG 3) hs2, inb8 (hG 4) hs2, inb8 (hG 5) hs2, inb8 (hG 6) hs2, inb8 (hG 7) hs2⟩
  have c4 : k3_chk4 v7 v11 v15 v19 v23 v27 v31 v35 ((sM).view.readAt (Elt F) (Rect.unit (s := S8192) (k3_off3 g 3#32) S16.size (k3_off3_inb g 3)).toLoadRect sb) := by
    unfold k3_chk4; exact ⟨inb8 (hG 0) hs3, inb8 (hG 1) hs3, inb8 (hG 2) hs3, inb8 (hG 3) hs3, inb8 (hG 4) hs3, inb8 (hG 5) hs3, inb8 (hG 6) hs3, inb8 (hG 7) hs3⟩
  have c5 : k3_chk5 v39 v43 v47 v51 v55 v59 v63 v67 ((dM).view.readAt (Elt F) (Rect.unit (s := S8192) (k3_off3 g 0#32) S16.size (k3_off3_inb g 0)).toLoadRect db) := by
    unfold k3_chk5; exact ⟨inb16 (hA 0) hd0, inb16 (hA 1) hd0, inb16 (hA 2) hd0, inb16 (hA 3) hd0, inb16 (hA 4) hd0, inb16 (hA 5) hd0, inb16 (hA 6) hd0, inb16 (hA 7) hd0⟩
  have c6 : k3_chk6 v39 v43 v47 v51 v55 v59 v63 v67 ((dM).view.readAt (Elt F) (Rect.unit (s := S8192) (k3_off3 g 1#32) S16.size (k3_off3_inb g 1)).toLoadRect db) := by
    unfold k3_chk6; exact ⟨inb16 (hA 0) hd1, inb16 (hA 1) hd1, inb16 (hA 2) hd1, inb16 (hA 3) hd1, inb16 (hA 4) hd1, inb16 (hA 5) hd1, inb16 (hA 6) hd1, inb16 (hA 7) hd1⟩
  have c7 : k3_chk7 v39 v43 v47 v51 v55 v59 v63 v67 ((dM).view.readAt (Elt F) (Rect.unit (s := S8192) (k3_off3 g 2#32) S16.size (k3_off3_inb g 2)).toLoadRect db) := by
    unfold k3_chk7; exact ⟨inb16 (hA 0) hd2, inb16 (hA 1) hd2, inb16 (hA 2) hd2, inb16 (hA 3) hd2, inb16 (hA 4) hd2, inb16 (hA 5) hd2, inb16 (hA 6) hd2, inb16 (hA 7) hd2⟩
  have c8 : k3_chk8 v39 v43 v47 v51 v55 v59 v63 v67 ((dM).view.readAt (Elt F) (Rect.unit (s := S8192) (k3_off3 g 3#32) S16.size (k3_off3_inb g 3)).toLoadRect db) := by
    unfold k3_chk8; exact ⟨inb16 (hA 0) hd3, inb16 (hA 1) hd3, inb16 (hA 2) hd3, inb16 (hA 3) hd3, inb16 (hA 4) hd3, inb16 (hA 5) hd3, inb16 (hA 6) hd3, inb16 (hA 7) hd3⟩
  have g0 : ∀ x : S16.Idx, (v7 x).toNat = ((0 : Fin 8).val + (x 0).val) % 8 := hG 0
  have g1 : ∀ x : S16.Idx, (v11 x).toNat = ((1 : Fin 8).val + (x 0).val) % 8 := hG 1
  have g2 : ∀ x : S16.Idx, (v15 x).toNat = ((2 : Fin 8).val + (x 0).val) % 8 := hG 2
  have g3 : ∀ x : S16.Idx, (v19 x).toNat = ((3 : Fin 8).val + (x 0).val) % 8 := hG 3
  have g4 : ∀ x : S16.Idx, (v23 x).toNat = ((4 : Fin 8).val + (x 0).val) % 8 := hG 4
  have g5 : ∀ x : S16.Idx, (v27 x).toNat = ((5 : Fin 8).val + (x 0).val) % 8 := hG 5
  have g6 : ∀ x : S16.Idx, (v31 x).toNat = ((6 : Fin 8).val + (x 0).val) % 8 := hG 6
  have g7 : ∀ x : S16.Idx, (v35 x).toNat = ((7 : Fin 8).val + (x 0).val) % 8 := hG 7
  have a0 : ∀ x : S16.Idx, (v39 x).toNat = ((0 : Fin 8).val + (x 0).val) % 16 := hA 0
  have a1 : ∀ x : S16.Idx, (v43 x).toNat = ((1 : Fin 8).val + (x 0).val) % 16 := hA 1
  have a2 : ∀ x : S16.Idx, (v47 x).toNat = ((2 : Fin 8).val + (x 0).val) % 16 := hA 2
  have a3 : ∀ x : S16.Idx, (v51 x).toNat = ((3 : Fin 8).val + (x 0).val) % 16 := hA 3
  have a4 : ∀ x : S16.Idx, (v55 x).toNat = ((4 : Fin 8).val + (x 0).val) % 16 := hA 4
  have a5 : ∀ x : S16.Idx, (v59 x).toNat = ((5 : Fin 8).val + (x 0).val) % 16 := hA 5
  have a6 : ∀ x : S16.Idx, (v63 x).toNat = ((6 : Fin 8).val + (x 0).val) % 16 := hA 6
  have a7 : ∀ x : S16.Idx, (v67 x).toNat = ((7 : Fin 8).val + (x 0).val) % 16 := hA 7
  unfold k3_t2_body
  iintro ⟨HR, Hys, Hacc, Hs, Hd⟩
  ihave Hs' := (Entails.of_eq (show (((thr3 d L).loc cc3_scratch2 ↦{fullShare} sb : sProp 𝕄)) = ((sM).view.loc (thr3 d L) ↦{fullShare} sb) from rfl)) $$ Hs
  ihave Hd' := (Entails.of_eq (show (((thr3 d L).loc cc3_scratch3 ↦{fullShare} db : sProp 𝕄)) = ((dM).view.loc (thr3 d L) ↦{fullShare} db) from rfl)) $$ Hd
  sl_exec
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_accStoreRot d L ys _ 0 g0 a0 (lanes_sLoad d L sb g 0) (lanes_dLoad d L db g 0)) $$ Hacc; iintro Hacc
  iapply (wp_accStoreRot d L ys _ 1 g1 a1 (lanes_sLoad d L sb g 0) (lanes_dLoad d L db g 0)) $$ Hacc; iintro Hacc
  iapply (wp_accStoreRot d L ys _ 2 g2 a2 (lanes_sLoad d L sb g 0) (lanes_dLoad d L db g 0)) $$ Hacc; iintro Hacc
  iapply (wp_accStoreRot d L ys _ 3 g3 a3 (lanes_sLoad d L sb g 0) (lanes_dLoad d L db g 0)) $$ Hacc; iintro Hacc
  iapply (wp_accStoreRot d L ys _ 4 g4 a4 (lanes_sLoad d L sb g 0) (lanes_dLoad d L db g 0)) $$ Hacc; iintro Hacc
  iapply (wp_accStoreRot d L ys _ 5 g5 a5 (lanes_sLoad d L sb g 0) (lanes_dLoad d L db g 0)) $$ Hacc; iintro Hacc
  iapply (wp_accStoreRot d L ys _ 6 g6 a6 (lanes_sLoad d L sb g 0) (lanes_dLoad d L db g 0)) $$ Hacc; iintro Hacc
  iapply (wp_accStoreRot d L ys _ 7 g7 a7 (lanes_sLoad d L sb g 0) (lanes_dLoad d L db g 0)) $$ Hacc; iintro Hacc
  iapply (wp_accStoreRot d L ys _ 0 g0 a0 (lanes_sLoad d L sb g 1) (lanes_dLoad d L db g 1)) $$ Hacc; iintro Hacc
  iapply (wp_accStoreRot d L ys _ 1 g1 a1 (lanes_sLoad d L sb g 1) (lanes_dLoad d L db g 1)) $$ Hacc; iintro Hacc
  iapply (wp_accStoreRot d L ys _ 2 g2 a2 (lanes_sLoad d L sb g 1) (lanes_dLoad d L db g 1)) $$ Hacc; iintro Hacc
  iapply (wp_accStoreRot d L ys _ 3 g3 a3 (lanes_sLoad d L sb g 1) (lanes_dLoad d L db g 1)) $$ Hacc; iintro Hacc
  iapply (wp_accStoreRot d L ys _ 4 g4 a4 (lanes_sLoad d L sb g 1) (lanes_dLoad d L db g 1)) $$ Hacc; iintro Hacc
  iapply (wp_accStoreRot d L ys _ 5 g5 a5 (lanes_sLoad d L sb g 1) (lanes_dLoad d L db g 1)) $$ Hacc; iintro Hacc
  iapply (wp_accStoreRot d L ys _ 6 g6 a6 (lanes_sLoad d L sb g 1) (lanes_dLoad d L db g 1)) $$ Hacc; iintro Hacc
  sl_exec
  iapply (wp_accStoreRot d L ys _ 7 g7 a7 (lanes_sLoad d L sb g 1) (lanes_dLoad d L db g 1)) $$ Hacc; iintro Hacc
  iapply (wp_accStoreRot d L ys _ 0 g0 a0 (lanes_sLoad d L sb g 2) (lanes_dLoad d L db g 2)) $$ Hacc; iintro Hacc
  iapply (wp_accStoreRot d L ys _ 1 g1 a1 (lanes_sLoad d L sb g 2) (lanes_dLoad d L db g 2)) $$ Hacc; iintro Hacc
  iapply (wp_accStoreRot d L ys _ 2 g2 a2 (lanes_sLoad d L sb g 2) (lanes_dLoad d L db g 2)) $$ Hacc; iintro Hacc
  iapply (wp_accStoreRot d L ys _ 3 g3 a3 (lanes_sLoad d L sb g 2) (lanes_dLoad d L db g 2)) $$ Hacc; iintro Hacc
  iapply (wp_accStoreRot d L ys _ 4 g4 a4 (lanes_sLoad d L sb g 2) (lanes_dLoad d L db g 2)) $$ Hacc; iintro Hacc
  iapply (wp_accStoreRot d L ys _ 5 g5 a5 (lanes_sLoad d L sb g 2) (lanes_dLoad d L db g 2)) $$ Hacc; iintro Hacc
  iapply (wp_accStoreRot d L ys _ 6 g6 a6 (lanes_sLoad d L sb g 2) (lanes_dLoad d L db g 2)) $$ Hacc; iintro Hacc
  iapply (wp_accStoreRot d L ys _ 7 g7 a7 (lanes_sLoad d L sb g 2) (lanes_dLoad d L db g 2)) $$ Hacc; iintro Hacc
  iapply (wp_accStoreRot d L ys _ 0 g0 a0 (lanes_sLoad d L sb g 3) (lanes_dLoad d L db g 3)) $$ Hacc; iintro Hacc
  iapply (wp_accStoreRot d L ys _ 1 g1 a1 (lanes_sLoad d L sb g 3) (lanes_dLoad d L db g 3)) $$ Hacc; iintro Hacc
  iapply (wp_accStoreRot d L ys _ 2 g2 a2 (lanes_sLoad d L sb g 3) (lanes_dLoad d L db g 3)) $$ Hacc; iintro Hacc
  iapply (wp_accStoreRot d L ys _ 3 g3 a3 (lanes_sLoad d L sb g 3) (lanes_dLoad d L db g 3)) $$ Hacc; iintro Hacc
  iapply (wp_accStoreRot d L ys _ 4 g4 a4 (lanes_sLoad d L sb g 3) (lanes_dLoad d L db g 3)) $$ Hacc; iintro Hacc
  iapply (wp_accStoreRot d L ys _ 5 g5 a5 (lanes_sLoad d L sb g 3) (lanes_dLoad d L db g 3)) $$ Hacc; iintro Hacc
  iapply (wp_accStoreRot d L ys _ 6 g6 a6 (lanes_sLoad d L sb g 3) (lanes_dLoad d L db g 3)) $$ Hacc; iintro Hacc
  iapply (wp_accStoreRot d L ys _ 7 g7 a7 (lanes_sLoad d L sb g 3) (lanes_dLoad d L db g 3)) $$ Hacc; iintro Hacc
  sl_step
  isplitl [HR]; · iexact HR
  isplitl [Hys]; · iexact Hys
  isplitl [Hacc]; · iexact Hacc
  isplitl [Hs']; · iexact Hs'
  iexact Hd'

end Trip

/-! ## The program's own row vectors are the rotations -/

theorem rot8_word : ∀ (cc : Fin 8) (l : Fin 16), ((BitVec.ofNat 32 cc.val + BitVec.ofNat 32 (0 * 16 + l.val)) &&& 7#32).toNat = (cc.val + l.val) % 8 := by decide
theorem rot16_word : ∀ (cc : Fin 8) (l : Fin 16), ((BitVec.ofNat 32 cc.val + BitVec.ofNat 32 (0 * 16 + l.val)) &&& 15#32).toNat = (cc.val + l.val) % 16 := by decide

/-- The sixteen row vectors the kernel computes before its loops (lane number plus the rotation, masked to three resp. four bits). -/
theorem rotOK_pay : RotOK k3_pay10 k3_pay11 k3_pay12 k3_pay13 k3_pay14 k3_pay15 (k3_pay17 k3_pay16 7#32)
    (k3_pay18 (iota .scVector S16 32 [0] iota_S16_d0_w32_scVector)) (k3_pay19 (iota .scVector S16 32 [0] iota_S16_d0_w32_scVector))
    (k3_pay20 (iota .scVector S16 32 [0] iota_S16_d0_w32_scVector)) (k3_pay21 (iota .scVector S16 32 [0] iota_S16_d0_w32_scVector))
    (k3_pay22 (iota .scVector S16 32 [0] iota_S16_d0_w32_scVector)) (k3_pay23 (iota .scVector S16 32 [0] iota_S16_d0_w32_scVector))
    (k3_pay24 (iota .scVector S16 32 [0] iota_S16_d0_w32_scVector)) (k3_pay25 (iota .scVector S16 32 [0] iota_S16_d0_w32_scVector))
    (k3_pay26 (iota .scVector S16 32 [0] iota_S16_d0_w32_scVector)) := by
  constructor
  · intro cc x
    fin_cases cc
    · exact rot8_word 0 (x 0)
    · exact rot8_word 1 (x 0)
    · exact rot8_word 2 (x 0)
    · exact rot8_word 3 (x 0)
    · exact rot8_word 4 (x 0)
    · exact rot8_word 5 (x 0)
    · exact rot8_word 6 (x 0)
    · exact rot8_word 7 (x 0)
  · intro cc x
    fin_cases cc
    · exact rot16_word 0 (x 0)
    · exact rot16_word 1 (x 0)
    · exact rot16_word 2 (x 0)
    · exact rot16_word 3 (x 0)
    · exact rot16_word 4 (x 0)
    · exact rot16_word 5 (x 0)
    · exact rot16_word 6 (x 0)
    · exact rot16_word 7 (x 0)

end Cert.Proof.KI

end
-- ==== Proof.AggChunk.lean ====
/-
  One chunk of the edge aggregation on a vector subcore: the chunk's 8192 sources and 8192 targets are copied from
  the edge lists into the two index scratches, each copy waited for before anything reads its scratch, and the 128
  trips of the inner loop run over them. The accumulator after the chunk is the 128-fold of the trip's pure function
  over the chunk's words; after `n` chunks, the `n`-fold of that.
-/
import proofs.«205814_g58841051955373_cont_9to1_m_133_55_alg».proof.Proof.AggTrip

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section Chunk

variable [FloatOps F]

local notation "𝕄" => MT nD τ sig (HIx 2) (Elt F) ℕ UU ℕ

variable (d : Dev nD) (L : grid3.Coords)

/-- The edge sources and targets as the tile addresses them. -/
abbrev srcM : Memref sig .scVector .hbm S65536 .i32 := Memref.whole main_v3_scv
abbrev dstM : Memref sig .scVector .hbm S65536 .i32 := Memref.whole main_v5_scv

omit [FloatOps F] in
/-- Words `8192 n … 8192 n + 8191` of an edge list: chunk `n`. -/
def chunkWords (b : Vec F S65536 .i32) (n : ℕ) : Vec F S8192 .i32 :=
  fun i => b (Shape.ofLane (d := ![65536]) ⟨(8192 * n + (i 0).val) % 65536, Nat.mod_lt _ (by decide)⟩)

/-- The accumulator after the first `n` chunks of the edge lists `src`, `dst`. -/
def accAfterChunks (ys : Vec F S8x4096 .f32) (src dst : Vec F S65536 .i32) : ℕ → Vec F S16x4096 .f32 → Vec F S16x4096 .f32
  | 0, acc => acc
  | n + 1, acc => accAfterTrips ys (chunkWords src n) (chunkWords dst n) k3_t2_loop.trips (accAfterChunks ys src dst n acc)

/-- The rectangle of chunk `ch` in an edge list. -/
abbrev chunkRect (ch : Fin k3_t1_loop.trips) : Rect S65536 := Rect.unit (s := S65536) (k3_off2 ch) S8192.size (k3_off2_inb ch)

omit [FloatOps F] in
theorem chunkRect_emb (ch : Fin k3_t1_loop.trips) (i : S8192.Idx) :
    (chunkRect ch).emb i = Shape.ofLane (d := ![65536]) ⟨(8192 * ch.val + (i 0).val) % 65536, Nat.mod_lt _ (by decide)⟩ := by
  funext a; apply Fin.ext
  rw [Rect.emb_apply, Subsingleton.elim a 0]
  show k3_off2 ch 0 + 1 * (i 0).val = (8192 * ch.val + (i 0).val) % 65536
  rw [k3_off2_eq ch]
  have hc : ch.val < 8 := lt_of_lt_of_le ch.isLt k3_t1_abs.2.1
  have hi : (i 0).val < 8192 := (i 0).isLt
  show 8192 * ch.val + 1 * (i 0).val = _
  rw [Nat.mod_eq_of_lt (by omega)]; omega

omit [FloatOps F] in
/-- What the copy of chunk `ch` of the sources lands. -/
theorem srcChunk_eq (ch : Fin k3_t1_loop.trips) (src : Buf (Elt F) (srcLoc d)) :
    ((srcM).slice (chunkRect ch) (fun _ => rfl)).view.read (Elt F) src = chunkWords src ch.val := by
  funext i
  refine ((View.read_apply _ _).trans (cast_eq _ _)).trans ?_
  show src ((chunkRect ch).emb i) = _
  rw [chunkRect_emb]; rfl

omit [FloatOps F] in
/-- What the copy of chunk `ch` of the targets lands. -/
theorem dstChunk_eq (ch : Fin k3_t1_loop.trips) (dst : Buf (Elt F) (dstLoc d)) :
    ((dstM).slice (chunkRect ch) (fun _ => rfl)).view.read (Elt F) dst = chunkWords dst ch.val := by
  funext i
  refine ((View.read_apply _ _).trans (cast_eq _ _)).trans ?_
  show dst ((chunkRect ch).emb i) = _
  rw [chunkRect_emb]; rfl

omit [FloatOps F] in
/-- The sources' scratch, overwritten whole. -/
theorem pts_sWritten (sb : Buf (Elt F) ((thr3 d L).loc cc3_scratch2)) {w c : Vec F S8192 .i32} (h : w = c) :
    ((sM).view.loc (thr3 d L) ↦{fullShare} View.write (Elt F) (sM).view sb w Finset.univ : sProp 𝕄) ⊢ ((thr3 d L).loc cc3_scratch2 ↦{fullShare} c) := by
  subst h
  exact Entails.of_eq (congrArg (fun c => ((thr3 d L).loc cc3_scratch2 ↦{fullShare} c : sProp 𝕄)) (View.write_whole_univ _ _ _))
omit [FloatOps F] in
/-- The targets' scratch, overwritten whole. -/
theorem pts_dWritten (db : Buf (Elt F) ((thr3 d L).loc cc3_scratch3)) {w c : Vec F S8192 .i32} (h : w = c) :
    ((dM).view.loc (thr3 d L) ↦{fullShare} View.write (Elt F) (dM).view db w Finset.univ : sProp 𝕄) ⊢ ((thr3 d L).loc cc3_scratch3 ↦{fullShare} c) := by
  subst h
  exact Entails.of_eq (congrArg (fun c => ((thr3 d L).loc cc3_scratch3 ↦{fullShare} c : sProp 𝕄)) (View.write_whole_univ _ _ _))

/-- Everything a trip leaves alone, the four scratches, and the accumulator after `k` trips of the chunk. -/
def tripInv (Rest : sProp 𝕄) (ys : Vec F S8x4096 .f32) (acc : Vec F S16x4096 .f32) (sC dC : Vec F S8192 .i32) (k : ℕ) (_ : PUnit) : sProp 𝕄 :=
  iprop(Rest ∗ ((thr3 d L).loc cc3_scratch0 ↦{fullShare} ys) ∗ ((thr3 d L).loc cc3_scratch1 ↦{fullShare} accAfterTrips ys sC dC k acc)
    ∗ ((thr3 d L).loc cc3_scratch2 ↦{fullShare} sC) ∗ ((thr3 d L).loc cc3_scratch3 ↦{fullShare} dC))

set_option maxHeartbeats 4000000 in
/-- Chunk `ch` on tile `L`: the chunk's sources and targets are copied into the index scratches (each copy waited for at
    once), then the 128 trips run. The edge lists are held at any share with every word below 4096. -/
theorem wp_aggChunk
    (harg2 : (srcM).IsWhole) (harg3 : (dstM).IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r4 : DmaSems sig S_)
    (v7 v11 v15 v19 v23 v27 v31 v35 v39 v43 v47 v51 v55 v59 v63 v67 : IVec S16 32) (hrot : RotOK v7 v11 v15 v19 v23 v27 v31 v35 v39 v43 v47 v51 v55 v59 v63 v67)
    (ch : Fin k3_t1_loop.trips)
    (O : CellTallies nD τ sig (HIx 2)) (W : Waits sig (HIx 2)) (qs qd : PosShare TreeShare)
    (src : Buf (Elt F) (srcLoc d)) (dst : Buf (Elt F) (dstLoc d))
    (hsrc : ∀ i, ((src : IVec S65536 32) i).toNat < 4096) (hdst : ∀ i, ((dst : IVec S65536 32) i).toNat < 4096)
    (ys : Buf (Elt F) ((thr3 d L).loc cc3_scratch0)) (acc : Buf (Elt F) ((thr3 d L).loc cc3_scratch1))
    (sb : Buf (Elt F) ((thr3 d L).loc cc3_scratch2)) (db : Buf (Elt F) ((thr3 d L).loc cc3_scratch3)) :
    iprop((Transfers.MayWaits (thr3 d L) (none : HIx 2) O : sProp 𝕄) ∗ (srcLoc d ↦{qs} src) ∗ (dstLoc d ↦{qd} dst)
        ∗ ((thr3 d L).loc cc3_scratch0 ↦{fullShare} ys) ∗ ((thr3 d L).loc cc3_scratch1 ↦{fullShare} acc)
        ∗ ((thr3 d L).loc cc3_scratch2 ↦{fullShare} sb) ∗ ((thr3 d L).loc cc3_scratch3 ↦{fullShare} db)
        ∗ semVal (thr3 d L, SemLoc.dma cc3_scoped2.sem) 0 ∗ semVal (thr3 d L, SemLoc.dma cc3_scoped3.sem) 0
        ∗ ∃ W', ⌜∀ p ∈ W', p ∈ W ∨ p.2 = none⌝ ∗ owes (thr3 d L) O W')
      ⊢ wp frame (wpE (defs₀ (F := F)) 𝒱₀ (thr3 d L) none) Set.univ
          (k3_t1_body L srcM harg2 dstM harg3 arg4 harg4 arg5 harg5 arg6 harg6 ysM harg7 accM harg8 sM harg9 dM harg10 r0 r1 cc3_scoped2 cc3_scoped3 r4
            v7 v11 v15 v19 v23 v27 v31 v35 v39 v43 v47 v51 v55 v59 v63 v67 ch ⟨⟩)
          fun _ => iprop((Transfers.MayWaits (thr3 d L) (none : HIx 2) O : sProp 𝕄) ∗ (srcLoc d ↦{qs} src) ∗ (dstLoc d ↦{qd} dst)
            ∗ ((thr3 d L).loc cc3_scratch0 ↦{fullShare} ys)
            ∗ ((thr3 d L).loc cc3_scratch1 ↦{fullShare} accAfterTrips ys (chunkWords src ch.val) (chunkWords dst ch.val) k3_t2_loop.trips acc)
            ∗ ((thr3 d L).loc cc3_scratch2 ↦{fullShare} chunkWords src ch.val) ∗ ((thr3 d L).loc cc3_scratch3 ↦{fullShare} chunkWords dst ch.val)
            ∗ semVal (thr3 d L, SemLoc.dma cc3_scoped2.sem) 0 ∗ semVal (thr3 d L, SemLoc.dma cc3_scoped3.sem) 0
            ∗ ∃ W', ⌜∀ p ∈ W', p ∈ W ∨ p.2 = none⌝ ∗ owes (thr3 d L) O W') := by
  have hsC : ∀ i, ((chunkWords src ch.val : IVec S8192 32) i).toNat < 4096 := fun i => hsrc _
  have hdC : ∀ i, ((chunkWords dst ch.val : IVec S8192 32) i).toNat < 4096 := fun i => hdst _
  unfold k3_t1_body
  iintro ⟨Hmw, Hsrc, Hdst, Hys, Hacc, Hs, Hd, Hsem2, Hsem3, %W', %hW', HO⟩
  ihave Hsrc' := (Entails.of_eq (show ((srcLoc d ↦{qs} src : sProp 𝕄)) = ((srcM).view.loc (thr3 d L) ↦{qs} src) from rfl)) $$ Hsrc
  ihave Hdst' := (Entails.of_eq (show ((dstLoc d ↦{qd} dst : sProp 𝕄)) = ((dstM).view.loc (thr3 d L) ↦{qd} dst) from rfl)) $$ Hdst
  ihave Hs' := (Entails.of_eq (show (((thr3 d L).loc cc3_scratch2 ↦{fullShare} sb : sProp 𝕄)) = ((sM).view.loc (thr3 d L) ↦{fullShare} sb) from rfl)) $$ Hs
  ihave Hd' := (Entails.of_eq (show (((thr3 d L).loc cc3_scratch3 ↦{fullShare} db : sProp 𝕄)) = ((dM).view.loc (thr3 d L) ↦{fullShare} db) from rfl)) $$ Hd
  sl_exec
  sl_for (tripInv d L iprop((Transfers.MayWaits (thr3 d L) (none : HIx 2) O : sProp 𝕄) ∗ ((srcM).view.loc (thr3 d L) ↦{qs} src) ∗ ((dstM).view.loc (thr3 d L) ↦{qd} dst)
      ∗ semVal (thr3 d L, SemLoc.dma cc3_scoped2.sem) 0 ∗ semVal (thr3 d L, SemLoc.dma cc3_scoped3.sem) 0
      ∗ owes (thr3 d L) O (insert (SemLoc.dma cc3_scoped3.sem, default) (insert (SemLoc.dma cc3_scoped2.sem, default) W')))
    ys acc (chunkWords src ch.val) (chunkWords dst ch.val)) $$ [Hmw Hsrc' Hdst' Hsem2 Hsem3 HO Hys Hacc Hs' Hd']
  case region =>
    intro k u
    exact wp_aggTrip d L srcM harg2 dstM harg3 arg4 harg4 arg5 harg5 arg6 harg6 harg7 harg8 harg9 harg10 r0 r1 cc3_scoped2 cc3_scoped3 r4
      v7 v11 v15 v19 v23 v27 v31 v35 v39 v43 v47 v51 v55 v59 v63 v67 hrot k ys (accAfterTrips ys (chunkWords src ch.val) (chunkWords dst ch.val) k.val acc)
      (chunkWords src ch.val) (chunkWords dst ch.val) hsC hdC _
  · unfold tripInv
    isplitl [Hmw Hsrc' Hdst' Hsem2 Hsem3 HO]
    · isplitl [Hmw]; · iexact Hmw
      isplitl [Hsrc']; · iexact Hsrc'
      isplitl [Hdst']; · iexact Hdst'
      isplitl [Hsem2]; · iexact Hsem2
      isplitl [Hsem3]; · iexact Hsem3
      iexact HO
    isplitl [Hys]; · iexact Hys
    isplitl [Hacc]; · iexact Hacc
    isplitl [Hs']
    · iapply (pts_sWritten d L sb (c := chunkWords src ch.val) ?hw)
      rotate_left
      · iexact Hs'
      · exact srcChunk_eq d ch src
    · iapply (pts_dWritten d L db (c := chunkWords dst ch.val) ?hw2)
      rotate_left
      · iexact Hd'
      · exact dstChunk_eq d ch dst
  iintro %_ HI
  unfold tripInv
  icases HI with ⟨⟨Hmw, Hsrc, Hdst, Hsem2, Hsem3, HO⟩, Hys, Hacc, Hs, Hd⟩
  sl_exec
  sl_step
  isplitl [Hmw]; · iexact Hmw
  isplitl [Hsrc]; · iexact Hsrc
  isplitl [Hdst]; · iexact Hdst
  isplitl [Hys]; · iexact Hys
  isplitl [Hacc]; · iexact Hacc
  isplitl [Hs]; · iexact Hs
  isplitl [Hd]; · iexact Hd
  isplitl [Hsem2]; · iexact Hsem2
  isplitl [Hsem3]; · iexact Hsem3
  iexists (insert (SemLoc.dma cc3_scoped3.sem, (default : HIx 2)) (insert (SemLoc.dma cc3_scoped2.sem, (default : HIx 2)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Chunk

end Cert.Proof.KI

end
-- ==== Proof.AggLoops.lean ====
/-
  The fold of the edge aggregation on a vector subcore: after the chunks, each of the 256 trips adds, for sixteen
  columns, each of rows 8..15 of the accumulator onto the row eight above it. A trip reads the sixteen rows'
  entries of its columns as they stood before it (no row it reads has been written in the trip) and stores the
  eight sums; so after `j` trips rows 0..7 of columns below `16 j` hold the sums, and after all of them every
  column does.
-/
import proofs.«205814_g58841051955373_cont_9to1_m_133_55_alg».proof.Proof.AggChunk

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The fold of the accumulator's upper half onto its lower half -/

section FoldPure

variable [FloatOps F]

/-- The entry eight rows below. -/
def up8 (i : S16x4096.Idx) : S16x4096.Idx := ix16 ⟨((i 0).val + 8) % 16, Nat.mod_lt _ (by decide)⟩ (i 1)

/-- Rows 0..7 of the sixteen columns `16 j … 16 j + 15` take the sum with the entry eight rows below. -/
def foldStep (A : Vec F S16x4096 .f32) (j : ℕ) : Vec F S16x4096 .f32 :=
  fun i => if (i 0).val < 8 ∧ 16 * j ≤ (i 1).val ∧ (i 1).val < 16 * j + 16 then FloatOps.addf (A i) (A (up8 i)) else A i

/-- After `n` trips of the fold: rows 0..7 of columns below `16 n` hold the sum with the entry eight rows below. -/
def foldRows (A : Vec F S16x4096 .f32) (n : ℕ) : Vec F S16x4096 .f32 :=
  fun i => if (i 0).val < 8 ∧ (i 1).val < 16 * n then FloatOps.addf (A i) (A (up8 i)) else A i

theorem foldRows_zero (A : Vec F S16x4096 .f32) : foldRows A 0 = A := by
  funext i; unfold foldRows; rw [if_neg (by omega)]

omit [FloatOps F] in
theorem up8_row (i : S16x4096.Idx) (h : (i 0).val < 8) : ((up8 i) 0).val = (i 0).val + 8 := by
  show ((i 0).val + 8) % 16 = _
  exact Nat.mod_eq_of_lt (by omega)
omit [FloatOps F] in
theorem up8_col (i : S16x4096.Idx) : ((up8 i) 1) = i 1 := rfl

theorem foldStep_foldRows (A : Vec F S16x4096 .f32) (j : ℕ) : foldStep (foldRows A j) j = foldRows A (j + 1) := by
  funext i
  unfold foldStep
  by_cases h1 : (i 0).val < 8 ∧ 16 * j ≤ (i 1).val ∧ (i 1).val < 16 * j + 16
  · rw [if_pos h1]
    have e1 : foldRows A j i = A i := by unfold foldRows; rw [if_neg (by omega)]
    have e2 : foldRows A j (up8 i) = A (up8 i) := by
      unfold foldRows; rw [if_neg (by rw [up8_row i h1.1]; omega)]
    have e3 : foldRows A (j + 1) i = FloatOps.addf (A i) (A (up8 i)) := by unfold foldRows; rw [if_pos (by omega)]
    rw [e1, e2, e3]
  · rw [if_neg h1]
    unfold foldRows
    by_cases h2 : (i 0).val < 8 ∧ (i 1).val < 16 * j
    · rw [if_pos h2, if_pos (by omega)]
    · rw [if_neg h2, if_neg (by omega)]

/-- The sum of two rows of sixteen, as the fold's payloads form it. -/
def rowSum (a b : Vec F S1x16 .f32) : FVec F S16 .f32 :=
  addf (shapeCast S16 a shapeCasts_S1x16_S16) (shapeCast S16 b shapeCasts_S1x16_S16)

omit [FloatOps F] in
theorem unit_emb2 {off : Fin 2 → ℕ} (inb : ∀ a, off a + S1x16.size a ≤ S16x4096.size a) (x : S1x16.Idx) (a : Fin 2) :
    (((Rect.unit (s := S16x4096) off S1x16.size inb).emb x) a).val = off a + (x a).val := by
  rw [Rect.emb_apply]; show off a + 1 * (x a).val = _; omega

/-- A piece of the fold at row `r`: the payload is the step's value at the piece's entries. -/
theorem piece_ok (A : Vec F S16x4096 .f32) (j r : ℕ) (hr : r < 8) {offA offB : Fin 2 → ℕ} (hA : offA = ![r, 16 * j]) (hB : offB = ![r + 8, 16 * j])
    (inbA : ∀ a, offA a + S1x16.size a ≤ S16x4096.size a) (inbB : ∀ a, offB a + S1x16.size a ≤ S16x4096.size a) (x : S1x16.Idx) :
    shapeCast S1x16 (rowSum ((accM).view.readAt (Elt F) (Rect.unit (s := S16x4096) offA S1x16.size inbA).toLoadRect A)
        ((accM).view.readAt (Elt F) (Rect.unit (s := S16x4096) offB S1x16.size inbB).toLoadRect A)) shapeCasts_S16_S1x16 x
      = foldStep A j ((Rect.unit (s := S16x4096) offA S1x16.size inbA).emb x) := by
  subst hA hB
  have hx0 : (x 0).val < 1 := (x 0).isLt
  have hx1 : (x 1).val < 16 := (x 1).isLt
  have eA : (Rect.unit (s := S16x4096) ![r, 16 * j] S1x16.size inbA).toLoadRect.idx x = (Rect.unit (s := S16x4096) ![r, 16 * j] S1x16.size inbA).emb x := rfl
  generalize he : (Rect.unit (s := S16x4096) ![r, 16 * j] S1x16.size inbA).emb x = e at eA
  have hrow : (e 0).val = r := by rw [← he, unit_emb2]; show r + (x 0).val = r; omega
  have hcol : (e 1).val = 16 * j + (x 1).val := by rw [← he, unit_emb2]; rfl
  have eB : (Rect.unit (s := S16x4096) ![r + 8, 16 * j] S1x16.size inbB).toLoadRect.idx x = up8 e := by
    funext a; apply Fin.ext
    match a with
    | 0 =>
      rw [up8_row _ (by omega), hrow, LoadRect.idx_apply]
      show (r + 8) + 1 * (x 0).val = r + 8; omega
    | 1 =>
      rw [up8_col, hcol, LoadRect.idx_apply]
      show 16 * j + 1 * (x 1).val = _; omega
  unfold foldStep
  rw [if_pos ⟨by omega, by omega, by omega⟩]
  unfold shapeCast rowSum addf shapeCast
  simp only [Shape.reshapeEquiv_reshapeEquiv, Shape.reshapeEquiv_self]
  simp only [View.readAt_apply, Memref.view_whole, View.read_whole]
  rw [eA, eB]

omit [FloatOps F] in
theorem cov_ok (y : S16x4096.Idx) (j r : ℕ) (hr : (y 0).val = r) (hc : 16 * j ≤ (y 1).val ∧ (y 1).val < 16 * j + 16) {off : Fin 2 → ℕ} (hoff : off = ![r, 16 * j])
    (inb : ∀ a, off a + S1x16.size a ≤ S16x4096.size a) : y ∈ (Rect.unit (s := S16x4096) off S1x16.size inb).set := by
  subst hoff
  rw [Rect.mem_set_unit]
  intro a
  match a with
  | 0 => show r ≤ (y 0).val ∧ (y 0).val < r + 1; omega
  | 1 => show 16 * j ≤ (y 1).val ∧ (y 1).val < 16 * j + 16; omega

end FoldPure

/-! ## The fold loop -/

section FoldLoop

variable [FloatOps F]

local notation "𝕄" => MT nD τ sig (HIx 2) (Elt F) ℕ UU ℕ

variable (d : Dev nD) (L : grid3.Coords)

omit [FloatOps F] in
/-- Writes whose payloads all agree with one function `G`, which agrees with the old contents off the pieces, leave `G`. -/
theorem writes_eq_of_pieces (A G : Vec F S16x4096 .f32) (Ls : List (View.Piece (Elt F) S16x4096 .f32))
    (hG : ∀ p ∈ Ls, ∀ x : p.1.shape.Idx, p.2 x = G (p.1.emb x)) (hout : ∀ y, (∀ p ∈ Ls, y ∉ p.1.set) → G y = A y) :
    (accM).view.writes (Elt F) A Ls = G := by
  funext y
  have hr : (accM).view.read (Elt F) ((accM).view.writes (Elt F) A Ls) y = (accM).view.writes (Elt F) A Ls y := rfl
  rw [← hr]
  by_cases h : ∃ p ∈ Ls, y ∈ p.1.set
  · exact View.read_writes_apply_of_pieces (accM).view A G Ls hG y h
  · have hn : ∀ p ∈ Ls, y ∉ p.1.set := fun p hp hy => h ⟨p, hp, hy⟩
    rw [View.read_writes_apply_of_forall_not_mem (accM).view A y Ls hn, hout y hn]
    rfl

/-- What the eight stores of trip `j` leave, over contents `A`: the step's closed form. -/
theorem foldTrip_eq (A : Vec F S16x4096 .f32) (j : Fin k3_t3_loop.trips) :
    (accM).view.writes (Elt F) A
      [⟨Rect.unit (s := S16x4096) (k3_off18 j) S1x16.size (k3_off18_inb j), shapeCast S1x16 (k3_pay1 ((accM).view.readAt (Elt F) (Rect.unit (s := S16x4096) (k3_off18 j) S1x16.size (k3_off18_inb j)).toLoadRect A) ((accM).view.readAt (Elt F) (Rect.unit (s := S16x4096) (k3_off19 j) S1x16.size (k3_off19_inb j)).toLoadRect A)) shapeCasts_S16_S1x16⟩,
       ⟨Rect.unit (s := S16x4096) (k3_off16 j) S1x16.size (k3_off16_inb j), shapeCast S1x16 (k3_pay9 ((accM).view.readAt (Elt F) (Rect.unit (s := S16x4096) (k3_off16 j) S1x16.size (k3_off16_inb j)).toLoadRect A) ((accM).view.readAt (Elt F) (Rect.unit (s := S16x4096) (k3_off17 j) S1x16.size (k3_off17_inb j)).toLoadRect A)) shapeCasts_S16_S1x16⟩,
       ⟨Rect.unit (s := S16x4096) (k3_off14 j) S1x16.size (k3_off14_inb j), shapeCast S1x16 (k3_pay8 ((accM).view.readAt (Elt F) (Rect.unit (s := S16x4096) (k3_off14 j) S1x16.size (k3_off14_inb j)).toLoadRect A) ((accM).view.readAt (Elt F) (Rect.unit (s := S16x4096) (k3_off15 j) S1x16.size (k3_off15_inb j)).toLoadRect A)) shapeCasts_S16_S1x16⟩,
       ⟨Rect.unit (s := S16x4096) (k3_off12 j) S1x16.size (k3_off12_inb j), shapeCast S1x16 (k3_pay7 ((accM).view.readAt (Elt F) (Rect.unit (s := S16x4096) (k3_off12 j) S1x16.size (k3_off12_inb j)).toLoadRect A) ((accM).view.readAt (Elt F) (Rect.unit (s := S16x4096) (k3_off13 j) S1x16.size (k3_off13_inb j)).toLoadRect A)) shapeCasts_S16_S1x16⟩,
       ⟨Rect.unit (s := S16x4096) (k3_off10 j) S1x16.size (k3_off10_inb j), shapeCast S1x16 (k3_pay6 (k3_pay5 ((accM).view.readAt (Elt F) (Rect.unit (s := S16x4096) (k3_off10 j) S1x16.size (k3_off10_inb j)).toLoadRect A)) ((accM).view.readAt (Elt F) (Rect.unit (s := S16x4096) (k3_off11 j) S1x16.size (k3_off11_inb j)).toLoadRect A)) shapeCasts_S16_S1x16⟩,
       ⟨Rect.unit (s := S16x4096) (k3_off8 j) S1x16.size (k3_off8_inb j), shapeCast S1x16 (k3_pay4 ((accM).view.readAt (Elt F) (Rect.unit (s := S16x4096) (k3_off8 j) S1x16.size (k3_off8_inb j)).toLoadRect A) ((accM).view.readAt (Elt F) (Rect.unit (s := S16x4096) (k3_off9 j) S1x16.size (k3_off9_inb j)).toLoadRect A)) shapeCasts_S16_S1x16⟩,
       ⟨Rect.unit (s := S16x4096) (k3_off6 j) S1x16.size (k3_off6_inb j), shapeCast S1x16 (k3_pay3 ((accM).view.readAt (Elt F) (Rect.unit (s := S16x4096) (k3_off6 j) S1x16.size (k3_off6_inb j)).toLoadRect A) ((accM).view.readAt (Elt F) (Rect.unit (s := S16x4096) (k3_off7 j) S1x16.size (k3_off7_inb j)).toLoadRect A)) shapeCasts_S16_S1x16⟩,
       ⟨Rect.unit (s := S16x4096) (k3_off4 j) S1x16.size (k3_off4_inb j), shapeCast S1x16 (k3_pay2 ((accM).view.readAt (Elt F) (Rect.unit (s := S16x4096) (k3_off4 j) S1x16.size (k3_off4_inb j)).toLoadRect A) ((accM).view.readAt (Elt F) (Rect.unit (s := S16x4096) (k3_off5 j) S1x16.size (k3_off5_inb j)).toLoadRect A)) shapeCasts_S16_S1x16⟩]
      = foldStep A j.val := by
  refine writes_eq_of_pieces A (foldStep A j.val) _ ?_ ?_
  · intro p hp x
    simp only [List.mem_cons, List.not_mem_nil, or_false] at hp
    rcases hp with rfl | rfl | rfl | rfl | rfl | rfl | rfl | rfl
    · exact piece_ok A j.val 7 (by decide) (k3_off18_eq j) (k3_off19_eq j) _ _ x
    · exact piece_ok A j.val 6 (by decide) (k3_off16_eq j) (k3_off17_eq j) _ _ x
    · exact piece_ok A j.val 5 (by decide) (k3_off14_eq j) (k3_off15_eq j) _ _ x
    · exact piece_ok A j.val 4 (by decide) (k3_off12_eq j) (k3_off13_eq j) _ _ x
    · exact piece_ok A j.val 3 (by decide) (k3_off10_eq j) (k3_off11_eq j) _ _ x
    · exact piece_ok A j.val 2 (by decide) (k3_off8_eq j) (k3_off9_eq j) _ _ x
    · exact piece_ok A j.val 1 (by decide) (k3_off6_eq j) (k3_off7_eq j) _ _ x
    · exact piece_ok A j.val 0 (by decide) (k3_off4_eq j) (k3_off5_eq j) _ _ x
  · intro y hn
    unfold foldStep
    rw [if_neg]
    intro hy
    have h8 := hy.1
    rcases (by omega : (y 0).val = 0 ∨ (y 0).val = 1 ∨ (y 0).val = 2 ∨ (y 0).val = 3 ∨ (y 0).val = 4 ∨ (y 0).val = 5 ∨ (y 0).val = 6 ∨ (y 0).val = 7) with h | h | h | h | h | h | h | h
    · exact hn _ (List.mem_cons_of_mem _ (List.mem_cons_of_mem _ (List.mem_cons_of_mem _ (List.mem_cons_of_mem _ (List.mem_cons_of_mem _ (List.mem_cons_of_mem _ (List.mem_cons_of_mem _ (List.mem_cons_self)))))))) (cov_ok y j.val 0 h hy.2 (k3_off4_eq j) (k3_off4_inb j))
    · exact hn _ (List.mem_cons_of_mem _ (List.mem_cons_of_mem _ (List.mem_cons_of_mem _ (List.mem_cons_of_mem _ (List.mem_cons_of_mem _ (List.mem_cons_of_mem _ (List.mem_cons_self))))))) (cov_ok y j.val 1 h hy.2 (k3_off6_eq j) (k3_off6_inb j))
    · exact hn _ (List.mem_cons_of_mem _ (List.mem_cons_of_mem _ (List.mem_cons_of_mem _ (List.mem_cons_of_mem _ (List.mem_cons_of_mem _ (List.mem_cons_self)))))) (cov_ok y j.val 2 h hy.2 (k3_off8_eq j) (k3_off8_inb j))
    · exact hn _ (List.mem_cons_of_mem _ (List.mem_cons_of_mem _ (List.mem_cons_of_mem _ (List.mem_cons_of_mem _ (List.mem_cons_self))))) (cov_ok y j.val 3 h hy.2 (k3_off10_eq j) (k3_off10_inb j))
    · exact hn _ (List.mem_cons_of_mem _ (List.mem_cons_of_mem _ (List.mem_cons_of_mem _ (List.mem_cons_self)))) (cov_ok y j.val 4 h hy.2 (k3_off12_eq j) (k3_off12_inb j))
    · exact hn _ (List.mem_cons_of_mem _ (List.mem_cons_of_mem _ (List.mem_cons_self))) (cov_ok y j.val 5 h hy.2 (k3_off14_eq j) (k3_off14_inb j))
    · exact hn _ (List.mem_cons_of_mem _ (List.mem_cons_self)) (cov_ok y j.val 6 h hy.2 (k3_off16_eq j) (k3_off16_inb j))
    · exact hn _ (List.mem_cons_self) (cov_ok y j.val 7 h hy.2 (k3_off18_eq j) (k3_off18_inb j))

set_option maxHeartbeats 4000000 in
/-- One trip of the fold on tile `L`: the accumulator at `A` becomes `foldStep A j`. -/
theorem wp_foldTrip
    (arg2 : Memref sig .scVector .hbm S65536 .i32) (harg2 : arg2.IsWhole) (arg3 : Memref sig .scVector .hbm S65536 .i32) (harg3 : arg3.IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r2 r3 r4 : DmaSems sig S_)
    (j : Fin k3_t3_loop.trips) (A : Buf (Elt F) ((thr3 d L).loc cc3_scratch1)) :
    ((thr3 d L).loc cc3_scratch1 ↦{fullShare} A : sProp 𝕄)
      ⊢ wp frame (wpE (defs₀ (F := F)) 𝒱₀ (thr3 d L) none) Set.univ
          (k3_t3_body L arg2 harg2 arg3 harg3 arg4 harg4 arg5 harg5 arg6 harg6 ysM harg7 accM harg8 sM harg9 dM harg10 r0 r1 r2 r3 r4 j ⟨⟩)
          fun _ => ((thr3 d L).loc cc3_scratch1 ↦{fullShare} foldStep A j.val) := by
  unfold k3_t3_body
  iintro Hacc
  ihave Hacc' := (Entails.of_eq (show (((thr3 d L).loc cc3_scratch1 ↦{fullShare} A : sProp 𝕄)) = ((accM).view.loc (thr3 d L) ↦{fullShare} A) from rfl)) $$ Hacc
  sl_exec
  sl_step
  iapply (Entails.of_eq (congrArg (fun c => ((thr3 d L).loc cc3_scratch1 ↦{fullShare} c : sProp 𝕄)) (foldTrip_eq A j)))
  iexact Hacc'

/-- The fold loop's invariant: before trip `k` the accumulator is `foldRows A₀ k`. -/
def foldInv (A₀ : Vec F S16x4096 .f32) (k : ℕ) (_ : PUnit) : sProp 𝕄 :=
  ((thr3 d L).loc cc3_scratch1 ↦{fullShare} foldRows A₀ k)

set_option maxHeartbeats 4000000 in
/-- The fold loop on tile `L`, at any operands: the accumulator at `A₀` becomes `foldRows A₀` of the trip count. -/
theorem wp_foldLoop
    (arg2 : Memref sig .scVector .hbm S65536 .i32) (harg2 : arg2.IsWhole) (arg3 : Memref sig .scVector .hbm S65536 .i32) (harg3 : arg3.IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r2 r3 r4 : DmaSems sig S_)
    (A₀ : Buf (Elt F) ((thr3 d L).loc cc3_scratch1)) :
    ((thr3 d L).loc cc3_scratch1 ↦{fullShare} A₀ : sProp 𝕄)
      ⊢ wp frame (wpE (defs₀ (F := F)) 𝒱₀ (thr3 d L) none) Set.univ
          (Scf.Loop.for k3_t3_loop k3_t3_ok ⟨⟩ (k3_t3_body L arg2 harg2 arg3 harg3 arg4 harg4 arg5 harg5 arg6 harg6 ysM harg7 accM harg8 sM harg9 dM harg10 r0 r1 r2 r3 r4))
          fun _ => ((thr3 d L).loc cc3_scratch1 ↦{fullShare} foldRows A₀ k3_t3_loop.trips) := by
  iintro Hacc
  sl_for (foldInv d L A₀) $$ [Hacc]
  case region =>
    intro k u
    have h := wp_foldTrip d L arg2 harg2 arg3 harg3 arg4 harg4 arg5 harg5 arg6 harg6 harg7 harg8 harg9 harg10 r0 r1 r2 r3 r4 k (foldRows A₀ k.val)
    rw [foldStep_foldRows] at h
    exact h
  isplitl [Hacc]
  · unfold foldInv
    iapply (Entails.of_eq (congrArg (fun c => ((thr3 d L).loc cc3_scratch1 ↦{fullShare} c : sProp 𝕄)) (foldRows_zero A₀).symm))
    iexact Hacc
  iintro %_ HI
  unfold foldInv
  iexact HI

/-! ### What the whole loop leaves -/

theorem k3_t3_trips : k3_t3_loop.trips = 256 := by decide

/-- Rows 0..7 take the sum with the row eight below; rows 8..15 stay. -/
def foldAll (a : Vec F S16x4096 .f32) : Vec F S16x4096 .f32 :=
  fun i => if (i 0).val < 8 then FloatOps.addf (a i) (a (up8 i)) else a i

theorem foldRows_all (a : Vec F S16x4096 .f32) : foldRows a k3_t3_loop.trips = foldAll a := by
  funext i
  have hc : (i 1).val < 4096 := (i 1).isLt
  unfold foldRows foldAll
  rw [k3_t3_trips]
  by_cases h : (i 0).val < 8
  · rw [if_pos ⟨h, by omega⟩, if_pos h]
  · rw [if_neg (fun hh => h hh.1), if_neg h]

/-- Entry `(j, n)`, `j` below 8, of what the fold leaves: the sum of entries `(j, n)` and `(j + 8, n)`. -/
theorem foldAll_lo (a : Vec F S16x4096 .f32) (j : Fin 8) (n : Fin 4096) :
    foldAll a (ix16 ⟨j.val, by omega⟩ n) = FloatOps.addf (a (ix16 ⟨j.val, by omega⟩ n)) (a (ix16 ⟨j.val + 8, by omega⟩ n)) := by
  unfold foldAll
  rw [if_pos (show ((ix16 ⟨j.val, by omega⟩ n) 0).val < 8 from j.isLt)]
  congr 2
  show ix16 ⟨(j.val + 8) % 16, _⟩ n = ix16 ⟨j.val + 8, _⟩ n
  exact congrArg (fun r => ix16 r n) (Fin.ext (Nat.mod_eq_of_lt (by omega)))

/-- Entry `(j + 8, n)` of what the fold leaves: unchanged. -/
theorem foldAll_hi (a : Vec F S16x4096 .f32) (j : Fin 8) (n : Fin 4096) :
    foldAll a (ix16 ⟨j.val + 8, by omega⟩ n) = a (ix16 ⟨j.val + 8, by omega⟩ n) := by
  unfold foldAll
  rw [if_neg (show ¬ ((ix16 ⟨j.val + 8, by omega⟩ n) 0).val < 8 from by show ¬ (j.val + 8 < 8); omega)]

/-- The fold loop as the aggregation's body runs it on tile `L`: the accumulator at `a` becomes `foldAll a`. -/
theorem wp_foldAll (a : Buf (Elt F) ((thr3 d L).loc cc3_scratch1)) :
    ((thr3 d L).loc cc3_scratch1 ↦{fullShare} a : sProp 𝕄)
      ⊢ wp frame (wpE (defs₀ (F := F)) 𝒱₀ (thr3 d L) none) Set.univ
          (Scf.Loop.for k3_t3_loop k3_t3_ok ⟨⟩ (k3_t3_body L srcM (Memref.isWhole_whole _) dstM (Memref.isWhole_whole _) (Memref.whole main_v39_scv) (Memref.isWhole_whole _) (Memref.whole main_v32_scv) (Memref.isWhole_whole _)
              (Memref.whole main_v40_scv) (Memref.isWhole_whole _) ysM (Memref.isWhole_whole _) accM (Memref.isWhole_whole _)
              sM (Memref.isWhole_whole _) dM (Memref.isWhole_whole _) cc3_scoped0 cc3_scoped1 cc3_scoped2 cc3_scoped3 cc3_scoped4))
          fun _ => ((thr3 d L).loc cc3_scratch1 ↦{fullShare} (foldAll a : Buf (Elt F) ((thr3 d L).loc cc3_scratch1))) := by
  have h := wp_foldLoop d L srcM (Memref.isWhole_whole _) dstM (Memref.isWhole_whole _) (Memref.whole main_v39_scv) (Memref.isWhole_whole _)
    (Memref.whole main_v32_scv) (Memref.isWhole_whole _) (Memref.whole main_v40_scv) (Memref.isWhole_whole _)
    (Memref.isWhole_whole _) (Memref.isWhole_whole _) (Memref.isWhole_whole _) (Memref.isWhole_whole _)
    cc3_scoped0 cc3_scoped1 cc3_scoped2 cc3_scoped3 cc3_scoped4 a
  rw [foldRows_all] at h
  exact h

end FoldLoop

end Cert.Proof.KI

end
-- ==== Proof.AggBody.lean ====
/-
  The edge aggregation's task on one vector subcore, around its two loops. The tile numbered w = 16 * (L 0) + (L 1)
  of 32 copies its own eight rows of the transposed features (rows 8 w .. 8 w + 7 of 256) into its feature scratch and
  the 16 x 4096 zero block into its accumulator; runs the eight chunks of the edge lists over them; folds the
  accumulator's upper eight rows onto its lower eight; and copies the lower eight rows onto its own eight rows of the
  result. Stated once at a symbolic tile, generic in the float instance: the rows the result ends with are the lower
  rows of the folded accumulator, the accumulator that of all the chunks from the zero block's contents.
-/
import proofs.«205814_g58841051955373_cont_9to1_m_133_55_alg».proof.Proof.Pay
import proofs.«205814_g58841051955373_cont_9to1_m_133_55_alg».proof.Proof.AggLoops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The tile's memrefs, as the program spells them -/

abbrev abYst : Memref sig .scVector .hbm S256x4096 .f32 := Memref.whole main_v39_scv
abbrev abZ2 : Memref sig .scVector .hbm S16x4096 .f32 := Memref.whole main_v32_scv
abbrev abSt : Memref sig .scVector .hbm S256x4096 .f32 := Memref.whole main_v40_scv

/-- The tile's eight feature rows, its eight rows of the result, and the accumulator's lower eight rows. -/
abbrev abYsRows (L : grid3.Coords) : Memref sig .scVector .hbm S8x4096 .f32 :=
  (abYst).slice (Rect.unit (s := S256x4096) (k3_off1 L) S8x4096.size (k3_off1_inb L)) (fun _ => rfl)
abbrev abOutRows (L : grid3.Coords) : Memref sig .scVector .hbm S8x4096 .f32 :=
  (abSt).slice (Rect.unit (s := S256x4096) (k3_off20 L) S8x4096.size (k3_off20_inb L)) (fun _ => rfl)
abbrev abAccLow : Memref sig .scVector .vmem S8x4096 .f32 :=
  (accM).slice (Rect.unit (s := S16x4096) ![0, 0] S8x4096.size inb_S16x4096_S8x4096_0_0) (fun _ => rfl)

abbrev abYsSet (L : grid3.Coords) : Finset S256x4096.Idx := (abYsRows L).view.set
abbrev abOutSet (L : grid3.Coords) : Finset S256x4096.Idx := (abOutRows L).view.set

/-- The tile's eight feature rows, read off the array's contents. -/
abbrev abYsOf (d : Dev nD) (L : grid3.Coords) (fy : Buf (Elt F) (ystLoc d)) : Vec F S8x4096 .f32 :=
  (abYsRows L).view.read (Elt F) fy

/-! ## The tile's own semaphores and scratch, out of the subcore's -/

section Own

variable (d : Dev nD) (L : grid3.Coords)

abbrev abCell (s : DmaSems sig S_) : GSem nD τ sig := (thr3 d L, .dma s.sem)

theorem ab_ownSems0 :
    (ownSems0 (thr3 d L) : sProp 𝕄)
      = iprop(semVal (abCell d L cc3_scoped0) 0 ∗ semVal (abCell d L cc3_scoped1) 0 ∗ semVal (abCell d L cc3_scoped2) 0
          ∗ semVal (abCell d L cc3_scoped3) 0 ∗ semVal (abCell d L cc3_scoped4) 0
          ∗ bigSep ((((((ownCells (thr3 d L)).erase (abCell d L cc3_scoped0)).erase (abCell d L cc3_scoped1)).erase (abCell d L cc3_scoped2)).erase
              (abCell d L cc3_scoped3)).erase (abCell d L cc3_scoped4)) fun g => semVal g 0) := by
  unfold SparseCore.Cfg.ownSems0
  rw [SparseCore.bigSep_erase' ((mem_ownCells (g := abCell d L cc3_scoped0)).mpr ⟨rfl, by
      show (SemLoc.dma cc3_scoped0.sem : SemLoc sig).isScoped .scVector = true; decide⟩),
    SparseCore.bigSep_erase' (Finset.mem_erase.mpr ⟨by simp [abCell]; decide, (mem_ownCells (g := abCell d L cc3_scoped1)).mpr ⟨rfl, by
      show (SemLoc.dma cc3_scoped1.sem : SemLoc sig).isScoped .scVector = true; decide⟩⟩),
    SparseCore.bigSep_erase' (Finset.mem_erase.mpr ⟨by simp [abCell]; decide, Finset.mem_erase.mpr ⟨by simp [abCell]; decide,
      (mem_ownCells (g := abCell d L cc3_scoped2)).mpr ⟨rfl, by show (SemLoc.dma cc3_scoped2.sem : SemLoc sig).isScoped .scVector = true; decide⟩⟩⟩),
    SparseCore.bigSep_erase' (Finset.mem_erase.mpr ⟨by simp [abCell]; decide, Finset.mem_erase.mpr ⟨by simp [abCell]; decide, Finset.mem_erase.mpr ⟨by simp [abCell]; decide,
      (mem_ownCells (g := abCell d L cc3_scoped3)).mpr ⟨rfl, by show (SemLoc.dma cc3_scoped3.sem : SemLoc sig).isScoped .scVector = true; decide⟩⟩⟩⟩),
    SparseCore.bigSep_erase' (Finset.mem_erase.mpr ⟨by simp [abCell]; decide, Finset.mem_erase.mpr ⟨by simp [abCell]; decide, Finset.mem_erase.mpr ⟨by simp [abCell]; decide,
      Finset.mem_erase.mpr ⟨by simp [abCell]; decide,
      (mem_ownCells (g := abCell d L cc3_scoped4)).mpr ⟨rfl, by show (SemLoc.dma cc3_scoped4.sem : SemLoc sig).isScoped .scVector = true; decide⟩⟩⟩⟩⟩)]

abbrev abRef (b : Ref sig .scVector) : DevRef τ sig := (Proc.scVector ((L 0).castLE hcore3) ((L 1).castLE hsub3)).devRef b

/-- The four scratches are among the subcore's own buffers: they, at some contents, and the rest. -/
theorem ab_ownBufs :
    (ownBufs (thr3 d L) : sProp 𝕄)
      = iprop((∃ f, (thr3 d L).loc cc3_scratch0 ↦{fullShare} f) ∗ (∃ f, (thr3 d L).loc cc3_scratch1 ↦{fullShare} f)
          ∗ (∃ f, (thr3 d L).loc cc3_scratch2 ↦{fullShare} f) ∗ (∃ f, (thr3 d L).loc cc3_scratch3 ↦{fullShare} f)
          ∗ bigSep (((((ownRefs (τ := τ) (.scVector ((L 0).castLE hcore3) ((L 1).castLE hsub3))).erase (abRef L cc3_scratch0)).erase (abRef L cc3_scratch1)).erase
              (abRef L cc3_scratch2)).erase (abRef L cc3_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore3) ((L 1).castLE hsub3))
    (b := abRef L cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := Proc.scVector ((L 0).castLE hcore3) ((L 1).castLE hsub3)) (b := abRef L cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := Proc.scVector ((L 0).castLE hcore3) ((L 1).castLE hsub3)) (b := abRef L cc3_scratch2) rfl⟩⟩),
    SparseCore.bigSep_erase' (Finset.mem_erase.mpr ⟨fun e => absurd (Proc.devRef_injective _ e) (show (cc3_scratch3 : Ref sig .scVector) ≠ cc3_scratch2 by decide),
      Finset.mem_erase.mpr ⟨fun e => absurd (Proc.devRef_injective _ e) (show (cc3_scratch3 : Ref sig .scVector) ≠ cc3_scratch1 by decide),
      Finset.mem_erase.mpr ⟨fun e => absurd (Proc.devRef_injective _ e) (show (cc3_scratch3 : Ref sig .scVector) ≠ cc3_scratch0 by decide),
      SparseCore.Cfg.mem_ownRefs_of_owner (p := Proc.scVector ((L 0).castLE hcore3) ((L 1).castLE hsub3)) (b := abRef L cc3_scratch3) rfl⟩⟩⟩)]

end Own

section AggRun

variable [FloatOps F] (d : Dev nD) (L : grid3.Coords)

/-- Before chunk k: the edge lists and the feature rows as they were, the accumulator after the first k chunks, the two
    index scratches at anything, the chunk copies' two semaphores at rest. -/
def abChunkInv (O : CellTallies nD τ sig (HIx 2)) (W : Waits sig (HIx 2)) (qs qd : PosShare TreeShare)
    (fs : Buf (Elt F) (srcLoc d)) (fd : Buf (Elt F) (dstLoc d)) (ys : Vec F S8x4096 .f32) (acc₀ : Vec F S16x4096 .f32) (k : ℕ) (_ : Unit) : sProp 𝕄 :=
  iprop((Transfers.MayWaits (thr3 d L) (none : HIx 2) O : sProp 𝕄) ∗ (srcLoc d ↦{qs} fs) ∗ (dstLoc d ↦{qd} fd)
    ∗ ((thr3 d L).loc cc3_scratch0 ↦{fullShare} ys) ∗ ((thr3 d L).loc cc3_scratch1 ↦{fullShare} accAfterChunks ys fs fd k acc₀)
    ∗ (∃ sb, (thr3 d L).loc cc3_scratch2 ↦{fullShare} sb) ∗ (∃ db, (thr3 d L).loc cc3_scratch3 ↦{fullShare} db)
    ∗ semVal (thr3 d L, SemLoc.dma cc3_scoped2.sem) 0 ∗ semVal (thr3 d L, SemLoc.dma cc3_scoped3.sem) 0
    ∗ ∃ W', ⌜∀ p ∈ W', p ∈ W ∨ p.2 = none⌝ ∗ owes (thr3 d L) O W')

/-- One chunk takes the invariant from k to k + 1. -/
theorem ab_chunk_step (v7 v11 v15 v19 v23 v27 v31 v35 v39 v43 v47 v51 v55 v59 v63 v67 : IVec S16 32) (hrot : RotOK v7 v11 v15 v19 v23 v27 v31 v35 v39 v43 v47 v51 v55 v59 v63 v67)
    (O : CellTallies nD τ sig (HIx 2)) (W : Waits sig (HIx 2)) (qs qd : PosShare TreeShare)
    (fs : Buf (Elt F) (srcLoc d)) (fd : Buf (Elt F) (dstLoc d))
    (hfs : ∀ i, ((fs : IVec S65536 32) i).toNat < 4096) (hfd : ∀ i, ((fd : IVec S65536 32) i).toNat < 4096)
    (ys : Vec F S8x4096 .f32) (acc₀ : Vec F S16x4096 .f32) (k : Fin k3_t1_loop.trips) (u : Unit) :
    abChunkInv d L O W qs qd fs fd ys acc₀ k.val u
      ⊢ wp frame (wpE (defs₀ (F := F)) 𝒱₀ (thr3 d L) none) Set.univ
          (k3_t1_body L srcM (Memref.isWhole_whole _) dstM (Memref.isWhole_whole _) abYst (Memref.isWhole_whole _) abZ2 (Memref.isWhole_whole _)
            abSt (Memref.isWhole_whole _) ysM (Memref.isWhole_whole _) accM (Memref.isWhole_whole _) sM (Memref.isWhole_whole _) dM (Memref.isWhole_whole _)
            cc3_scoped0 cc3_scoped1 cc3_scoped2 cc3_scoped3 cc3_scoped4 v7 v11 v15 v19 v23 v27 v31 v35 v39 v43 v47 v51 v55 v59 v63 v67 k u)
          (abChunkInv d L O W qs qd fs fd ys acc₀ (k.val + 1)) := by
  unfold abChunkInv
  iintro ⟨Hmw, Hsrc, Hdst, H0, H1, ⟨%sb, H2⟩, ⟨%db, H3⟩, Hsem2, Hsem3, HW⟩
  iapply (wp_wand frame (wpE (defs₀ (F := F)) 𝒱₀ (thr3 d L) none) Set.univ) $$ [Hmw Hsrc Hdst H0 H1 H2 H3 Hsem2 Hsem3 HW]
  · iapply (wp_aggChunk (F := F) d L (Memref.isWhole_whole _) (Memref.isWhole_whole _) abYst (Memref.isWhole_whole _) abZ2 (Memref.isWhole_whole _)
      abSt (Memref.isWhole_whole _) (Memref.isWhole_whole _) (Memref.isWhole_whole _) (Memref.isWhole_whole _) (Memref.isWhole_whole _)
      cc3_scoped0 cc3_scoped1 cc3_scoped4 v7 v11 v15 v19 v23 v27 v31 v35 v39 v43 v47 v51 v55 v59 v63 v67 hrot k O W qs qd fs fd hfs hfd ys (accAfterChunks ys fs fd k.val acc₀) sb db)
    isplitl [Hmw]; · iexact Hmw
    isplitl [Hsrc]; · iexact Hsrc
    isplitl [Hdst]; · iexact Hdst
    isplitl [H0]; · iexact H0
    isplitl [H1]; · iexact H1
    isplitl [H2]; · iexact H2
    isplitl [H3]; · iexact H3
    isplitl [Hsem2]; · iexact Hsem2
    isplitl [Hsem3]; · iexact Hsem3
    iexact HW
  iintro %_ ⟨Hmw, Hsrc, Hdst, H0, H1, H2, H3, Hsem2, Hsem3, HW⟩
  isplitl [Hmw]; · iexact Hmw
  isplitl [Hsrc]; · iexact Hsrc
  isplitl [Hdst]; · iexact Hdst
  isplitl [H0]; · iexact H0
  isplitl [H1]; · iexact H1
  isplitl [H2]; · iexists _; iexact H2
  isplitl [H3]; · iexists _; iexact H3
  isplitl [Hsem2]; · iexact Hsem2
  isplitl [Hsem3]; · iexact Hsem3
  iexact HW

/-- The task on tile L, over a function FR the fold loop is known to apply to the accumulator. -/
theorem agg_body_of (FR : Vec F S16x4096 .f32 → Vec F S16x4096 .f32)
    (hfold : ∀ a : Buf (Elt F) ((thr3 d L).loc cc3_scratch1),
      ((thr3 d L).loc cc3_scratch1 ↦{fullShare} a : sProp 𝕄)
        ⊢ wp frame (wpE (defs₀ (F := F)) 𝒱₀ (thr3 d L) none) Set.univ
            (Scf.Loop.for k3_t3_loop k3_t3_ok ⟨⟩ (k3_t3_body L srcM (Memref.isWhole_whole _) dstM (Memref.isWhole_whole _) abYst (Memref.isWhole_whole _)
              abZ2 (Memref.isWhole_whole _) abSt (Memref.isWhole_whole _) ysM (Memref.isWhole_whole _) accM (Memref.isWhole_whole _)
              sM (Memref.isWhole_whole _) dM (Memref.isWhole_whole _) cc3_scoped0 cc3_scoped1 cc3_scoped2 cc3_scoped3 cc3_scoped4))
            fun _ => ((thr3 d L).loc cc3_scratch1 ↦{fullShare} (FR a : Buf (Elt F) ((thr3 d L).loc cc3_scratch1))))
    (qs qd qz : PosShare TreeShare) (O : CellTallies nD τ sig (HIx 2)) (W : Waits sig (HIx 2)) (hO : ∀ g, O g none = 0)
    (fs : Buf (Elt F) (srcLoc d)) (fd : Buf (Elt F) (dstLoc d)) (fy : Buf (Elt F) (ystLoc d)) (z2 : Buf (Elt F) (z2Loc d)) (fo : Buf (Elt F) (stLoc d))
    (hfs : ∀ i, (fs i).toNat < 4096) (hfd : ∀ i, (fd i).toNat < 4096) :
    iprop((levAts (K (F := F)).L (K (F := F)).lev : sProp 𝕄)
        ∗ (srcLoc d ↦{qs} fs) ∗ (dstLoc d ↦{qd} fd) ∗ (ystLoc d ↦[abYsSet L]{fullShare} fy) ∗ (z2Loc d ↦{qz} z2)
        ∗ (stLoc d ↦[abOutSet L]{fullShare} fo)
        ∗ scopedBufs (thr3 d L) ∗ scopedSems0 (thr3 d L) ∗ owes (thr3 d L) O W)
      ⊢ wp frame (wpE (defs₀ (F := F)) 𝒱₀ (thr3 d L) none) Set.univ
          (cc3__agg_k L srcM (Memref.isWhole_whole _) dstM (Memref.isWhole_whole _) abYst (Memref.isWhole_whole _) abZ2 (Memref.isWhole_whole _)
            abSt (Memref.isWhole_whole _) ysM (Memref.isWhole_whole _) accM (Memref.isWhole_whole _) sM (Memref.isWhole_whole _) dM (Memref.isWhole_whole _)
            cc3_scoped0 cc3_scoped1 cc3_scoped2 cc3_scoped3 cc3_scoped4)
          fun _ => iprop((srcLoc d ↦{qs} fs) ∗ (dstLoc d ↦{qd} fd) ∗ (ystLoc d ↦[abYsSet L]{fullShare} fy) ∗ (z2Loc d ↦{qz} z2)
            ∗ (∃ fo' : Buf (Elt F) (stLoc d), ⌜∀ n : S8x4096.Idx, fo' ((abOutRows L).view.emb n)
                  = FR (accAfterChunks (abYsOf d L fy) fs fd k3_t1_loop.trips z2) ((abAccLow).view.emb n)⌝
                ∗ stLoc d ↦[abOutSet L]{fullShare} fo')
            ∗ scopedBufs (thr3 d L) ∗ scopedSems0 (thr3 d L)
            ∗ ∃ W', ⌜∀ p ∈ W', p ∈ W ∨ p.2 = none⌝ ∗ owes (thr3 d L) O W') := by
  sl_unfold [cc3__agg_k]
  rw [(K (F := F)).scopedBufs_V facts d _ _, SparseCore.Cfg.scopedSems0_V (Val := Elt F) d _ _, ab_ownSems0, ab_ownBufs]
  iintro ⟨#Hlv, Hsrc, Hdst, Hy, Hz, Ho, ⟨⟨%f0, H0⟩, ⟨%f1, H1⟩, ⟨%f2, H2⟩, ⟨%f3, H3⟩, Hbufs⟩, ⟨Hsem0, Hsem1, Hsem2, Hsem3, Hsem4, Hsems⟩, HO⟩
  ihave Hmw := ((K (F := F)).mayWaits_none (thr := thr3 d L) hO) $$ Hlv
  ihave Hy' := (Entails.of_eq (show ((ystLoc d ↦[abYsSet L]{fullShare} fy : sProp 𝕄)) = ((abYsRows L).view.loc (thr3 d L) ↦[(abYsRows L).view.set]{fullShare} fy) from rfl)) $$ Hy
  ihave Hz' := (Entails.of_eq (show ((z2Loc d ↦{qz} z2 : sProp 𝕄)) = ((abZ2).view.loc (thr3 d L) ↦{qz} z2) from rfl)) $$ Hz
  ihave Ho' := (Entails.of_eq (show ((stLoc d ↦[abOutSet L]{fullShare} fo : sProp 𝕄)) = ((abOutRows L).view.loc (thr3 d L) ↦[(abOutRows L).view.set]{fullShare} fo) from rfl)) $$ Ho
  ihave H0' := (Entails.of_eq (show (((thr3 d L).loc cc3_scratch0 ↦{fullShare} f0 : sProp 𝕄)) = ((ysM).view.loc (thr3 d L) ↦{fullShare} f0) from rfl)) $$ H0
  ihave H1' := (Entails.of_eq (show (((thr3 d L).loc cc3_scratch1 ↦{fullShare} f1 : sProp 𝕄)) = ((accM).view.loc (thr3 d L) ↦{fullShare} f1) from rfl)) $$ H1
  -- the tile's feature rows and the zero block, copied into the feature scratch and the accumulator
  sl_exec
  have e0 : View.write (Elt F) (ysM).view f0 (agg_body_of.sl.dma0 d L fy) Finset.univ = abYsOf d L fy := (View.write_whole_univ _ _ _).trans rfl
  have e1 : View.write (Elt F) (accM).view f1 (agg_body_of.sl.dma0_1 d z2) Finset.univ = (z2 : Vec F S16x4096 .f32) := (View.write_whole_univ _ _ _).trans rfl
  ihave H0 := (Entails.of_eq (congrArg (fun f => ((thr3 d L).loc cc3_scratch0 ↦{fullShare} f : sProp 𝕄)) e0)) $$ H0'
  ihave H1 := (Entails.of_eq (congrArg (fun f => ((thr3 d L).loc cc3_scratch1 ↦{fullShare} f : sProp 𝕄)) e1)) $$ H1'
  -- the eight chunks
  sl_for (abChunkInv (F := F) d L O (insert (SemLoc.dma cc3_scoped1.sem, (default : HIx 2)) (insert (SemLoc.dma cc3_scoped0.sem, (default : HIx 2)) W)) qs qd fs fd (abYsOf d L fy) z2) $$ [Hmw Hsrc Hdst H0 H1 H2 H3 Hsem2 Hsem3 HO]
  case region =>
    intro k u
    exact ab_chunk_step (F := F) d L _ _ _ _ _ _ _ _ _ _ _ _ _ _ _ _ rotOK_pay O _ qs qd fs fd hfs hfd (abYsOf d L fy) z2 k u
  · unfold abChunkInv
    isplitl [Hmw]; · iexact Hmw
    isplitl [Hsrc]; · iexact Hsrc
    isplitl [Hdst]; · iexact Hdst
    isplitl [H0]; · iexact H0
    isplitl [H1]; · iexact H1
    isplitl [H2]; · iexists _; iexact H2
    isplitl [H3]; · iexists _; iexact H3
    isplitl [Hsem2]; · iexact Hsem2
    isplitl [Hsem3]; · iexact Hsem3
    iexists _; isplitr
    rotate_left
    · iexact HO
    · ipureintro; exact fun p hp => .inl hp
  iintro %_ HI
  unfold abChunkInv
  icases HI with ⟨Hmw, Hsrc, Hdst, H0, H1, ⟨%sb, H2⟩, ⟨%db, H3⟩, Hsem2, Hsem3, %W', %hW', HO⟩
  -- the fold of the upper rows onto the lower, then the lower rows copied onto the tile's rows of the result
  sl_respell []
  irw [wp_bind]
  iapply (wp_wand frame (wpE (defs₀ (F := F)) 𝒱₀ (thr3 d L) none) Set.univ) $$ [H1]
  · iapply (hfold _) $$ H1
  iintro %_ H1
  ihave H1' := (Entails.of_eq (show (((thr3 d L).loc cc3_scratch1 ↦{fullShare} (FR (accAfterChunks (abYsOf d L fy) fs fd k3_t1_loop.trips z2) : Buf (Elt F) ((thr3 d L).loc cc3_scratch1)) : sProp 𝕄))
    = ((accM).view.loc (thr3 d L) ↦{fullShare} (FR (accAfterChunks (abYsOf d L fy) fs fd k3_t1_loop.trips z2) : Buf (Elt F) ((thr3 d L).loc cc3_scratch1))) from rfl)) $$ H1
  sl_exec
  sl_step
  isplitl [Hsrc]; · iexact Hsrc
  isplitl [Hdst]; · iexact Hdst
  isplitl [Hy']; · iexact Hy'
  isplitl [Hz']; · iexact Hz'
  isplitl [Ho']
  · iexists _; isplitr
    rotate_left
    · iexact Ho'
    · ipureintro
      intro n
      have c1 : ((abOutRows L).view.writes (Elt F) fo [⟨Rect.whole S8x4096, agg_body_of.sl.dma0_2 d L FR fs fd fy z2⟩]) ((abOutRows L).view.emb n)
          = (abOutRows L).view.read (Elt F) ((abOutRows L).view.writes (Elt F) fo [⟨Rect.whole S8x4096, agg_body_of.sl.dma0_2 d L FR fs fd fy z2⟩]) n :=
        ((View.read_apply _ _).trans (cast_eq _ _)).symm
      have c2 := View.read_writes_cons_emb (abOutRows L).view fo (Rect.whole S8x4096) (agg_body_of.sl.dma0_2 d L FR fs fd fy z2) [] n
      rw [Rect.emb_whole_apply] at c2
      rw [c1, c2]
      exact (View.read_apply _ _).trans (cast_eq _ _)
  isplitl [H0 H1' H2 H3 Hbufs]
  · isplitl [H0]; · iexists _; iexact H0
    isplitl [H1']; · iexists _; iexact H1'
    isplitl [H2]; · iexists _; iexact H2
    isplitl [H3]; · iexists _; iexact H3
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  rotate_left
  · iexact HO
  · ipureintro; intro p hp
    rcases Finset.mem_insert.mp hp with rfl | hp
    · exact .inr rfl
    rcases hW' p hp with h | h
    · rcases Finset.mem_insert.mp h with rfl | h
      · exact .inr rfl
      rcases Finset.mem_insert.mp h with rfl | h
      · exact .inr rfl
      · exact .inl h
    · exact .inr h

end AggRun

/-! ## The task as the launch asks for it -/

section AggObl

variable [FloatOps F]

/-- The tile's eight rows are part w of the 32 equal parts of the 256 rows, w = 16 (L 0) + (L 1). -/
theorem abYsRect_eq (L : grid3.Coords) (w : Fin 32) (hw : w.val = 16 * (L 0).val + (L 1).val) :
    Rect.unit (s := S256x4096) (k3_off1 L) S8x4096.size (k3_off1_inb L) = rowsPart w := by
  unfold rowsPart Rect.part Rect.block
  congr 1 <;> funext a
  · rw [k3_off1_eq]
    match a with
    | 0 => simp [Shape.partIx, Shape.partSize, hw]; omega
    | 1 => simp [Shape.partIx, Shape.partSize]
  · match a with
    | 0 => simp [Shape.partSize]
    | 1 => simp [Shape.partSize]

theorem abOutRect_eq (L : grid3.Coords) (w : Fin 32) (hw : w.val = 16 * (L 0).val + (L 1).val) :
    Rect.unit (s := S256x4096) (k3_off20 L) S8x4096.size (k3_off20_inb L) = rowsPart w := by
  unfold rowsPart Rect.part Rect.block
  congr 1 <;> funext a
  · rw [k3_off20_eq]
    match a with
    | 0 => simp [Shape.partIx, Shape.partSize, hw]; omega
    | 1 => simp [Shape.partIx, Shape.partSize]
  · match a with
    | 0 => simp [Shape.partSize]
    | 1 => simp [Shape.partSize]

theorem abYsSet_eq (L : grid3.Coords) (w : Fin 32) (hw : w.val = 16 * (L 0).val + (L 1).val) : abYsSet L = rowsSet w := by
  show ((abYst).view.slice (Rect.unit (s := S256x4096) (k3_off1 L) S8x4096.size (k3_off1_inb L))).set = ((abYst).view.slice (rowsPart w)).set
  rw [abYsRect_eq L w hw]

theorem abOutSet_eq (L : grid3.Coords) (w : Fin 32) (hw : w.val = 16 * (L 0).val + (L 1).val) : abOutSet L = rowsSet w := by
  show ((abSt).view.slice (Rect.unit (s := S256x4096) (k3_off20 L) S8x4096.size (k3_off20_inb L))).set = ((abYst).view.slice (rowsPart w)).set
  rw [abOutRect_eq L w hw]
  exact (View.set_slice_whole (main_v40_scv : Ref sig .scVector) (rowsPart w)).trans (View.set_slice_whole (main_v39_scv : Ref sig .scVector) (rowsPart w)).symm

theorem defs₀_vector3 (c : Fin τ.nSC) (s : Fin τ.nSub) :
    defs₀ (F := F) (.scVector c s) 3 ()
      = SparseCore.onTile hcore3 hsub3 (fun c s => cc3__agg_k (coordsV3 c s)
          srcM (Memref.isWhole_whole _) dstM (Memref.isWhole_whole _) abYst (Memref.isWhole_whole _) abZ2 (Memref.isWhole_whole _)
          abSt (Memref.isWhole_whole _) ysM (Memref.isWhole_whole _) accM (Memref.isWhole_whole _) sM (Memref.isWhole_whole _) dM (Memref.isWhole_whole _)
          cc3_scoped0 cc3_scoped1 cc3_scoped2 cc3_scoped3 cc3_scoped4) ⟨⟩ c s := rfl

/-- What the task leaves is what the launch takes back: the tile's rows of the result at the stated contents. -/
theorem agg_post (C : Conts F) (G : (d : Dev nD) → grid3.Coords → S8x4096.Idx → Elt F .f32)
    (hst : ∀ d (L : grid3.Coords) (n : S8x4096.Idx), C.st d ((abOutRows L).view.emb n) = G d L n)
    (d : Dev nD) (L : grid3.Coords) (s : PosShare TreeShare) {thr : Thread nD τ} {A B : sProp 𝕄}
    {O : CellTallies nD τ sig (HIx 2)} {W : Waits sig (HIx 2)} {q : Fin 2} :
    iprop((srcLoc d ↦{s} C.src d) ∗ (dstLoc d ↦{s} C.dst1 d) ∗ (ystLoc d ↦[abYsSet L]{fullShare} C.yst d) ∗ (z2Loc d ↦{s} C.z2 d)
        ∗ (∃ fo' : Buf (Elt F) (stLoc d), ⌜∀ n : S8x4096.Idx, fo' ((abOutRows L).view.emb n) = G d L n⌝ ∗ stLoc d ↦[abOutSet L]{fullShare} fo')
        ∗ A ∗ B ∗ ∃ W', ⌜∀ p ∈ W', p ∈ W ∨ p.2 = none⌝ ∗ owes thr O W')
      ⊢ iprop(((srcLoc d ↦{s} C.src d) ∗ (dstLoc d ↦{s} C.dst1 d) ∗ (ystLoc d ↦[abYsSet L]{fullShare} C.yst d) ∗ (z2Loc d ↦{s} C.z2 d)
          ∗ stLoc d ↦[abOutSet L]{fullShare} C.st d)
        ∗ A ∗ B ∗ ∃ W', ⌜∀ p ∈ W', p ∈ W ∨ p.2 = none ∨ p.2 = some q⌝ ∗ owes thr O W') := by
  iintro ⟨Hs, Hd, Hy, Hz, ⟨%fo', %hfo, Ho⟩, HA, HB, %W', %hW', HO⟩
  have e : (stLoc d ↦[abOutSet L]{fullShare} fo' : sProp 𝕄) = stLoc d ↦[abOutSet L]{fullShare} C.st d :=
    pointsTo_congr fun i hi => by
      obtain ⟨n, -, rfl⟩ := Finset.mem_map.mp hi
      exact (hfo n).trans (hst d L n).symm
  ihave Ho' := (Entails.of_eq e) $$ Ho
  isplitl [Hs Hd Hy Hz Ho']
  · isplitl [Hs]; · iexact Hs
    isplitl [Hd]; · iexact Hd
    isplitl [Hy]; · iexact Hy
    isplitl [Hz]; · iexact Hz
    iexact Ho'
  isplitl [HA]; · iexact HA
  isplitl [HB]; · iexact HB
  iexists W'; isplitr
  · ipureintro; exact fun p hp => (hW' p hp).imp_right Or.inl
  · iexact HO

/-- The edge aggregation's task obligation: every tile of the grid runs the body at its own coordinates. -/
theorem tileObl1_of (C : Conts F) (FR : Vec F S16x4096 .f32 → Vec F S16x4096 .f32)
    (hfold : ∀ (d : Dev nD) (L : grid3.Coords) (a : Buf (Elt F) ((thr3 d L).loc cc3_scratch1)),
      ((thr3 d L).loc cc3_scratch1 ↦{fullShare} a : sProp 𝕄)
        ⊢ wp frame (wpE (defs₀ (F := F)) 𝒱₀ (thr3 d L) none) Set.univ
            (Scf.Loop.for k3_t3_loop k3_t3_ok ⟨⟩ (k3_t3_body L srcM (Memref.isWhole_whole _) dstM (Memref.isWhole_whole _) abYst (Memref.isWhole_whole _)
              abZ2 (Memref.isWhole_whole _) abSt (Memref.isWhole_whole _) ysM (Memref.isWhole_whole _) accM (Memref.isWhole_whole _)
              sM (Memref.isWhole_whole _) dM (Memref.isWhole_whole _) cc3_scoped0 cc3_scoped1 cc3_scoped2 cc3_scoped3 cc3_scoped4))
            fun _ => ((thr3 d L).loc cc3_scratch1 ↦{fullShare} (FR a : Buf (Elt F) ((thr3 d L).loc cc3_scratch1))))
    (hsrc : ∀ d i, (C.src d i).toNat < 4096) (hdst : ∀ d i, (C.dst1 d i).toNat < 4096)
    (hst : ∀ d (L : grid3.Coords) (n : S8x4096.Idx), C.st d ((abOutRows L).view.emb n)
      = FR (accAfterChunks (abYsOf d L (C.yst d)) (C.src d) (C.dst1 d) k3_t1_loop.trips (C.z2 d)) ((abAccLow).view.emb n)) :
    (K (F := F)).TileObl (D (F := F)) 𝒱 (P C) v₀ 1 := by
  intro d c i O W hO _ _
  -- this kernel owes nothing for a protocol of its own
  simp only [show (P C).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  have hw : (wid (Fin.cast nCore_one c) (Fin.cast nSub_one i)).val
      = 16 * ((coordsV3 ⟨_, hc.1⟩ ⟨_, hc.2⟩ : grid3.Coords) 0).val + ((coordsV3 ⟨_, hc.1⟩ ⟨_, hc.2⟩ : grid3.Coords) 1).val := rfl
  show iprop(_ ∗ _ ∗ go1 C d (wid (Fin.cast nCore_one c) (Fin.cast nSub_one i)) ∗ _)
    ⊢ wp _ _ _ _ (fun _ => iprop(td1 C d (wid (Fin.cast nCore_one c) (Fin.cast nSub_one i)) ∗ _))
  unfold go1 td1
  have eY := abYsSet_eq _ _ hw
  have eO := abOutSet_eq _ _ hw
  iintro ⟨Hlv, -, ⟨Hs, Hd, Hy, Hz, %fo, Ho⟩, Hsb, Hss, HO⟩
  ihave Hy := (Entails.of_eq (congrArg (fun S => (ystLoc d ↦[S]{fullShare} C.yst d : sProp 𝕄)) eY.symm)) $$ Hy
  ihave Ho := (Entails.of_eq (congrArg (fun S => (stLoc d ↦[S]{fullShare} fo : sProp 𝕄)) eO.symm)) $$ Ho
  iapply ((agg_body_of (F := F) d (coordsV3 ⟨_, hc.1⟩ ⟨_, hc.2⟩) FR (hfold d _) (rd (wid (Fin.cast nCore_one c) (Fin.cast nSub_one i))) (rd (wid (Fin.cast nCore_one c) (Fin.cast nSub_one i)))
      (rd (wid (Fin.cast nCore_one c) (Fin.cast nSub_one i))) O W hO (C.src d) (C.dst1 d) (C.yst d) (C.z2 d) fo (hsrc d) (hdst d)).trans
    (wp_mono frame _ _ fun _ => (agg_post (q := 1) C _ hst d _ _).trans (Entails.of_eq (by rw [eY, eO]; rfl)))) $$ [Hlv Hs Hd Hy Hz Ho Hsb Hss HO]
  isplitl [Hlv]; · iexact Hlv
  isplitl [Hs]; · iexact Hs
  isplitl [Hd]; · iexact Hd
  isplitl [Hy]; · iexact Hy
  isplitl [Hz]; · iexact Hz
  isplitl [Ho]; · iexact Ho
  isplitl [Hsb]; · iexact Hsb
  isplitl [Hss]; · iexact Hss
  iexact HO

/-- The rows of the result the task leaves on tile L, from the arrays' contents: the lower rows of the folded accumulator
    after all the chunks, from the zero block's contents. -/
def aggOut (d : Dev nD) (L : grid3.Coords) (fs : Buf (Elt F) (srcLoc d)) (fd : Buf (Elt F) (dstLoc d)) (fy : Buf (Elt F) (ystLoc d))
    (z2 : Buf (Elt F) (z2Loc d)) (n : S8x4096.Idx) : Elt F .f32 :=
  foldAll (accAfterChunks (abYsOf d L fy) fs fd k3_t1_loop.trips z2) ((abAccLow).view.emb n)

/-- The task on tile L: its rows of the result end at aggOut of the arrays' contents. -/
theorem agg_body (d : Dev nD) (L : grid3.Coords) (qs qd qz : PosShare TreeShare) (O : CellTallies nD τ sig (HIx 2)) (W : Waits sig (HIx 2)) (hO : ∀ g, O g none = 0)
    (fs : Buf (Elt F) (srcLoc d)) (fd : Buf (Elt F) (dstLoc d)) (fy : Buf (Elt F) (ystLoc d)) (z2 : Buf (Elt F) (z2Loc d)) (fo : Buf (Elt F) (stLoc d))
    (hfs : ∀ i, (fs i).toNat < 4096) (hfd : ∀ i, (fd i).toNat < 4096) :
    iprop((levAts (K (F := F)).L (K (F := F)).lev : sProp 𝕄)
        ∗ (srcLoc d ↦{qs} fs) ∗ (dstLoc d ↦{qd} fd) ∗ (ystLoc d ↦[abYsSet L]{fullShare} fy) ∗ (z2Loc d ↦{qz} z2)
        ∗ (stLoc d ↦[abOutSet L]{fullShare} fo)
        ∗ scopedBufs (thr3 d L) ∗ scopedSems0 (thr3 d L) ∗ owes (thr3 d L) O W)
      ⊢ wp frame (wpE (defs₀ (F := F)) 𝒱₀ (thr3 d L) none) Set.univ
          (cc3__agg_k L srcM (Memref.isWhole_whole _) dstM (Memref.isWhole_whole _) abYst (Memref.isWhole_whole _) abZ2 (Memref.isWhole_whole _)
            abSt (Memref.isWhole_whole _) ysM (Memref.isWhole_whole _) accM (Memref.isWhole_whole _) sM (Memref.isWhole_whole _) dM (Memref.isWhole_whole _)
            cc3_scoped0 cc3_scoped1 cc3_scoped2 cc3_scoped3 cc3_scoped4)
          fun _ => iprop((srcLoc d ↦{qs} fs) ∗ (dstLoc d ↦{qd} fd) ∗ (ystLoc d ↦[abYsSet L]{fullShare} fy) ∗ (z2Loc d ↦{qz} z2)
            ∗ (∃ fo' : Buf (Elt F) (stLoc d), ⌜∀ n : S8x4096.Idx, fo' ((abOutRows L).view.emb n) = aggOut d L fs fd fy z2 n⌝
                ∗ stLoc d ↦[abOutSet L]{fullShare} fo')
            ∗ scopedBufs (thr3 d L) ∗ scopedSems0 (thr3 d L)
            ∗ ∃ W', ⌜∀ p ∈ W', p ∈ W ∨ p.2 = none⌝ ∗ owes (thr3 d L) O W') :=
  agg_body_of d L foldAll (wp_foldAll d L) qs qd qz O W hO fs fd fy z2 fo hfs hfd

/-- The edge aggregation's task obligation, at the arrays' stated contents. -/
theorem tileObl1 (C : Conts F) (hsrc : ∀ d i, (C.src d i).toNat < 4096) (hdst : ∀ d i, (C.dst1 d i).toNat < 4096)
    (hst : ∀ d (L : grid3.Coords) (n : S8x4096.Idx), C.st d ((abOutRows L).view.emb n) = aggOut d L (C.src d) (C.dst1 d) (C.yst d) (C.z2 d) n) :
    (K (F := F)).TileObl (D (F := F)) 𝒱 (P C) v₀ 1 :=
  tileObl1_of C foldAll (fun d L a => wp_foldAll d L a) hsrc hdst hst

end AggObl

end Cert.Proof.KI

end
-- ==== Proof.ScWhole1.lean ====
/-
  The edge aggregation's result as one function of the whole array. Tile w of 32 (SparseCore w / 16, subcore w % 16)
  owns rows [8 w, 8 w + 8) of the 256 x 4096 transposed features and of the result: its row memrefs are unit
  rectangles at (8 w, 0) of extent 8 x 4096, so index (r, c) of either sits at (8 w + r, c); the accumulator's lower
  eight rows are the rectangle at (0, 0) of the 16 x 4096 scratch, index (r, c) at (r, c). Row 8 w + r of the result is
  row r of tile w's folded accumulator, the accumulator that of all the chunks of the edge lists over tile w's eight
  feature rows from the zero block. Hence one function of the edge lists, the features and the zero block that every
  tile's rows agree with.
-/
import proofs.«205814_g58841051955373_cont_9to1_m_133_55_alg».proof.Proof.AggBody
import proofs.«205814_g58841051955373_cont_9to1_m_133_55_alg».proof.Proof.AggLoops
import Idealize.ShloMosaic.Lib.ValueIdxCoords

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-! ## Tiles of the second call by number -/

/-- The number of the tile at coordinates L is below 32. -/
theorem tile3_lt (L : grid3.Coords) : 16 * (L 0).val + (L 1).val < 32 := by
  have h0 : (L 0).val < 2 := (L 0).isLt
  have h1 : (L 1).val < 16 := (L 1).isLt
  omega

/-- The number of the tile at coordinates L. -/
def tileNo3 (L : grid3.Coords) : Fin 32 := ⟨16 * (L 0).val + (L 1).val, tile3_lt L⟩

/-- The coordinates of tile w of 32: SparseCore w / 16, subcore w % 16. -/
def tileOf3 (w : Fin 32) : grid3.Coords :=
  coordsV3 ⟨w.val / 16, by have := w.isLt; show w.val / 16 < 2; omega⟩ ⟨w.val % 16, by show w.val % 16 < 16; omega⟩

theorem tileOf3_zero (w : Fin 32) : ((tileOf3 w) 0).val = w.val / 16 := rfl
theorem tileOf3_one (w : Fin 32) : ((tileOf3 w) 1).val = w.val % 16 := rfl

theorem coordsV3_eta (L : grid3.Coords) : coordsV3 (L 0) (L 1) = L := by
  funext a
  match a with
  | 0 => rfl
  | 1 => rfl
  | ⟨_ + 2, h⟩ => exact absurd h (Nat.not_lt.2 (Nat.le_add_left _ _))

theorem tileNo3_tileOf3 (w : Fin 32) : tileNo3 (tileOf3 w) = w := by
  apply Fin.ext
  show 16 * ((tileOf3 w) 0).val + ((tileOf3 w) 1).val = w.val
  rw [tileOf3_zero, tileOf3_one]; omega

theorem tileOf3_tileNo3 (L : grid3.Coords) : tileOf3 (tileNo3 L) = L := by
  have h0 : (L 0).val < 2 := (L 0).isLt
  have h1 : (L 1).val < 16 := (L 1).isLt
  refine Eq.trans ?_ (coordsV3_eta L)
  unfold tileOf3 tileNo3
  congr 1 <;> apply Fin.ext
  · show (16 * (L 0).val + (L 1).val) / 16 = (L 0).val; omega
  · show (16 * (L 0).val + (L 1).val) % 16 = (L 1).val; omega

theorem tileOf3_wid (c : Fin 2) (i : Fin 16) : tileOf3 (wid c i) = coordsV3 ⟨c.val, c.isLt⟩ ⟨i.val, i.isLt⟩ := by
  have hc := c.isLt
  have hi := i.isLt
  unfold tileOf3
  congr 1 <;> apply Fin.ext
  · show (16 * c.val + i.val) / 16 = c.val; omega
  · show (16 * c.val + i.val) % 16 = i.val; omega

theorem tileNo3_coordsV3 (c : Fin 2) (i : Fin 16) : tileNo3 (coordsV3 ⟨c.val, c.isLt⟩ ⟨i.val, i.isLt⟩) = wid c i := rfl

/-! ## Rows of the 256 x 4096 arrays by tile -/

/-- Row 8 w + r of 256, for tile w of 32 and r below 8. -/
def rowAt (w : Fin 32) (r : Fin 8) : Fin 256 := ⟨8 * w.val + r.val, by have := w.isLt; have := r.isLt; omega⟩
/-- The tile that owns row i of 256, and the row's place among that tile's eight (as a row of the 16-row accumulator). -/
def rowTile (i : Fin 256) : Fin 32 := ⟨i.val / 8, by have := i.isLt; omega⟩
def rowIn (i : Fin 256) : Fin 16 := ⟨i.val % 8, by omega⟩

theorem rowTile_rowAt (w : Fin 32) (r : Fin 8) : rowTile (rowAt w r) = w :=
  Fin.ext (by have := r.isLt; show (8 * w.val + r.val) / 8 = w.val; omega)
theorem rowIn_rowAt (w : Fin 32) (r : Fin 8) : rowIn (rowAt w r) = ⟨r.val, by have := r.isLt; omega⟩ :=
  Fin.ext (by have := r.isLt; show (8 * w.val + r.val) % 8 = r.val; omega)
theorem rowAt_rowTile (i : Fin 256) : rowAt (rowTile i) ⟨i.val % 8, Nat.mod_lt _ (by decide)⟩ = i :=
  Fin.ext (by show 8 * (i.val / 8) + i.val % 8 = i.val; omega)

/-! ## Where the second call's memrefs place their indices -/

/-- Index (r, c) of the tile's rows of the result is element (8 (16 (L 0) + (L 1)) + r, c) of the 256 x 4096 array. -/
theorem abOutRows_emb (L : grid3.Coords) (n : S8x4096.Idx) :
    ((abOutRows L).view.emb n : S256x4096.Idx)
      = ix2 (rowAt (tileNo3 L) ⟨(n 0).val, (n 0).isLt⟩) (⟨(n 1).val, (n 1).isLt⟩ : Fin 4096) := by
  have h0 : (L 0).val < 2 := (L 0).isLt
  have h1 : (L 1).val < 16 := (L 1).isLt
  funext (a : Fin 2)
  apply Fin.ext
  show (k3_off20 L) a + 1 * (n a).val = _
  rw [k3_off20_eq]
  match a with
  | 0 => show (128 * (L 0).val + 8 * (L 1).val) + 1 * (n 0).val = 8 * (16 * (L 0).val + (L 1).val) + (n 0).val; omega
  | 1 => show 0 + 1 * (n 1).val = (n 1).val; omega

/-- The same for the tile's rows of the features. -/
theorem abYsRows_emb (L : grid3.Coords) (n : S8x4096.Idx) :
    ((abYsRows L).view.emb n : S256x4096.Idx)
      = ix2 (rowAt (tileNo3 L) ⟨(n 0).val, (n 0).isLt⟩) (⟨(n 1).val, (n 1).isLt⟩ : Fin 4096) := by
  have h0 : (L 0).val < 2 := (L 0).isLt
  have h1 : (L 1).val < 16 := (L 1).isLt
  funext (a : Fin 2)
  apply Fin.ext
  show (k3_off1 L) a + 1 * (n a).val = _
  rw [k3_off1_eq]
  match a with
  | 0 => show (128 * (L 0).val + 8 * (L 1).val) + 1 * (n 0).val = 8 * (16 * (L 0).val + (L 1).val) + (n 0).val; omega
  | 1 => show 0 + 1 * (n 1).val = (n 1).val; omega

/-- Index (r, c) of the accumulator's lower eight rows is element (r, c) of the 16 x 4096 accumulator. -/
theorem abAccLow_emb (n : S8x4096.Idx) :
    ((abAccLow).view.emb n : S16x4096.Idx)
      = ix16 (⟨(n 0).val, by have : (n 0).val < 8 := (n 0).isLt; omega⟩ : Fin 16) (⟨(n 1).val, (n 1).isLt⟩ : Fin 4096) := by
  funext (a : Fin 2)
  apply Fin.ext
  match a with
  | 0 => show 0 + 1 * (n 0).val = (n 0).val; omega
  | 1 => show 0 + 1 * (n 1).val = (n 1).val; omega

section Whole1

variable [FloatOps F]

/-- The tile's eight feature rows, element by element of the whole array. -/
theorem abYsOf_word (d : Dev nD) (L : grid3.Coords) (fy : Buf (Elt F) (ystLoc d)) (n : S8x4096.Idx) :
    abYsOf d L fy n = fy (ix2 (rowAt (tileNo3 L) ⟨(n 0).val, (n 0).isLt⟩) (⟨(n 1).val, (n 1).isLt⟩ : Fin 4096)) := by
  refine ((View.read_apply _ _).trans (cast_eq _ _)).trans ?_
  exact congrArg fy (abYsRows_emb L n)

/-- The feature rows of tile w: rows [8 w, 8 w + 8). -/
theorem abYsOf_tileOf3 (d : Dev nD) (w : Fin 32) (fy : Buf (Elt F) (ystLoc d)) (n : S8x4096.Idx) :
    abYsOf d (tileOf3 w) fy n = fy (ix2 (rowAt w ⟨(n 0).val, (n 0).isLt⟩) (⟨(n 1).val, (n 1).isLt⟩ : Fin 4096)) := by
  rw [abYsOf_word, tileNo3_tileOf3]

/-- The feature rows of tile w at row r, column c. -/
theorem abYsOf_ix8 (d : Dev nD) (w : Fin 32) (fy : Buf (Elt F) (ystLoc d)) (r : Fin 8) (c : Fin 4096) :
    abYsOf d (tileOf3 w) fy (ix8 r c) = fy (ix2 (rowAt w r) c) := abYsOf_tileOf3 d w fy (ix8 r c)

/-! ## The aggregate, whole -/

/-- The accumulator of tile w when its fold loop starts: all the chunks of the edge lists run over tile w's eight feature
    rows, from the zero block's contents. -/
def accOf (d : Dev nD) (src : Buf (Elt F) (srcLoc d)) (dst : Buf (Elt F) (dstLoc d)) (yst : Buf (Elt F) (ystLoc d))
    (z2 : Buf (Elt F) (z2Loc d)) (w : Fin 32) : Vec F S16x4096 .f32 :=
  accAfterChunks (abYsOf d (tileOf3 w) yst) src dst k3_t1_loop.trips z2

/-- The 256 x 4096 aggregate the second call leaves: row 8 w + r is row r of tile w's folded accumulator. -/
def stWhole (d : Dev nD) (src : Buf (Elt F) (srcLoc d)) (dst : Buf (Elt F) (dstLoc d))
    (yst : Buf (Elt F) (ystLoc d)) (z2 : Buf (Elt F) (z2Loc d)) : Buf (Elt F) (stLoc d) :=
  fun (i : S256x4096.Idx) =>
    foldAll (accOf d src dst yst z2 (rowTile ⟨(i 0).val, idx2_lt0 i⟩))
      (ix16 (rowIn ⟨(i 0).val, idx2_lt0 i⟩) (⟨(i 1).val, idx2_lt1 i⟩ : Fin 4096))

/-- The aggregate at row 8 w + r, column c. -/
theorem stWhole_ix2 (d : Dev nD) (src : Buf (Elt F) (srcLoc d)) (dst : Buf (Elt F) (dstLoc d))
    (yst : Buf (Elt F) (ystLoc d)) (z2 : Buf (Elt F) (z2Loc d)) (w : Fin 32) (r : Fin 8) (c : Fin 4096) :
    stWhole d src dst yst z2 (ix2 (rowAt w r) c)
      = foldAll (accOf d src dst yst z2 w) (ix16 (⟨r.val, by have := r.isLt; omega⟩ : Fin 16) c) := by
  show foldAll (accOf d src dst yst z2 (rowTile (rowAt w r))) (ix16 (rowIn (rowAt w r)) c) = _
  rw [rowTile_rowAt, rowIn_rowAt]

/-- The same entry as a sum: row r of tile w's accumulator plus the row eight below. -/
theorem stWhole_entry (d : Dev nD) (src : Buf (Elt F) (srcLoc d)) (dst : Buf (Elt F) (dstLoc d))
    (yst : Buf (Elt F) (ystLoc d)) (z2 : Buf (Elt F) (z2Loc d)) (w : Fin 32) (r : Fin 8) (c : Fin 4096) :
    stWhole d src dst yst z2 (ix2 (rowAt w r) c)
      = FloatOps.addf (accOf d src dst yst z2 w (ix16 (⟨r.val, by have := r.isLt; omega⟩ : Fin 16) c))
          (accOf d src dst yst z2 w (ix16 (⟨r.val + 8, by have := r.isLt; omega⟩ : Fin 16) c)) :=
  (stWhole_ix2 d src dst yst z2 w r c).trans (foldAll_lo _ r c)

/-- Every tile's rows of the whole aggregate are the rows that tile's task leaves: the body's post at the whole-array function. -/
theorem stWhole_emb (d : Dev nD) (src : Buf (Elt F) (srcLoc d)) (dst : Buf (Elt F) (dstLoc d))
    (yst : Buf (Elt F) (ystLoc d)) (z2 : Buf (Elt F) (z2Loc d)) (L : grid3.Coords) (n : S8x4096.Idx) :
    stWhole d src dst yst z2 ((abOutRows L).view.emb n) = aggOut d L src dst yst z2 n := by
  show _ = foldAll (accAfterChunks (abYsOf d L yst) src dst k3_t1_loop.trips z2) ((abAccLow).view.emb n)
  have e : stWhole d src dst yst z2 ((abOutRows L).view.emb n)
      = stWhole d src dst yst z2 (ix2 (rowAt (tileNo3 L) ⟨(n 0).val, (n 0).isLt⟩) (⟨(n 1).val, (n 1).isLt⟩ : Fin 4096)) :=
    congrArg (stWhole d src dst yst z2) (abOutRows_emb L n)
  rw [e, stWhole_ix2]
  unfold accOf
  rw [tileOf3_tileNo3]
  exact congrArg (foldAll (accAfterChunks (abYsOf d L yst) src dst k3_t1_loop.trips z2)) (abAccLow_emb n).symm

end Whole1

section Obl1

variable [FloatOps F]

/-- The second call's task obligation at the whole aggregate. -/
theorem tileObl1_whole (C : Conts F)
    (hsrc : ∀ d i, (C.src d i).toNat < 4096) (hdst : ∀ d i, (C.dst1 d i).toNat < 4096)
    (hC : ∀ d, C.st d = stWhole d (C.src d) (C.dst1 d) (C.yst d) (C.z2 d)) :
    (K (F := F)).TileObl (D (F := F)) 𝒱 (P C) v₀ 1 :=
  tileObl1 C hsrc hdst fun d L n => by
    rw [hC d]; exact stWhole_emb d (C.src d) (C.dst1 d) (C.yst d) (C.z2 d) L n

end Obl1

end Cert.Proof.KI

end
-- ==== Proof.TcRegion.lean ====
/-
  The first TensorCore call of the program, x1t[:, block i] = xft · A0[block i, :]ᵀ over a grid of 16 points,
  as a region of @main entered on the TensorCore thread between two SparseCore calls: the body's run at a
  symbolic grid point, the pipeline's proof data, the whole result as a function of the two factors, and the
  region's entailment from the whole input arrays to the whole output array.
-/
import proofs.«205814_g58841051955373_cont_9to1_m_133_55_alg».proof.Proof.Setup
import proofs.«205814_g58841051955373_cont_9to1_m_133_55_alg».proof.Proof.PipeGhost
import proofs.«205814_g58841051955373_cont_9to1_m_133_55_alg».proof.Proof.Gen.KernelIdeal.Points
import Idealize.ShloMosaic.Lib.Pipeline.Regions
import Idealize.ShloMosaic.Lib.Pipeline.Value
import Idealize.ShloMosaic.Lib.Pipeline.FrameBody
import Idealize.ShloMosaic.Lib.Ring
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body at a symbolic grid point -/

abbrev r1_in : Rect S256x4096 := Rect.unit (s := S256x4096) ![0, 0] S256x4096.size inb_S256x4096_S256x4096_0_0
abbrev r1_out : Rect S256x256 := Rect.unit (s := S256x256) ![0, 0] S256x256.size inb_S256x256_S256x256_0_0

/-- What the body leaves in the output block from the two staged input blocks: its one store, of the product
    `k1_pay1` of the blocks as loaded. -/
def out1 (x0 x1 : Vec F S256x4096 .f32) : Vec F S256x256 .f32 :=
  View.canon [⟨r1_out, k1_pay1 (View.ld x0 r1_in) (View.ld x1 r1_in)⟩]

/-- Both loads read their whole block and the store writes the whole output block: what is left is the product itself. -/
theorem out1_eq (x0 x1 : Vec F S256x4096 .f32) : out1 x0 x1 = k1_pay1 x0 x1 := by
  unfold out1
  have h2 : (![0, 0] : Fin 2 → ℕ) = fun _ => 0 := by funext a; fin_cases a <;> rfl
  rw [View.canon_unit_zero h2, View.ld_unit_zero h2, View.ld_unit_zero h2]

/-- The one store tiles the output block. -/
theorem cover1 (p0 : Vec F S256x256 .f32) (y : S256x256.Idx) :
    ∃ pc ∈ ([⟨r1_out, p0⟩] : List (View.Piece (Elt F) S256x256 .f32)), y ∈ pc.1.set :=
  View.cover_of_tiled [⟨r1_out, p0⟩] S256x256.size (by rfl) y

set_option maxHeartbeats 1000000 in
/-- The body on whole staging memrefs: the two input blocks at `x0`, `x1` stay, the output block ends at `out1 x0 x1`. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x256 .f32) (harg3 : arg3.IsWhole)
    (x0 x1 : Vec F S256x4096 .f32) (Kp : PUnit → sProp 𝕄) :
    iprop(owns (c : Thread nD τ) arg1 fullShare x0 ∗ owns (c : Thread nD τ) arg2 fullShare x1 ∗ (∃ y, owns (c : Thread nD τ) arg3 fullShare y)
        ∗ (iprop(owns (c : Thread nD τ) arg1 fullShare x0 ∗ owns (c : Thread nD τ) arg2 fullShare x1
            ∗ owns (c : Thread nD τ) arg3 fullShare (out1 x0 x1)) -∗ Kp ⟨⟩))
      ⊢ wp frame (wpE (defs₀ (F := F)) Variants.none c none) E (cc1__mm_t_body i arg1 harg1 arg2 harg2 arg3 harg3) Kp := by
  simp only [cc1__mm_t_body_eq_skeleton]; unfold cc1__mm_t_body_skel
  unfold owns
  iintro ⟨⟨%f0, %hf0, H0⟩, ⟨%f1, %hf1, H1⟩, ⟨%y, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The proof data of the pipeline -/

section Data

variable (c : Dev nD) (X : Vec F S256x4096 .f32) (A : Vec F S4096x4096 .f32) (Y₀ : Vec F S256x4096 .f32)

/-- The three arrays as the region finds them: the left factor whole, the right factor whole, the result at anything. -/
def arr1 : (w : Fin cfg1.W) → Buf (Elt F) ((cfg1.win w).arr.view.loc (c.tc : Thread nD τ))
  | ⟨0, _⟩ => X
  | ⟨1, _⟩ => A
  | ⟨2, _⟩ => Y₀

/-- Window `w`'s block at point `t`, read off its array. -/
def iblk1 (w : Fin cfg1.W) (t : Fin cfg1.N) : ((cfg1.win w).xblock (cfg1.grid.coords t)).Idx → Elt F (cfg1.win w).elt :=
  ((cfg1.win w).blk t).view.read (Elt F) (arr1 c X A Y₀ w)

/-- The proof data on core `c`: the inputs' staging buffers keep their blocks, the output's holds the body's product of
    them; the invariant is the scoped buffers no window stages; the core owes, throughout, what the TensorCore owes
    between the first and the second SparseCore call, and its recorded pairs stay at or below that call's band. -/
def dat1 : Dat τ (Elt F) (HIx 2) ℕ UU ℕ cfg1 c where
  A := arr1 c X A Y₀
  after w t := match w with
    | ⟨0, _⟩ => iblk1 c X A Y₀ 0 t
    | ⟨1, _⟩ => iblk1 c X A Y₀ 1 t
    | ⟨2, _⟩ => out1 (iblk1 c X A Y₀ 0 t) (iblk1 c X A Y₀ 1 t)
  Φ _ := Pipeline.scopedRest spec1 c
  q _ := fullShare
  owed _ := (K (F := F)).Otc c 1
  recorded _ := {p | (K (F := F)).lev ((c.tc : Thread nD τ), p.1) p.2 ≤ 8}

theorem A_eq1 (w : Fin cfg1.W) : (dat1 c X A Y₀).A w = arr1 c X A Y₀ w := by dsimp only [dat1]
theorem after1_0 (t : Fin cfg1.N) : (dat1 c X A Y₀).after 0 t = iblk1 c X A Y₀ 0 t := by dsimp only [dat1]
theorem after1_1 (t : Fin cfg1.N) : (dat1 c X A Y₀).after 1 t = iblk1 c X A Y₀ 1 t := by dsimp only [dat1]
theorem after1_2 (t : Fin cfg1.N) : (dat1 c X A Y₀).after 2 t = out1 (iblk1 c X A Y₀ 0 t) (iblk1 c X A Y₀ 1 t) := by dsimp only [dat1]

/-- Each input's current staging buffer holds its block at every point, fetched there or not. -/
theorem before1_0 (t : Fin cfg1.N) (d) : (dat1 c X A Y₀).before 0 t d = iblk1 c X A Y₀ 0 t :=
  ((dat1 c X A Y₀).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (t : Fin cfg1.N) (d) : (dat1 c X A Y₀).before 1 t d = iblk1 c X A Y₀ 1 t :=
  ((dat1 c X A Y₀).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, -/
def bodyPre1 (t : Fin cfg1.N) : sProp 𝕄 :=
  iprop((dat1 c X A Y₀).Φ t.castSucc ∗ (dat1 c X A Y₀).owesAt (none : HIx 2) t.castSucc
    ∗ (∃ d, owns (c : Thread nD τ) (st1_0 t) fullShare ((dat1 c X A Y₀).before 0 t d))
    ∗ (∃ d, owns (c : Thread nD τ) (st1_1 t) fullShare ((dat1 c X A Y₀).before 1 t d))
    ∗ (∃ d, owns (c : Thread nD τ) (st1_2 t) fullShare ((dat1 c X A Y₀).before 2 t d)))

/-- and what it returns. -/
def bodyPost1 (t : Fin cfg1.N) : sProp 𝕄 :=
  iprop((dat1 c X A Y₀).Φ t.succ ∗ (dat1 c X A Y₀).owesAt (none : HIx 2) t.succ
    ∗ owns (c : Thread nD τ) (st1_0 t) fullShare ((dat1 c X A Y₀).after 0 t)
    ∗ owns (c : Thread nD τ) (st1_1 t) fullShare ((dat1 c X A Y₀).after 1 t)
    ∗ owns (c : Thread nD τ) (st1_2 t) fullShare ((dat1 c X A Y₀).after 2 t))

/-- The body at any point: the inputs' memrefs hold their blocks; the invariant and the core's debts pass through unread. -/
theorem sound_body1 (t : Fin cfg1.N) :
    bodyPre1 c X A Y₀ t ⊢ wp frame (wpE (defs₀ (F := F)) Variants.none c none) Set.univ (bodyAt1 t) (fun _ => bodyPost1 c X A Y₀ t) := by
  unfold bodyPre1 bodyPost1 bodyAt1
  simp only [before1_0, before1_1]
  rw [show (dat1 c X A Y₀).Φ t.succ = (dat1 c X A Y₀).Φ t.castSucc from rfl,
    show (dat1 c X A Y₀).owesAt (none : HIx 2) t.succ = (dat1 c X A Y₀).owesAt (none : HIx 2) t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 c X A Y₀ 0 t) (iblk1 c X A Y₀ 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 : BodyObligation (dat1 c X A Y₀) (defs₀ (F := F)) Variants.none (none : HIx 2) Set.univ := fun t => by
  rw [bigSep_W1, bigSep_W1]
  exact sound_body1 c X A Y₀ t

end Data

/-! ## The product, block by block -/

/-- The block indices of the three windows at point `t`: the left factor whole, rows block `t` of the right factor,
    columns block `t` of the result. -/
theorem index1_0 : ∀ t : Fin grid1.N, cc1_transform_0 (grid1.coords t) = ![0, 0] := by decide +kernel
theorem index1_1 : ∀ t : Fin grid1.N, cc1_transform_1 (grid1.coords t) = ![t.val, 0] := by decide +kernel
theorem index1_2 : ∀ t : Fin grid1.N, cc1_transform_2 (grid1.coords t) = ![0, t.val] := by decide +kernel

theorem idx2_0 (t : Fin cfg1.N) : (cfg1.win 2).index t 0 = 0 := by
  show cc1_transform_2 (grid1.coords t) 0 = 0; rw [index1_2 t]; rfl
theorem idx2_1 (t : Fin cfg1.N) : (cfg1.win 2).index t 1 = t.val := by
  show cc1_transform_2 (grid1.coords t) 1 = t.val; rw [index1_2 t]; rfl
theorem idx0 (t : Fin cfg1.N) (a : Fin 2) : (cfg1.win 0).index t a = 0 := by
  show cc1_transform_0 (grid1.coords t) a = 0; rw [index1_0 t]; fin_cases a <;> rfl

/-- The column block of an index of the result, and its place in that block. -/
def tOf (i : S256x4096.Idx) : Fin cfg1.N :=
  ⟨(i 1).val / 256, by
    have h : (i 1).val < 4096 := (i 1).isLt
    show (i 1).val / 256 < grid1.N
    rw [N_1]; omega⟩
def jOf (i : S256x4096.Idx) : S256x256.Idx
  | ⟨0, _⟩ => ⟨(i 0).val, (i 0).isLt⟩
  | ⟨1, _⟩ => ⟨(i 1).val % 256, Nat.mod_lt _ (by decide)⟩

/-- Where an element of the result's block `t` sits in the array: same row, column `256 t +` its own. -/
theorem emb2_val0 (t : Fin cfg1.N) (y : ((cfg1.win 2).xblock (cfg1.grid.coords t)).Idx) :
    ((((cfg1.win 2).blk t).view.emb y) 0 : ℕ) = (y 0 : ℕ) := by
  rw [show ((cfg1.win 2).blk t).view.emb y = ((cfg1.win 2).rect t).emb y from rfl]
  exact (cfg1.win 2).rect_emb_val_of_index_zero t 0 (idx2_0 t) y
theorem emb2_val1 (t : Fin cfg1.N) (y : ((cfg1.win 2).xblock (cfg1.grid.coords t)).Idx) :
    ((((cfg1.win 2).blk t).view.emb y) 1 : ℕ) = t.val * 256 + (y 1 : ℕ) := by
  rw [show ((cfg1.win 2).blk t).view.emb y = ((cfg1.win 2).rect t).emb y from rfl]
  have h := (cfg1.win 2).rect_emb_val t y 1
  rw [idx2_1 t] at h
  exact h

theorem tOf_emb (t : Fin cfg1.N) (y : ((cfg1.win 2).xblock (cfg1.grid.coords t)).Idx) :
    tOf (((cfg1.win 2).blk t).view.emb y) = t := by
  apply Fin.ext
  show ((((cfg1.win 2).blk t).view.emb y) 1 : ℕ) / 256 = t.val
  rw [emb2_val1]
  have : (y 1 : ℕ) < 256 := (y 1).isLt
  omega
theorem jOf_emb (t : Fin cfg1.N) (y : ((cfg1.win 2).xblock (cfg1.grid.coords t)).Idx) :
    jOf (((cfg1.win 2).blk t).view.emb y) = y := by
  funext a
  match a with
  | ⟨0, _⟩ => apply Fin.ext; show ((((cfg1.win 2).blk t).view.emb y) 0 : ℕ) = (y 0 : ℕ); rw [emb2_val0]
  | ⟨1, _⟩ =>
    apply Fin.ext; show ((((cfg1.win 2).blk t).view.emb y) 1 : ℕ) % 256 = (y 1 : ℕ); rw [emb2_val1]
    have : (y 1 : ℕ) < 256 := (y 1).isLt
    omega

/-- Rows block `t` of the right factor. -/
def rowsBlk (A : Vec F S4096x4096 .f32) (t : Fin cfg1.N) : Vec F S256x4096 .f32 :=
  ((cfg1.win 1).blk t).view.read (Elt F) A

/-- The whole result as a function of the two factors: under column block `t`, the body's product of the left factor
    with rows block `t` of the right factor. -/
def x1tV (X : Vec F S256x4096 .f32) (A : Vec F S4096x4096 .f32) : Vec F S256x4096 .f32 :=
  fun i => out1 X (rowsBlk A (tOf i)) (jOf i)

/-- The same at the result array's location on device `d`. -/
def x1t (d : Dev nD) (X : Buf (Elt F) ((T d : Thread nD τ).loc main_v1)) (A : Buf (Elt F) ((T d : Thread nD τ).loc main_v35)) :
    Buf (Elt F) ((T d : Thread nD τ).loc main_v36) := x1tV X A

/-! ## What the arrays hold at the region's two ends -/

section Value

variable (c : Dev nD) (X : Vec F S256x4096 .f32) (A : Vec F S4096x4096 .f32) (Y₀ : Vec F S256x4096 .f32)

/-- Window 0's block is the whole left factor, at every point. -/
theorem iblk1_0 (t : Fin cfg1.N) : iblk1 c X A Y₀ 0 t = X := by
  funext x
  unfold iblk1
  rw [View.read_apply]
  show X (((cfg1.win 0).blk t).view.emb x) = X x
  congr 1
  funext a; apply Fin.ext
  rw [show ((cfg1.win 0).blk t).view.emb x = ((cfg1.win 0).rect t).emb x from rfl]
  exact (cfg1.win 0).rect_emb_val_of_index_zero t a (idx0 t a) x

theorem iblk1_1 (t : Fin cfg1.N) : iblk1 c X A Y₀ 1 t = rowsBlk A t := rfl

/-- What point `t` writes back is block `t` of the whole result. -/
theorem hG1 (t : Fin cfg1.N) (hf : (cfg1.win 2).flush t = true) :
    (dat1 c X A Y₀).flushed 2 t = ((cfg1.win 2).blk t).view.read (Elt F) (x1tV X A) := by
  funext y
  rw [View.read_apply]
  show (dat1 c X A Y₀).after 2 t y = x1tV X A (((cfg1.win 2).blk t).view.emb y)
  rw [after1_2, iblk1_0, iblk1_1]
  unfold x1tV
  rw [tOf_emb, jOf_emb]

/-- The sixteen column blocks cover the result. -/
theorem hcover1 (i : S256x4096.Idx) : ∃ t : Fin cfg1.N, (cfg1.win 2).flush t = true ∧ i ∈ ((cfg1.win 2).blk t).view.set := by
  refine ⟨tOf i, flush1_2 _, ?_⟩
  have h : ((cfg1.win 2).blk (tOf i)).view.emb (jOf i) = i := by
    funext a
    match a with
    | ⟨0, _⟩ => apply Fin.ext; show ((((cfg1.win 2).blk (tOf i)).view.emb (jOf i)) 0 : ℕ) = (i 0 : ℕ); rw [emb2_val0]; rfl
    | ⟨1, _⟩ =>
      apply Fin.ext; show ((((cfg1.win 2).blk (tOf i)).view.emb (jOf i)) 1 : ℕ) = (i 1 : ℕ); rw [emb2_val1]
      show (i 1).val / 256 * 256 + (i 1).val % 256 = (i 1).val
      omega
  have hm := ((cfg1.win 2).blk (tOf i)).view.emb_mem_set (jOf i)
  rw [h] at hm
  exact hm

/-- The inputs are never written; the result ends at the whole product. -/
theorem arrAt1_0 (n : ℕ) : (dat1 c X A Y₀).arrAt 0 n = X := ((dat1 c X A Y₀).arrAt_in 0 rfl n).trans (by rw [A_eq1]; rfl)
theorem arrAt1_1 (n : ℕ) : (dat1 c X A Y₀).arrAt 1 n = A := ((dat1 c X A Y₀).arrAt_in 1 rfl n).trans (by rw [A_eq1]; rfl)
theorem arrAt1_2_zero : (dat1 c X A Y₀).arrAt 2 0 = Y₀ := by show (dat1 c X A Y₀).A 2 = Y₀; rw [A_eq1]; rfl
theorem arrAt1_2 : (dat1 c X A Y₀).arrAt 2 cfg1.N = x1tV X A :=
  (dat1 c X A Y₀).arrAt_eq_of_cover 2 (x1tV X A) (hG1 c X A Y₀) hcover1

/-- The pipeline's three arrays, held whole. -/
theorem arrays1_eq (G : (w : Fin cfg1.W) → Buf (Elt F) ((cfg1.win w).arr.view.loc (c.tc : Thread nD τ))) :
    (dat1 c X A Y₀).arrays G
      = iprop((((c.tc : Thread nD τ).loc main_v1) ↦{fullShare} G 0) ∗ (((c.tc : Thread nD τ).loc main_v35) ↦{fullShare} G 1)
          ∗ (((c.tc : Thread nD τ).loc main_v36) ↦{fullShare} G 2)) := by
  unfold Dat.arrays
  rw [bigSep_W1, (arr_whole1 0).set_eq_univ, (arr_whole1 1).set_eq_univ, (arr_whole1 2).set_eq_univ]
  rfl

end Value

/-! ## The region -/

section Region

variable {lv : GSem nD τ sig → HIx 2 → ℕ} (hlv : (K (F := F)).Refines lv)
variable (Xv : Vec F S256x4096 .f32) (Av : Vec F S4096x4096 .f32) (Yv : Vec F S256x4096 .f32)

/-- Proof data that says nothing, for the two pipelines this region does not enter. -/
def idleDat (c : Dev nD) (cfg : Pipeline.Cfg sig Λ₀) : Dat τ (Elt F) (HIx 2) ℕ UU ℕ cfg c where
  A _ := Classical.arbitrary _
  after _ _ := Classical.arbitrary _
  Φ _ := iprop(emp)
  q _ := fullShare
  owed _ := 0

/-- Every pipeline's proof data, this region's at the arrays it is entered with. -/
def pdats1 : (p : Fin 3) → (c : Dev nD) → Dat τ (Elt F) (HIx 2) ℕ UU ℕ (Pipeline.pin (pcfgs (F := F)) adm p) c
  | ⟨0, _⟩ => fun c => dat1 c Xv Av Yv
  | ⟨1, _⟩ => fun c => idleDat c _
  | ⟨2, _⟩ => fun c => idleDat c _

/-- What the TensorCore owes between the first and the second SparseCore call, its recorded pairs within the first call's band. -/
abbrev owesT (c : Dev nD) : sProp 𝕄 :=
  iprop(∃ W, ⌜(K (F := F)).WBelow (T c) W (8 * 1)⌝ ∗ owes (T c : Thread nD τ) ((K (F := F)).Otc c 1) W)

/-- The TensorCore's debts are all at a call's index: none at the kernels' own. -/
theorem Otc_none (c : Dev nD) (n : ℕ) (g : GSem nD τ sig) : (K (F := F)).Otc c n g none = 0 :=
  Nat.eq_zero_of_not_pos fun h => by
    have := (K (F := F)).lev_of_Otc_pos h
    rw [SparseCore.Cfg.lev_none] at this; omega

set_option backward.isDefEq.respectTransparency.types false in
/-- The region over the thread state "what the TensorCore owes, the three arrays whole": the arrays go in as the
    pipeline's, come back with the result at the whole product; the debts ride through at the same tallies, the
    pipeline's own waits recorded at the kernels' index, level zero. -/
def reg1 : Pipeline.RegionSeg (pcfgs (F := F)) adm (pdats1 Xv Av Yv) (none : HIx 2) defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation1 c Xv Av Yv).loose
  hwaits c := Pipeline.cellsWaits_intro (Pipeline.pin (pcfgs (F := F)) adm) (pdats1 Xv Av Yv) (none : HIx 2) 0 c
    fun w s t => (K (F := F)).mayWait_none _ (Otc_none c 1) lv hlv
  pre c := iprop(owesT c ∗ (((c.tc : Thread nD τ).loc main_v1) ↦{fullShare} Xv) ∗ (((c.tc : Thread nD τ).loc main_v35) ↦{fullShare} Av)
    ∗ (((c.tc : Thread nD τ).loc main_v36) ↦{fullShare} Yv))
  post c := iprop(owesT c ∗ (((c.tc : Thread nD τ).loc main_v1) ↦{fullShare} Xv) ∗ (((c.tc : Thread nD τ).loc main_v35) ↦{fullShare} Av)
    ∗ (((c.tc : Thread nD τ).loc main_v36) ↦{fullShare} x1tV Xv Av))
  X c := iprop(emp)
  Y c := iprop(emp)
  Z c := iprop(emp)
  hentry c := by
    show iprop((owesT c ∗ (((c.tc : Thread nD τ).loc main_v1) ↦{fullShare} Xv) ∗ (((c.tc : Thread nD τ).loc main_v35) ↦{fullShare} Av)
          ∗ (((c.tc : Thread nD τ).loc main_v36) ↦{fullShare} Yv)) ∗ Pipeline.ownSems0 (fun k : PEmpty => k.elim) c ∗ levAts (K (F := F)).L lv)
      ⊢ |={Set.univ}=> iprop((dat1 c Xv Av Yv).arrays (fun w => (dat1 c Xv Av Yv).arrAt w 0)
          ∗ Pipeline.prefHeld (pcfgs (F := F) 0).pre c (fun _ => fullShare) (adm (F := F) 0).1
          ∗ (dat1 c Xv Av Yv).owesAt (none : HIx 2) 0 ∗ emp ∗ emp)
    rw [arrays1_eq]; try dsimp only
    rw [arrAt1_0, arrAt1_1, arrAt1_2_zero]
    iintro ⟨⟨HO, H1, H35, H36⟩, -, -⟩
    imodintro
    isplitl [H1 H35 H36]
    · isplitl [H1]; · iexact H1
      isplitl [H35]; · iexact H35
      iexact H36
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl <;> iempintro
  hin c := by
    show iprop(emp ∗ Pipeline.prefHeld (pcfgs (F := F) 0).pre c (fun _ => fullShare) (adm (F := F) 0).1 ∗ Pipeline.scopedRest spec1 c)
      ⊢ (Pipeline.scopedRest spec1 c : sProp 𝕄)
    iintro ⟨-, -, Hr⟩; iexact Hr
  hout c := by
    show (Pipeline.scopedRest spec1 c : sProp 𝕄) ⊢ iprop(emp ∗ Pipeline.ownSems0 (fun k : PEmpty => k.elim) c ∗ Pipeline.scopedRest spec1 c)
    rw [Pipeline.ownSems0_none]
    iintro Hr
    isplitr; · iempintro
    isplitr; · iempintro
    iexact Hr
  hexit c := by
    show iprop((dat1 c Xv Av Yv).arrays (fun w => (dat1 c Xv Av Yv).arrAt w cfg1.N)
          ∗ (dat1 c Xv Av Yv).owesAt (none : HIx 2) (Fin.last cfg1.N) ∗ emp ∗ emp)
      ⊢ |={Set.univ}=> iprop(owesT c ∗ (((c.tc : Thread nD τ).loc main_v1) ↦{fullShare} Xv) ∗ (((c.tc : Thread nD τ).loc main_v35) ↦{fullShare} Av)
          ∗ (((c.tc : Thread nD τ).loc main_v36) ↦{fullShare} x1tV Xv Av))
    rw [arrays1_eq]; try dsimp only
    rw [arrAt1_0, arrAt1_1, arrAt1_2]
    iintro ⟨⟨H1, H35, H36⟩, HO, -, -⟩
    imodintro
    isplitl [HO]
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · show (K (F := F)).lev _ none ≤ 8 * 1
          rw [SparseCore.Cfg.lev_none]; omega
      iexact HO
    isplitl [H1]; · iexact H1
    isplitl [H35]; · iexact H35
    iexact H36

end Region

set_option backward.isDefEq.respectTransparency.types false in
/-- THE REGION: between the first and the second SparseCore call the TensorCore, holding the three arrays whole and the
    first pipeline's share of the launch, runs the call to the same state with the result array at the whole product. -/
theorem region1 {lv : GSem nD τ sig → HIx 2 → ℕ} (hlv : (K (F := F)).Refines lv)
    (P : (K (F := F)).Pay (nD := nD) (Val := Elt F) (Name := ℕ) (U := UU)) (κ : GSem nD τ sig → ℕ) (d : Dev nD)
    (X : Buf (Elt F) ((T d : Thread nD τ).loc main_v1)) (A : Buf (Elt F) ((T d : Thread nD τ).loc main_v35)) :
    iprop((K (F := F)).ctx EH P κ lv ∗ (K (F := F)).tcSt EH d 1 ∗ boundary (T d : Thread nD τ) ∗ pipeGhost 0 d
        ∗ (((T d : Thread nD τ).loc main_v1) ↦{fullShare} X) ∗ (((T d : Thread nD τ).loc main_v35) ↦{fullShare} A)
        ∗ (∃ f : Buf (Elt F) ((T d : Thread nD τ).loc main_v36), ((T d : Thread nD τ).loc main_v36) ↦{fullShare} f))
      ⊢ wp frame (wpE ((K (F := F)).defs (D (F := F))) 𝒱 (T d) none) Set.univ
          (Prog.lift (.customCall (SparseCore.inner (Pipeline.entry 0)) ()))
          (fun _ => iprop((K (F := F)).tcSt EH d 1 ∗ boundary (T d : Thread nD τ)
            ∗ (((T d : Thread nD τ).loc main_v1) ↦{fullShare} X) ∗ (((T d : Thread nD τ).loc main_v35) ↦{fullShare} A)
            ∗ (((T d : Thread nD τ).loc main_v36) ↦{fullShare} x1t d X A))) := by
  unfold SparseCore.Cfg.tcSt
  iintro ⟨#Hctx, ⟨HO, Hrest⟩, Hbd, ⟨Hg, Ht⟩, H1, H35, ⟨%Y₀, H36⟩⟩
  ihave #Hla := (SparseCore.Cfg.ctx_levAts κ) $$ Hctx
  iapply ((K (F := F)).wp_liftProg (D (F := F)) 𝒱 (T d) Set.univ none
    (Prog.lift (.customCall (Pipeline.entry 0) ()) : Prog (TpuEff nD τ sig (Elt F) (ΛP (F := F)) .tc) PUnit) _)
  iapply (Pipeline.RegionSeg.wp (pcfgs (F := F)) adm (pdats1 X A Y₀) (none : HIx 2) cellOf_inj EP defs₀ 𝒱₀ (K (F := F)).L lv
    (reg1 hlv X A Y₀) d none (fun u hu => nomatch hu) (fun x => .ret x) _)
  dsimp only [reg1]
  isplitl [Hrest]
  · iintro ⟨Hbd, HO, H1, H35, H36⟩
    rw [wp_ret]; imodintro
    isplitl [HO Hrest]
    · isplitl [HO]; · iexact HO
      iexact Hrest
    isplitl [Hbd]; · iexact Hbd
    isplitl [H1]; · iexact H1
    isplitl [H35]; · iexact H35
    iexact H36
  isplitl [Hbd]; · iexact Hbd
  isplitl [HO H1 H35 H36]
  · isplitl [HO]; · iexact HO
    isplitl [H1]; · iexact H1
    isplitl [H35]; · iexact H35
    iexact H36
  isplitr; · iexact Hla
  isplitl [Hg]; · iexact Hg
  iexact Ht

end Cert.Proof.KI

end
-- ==== Proof.TcRegion2.lean ====
/-
  The second TensorCore call of the program over a grid of 16 points: at point i, from rows block i of the second
  adjacency factor, the whole first product, and column blocks i of the features and of the degree histogram, with the
  two block-diagonal weights, column block i of the staged result. As a region of @main entered on the TensorCore thread
  between the two SparseCore calls: the body's run at a symbolic grid point, the pipeline's proof data, the whole
  result as a function of the six operands, and the region's entailment.
-/
import proofs.«205814_g58841051955373_cont_9to1_m_133_55_alg».proof.Proof.Setup
import proofs.«205814_g58841051955373_cont_9to1_m_133_55_alg».proof.Proof.PipeGhost
import proofs.«205814_g58841051955373_cont_9to1_m_133_55_alg».proof.Proof.Gen.KernelIdeal.Points
import Idealize.ShloMosaic.Lib.Pipeline.Regions
import Idealize.ShloMosaic.Lib.Pipeline.Value
import Idealize.ShloMosaic.Lib.Pipeline.FrameBody
import Idealize.ShloMosaic.Lib.Ring
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body at a symbolic grid point -/

abbrev r2_w : Rect S256x4096 := Rect.unit (s := S256x4096) ![0, 0] S256x4096.size inb_S256x4096_S256x4096_0_0
abbrev r2_s (i : grid2.Coords) : Rect S256x4096 := Rect.unit (s := S256x4096) (k2_off1 i) S256x256.size (k2_off1_inb i)
abbrev r2_q : Rect S256x256 := Rect.unit (s := S256x256) ![0, 0] S256x256.size inb_S256x256_S256x256_0_0
abbrev r2_h : Rect S32x256 := Rect.unit (s := S32x256) ![0, 0] S32x256.size inb_S32x256_S32x256_0_0

/-- What the body leaves in the output block at grid coordinates `i`, from the six staged blocks: its one store, of the
    payload of the blocks as loaded (the whole first product and its own column block `i`, the adjacency rows, the first
    weight, the features, the second weight, the histogram). -/
def out2 (i : grid2.Coords) (a1 x1 : Vec F S256x4096 .f32) (xb : Vec F S256x256 .f32) (hb : Vec F S32x256 .f32)
    (w0 w1 : Vec F S256x256 .f32) : Vec F S256x256 .f32 :=
  View.canon [⟨r2_q, k2_pay1 (View.ld x1 r2_w) (View.ld x1 (r2_s i)) (View.ld a1 r2_w) (View.ld w0 r2_q) (View.ld xb r2_q)
    (View.ld w1 r2_q) (View.ld hb r2_h)⟩]

/-- The one store tiles the output block. -/
theorem cover2 (p0 : Vec F S256x256 .f32) (y : S256x256.Idx) :
    ∃ pc ∈ ([⟨r2_q, p0⟩] : List (View.Piece (Elt F) S256x256 .f32)), y ∈ pc.1.set :=
  View.cover_of_tiled [⟨r2_q, p0⟩] S256x256.size (by rfl) y

set_option maxHeartbeats 1000000 in
/-- The body on whole staging memrefs: the six input blocks stay, the output block ends at `out2` of them. -/
theorem sound_kernel2 (c : Dev nD) (E : Set ℕ) (i : grid2.Coords)
    (arg1 : Memref sig .tc .vmem S256x4096 .f32) (harg1 : arg1.IsWhole) (arg2 : Memref sig .tc .vmem S256x4096 .f32) (harg2 : arg2.IsWhole)
    (arg3 : Memref sig .tc .vmem S256x256 .f32) (harg3 : arg3.IsWhole) (arg4 : Memref sig .tc .vmem S32x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .f32) (harg7 : arg7.IsWhole)
    (a1 x1 : Vec F S256x4096 .f32) (xb : Vec F S256x256 .f32) (hb : Vec F S32x256 .f32) (w0 w1 : Vec F S256x256 .f32) (Kp : PUnit → sProp 𝕄) :
    iprop(owns (c : Thread nD τ) arg1 fullShare a1 ∗ owns (c : Thread nD τ) arg2 fullShare x1 ∗ owns (c : Thread nD τ) arg3 fullShare xb
        ∗ owns (c : Thread nD τ) arg4 fullShare hb ∗ owns (c : Thread nD τ) arg5 fullShare w0 ∗ owns (c : Thread nD τ) arg6 fullShare w1
        ∗ (∃ y, owns (c : Thread nD τ) arg7 fullShare y)
        ∗ (iprop(owns (c : Thread nD τ) arg1 fullShare a1 ∗ owns (c : Thread nD τ) arg2 fullShare x1 ∗ owns (c : Thread nD τ) arg3 fullShare xb
            ∗ owns (c : Thread nD τ) arg4 fullShare hb ∗ owns (c : Thread nD τ) arg5 fullShare w0 ∗ owns (c : Thread nD τ) arg6 fullShare w1
            ∗ owns (c : Thread nD τ) arg7 fullShare (out2 i a1 x1 xb hb w0 w1)) -∗ Kp ⟨⟩))
      ⊢ wp frame (wpE (defs₀ (F := F)) Variants.none c none) E
          (cc2__stage_b_body i arg1 harg1 arg2 harg2 arg3 harg3 arg4 harg4 arg5 harg5 arg6 harg6 arg7 harg7) Kp := by
  simp only [cc2__stage_b_body_eq_skeleton]; unfold cc2__stage_b_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%y, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-! ## The proof data of the pipeline -/

section Data

variable (c : Dev nD) (A1 : Vec F S4096x4096 .f32) (X1 : Vec F S256x4096 .f32) (Xf : Vec F S256x4096 .f32) (Hf : Vec F S32x4096 .f32) (W0 : Vec F S256x256 .f32) (W1 : Vec F S256x256 .f32) (Y₀ : Vec F S256x4096 .f32)

/-- The seven arrays as the region finds them: the six operands whole, the result at anything. -/
def arr2 : (w : Fin cfg2.W) → Buf (Elt F) ((cfg2.win w).arr.view.loc (c.tc : Thread nD τ))
  | ⟨0, _⟩ => A1
  | ⟨1, _⟩ => X1
  | ⟨2, _⟩ => Xf
  | ⟨3, _⟩ => Hf
  | ⟨4, _⟩ => W0
  | ⟨5, _⟩ => W1
  | ⟨6, _⟩ => Y₀

/-- Window `w`'s block at point `t`, read off its array. -/
def iblk2 (w : Fin cfg2.W) (t : Fin cfg2.N) : ((cfg2.win w).xblock (cfg2.grid.coords t)).Idx → Elt F (cfg2.win w).elt :=
  ((cfg2.win w).blk t).view.read (Elt F) (arr2 c A1 X1 Xf Hf W0 W1 Y₀ w)

/-- The proof data on core `c`: the inputs' staging buffers keep their blocks, the output's holds the body's payload of
    them; the invariant is the scoped buffers no window stages; the core owes, throughout, what the TensorCore owes
    between the first and the second SparseCore call, and its recorded pairs stay at or below that call's band. -/
def dat2 : Dat τ (Elt F) (HIx 2) ℕ UU ℕ cfg2 c where
  A := arr2 c A1 X1 Xf Hf W0 W1 Y₀
  after w t := match w with
    | ⟨0, _⟩ => iblk2 c A1 X1 Xf Hf W0 W1 Y₀ 0 t
    | ⟨1, _⟩ => iblk2 c A1 X1 Xf Hf W0 W1 Y₀ 1 t
    | ⟨2, _⟩ => iblk2 c A1 X1 Xf Hf W0 W1 Y₀ 2 t
    | ⟨3, _⟩ => iblk2 c A1 X1 Xf Hf W0 W1 Y₀ 3 t
    | ⟨4, _⟩ => iblk2 c A1 X1 Xf Hf W0 W1 Y₀ 4 t
    | ⟨5, _⟩ => iblk2 c A1 X1 Xf Hf W0 W1 Y₀ 5 t
    | ⟨6, _⟩ => out2 (grid2.coords t) (iblk2 c A1 X1 Xf Hf W0 W1 Y₀ 0 t) (iblk2 c A1 X1 Xf Hf W0 W1 Y₀ 1 t) (iblk2 c A1 X1 Xf Hf W0 W1 Y₀ 2 t) (iblk2 c A1 X1 Xf Hf W0 W1 Y₀ 3 t) (iblk2 c A1 X1 Xf Hf W0 W1 Y₀ 4 t) (iblk2 c A1 X1 Xf Hf W0 W1 Y₀ 5 t)
  Φ _ := Pipeline.scopedRest spec2 c
  q _ := fullShare
  owed _ := (K (F := F)).Otc c 1
  recorded _ := {p | (K (F := F)).lev ((c.tc : Thread nD τ), p.1) p.2 ≤ 8}

theorem A_eq2 (w : Fin cfg2.W) : (dat2 c A1 X1 Xf Hf W0 W1 Y₀).A w = arr2 c A1 X1 Xf Hf W0 W1 Y₀ w := by dsimp only [dat2]
theorem after2_0 (t : Fin cfg2.N) : (dat2 c A1 X1 Xf Hf W0 W1 Y₀).after 0 t = iblk2 c A1 X1 Xf Hf W0 W1 Y₀ 0 t := by dsimp only [dat2]
theorem after2_1 (t : Fin cfg2.N) : (dat2 c A1 X1 Xf Hf W0 W1 Y₀).after 1 t = iblk2 c A1 X1 Xf Hf W0 W1 Y₀ 1 t := by dsimp only [dat2]
theorem after2_2 (t : Fin cfg2.N) : (dat2 c A1 X1 Xf Hf W0 W1 Y₀).after 2 t = iblk2 c A1 X1 Xf Hf W0 W1 Y₀ 2 t := by dsimp only [dat2]
theorem after2_3 (t : Fin cfg2.N) : (dat2 c A1 X1 Xf Hf W0 W1 Y₀).after 3 t = iblk2 c A1 X1 Xf Hf W0 W1 Y₀ 3 t := by dsimp only [dat2]
theorem after2_4 (t : Fin cfg2.N) : (dat2 c A1 X1 Xf Hf W0 W1 Y₀).after 4 t = iblk2 c A1 X1 Xf Hf W0 W1 Y₀ 4 t := by dsimp only [dat2]
theorem after2_5 (t : Fin cfg2.N) : (dat2 c A1 X1 Xf Hf W0 W1 Y₀).after 5 t = iblk2 c A1 X1 Xf Hf W0 W1 Y₀ 5 t := by dsimp only [dat2]
theorem after2_6 (t : Fin cfg2.N) : (dat2 c A1 X1 Xf Hf W0 W1 Y₀).after 6 t
    = out2 (grid2.coords t) (iblk2 c A1 X1 Xf Hf W0 W1 Y₀ 0 t) (iblk2 c A1 X1 Xf Hf W0 W1 Y₀ 1 t) (iblk2 c A1 X1 Xf Hf W0 W1 Y₀ 2 t) (iblk2 c A1 X1 Xf Hf W0 W1 Y₀ 3 t) (iblk2 c A1 X1 Xf Hf W0 W1 Y₀ 4 t) (iblk2 c A1 X1 Xf Hf W0 W1 Y₀ 5 t) := by dsimp only [dat2]

/-- Each input's current staging buffer holds its block at every point, fetched there or not. -/
theorem before2_0 (t : Fin cfg2.N) (d) : (dat2 c A1 X1 Xf Hf W0 W1 Y₀).before 0 t d = iblk2 c A1 X1 Xf Hf W0 W1 Y₀ 0 t :=
  ((dat2 c A1 X1 Xf Hf W0 W1 Y₀).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (t : Fin cfg2.N) (d) : (dat2 c A1 X1 Xf Hf W0 W1 Y₀).before 1 t d = iblk2 c A1 X1 Xf Hf W0 W1 Y₀ 1 t :=
  ((dat2 c A1 X1 Xf Hf W0 W1 Y₀).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (t : Fin cfg2.N) (d) : (dat2 c A1 X1 Xf Hf W0 W1 Y₀).before 2 t d = iblk2 c A1 X1 Xf Hf W0 W1 Y₀ 2 t :=
  ((dat2 c A1 X1 Xf Hf W0 W1 Y₀).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (t : Fin cfg2.N) (d) : (dat2 c A1 X1 Xf Hf W0 W1 Y₀).before 3 t d = iblk2 c A1 X1 Xf Hf W0 W1 Y₀ 3 t :=
  ((dat2 c A1 X1 Xf Hf W0 W1 Y₀).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (t : Fin cfg2.N) (d) : (dat2 c A1 X1 Xf Hf W0 W1 Y₀).before 4 t d = iblk2 c A1 X1 Xf Hf W0 W1 Y₀ 4 t :=
  ((dat2 c A1 X1 Xf Hf W0 W1 Y₀).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)
theorem before2_5 (t : Fin cfg2.N) (d) : (dat2 c A1 X1 Xf Hf W0 W1 Y₀).before 5 t d = iblk2 c A1 X1 Xf Hf W0 W1 Y₀ 5 t :=
  ((dat2 c A1 X1 Xf Hf W0 W1 Y₀).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

/-- What the body is called with at point `t`, -/
def bodyPre2 (t : Fin cfg2.N) : sProp 𝕄 :=
  iprop((dat2 c A1 X1 Xf Hf W0 W1 Y₀).Φ t.castSucc ∗ (dat2 c A1 X1 Xf Hf W0 W1 Y₀).owesAt (none : HIx 2) t.castSucc
    ∗ (∃ d, owns (c : Thread nD τ) (st2_0 t) fullShare ((dat2 c A1 X1 Xf Hf W0 W1 Y₀).before 0 t d))
    ∗ (∃ d, owns (c : Thread nD τ) (st2_1 t) fullShare ((dat2 c A1 X1 Xf Hf W0 W1 Y₀).before 1 t d))
    ∗ (∃ d, owns (c : Thread nD τ) (st2_2 t) fullShare ((dat2 c A1 X1 Xf Hf W0 W1 Y₀).before 2 t d))
    ∗ (∃ d, owns (c : Thread nD τ) (st2_3 t) fullShare ((dat2 c A1 X1 Xf Hf W0 W1 Y₀).before 3 t d))
    ∗ (∃ d, owns (c : Thread nD τ) (st2_4 t) fullShare ((dat2 c A1 X1 Xf Hf W0 W1 Y₀).before 4 t d))
    ∗ (∃ d, owns (c : Thread nD τ) (st2_5 t) fullShare ((dat2 c A1 X1 Xf Hf W0 W1 Y₀).before 5 t d))
    ∗ (∃ d, owns (c : Thread nD τ) (st2_6 t) fullShare ((dat2 c A1 X1 Xf Hf W0 W1 Y₀).before 6 t d)))

/-- and what it returns. -/
def bodyPost2 (t : Fin cfg2.N) : sProp 𝕄 :=
  iprop((dat2 c A1 X1 Xf Hf W0 W1 Y₀).Φ t.succ ∗ (dat2 c A1 X1 Xf Hf W0 W1 Y₀).owesAt (none : HIx 2) t.succ
    ∗ owns (c : Thread nD τ) (st2_0 t) fullShare ((dat2 c A1 X1 Xf Hf W0 W1 Y₀).after 0 t)
    ∗ owns (c : Thread nD τ) (st2_1 t) fullShare ((dat2 c A1 X1 Xf Hf W0 W1 Y₀).after 1 t)
    ∗ owns (c : Thread nD τ) (st2_2 t) fullShare ((dat2 c A1 X1 Xf Hf W0 W1 Y₀).after 2 t)
    ∗ owns (c : Thread nD τ) (st2_3 t) fullShare ((dat2 c A1 X1 Xf Hf W0 W1 Y₀).after 3 t)
    ∗ owns (c : Thread nD τ) (st2_4 t) fullShare ((dat2 c A1 X1 Xf Hf W0 W1 Y₀).after 4 t)
    ∗ owns (c : Thread nD τ) (st2_5 t) fullShare ((dat2 c A1 X1 Xf Hf W0 W1 Y₀).after 5 t)
    ∗ owns (c : Thread nD τ) (st2_6 t) fullShare ((dat2 c A1 X1 Xf Hf W0 W1 Y₀).after 6 t))

/-- The body at any point: the inputs' memrefs hold their blocks; the invariant and the core's debts pass through unread. -/
theorem sound_body2 (t : Fin cfg2.N) :
    bodyPre2 c A1 X1 Xf Hf W0 W1 Y₀ t ⊢ wp frame (wpE (defs₀ (F := F)) Variants.none c none) Set.univ (bodyAt2 t) (fun _ => bodyPost2 c A1 X1 Xf Hf W0 W1 Y₀ t) := by
  unfold bodyPre2 bodyPost2 bodyAt2
  simp only [before2_0, before2_1, before2_2, before2_3, before2_4, before2_5]
  rw [show (dat2 c A1 X1 Xf Hf W0 W1 Y₀).Φ t.succ = (dat2 c A1 X1 Xf Hf W0 W1 Y₀).Φ t.castSucc from rfl,
    show (dat2 c A1 X1 Xf Hf W0 W1 Y₀).owesAt (none : HIx 2) t.succ = (dat2 c A1 X1 Xf Hf W0 W1 Y₀).owesAt (none : HIx 2) t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 c A1 X1 Xf Hf W0 W1 Y₀ 0 t) (iblk2 c A1 X1 Xf Hf W0 W1 Y₀ 1 t) (iblk2 c A1 X1 Xf Hf W0 W1 Y₀ 2 t) (iblk2 c A1 X1 Xf Hf W0 W1 Y₀ 3 t) (iblk2 c A1 X1 Xf Hf W0 W1 Y₀ 4 t) (iblk2 c A1 X1 Xf Hf W0 W1 Y₀ 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 : BodyObligation (dat2 c A1 X1 Xf Hf W0 W1 Y₀) (defs₀ (F := F)) Variants.none (none : HIx 2) Set.univ := fun t => by
  rw [bigSep_W2, bigSep_W2]
  exact sound_body2 c A1 X1 Xf Hf W0 W1 Y₀ t

end Data

/-! ## The result, block by block -/

/-- The block indices at point `t`: the first product and the two weights whole, column block `t` of the result. -/
theorem index2_1 : ∀ t : Fin grid2.N, cc2_transform_1 (grid2.coords t) = ![0, 0] := by decide +kernel
theorem index2_4 : ∀ t : Fin grid2.N, cc2_transform_4 (grid2.coords t) = ![0, 0] := by decide +kernel
theorem index2_5 : ∀ t : Fin grid2.N, cc2_transform_5 (grid2.coords t) = ![0, 0] := by decide +kernel
theorem index2_6 : ∀ t : Fin grid2.N, cc2_transform_6 (grid2.coords t) = ![0, t.val] := by decide +kernel

theorem idx6_0 (t : Fin cfg2.N) : (cfg2.win 6).index t 0 = 0 := by
  show cc2_transform_6 (grid2.coords t) 0 = 0; rw [index2_6 t]; rfl
theorem idx6_1 (t : Fin cfg2.N) : (cfg2.win 6).index t 1 = t.val := by
  show cc2_transform_6 (grid2.coords t) 1 = t.val; rw [index2_6 t]; rfl
theorem idxw1 (t : Fin cfg2.N) (a : Fin 2) : (cfg2.win 1).index t a = 0 := by
  show cc2_transform_1 (grid2.coords t) a = 0; rw [index2_1 t]; fin_cases a <;> rfl
theorem idxw4 (t : Fin cfg2.N) (a : Fin 2) : (cfg2.win 4).index t a = 0 := by
  show cc2_transform_4 (grid2.coords t) a = 0; rw [index2_4 t]; fin_cases a <;> rfl
theorem idxw5 (t : Fin cfg2.N) (a : Fin 2) : (cfg2.win 5).index t a = 0 := by
  show cc2_transform_5 (grid2.coords t) a = 0; rw [index2_5 t]; fin_cases a <;> rfl

/-- The column block of an index of the result, and its place in that block. -/
def tOf2 (i : S256x4096.Idx) : Fin cfg2.N :=
  ⟨(i 1).val / 256, by
    have h : (i 1).val < 4096 := (i 1).isLt
    show (i 1).val / 256 < grid2.N
    rw [N_2]; omega⟩
def jOf2 (i : S256x4096.Idx) : S256x256.Idx
  | ⟨0, _⟩ => ⟨(i 0).val, (i 0).isLt⟩
  | ⟨1, _⟩ => ⟨(i 1).val % 256, Nat.mod_lt _ (by decide)⟩

/-- Where an element of the result's block `t` sits in the array: same row, column `256 t +` its own. -/
theorem emb6_val0 (t : Fin cfg2.N) (y : ((cfg2.win 6).xblock (cfg2.grid.coords t)).Idx) :
    ((((cfg2.win 6).blk t).view.emb y) 0 : ℕ) = (y 0 : ℕ) := by
  rw [show ((cfg2.win 6).blk t).view.emb y = ((cfg2.win 6).rect t).emb y from rfl]
  exact (cfg2.win 6).rect_emb_val_of_index_zero t 0 (idx6_0 t) y
theorem emb6_val1 (t : Fin cfg2.N) (y : ((cfg2.win 6).xblock (cfg2.grid.coords t)).Idx) :
    ((((cfg2.win 6).blk t).view.emb y) 1 : ℕ) = t.val * 256 + (y 1 : ℕ) := by
  rw [show ((cfg2.win 6).blk t).view.emb y = ((cfg2.win 6).rect t).emb y from rfl]
  have h := (cfg2.win 6).rect_emb_val t y 1
  rw [idx6_1 t] at h
  exact h

theorem tOf2_emb (t : Fin cfg2.N) (y : ((cfg2.win 6).xblock (cfg2.grid.coords t)).Idx) :
    tOf2 (((cfg2.win 6).blk t).view.emb y) = t := by
  apply Fin.ext
  show ((((cfg2.win 6).blk t).view.emb y) 1 : ℕ) / 256 = t.val
  rw [emb6_val1]
  have : (y 1 : ℕ) < 256 := (y 1).isLt
  omega
theorem jOf2_emb (t : Fin cfg2.N) (y : ((cfg2.win 6).xblock (cfg2.grid.coords t)).Idx) :
    jOf2 (((cfg2.win 6).blk t).view.emb y) = y := by
  funext a
  match a with
  | ⟨0, _⟩ => apply Fin.ext; show ((((cfg2.win 6).blk t).view.emb y) 0 : ℕ) = (y 0 : ℕ); rw [emb6_val0]
  | ⟨1, _⟩ =>
    apply Fin.ext; show ((((cfg2.win 6).blk t).view.emb y) 1 : ℕ) % 256 = (y 1 : ℕ); rw [emb6_val1]
    have : (y 1 : ℕ) < 256 := (y 1).isLt
    omega

/-- Rows block `t` of the adjacency factor, column blocks `t` of the features and of the histogram. -/
def rowsBlk2 (A1 : Vec F S4096x4096 .f32) (t : Fin cfg2.N) : Vec F S256x4096 .f32 := ((cfg2.win 0).blk t).view.read (Elt F) A1
def colBlkX (Xf : Vec F S256x4096 .f32) (t : Fin cfg2.N) : Vec F S256x256 .f32 := ((cfg2.win 2).blk t).view.read (Elt F) Xf
def colBlkH (Hf : Vec F S32x4096 .f32) (t : Fin cfg2.N) : Vec F S32x256 .f32 := ((cfg2.win 3).blk t).view.read (Elt F) Hf

/-- The whole result as a function of the six operands: under column block `t`, the body's payload at point `t`. -/
def yst2V (A1 : Vec F S4096x4096 .f32) (X1 Xf : Vec F S256x4096 .f32) (Hf : Vec F S32x4096 .f32) (W0 W1 : Vec F S256x256 .f32) :
    Vec F S256x4096 .f32 :=
  fun i => out2 (grid2.coords (tOf2 i)) (rowsBlk2 A1 (tOf2 i)) X1 (colBlkX Xf (tOf2 i)) (colBlkH Hf (tOf2 i)) W0 W1 (jOf2 i)

/-- The same at the result array's location on device `d`. -/
def yst (d : Dev nD) (A1 : Buf (Elt F) ((T d : Thread nD τ).loc main_v38)) (X1 : Buf (Elt F) ((T d : Thread nD τ).loc main_v36))
    (Xf : Buf (Elt F) ((T d : Thread nD τ).loc main_v1)) (Hf : Buf (Elt F) ((T d : Thread nD τ).loc main_v33))
    (W0 : Buf (Elt F) ((T d : Thread nD τ).loc main_v15)) (W1 : Buf (Elt F) ((T d : Thread nD τ).loc main_v19)) :
    Buf (Elt F) ((T d : Thread nD τ).loc main_v39) := yst2V A1 X1 Xf Hf W0 W1

/-! ## What the arrays hold at the region's two ends -/

section Value

variable (c : Dev nD) (A1 : Vec F S4096x4096 .f32) (X1 : Vec F S256x4096 .f32) (Xf : Vec F S256x4096 .f32) (Hf : Vec F S32x4096 .f32) (W0 : Vec F S256x256 .f32) (W1 : Vec F S256x256 .f32) (Y₀ : Vec F S256x4096 .f32)

/-- The windows over whole arrays read the arrays, at every point. -/
theorem iblk2_1 (t : Fin cfg2.N) : iblk2 c A1 X1 Xf Hf W0 W1 Y₀ 1 t = X1 := by
  funext x
  unfold iblk2
  rw [View.read_apply]
  show X1 (((cfg2.win 1).blk t).view.emb x) = X1 x
  congr 1
  funext a; apply Fin.ext
  rw [show ((cfg2.win 1).blk t).view.emb x = ((cfg2.win 1).rect t).emb x from rfl]
  exact (cfg2.win 1).rect_emb_val_of_index_zero t a (idxw1 t a) x
theorem iblk2_4 (t : Fin cfg2.N) : iblk2 c A1 X1 Xf Hf W0 W1 Y₀ 4 t = W0 := by
  funext x
  unfold iblk2
  rw [View.read_apply]
  show W0 (((cfg2.win 4).blk t).view.emb x) = W0 x
  congr 1
  funext a; apply Fin.ext
  rw [show ((cfg2.win 4).blk t).view.emb x = ((cfg2.win 4).rect t).emb x from rfl]
  exact (cfg2.win 4).rect_emb_val_of_index_zero t a (idxw4 t a) x
theorem iblk2_5 (t : Fin cfg2.N) : iblk2 c A1 X1 Xf Hf W0 W1 Y₀ 5 t = W1 := by
  funext x
  unfold iblk2
  rw [View.read_apply]
  show W1 (((cfg2.win 5).blk t).view.emb x) = W1 x
  congr 1
  funext a; apply Fin.ext
  rw [show ((cfg2.win 5).blk t).view.emb x = ((cfg2.win 5).rect t).emb x from rfl]
  exact (cfg2.win 5).rect_emb_val_of_index_zero t a (idxw5 t a) x
theorem iblk2_0 (t : Fin cfg2.N) : iblk2 c A1 X1 Xf Hf W0 W1 Y₀ 0 t = rowsBlk2 A1 t := rfl
theorem iblk2_2 (t : Fin cfg2.N) : iblk2 c A1 X1 Xf Hf W0 W1 Y₀ 2 t = colBlkX Xf t := rfl
theorem iblk2_3 (t : Fin cfg2.N) : iblk2 c A1 X1 Xf Hf W0 W1 Y₀ 3 t = colBlkH Hf t := rfl

/-- What point `t` writes back is block `t` of the whole result. -/
theorem hG2 (t : Fin cfg2.N) (hf : (cfg2.win 6).flush t = true) :
    (dat2 c A1 X1 Xf Hf W0 W1 Y₀).flushed 6 t = ((cfg2.win 6).blk t).view.read (Elt F) (yst2V A1 X1 Xf Hf W0 W1) := by
  funext y
  rw [View.read_apply]
  show (dat2 c A1 X1 Xf Hf W0 W1 Y₀).after 6 t y = yst2V A1 X1 Xf Hf W0 W1 (((cfg2.win 6).blk t).view.emb y)
  rw [after2_6, iblk2_0, iblk2_1, iblk2_2, iblk2_3, iblk2_4, iblk2_5]
  unfold yst2V
  rw [tOf2_emb, jOf2_emb]

/-- The sixteen column blocks cover the result. -/
theorem hcover2 (i : S256x4096.Idx) : ∃ t : Fin cfg2.N, (cfg2.win 6).flush t = true ∧ i ∈ ((cfg2.win 6).blk t).view.set := by
  refine ⟨tOf2 i, flush2_6 _, ?_⟩
  have h : ((cfg2.win 6).blk (tOf2 i)).view.emb (jOf2 i) = i := by
    funext a
    match a with
    | ⟨0, _⟩ => apply Fin.ext; show ((((cfg2.win 6).blk (tOf2 i)).view.emb (jOf2 i)) 0 : ℕ) = (i 0 : ℕ); rw [emb6_val0]; rfl
    | ⟨1, _⟩ =>
      apply Fin.ext; show ((((cfg2.win 6).blk (tOf2 i)).view.emb (jOf2 i)) 1 : ℕ) = (i 1 : ℕ); rw [emb6_val1]
      show (i 1).val / 256 * 256 + (i 1).val % 256 = (i 1).val
      omega
  have hm := ((cfg2.win 6).blk (tOf2 i)).view.emb_mem_set (jOf2 i)
  rw [h] at hm
  exact hm

/-- The inputs are never written; the result ends at the whole function of them. -/
theorem arrAt2_0 (n : ℕ) : (dat2 c A1 X1 Xf Hf W0 W1 Y₀).arrAt 0 n = A1 := ((dat2 c A1 X1 Xf Hf W0 W1 Y₀).arrAt_in 0 rfl n).trans (by rw [A_eq2]; rfl)
theorem arrAt2_1 (n : ℕ) : (dat2 c A1 X1 Xf Hf W0 W1 Y₀).arrAt 1 n = X1 := ((dat2 c A1 X1 Xf Hf W0 W1 Y₀).arrAt_in 1 rfl n).trans (by rw [A_eq2]; rfl)
theorem arrAt2_2 (n : ℕ) : (dat2 c A1 X1 Xf Hf W0 W1 Y₀).arrAt 2 n = Xf := ((dat2 c A1 X1 Xf Hf W0 W1 Y₀).arrAt_in 2 rfl n).trans (by rw [A_eq2]; rfl)
theorem arrAt2_3 (n : ℕ) : (dat2 c A1 X1 Xf Hf W0 W1 Y₀).arrAt 3 n = Hf := ((dat2 c A1 X1 Xf Hf W0 W1 Y₀).arrAt_in 3 rfl n).trans (by rw [A_eq2]; rfl)
theorem arrAt2_4 (n : ℕ) : (dat2 c A1 X1 Xf Hf W0 W1 Y₀).arrAt 4 n = W0 := ((dat2 c A1 X1 Xf Hf W0 W1 Y₀).arrAt_in 4 rfl n).trans (by rw [A_eq2]; rfl)
theorem arrAt2_5 (n : ℕ) : (dat2 c A1 X1 Xf Hf W0 W1 Y₀).arrAt 5 n = W1 := ((dat2 c A1 X1 Xf Hf W0 W1 Y₀).arrAt_in 5 rfl n).trans (by rw [A_eq2]; rfl)
theorem arrAt2_6_zero : (dat2 c A1 X1 Xf Hf W0 W1 Y₀).arrAt 6 0 = Y₀ := by show (dat2 c A1 X1 Xf Hf W0 W1 Y₀).A 6 = Y₀; rw [A_eq2]; rfl
theorem arrAt2_6 : (dat2 c A1 X1 Xf Hf W0 W1 Y₀).arrAt 6 cfg2.N = yst2V A1 X1 Xf Hf W0 W1 :=
  (dat2 c A1 X1 Xf Hf W0 W1 Y₀).arrAt_eq_of_cover 6 (yst2V A1 X1 Xf Hf W0 W1) (hG2 c A1 X1 Xf Hf W0 W1 Y₀) hcover2

/-- The pipeline's seven arrays, held whole. -/
theorem arrays2_eq (G : (w : Fin cfg2.W) → Buf (Elt F) ((cfg2.win w).arr.view.loc (c.tc : Thread nD τ))) :
    (dat2 c A1 X1 Xf Hf W0 W1 Y₀).arrays G
      = iprop((((c.tc : Thread nD τ).loc main_v38) ↦{fullShare} G 0)
          ∗ (((c.tc : Thread nD τ).loc main_v36) ↦{fullShare} G 1)
          ∗ (((c.tc : Thread nD τ).loc main_v1) ↦{fullShare} G 2)
          ∗ (((c.tc : Thread nD τ).loc main_v33) ↦{fullShare} G 3)
          ∗ (((c.tc : Thread nD τ).loc main_v15) ↦{fullShare} G 4)
          ∗ (((c.tc : Thread nD τ).loc main_v19) ↦{fullShare} G 5)
          ∗ (((c.tc : Thread nD τ).loc main_v39) ↦{fullShare} G 6)) := by
  rw [Pipeline.arrays_eq (P := Unit) (fun _ => cfg2) (fun _ c => dat2 c A1 X1 Xf Hf W0 W1 Y₀) () c arr_whole2
    (fun w => (dat2 c A1 X1 Xf Hf W0 W1 Y₀).share_full (fun _ => rfl) w) G, bigSep_W2]

set_option maxHeartbeats 1000000 in
/-- The arrays as the pipeline takes them at entry, -/
theorem arrays2_entry : (dat2 c A1 X1 Xf Hf W0 W1 Y₀).arrays (fun w => (dat2 c A1 X1 Xf Hf W0 W1 Y₀).arrAt w 0)
      = iprop((((c.tc : Thread nD τ).loc main_v38) ↦{fullShare} A1)
          ∗ (((c.tc : Thread nD τ).loc main_v36) ↦{fullShare} X1)
          ∗ (((c.tc : Thread nD τ).loc main_v1) ↦{fullShare} Xf)
          ∗ (((c.tc : Thread nD τ).loc main_v33) ↦{fullShare} Hf)
          ∗ (((c.tc : Thread nD τ).loc main_v15) ↦{fullShare} W0)
          ∗ (((c.tc : Thread nD τ).loc main_v19) ↦{fullShare} W1)
          ∗ (((c.tc : Thread nD τ).loc main_v39) ↦{fullShare} Y₀)) := by
  rw [arrays2_eq]
  simp only [arrAt2_0, arrAt2_1, arrAt2_2, arrAt2_3, arrAt2_4, arrAt2_5, arrAt2_6_zero]

set_option maxHeartbeats 1000000 in
/-- and as it leaves them. -/
theorem arrays2_exit : (dat2 c A1 X1 Xf Hf W0 W1 Y₀).arrays (fun w => (dat2 c A1 X1 Xf Hf W0 W1 Y₀).arrAt w cfg2.N)
      = iprop((((c.tc : Thread nD τ).loc main_v38) ↦{fullShare} A1)
          ∗ (((c.tc : Thread nD τ).loc main_v36) ↦{fullShare} X1)
          ∗ (((c.tc : Thread nD τ).loc main_v1) ↦{fullShare} Xf)
          ∗ (((c.tc : Thread nD τ).loc main_v33) ↦{fullShare} Hf)
          ∗ (((c.tc : Thread nD τ).loc main_v15) ↦{fullShare} W0)
          ∗ (((c.tc : Thread nD τ).loc main_v19) ↦{fullShare} W1)
          ∗ (((c.tc : Thread nD τ).loc main_v39) ↦{fullShare} yst2V A1 X1 Xf Hf W0 W1)) := by
  rw [arrays2_eq]
  simp only [arrAt2_0, arrAt2_1, arrAt2_2, arrAt2_3, arrAt2_4, arrAt2_5, arrAt2_6]

end Value

/-! ## The region -/

section Region

variable {lv : GSem nD τ sig → HIx 2 → ℕ} (hlv : (K (F := F)).Refines lv)
variable (A1 : Vec F S4096x4096 .f32) (X1 Xf : Vec F S256x4096 .f32) (Hf : Vec F S32x4096 .f32) (W0 W1 : Vec F S256x256 .f32) (Yv : Vec F S256x4096 .f32)

/-- Proof data that says nothing, for the two pipelines this region does not enter. -/
def idleDat2 (c : Dev nD) (cfg : Pipeline.Cfg sig Λ₀) : Dat τ (Elt F) (HIx 2) ℕ UU ℕ cfg c where
  A _ := Classical.arbitrary _
  after _ _ := Classical.arbitrary _
  Φ _ := iprop(emp)
  q _ := fullShare
  owed _ := 0

/-- Every pipeline's proof data, this region's at the arrays it is entered with. -/
def pdats2 : (p : Fin 3) → (c : Dev nD) → Dat τ (Elt F) (HIx 2) ℕ UU ℕ (Pipeline.pin (pcfgs (F := F)) adm p) c
  | ⟨0, _⟩ => fun c => idleDat2 c _
  | ⟨1, _⟩ => fun c => dat2 c A1 X1 Xf Hf W0 W1 Yv
  | ⟨2, _⟩ => fun c => idleDat2 c _

/-- What the TensorCore owes between the first and the second SparseCore call, its recorded pairs within the first call's band. -/
abbrev owesT2 (c : Dev nD) : sProp 𝕄 :=
  iprop(∃ W, ⌜(K (F := F)).WBelow (T c) W (8 * 1)⌝ ∗ owes (T c : Thread nD τ) ((K (F := F)).Otc c 1) W)

/-- The TensorCore's debts are all at a call's index: none at the kernels' own. -/
theorem Otc_none2 (c : Dev nD) (n : ℕ) (g : GSem nD τ sig) : (K (F := F)).Otc c n g none = 0 :=
  Nat.eq_zero_of_not_pos fun h => by
    have := (K (F := F)).lev_of_Otc_pos h
    rw [SparseCore.Cfg.lev_none] at this; omega

set_option maxHeartbeats 2000000 in
set_option backward.isDefEq.respectTransparency.types false in
/-- The region over the thread state "what the TensorCore owes, the seven arrays whole": the arrays go in as the
    pipeline's, come back with the result at the whole function of the operands; the debts ride through at the same
    tallies, the pipeline's own waits recorded at the kernels' index, level zero. -/
def reg2 : Pipeline.RegionSeg (pcfgs (F := F)) adm (pdats2 A1 X1 Xf Hf W0 W1 Yv) (none : HIx 2) defs₀ 𝒱₀ (K (F := F)).L lv 1 where
  win := launch2.win.to₀
  block_pos := launch2.block_pos
  stage_whole := launch2.stage_whole
  K := PEmpty
  osem k := k.elim
  ho := Pipeline.OwnSemFacts.none _
  hbody c := (body_obligation2 c A1 X1 Xf Hf W0 W1 Yv).loose
  hwaits c := Pipeline.cellsWaits_intro (Pipeline.pin (pcfgs (F := F)) adm) (pdats2 A1 X1 Xf Hf W0 W1 Yv) (none : HIx 2) 1 c
    fun w s t => (K (F := F)).mayWait_none _ (Otc_none2 c 1) lv hlv
  pre c := iprop(owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} Yv))
  post c := iprop(owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} yst2V A1 X1 Xf Hf W0 W1))
  X c := iprop(emp)
  Y c := iprop(emp)
  Z c := iprop(emp)
  hentry c := by
    show iprop((owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} Yv)) ∗ Pipeline.ownSems0 (fun k : PEmpty => k.elim) c ∗ levAts (K (F := F)).L lv)
      ⊢ |={Set.univ}=> iprop((dat2 c A1 X1 Xf Hf W0 W1 Yv).arrays (fun w => (dat2 c A1 X1 Xf Hf W0 W1 Yv).arrAt w 0)
          ∗ Pipeline.prefHeld (pcfgs (F := F) 1).pre c (fun _ => fullShare) (adm (F := F) 1).1
          ∗ (dat2 c A1 X1 Xf Hf W0 W1 Yv).owesAt (none : HIx 2) 0 ∗ emp ∗ emp)
    rw [arrays2_entry]
    iintro ⟨⟨HO, H0, H1, H2, H3, H4, H5, H6⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl <;> iempintro
  hin c := by
    show iprop(emp ∗ Pipeline.prefHeld (pcfgs (F := F) 1).pre c (fun _ => fullShare) (adm (F := F) 1).1 ∗ Pipeline.scopedRest spec2 c)
      ⊢ (Pipeline.scopedRest spec2 c : sProp 𝕄)
    iintro ⟨-, -, Hr⟩; iexact Hr
  hout c := by
    show (Pipeline.scopedRest spec2 c : sProp 𝕄) ⊢ iprop(emp ∗ Pipeline.ownSems0 (fun k : PEmpty => k.elim) c ∗ Pipeline.scopedRest spec2 c)
    rw [Pipeline.ownSems0_none]
    iintro Hr
    isplitr; · iempintro
    isplitr; · iempintro
    iexact Hr
  hexit c := by
    show iprop((dat2 c A1 X1 Xf Hf W0 W1 Yv).arrays (fun w => (dat2 c A1 X1 Xf Hf W0 W1 Yv).arrAt w cfg2.N)
          ∗ (dat2 c A1 X1 Xf Hf W0 W1 Yv).owesAt (none : HIx 2) (Fin.last cfg2.N) ∗ emp ∗ emp)
      ⊢ |={Set.univ}=> iprop(owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} yst2V A1 X1 Xf Hf W0 W1))
    rw [arrays2_exit]
    iintro ⟨⟨H0, H1, H2, H3, H4, H5, H6⟩, HO, -, -⟩
    imodintro
    isplitl [HO]
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · show (K (F := F)).lev _ none ≤ 8 * 1
          rw [SparseCore.Cfg.lev_none]; omega
      iexact HO
    isplitl [H0]; · iexact H0
    isplitl [H1]; · iexact H1
    isplitl [H2]; · iexact H2
    isplitl [H3]; · iexact H3
    isplitl [H4]; · iexact H4
    isplitl [H5]; · iexact H5
    iexact H6

end Region

set_option maxHeartbeats 2000000 in
set_option backward.isDefEq.respectTransparency.types false in
/-- THE REGION: between the first and the second SparseCore call the TensorCore, holding the seven arrays whole and the
    second pipeline's share of the launch, runs the call to the same state with the result array at the whole function
    of the six operands. -/
theorem region2 {lv : GSem nD τ sig → HIx 2 → ℕ} (hlv : (K (F := F)).Refines lv)
    (P : (K (F := F)).Pay (nD := nD) (Val := Elt F) (Name := ℕ) (U := UU)) (κ : GSem nD τ sig → ℕ) (d : Dev nD)
    (A1 : Buf (Elt F) ((T d : Thread nD τ).loc main_v38)) (X1 : Buf (Elt F) ((T d : Thread nD τ).loc main_v36))
    (Xf : Buf (Elt F) ((T d : Thread nD τ).loc main_v1)) (Hf : Buf (Elt F) ((T d : Thread nD τ).loc main_v33))
    (W0 : Buf (Elt F) ((T d : Thread nD τ).loc main_v15)) (W1 : Buf (Elt F) ((T d : Thread nD τ).loc main_v19)) :
    iprop((K (F := F)).ctx EH P κ lv ∗ (K (F := F)).tcSt EH d 1 ∗ boundary (T d : Thread nD τ) ∗ pipeGhost 1 d
        ∗ (((T d : Thread nD τ).loc main_v38) ↦{fullShare} A1)
        ∗ (((T d : Thread nD τ).loc main_v36) ↦{fullShare} X1)
        ∗ (((T d : Thread nD τ).loc main_v1) ↦{fullShare} Xf)
        ∗ (((T d : Thread nD τ).loc main_v33) ↦{fullShare} Hf)
        ∗ (((T d : Thread nD τ).loc main_v15) ↦{fullShare} W0)
        ∗ (((T d : Thread nD τ).loc main_v19) ↦{fullShare} W1)
        ∗ (∃ f : Buf (Elt F) ((T d : Thread nD τ).loc main_v39), ((T d : Thread nD τ).loc main_v39) ↦{fullShare} f))
      ⊢ wp frame (wpE ((K (F := F)).defs (D (F := F))) 𝒱 (T d) none) Set.univ
          (Prog.lift (.customCall (SparseCore.inner (Pipeline.entry 1)) ()))
          (fun _ => iprop((K (F := F)).tcSt EH d 1 ∗ boundary (T d : Thread nD τ)
        ∗ (((T d : Thread nD τ).loc main_v38) ↦{fullShare} A1)
        ∗ (((T d : Thread nD τ).loc main_v36) ↦{fullShare} X1)
        ∗ (((T d : Thread nD τ).loc main_v1) ↦{fullShare} Xf)
        ∗ (((T d : Thread nD τ).loc main_v33) ↦{fullShare} Hf)
        ∗ (((T d : Thread nD τ).loc main_v15) ↦{fullShare} W0)
        ∗ (((T d : Thread nD τ).loc main_v19) ↦{fullShare} W1)
        ∗ (((T d : Thread nD τ).loc main_v39) ↦{fullShare} yst d A1 X1 Xf Hf W0 W1))) := by
  unfold SparseCore.Cfg.tcSt
  iintro ⟨#Hctx, ⟨HO, Hrest⟩, Hbd, ⟨Hg, Ht⟩, H0, H1, H2, H3, H4, H5, ⟨%Y₀, H6⟩⟩
  ihave #Hla := (SparseCore.Cfg.ctx_levAts κ) $$ Hctx
  iapply ((K (F := F)).wp_liftProg (D (F := F)) 𝒱 (T d) Set.univ none
    (Prog.lift (.customCall (Pipeline.entry 1) ()) : Prog (TpuEff nD τ sig (Elt F) (ΛP (F := F)) .tc) PUnit) _)
  iapply (Pipeline.RegionSeg.wp (pcfgs (F := F)) adm (pdats2 A1 X1 Xf Hf W0 W1 Y₀) (none : HIx 2) cellOf_inj EP defs₀ 𝒱₀ (K (F := F)).L lv
    (reg2 hlv A1 X1 Xf Hf W0 W1 Y₀) d none (fun u hu => nomatch hu) (fun x => .ret x) _)
  dsimp only [reg2]
  isplitl [Hrest]
  · iintro ⟨Hbd, HO, H0, H1, H2, H3, H4, H5, H6⟩
    rw [wp_ret]; imodintro
    isplitl [HO Hrest]
    · isplitl [HO]; · iexact HO
      iexact Hrest
    isplitl [Hbd]; · iexact Hbd
    isplitl [H0]; · iexact H0
    isplitl [H1]; · iexact H1
    isplitl [H2]; · iexact H2
    isplitl [H3]; · iexact H3
    isplitl [H4]; · iexact H4
    isplitl [H5]; · iexact H5
    iexact H6
  isplitl [Hbd]; · iexact Hbd
  isplitl [HO H0 H1 H2 H3 H4 H5 H6]
  · isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  isplitr; · iexact Hla
  isplitl [Hg]; · iexact Hg
  iexact Ht

end Cert.Proof.KI

end
-- ==== Proof.TcRegion3.lean ====
/-
  The third TensorCore call of the program over a grid of 16 points: at point i, from column blocks i of the edge
  aggregate, of the staged result and of the degree histogram, with the bias row, rows block i of the final result.
  As a region of @main entered on the TensorCore thread after the second SparseCore call: the body's run at a symbolic
  grid point, the pipeline's proof data, the whole result as a function of the four operands, and the region's
  entailment.
-/
import proofs.«205814_g58841051955373_cont_9to1_m_133_55_alg».proof.Proof.Setup
import proofs.«205814_g58841051955373_cont_9to1_m_133_55_alg».proof.Proof.PipeGhost
import proofs.«205814_g58841051955373_cont_9to1_m_133_55_alg».proof.Proof.Gen.KernelIdeal.Points
import Idealize.ShloMosaic.Lib.Pipeline.Regions
import Idealize.ShloMosaic.Lib.Pipeline.Value
import Idealize.ShloMosaic.Lib.Pipeline.FrameBody
import Idealize.ShloMosaic.Lib.Ring
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body at a symbolic grid point -/

abbrev r4_q : Rect S256x256 := Rect.unit (s := S256x256) ![0, 0] S256x256.size inb_S256x256_S256x256_0_0
abbrev r4_h : Rect S32x256 := Rect.unit (s := S32x256) ![0, 0] S32x256.size inb_S32x256_S32x256_0_0
abbrev r4_b : Rect S1x256 := Rect.unit (s := S1x256) ![0, 0] S1x256.size inb_S1x256_S1x256_0_0

/-- What the body leaves in the output block from the four staged blocks: its one store, of the payload of the blocks
    as loaded (the aggregate, the staged result, the histogram, the bias row). -/
def out4 (s y : Vec F S256x256 .f32) (h : Vec F S32x256 .f32) (b : Vec F S1x256 .f32) : Vec F S256x256 .f32 :=
  View.canon [⟨r4_q, k4_pay1 (View.ld s r4_q) (View.ld y r4_q) (View.ld h r4_h) (View.ld b r4_b)⟩]

/-- Every load reads its whole block and the store writes the whole output block: what is left is the payload itself. -/
theorem out4_eq (s y : Vec F S256x256 .f32) (h : Vec F S32x256 .f32) (b : Vec F S1x256 .f32) : out4 s y h b = k4_pay1 s y h b := by
  unfold out4
  have h2 : (![0, 0] : Fin 2 → ℕ) = fun _ => 0 := by funext a; fin_cases a <;> rfl
  rw [View.canon_unit_zero h2, View.ld_unit_zero h2 _ s, View.ld_unit_zero h2 _ y, View.ld_unit_zero h2 _ h, View.ld_unit_zero h2 _ b]

/-- The one store tiles the output block. -/
theorem cover4 (p0 : Vec F S256x256 .f32) (y : S256x256.Idx) :
    ∃ pc ∈ ([⟨r4_q, p0⟩] : List (View.Piece (Elt F) S256x256 .f32)), y ∈ pc.1.set :=
  View.cover_of_tiled [⟨r4_q, p0⟩] S256x256.size (by rfl) y

set_option maxHeartbeats 1000000 in
/-- The body on whole staging memrefs: the four input blocks stay, the output block ends at `out4` of them. -/
theorem sound_kernel4 (c : Dev nD) (E : Set ℕ) (i : grid4.Coords)
    (arg1 : Memref sig .tc .vmem S256x256 .f32) (harg1 : arg1.IsWhole) (arg2 : Memref sig .tc .vmem S256x256 .f32) (harg2 : arg2.IsWhole)
    (arg3 : Memref sig .tc .vmem S32x256 .f32) (harg3 : arg3.IsWhole) (arg4 : Memref sig .tc .vmem S1x256 .f32) (harg4 : arg4.IsWhole)
    (arg5 : Memref sig .tc .vmem S256x256 .f32) (harg5 : arg5.IsWhole)
    (s y : Vec F S256x256 .f32) (h : Vec F S32x256 .f32) (b : Vec F S1x256 .f32) (Kp : PUnit → sProp 𝕄) :
    iprop(owns (c : Thread nD τ) arg1 fullShare s ∗ owns (c : Thread nD τ) arg2 fullShare y ∗ owns (c : Thread nD τ) arg3 fullShare h
        ∗ owns (c : Thread nD τ) arg4 fullShare b ∗ (∃ z, owns (c : Thread nD τ) arg5 fullShare z)
        ∗ (iprop(owns (c : Thread nD τ) arg1 fullShare s ∗ owns (c : Thread nD τ) arg2 fullShare y ∗ owns (c : Thread nD τ) arg3 fullShare h
            ∗ owns (c : Thread nD τ) arg4 fullShare b ∗ owns (c : Thread nD τ) arg5 fullShare (out4 s y h b)) -∗ Kp ⟨⟩))
      ⊢ wp frame (wpE (defs₀ (F := F)) Variants.none c none) E
          (cc4__combine_body i arg1 harg1 arg2 harg2 arg3 harg3 arg4 harg4 arg5 harg5) Kp := by
  simp only [cc4__combine_body_eq_skeleton]; unfold cc4__combine_body_skel
  unfold owns
  iintro ⟨⟨%f1, %hf1, H1⟩, ⟨%f2, %hf2, H2⟩, ⟨%f3, %hf3, H3⟩, ⟨%f4, %hf4, H4⟩, ⟨%z, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-! ## The proof data of the pipeline -/

section Data

variable (c : Dev nD) (ST : Vec F S256x4096 .f32) (Yf : Vec F S256x4096 .f32) (Hf : Vec F S32x4096 .f32) (Bf : Vec F S1x256 .f32) (Y₀ : Vec F S4096x256 .f32)

/-- The five arrays as the region finds them: the four operands whole, the result at anything. -/
def arr4 : (w : Fin cfg4.W) → Buf (Elt F) ((cfg4.win w).arr.view.loc (c.tc : Thread nD τ))
  | ⟨0, _⟩ => ST
  | ⟨1, _⟩ => Yf
  | ⟨2, _⟩ => Hf
  | ⟨3, _⟩ => Bf
  | ⟨4, _⟩ => Y₀

/-- Window `w`'s block at point `t`, read off its array. -/
def iblk4 (w : Fin cfg4.W) (t : Fin cfg4.N) : ((cfg4.win w).xblock (cfg4.grid.coords t)).Idx → Elt F (cfg4.win w).elt :=
  ((cfg4.win w).blk t).view.read (Elt F) (arr4 c ST Yf Hf Bf Y₀ w)

/-- The proof data on core `c`: the inputs' staging buffers keep their blocks, the output's holds the body's payload of
    them; the invariant is the scoped buffers no window stages; the core owes, throughout, what the TensorCore owes
    after the second SparseCore call, and its recorded pairs stay at or below that call's band. -/
def dat4 : Dat τ (Elt F) (HIx 2) ℕ UU ℕ cfg4 c where
  A := arr4 c ST Yf Hf Bf Y₀
  after w t := match w with
    | ⟨0, _⟩ => iblk4 c ST Yf Hf Bf Y₀ 0 t
    | ⟨1, _⟩ => iblk4 c ST Yf Hf Bf Y₀ 1 t
    | ⟨2, _⟩ => iblk4 c ST Yf Hf Bf Y₀ 2 t
    | ⟨3, _⟩ => iblk4 c ST Yf Hf Bf Y₀ 3 t
    | ⟨4, _⟩ => out4 (iblk4 c ST Yf Hf Bf Y₀ 0 t) (iblk4 c ST Yf Hf Bf Y₀ 1 t) (iblk4 c ST Yf Hf Bf Y₀ 2 t) (iblk4 c ST Yf Hf Bf Y₀ 3 t)
  Φ _ := Pipeline.scopedRest spec4 c
  q _ := fullShare
  owed _ := (K (F := F)).Otc c 2
  recorded _ := {p | (K (F := F)).lev ((c.tc : Thread nD τ), p.1) p.2 ≤ 16}

theorem A_eq4 (w : Fin cfg4.W) : (dat4 c ST Yf Hf Bf Y₀).A w = arr4 c ST Yf Hf Bf Y₀ w := by dsimp only [dat4]
theorem after4_0 (t : Fin cfg4.N) : (dat4 c ST Yf Hf Bf Y₀).after 0 t = iblk4 c ST Yf Hf Bf Y₀ 0 t := by dsimp only [dat4]
theorem after4_1 (t : Fin cfg4.N) : (dat4 c ST Yf Hf Bf Y₀).after 1 t = iblk4 c ST Yf Hf Bf Y₀ 1 t := by dsimp only [dat4]
theorem after4_2 (t : Fin cfg4.N) : (dat4 c ST Yf Hf Bf Y₀).after 2 t = iblk4 c ST Yf Hf Bf Y₀ 2 t := by dsimp only [dat4]
theorem after4_3 (t : Fin cfg4.N) : (dat4 c ST Yf Hf Bf Y₀).after 3 t = iblk4 c ST Yf Hf Bf Y₀ 3 t := by dsimp only [dat4]
theorem after4_4 (t : Fin cfg4.N) : (dat4 c ST Yf Hf Bf Y₀).after 4 t = out4 (iblk4 c ST Yf Hf Bf Y₀ 0 t) (iblk4 c ST Yf Hf Bf Y₀ 1 t) (iblk4 c ST Yf Hf Bf Y₀ 2 t) (iblk4 c ST Yf Hf Bf Y₀ 3 t) := by dsimp only [dat4]

/-- Each input's current staging buffer holds its block at every point, fetched there or not. -/
theorem before4_0 (t : Fin cfg4.N) (d) : (dat4 c ST Yf Hf Bf Y₀).before 0 t d = iblk4 c ST Yf Hf Bf Y₀ 0 t :=
  ((dat4 c ST Yf Hf Bf Y₀).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (t : Fin cfg4.N) (d) : (dat4 c ST Yf Hf Bf Y₀).before 1 t d = iblk4 c ST Yf Hf Bf Y₀ 1 t :=
  ((dat4 c ST Yf Hf Bf Y₀).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (t : Fin cfg4.N) (d) : (dat4 c ST Yf Hf Bf Y₀).before 2 t d = iblk4 c ST Yf Hf Bf Y₀ 2 t :=
  ((dat4 c ST Yf Hf Bf Y₀).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (t : Fin cfg4.N) (d) : (dat4 c ST Yf Hf Bf Y₀).before 3 t d = iblk4 c ST Yf Hf Bf Y₀ 3 t :=
  ((dat4 c ST Yf Hf Bf Y₀).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)

/-- What the body is called with at point `t`, -/
def bodyPre4 (t : Fin cfg4.N) : sProp 𝕄 :=
  iprop((dat4 c ST Yf Hf Bf Y₀).Φ t.castSucc ∗ (dat4 c ST Yf Hf Bf Y₀).owesAt (none : HIx 2) t.castSucc
    ∗ (∃ d, owns (c : Thread nD τ) (st4_0 t) fullShare ((dat4 c ST Yf Hf Bf Y₀).before 0 t d))
    ∗ (∃ d, owns (c : Thread nD τ) (st4_1 t) fullShare ((dat4 c ST Yf Hf Bf Y₀).before 1 t d))
    ∗ (∃ d, owns (c : Thread nD τ) (st4_2 t) fullShare ((dat4 c ST Yf Hf Bf Y₀).before 2 t d))
    ∗ (∃ d, owns (c : Thread nD τ) (st4_3 t) fullShare ((dat4 c ST Yf Hf Bf Y₀).before 3 t d))
    ∗ (∃ d, owns (c : Thread nD τ) (st4_4 t) fullShare ((dat4 c ST Yf Hf Bf Y₀).before 4 t d)))

/-- and what it returns. -/
def bodyPost4 (t : Fin cfg4.N) : sProp 𝕄 :=
  iprop((dat4 c ST Yf Hf Bf Y₀).Φ t.succ ∗ (dat4 c ST Yf Hf Bf Y₀).owesAt (none : HIx 2) t.succ
    ∗ owns (c : Thread nD τ) (st4_0 t) fullShare ((dat4 c ST Yf Hf Bf Y₀).after 0 t)
    ∗ owns (c : Thread nD τ) (st4_1 t) fullShare ((dat4 c ST Yf Hf Bf Y₀).after 1 t)
    ∗ owns (c : Thread nD τ) (st4_2 t) fullShare ((dat4 c ST Yf Hf Bf Y₀).after 2 t)
    ∗ owns (c : Thread nD τ) (st4_3 t) fullShare ((dat4 c ST Yf Hf Bf Y₀).after 3 t)
    ∗ owns (c : Thread nD τ) (st4_4 t) fullShare ((dat4 c ST Yf Hf Bf Y₀).after 4 t))

/-- The body at any point: the inputs' memrefs hold their blocks; the invariant and the core's debts pass through unread. -/
theorem sound_body4 (t : Fin cfg4.N) :
    bodyPre4 c ST Yf Hf Bf Y₀ t ⊢ wp frame (wpE (defs₀ (F := F)) Variants.none c none) Set.univ (bodyAt4 t) (fun _ => bodyPost4 c ST Yf Hf Bf Y₀ t) := by
  unfold bodyPre4 bodyPost4 bodyAt4
  simp only [before4_0, before4_1, before4_2, before4_3]
  rw [show (dat4 c ST Yf Hf Bf Y₀).Φ t.succ = (dat4 c ST Yf Hf Bf Y₀).Φ t.castSucc from rfl,
    show (dat4 c ST Yf Hf Bf Y₀).owesAt (none : HIx 2) t.succ = (dat4 c ST Yf Hf Bf Y₀).owesAt (none : HIx 2) t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 c ST Yf Hf Bf Y₀ 0 t) (iblk4 c ST Yf Hf Bf Y₀ 1 t) (iblk4 c ST Yf Hf Bf Y₀ 2 t) (iblk4 c ST Yf Hf Bf Y₀ 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 : BodyObligation (dat4 c ST Yf Hf Bf Y₀) (defs₀ (F := F)) Variants.none (none : HIx 2) Set.univ := fun t => by
  rw [bigSep_W4, bigSep_W4]
  exact sound_body4 c ST Yf Hf Bf Y₀ t

end Data

/-! ## The result, block by block -/

/-- The block indices at point `t`: the bias row whole, rows block `t` of the result. -/
theorem index4_3 : ∀ t : Fin grid4.N, cc4_transform_3 (grid4.coords t) = ![0, 0] := by decide +kernel
theorem index4_4 : ∀ t : Fin grid4.N, cc4_transform_4 (grid4.coords t) = ![t.val, 0] := by decide +kernel

theorem idx4_0 (t : Fin cfg4.N) : (cfg4.win 4).index t 0 = t.val := by
  show cc4_transform_4 (grid4.coords t) 0 = t.val; rw [index4_4 t]; rfl
theorem idx4_1 (t : Fin cfg4.N) : (cfg4.win 4).index t 1 = 0 := by
  show cc4_transform_4 (grid4.coords t) 1 = 0; rw [index4_4 t]; rfl
theorem idxw3 (t : Fin cfg4.N) (a : Fin 2) : (cfg4.win 3).index t a = 0 := by
  show cc4_transform_3 (grid4.coords t) a = 0; rw [index4_3 t]; fin_cases a <;> rfl

/-- The row block of an index of the result, and its place in that block. -/
def tOf4 (i : S4096x256.Idx) : Fin cfg4.N :=
  ⟨(i 0).val / 256, by
    have h : (i 0).val < 4096 := (i 0).isLt
    show (i 0).val / 256 < grid4.N
    rw [N_4]; omega⟩
def jOf4 (i : S4096x256.Idx) : S256x256.Idx
  | ⟨0, _⟩ => ⟨(i 0).val % 256, Nat.mod_lt _ (by decide)⟩
  | ⟨1, _⟩ => ⟨(i 1).val, (i 1).isLt⟩

/-- Where an element of the result's block `t` sits in the array: row `256 t +` its own, same column. -/
theorem emb4_val0 (t : Fin cfg4.N) (y : ((cfg4.win 4).xblock (cfg4.grid.coords t)).Idx) :
    ((((cfg4.win 4).blk t).view.emb y) 0 : ℕ) = t.val * 256 + (y 0 : ℕ) := by
  rw [show ((cfg4.win 4).blk t).view.emb y = ((cfg4.win 4).rect t).emb y from rfl]
  have h := (cfg4.win 4).rect_emb_val t y 0
  rw [idx4_0 t] at h
  exact h
theorem emb4_val1 (t : Fin cfg4.N) (y : ((cfg4.win 4).xblock (cfg4.grid.coords t)).Idx) :
    ((((cfg4.win 4).blk t).view.emb y) 1 : ℕ) = (y 1 : ℕ) := by
  rw [show ((cfg4.win 4).blk t).view.emb y = ((cfg4.win 4).rect t).emb y from rfl]
  exact (cfg4.win 4).rect_emb_val_of_index_zero t 1 (idx4_1 t) y

theorem tOf4_emb (t : Fin cfg4.N) (y : ((cfg4.win 4).xblock (cfg4.grid.coords t)).Idx) :
    tOf4 (((cfg4.win 4).blk t).view.emb y) = t := by
  apply Fin.ext
  show ((((cfg4.win 4).blk t).view.emb y) 0 : ℕ) / 256 = t.val
  rw [emb4_val0]
  have : (y 0 : ℕ) < 256 := (y 0).isLt
  omega
theorem jOf4_emb (t : Fin cfg4.N) (y : ((cfg4.win 4).xblock (cfg4.grid.coords t)).Idx) :
    jOf4 (((cfg4.win 4).blk t).view.emb y) = y := by
  funext a
  match a with
  | ⟨0, _⟩ =>
    apply Fin.ext; show ((((cfg4.win 4).blk t).view.emb y) 0 : ℕ) % 256 = (y 0 : ℕ); rw [emb4_val0]
    have : (y 0 : ℕ) < 256 := (y 0).isLt
    omega
  | ⟨1, _⟩ => apply Fin.ext; show ((((cfg4.win 4).blk t).view.emb y) 1 : ℕ) = (y 1 : ℕ); rw [emb4_val1]

/-- Column blocks `t` of the aggregate, of the staged result and of the histogram. -/
def colBlkS (ST : Vec F S256x4096 .f32) (t : Fin cfg4.N) : Vec F S256x256 .f32 := ((cfg4.win 0).blk t).view.read (Elt F) ST
def colBlkY (Yf : Vec F S256x4096 .f32) (t : Fin cfg4.N) : Vec F S256x256 .f32 := ((cfg4.win 1).blk t).view.read (Elt F) Yf
def colBlkH4 (Hf : Vec F S32x4096 .f32) (t : Fin cfg4.N) : Vec F S32x256 .f32 := ((cfg4.win 2).blk t).view.read (Elt F) Hf

/-- The whole result as a function of the four operands: under rows block `t`, the body's payload at point `t`. -/
def out4V (ST Yf : Vec F S256x4096 .f32) (Hf : Vec F S32x4096 .f32) (Bf : Vec F S1x256 .f32) : Vec F S4096x256 .f32 :=
  fun i => out4 (colBlkS ST (tOf4 i)) (colBlkY Yf (tOf4 i)) (colBlkH4 Hf (tOf4 i)) Bf (jOf4 i)

/-- The same at the result array's location on device `d`. -/
def out (d : Dev nD) (ST : Buf (Elt F) ((T d : Thread nD τ).loc main_v40)) (Yf : Buf (Elt F) ((T d : Thread nD τ).loc main_v39))
    (Hf : Buf (Elt F) ((T d : Thread nD τ).loc main_v33)) (Bf : Buf (Elt F) ((T d : Thread nD τ).loc main_v30)) :
    Buf (Elt F) ((T d : Thread nD τ).loc main_v41) := out4V ST Yf Hf Bf

/-! ## What the arrays hold at the region's two ends -/

section Value

variable (c : Dev nD) (ST : Vec F S256x4096 .f32) (Yf : Vec F S256x4096 .f32) (Hf : Vec F S32x4096 .f32) (Bf : Vec F S1x256 .f32) (Y₀ : Vec F S4096x256 .f32)

/-- The window over the whole bias row reads it, at every point. -/
theorem iblk4_3 (t : Fin cfg4.N) : iblk4 c ST Yf Hf Bf Y₀ 3 t = Bf := by
  funext x
  unfold iblk4
  rw [View.read_apply]
  show Bf (((cfg4.win 3).blk t).view.emb x) = Bf x
  congr 1
  funext a; apply Fin.ext
  rw [show ((cfg4.win 3).blk t).view.emb x = ((cfg4.win 3).rect t).emb x from rfl]
  exact (cfg4.win 3).rect_emb_val_of_index_zero t a (idxw3 t a) x
theorem iblk4_0 (t : Fin cfg4.N) : iblk4 c ST Yf Hf Bf Y₀ 0 t = colBlkS ST t := rfl
theorem iblk4_1 (t : Fin cfg4.N) : iblk4 c ST Yf Hf Bf Y₀ 1 t = colBlkY Yf t := rfl
theorem iblk4_2 (t : Fin cfg4.N) : iblk4 c ST Yf Hf Bf Y₀ 2 t = colBlkH4 Hf t := rfl

/-- What point `t` writes back is block `t` of the whole result. -/
theorem hG4 (t : Fin cfg4.N) (hf : (cfg4.win 4).flush t = true) :
    (dat4 c ST Yf Hf Bf Y₀).flushed 4 t = ((cfg4.win 4).blk t).view.read (Elt F) (out4V ST Yf Hf Bf) := by
  funext y
  rw [View.read_apply]
  show (dat4 c ST Yf Hf Bf Y₀).after 4 t y = out4V ST Yf Hf Bf (((cfg4.win 4).blk t).view.emb y)
  rw [after4_4, iblk4_0, iblk4_1, iblk4_2, iblk4_3]
  unfold out4V
  rw [tOf4_emb, jOf4_emb]

/-- The sixteen row blocks cover the result. -/
theorem hcover4 (i : S4096x256.Idx) : ∃ t : Fin cfg4.N, (cfg4.win 4).flush t = true ∧ i ∈ ((cfg4.win 4).blk t).view.set := by
  refine ⟨tOf4 i, flush4_4 _, ?_⟩
  have h : ((cfg4.win 4).blk (tOf4 i)).view.emb (jOf4 i) = i := by
    funext a
    match a with
    | ⟨0, _⟩ =>
      apply Fin.ext; show ((((cfg4.win 4).blk (tOf4 i)).view.emb (jOf4 i)) 0 : ℕ) = (i 0 : ℕ); rw [emb4_val0]
      show (i 0).val / 256 * 256 + (i 0).val % 256 = (i 0).val
      omega
    | ⟨1, _⟩ => apply Fin.ext; show ((((cfg4.win 4).blk (tOf4 i)).view.emb (jOf4 i)) 1 : ℕ) = (i 1 : ℕ); rw [emb4_val1]; rfl
  have hm := ((cfg4.win 4).blk (tOf4 i)).view.emb_mem_set (jOf4 i)
  rw [h] at hm
  exact hm

/-- The inputs are never written; the result ends at the whole function of them. -/
theorem arrAt4_0 (n : ℕ) : (dat4 c ST Yf Hf Bf Y₀).arrAt 0 n = ST := ((dat4 c ST Yf Hf Bf Y₀).arrAt_in 0 rfl n).trans (by rw [A_eq4]; rfl)
theorem arrAt4_1 (n : ℕ) : (dat4 c ST Yf Hf Bf Y₀).arrAt 1 n = Yf := ((dat4 c ST Yf Hf Bf Y₀).arrAt_in 1 rfl n).trans (by rw [A_eq4]; rfl)
theorem arrAt4_2 (n : ℕ) : (dat4 c ST Yf Hf Bf Y₀).arrAt 2 n = Hf := ((dat4 c ST Yf Hf Bf Y₀).arrAt_in 2 rfl n).trans (by rw [A_eq4]; rfl)
theorem arrAt4_3 (n : ℕ) : (dat4 c ST Yf Hf Bf Y₀).arrAt 3 n = Bf := ((dat4 c ST Yf Hf Bf Y₀).arrAt_in 3 rfl n).trans (by rw [A_eq4]; rfl)
theorem arrAt4_4_zero : (dat4 c ST Yf Hf Bf Y₀).arrAt 4 0 = Y₀ := by show (dat4 c ST Yf Hf Bf Y₀).A 4 = Y₀; rw [A_eq4]; rfl
theorem arrAt4_4 : (dat4 c ST Yf Hf Bf Y₀).arrAt 4 cfg4.N = out4V ST Yf Hf Bf :=
  (dat4 c ST Yf Hf Bf Y₀).arrAt_eq_of_cover 4 (out4V ST Yf Hf Bf) (hG4 c ST Yf Hf Bf Y₀) hcover4

/-- The pipeline's five arrays, held whole. -/
theorem arrays4_eq (G : (w : Fin cfg4.W) → Buf (Elt F) ((cfg4.win w).arr.view.loc (c.tc : Thread nD τ))) :
    (dat4 c ST Yf Hf Bf Y₀).arrays G
      = iprop((((c.tc : Thread nD τ).loc main_v40) ↦{fullShare} G 0)
          ∗ (((c.tc : Thread nD τ).loc main_v39) ↦{fullShare} G 1)
          ∗ (((c.tc : Thread nD τ).loc main_v33) ↦{fullShare} G 2)
          ∗ (((c.tc : Thread nD τ).loc main_v30) ↦{fullShare} G 3)
          ∗ (((c.tc : Thread nD τ).loc main_v41) ↦{fullShare} G 4)) := by
  rw [Pipeline.arrays_eq (P := Unit) (fun _ => cfg4) (fun _ c => dat4 c ST Yf Hf Bf Y₀) () c arr_whole4
    (fun w => (dat4 c ST Yf Hf Bf Y₀).share_full (fun _ => rfl) w) G, bigSep_W4]

set_option maxHeartbeats 1000000 in
/-- The arrays as the pipeline takes them at entry, -/
theorem arrays4_entry : (dat4 c ST Yf Hf Bf Y₀).arrays (fun w => (dat4 c ST Yf Hf Bf Y₀).arrAt w 0)
      = iprop((((c.tc : Thread nD τ).loc main_v40) ↦{fullShare} ST)
          ∗ (((c.tc : Thread nD τ).loc main_v39) ↦{fullShare} Yf)
          ∗ (((c.tc : Thread nD τ).loc main_v33) ↦{fullShare} Hf)
          ∗ (((c.tc : Thread nD τ).loc main_v30) ↦{fullShare} Bf)
          ∗ (((c.tc : Thread nD τ).loc main_v41) ↦{fullShare} Y₀)) := by
  rw [arrays4_eq]
  simp only [arrAt4_0, arrAt4_1, arrAt4_2, arrAt4_3, arrAt4_4_zero]

set_option maxHeartbeats 1000000 in
/-- and as it leaves them. -/
theorem arrays4_exit : (dat4 c ST Yf Hf Bf Y₀).arrays (fun w => (dat4 c ST Yf Hf Bf Y₀).arrAt w cfg4.N)
      = iprop((((c.tc : Thread nD τ).loc main_v40) ↦{fullShare} ST)
          ∗ (((c.tc : Thread nD τ).loc main_v39) ↦{fullShare} Yf)
          ∗ (((c.tc : Thread nD τ).loc main_v33) ↦{fullShare} Hf)
          ∗ (((c.tc : Thread nD τ).loc main_v30) ↦{fullShare} Bf)
          ∗ (((c.tc : Thread nD τ).loc main_v41) ↦{fullShare} out4V ST Yf Hf Bf)) := by
  rw [arrays4_eq]
  simp only [arrAt4_0, arrAt4_1, arrAt4_2, arrAt4_3, arrAt4_4]

end Value

/-! ## The region -/

section Region

variable {lv : GSem nD τ sig → HIx 2 → ℕ} (hlv : (K (F := F)).Refines lv)
variable (ST Yf : Vec F S256x4096 .f32) (Hf : Vec F S32x4096 .f32) (Bf : Vec F S1x256 .f32) (Yv : Vec F S4096x256 .f32)

/-- Proof data that says nothing, for the two pipelines this region does not enter. -/
def idleDat4 (c : Dev nD) (cfg : Pipeline.Cfg sig Λ₀) : Dat τ (Elt F) (HIx 2) ℕ UU ℕ cfg c where
  A _ := Classical.arbitrary _
  after _ _ := Classical.arbitrary _
  Φ _ := iprop(emp)
  q _ := fullShare
  owed _ := 0

/-- Every pipeline's proof data, this region's at the arrays it is entered with. -/
def pdats4 : (p : Fin 3) → (c : Dev nD) → Dat τ (Elt F) (HIx 2) ℕ UU ℕ (Pipeline.pin (pcfgs (F := F)) adm p) c
  | ⟨0, _⟩ => fun c => idleDat4 c _
  | ⟨1, _⟩ => fun c => idleDat4 c _
  | ⟨2, _⟩ => fun c => dat4 c ST Yf Hf Bf Yv

/-- What the TensorCore owes after the second SparseCore call, its recorded pairs within that call's band. -/
abbrev owesT4 (c : Dev nD) : sProp 𝕄 :=
  iprop(∃ W, ⌜(K (F := F)).WBelow (T c) W (8 * 2)⌝ ∗ owes (T c : Thread nD τ) ((K (F := F)).Otc c 2) W)

/-- The TensorCore's debts are all at a call's index: none at the kernels' own. -/
theorem Otc_none4 (c : Dev nD) (n : ℕ) (g : GSem nD τ sig) : (K (F := F)).Otc c n g none = 0 :=
  Nat.eq_zero_of_not_pos fun h => by
    have := (K (F := F)).lev_of_Otc_pos h
    rw [SparseCore.Cfg.lev_none] at this; omega

set_option maxHeartbeats 2000000 in
set_option backward.isDefEq.respectTransparency.types false in
/-- The region over the thread state "what the TensorCore owes, the five arrays whole": the arrays go in as the
    pipeline's, come back with the result at the whole function of the operands; the debts ride through at the same
    tallies, the pipeline's own waits recorded at the kernels' index, level zero. -/
def reg4 : Pipeline.RegionSeg (pcfgs (F := F)) adm (pdats4 ST Yf Hf Bf Yv) (none : HIx 2) defs₀ 𝒱₀ (K (F := F)).L lv 2 where
  win := launch4.win.to₀
  block_pos := launch4.block_pos
  stage_whole := launch4.stage_whole
  K := PEmpty
  osem k := k.elim
  ho := Pipeline.OwnSemFacts.none _
  hbody c := (body_obligation4 c ST Yf Hf Bf Yv).loose
  hwaits c := Pipeline.cellsWaits_intro (Pipeline.pin (pcfgs (F := F)) adm) (pdats4 ST Yf Hf Bf Yv) (none : HIx 2) 2 c
    fun w s t => (K (F := F)).mayWait_none _ (Otc_none4 c 2) lv hlv
  pre c := iprop(owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} Yv))
  post c := iprop(owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} out4V ST Yf Hf Bf))
  X c := iprop(emp)
  Y c := iprop(emp)
  Z c := iprop(emp)
  hentry c := by
    show iprop((owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} Yv)) ∗ Pipeline.ownSems0 (fun k : PEmpty => k.elim) c ∗ levAts (K (F := F)).L lv)
      ⊢ |={Set.univ}=> iprop((dat4 c ST Yf Hf Bf Yv).arrays (fun w => (dat4 c ST Yf Hf Bf Yv).arrAt w 0)
          ∗ Pipeline.prefHeld (pcfgs (F := F) 2).pre c (fun _ => fullShare) (adm (F := F) 2).1
          ∗ (dat4 c ST Yf Hf Bf Yv).owesAt (none : HIx 2) 0 ∗ emp ∗ emp)
    rw [arrays4_entry]
    iintro ⟨⟨HO, H0, H1, H2, H3, H4⟩, -, -⟩
    imodintro
    isplitl [H0 H1 H2 H3 H4]
    · isplitl [H0]; · iexact H0
      isplitl [H1]; · iexact H1
      isplitl [H2]; · iexact H2
      isplitl [H3]; · iexact H3
      iexact H4
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl <;> iempintro
  hin c := by
    show iprop(emp ∗ Pipeline.prefHeld (pcfgs (F := F) 2).pre c (fun _ => fullShare) (adm (F := F) 2).1 ∗ Pipeline.scopedRest spec4 c)
      ⊢ (Pipeline.scopedRest spec4 c : sProp 𝕄)
    iintro ⟨-, -, Hr⟩; iexact Hr
  hout c := by
    show (Pipeline.scopedRest spec4 c : sProp 𝕄) ⊢ iprop(emp ∗ Pipeline.ownSems0 (fun k : PEmpty => k.elim) c ∗ Pipeline.scopedRest spec4 c)
    rw [Pipeline.ownSems0_none]
    iintro Hr
    isplitr; · iempintro
    isplitr; · iempintro
    iexact Hr
  hexit c := by
    show iprop((dat4 c ST Yf Hf Bf Yv).arrays (fun w => (dat4 c ST Yf Hf Bf Yv).arrAt w cfg4.N)
          ∗ (dat4 c ST Yf Hf Bf Yv).owesAt (none : HIx 2) (Fin.last cfg4.N) ∗ emp ∗ emp)
      ⊢ |={Set.univ}=> iprop(owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} out4V ST Yf Hf Bf))
    rw [arrays4_exit]
    iintro ⟨⟨H0, H1, H2, H3, H4⟩, HO, -, -⟩
    imodintro
    isplitl [HO]
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · show (K (F := F)).lev _ none ≤ 8 * 2
          rw [SparseCore.Cfg.lev_none]; omega
      iexact HO
    isplitl [H0]; · iexact H0
    isplitl [H1]; · iexact H1
    isplitl [H2]; · iexact H2
    isplitl [H3]; · iexact H3
    iexact H4

end Region

set_option maxHeartbeats 2000000 in
set_option backward.isDefEq.respectTransparency.types false in
/-- THE REGION: after the second SparseCore call the TensorCore, holding the five arrays whole and the third pipeline's
    share of the launch, runs the call to the same state with the result array at the whole function of the four
    operands. -/
theorem region3 {lv : GSem nD τ sig → HIx 2 → ℕ} (hlv : (K (F := F)).Refines lv)
    (P : (K (F := F)).Pay (nD := nD) (Val := Elt F) (Name := ℕ) (U := UU)) (κ : GSem nD τ sig → ℕ) (d : Dev nD)
    (ST : Buf (Elt F) ((T d : Thread nD τ).loc main_v40)) (Yf : Buf (Elt F) ((T d : Thread nD τ).loc main_v39))
    (Hf : Buf (Elt F) ((T d : Thread nD τ).loc main_v33)) (Bf : Buf (Elt F) ((T d : Thread nD τ).loc main_v30)) :
    iprop((K (F := F)).ctx EH P κ lv ∗ (K (F := F)).tcSt EH d 2 ∗ boundary (T d : Thread nD τ) ∗ pipeGhost 2 d
        ∗ (((T d : Thread nD τ).loc main_v40) ↦{fullShare} ST)
        ∗ (((T d : Thread nD τ).loc main_v39) ↦{fullShare} Yf)
        ∗ (((T d : Thread nD τ).loc main_v33) ↦{fullShare} Hf)
        ∗ (((T d : Thread nD τ).loc main_v30) ↦{fullShare} Bf)
        ∗ (∃ f : Buf (Elt F) ((T d : Thread nD τ).loc main_v41), ((T d : Thread nD τ).loc main_v41) ↦{fullShare} f))
      ⊢ wp frame (wpE ((K (F := F)).defs (D (F := F))) 𝒱 (T d) none) Set.univ
          (Prog.lift (.customCall (SparseCore.inner (Pipeline.entry 2)) ()))
          (fun _ => iprop((K (F := F)).tcSt EH d 2 ∗ boundary (T d : Thread nD τ)
        ∗ (((T d : Thread nD τ).loc main_v40) ↦{fullShare} ST)
        ∗ (((T d : Thread nD τ).loc main_v39) ↦{fullShare} Yf)
        ∗ (((T d : Thread nD τ).loc main_v33) ↦{fullShare} Hf)
        ∗ (((T d : Thread nD τ).loc main_v30) ↦{fullShare} Bf)
        ∗ (((T d : Thread nD τ).loc main_v41) ↦{fullShare} out d ST Yf Hf Bf))) := by
  unfold SparseCore.Cfg.tcSt
  iintro ⟨#Hctx, ⟨HO, Hrest⟩, Hbd, ⟨Hg, Ht⟩, H0, H1, H2, H3, ⟨%Y₀, H4⟩⟩
  ihave #Hla := (SparseCore.Cfg.ctx_levAts κ) $$ Hctx
  iapply ((K (F := F)).wp_liftProg (D (F := F)) 𝒱 (T d) Set.univ none
    (Prog.lift (.customCall (Pipeline.entry 2) ()) : Prog (TpuEff nD τ sig (Elt F) (ΛP (F := F)) .tc) PUnit) _)
  iapply (Pipeline.RegionSeg.wp (pcfgs (F := F)) adm (pdats4 ST Yf Hf Bf Y₀) (none : HIx 2) cellOf_inj EP defs₀ 𝒱₀ (K (F := F)).L lv
    (reg4 hlv ST Yf Hf Bf Y₀) d none (fun u hu => nomatch hu) (fun x => .ret x) _)
  dsimp only [reg4]
  isplitl [Hrest]
  · iintro ⟨Hbd, HO, H0, H1, H2, H3, H4⟩
    rw [wp_ret]; imodintro
    isplitl [HO Hrest]
    · isplitl [HO]; · iexact HO
      iexact Hrest
    isplitl [Hbd]; · iexact Hbd
    isplitl [H0]; · iexact H0
    isplitl [H1]; · iexact H1
    isplitl [H2]; · iexact H2
    isplitl [H3]; · iexact H3
    iexact H4
  isplitl [Hbd]; · iexact Hbd
  isplitl [HO H0 H1 H2 H3 H4]
  · isplitl [HO]; · iexact HO
    isplitl [H0]; · iexact H0
    isplitl [H1]; · iexact H1
    isplitl [H2]; · iexact H2
    isplitl [H3]; · iexact H3
    iexact H4
  isplitr; · iexact Hla
  isplitl [Hg]; · iexact Hg
  iexact Ht

end Cert.Proof.KI

end
-- ==== Proof.Frames.lean ====
/-
  The program's run with everything instantiated: the five kernels' values (the histogram and the aggregate as whole
  arrays whose rows are the tiles' functions, the three TensorCore calls' results block by block), the five kernels'
  proofs, and the precondition's index ranges. The run names the result at the last valuation; dropping the value
  leaves the frame: the five arguments end as they were.
-/
import proofs.«205814_g58841051955373_cont_9to1_m_133_55_alg».proof.Proof.LaunchRun
import proofs.«205814_g58841051955373_cont_9to1_m_133_55_alg».proof.Proof.Ranges
import proofs.«205814_g58841051955373_cont_9to1_m_133_55_alg».proof.Proof.ScWhole
import proofs.«205814_g58841051955373_cont_9to1_m_133_55_alg».proof.Proof.ScWhole1
import proofs.«205814_g58841051955373_cont_9to1_m_133_55_alg».proof.Proof.TcRegion
import proofs.«205814_g58841051955373_cont_9to1_m_133_55_alg».proof.Proof.TcRegion2
import proofs.«205814_g58841051955373_cont_9to1_m_133_55_alg».proof.Proof.TcRegion3

noncomputable section

namespace Cert.Proof.KI

open Cert.KernelIdeal Cert.KernelIdeal.Gen
open Idealize.ShloMosaic Idealize.ShloMosaic.TcCoe Idealize.SL.Sem
open Idealize.ShloMosaic.SparseCore (S V T)

variable {F : FTy → Type} [FloatOps F]

/-- What each of the five kernels computes. -/
def Vl₀ : Vals F where
  hist := fun d dst z => histWhole d dst z
  x1t := fun d X A => x1t d X A
  yst := fun d A1 X1 X H W0 W1 => yst d A1 X1 X H W0 W1
  st := fun d src dst y z2 => stWhole d src dst y z2
  out := fun d ST Y H B => out d ST Y H B

set_option maxHeartbeats 2000000 in
theorem obl_r0 : Region0 (Vl₀ (F := F)) := by
  intro P κ d X A
  exact region1 (lv := (K (F := F)).lev) (K (F := F)).refines_self P κ d X A
set_option maxHeartbeats 2000000 in
theorem obl_r1 : Region1 (Vl₀ (F := F)) := by
  intro P κ d A1 X1 X H W0 W1
  exact region2 (lv := (K (F := F)).lev) (K (F := F)).refines_self P κ d A1 X1 X H W0 W1
set_option maxHeartbeats 2000000 in
theorem obl_r2 : Region2 (Vl₀ (F := F)) := by
  intro P κ d ST Y H B
  exact region3 (lv := (K (F := F)).lev) (K (F := F)).refines_self P κ d ST Y H B

variable (m : (ℓ : Loc nD τ sig) → Buf (Elt F) ℓ) (ρ : Dev nD → PrngReg)

set_option maxHeartbeats 2000000 in
/-- Under the precondition every weakly fair execution of the 35 threads terminates, faults nowhere, and ends with the
    result and the five arguments at the last valuation. -/
theorem kernel_run [∀ e, Nonempty (Elt F e)] (h : PreOK m) :
    θ_run (Cert.KernelIdeal.defs (F := F)) (Cert.KernelIdeal.threads (F := F)) ⟨m, fun _ => 0, ρ⟩ (QC (Vl₀ (F := F)) m) :=
  run_main (Vl₀ (F := F)) m ρ obl_r0 obl_r1 obl_r2
    (tileObl0_whole (CC (Vl₀ (F := F)) m) (fun d i => cc_dst_range (Vl₀ (F := F)) m h d i) (fun _ => rfl))
    (tileObl1_whole (CC (Vl₀ (F := F)) m) (fun d i => cc_src_range (Vl₀ (F := F)) m h d i) (fun d i => cc_dst1_range (Vl₀ (F := F)) m h d i) (fun _ => rfl))

/-- The same run names the result array: at the last valuation. -/
theorem kernel_value [∀ e, Nonempty (Elt F e)] (h : PreOK m) :
    θ_run (Cert.KernelIdeal.defs (F := F)) (Cert.KernelIdeal.threads (F := F)) ⟨m, fun _ => 0, ρ⟩ (fun r => ∀ c : Dev nD,
      r.2.mem ((c.tc : Thread nD τ).loc main_v42) = VF (Vl₀ (F := F)) m c v42'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ hq c => ⟨(hq c).1,
      (hq c).2.1.trans (VF_arg (Vl₀ (F := F)) m c (r := main_arg0) (by decide)),
      (hq c).2.2.1.trans (VF_arg (Vl₀ (F := F)) m c (r := main_arg1) (by decide)),
      (hq c).2.2.2.1.trans (VF_arg (Vl₀ (F := F)) m c (r := main_arg2) (by decide)),
      (hq c).2.2.2.2.1.trans (VF_arg (Vl₀ (F := F)) m c (r := main_arg3) (by decide)),
      (hq c).2.2.2.2.2.trans (VF_arg (Vl₀ (F := F)) m c (r := main_arg4) (by decide))⟩) (kernel_run m ρ h)

/-- The frame: the value dropped. -/
theorem kernel_frame [∀ e, Nonempty (Elt F e)] (h : PreOK m) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ hq c => (hq c).2) (kernel_value m ρ h)

end Cert.Proof.KI

end
-- ==== Proof.Bits.Setup.lean ====
/-
  The idealized program as the SparseCore launch theorem reads it: two vector-subcore calls (the degree histogram
  and the edge aggregation) on 2 SparseCores of 16 vector subcores each, three TensorCore pallas_calls between and
  after them, all on one device. Fixed here once: the launch configuration, the body table, the resource algebra
  (the handshakes' rounds beside the TensorCore pipelines' staging cells and the transfers' counters), and the
  names of the arrays every later module speaks of.
-/
import proofs.«205814_g58841051955373_cont_9to1_m_133_55_alg».proof.Kernel
import proofs.«205814_g58841051955373_cont_9to1_m_133_55_alg».proof.Proof.Gen.Kernel
import proofs.«205814_g58841051955373_cont_9to1_m_133_55_alg».proof.Proof.Gen.Kernel.Skeleton
import proofs.«205814_g58841051955373_cont_9to1_m_133_55_alg».proof.Proof.Gen.Kernel.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
theorem nSub_zero : (K (F := F)).nSub 0 = 16 := rfl
theorem nSub_one : (K (F := F)).nSub 1 = 16 := rfl
theorem nCore_zero : (K (F := F)).nCore 0 = 2 := rfl
theorem nCore_one : (K (F := F)).nCore 1 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds, the left factor; the counters of the kernels' own copies are found by instance in the right. -/
abbrev EH : Emb UH (MT nD τ sig (HIx 2) (Elt F) ℕ UU ℕ) := embL

/-! ## The arrays -/

/-- The edge sources and targets, the transposed features, the zero rows, and the five kernels' results, as locations of device `d`. -/
abbrev srcLoc (d : Dev nD) : Loc nD τ sig := (SparseCore.T d).loc main_v3
abbrev dstLoc (d : Dev nD) : Loc nD τ sig := (SparseCore.T d).loc main_v5
abbrev z1Loc (d : Dev nD) : Loc nD τ sig := (SparseCore.T d).loc main_v31
abbrev z2Loc (d : Dev nD) : Loc nD τ sig := (SparseCore.T d).loc main_v32
abbrev histLoc (d : Dev nD) : Loc nD τ sig := (SparseCore.T d).loc main_v33
abbrev ystLoc (d : Dev nD) : Loc nD τ sig := (SparseCore.T d).loc main_v39
abbrev stLoc (d : Dev nD) : Loc nD τ sig := (SparseCore.T d).loc main_v40

def coordsV0 (c : Fin (grid0.bound 0)) (s : Fin (grid0.bound 1)) : grid0.Coords :=
  fun | 0 => c | 1 => s | ⟨_ + 2, h⟩ => absurd h (Nat.not_lt.2 (Nat.le_add_left _ _))
def coordsV3 (c : Fin (grid3.bound 0)) (s : Fin (grid3.bound 1)) : grid3.Coords :=
  fun | 0 => c | 1 => s | ⟨_ + 2, h⟩ => absurd h (Nat.not_lt.2 (Nat.le_add_left _ _))

end Cert.Proof.KB

end
-- ==== Proof.Bits.HostOpsTable.lean ====
import proofs.«205814_g58841051955373_cont_9to1_m_133_55_alg».proof.Proof.Bits.Setup

noncomputable section

namespace Cert.Proof.KB

open Cert.Kernel Cert.Kernel.Gen
open Idealize.ShloMosaic Idealize.ShloMosaic.TcCoe Idealize.SL.Sem Idealize.ShloMosaic.StableHlo

variable {F : FTy → Type} [FloatOps F]

/-- Before the histogram call. -/
abbrev opsA : List (HloOp τ sig (Elt F)) :=
  [ reshape main_arg0 main_v0 rfl shapeCasts_S4096x2x128_S4096x256,
    unary main_v0 main_v1 ((transpose S256x4096 [1, 0] · transposes_S4096x256_S256x4096_1_0) : (⟨S4096x256, .f32⟩ : BufTy).Contents (Elt F) → (⟨S256x4096, .f32⟩ : BufTy).Contents (Elt F)),
    unary main_arg1 main_v2 ((extractStridedSlice S1x65536 ![0, 0] · slices_S2x65536_S1x65536_0_0) : (⟨S2x65536, .i32⟩ : BufTy).Contents (Elt F) → (⟨S1x65536, .i32⟩ : BufTy).Contents (Elt F)),
    reshape main_v2 main_v3 rfl shapeCasts_S1x65536_S65536,
    unary main_arg1 main_v4 ((extractStridedSlice S1x65536 ![1, 0] · slices_S2x65536_S1x65536_1_0) : (⟨S2x65536, .i32⟩ : BufTy).Contents (Elt F) → (⟨S1x65536, .i32⟩ : BufTy).Contents (Elt F)),
    reshape main_v4 main_v5 rfl shapeCasts_S1x65536_S65536,
    nullary main_v6 (iotaInDim S2x2 32 0),
    nullary main_v7 (iotaInDim S2x2 32 1),
    nullary main_c (constantI S_ 32 0#32),
    unary main_c main_v8 (broadcastInDim S2x2 ![] bcast_S_S2x2 : (⟨S_, .i32⟩ : BufTy).Contents (Elt F) → (⟨S2x2, .i32⟩ : BufTy).Contents (Elt F)),
    binary main_v6 main_v8 main_v9 (addi : (⟨S2x2, .i32⟩ : BufTy).Contents (Elt F) → (⟨S2x2, .i32⟩ : BufTy).Contents (Elt F) → (⟨S2x2, .i32⟩ : BufTy).Contents (Elt F)),
    binary main_v9 main_v7 main_v10 (cmpi .eq : (⟨S2x2, .i32⟩ : BufTy).Contents (Elt F) → (⟨S2x2, .i32⟩ : BufTy).Contents (Elt F) → (⟨S2x2, .i1⟩ : BufTy).Contents (Elt F)),
    unary main_v10 main_v11 (uitofp .f32 : (⟨S2x2, .i1⟩ : BufTy).Contents (Elt F) → (⟨S2x2, .f32⟩ : BufTy).Contents (Elt F)),
    unary main_arg3 main_v12 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v12 main_v13 rfl shapeCasts_S1x128x128_S128x128,
    unary main_v13 main_v14 ((transpose S128x128 [1, 0] · transposes_S128x128_S128x128_1_0) : (⟨S128x128, .f32⟩ : BufTy).Contents (Elt F) → (⟨S128x128, .f32⟩ : BufTy).Contents (Elt F)),
    TRef.unary (.of main_v11 : TRef sig ⟨S2x2, .f32⟩) main_call0.v0 (broadcastInDim S2x1x2x1 ![0, 2] bcast_S2x2_S2x1x2x1_0_2),
    TRef.unary (.of main_v14 : TRef sig ⟨S128x128, .f32⟩) main_call0.v1 (broadcastInDim S1x128x1x128 ![1, 3] bcast_S128x128_S1x128x1x128_1_3),
    TRef.unary main_call0.v0 main_call0.v2 (broadcastInDim S2x128x2x128 ![0, 1, 2, 3] bcast_S2x1x2x1_S2x128x2x128_0_1_2_3),
    TRef.unary main_call0.v1 main_call0.v3 (broadcastInDim S2x128x2x128 ![0, 1, 2, 3] bcast_S1x128x1x128_S2x128x2x128_0_1_2_3),
    TRef.binary main_call0.v2 main_call0.v3 main_call0.v4 mulf,
    TRef.reshape main_call0.v4 main_call0.v5 rfl shapeCasts_S2x128x2x128_S256x256,
    unary main_arg3 main_v16 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v16 main_v17 rfl shapeCasts_S1x128x128_S128x128,
    unary main_v17 main_v18 ((transpose S128x128 [1, 0] · transposes_S128x128_S128x128_1_0) : (⟨S128x128, .f32⟩ : BufTy).Contents (Elt F) → (⟨S128x128, .f32⟩ : BufTy).Contents (Elt F)),
    TRef.unary (.of main_v11 : TRef sig ⟨S2x2, .f32⟩) main_call1.v0 (broadcastInDim S2x1x2x1 ![0, 2] bcast_S2x2_S2x1x2x1_0_2),
    TRef.unary (.of main_v18 : TRef sig ⟨S128x128, .f32⟩) main_call1.v1 (broadcastInDim S1x128x1x128 ![1, 3] bcast_S128x128_S1x128x1x128_1_3),
    TRef.unary main_call1.v0 main_call1.v2 (broadcastInDim S2x128x2x128 ![0, 1, 2, 3] bcast_S2x1x2x1_S2x128x2x128_0_1_2_3),
    TRef.unary main_call1.v1 main_call1.v3 (broadcastInDim S2x128x2x128 ![0, 1, 2, 3] bcast_S1x128x1x128_S2x128x2x128_0_1_2_3),
    TRef.binary main_call1.v2 main_call1.v3 main_call1.v4 mulf,
    TRef.reshape main_call1.v4 main_call1.v5 rfl shapeCasts_S2x128x2x128_S256x256,
    unary main_arg4 main_v20 ((extractStridedSlice S1x128 ![0, 0] · slices_S3x128_S1x128_0_0) : (⟨S3x128, .f32⟩ : BufTy).Contents (Elt F) → (⟨S1x128, .f32⟩ : BufTy).Contents (Elt F)),
    reshape main_v20 main_v21 rfl shapeCasts_S1x128_S128,
    nullary main_cst (constant S_ .f32 0x40000000#32),
    unary main_cst main_v22 (broadcastInDim S128 ![] bcast_S_S128 : (⟨S_, .f32⟩ : BufTy).Contents (Elt F) → (⟨S128, .f32⟩ : BufTy).Contents (Elt F)),
    binary main_v22 main_v21 main_v23 (mulf : (⟨S128, .f32⟩ : BufTy).Contents (Elt F) → (⟨S128, .f32⟩ : BufTy).Contents (Elt F) → (⟨S128, .f32⟩ : BufTy).Contents (Elt F)),
    unary main_arg4 main_v24 ((extractStridedSlice S1x128 ![1, 0] · slices_S3x128_S1x128_1_0) : (⟨S3x128, .f32⟩ : BufTy).Contents (Elt F) → (⟨S1x128, .f32⟩ : BufTy).Contents (Elt F)),
    reshape main_v24 main_v25 rfl shapeCasts_S1x128_S128,
    binary main_v23 main_v25 main_v26 (addf : (⟨S128, .f32⟩ : BufTy).Contents (Elt F) → (⟨S128, .f32⟩ : BufTy).Contents (Elt F) → (⟨S128, .f32⟩ : BufTy).Contents (Elt F)),
    reshape main_v26 main_v27 rfl shapeCasts_S128_S1x128,
    unary main_v27 main_v28 (broadcastInDim S2x128 ![0, 1] bcast_S1x128_S2x128_0_1 : (⟨S1x128, .f32⟩ : BufTy).Contents (Elt F) → (⟨S2x128, .f32⟩ : BufTy).Contents (Elt F)),
    reshape main_v28 main_v29 rfl shapeCasts_S2x128_S256,
    reshape main_v29 main_v30 rfl shapeCasts_S256_S1x256,
    nullary main_cst_0 (constant S_ .f32 0x00000000#32),
    unary main_cst_0 main_v31 (broadcastInDim S4096 ![] bcast_S_S4096 : (⟨S_, .f32⟩ : BufTy).Contents (Elt F) → (⟨S4096, .f32⟩ : BufTy).Contents (Elt F)),
    nullary main_cst_1 (constant S_ .f32 0x00000000#32),
    unary main_cst_1 main_v32 (broadcastInDim S16x4096 ![] bcast_S_S16x4096 : (⟨S_, .f32⟩ : BufTy).Contents (Elt F) → (⟨S16x4096, .f32⟩ : BufTy).Contents (Elt F)) ]

/-- Before the first TensorCore call. -/
abbrev opsB : List (HloOp τ sig (Elt F)) :=
  [ unary main_arg2 main_v34 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v34 main_v35 rfl shapeCasts_S1x4096x4096_S4096x4096 ]

/-- Before the second TensorCore call. -/
abbrev opsC : List (HloOp τ sig (Elt F)) :=
  [ unary main_arg2 main_v37 ((extractStridedSlice S1x4096x4096 ![1, 0, 0] · slices_S2x4096x4096_S1x4096x4096_1_0_0) : (⟨S2x4096x4096, .f32⟩ : BufTy).Contents (Elt F) → (⟨S1x4096x4096, .f32⟩ : BufTy).Contents (Elt F)),
    reshape main_v37 main_v38 rfl shapeCasts_S1x4096x4096_S4096x4096 ]

/-- After the last TensorCore call. -/
abbrev opsD : List (HloOp τ sig (Elt F)) :=
  [ reshape main_v41 main_v42 rfl shapeCasts_S4096x256_S4096x2x128 ]

end Cert.Proof.KB

end
-- ==== Proof.Bits.HostOps.lean ====
/-
  @main is its four stretches of host operations with the five launches between them: the histogram call, the first
  two TensorCore calls (each after a slice of the cached operators), the aggregation call, the last TensorCore call,
  and the closing reshape.
-/
import proofs.«205814_g58841051955373_cont_9to1_m_133_55_alg».proof.Proof.Bits.HostOpsTable

noncomputable section

namespace Cert.Proof.KB

open Cert.Kernel Cert.Kernel.Gen
open Idealize.ShloMosaic Idealize.ShloMosaic.TcCoe Idealize.SL.Sem Idealize.ShloMosaic.StableHlo

variable {F : FTy → Type} [FloatOps F]

/-- A TensorCore pallas_call's line of @main. -/
abbrev entry (p : Fin 3) : Prog (TpuEff nD τ sig (Elt F) (SparseCore.Sig (ΛP (F := F)) 2) .tc) PUnit :=
  Prog.lift (.customCall (SparseCore.inner (Pipeline.entry p)) ())

theorem main_eq (d : Dev nD) : main (F := F) d =
    (seq opsA >>= fun _ => sc.run d 0 >>= fun _ => seq opsB >>= fun _ => entry 0 >>= fun _ => seq opsC >>= fun _ => entry 1 >>= fun _ =>
      sc.run d 1 >>= fun _ => entry 2 >>= fun _ => seq opsD) := rfl

end Cert.Proof.KB

end
-- ==== Proof.Bits.Pay.lean ====
/-
  What the two SparseCore calls hand each vector subcore and take back. Tile w = 16·core + subcore (32 tiles).
  Call 0 (degree histogram): tile w owns targets [2048·w, 2048·(w+1)) and row w of the 32 × 4096 histogram, and reads
  the zero vector through a read share. Call 1 (edge aggregation): tile w owns rows [8·w, 8·(w+1)) of the transposed
  features and of the result, and reads all sources, all targets and the zero block through read shares. A
  SparseCore's share is its sixteen tiles' shares, so the split of a core's operands among its tiles is the identity.
  The arrays' contents are parameters: the launch instantiates them with the values the program computes.
-/
import proofs.«205814_g58841051955373_cont_9to1_m_133_55_alg».proof.Proof.Bits.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 2) (Elt F) ℕ UU ℕ

/-! ## The tiles' parts of the arrays -/

theorem hdiv_dst : 32 ∣ S65536.size 0 := ⟨2048, rfl⟩
theorem hdiv_hist : 32 ∣ S32x4096.size 0 := ⟨1, rfl⟩
theorem hdiv_rows : 32 ∣ S256x4096.size 0 := ⟨8, rfl⟩

/-- Targets [2048·w, 2048·(w+1)). -/
abbrev dstPart (w : Fin 32) : Rect S65536 := Rect.part (s := S65536) (a₀ := 0) hdiv_dst w
abbrev dstSet (w : Fin 32) : Finset S65536.Idx := ((Memref.whole main_v5_scv : Memref sig .scVector .hbm S65536 .i32).view.slice (dstPart w)).set
/-- Row w of the histogram. -/
abbrev histPart (w : Fin 32) : Rect S32x4096 := Rect.part (s := S32x4096) (a₀ := 0) hdiv_hist w
abbrev histSet (w : Fin 32) : Finset S32x4096.Idx := ((Memref.whole main_v33_scv : Memref sig .scVector .hbm S32x4096 .f32).view.slice (histPart w)).set
/-- Rows [8·w, 8·(w+1)) of a 256 × 4096 array. -/
abbrev rowsPart (w : Fin 32) : Rect S256x4096 := Rect.part (s := S256x4096) (a₀ := 0) hdiv_rows w
abbrev rowsSet (w : Fin 32) : Finset S256x4096.Idx := ((Memref.whole main_v39_scv : Memref sig .scVector .hbm S256x4096 .f32).view.slice (rowsPart w)).set

/-- The tile number of subcore i of SparseCore c. -/
def wid (c : Fin 2) (i : Fin 16) : Fin 32 := ⟨16 * c.val + i.val, by omega⟩

/-! ## The contents the calls meet and leave -/

/-- The arrays' contents at the two calls: targets (as the first call meets them, and as the second does), sources, the two zero arrays, the transposed scaled features the
    second call reads, and what the calls leave in the histogram and in the aggregate. -/
structure Conts (F : FTy → Type) where
  dst : (d : Dev nD) → Buf (Elt F) (dstLoc d)
  dst1 : (d : Dev nD) → Buf (Elt F) (dstLoc d)
  src : (d : Dev nD) → Buf (Elt F) (srcLoc d)
  z1 : (d : Dev nD) → Buf (Elt F) (z1Loc d)
  z2 : (d : Dev nD) → Buf (Elt F) (z2Loc d)
  yst : (d : Dev nD) → Buf (Elt F) (ystLoc d)
  hist : (d : Dev nD) → Buf (Elt F) (histLoc d)
  st : (d : Dev nD) → Buf (Elt F) (stLoc d)

variable (C : Conts F)

/-- Tile w's share of a whole array that every tile reads. -/
abbrev rd (w : Fin 32) : PosShare TreeShare := shareTok fullShare 32 w

def go0 (d : Dev nD) (w : Fin 32) : sProp 𝕄 :=
  iprop((dstLoc d ↦[dstSet w]{fullShare} C.dst d) ∗ (z1Loc d ↦{rd w} C.z1 d) ∗ ∃ f, histLoc d ↦[histSet w]{fullShare} f)
def td0 (d : Dev nD) (w : Fin 32) : sProp 𝕄 :=
  iprop((dstLoc d ↦[dstSet w]{fullShare} C.dst d) ∗ (z1Loc d ↦{rd w} C.z1 d) ∗ histLoc d ↦[histSet w]{fullShare} C.hist d)
def go1 (d : Dev nD) (w : Fin 32) : sProp 𝕄 :=
  iprop((srcLoc d ↦{rd w} C.src d) ∗ (dstLoc d ↦{rd w} C.dst1 d) ∗ (ystLoc d ↦[rowsSet w]{fullShare} C.yst d) ∗ (z2Loc d ↦{rd w} C.z2 d)
    ∗ ∃ f, stLoc d ↦[rowsSet w]{fullShare} f)
def td1 (d : Dev nD) (w : Fin 32) : sProp 𝕄 :=
  iprop((srcLoc d ↦{rd w} C.src d) ∗ (dstLoc d ↦{rd w} C.dst1 d) ∗ (ystLoc d ↦[rowsSet w]{fullShare} C.yst d) ∗ (z2Loc d ↦{rd w} C.z2 d)
    ∗ stLoc d ↦[rowsSet w]{fullShare} C.st d)

instance go0_storable (d : Dev nD) (w : Fin 32) : BI.Storable (upEmb : UEmb _ 𝕄) (go0 C d w) := by unfold go0; infer_instance
instance td0_storable (d : Dev nD) (w : Fin 32) : BI.Storable (upEmb : UEmb _ 𝕄) (td0 C d w) := by unfold td0; infer_instance
instance go1_storable (d : Dev nD) (w : Fin 32) : BI.Storable (upEmb : UEmb _ 𝕄) (go1 C d w) := by unfold go1; infer_instance
instance td1_storable (d : Dev nD) (w : Fin 32) : BI.Storable (upEmb : UEmb _ 𝕄) (td1 C d w) := by unfold td1; infer_instance

/-- What the handshakes carry: a SparseCore's start its sixteen tiles' operands, a tile's go its own, and back. -/
def P : (K (F := F)).Pay (nD := nD) (Val := Elt F) (Name := ℕ) (U := UU) where
  st := fun q d c => match q with
    | 0 => bigSep Finset.univ fun i : Fin 16 => go0 C d (wid (Fin.cast nCore_zero c) i)
    | 1 => bigSep Finset.univ fun i : Fin 16 => go1 C d (wid (Fin.cast nCore_one c) i)
  dn := fun q d c => match q with
    | 0 => bigSep Finset.univ fun i : Fin 16 => td0 C d (wid (Fin.cast nCore_zero c) i)
    | 1 => bigSep Finset.univ fun i : Fin 16 => td1 C d (wid (Fin.cast nCore_one c) i)
  go := fun q d c i => match q with
    | 0 => go0 C d (wid (Fin.cast nCore_zero c) (Fin.cast nSub_zero i))
    | 1 => go1 C d (wid (Fin.cast nCore_one c) (Fin.cast nSub_one i))
  td := fun q d c i => match q with
    | 0 => td0 C d (wid (Fin.cast nCore_zero c) (Fin.cast nSub_zero i))
    | 1 => td1 C d (wid (Fin.cast nCore_one c) (Fin.cast nSub_one i))
  x := fun _ _ => iprop(emp)

instance P_storable : (P (F := F) C).IsStorable where
  st q d c := match q with
    | 0 => (inferInstance : BI.Storable (upEmb : UEmb _ 𝕄) (bigSep Finset.univ fun i : Fin 16 => go0 C d (wid (Fin.cast nCore_zero c) i)))
    | 1 => (inferInstance : BI.Storable (upEmb : UEmb _ 𝕄) (bigSep Finset.univ fun i : Fin 16 => go1 C d (wid (Fin.cast nCore_one c) i)))
  dn q d c := match q with
    | 0 => (inferInstance : BI.Storable (upEmb : UEmb _ 𝕄) (bigSep Finset.univ fun i : Fin 16 => td0 C d (wid (Fin.cast nCore_zero c) i)))
    | 1 => (inferInstance : BI.Storable (upEmb : UEmb _ 𝕄) (bigSep Finset.univ fun i : Fin 16 => td1 C d (wid (Fin.cast nCore_one c) i)))
  go q d c i := match q with
    | 0 => (inferInstance : BI.Storable (upEmb : UEmb _ 𝕄) (go0 C d (wid (Fin.cast nCore_zero c) (Fin.cast nSub_zero i))))
    | 1 => (inferInstance : BI.Storable (upEmb : UEmb _ 𝕄) (go1 C d (wid (Fin.cast nCore_one c) (Fin.cast nSub_one i))))
  td q d c i := match q with
    | 0 => (inferInstance : BI.Storable (upEmb : UEmb _ 𝕄) (td0 C d (wid (Fin.cast nCore_zero c) (Fin.cast nSub_zero i))))
    | 1 => (inferInstance : BI.Storable (upEmb : UEmb _ 𝕄) (td1 C d (wid (Fin.cast nCore_one c) (Fin.cast nSub_one i))))

/-! ## A SparseCore's operands are its tiles' -/

theorem bigSep_tasks0 (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_tasks1 (Φ : Fin 16 → sProp 𝕄) :
    (bigSep Finset.univ fun i : Fin ((K (F := F)).nSub 1) => Φ (Fin.cast nSub_one i)) = bigSep Finset.univ Φ :=
  bigSep_congr fun _ _ => congrArg Φ (Fin.ext rfl)

theorem vecSplit0 : (K (F := F)).VecSplit' (P C) 0 := by
  intro d c
  show (bigSep Finset.univ fun i : Fin 16 => go0 C d (wid (Fin.cast nCore_zero c) i)) ⊢ |={Set.univ}=> iprop(
      (bigSep Finset.univ fun i : Fin ((K (F := F)).nSub 0) => go0 C d (wid (Fin.cast nCore_zero c) (Fin.cast nSub_zero i)))
      ∗ ((bigSep Finset.univ fun i : Fin ((K (F := F)).nSub 0) => td0 C d (wid (Fin.cast nCore_zero c) (Fin.cast nSub_zero i)))
          -∗ bigSep Finset.univ fun i : Fin 16 => td0 C d (wid (Fin.cast nCore_zero c) i)))
  rw [bigSep_tasks0 (F := F) (fun i => go0 C d (wid (Fin.cast nCore_zero c) i)), bigSep_tasks0 (F := F) (fun i => td0 C d (wid (Fin.cast nCore_zero c) i))]
  iintro H; imodintro
  isplitl [H]; · iexact H
  iintro H; iexact H

theorem vecSplit1 : (K (F := F)).VecSplit' (P C) 1 := by
  intro d c
  show (bigSep Finset.univ fun i : Fin 16 => go1 C d (wid (Fin.cast nCore_one c) i)) ⊢ |={Set.univ}=> iprop(
      (bigSep Finset.univ fun i : Fin ((K (F := F)).nSub 1) => go1 C d (wid (Fin.cast nCore_one c) (Fin.cast nSub_one i)))
      ∗ ((bigSep Finset.univ fun i : Fin ((K (F := F)).nSub 1) => td1 C d (wid (Fin.cast nCore_one c) (Fin.cast nSub_one i)))
          -∗ bigSep Finset.univ fun i : Fin 16 => td1 C d (wid (Fin.cast nCore_one c) i)))
  rw [bigSep_tasks1 (F := F) (fun i => go1 C d (wid (Fin.cast nCore_one c) i)), bigSep_tasks1 (F := F) (fun i => td1 C d (wid (Fin.cast nCore_one c) i))]
  iintro H; imodintro
  isplitl [H]; · iexact H
  iintro H; iexact H

end Cert.Proof.KB

end
-- ==== Proof.Bits.Handover.lean ====
/-
  The hand-over at the two SparseCore calls, on the TensorCore's side. An array held whole is the sum of its 32 tiles'
  parts (targets: 32 slices of 2048; the histogram: its 32 rows; a 256 × 4096 array: 32 bands of 8 rows); an array every
  tile reads splits into 32 read shares and a remainder kept aside; the 32 tiles are the 2 × 16 (core, subcore) pairs.
  So what a call takes for its SparseCores is carved out of the whole arrays, and what it hands back joins into them,
  the histogram (and the aggregate) at the contents the tiles leave.
-/
import proofs.«205814_g58841051955373_cont_9to1_m_133_55_alg».proof.Proof.Bits.Pay

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 2) (Elt F) ℕ UU ℕ

/-! ## An array is its tiles' parts -/

theorem dstSet_eq (w : Fin 32) : dstSet w = (dstPart w).set := by
  show ((View.whole (main_v5_scv : Ref sig .scVector)).slice (dstPart w)).set = _
  rw [View.set_slice]; exact Finset.map_refl
theorem dst_disjoint : ∀ i ∈ (Finset.univ : Finset (Fin 32)), ∀ j ∈ (Finset.univ : Finset (Fin 32)), i ≠ j → Disjoint (dstSet i) (dstSet j) :=
  fun i _ j _ h => by rw [dstSet_eq, dstSet_eq]; exact Rect.part_disjoint hdiv_dst h
theorem dst_cover : (Finset.univ : Finset (Fin 32)).biUnion dstSet = Finset.univ :=
  (Finset.biUnion_congr rfl fun i _ => dstSet_eq i).trans (Rect.biUnion_part hdiv_dst)
theorem dst_parts (d : Dev nD) (q : PosShare TreeShare) (f : Buf (Elt F) (dstLoc d)) :
    (dstLoc d ↦{q} f : sProp 𝕄) = bigSep Finset.univ fun w : Fin 32 => dstLoc d ↦[dstSet w]{q} f := by
  rw [← pointsTo_biUnion Finset.univ (ℓ := dstLoc d) dstSet dst_disjoint, dst_cover]; try rfl

theorem histSet_eq (w : Fin 32) : histSet w = (histPart w).set := by
  show ((View.whole (main_v33_scv : Ref sig .scVector)).slice (histPart w)).set = _
  rw [View.set_slice]; exact Finset.map_refl
theorem hist_disjoint : ∀ i ∈ (Finset.univ : Finset (Fin 32)), ∀ j ∈ (Finset.univ : Finset (Fin 32)), i ≠ j → Disjoint (histSet i) (histSet j) :=
  fun i _ j _ h => by rw [histSet_eq, histSet_eq]; exact Rect.part_disjoint hdiv_hist h
theorem hist_cover : (Finset.univ : Finset (Fin 32)).biUnion histSet = Finset.univ :=
  (Finset.biUnion_congr rfl fun i _ => histSet_eq i).trans (Rect.biUnion_part hdiv_hist)
theorem hist_parts (d : Dev nD) (q : PosShare TreeShare) (f : Buf (Elt F) (histLoc d)) :
    (histLoc d ↦{q} f : sProp 𝕄) = bigSep Finset.univ fun w : Fin 32 => histLoc d ↦[histSet w]{q} f := by
  rw [← pointsTo_biUnion Finset.univ (ℓ := histLoc d) histSet hist_disjoint, hist_cover]; try rfl

theorem rowsSet_eq (w : Fin 32) : rowsSet w = (rowsPart w).set := by
  show ((View.whole (main_v39_scv : Ref sig .scVector)).slice (rowsPart w)).set = _
  rw [View.set_slice]; exact Finset.map_refl
theorem rows_disjoint : ∀ i ∈ (Finset.univ : Finset (Fin 32)), ∀ j ∈ (Finset.univ : Finset (Fin 32)), i ≠ j → Disjoint (rowsSet i) (rowsSet j) :=
  fun i _ j _ h => by rw [rowsSet_eq, rowsSet_eq]; exact Rect.part_disjoint hdiv_rows h
theorem rows_cover : (Finset.univ : Finset (Fin 32)).biUnion rowsSet = Finset.univ :=
  (Finset.biUnion_congr rfl fun i _ => rowsSet_eq i).trans (Rect.biUnion_part hdiv_rows)
theorem yst_parts (d : Dev nD) (q : PosShare TreeShare) (f : Buf (Elt F) (ystLoc d)) :
    (ystLoc d ↦{q} f : sProp 𝕄) = bigSep Finset.univ fun w : Fin 32 => ystLoc d ↦[rowsSet w]{q} f := by
  rw [← pointsTo_biUnion Finset.univ (ℓ := ystLoc d) rowsSet rows_disjoint, rows_cover]; try rfl
theorem st_parts (d : Dev nD) (q : PosShare TreeShare) (f : Buf (Elt F) (stLoc d)) :
    (stLoc d ↦{q} f : sProp 𝕄) = bigSep Finset.univ fun w : Fin 32 => stLoc d ↦[rowsSet w]{q} f := by
  rw [← pointsTo_biUnion Finset.univ (ℓ := stLoc d) rowsSet rows_disjoint, rows_cover]; try rfl

/-! ## The 32 tiles are the 2 × 16 (core, subcore) pairs -/

theorem wid_eq (p : Fin 2 × Fin 16) : wid p.1 p.2 = finProdFinEquiv p := by
  apply Fin.ext; show 16 * p.1.val + p.2.val = p.2.val + 16 * p.1.val; omega

theorem bigSep_wid (Φ : Fin 32 → sProp 𝕄) :
    bigSep Finset.univ Φ = bigSep Finset.univ fun c : Fin 2 => bigSep Finset.univ fun i : Fin 16 => Φ (wid c i) := by
  rw [← bigSep_univ_prod (fun p : Fin 2 × Fin 16 => Φ (wid p.1 p.2)),
    show (Finset.univ : Finset (Fin 32)) = (Finset.univ : Finset (Fin 2 × Fin 16)).map (finProdFinEquiv : Fin 2 × Fin 16 ≃ Fin 32).toEmbedding from
      (Finset.map_univ_equiv _).symm, BI.bigSep_map]
  exact bigSep_congr fun p _ => congrArg Φ (wid_eq p).symm

variable (C : Conts F)

theorem st0_eq (d : Dev nD) :
    (bigSep Finset.univ fun c : Fin ((K (F := F)).nCore 0) => (P C).st 0 d c) = bigSep Finset.univ fun w : Fin 32 => go0 C d w := by
  rw [bigSep_wid (fun w => go0 C d w)]; rfl
theorem dn0_eq (d : Dev nD) :
    (bigSep Finset.univ fun c : Fin ((K (F := F)).nCore 0) => (P C).dn 0 d c) = bigSep Finset.univ fun w : Fin 32 => td0 C d w := by
  rw [bigSep_wid (fun w => td0 C d w)]; rfl
theorem st1_eq (d : Dev nD) :
    (bigSep Finset.univ fun c : Fin ((K (F := F)).nCore 1) => (P C).st 1 d c) = bigSep Finset.univ fun w : Fin 32 => go1 C d w := by
  rw [bigSep_wid (fun w => go1 C d w)]; rfl
theorem dn1_eq (d : Dev nD) :
    (bigSep Finset.univ fun c : Fin ((K (F := F)).nCore 1) => (P C).dn 1 d c) = bigSep Finset.univ fun w : Fin 32 => td1 C d w := by
  rw [bigSep_wid (fun w => td1 C d w)]; rfl

/-- A part held at given contents is a part held at some contents. -/
theorem hist_row_any (d : Dev nD) (f : Buf (Elt F) (histLoc d)) (w : Fin 32) :
    (histLoc d ↦[histSet w]{fullShare} f : sProp 𝕄) ⊢ iprop(∃ f, histLoc d ↦[histSet w]{fullShare} f) := by
  iintro H; iexists f; iexact H
theorem st_row_any (d : Dev nD) (f : Buf (Elt F) (stLoc d)) (w : Fin 32) :
    (stLoc d ↦[rowsSet w]{fullShare} f : sProp 𝕄) ⊢ iprop(∃ f, stLoc d ↦[rowsSet w]{fullShare} f) := by
  iintro H; iexists f; iexact H
theorem hist_rows_any (d : Dev nD) (f : Buf (Elt F) (histLoc d)) :
    (bigSep Finset.univ fun w : Fin 32 => (histLoc d ↦[histSet w]{fullShare} f : sProp 𝕄))
      ⊢ (bigSep Finset.univ fun w : Fin 32 => iprop(∃ f, histLoc d ↦[histSet w]{fullShare} f) : sProp 𝕄) :=
  bigSep_mono fun w _ => hist_row_any d f w
theorem st_rows_any (d : Dev nD) (f : Buf (Elt F) (stLoc d)) :
    (bigSep Finset.univ fun w : Fin 32 => (stLoc d ↦[rowsSet w]{fullShare} f : sProp 𝕄))
      ⊢ (bigSep Finset.univ fun w : Fin 32 => iprop(∃ f, stLoc d ↦[rowsSet w]{fullShare} f) : sProp 𝕄) :=
  bigSep_mono fun w _ => st_row_any d f w

/-! ## The histogram call -/

/-- Out: the targets by slices, the zero vector by read shares (the remainder kept), the histogram by rows. -/
theorem call0_out (d : Dev nD) (f : Buf (Elt F) (histLoc d)) :
    iprop((dstLoc d ↦{fullShare} C.dst d) ∗ (z1Loc d ↦{fullShare} C.z1 d) ∗ (histLoc d ↦{fullShare} f))
      ⊢ (iprop((z1Loc d ↦{shareDrop fullShare 32} C.z1 d) ∗ bigSep Finset.univ fun c : Fin ((K (F := F)).nCore 0) => (P C).st 0 d c) : sProp 𝕄) := by
  rw [st0_eq, dst_parts, hist_parts]
  unfold go0
  rw [bigSep_sep', bigSep_sep']
  iintro ⟨Hd, Hz, Hh⟩
  ihave Hz' := (pointsTo_toks_split (ℓ := z1Loc d) (f := C.z1 d) fullShare 32) $$ Hz
  icases Hz' with ⟨Hzr, Hzt⟩
  isplitl [Hzr]; · iexact Hzr
  isplitl [Hd]; · iexact Hd
  isplitl [Hzt]; · iexact Hzt
  iapply (hist_rows_any d f)
  iexact Hh

/-- Back: the slices and the shares rejoin; the rows join at what the tiles left. -/
theorem call0_back (d : Dev nD) :
    (iprop((z1Loc d ↦{shareDrop fullShare 32} C.z1 d) ∗ bigSep Finset.univ fun c : Fin ((K (F := F)).nCore 0) => (P C).dn 0 d c) : sProp 𝕄)
      ⊢ iprop((dstLoc d ↦{fullShare} C.dst d) ∗ (z1Loc d ↦{fullShare} C.z1 d) ∗ (histLoc d ↦{fullShare} C.hist d)) := by
  rw [dn0_eq, dst_parts, hist_parts]
  unfold td0
  rw [bigSep_sep', bigSep_sep']
  iintro ⟨Hzr, Hd, Hzt, Hh⟩
  isplitl [Hd]; · iexact Hd
  isplitl [Hzr Hzt]
  · iapply (pointsTo_toks_join (ℓ := z1Loc d) (f := C.z1 d) fullShare 32)
    isplitl [Hzr] <;> iassumption
  iexact Hh

/-! ## The aggregation call -/

theorem call1_out (d : Dev nD) (f : Buf (Elt F) (stLoc d)) :
    iprop((srcLoc d ↦{fullShare} C.src d) ∗ (dstLoc d ↦{fullShare} C.dst1 d) ∗ (ystLoc d ↦{fullShare} C.yst d) ∗ (z2Loc d ↦{fullShare} C.z2 d) ∗ (stLoc d ↦{fullShare} f))
      ⊢ (iprop(((srcLoc d ↦{shareDrop fullShare 32} C.src d) ∗ (dstLoc d ↦{shareDrop fullShare 32} C.dst1 d) ∗ (z2Loc d ↦{shareDrop fullShare 32} C.z2 d))
          ∗ bigSep Finset.univ fun c : Fin ((K (F := F)).nCore 1) => (P C).st 1 d c) : sProp 𝕄) := by
  rw [st1_eq, yst_parts, st_parts]
  unfold go1
  rw [bigSep_sep', bigSep_sep', bigSep_sep', bigSep_sep']
  iintro ⟨Hs, Hd, Hy, Hz, Ho⟩
  ihave Hs' := (pointsTo_toks_split (ℓ := srcLoc d) (f := C.src d) fullShare 32) $$ Hs
  icases Hs' with ⟨Hsr, Hst⟩
  ihave Hd' := (pointsTo_toks_split (ℓ := dstLoc d) (f := C.dst1 d) fullShare 32) $$ Hd
  icases Hd' with ⟨Hdr, Hdt⟩
  ihave Hz' := (pointsTo_toks_split (ℓ := z2Loc d) (f := C.z2 d) fullShare 32) $$ Hz
  icases Hz' with ⟨Hzr, Hzt⟩
  isplitl [Hsr Hdr Hzr]
  · isplitl [Hsr]; · iexact Hsr
    isplitl [Hdr]; · iexact Hdr
    iexact Hzr
  isplitl [Hst]; · iexact Hst
  isplitl [Hdt]; · iexact Hdt
  isplitl [Hy]; · iexact Hy
  isplitl [Hzt]; · iexact Hzt
  iapply (st_rows_any d f)
  iexact Ho

theorem call1_back (d : Dev nD) :
    (iprop(((srcLoc d ↦{shareDrop fullShare 32} C.src d) ∗ (dstLoc d ↦{shareDrop fullShare 32} C.dst1 d) ∗ (z2Loc d ↦{shareDrop fullShare 32} C.z2 d))
          ∗ bigSep Finset.univ fun c : Fin ((K (F := F)).nCore 1) => (P C).dn 1 d c) : sProp 𝕄)
      ⊢ iprop((srcLoc d ↦{fullShare} C.src d) ∗ (dstLoc d ↦{fullShare} C.dst1 d) ∗ (ystLoc d ↦{fullShare} C.yst d) ∗ (z2Loc d ↦{fullShare} C.z2 d) ∗ (stLoc d ↦{fullShare} C.st d)) := by
  rw [dn1_eq, yst_parts, st_parts]
  unfold td1
  rw [bigSep_sep', bigSep_sep', bigSep_sep', bigSep_sep']
  iintro ⟨⟨Hsr, Hdr, Hzr⟩, Hst, Hdt, Hy, Hzt, Ho⟩
  isplitl [Hsr Hst]
  · iapply (pointsTo_toks_join (ℓ := srcLoc d) (f := C.src d) fullShare 32)
    isplitl [Hsr] <;> iassumption
  isplitl [Hdr Hdt]
  · iapply (pointsTo_toks_join (ℓ := dstLoc d) (f := C.dst1 d) fullShare 32)
    isplitl [Hdr] <;> iassumption
  isplitl [Hy]; · iexact Hy
  isplitl [Hzr Hzt]
  · iapply (pointsTo_toks_join (ℓ := z2Loc d) (f := C.z2 d) fullShare 32)
    isplitl [Hzr] <;> iassumption
  iexact Ho

end Cert.Proof.KB

end
-- ==== Proof.Bits.PipeGhost.lean ====
/-
  The TensorCore pipelines' staging cells in the resource algebra: their rounds are the left summand of the right
  summand (beside the transfers' counters, after the handshakes' rounds); what the launch deals each device for each
  of the three pipelines is its cells' launch state and its transfers' duty tokens, all funded from one element.
-/
import proofs.«205814_g58841051955373_cont_9to1_m_133_55_alg».proof.Proof.Bits.Setup
import Idealize.ShloMosaic.Lib.Pipeline.Regions

noncomputable section

namespace Cert.Proof.KB

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The staging cells' rounds: the left factor of the right factor. -/
def EP : Emb UP (MT nD τ sig (HIx 2) (Elt F) ℕ UU ℕ) :=
  (Emb.inl : Emb UP (UP × Counters)).trans (embR : Emb (UP × Counters) (MT nD τ sig (HIx 2) (Elt F) ℕ UU ℕ))

instance EP_landsIn : (EP (F := F)).LandsIn (upEmb : UEmb _ 𝕄) := by unfold EP; infer_instance

/-- No pipeline has a prefetched table. -/
abbrev adm : (p : Fin 3) → (pcfgs (F := F) p).Adm := fun p => (cfgs p).toPCfg_adm

/-- What the launch deals device `d` for pipeline `p`: its staging cells' launch state and its transfers' duty tokens. -/
abbrev pipeGhost (p : Fin 3) (d : Dev nD) : sProp 𝕄 :=
  iprop(Pipeline.cellsGhost (Pipeline.pin (pcfgs (F := F)) adm) EP p d ∗ Pipeline.toksInit (Pipeline.pin (pcfgs (F := F)) adm) EP p d)

/-- The pipelines' summand of the launch element. -/
def uP₀ : UP := initOf (Pipeline.cells (Pipeline.pin (pcfgs (F := F)) adm) cellOf_inj) (Pipeline.launchToks (Pipeline.pin (pcfgs (F := F)) adm) cellOf_inj)

theorem fund_pipes : (BI.own (EP (F := F) (uP₀ (F := F))) : sProp 𝕄)
    ⊢ iprop(|==> bigSep Finset.univ fun d : Dev nD => bigSep Finset.univ fun p : Fin 3 => pipeGhost p d) := by
  unfold uP₀
  refine (Pipeline.fund_ghost (Pipeline.pin (pcfgs (F := F)) adm) EP cellOf_inj).trans ?_
  simp only [pipeGhost, bigSep_sep']
  exact BI.Entails.refl _

end Cert.Proof.KB

end
-- ==== Proof.Bits.LaunchVals.lean ====
/-
  @main on the TensorCore, from the launch to the claim. The thread holds every unscoped array at a valuation; each
  host stretch advances the valuation by its operations; each SparseCore call takes its arrays out of it (carved for
  the 32 tiles), and puts them back with the call's result array at the value the tiles leave; each TensorCore call
  takes its arrays whole and puts them back with its result at the value its grid leaves. The values are parameters
  of this module (what each of the five kernels computes, as a function of its operands' contents), and so are the
  five kernels' proofs: the launch is proved once over them.
-/
import proofs.«205814_g58841051955373_cont_9to1_m_133_55_alg».proof.Proof.Bits.HostOps
import proofs.«205814_g58841051955373_cont_9to1_m_133_55_alg».proof.Proof.Bits.Handover
import proofs.«205814_g58841051955373_cont_9to1_m_133_55_alg».proof.Proof.Bits.PipeGhost
import Idealize.ShloMosaic.Lib.Pipeline.Frame

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq tcRefs devRef_mem_tcRefs)
open Idealize.ShloMosaic.Pipeline (ucRefs unscopedBufs_held sub_ucRefs)
open Idealize.ShloMosaic.Transfers (shareTok shareDrop)

variable {F : FTy → Type} [FloatOps F]

local notation "𝕄" => MT nD τ sig (HIx 2) (Elt F) ℕ UU ℕ

/-! ## The arrays as device buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v1' : DevRef τ sig := Proc.devRef .tc (main_v1 : Ref sig .tc)
abbrev v3' : DevRef τ sig := Proc.devRef .tc (main_v3 : Ref sig .tc)
abbrev v5' : DevRef τ sig := Proc.devRef .tc (main_v5 : Ref sig .tc)
abbrev v15' : DevRef τ sig := Proc.devRef .tc (main_v15 : Ref sig .tc)
abbrev v19' : DevRef τ sig := Proc.devRef .tc (main_v19 : Ref sig .tc)
abbrev v30' : DevRef τ sig := Proc.devRef .tc (main_v30 : Ref sig .tc)
abbrev v31' : DevRef τ sig := Proc.devRef .tc (main_v31 : Ref sig .tc)
abbrev v32' : DevRef τ sig := Proc.devRef .tc (main_v32 : Ref sig .tc)
abbrev v33' : DevRef τ sig := Proc.devRef .tc (main_v33 : Ref sig .tc)
abbrev v35' : DevRef τ sig := Proc.devRef .tc (main_v35 : Ref sig .tc)
abbrev v36' : DevRef τ sig := Proc.devRef .tc (main_v36 : Ref sig .tc)
abbrev v38' : DevRef τ sig := Proc.devRef .tc (main_v38 : Ref sig .tc)
abbrev v39' : DevRef τ sig := Proc.devRef .tc (main_v39 : Ref sig .tc)
abbrev v40' : DevRef τ sig := Proc.devRef .tc (main_v40 : Ref sig .tc)
abbrev v41' : DevRef τ sig := Proc.devRef .tc (main_v41 : Ref sig .tc)
abbrev v42' : DevRef τ sig := Proc.devRef .tc (main_v42 : Ref sig .tc)

theorem mem_uc (b : Ref sig .tc) (h : (Proc.devRef (τ := τ) .tc b).isScoped = false) : Proc.devRef (τ := τ) .tc b ∈ ucRefs τ sig :=
  Finset.mem_filter.mpr ⟨devRef_mem_tcRefs b, by rw [h]; exact Bool.false_ne_true⟩

/-! ## The host stretches' side conditions -/

theorem opsA_tc : (opsA (F := F)).Forall fun op => op.bufs ⊆ tcRefs τ sig := by
  simp only [List.Forall, StableHlo.nullary_bufs_sub, StableHlo.unary_bufs_sub, StableHlo.binary_bufs_sub, StableHlo.reshape_bufs_sub, StableHlo.TRef.unary, StableHlo.TRef.binary, StableHlo.TRef.reshape, and_self]
theorem opsB_tc : (opsB (F := F)).Forall fun op => op.bufs ⊆ tcRefs τ sig := by
  simp only [List.Forall, StableHlo.unary_bufs_sub, StableHlo.reshape_bufs_sub, and_self]
theorem opsC_tc : (opsC (F := F)).Forall fun op => op.bufs ⊆ tcRefs τ sig := by
  simp only [List.Forall, StableHlo.unary_bufs_sub, StableHlo.reshape_bufs_sub, and_self]
theorem opsD_tc : (opsD (F := F)).Forall fun op => op.bufs ⊆ tcRefs τ sig := by
  simp only [List.Forall, StableHlo.reshape_bufs_sub]
theorem opsA_uc : ∀ op ∈ (opsA (F := F)), op.bufs ⊆ ucRefs τ sig := fun op h => sub_ucRefs op (List.forall_iff_forall_mem.mp opsA_tc op h)
theorem opsB_uc : ∀ op ∈ (opsB (F := F)), op.bufs ⊆ ucRefs τ sig := fun op h => sub_ucRefs op (List.forall_iff_forall_mem.mp opsB_tc op h)
theorem opsC_uc : ∀ op ∈ (opsC (F := F)), op.bufs ⊆ ucRefs τ sig := fun op h => sub_ucRefs op (List.forall_iff_forall_mem.mp opsC_tc op h)
theorem opsD_uc : ∀ op ∈ (opsD (F := F)), op.bufs ⊆ ucRefs τ sig := fun op h => sub_ucRefs op (List.forall_iff_forall_mem.mp opsD_tc op h)
theorem opsA_fresh : ∀ op ∈ (opsA (F := F)), op.fresh = ∅ := by
  intro _ h; (repeat (cases h with | head => rfl | tail _ h => ?_)); exact nomatch h
theorem opsB_fresh : ∀ op ∈ (opsB (F := F)), op.fresh = ∅ := by
  intro _ h; (repeat (cases h with | head => rfl | tail _ h => ?_)); exact nomatch h
theorem opsC_fresh : ∀ op ∈ (opsC (F := F)), op.fresh = ∅ := by
  intro _ h; (repeat (cases h with | head => rfl | tail _ h => ?_)); exact nomatch h
theorem opsD_fresh : ∀ op ∈ (opsD (F := F)), op.fresh = ∅ := by
  intro _ h; (repeat (cases h with | head => rfl | tail _ h => ?_)); exact nomatch h

/-! ## What the five kernels compute, and the valuations along @main -/

/-- The five kernels' values, each as a function of its operands' contents. -/
structure Vals (F : FTy → Type) where
  hist : (d : Dev nD) → Buf (Elt F) (dstLoc d) → Buf (Elt F) (z1Loc d) → Buf (Elt F) (histLoc d)
  x1t : (d : Dev nD) → Buf (Elt F) ((T d : Thread nD τ).loc main_v1) → Buf (Elt F) ((T d : Thread nD τ).loc main_v35) → Buf (Elt F) ((T d : Thread nD τ).loc main_v36)
  yst : (d : Dev nD) → Buf (Elt F) ((T d : Thread nD τ).loc main_v38) → Buf (Elt F) ((T d : Thread nD τ).loc main_v36) → Buf (Elt F) ((T d : Thread nD τ).loc main_v1)
    → Buf (Elt F) (histLoc d) → Buf (Elt F) ((T d : Thread nD τ).loc main_v15) → Buf (Elt F) ((T d : Thread nD τ).loc main_v19) → Buf (Elt F) (ystLoc d)
  st : (d : Dev nD) → Buf (Elt F) (srcLoc d) → Buf (Elt F) (dstLoc d) → Buf (Elt F) (ystLoc d) → Buf (Elt F) (z2Loc d) → Buf (Elt F) (stLoc d)
  out : (d : Dev nD) → Buf (Elt F) (stLoc d) → Buf (Elt F) (ystLoc d) → Buf (Elt F) (histLoc d) → Buf (Elt F) ((T d : Thread nD τ).loc main_v30)
    → Buf (Elt F) ((T d : Thread nD τ).loc main_v41)

variable (Vl : Vals F) (m : (ℓ : Loc nD τ sig) → Buf (Elt F) ℓ) (ρ : Dev nD → PrngReg)

def V0 (d : Dev nD) : Valuation τ sig (Elt F) := fun b => m (d, b)
def VA (d : Dev nD) : Valuation τ sig (Elt F) := after opsA (V0 m d)
def cHist (d : Dev nD) : Buf (Elt F) (histLoc d) := Vl.hist d (VA m d v5') (VA m d v31')
def V1 (d : Dev nD) : Valuation τ sig (Elt F) := Function.update (VA m d) v33' (cHist Vl m d)
def VB (d : Dev nD) : Valuation τ sig (Elt F) := after opsB (V1 Vl m d)
def cX1 (d : Dev nD) : Buf (Elt F) ((T d : Thread nD τ).loc main_v36) := Vl.x1t d (VB Vl m d v1') (VB Vl m d v35')
def V2 (d : Dev nD) : Valuation τ sig (Elt F) := Function.update (VB Vl m d) v36' (cX1 Vl m d)
def VC (d : Dev nD) : Valuation τ sig (Elt F) := after opsC (V2 Vl m d)
def cYst (d : Dev nD) : Buf (Elt F) (ystLoc d) :=
  Vl.yst d (VC Vl m d v38') (VC Vl m d v36') (VC Vl m d v1') (VC Vl m d v33') (VC Vl m d v15') (VC Vl m d v19')
def V3 (d : Dev nD) : Valuation τ sig (Elt F) := Function.update (VC Vl m d) v39' (cYst Vl m d)
def cSt (d : Dev nD) : Buf (Elt F) (stLoc d) := Vl.st d (V3 Vl m d v3') (V3 Vl m d v5') (cYst Vl m d) (V3 Vl m d v32')
def V4 (d : Dev nD) : Valuation τ sig (Elt F) := Function.update (V3 Vl m d) v40' (cSt Vl m d)
def cOut (d : Dev nD) : Buf (Elt F) ((T d : Thread nD τ).loc main_v41) := Vl.out d (cSt Vl m d) (V4 Vl m d v39') (V4 Vl m d v33') (V4 Vl m d v30')
def V5 (d : Dev nD) : Valuation τ sig (Elt F) := Function.update (V4 Vl m d) v41' (cOut Vl m d)
def VF (d : Dev nD) : Valuation τ sig (Elt F) := after opsD (V5 Vl m d)

/-- The contents the two SparseCore calls meet and leave. -/
def CC : Conts F where
  dst := fun d => VA m d v5'
  dst1 := fun d => V3 Vl m d v5'
  src := fun d => V3 Vl m d v3'
  z1 := fun d => VA m d v31'
  z2 := fun d => V3 Vl m d v32'
  yst := fun d => cYst Vl m d
  hist := fun d => cHist Vl m d
  st := fun d => cSt Vl m d

end Cert.Proof.KB

end
-- ==== Proof.Bits.Launch.lean ====
/-
  @main on the TensorCore: the proof. See LaunchVals.lean for the valuations V0 … VF along @main.
-/
import proofs.«205814_g58841051955373_cont_9to1_m_133_55_alg».proof.Proof.Bits.LaunchVals

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after seq tcRefs devRef_mem_tcRefs)
open Idealize.ShloMosaic.Pipeline (ucRefs unscopedBufs_held sub_ucRefs)
open Idealize.ShloMosaic.Transfers (shareTok shareDrop)

variable {F : FTy → Type} [FloatOps F]

local notation "𝕄" => MT nD τ sig (HIx 2) (Elt F) ℕ UU ℕ

/-! ## Taking a few arrays out of the valuation, and putting them back -/

theorem held_take (d : Dev nD) (Ts : Finset (DevRef τ sig)) (hT : Ts ⊆ ucRefs τ sig) (W : Valuation τ sig (Elt F)) :
    (held (T d : Thread nD τ) (ucRefs τ sig) W : sProp 𝕄) ⊢ iprop(held (T d : Thread nD τ) Ts W ∗ held (T d : Thread nD τ) (ucRefs τ sig \ Ts) W) :=
  Entails.of_eq (held_sub_split (T d : Thread nD τ) hT W)

theorem held_put (d : Dev nD) (Ts : Finset (DevRef τ sig)) (hT : Ts ⊆ ucRefs τ sig) (W W' : Valuation τ sig (Elt F))
    (h : ∀ b, b ∉ Ts → W' b = W b) :
    (iprop(held (T d : Thread nD τ) Ts W' ∗ held (T d : Thread nD τ) (ucRefs τ sig \ Ts) W) : sProp 𝕄) ⊢ held (T d : Thread nD τ) (ucRefs τ sig) W' := by
  rw [held_sub_split (T d : Thread nD τ) hT W',
    held_congr (T d : Thread nD τ) (S := ucRefs τ sig \ Ts) (V := W') (V' := W) (fun b hb => h b (Finset.mem_sdiff.mp hb).2)]

/-- The histogram call's arrays. -/
abbrev T0 : Finset (DevRef τ sig) := {v5', v31', v33'}
theorem T0_sub : (T0 : Finset (DevRef τ sig)) ⊆ ucRefs τ sig := by
  intro b hb
  simp only [T0, Finset.mem_insert, Finset.mem_singleton] at hb
  rcases hb with rfl | rfl | rfl <;> exact mem_uc _ (by decide)
theorem held_T0 (d : Dev nD) (W : Valuation τ sig (Elt F)) :
    (held (T d : Thread nD τ) T0 W : sProp 𝕄) = iprop((dstLoc d ↦{fullShare} W v5') ∗ (z1Loc d ↦{fullShare} W v31') ∗ (histLoc d ↦{fullShare} W v33')) := by
  unfold held T0
  rw [SparseCore.bigSep_insert' (by decide), SparseCore.bigSep_insert' (by decide), bigSep_singleton]

variable (Vl : Vals F) (m : (ℓ : Loc nD τ sig) → Buf (Elt F) ℓ) (ρ : Dev nD → PrngReg)

theorem unscoped_held (d : Dev nD) :
    (unscopedBufs d (fun b => m ((T d : Thread nD τ).loc b)) : sProp 𝕄) = held (T d : Thread nD τ) (ucRefs τ sig) (V0 m d) :=
  unscopedBufs_held d (V0 m d)

/-! ## The arrays each launch takes, read out of a valuation -/

theorem held_T0_V1 (d : Dev nD) :
    (held (T d : Thread nD τ) T0 (V1 Vl m d) : sProp 𝕄)
      = iprop((dstLoc d ↦{fullShare} (CC Vl m).dst d) ∗ (z1Loc d ↦{fullShare} (CC Vl m).z1 d) ∗ (histLoc d ↦{fullShare} (CC Vl m).hist d)) := by
  rw [held_T0]; unfold V1
  rw [Function.update_of_ne (show v5' ≠ v33' by decide), Function.update_of_ne (show v31' ≠ v33' by decide), Function.update_self]
  rfl

/-- The first TensorCore call's arrays. -/
abbrev R0s : Finset (DevRef τ sig) := {v1', v35', v36'}
theorem R0s_sub : (R0s : Finset (DevRef τ sig)) ⊆ ucRefs τ sig := by
  intro b hb
  simp only [R0s, Finset.mem_insert, Finset.mem_singleton] at hb
  rcases hb with rfl | rfl | rfl <;> exact mem_uc _ (by decide)
theorem held_R0s (d : Dev nD) (W : Valuation τ sig (Elt F)) :
    (held (T d : Thread nD τ) R0s W : sProp 𝕄) = iprop((((T d : Thread nD τ).loc main_v1) ↦{fullShare} W v1') ∗ (((T d : Thread nD τ).loc main_v35) ↦{fullShare} W v35')
      ∗ (((T d : Thread nD τ).loc main_v36) ↦{fullShare} W v36')) := by
  unfold held R0s
  rw [SparseCore.bigSep_insert' (by decide), SparseCore.bigSep_insert' (by decide), bigSep_singleton]

/-- The second TensorCore call's arrays. -/
abbrev R1s : Finset (DevRef τ sig) := {v38', v36', v1', v33', v15', v19', v39'}
theorem R1s_sub : (R1s : Finset (DevRef τ sig)) ⊆ ucRefs τ sig := by
  intro b hb
  simp only [R1s, Finset.mem_insert, Finset.mem_singleton] at hb
  rcases hb with rfl | rfl | rfl | rfl | rfl | rfl | rfl <;> exact mem_uc _ (by decide)
theorem held_R1s (d : Dev nD) (W : Valuation τ sig (Elt F)) :
    (held (T d : Thread nD τ) R1s W : sProp 𝕄) = iprop((((T d : Thread nD τ).loc main_v38) ↦{fullShare} W v38') ∗ (((T d : Thread nD τ).loc main_v36) ↦{fullShare} W v36')
      ∗ (((T d : Thread nD τ).loc main_v1) ↦{fullShare} W v1') ∗ (histLoc d ↦{fullShare} W v33') ∗ (((T d : Thread nD τ).loc main_v15) ↦{fullShare} W v15')
      ∗ (((T d : Thread nD τ).loc main_v19) ↦{fullShare} W v19') ∗ (ystLoc d ↦{fullShare} W v39')) := by
  unfold held R1s
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The aggregation call's arrays. -/
abbrev C1s : Finset (DevRef τ sig) := {v3', v5', v39', v32', v40'}
theorem C1s_sub : (C1s : Finset (DevRef τ sig)) ⊆ ucRefs τ sig := by
  intro b hb
  simp only [C1s, Finset.mem_insert, Finset.mem_singleton] at hb
  rcases hb with rfl | rfl | rfl | rfl | rfl <;> exact mem_uc _ (by decide)
theorem held_C1s (d : Dev nD) (W : Valuation τ sig (Elt F)) :
    (held (T d : Thread nD τ) C1s W : sProp 𝕄) = iprop((srcLoc d ↦{fullShare} W v3') ∗ (dstLoc d ↦{fullShare} W v5') ∗ (ystLoc d ↦{fullShare} W v39')
      ∗ (z2Loc d ↦{fullShare} W v32') ∗ (stLoc d ↦{fullShare} W v40')) := by
  unfold held C1s
  rw [SparseCore.bigSep_insert' (by decide), SparseCore.bigSep_insert' (by decide), SparseCore.bigSep_insert' (by decide), SparseCore.bigSep_insert' (by decide), bigSep_singleton]

/-- The last TensorCore call's arrays. -/
abbrev R2s : Finset (DevRef τ sig) := {v40', v39', v33', v30', v41'}
theorem R2s_sub : (R2s : Finset (DevRef τ sig)) ⊆ ucRefs τ sig := by
  intro b hb
  simp only [R2s, Finset.mem_insert, Finset.mem_singleton] at hb
  rcases hb with rfl | rfl | rfl | rfl | rfl <;> exact mem_uc _ (by decide)
theorem held_R2s (d : Dev nD) (W : Valuation τ sig (Elt F)) :
    (held (T d : Thread nD τ) R2s W : sProp 𝕄) = iprop((stLoc d ↦{fullShare} W v40') ∗ (ystLoc d ↦{fullShare} W v39') ∗ (histLoc d ↦{fullShare} W v33')
      ∗ (((T d : Thread nD τ).loc main_v30) ↦{fullShare} W v30') ∗ (((T d : Thread nD τ).loc main_v41) ↦{fullShare} W v41')) := by
  unfold held R2s
  rw [SparseCore.bigSep_insert' (by decide), SparseCore.bigSep_insert' (by decide), SparseCore.bigSep_insert' (by decide), SparseCore.bigSep_insert' (by decide), bigSep_singleton]

/-! ## The three TensorCore calls, as obligations -/

def Region0 : Prop := ∀ (P : (K (F := F)).Pay (nD := nD) (Val := Elt F) (Name := ℕ) (U := UU)) (κ : GSem nD τ sig → ℕ) (d : Dev nD)
    (X : Buf (Elt F) ((T d : Thread nD τ).loc main_v1)) (A : Buf (Elt F) ((T d : Thread nD τ).loc main_v35)),
    iprop((K (F := F)).ctx EH P κ ∗ (K (F := F)).tcSt EH d 1 ∗ boundary (T d : Thread nD τ) ∗ pipeGhost 0 d
        ∗ (((T d : Thread nD τ).loc main_v1) ↦{fullShare} X) ∗ (((T d : Thread nD τ).loc main_v35) ↦{fullShare} A)
        ∗ (∃ f : Buf (Elt F) ((T d : Thread nD τ).loc main_v36), ((T d : Thread nD τ).loc main_v36) ↦{fullShare} f))
      ⊢ wp frame (wpE ((K (F := F)).defs (D (F := F))) 𝒱 (T d) none) Set.univ (entry (F := F) 0)
          (fun _ => iprop((K (F := F)).tcSt EH d 1 ∗ boundary (T d : Thread nD τ)
            ∗ (((T d : Thread nD τ).loc main_v1) ↦{fullShare} X) ∗ (((T d : Thread nD τ).loc main_v35) ↦{fullShare} A)
            ∗ (((T d : Thread nD τ).loc main_v36) ↦{fullShare} Vl.x1t d X A)))

def Region1 : Prop := ∀ (P : (K (F := F)).Pay (nD := nD) (Val := Elt F) (Name := ℕ) (U := UU)) (κ : GSem nD τ sig → ℕ) (d : Dev nD)
    (A1 : Buf (Elt F) ((T d : Thread nD τ).loc main_v38)) (X1 : Buf (Elt F) ((T d : Thread nD τ).loc main_v36)) (X : Buf (Elt F) ((T d : Thread nD τ).loc main_v1))
    (H : Buf (Elt F) (histLoc d)) (W0 : Buf (Elt F) ((T d : Thread nD τ).loc main_v15)) (W1 : Buf (Elt F) ((T d : Thread nD τ).loc main_v19)),
    iprop((K (F := F)).ctx EH P κ ∗ (K (F := F)).tcSt EH d 1 ∗ boundary (T d : Thread nD τ) ∗ pipeGhost 1 d
        ∗ (((T d : Thread nD τ).loc main_v38) ↦{fullShare} A1) ∗ (((T d : Thread nD τ).loc main_v36) ↦{fullShare} X1) ∗ (((T d : Thread nD τ).loc main_v1) ↦{fullShare} X)
        ∗ (histLoc d ↦{fullShare} H) ∗ (((T d : Thread nD τ).loc main_v15) ↦{fullShare} W0) ∗ (((T d : Thread nD τ).loc main_v19) ↦{fullShare} W1)
        ∗ (∃ f : Buf (Elt F) (ystLoc d), ystLoc d ↦{fullShare} f))
      ⊢ wp frame (wpE ((K (F := F)).defs (D (F := F))) 𝒱 (T d) none) Set.univ (entry (F := F) 1)
          (fun _ => iprop((K (F := F)).tcSt EH d 1 ∗ boundary (T d : Thread nD τ)
            ∗ (((T d : Thread nD τ).loc main_v38) ↦{fullShare} A1) ∗ (((T d : Thread nD τ).loc main_v36) ↦{fullShare} X1) ∗ (((T d : Thread nD τ).loc main_v1) ↦{fullShare} X)
            ∗ (histLoc d ↦{fullShare} H) ∗ (((T d : Thread nD τ).loc main_v15) ↦{fullShare} W0) ∗ (((T d : Thread nD τ).loc main_v19) ↦{fullShare} W1)
            ∗ (ystLoc d ↦{fullShare} Vl.yst d A1 X1 X H W0 W1)))

def Region2 : Prop := ∀ (P : (K (F := F)).Pay (nD := nD) (Val := Elt F) (Name := ℕ) (U := UU)) (κ : GSem nD τ sig → ℕ) (d : Dev nD)
    (ST : Buf (Elt F) (stLoc d)) (Y : Buf (Elt F) (ystLoc d)) (H : Buf (Elt F) (histLoc d)) (B : Buf (Elt F) ((T d : Thread nD τ).loc main_v30)),
    iprop((K (F := F)).ctx EH P κ ∗ (K (F := F)).tcSt EH d 2 ∗ boundary (T d : Thread nD τ) ∗ pipeGhost 2 d
        ∗ (stLoc d ↦{fullShare} ST) ∗ (ystLoc d ↦{fullShare} Y) ∗ (histLoc d ↦{fullShare} H) ∗ (((T d : Thread nD τ).loc main_v30) ↦{fullShare} B)
        ∗ (∃ f : Buf (Elt F) ((T d : Thread nD τ).loc main_v41), ((T d : Thread nD τ).loc main_v41) ↦{fullShare} f))
      ⊢ wp frame (wpE ((K (F := F)).defs (D (F := F))) 𝒱 (T d) none) Set.univ (entry (F := F) 2)
          (fun _ => iprop((K (F := F)).tcSt EH d 2 ∗ boundary (T d : Thread nD τ)
            ∗ (stLoc d ↦{fullShare} ST) ∗ (ystLoc d ↦{fullShare} Y) ∗ (histLoc d ↦{fullShare} H) ∗ (((T d : Thread nD τ).loc main_v30) ↦{fullShare} B)
            ∗ (((T d : Thread nD τ).loc main_v41) ↦{fullShare} Vl.out d ST Y H B)))

/-- What @main leaves the claim: every array at the last valuation. -/
abbrev FIN (d : Dev nD) : sProp 𝕄 := held (T d : Thread nD τ) (ucRefs τ sig) (VF Vl m d)

theorem held_R0s_V2 (d : Dev nD) :
    (held (T d : Thread nD τ) R0s (V2 Vl m d) : sProp 𝕄) = iprop((((T d : Thread nD τ).loc main_v1) ↦{fullShare} VB Vl m d v1') ∗ (((T d : Thread nD τ).loc main_v35) ↦{fullShare} VB Vl m d v35')
      ∗ (((T d : Thread nD τ).loc main_v36) ↦{fullShare} Vl.x1t d (VB Vl m d v1') (VB Vl m d v35'))) := by
  rw [held_R0s]; unfold V2
  rw [Function.update_of_ne (show v1' ≠ v36' by decide), Function.update_of_ne (show v35' ≠ v36' by decide), Function.update_self]
  rfl

theorem held_R1s_V3 (d : Dev nD) :
    (held (T d : Thread nD τ) R1s (V3 Vl m d) : sProp 𝕄) = iprop((((T d : Thread nD τ).loc main_v38) ↦{fullShare} VC Vl m d v38') ∗ (((T d : Thread nD τ).loc main_v36) ↦{fullShare} VC Vl m d v36')
      ∗ (((T d : Thread nD τ).loc main_v1) ↦{fullShare} VC Vl m d v1') ∗ (histLoc d ↦{fullShare} VC Vl m d v33') ∗ (((T d : Thread nD τ).loc main_v15) ↦{fullShare} VC Vl m d v15')
      ∗ (((T d : Thread nD τ).loc main_v19) ↦{fullShare} VC Vl m d v19')
      ∗ (ystLoc d ↦{fullShare} Vl.yst d (VC Vl m d v38') (VC Vl m d v36') (VC Vl m d v1') (VC Vl m d v33') (VC Vl m d v15') (VC Vl m d v19'))) := by
  rw [held_R1s]; unfold V3
  rw [Function.update_of_ne (show v38' ≠ v39' by decide), Function.update_of_ne (show v36' ≠ v39' by decide), Function.update_of_ne (show v1' ≠ v39' by decide),
    Function.update_of_ne (show v33' ≠ v39' by decide), Function.update_of_ne (show v15' ≠ v39' by decide), Function.update_of_ne (show v19' ≠ v39' by decide), Function.update_self]
  rfl

theorem held_C1s_V3 (d : Dev nD) :
    (held (T d : Thread nD τ) C1s (V3 Vl m d) : sProp 𝕄) = iprop((srcLoc d ↦{fullShare} (CC Vl m).src d) ∗ (dstLoc d ↦{fullShare} (CC Vl m).dst1 d) ∗ (ystLoc d ↦{fullShare} (CC Vl m).yst d)
      ∗ (z2Loc d ↦{fullShare} (CC Vl m).z2 d) ∗ (stLoc d ↦{fullShare} V3 Vl m d v40')) := by
  rw [held_C1s]
  have : V3 Vl m d v39' = (CC Vl m).yst d := by unfold V3; rw [Function.update_self]; rfl
  rw [this]; rfl

theorem held_C1s_V4 (d : Dev nD) :
    (held (T d : Thread nD τ) C1s (V4 Vl m d) : sProp 𝕄) = iprop((srcLoc d ↦{fullShare} (CC Vl m).src d) ∗ (dstLoc d ↦{fullShare} (CC Vl m).dst1 d) ∗ (ystLoc d ↦{fullShare} (CC Vl m).yst d)
      ∗ (z2Loc d ↦{fullShare} (CC Vl m).z2 d) ∗ (stLoc d ↦{fullShare} (CC Vl m).st d)) := by
  rw [held_C1s]; unfold V4
  rw [Function.update_of_ne (show v3' ≠ v40' by decide), Function.update_of_ne (show v5' ≠ v40' by decide), Function.update_of_ne (show v39' ≠ v40' by decide),
    Function.update_of_ne (show v32' ≠ v40' by decide), Function.update_self]
  have : V3 Vl m d v39' = (CC Vl m).yst d := by unfold V3; rw [Function.update_self]; rfl
  rw [this]; rfl

theorem held_R2s_V4 (d : Dev nD) :
    (held (T d : Thread nD τ) R2s (V4 Vl m d) : sProp 𝕄) = iprop((stLoc d ↦{fullShare} cSt Vl m d) ∗ (ystLoc d ↦{fullShare} V4 Vl m d v39') ∗ (histLoc d ↦{fullShare} V4 Vl m d v33')
      ∗ (((T d : Thread nD τ).loc main_v30) ↦{fullShare} V4 Vl m d v30') ∗ (((T d : Thread nD τ).loc main_v41) ↦{fullShare} V4 Vl m d v41')) := by
  rw [held_R2s]
  have : V4 Vl m d v40' = cSt Vl m d := by unfold V4; rw [Function.update_self]
  rw [this]

theorem held_R2s_V5 (d : Dev nD) :
    (held (T d : Thread nD τ) R2s (V5 Vl m d) : sProp 𝕄) = iprop((stLoc d ↦{fullShare} cSt Vl m d) ∗ (ystLoc d ↦{fullShare} V4 Vl m d v39') ∗ (histLoc d ↦{fullShare} V4 Vl m d v33')
      ∗ (((T d : Thread nD τ).loc main_v30) ↦{fullShare} V4 Vl m d v30')
      ∗ (((T d : Thread nD τ).loc main_v41) ↦{fullShare} Vl.out d (cSt Vl m d) (V4 Vl m d v39') (V4 Vl m d v33') (V4 Vl m d v30'))) := by
  rw [held_R2s]; unfold V5
  rw [Function.update_of_ne (show v40' ≠ v41' by decide), Function.update_of_ne (show v39' ≠ v41' by decide), Function.update_of_ne (show v33' ≠ v41' by decide),
    Function.update_of_ne (show v30' ≠ v41' by decide), Function.update_self]
  have : V4 Vl m d v40' = cSt Vl m d := by unfold V4; rw [Function.update_self]
  rw [this]; rfl

set_option backward.isDefEq.respectTransparency.types false in
theorem hmain (hR0 : Region0 Vl) (hR1 : Region1 Vl) (hR2 : Region2 Vl) (κ : GSem nD τ sig → ℕ) (d : Dev nD) :
    iprop((K (F := F)).ctx EH (P (CC Vl m)) κ ∗ (K (F := F)).tcSt EH d 0 ∗ (K (F := F)).tcRes m ρ d ∗ (pipeGhost 0 d ∗ pipeGhost 1 d ∗ pipeGhost 2 d))
      ⊢ wp frame (wpE ((K (F := F)).defs (D (F := F))) 𝒱 (SparseCore.T d) none) Set.univ (main d)
          fun _ => iprop((K (F := F)).tcSt EH d 2 ∗ FIN Vl m d) := by
  unfold SparseCore.Cfg.tcRes
  rw [unscoped_held, main_eq]
  iintro ⟨#Hctx, Hst, ⟨Hb, Hheld, Hsems, Hprng⟩, Hg0, Hg1, Hg2⟩
  -- the first stretch of host operations
  iapply (wp_seq (defs := (K (F := F)).defs (D (F := F))) 𝒱 none Set.univ d (ucRefs τ sig) _ opsA opsA_uc opsA_fresh (V0 m d)) $$ [Hb Hheld]
  · isplitl [Hb] <;> iassumption
  iintro ⟨Hb, Hheld⟩
  -- the histogram call
  rw [wp_bind]
  ihave HheldA := (Entails.of_eq (show (held (T d : Thread nD τ) (ucRefs τ sig) (after opsA (V0 m d)) : sProp 𝕄) = held (T d : Thread nD τ) (ucRefs τ sig) (VA m d) from rfl)) $$ Hheld
  ihave H := (held_take d T0 T0_sub (VA m d)) $$ HheldA
  icases H with ⟨H0, Hrest⟩
  ihave H0' := (Entails.of_eq ((held_T0 d (VA m d)).trans (show _ = (iprop((dstLoc d ↦{fullShare} (CC Vl m).dst d) ∗ (z1Loc d ↦{fullShare} (CC Vl m).z1 d) ∗ (histLoc d ↦{fullShare} VA m d v33')) : sProp 𝕄) from rfl))) $$ H0
  ihave Hout := (call0_out (CC Vl m) d (VA m d v33')) $$ H0'
  icases Hout with ⟨Hzr, Hst0⟩
  iapply ((K (F := F)).wp_run (D (F := F)) 𝒱 (EH := EH) (P := P (CC Vl m)) κ d 0) $$ [Hst Hst0 Hb Hrest Hzr Hg0 Hg1 Hg2 Hsems Hprng]
  isplitr; · iexact Hctx
  isplitl [Hst]; · iexact Hst
  isplitl [Hst0]; · iexact Hst0
  iintro ⟨Hst, Hdn⟩
  ihave Hback := (call0_back (CC Vl m) d) $$ [Hzr Hdn]
  · isplitl [Hzr] <;> iassumption
  ihave HT := (Entails.of_eq (held_T0_V1 Vl m d).symm) $$ Hback
  ihave Hheld := (held_put d T0 T0_sub (VA m d) (V1 Vl m d) (fun b hb => Function.update_of_ne (fun e => hb (by rw [e]; decide)) _ _)) $$ [HT Hrest]
  · isplitl [HT] <;> iassumption
  -- the second stretch, and the first TensorCore call
  iapply (wp_seq (defs := (K (F := F)).defs (D (F := F))) 𝒱 none Set.univ d (ucRefs τ sig) _ opsB opsB_uc opsB_fresh (V1 Vl m d)) $$ [Hb Hheld]
  · isplitl [Hb] <;> iassumption
  iintro ⟨Hb, Hheld⟩
  ihave HheldB := (Entails.of_eq (show (held (T d : Thread nD τ) (ucRefs τ sig) (after opsB (V1 Vl m d)) : sProp 𝕄) = held (T d : Thread nD τ) (ucRefs τ sig) (VB Vl m d) from rfl)) $$ Hheld
  rw [wp_bind]
  ihave H := (held_take d R0s R0s_sub (VB Vl m d)) $$ HheldB
  icases H with ⟨H0, Hrest⟩
  ihave H0' := (Entails.of_eq (held_R0s d (VB Vl m d))) $$ H0
  icases H0' with ⟨HX, HA, Hf⟩
  ihave Hst1 := (Entails.of_eq (show ((K (F := F)).tcSt EH d ((0 : Fin 2).val + 1) : sProp 𝕄) = (K (F := F)).tcSt EH d 1 from rfl)) $$ Hst
  iapply (wp_wand_r frame _ Set.univ)
  isplitl [Hst1 Hb Hg0 HX HA Hf]
  · iapply (hR0 (P (CC Vl m)) κ d (VB Vl m d v1') (VB Vl m d v35'))
    isplitr; · iexact Hctx
    isplitl [Hst1]; · iexact Hst1
    isplitl [Hb]; · iexact Hb
    isplitl [Hg0]; · iexact Hg0
    isplitl [HX]; · iexact HX
    isplitl [HA]; · iexact HA
    iexists _; iexact Hf
  iintro %_ ⟨Hst, Hb, HX, HA, Hf⟩
  ihave HT := (Entails.of_eq (held_R0s_V2 Vl m d).symm) $$ [HX HA Hf]
  · isplitl [HX]; · iexact HX
    isplitl [HA] <;> iassumption
  ihave Hheld := (held_put d R0s R0s_sub (VB Vl m d) (V2 Vl m d) (fun b hb => Function.update_of_ne (fun e => hb (by rw [e]; decide)) _ _)) $$ [HT Hrest]
  · isplitl [HT] <;> iassumption
  -- the third stretch, and the second TensorCore call
  iapply (wp_seq (defs := (K (F := F)).defs (D (F := F))) 𝒱 none Set.univ d (ucRefs τ sig) _ opsC opsC_uc opsC_fresh (V2 Vl m d)) $$ [Hb Hheld]
  · isplitl [Hb] <;> iassumption
  iintro ⟨Hb, Hheld⟩
  ihave HheldC := (Entails.of_eq (show (held (T d : Thread nD τ) (ucRefs τ sig) (after opsC (V2 Vl m d)) : sProp 𝕄) = held (T d : Thread nD τ) (ucRefs τ sig) (VC Vl m d) from rfl)) $$ Hheld
  rw [wp_bind]
  ihave H := (held_take d R1s R1s_sub (VC Vl m d)) $$ HheldC
  icases H with ⟨H0, Hrest⟩
  ihave H0' := (Entails.of_eq (held_R1s d (VC Vl m d))) $$ H0
  icases H0' with ⟨HA1, HX1, HX, HH, HW0, HW1, Hf⟩
  iapply (wp_wand_r frame _ Set.univ)
  isplitl [Hst Hb Hg1 HA1 HX1 HX HH HW0 HW1 Hf]
  · iapply (hR1 (P (CC Vl m)) κ d (VC Vl m d v38') (VC Vl m d v36') (VC Vl m d v1') (VC Vl m d v33') (VC Vl m d v15') (VC Vl m d v19'))
    isplitr; · iexact Hctx
    isplitl [Hst]; · iexact Hst
    isplitl [Hb]; · iexact Hb
    isplitl [Hg1]; · iexact Hg1
    isplitl [HA1]; · iexact HA1
    isplitl [HX1]; · iexact HX1
    isplitl [HX]; · iexact HX
    isplitl [HH]; · iexact HH
    isplitl [HW0]; · iexact HW0
    isplitl [HW1]; · iexact HW1
    iexists _; iexact Hf
  iintro %_ ⟨Hst, Hb, HA1, HX1, HX, HH, HW0, HW1, Hf⟩
  ihave HT := (Entails.of_eq (held_R1s_V3 Vl m d).symm) $$ [HA1 HX1 HX HH HW0 HW1 Hf]
  · isplitl [HA1]; · iexact HA1
    isplitl [HX1]; · iexact HX1
    isplitl [HX]; · iexact HX
    isplitl [HH]; · iexact HH
    isplitl [HW0]; · iexact HW0
    isplitl [HW1] <;> iassumption
  ihave Hheld := (held_put d R1s R1s_sub (VC Vl m d) (V3 Vl m d) (fun b hb => Function.update_of_ne (fun e => hb (by rw [e]; decide)) _ _)) $$ [HT Hrest]
  · isplitl [HT] <;> iassumption
  -- the aggregation call
  rw [wp_bind]
  ihave H := (held_take d C1s C1s_sub (V3 Vl m d)) $$ Hheld
  icases H with ⟨H0, Hrest⟩
  ihave H0' := (Entails.of_eq (held_C1s_V3 Vl m d)) $$ H0
  ihave Hout := (call1_out (CC Vl m) d (V3 Vl m d v40')) $$ H0'
  icases Hout with ⟨Hrem, Hst1'⟩
  iapply ((K (F := F)).wp_run (D (F := F)) 𝒱 (EH := EH) (P := P (CC Vl m)) κ d 1) $$ [Hst Hst1' Hb Hrest Hrem Hg2 Hsems Hprng]
  isplitr; · iexact Hctx
  isplitl [Hst]; · iexact Hst
  isplitl [Hst1']; · iexact Hst1'
  iintro ⟨Hst, Hdn⟩
  ihave Hback := (call1_back (CC Vl m) d) $$ [Hrem Hdn]
  · isplitl [Hrem] <;> iassumption
  ihave HT := (Entails.of_eq (held_C1s_V4 Vl m d).symm) $$ Hback
  ihave Hheld := (held_put d C1s C1s_sub (V3 Vl m d) (V4 Vl m d) (fun b hb => Function.update_of_ne (fun e => hb (by rw [e]; decide)) _ _)) $$ [HT Hrest]
  · isplitl [HT] <;> iassumption
  -- the last TensorCore call
  rw [wp_bind]
  ihave H := (held_take d R2s R2s_sub (V4 Vl m d)) $$ Hheld
  icases H with ⟨H0, Hrest⟩
  ihave H0' := (Entails.of_eq (held_R2s_V4 Vl m d)) $$ H0
  icases H0' with ⟨HS, HY, HH, HB, Hf⟩
  ihave Hst2 := (Entails.of_eq (show ((K (F := F)).tcSt EH d ((1 : Fin 2).val + 1) : sProp 𝕄) = (K (F := F)).tcSt EH d 2 from rfl)) $$ Hst
  iapply (wp_wand_r frame _ Set.univ)
  isplitl [Hst2 Hb Hg2 HS HY HH HB Hf]
  · iapply (hR2 (P (CC Vl m)) κ d (cSt Vl m d) (V4 Vl m d v39') (V4 Vl m d v33') (V4 Vl m d v30'))
    isplitr; · iexact Hctx
    isplitl [Hst2]; · iexact Hst2
    isplitl [Hb]; · iexact Hb
    isplitl [Hg2]; · iexact Hg2
    isplitl [HS]; · iexact HS
    isplitl [HY]; · iexact HY
    isplitl [HH]; · iexact HH
    isplitl [HB]; · iexact HB
    iexists _; iexact Hf
  iintro %_ ⟨Hst, Hb, HS, HY, HH, HB, Hf⟩
  ihave HT := (Entails.of_eq (held_R2s_V5 Vl m d).symm) $$ [HS HY HH HB Hf]
  · isplitl [HS]; · iexact HS
    isplitl [HY]; · iexact HY
    isplitl [HH]; · iexact HH
    isplitl [HB] <;> iassumption
  ihave Hheld := (held_put d R2s R2s_sub (V4 Vl m d) (V5 Vl m d) (fun b hb => Function.update_of_ne (fun e => hb (by rw [e]; decide)) _ _)) $$ [HT Hrest]
  · isplitl [HT] <;> iassumption
  -- the closing stretch
  rw [← bind_pure (seq opsD)]
  iapply (wp_seq (defs := (K (F := F)).defs (D (F := F))) 𝒱 none Set.univ d (ucRefs τ sig) _ opsD opsD_uc opsD_fresh (V5 Vl m d)) $$ [Hb Hheld]
  · isplitl [Hb] <;> iassumption
  iintro ⟨Hb, Hheld⟩
  rw [wp_pure]; imodintro
  isplitl [Hst]; · iexact Hst
  iexact Hheld

end Cert.Proof.KB

end
-- ==== Proof.Bits.LaunchRun.lean ====
/-
  The program's run: the launch element (the handshakes' rounds, the three pipelines' staging cells funded for every
  device, nothing for the SparseCore kernels, whose copies need no schedule), how the final memory reads the last
  valuation at the result and at the five arguments, and the launch theorem applied: every weakly fair execution of
  the 35 threads terminates, faults nowhere, and ends with those six arrays at the last valuation.
-/
import proofs.«205814_g58841051955373_cont_9to1_m_133_55_alg».proof.Proof.Bits.Launch

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr after seq tcRefs)
open Idealize.ShloMosaic.Pipeline (ucRefs)

variable {F : FTy → Type} [FloatOps F]

local notation "𝕄" => MT nD τ sig (HIx 2) (Elt F) ℕ UU ℕ

/-! ## The launch element -/

def u₀ : UU := (initOf (K (F := F)).hsCells (K (F := F)).hsToks, (uP₀ (F := F), (1 : Counters)))

/-- What the launch deals the TensorCore of a device beyond the library's: its three pipelines' cells and tokens. -/
abbrev G (d : Dev nD) : sProp 𝕄 := iprop(pipeGhost 0 d ∗ pipeGhost 1 d ∗ pipeGhost 2 d)

theorem pipes_three (d : Dev nD) : (bigSep Finset.univ fun p : Fin 3 => (pipeGhost p d : sProp 𝕄)) = G d := by
  rw [show (Finset.univ : Finset (Fin 3)) = {0, 1, 2} by decide, SparseCore.bigSep_insert' (by decide), SparseCore.bigSep_insert' (by decide), bigSep_singleton]

theorem bigSep_emp' {I : Type} (s : Finset I) : (bigSep s fun _ => iprop(emp)) = (iprop(emp) : sProp 𝕄) := bigSep_emp_const s

theorem hu₀ (C : Conts F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P C).x q thr) := by
  unfold u₀
  iintro Hu
  ihave H := (ownU_pair _ _) $$ Hu
  icases H with ⟨HH, HR⟩
  ihave H2 := (own_pair_emb (embR : Emb (UP × Counters) 𝕄) (uP₀ (F := F)) (1 : Counters)) $$ HR
  icases H2 with ⟨HP, -⟩
  ihave HP' := (Entails.of_eq (show (BI.own (((Emb.inl : Emb UP (UP × Counters)).trans (embR : Emb (UP × Counters) 𝕄)) (uP₀ (F := F))) : sProp 𝕄) = BI.own (EP (F := F) (uP₀ (F := F))) from rfl)) $$ HP
  imod (fund_pipes (F := F)) $$ HP' with Hg
  imodintro
  isplitl [HH]; · iexact HH
  isplitl [Hg]
  · rw [show (bigSep Finset.univ fun d : Dev nD => (G d : sProp 𝕄)) = bigSep Finset.univ fun d : Dev nD => bigSep Finset.univ fun p : Fin 3 => (pipeGhost p d : sProp 𝕄) from
      bigSep_congr fun d _ => (pipes_three d).symm]
    iexact Hg
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## Reading the claim off the final memory -/

variable (Vl : Vals F) (m : (ℓ : Loc nD τ sig) → Buf (Elt F) ℓ) (ρ : Dev nD → PrngReg)

abbrev Fs : Finset (DevRef τ sig) := {v42', a0', a1', a2', a3', a4'}
theorem Fs_sub : (Fs : Finset (DevRef τ sig)) ⊆ ucRefs τ sig := by
  intro b hb
  simp only [Fs, Finset.mem_insert, Finset.mem_singleton] at hb
  rcases hb with rfl | rfl | rfl | rfl | rfl | rfl <;> exact mem_uc _ (by decide)
theorem held_Fs (d : Dev nD) (W : Valuation τ sig (Elt F)) :
    (held (T d : Thread nD τ) Fs W : sProp 𝕄) = iprop((((T d : Thread nD τ).loc main_v42) ↦{fullShare} W v42') ∗ (((T d : Thread nD τ).loc main_arg0) ↦{fullShare} W a0')
      ∗ (((T d : Thread nD τ).loc main_arg1) ↦{fullShare} W a1') ∗ (((T d : Thread nD τ).loc main_arg2) ↦{fullShare} W a2')
      ∗ (((T d : Thread nD τ).loc main_arg3) ↦{fullShare} W a3') ∗ (((T d : Thread nD τ).loc main_arg4) ↦{fullShare} W a4')) := by
  unfold held Fs
  rw [SparseCore.bigSep_insert' (by decide), SparseCore.bigSep_insert' (by decide), SparseCore.bigSep_insert' (by decide), SparseCore.bigSep_insert' (by decide),
    SparseCore.bigSep_insert' (by decide), bigSep_singleton]

def fq (d : Dev nD) (s' : Phys nD τ sig (Elt F)) : Prop :=
  s'.mem.mem ((T d : Thread nD τ).loc main_v42) = VF Vl m d v42' ∧ s'.mem.mem ((T d : Thread nD τ).loc main_arg0) = VF Vl m d a0'
  ∧ s'.mem.mem ((T d : Thread nD τ).loc main_arg1) = VF Vl m d a1' ∧ s'.mem.mem ((T d : Thread nD τ).loc main_arg2) = VF Vl m d a2'
  ∧ s'.mem.mem ((T d : Thread nD τ).loc main_arg3) = VF Vl m d a3' ∧ s'.mem.mem ((T d : Thread nD τ).loc main_arg4) = VF Vl m d a4'

theorem hfin (d : Dev nD) (s' : Phys nD τ sig (Elt F)) : iprop(FIN Vl m d ∗ SI s') ⊢ (⌜fq Vl m d s'⌝ : sProp 𝕄) := by
  iintro ⟨Hheld, HSI⟩
  ihave H := (held_take d Fs Fs_sub (VF Vl m d)) $$ Hheld
  icases H with ⟨H0, -⟩
  ihave H0' := (Entails.of_eq (held_Fs d (VF Vl m d))) $$ H0
  icases H0' with ⟨Hr, H0, H1, H2, H3, H4⟩
  ihave H := (persistent_entails_right (SI_pointsTo_agree (st := s') (ℓ := (T d : Thread nD τ).loc main_v42) (I := Finset.univ) (q := fullShare) (f := VF Vl m d v42'))) $$ [HSI Hr]
  · isplitl [HSI] <;> iassumption
  icases H with ⟨%hr, HSI, -⟩
  ihave H := (persistent_entails_right (SI_pointsTo_agree (st := s') (ℓ := (T d : Thread nD τ).loc main_arg0) (I := Finset.univ) (q := fullShare) (f := VF Vl m d a0'))) $$ [HSI H0]
  · isplitl [HSI] <;> iassumption
  icases H with ⟨%h0, HSI, -⟩
  ihave H := (persistent_entails_right (SI_pointsTo_agree (st := s') (ℓ := (T d : Thread nD τ).loc main_arg1) (I := Finset.univ) (q := fullShare) (f := VF Vl m d a1'))) $$ [HSI H1]
  · isplitl [HSI] <;> iassumption
  icases H with ⟨%h1, HSI, -⟩
  ihave H := (persistent_entails_right (SI_pointsTo_agree (st := s') (ℓ := (T d : Thread nD τ).loc main_arg2) (I := Finset.univ) (q := fullShare) (f := VF Vl m d a2'))) $$ [HSI H2]
  · isplitl [HSI] <;> iassumption
  icases H with ⟨%h2, HSI, -⟩
  ihave H := (persistent_entails_right (SI_pointsTo_agree (st := s') (ℓ := (T d : Thread nD τ).loc main_arg3) (I := Finset.univ) (q := fullShare) (f := VF Vl m d a3'))) $$ [HSI H3]
  · isplitl [HSI] <;> iassumption
  icases H with ⟨%h3, HSI, -⟩
  ihave H := (SI_pointsTo_agree (st := s') (ℓ := (T d : Thread nD τ).loc main_arg4) (I := Finset.univ) (q := fullShare) (f := VF Vl m d a4')) $$ [HSI H4]
  · isplitl [HSI] <;> iassumption
  icases H with %h4
  ipureintro
  exact ⟨funext fun i => hr i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The run -/

def QC : PUnit × MemSt nD τ sig (Elt F) → Prop := fun r => ∀ c : Dev nD,
  r.2.mem ((T c : Thread nD τ).loc main_v42) = VF Vl m c v42' ∧ r.2.mem ((T c : Thread nD τ).loc main_arg0) = VF Vl m c a0'
  ∧ r.2.mem ((T c : Thread nD τ).loc main_arg1) = VF Vl m c a1' ∧ r.2.mem ((T c : Thread nD τ).loc main_arg2) = VF Vl m c a2'
  ∧ r.2.mem ((T c : Thread nD τ).loc main_arg3) = VF Vl m c a3' ∧ r.2.mem ((T c : Thread nD τ).loc main_arg4) = VF Vl m c a4'

theorem run_main [∀ e, Nonempty (Elt F e)] (hR0 : Region0 Vl) (hR1 : Region1 Vl) (hR2 : Region2 Vl)
    (ht0 : (K (F := F)).TileObl (D (F := F)) 𝒱 (P (CC Vl m)) v₀ 0) (ht1 : (K (F := F)).TileObl (D (F := F)) 𝒱 (P (CC Vl m)) v₀ 1) :
    θ_run (Cert.Kernel.defs (F := F)) (Cert.Kernel.threads (F := F)) ⟨m, fun _ => 0, ρ⟩ (QC Vl m) :=
  SparseCore.Cfg.θ_run_sc (K := K (F := F)) (D := D (F := F)) (𝒱 := 𝒱) (EH := EH) (P := P (CC Vl m)) facts v₀
    (fun q hq => match q with | 0 => nomatch hq | 1 => nomatch hq)
    (fun q _ => match q with | 0 => ht0 | 1 => ht1)
    (fun q _ => match q with | 0 => SparseCore.Cfg.VecSplit.of_plain (vecSplit0 (CC Vl m)) | 1 => SparseCore.Cfg.VecSplit.of_plain (vecSplit1 (CC Vl m)))
    m ρ main (fun d => G d) (FIN Vl m) (u₀ (F := F)) (sep_elim_left.trans (hu₀ (CC Vl m))) (hmain Vl m ρ hR0 hR1 hR2) (fq Vl m) (hfin Vl m) (QC Vl m) (fun _ h => h)

end Cert.Proof.KB

end
-- ==== Proof.Bits.HostVals.lean ====
/-
  The values @main's host operations compute, read at an index, as functions of the launch contents of the five
  arguments: the transposed feature matrix, the two rows of the edge list, the two block-diagonal weight matrices
  kron(I₂, Wᵀ), the bias row, the zero arrays, the two adjacency matrices and the reshaped result; and the frame
  facts: no operation and no kernel writes an argument, and a later stretch leaves an earlier result alone.
-/
import proofs.«205814_g58841051955373_cont_9to1_m_133_55_alg».proof.Proof.Bits.LaunchVals
import Idealize.ShloMosaic.Lib.ValueIdx
import Idealize.ShloMosaic.Lib.ValueLayout
import Idealize.ShloMosaic.Lib.IdealHost
import Idealize.ShloMosaic.Lib.Pipeline.Value

noncomputable section

namespace Cert.Proof.KB

open Cert.Kernel Cert.Kernel.Gen
open Idealize.ShloMosaic Idealize.ShloMosaic.TcCoe Idealize.SL.Sem Idealize.ShloMosaic.StableHlo
open Idealize.ShloMosaic.ValueIdx

variable {F : FTy → Type} [FloatOps F]

/-! ## The five arguments at the launch -/

section Args
variable (m : (ℓ : Loc nD τ sig) → Buf (Elt F) ℓ)

/-- The node features `x[n, k, f]`, the edge list `adj[r, e]`, the two adjacency matrices `A[k, i, j]`, the three weight
    matrices `Ws[k, i, j]` and the three bias rows `bs[k, f]`, as device `d` holds them at the launch. -/
abbrev argX (d : Dev nD) : S4096x2x128.Idx → F .f32 := m (d, a0')
abbrev argAdj (d : Dev nD) : S2x65536.Idx → BitVec 32 := m (d, a1')
abbrev argA (d : Dev nD) : S2x4096x4096.Idx → F .f32 := m (d, a2')
abbrev argWs (d : Dev nD) : S3x128x128.Idx → F .f32 := m (d, a3')
abbrev argBs (d : Dev nD) : S3x128.Idx → F .f32 := m (d, a4')

end Args

/-! ## Layout results of the first stretch, at any float instance -/

section Layout
variable (m : (ℓ : Loc nD τ sig) → Buf (Elt F) ℓ)

/-- The transposed features: row `f` of the 256 × 4096 matrix holds feature `f % 128` of half `f / 128` of every node. -/
theorem VA_v1 (d : Dev nD) (f : Fin 256) (n : Fin 4096) :
    (VA m d v1' : S256x4096.Idx → F .f32) (ix2 f n)
      = argX m d (ix3 n ⟨f.val / 128, by omega⟩ ⟨f.val % 128, Nat.mod_lt _ (by decide)⟩) := by
  dsimp only [VA, opsA]
  after_results_simp
  refine (transpose_ix2_apply _ _ f n).trans ?_
  refine shapeCast_apply _ _ _ _ ?_
  show ((⟨3, ![4096, 2, 128]⟩ : Shape).rowMajor _).val = ((⟨2, ![4096, 256]⟩ : Shape).rowMajor _).val
  rw [Shape.rowMajor_val_three, Shape.rowMajor_val_two]
  show (n.val * 2 + f.val / 128) * 128 + f.val % 128 = n.val * 256 + f.val
  omega

/-- The edge sources: row 0 of the edge list. -/
theorem VA_v3 (d : Dev nD) (e : Fin 65536) :
    (VA m d v3' : S65536.Idx → BitVec 32) (ix1 e) = argAdj m d (ix2 (0 : Fin 2) e) := by
  dsimp only [VA, opsA]
  after_results_simp
  exact (shapeCast_1a_a_apply _ _ e).trans (slice2_axis0_apply 0 _ _ 0 e 0 rfl)

/-- The edge targets: row 1 of the edge list. -/
theorem VA_v5 (d : Dev nD) (e : Fin 65536) :
    (VA m d v5' : S65536.Idx → BitVec 32) (ix1 e) = argAdj m d (ix2 (1 : Fin 2) e) := by
  dsimp only [VA, opsA]
  after_results_simp
  exact (shapeCast_1a_a_apply _ _ e).trans (slice2_axis0_apply 1 _ _ 0 e 1 rfl)

/-- The histogram's initial value: the word zero everywhere. -/
theorem VA_v31 (d : Dev nD) (n : Fin 4096) :
    (VA m d v31' : S4096.Idx → F .f32) (ix1 n) = FloatOps.ofBits .f32 0x00000000#32 := by
  dsimp only [VA, opsA]
  after_results_simp
  exact broadcastInDim_scalar_apply _ _ _

/-- The aggregation's initial value: the word zero everywhere. -/
theorem VA_v32 (d : Dev nD) (s : Fin 16) (n : Fin 4096) :
    (VA m d v32' : S16x4096.Idx → F .f32) (ix2 s n) = FloatOps.ofBits .f32 0x00000000#32 := by
  dsimp only [VA, opsA]
  after_results_simp
  exact broadcastInDim_scalar_apply _ _ _

theorem VA_v31_eq (d : Dev nD) : (VA m d v31' : S4096.Idx → F .f32) = fun _ => FloatOps.ofBits .f32 0x00000000#32 :=
  funext fun j => by rw [eq_ix1 j]; exact VA_v31 m d _
theorem VA_v32_eq (d : Dev nD) : (VA m d v32' : S16x4096.Idx → F .f32) = fun _ => FloatOps.ofBits .f32 0x00000000#32 :=
  funext fun j => by rw [eq_ix2 j]; exact VA_v32 m d _ _

end Layout

/-! ## What each stretch and each call leaves alone -/

section Frame
variable (Vl : Vals F) (m : (ℓ : Loc nD τ sig) → Buf (Elt F) ℓ)

/-- The references the four stretches write, and the five the calls write. -/
abbrev WA : List (Ref sig .tc) :=
  [main_v0, main_v1, main_v2, main_v3, main_v4, main_v5, main_v6, main_v7, main_c, main_v8, main_v9, main_v10, main_v11,
   main_v12, main_v13, main_v14, main_call0_v0, main_call0_v1, main_call0_v2, main_call0_v3, main_call0_v4, main_v15,
   main_v16, main_v17, main_v18, main_call1_v0, main_call1_v1, main_call1_v2, main_call1_v3, main_call1_v4, main_v19,
   main_v20, main_v21, main_cst, main_v22, main_v23, main_v24, main_v25, main_v26, main_v27, main_v28, main_v29, main_v30,
   main_cst_0, main_v31, main_cst_1, main_v32]
abbrev WB : List (Ref sig .tc) := [main_v34, main_v35]
abbrev WC : List (Ref sig .tc) := [main_v37, main_v38]
abbrev WD : List (Ref sig .tc) := [main_v42]
/-- Everything written after the first stretch: the calls' results and the later stretches'. -/
abbrev WL : List (Ref sig .tc) := [main_v33, main_v34, main_v35, main_v36, main_v37, main_v38, main_v39, main_v40, main_v41, main_v42]
/-- The five arguments. -/
abbrev argRefs : List (Ref sig .tc) := [main_arg0, main_arg1, main_arg2, main_arg3, main_arg4]

theorem opsA_writes : (opsA (F := F)).Forall fun op => op.writes ⊆ (WA.map (Proc.devRef (τ := τ) .tc)).toFinset := by
  simp only [List.Forall, nullary_writes, unary_writes, binary_writes, reshape_writes, TRef.unary, TRef.binary, TRef.reshape,
    Finset.singleton_subset_iff, List.mem_toFinset]
  repeat' apply And.intro
  all_goals exact List.mem_map_of_mem (by decide)
theorem opsB_writes : (opsB (F := F)).Forall fun op => op.writes ⊆ (WB.map (Proc.devRef (τ := τ) .tc)).toFinset := by
  simp only [List.Forall, unary_writes, reshape_writes, Finset.singleton_subset_iff, List.mem_toFinset]
  exact ⟨List.mem_map_of_mem (by decide), List.mem_map_of_mem (by decide)⟩
theorem opsC_writes : (opsC (F := F)).Forall fun op => op.writes ⊆ (WC.map (Proc.devRef (τ := τ) .tc)).toFinset := by
  simp only [List.Forall, unary_writes, reshape_writes, Finset.singleton_subset_iff, List.mem_toFinset]
  exact ⟨List.mem_map_of_mem (by decide), List.mem_map_of_mem (by decide)⟩
theorem opsD_writes : (opsD (F := F)).Forall fun op => op.writes ⊆ (WD.map (Proc.devRef (τ := τ) .tc)).toFinset := by
  simp only [List.Forall, reshape_writes, Finset.singleton_subset_iff, List.mem_toFinset]
  exact List.mem_map_of_mem (by decide)

/-! One step at a time: a reference the step does not write holds what it held. -/

theorem VA_of {r : Ref sig .tc} (d : Dev nD) (h : r ∉ WA) : VA m d (Proc.devRef .tc r) = m (d, Proc.devRef .tc r) :=
  after_of_writes_sub opsA _ opsA_writes h
theorem V1_of {r : Ref sig .tc} (d : Dev nD) (h : r ≠ main_v33) : V1 Vl m d (Proc.devRef .tc r) = VA m d (Proc.devRef .tc r) := by
  unfold V1; exact Function.update_of_ne (devRef_ne_of_ne h) _ _
theorem VB_of {r : Ref sig .tc} (d : Dev nD) (h : r ∉ WB) : VB Vl m d (Proc.devRef .tc r) = V1 Vl m d (Proc.devRef .tc r) :=
  after_of_writes_sub opsB _ opsB_writes h
theorem V2_of {r : Ref sig .tc} (d : Dev nD) (h : r ≠ main_v36) : V2 Vl m d (Proc.devRef .tc r) = VB Vl m d (Proc.devRef .tc r) := by
  unfold V2; exact Function.update_of_ne (devRef_ne_of_ne h) _ _
theorem VC_of {r : Ref sig .tc} (d : Dev nD) (h : r ∉ WC) : VC Vl m d (Proc.devRef .tc r) = V2 Vl m d (Proc.devRef .tc r) :=
  after_of_writes_sub opsC _ opsC_writes h
theorem V3_of {r : Ref sig .tc} (d : Dev nD) (h : r ≠ main_v39) : V3 Vl m d (Proc.devRef .tc r) = VC Vl m d (Proc.devRef .tc r) := by
  unfold V3; exact Function.update_of_ne (devRef_ne_of_ne h) _ _
theorem V4_of {r : Ref sig .tc} (d : Dev nD) (h : r ≠ main_v40) : V4 Vl m d (Proc.devRef .tc r) = V3 Vl m d (Proc.devRef .tc r) := by
  unfold V4; exact Function.update_of_ne (devRef_ne_of_ne h) _ _
theorem V5_of {r : Ref sig .tc} (d : Dev nD) (h : r ≠ main_v41) : V5 Vl m d (Proc.devRef .tc r) = V4 Vl m d (Proc.devRef .tc r) := by
  unfold V5; exact Function.update_of_ne (devRef_ne_of_ne h) _ _
theorem VF_of {r : Ref sig .tc} (d : Dev nD) (h : r ∉ WD) : VF Vl m d (Proc.devRef .tc r) = V5 Vl m d (Proc.devRef .tc r) :=
  after_of_writes_sub opsD _ opsD_writes h

/-! What a call leaves at its own result. -/

theorem V1_v33 (d : Dev nD) : V1 Vl m d v33' = cHist Vl m d := by unfold V1; exact Function.update_self _ _ _
theorem V2_v36 (d : Dev nD) : V2 Vl m d v36' = cX1 Vl m d := by unfold V2; exact Function.update_self _ _ _
theorem V3_v39 (d : Dev nD) : V3 Vl m d v39' = cYst Vl m d := by unfold V3; exact Function.update_self _ _ _
theorem V4_v40 (d : Dev nD) : V4 Vl m d v40' = cSt Vl m d := by unfold V4; exact Function.update_self _ _ _
theorem V5_v41 (d : Dev nD) : V5 Vl m d v41' = cOut Vl m d := by unfold V5; exact Function.update_self _ _ _

/-! All the later steps at once: a reference none of them writes holds what the first stretch left. -/

theorem ne_of_not_mem {l : List (Ref sig .tc)} {r x : Ref sig .tc} (h : r ∉ l) (hx : x ∈ l) : r ≠ x := fun e => h (e ▸ hx)

theorem V1_eq_VA {r : Ref sig .tc} (d : Dev nD) (h : r ∉ WL) : V1 Vl m d (Proc.devRef .tc r) = VA m d (Proc.devRef .tc r) :=
  V1_of Vl m d (ne_of_not_mem h (by decide))
theorem VB_eq_VA {r : Ref sig .tc} (d : Dev nD) (h : r ∉ WL) : VB Vl m d (Proc.devRef .tc r) = VA m d (Proc.devRef .tc r) :=
  (VB_of Vl m d (List.not_mem_cons_of_ne_of_not_mem (ne_of_not_mem h (by decide))
    (List.not_mem_cons_of_ne_of_not_mem (ne_of_not_mem h (by decide)) List.not_mem_nil))).trans (V1_eq_VA Vl m d h)
theorem V2_eq_VA {r : Ref sig .tc} (d : Dev nD) (h : r ∉ WL) : V2 Vl m d (Proc.devRef .tc r) = VA m d (Proc.devRef .tc r) :=
  (V2_of Vl m d (ne_of_not_mem h (by decide))).trans (VB_eq_VA Vl m d h)
theorem VC_eq_VA {r : Ref sig .tc} (d : Dev nD) (h : r ∉ WL) : VC Vl m d (Proc.devRef .tc r) = VA m d (Proc.devRef .tc r) :=
  (VC_of Vl m d (List.not_mem_cons_of_ne_of_not_mem (ne_of_not_mem h (by decide))
    (List.not_mem_cons_of_ne_of_not_mem (ne_of_not_mem h (by decide)) List.not_mem_nil))).trans (V2_eq_VA Vl m d h)
theorem V3_eq_VA {r : Ref sig .tc} (d : Dev nD) (h : r ∉ WL) : V3 Vl m d (Proc.devRef .tc r) = VA m d (Proc.devRef .tc r) :=
  (V3_of Vl m d (ne_of_not_mem h (by decide))).trans (VC_eq_VA Vl m d h)
theorem V4_eq_VA {r : Ref sig .tc} (d : Dev nD) (h : r ∉ WL) : V4 Vl m d (Proc.devRef .tc r) = VA m d (Proc.devRef .tc r) :=
  (V4_of Vl m d (ne_of_not_mem h (by decide))).trans (V3_eq_VA Vl m d h)
theorem V5_eq_VA {r : Ref sig .tc} (d : Dev nD) (h : r ∉ WL) : V5 Vl m d (Proc.devRef .tc r) = VA m d (Proc.devRef .tc r) :=
  (V5_of Vl m d (ne_of_not_mem h (by decide))).trans (V4_eq_VA Vl m d h)
theorem VF_eq_VA {r : Ref sig .tc} (d : Dev nD) (h : r ∉ WL) : VF Vl m d (Proc.devRef .tc r) = VA m d (Proc.devRef .tc r) :=
  (VF_of Vl m d (List.not_mem_cons_of_ne_of_not_mem (ne_of_not_mem h (by decide)) List.not_mem_nil)).trans (V5_eq_VA Vl m d h)

/-! The arguments: nothing writes them, so every valuation along @main holds the launch contents there. -/

theorem args_not_written : ∀ r ∈ argRefs, r ∉ WA ∧ r ∉ WL := by decide

theorem VA_arg {r : Ref sig .tc} (d : Dev nD) (h : r ∈ argRefs) : VA m d (Proc.devRef .tc r) = m (d, Proc.devRef .tc r) :=
  VA_of m d (args_not_written r h).1
theorem V1_arg {r : Ref sig .tc} (d : Dev nD) (h : r ∈ argRefs) : V1 Vl m d (Proc.devRef .tc r) = m (d, Proc.devRef .tc r) :=
  (V1_eq_VA Vl m d (args_not_written r h).2).trans (VA_arg m d h)
theorem VB_arg {r : Ref sig .tc} (d : Dev nD) (h : r ∈ argRefs) : VB Vl m d (Proc.devRef .tc r) = m (d, Proc.devRef .tc r) :=
  (VB_eq_VA Vl m d (args_not_written r h).2).trans (VA_arg m d h)
theorem V2_arg {r : Ref sig .tc} (d : Dev nD) (h : r ∈ argRefs) : V2 Vl m d (Proc.devRef .tc r) = m (d, Proc.devRef .tc r) :=
  (V2_eq_VA Vl m d (args_not_written r h).2).trans (VA_arg m d h)
theorem VC_arg {r : Ref sig .tc} (d : Dev nD) (h : r ∈ argRefs) : VC Vl m d (Proc.devRef .tc r) = m (d, Proc.devRef .tc r) :=
  (VC_eq_VA Vl m d (args_not_written r h).2).trans (VA_arg m d h)
theorem V3_arg {r : Ref sig .tc} (d : Dev nD) (h : r ∈ argRefs) : V3 Vl m d (Proc.devRef .tc r) = m (d, Proc.devRef .tc r) :=
  (V3_eq_VA Vl m d (args_not_written r h).2).trans (VA_arg m d h)
theorem V4_arg {r : Ref sig .tc} (d : Dev nD) (h : r ∈ argRefs) : V4 Vl m d (Proc.devRef .tc r) = m (d, Proc.devRef .tc r) :=
  (V4_eq_VA Vl m d (args_not_written r h).2).trans (VA_arg m d h)
theorem V5_arg {r : Ref sig .tc} (d : Dev nD) (h : r ∈ argRefs) : V5 Vl m d (Proc.devRef .tc r) = m (d, Proc.devRef .tc r) :=
  (V5_eq_VA Vl m d (args_not_written r h).2).trans (VA_arg m d h)
theorem VF_arg {r : Ref sig .tc} (d : Dev nD) (h : r ∈ argRefs) : VF Vl m d (Proc.devRef .tc r) = m (d, Proc.devRef .tc r) :=
  (VF_eq_VA Vl m d (args_not_written r h).2).trans (VA_arg m d h)

/-! The operands the calls read, at the valuation each call meets. -/

theorem VB_v1 (d : Dev nD) : VB Vl m d v1' = VA m d v1' := VB_eq_VA Vl m d (by decide)
theorem VC_v1 (d : Dev nD) : VC Vl m d v1' = VA m d v1' := VC_eq_VA Vl m d (by decide)
theorem VC_v15 (d : Dev nD) : VC Vl m d v15' = VA m d v15' := VC_eq_VA Vl m d (by decide)
theorem VC_v19 (d : Dev nD) : VC Vl m d v19' = VA m d v19' := VC_eq_VA Vl m d (by decide)
theorem V3_v3 (d : Dev nD) : V3 Vl m d v3' = VA m d v3' := V3_eq_VA Vl m d (by decide)
theorem V3_v5 (d : Dev nD) : V3 Vl m d v5' = VA m d v5' := V3_eq_VA Vl m d (by decide)
theorem V3_v32 (d : Dev nD) : V3 Vl m d v32' = VA m d v32' := V3_eq_VA Vl m d (by decide)
theorem V4_v30 (d : Dev nD) : V4 Vl m d v30' = VA m d v30' := V4_eq_VA Vl m d (by decide)
theorem VC_v33 (d : Dev nD) : VC Vl m d v33' = cHist Vl m d :=
  (VC_of Vl m d (by decide)).trans <| (V2_of Vl m d (by decide)).trans <| (VB_of Vl m d (by decide)).trans (V1_v33 Vl m d)
theorem VC_v36 (d : Dev nD) : VC Vl m d v36' = cX1 Vl m d := (VC_of Vl m d (by decide)).trans (V2_v36 Vl m d)
theorem V4_v33 (d : Dev nD) : V4 Vl m d v33' = cHist Vl m d :=
  (V4_of Vl m d (by decide)).trans <| (V3_of Vl m d (by decide)).trans (VC_v33 Vl m d)
theorem V4_v39 (d : Dev nD) : V4 Vl m d v39' = cYst Vl m d := (V4_of Vl m d (by decide)).trans (V3_v39 Vl m d)
theorem VF_v41 (d : Dev nD) : VF Vl m d v41' = cOut Vl m d := (VF_of Vl m d (by decide)).trans (V5_v41 Vl m d)

end Frame

/-! ## The later stretches, at any float instance -/

section Later
variable (Vl : Vals F) (m : (ℓ : Loc nD τ sig) → Buf (Elt F) ℓ)

/-- A leading unit axis of a stack cut at member `k` and dropped: the member. -/
theorem member_apply {n a b : ℕ} (X : (⟨3, ![n, a, b]⟩ : Shape).Idx → F .f32) (o : ℕ) (h : (⟨3, ![n, a, b]⟩ : Shape).Slices ![o, 0, 0] ⟨3, ![1, a, b]⟩)
    (hc : (⟨3, ![1, a, b]⟩ : Shape).ShapeCasts ⟨2, ![a, b]⟩) (k : Fin n) (hk : k.val = o) (i : Fin a) (j : Fin b) :
    shapeCast ⟨2, ![a, b]⟩ (extractStridedSlice ⟨3, ![1, a, b]⟩ ![o, 0, 0] X h) hc (ix2 i j) = X (ix3 k i j) := by
  refine (shapeCast_1ab_ab_apply _ _ i j).trans ?_
  exact extractStridedSlice_apply _ _ _ _ (ix3 k i j) fun ax => match ax with
    | ⟨0, _⟩ => hk.trans (Nat.add_zero _).symm | ⟨1, _⟩ => (Nat.zero_add _).symm | ⟨2, _⟩ => (Nat.zero_add _).symm

/-- The first adjacency matrix, as the first TensorCore call meets it. -/
theorem VB_v35 (d : Dev nD) (i j : Fin 4096) :
    (VB Vl m d v35' : S4096x4096.Idx → F .f32) (ix2 i j) = argA m d (ix3 (0 : Fin 2) i j) := by
  dsimp only [VB, opsB]
  after_results_simp
  refine (member_apply _ 0 _ _ (0 : Fin 2) rfl i j).trans ?_
  exact congrFun (V1_arg Vl m d (r := main_arg2) (by decide)) _

/-- The second adjacency matrix, as the second TensorCore call meets it. -/
theorem VC_v38 (d : Dev nD) (i j : Fin 4096) :
    (VC Vl m d v38' : S4096x4096.Idx → F .f32) (ix2 i j) = argA m d (ix3 (1 : Fin 2) i j) := by
  dsimp only [VC, opsC]
  after_results_simp
  refine (member_apply _ 1 _ _ (1 : Fin 2) rfl i j).trans ?_
  exact congrFun (V2_arg Vl m d (r := main_arg2) (by decide)) _

/-- The result: the last call's 4096 × 256 matrix with each row cut into its two halves. -/
theorem VF_v42 (d : Dev nD) (n : Fin 4096) (k : Fin 2) (f : Fin 128) :
    (VF Vl m d v42' : S4096x2x128.Idx → F .f32) (ix3 n k f)
      = (cOut Vl m d : S4096x256.Idx → F .f32) (ix2 n ⟨128 * k.val + f.val, by omega⟩) := by
  dsimp only [VF, opsD]
  after_results_simp
  refine (shapeCast_apply _ _ _ (ix2 n (⟨128 * k.val + f.val, by omega⟩ : Fin 256)) ?_).trans ?_
  · show ((⟨2, ![4096, 256]⟩ : Shape).rowMajor _).val = ((⟨3, ![4096, 2, 128]⟩ : Shape).rowMajor _).val
    rw [Shape.rowMajor_val_three, Shape.rowMajor_val_two]
    show n.val * 256 + (128 * k.val + f.val) = (n.val * 2 + k.val) * 128 + f.val
    omega
  · exact congrFun (V5_v41 Vl m d) _

end Later

/-! ## The block-diagonal weight matrices and the bias row, at any float instance -/

section Kron

/-- The 2 × 2 identity as @main builds it: the row number against the column number, the bit read as a float. -/
abbrev eye2 : S2x2.Idx → F .f32 :=
  uitofp .f32 (cmpi .eq (addi (iotaInDim S2x2 32 0) (broadcastInDim S2x2 ![] bcast_S_S2x2 (constantI S_ 32 0#32))) (iotaInDim S2x2 32 1))

/-- The Kronecker product of a 2 × 2 and a 128 × 128 matrix as @kron builds it: each factor broadcast twice to
    2 × 128 × 2 × 128, the product, the reshape to 256 × 256. -/
abbrev kron (E : S2x2.Idx → F .f32) (W : S128x128.Idx → F .f32) : S256x256.Idx → F .f32 :=
  shapeCast S256x256
    (mulf (broadcastInDim S2x128x2x128 ![0, 1, 2, 3] bcast_S2x1x2x1_S2x128x2x128_0_1_2_3 (broadcastInDim S2x1x2x1 ![0, 2] bcast_S2x2_S2x1x2x1_0_2 E))
      (broadcastInDim S2x128x2x128 ![0, 1, 2, 3] bcast_S1x128x1x128_S2x128x2x128_0_1_2_3 (broadcastInDim S1x128x1x128 ![1, 3] bcast_S128x128_S1x128x1x128_1_3 W)))
    shapeCasts_S2x128x2x128_S256x256

/-- Entry `(f, g)` of the Kronecker product: entry `(f / 128, g / 128)` of the first factor times entry `(f % 128, g % 128)` of the second. -/
theorem kron_apply (E : S2x2.Idx → F .f32) (W : S128x128.Idx → F .f32) (f g : Fin 256) :
    kron E W (ix2 f g)
      = FloatOps.mulf (E (ix2 ⟨f.val / 128, by omega⟩ ⟨g.val / 128, by omega⟩))
          (W (ix2 ⟨f.val % 128, Nat.mod_lt _ (by decide)⟩ ⟨g.val % 128, Nat.mod_lt _ (by decide)⟩)) := by
  refine (shapeCast_apply _ _ _ (ix4 (⟨f.val / 128, by omega⟩ : Fin 2) (⟨f.val % 128, Nat.mod_lt _ (by decide)⟩ : Fin 128)
    (⟨g.val / 128, by omega⟩ : Fin 2) (⟨g.val % 128, Nat.mod_lt _ (by decide)⟩ : Fin 128)) ?_).trans ?_
  · rw [Shape.rowMajor_val_four, Shape.rowMajor_val_two]
    show ((f.val / 128 * 128 + f.val % 128) * 2 + g.val / 128) * 128 + g.val % 128 = f.val * 256 + g.val
    omega
  · show FloatOps.mulf _ _ = _
    congr 1
    · refine (broadcastInDim_apply _ _ _ _ (ix4 (⟨f.val / 128, by omega⟩ : Fin 2) (0 : Fin 1) (⟨g.val / 128, by omega⟩ : Fin 2) (0 : Fin 1))
        fun a => match a with | ⟨0, _⟩ => rfl | ⟨1, _⟩ => rfl | ⟨2, _⟩ => rfl | ⟨3, _⟩ => rfl).trans ?_
      exact broadcastInDim_apply _ _ _ _ (ix2 _ _) fun a => match a with | ⟨0, _⟩ => rfl | ⟨1, _⟩ => rfl
    · refine (broadcastInDim_apply _ _ _ _ (ix4 (0 : Fin 1) (⟨f.val % 128, Nat.mod_lt _ (by decide)⟩ : Fin 128) (0 : Fin 1) (⟨g.val % 128, Nat.mod_lt _ (by decide)⟩ : Fin 128))
        fun a => match a with | ⟨0, _⟩ => rfl | ⟨1, _⟩ => rfl | ⟨2, _⟩ => rfl | ⟨3, _⟩ => rfl).trans ?_
      exact broadcastInDim_apply _ _ _ _ (ix2 _ _) fun a => match a with | ⟨0, _⟩ => rfl | ⟨1, _⟩ => rfl

/-- Member `k` of a stack of three weight matrices, transposed, read at an entry. -/
theorem wT_apply (Ws : S3x128x128.Idx → F .f32) (o : ℕ) (h : S3x128x128.Slices ![o, 0, 0] S1x128x128) (k : Fin 3) (hk : k.val = o) (b e : Fin 128) :
    transpose S128x128 [1, 0] (shapeCast S128x128 (extractStridedSlice S1x128x128 ![o, 0, 0] Ws h) shapeCasts_S1x128x128_S128x128)
        transposes_S128x128_S128x128_1_0 (ix2 b e) = Ws (ix3 k e b) :=
  (transpose_ix2_apply _ _ b e).trans (member_apply _ o _ _ k hk e b)

variable (m : (ℓ : Loc nD τ sig) → Buf (Elt F) ℓ)

/-- The two weight matrices the second TensorCore call reads, as the terms the first stretch computes. -/
theorem VA_v15_term (d : Dev nD) :
    (VA m d v15' : S256x256.Idx → F .f32)
      = kron eye2 (transpose S128x128 [1, 0] (shapeCast S128x128 (extractStridedSlice S1x128x128 ![0, 0, 0] (argWs m d) slices_S3x128x128_S1x128x128_0_0_0) shapeCasts_S1x128x128_S128x128) transposes_S128x128_S128x128_1_0) := by
  dsimp only [VA, opsA]
  after_results_simp
  rfl
theorem VA_v19_term (d : Dev nD) :
    (VA m d v19' : S256x256.Idx → F .f32)
      = kron eye2 (transpose S128x128 [1, 0] (shapeCast S128x128 (extractStridedSlice S1x128x128 ![1, 0, 0] (argWs m d) slices_S3x128x128_S1x128x128_1_0_0) shapeCasts_S1x128x128_S128x128) transposes_S128x128_S128x128_1_0) := by
  dsimp only [VA, opsA]
  after_results_simp
  rfl

/-- Entry `(f, g)` of kron(I₂, Wsᵀ[0]): the identity's entry `(f / 128, g / 128)` times `Ws[0, g % 128, f % 128]`. -/
theorem VA_v15_raw (d : Dev nD) (f g : Fin 256) :
    (VA m d v15' : S256x256.Idx → F .f32) (ix2 f g)
      = FloatOps.mulf (eye2 (ix2 ⟨f.val / 128, by omega⟩ ⟨g.val / 128, by omega⟩))
          (argWs m d (ix3 (0 : Fin 3) ⟨g.val % 128, Nat.mod_lt _ (by decide)⟩ ⟨f.val % 128, Nat.mod_lt _ (by decide)⟩)) := by
  rw [VA_v15_term, kron_apply, wT_apply _ 0 _ 0 rfl]
theorem VA_v19_raw (d : Dev nD) (f g : Fin 256) :
    (VA m d v19' : S256x256.Idx → F .f32) (ix2 f g)
      = FloatOps.mulf (eye2 (ix2 ⟨f.val / 128, by omega⟩ ⟨g.val / 128, by omega⟩))
          (argWs m d (ix3 (1 : Fin 3) ⟨g.val % 128, Nat.mod_lt _ (by decide)⟩ ⟨f.val % 128, Nat.mod_lt _ (by decide)⟩)) := by
  rw [VA_v19_term, kron_apply, wT_apply _ 1 _ 1 rfl]

/-- Row `k` of the three bias rows, read at an entry. -/
theorem bsRow_apply (Bs : S3x128.Idx → F .f32) (o : ℕ) (h : S3x128.Slices ![o, 0] S1x128) (k : Fin 3) (hk : k.val = o) (b : Fin 128) :
    shapeCast S128 (extractStridedSlice S1x128 ![o, 0] Bs h) shapeCasts_S1x128_S128 (ix1 b) = Bs (ix2 k b) :=
  (shapeCast_1a_a_apply _ _ b).trans (slice2_axis0_apply o _ _ 0 b k (hk.trans (Nat.add_zero _).symm))

/-- Entry `f` of the bias row: the word `0x40000000` times `bs[0, f % 128]`, plus `bs[1, f % 128]`. -/
theorem VA_v30_raw (d : Dev nD) (u : Fin 1) (f : Fin 256) :
    (VA m d v30' : S1x256.Idx → F .f32) (ix2 u f)
      = FloatOps.addf (FloatOps.mulf (FloatOps.ofBits .f32 0x40000000#32) (argBs m d (ix2 (0 : Fin 3) ⟨f.val % 128, Nat.mod_lt _ (by decide)⟩)))
          (argBs m d (ix2 (1 : Fin 3) ⟨f.val % 128, Nat.mod_lt _ (by decide)⟩)) := by
  dsimp only [VA, opsA]
  after_results_simp
  refine (shapeCast_a_1a_apply _ _ u f).trans ?_
  refine (shapeCast_apply _ _ _ (ix2 (⟨f.val / 128, by omega⟩ : Fin 2) (⟨f.val % 128, Nat.mod_lt _ (by decide)⟩ : Fin 128)) ?_).trans ?_
  · show ((⟨2, ![2, 128]⟩ : Shape).rowMajor _).val = ((⟨1, ![256]⟩ : Shape).rowMajor _).val
    rw [Shape.rowMajor_val_two, Shape.rowMajor_val_one]
    show f.val / 128 * 128 + f.val % 128 = f.val
    omega
  refine (broadcastInDim_apply _ _ _ _ (ix2 (0 : Fin 1) (⟨f.val % 128, Nat.mod_lt _ (by decide)⟩ : Fin 128))
    fun a => match a with | ⟨0, _⟩ => rfl | ⟨1, _⟩ => rfl).trans ?_
  refine (shapeCast_a_1a_apply _ _ 0 _).trans ?_
  show FloatOps.addf (FloatOps.mulf (FloatOps.ofBits .f32 0x40000000#32) _) _ = _
  congr 2
  · exact bsRow_apply _ 0 _ 0 rfl _
  · exact bsRow_apply _ 1 _ 1 rfl _

end Kron

/-! ## The same values in the extended reals -/

section AtIdeal
variable (m : (ℓ : Loc nD τ sig) → Buf (Elt Ideal) ℓ)

/-- The binary32 pattern `0x40000000` is the number two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The 2 × 2 identity: one on the diagonal, zero off it. -/
theorem eye2_ideal (a c : Fin 2) : eye2 (F := Ideal) (ix2 a c) = if a.val = c.val then 1 else 0 := by
  have key : ∀ a c : Fin 2, IntOp.cmpi .eq (IntOp.addi (BitVec.ofNat 32 a.val) 0#32) (BitVec.ofNat 32 c.val) = if a.val = c.val then 1#1 else 0#1 := by decide
  show (((IntOp.cmpi .eq (IntOp.addi (BitVec.ofNat 32 a.val) 0#32) (BitVec.ofNat 32 c.val)).toNat : ℝ) : EReal) = _
  rw [key]
  split_ifs <;> simp

/-- kron(I₂, Wsᵀ[0]): block-diagonal, each diagonal block the transposed weight matrix. -/
theorem VA_v15 (d : Dev nD) (f g : Fin 256) :
    (VA m d v15' : S256x256.Idx → EReal) (ix2 f g)
      = if f.val / 128 = g.val / 128 then argWs m d (ix3 (0 : Fin 3) ⟨g.val % 128, Nat.mod_lt _ (by decide)⟩ ⟨f.val % 128, Nat.mod_lt _ (by decide)⟩) else 0 := by
  rw [VA_v15_raw, eye2_ideal]
  show (if f.val / 128 = g.val / 128 then (1 : EReal) else 0) * _ = _
  rw [ite_mul, one_mul, zero_mul]
/-- kron(I₂, Wsᵀ[1]). -/
theorem VA_v19 (d : Dev nD) (f g : Fin 256) :
    (VA m d v19' : S256x256.Idx → EReal) (ix2 f g)
      = if f.val / 128 = g.val / 128 then argWs m d (ix3 (1 : Fin 3) ⟨g.val % 128, Nat.mod_lt _ (by decide)⟩ ⟨f.val % 128, Nat.mod_lt _ (by decide)⟩) else 0 := by
  rw [VA_v19_raw, eye2_ideal]
  show (if f.val / 128 = g.val / 128 then (1 : EReal) else 0) * _ = _
  rw [ite_mul, one_mul, zero_mul]

/-- The bias row: twice the first bias plus the second, the same in both halves. -/
theorem VA_v30 (d : Dev nD) (u : Fin 1) (f : Fin 256) :
    (VA m d v30' : S1x256.Idx → EReal) (ix2 u f)
      = 2 * argBs m d (ix2 (0 : Fin 3) ⟨f.val % 128, Nat.mod_lt _ (by decide)⟩) + argBs m d (ix2 (1 : Fin 3) ⟨f.val % 128, Nat.mod_lt _ (by decide)⟩) := by
  rw [VA_v30_raw]
  show Ideal.ofBits .f32 0x40000000#32 * _ + _ = _
  rw [ofBits_two_f32]

/-- The two initial values are zero. -/
theorem VA_v31_ideal (d : Dev nD) (n : Fin 4096) : (VA m d v31' : S4096.Idx → EReal) (ix1 n) = (0 : EReal) :=
  (VA_v31 m d n).trans Ideal.ofBits_zero_f32
theorem VA_v32_ideal (d : Dev nD) (s : Fin 16) (n : Fin 4096) : (VA m d v32' : S16x4096.Idx → EReal) (ix2 s n) = (0 : EReal) :=
  (VA_v32 m d s n).trans Ideal.ofBits_zero_f32
theorem VA_v31_ideal_eq (d : Dev nD) : (VA m d v31' : S4096.Idx → EReal) = fun _ => (0 : EReal) :=
  (VA_v31_eq m d).trans (funext fun _ => Ideal.ofBits_zero_f32)
theorem VA_v32_ideal_eq (d : Dev nD) : (VA m d v32' : S16x4096.Idx → EReal) = fun _ => (0 : EReal) :=
  (VA_v32_eq m d).trans (funext fun _ => Ideal.ofBits_zero_f32)

end AtIdeal

end Cert.Proof.KB

end
-- ==== Proof.Bits.Ranges.lean ====
/-
  What the precondition gives the two SparseCore calls: every edge endpoint, as the calls meet the two index
  arrays (rows 0 and 1 of the edge list, untouched by the launches in between), is a node number below 4096.
-/
import proofs.«205814_g58841051955373_cont_9to1_m_133_55_alg».proof.Proof.Bits.HostVals
import proofs.«205814_g58841051955373_cont_9to1_m_133_55_alg».proof.Proof.PreFacts

noncomputable section

namespace Cert.Proof.KB

open Cert.Kernel Cert.Kernel.Gen
open Idealize.ShloMosaic Idealize.ShloMosaic.TcCoe Idealize.SL.Sem
open Idealize.ShloMosaic.ValueIdx

variable {F : FTy → Type} [FloatOps F]
variable (Vl : Vals F) (m : (ℓ : Loc nD τ sig) → Buf (Elt F) ℓ)

/-- The precondition, on every device: the input builder's predicate of the five arguments is all ones. -/
def PreOK : Prop := ∀ c : Dev nD,
  Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1

theorem adj_lt (h : PreOK m) (d : Dev nD) (i : S2x65536.Idx) : ((argAdj m d) i).toNat < 4096 :=
  Cert.Proof.PreFacts.adj_range _ _ _ _ _ (h d) i

theorem dst_range (h : PreOK m) (d : Dev nD) (i : S65536.Idx) : ((VA m d v5' : S65536.Idx → BitVec 32) i).toNat < 4096 := by
  obtain ⟨e, rfl⟩ : ∃ e : Fin 65536, i = ix1 e := ⟨i 0, eq_ix1 i⟩
  have := adj_lt m h d (ix2 (1 : Fin 2) e)
  rwa [← VA_v5 m d e] at this
theorem src_range (h : PreOK m) (d : Dev nD) (i : S65536.Idx) : ((VA m d v3' : S65536.Idx → BitVec 32) i).toNat < 4096 := by
  obtain ⟨e, rfl⟩ : ∃ e : Fin 65536, i = ix1 e := ⟨i 0, eq_ix1 i⟩
  have := adj_lt m h d (ix2 (0 : Fin 2) e)
  rwa [← VA_v3 m d e] at this

theorem cc_dst_range (h : PreOK m) (d : Dev nD) (i : S65536.Idx) : (((CC Vl m).dst d : S65536.Idx → BitVec 32) i).toNat < 4096 := dst_range m h d i
theorem cc_dst1_range (h : PreOK m) (d : Dev nD) (i : S65536.Idx) : (((CC Vl m).dst1 d : S65536.Idx → BitVec 32) i).toNat < 4096 := by
  show ((V3 Vl m d v5' : S65536.Idx → BitVec 32) i).toNat < 4096
  rw [V3_v5]; exact dst_range m h d i
theorem cc_src_range (h : PreOK m) (d : Dev nD) (i : S65536.Idx) : (((CC Vl m).src d : S65536.Idx → BitVec 32) i).toNat < 4096 := by
  show ((V3 Vl m d v3' : S65536.Idx → BitVec 32) i).toNat < 4096
  rw [V3_v3]; exact src_range m h d i

end Cert.Proof.KB

end
-- ==== Proof.Bits.DegBody.lean ====
/-
  The degree histogram's task on one vector subcore. The tile numbered w = 16 * (L 0) + (L 1) of 32 copies the
  zero vector into its 4096-word histogram scratch and the w-th block of 2048 edge targets into its index scratch;
  then, in 128 trips of 16 targets each, it adds the constant one onto the histogram word each target names, one
  lane at a time (sixteen indexed add-stores, the l-th masked to lane l alone, so no store has two lanes on one
  word); at last it copies the histogram scratch onto row w of the 32 x 4096 result. Stated once at a symbolic
  tile, generic in the float instance: the value the row ends with is the fold histAfter of the indexed store's
  own addition over the block's 2048 targets in order, from the zero vector's contents.
-/
import proofs.«205814_g58841051955373_cont_9to1_m_133_55_alg».proof.Proof.Bits.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The value: one more target counted -/

section Value

variable [FloatOps F]

/-- The constant the kernel adds: the float whose bits are those of 1.0. -/
def oneF : Elt F .f32 := (Scalar.ofBits .f32 0x3F800000#32 : F .f32)

/-- One target counted: the word the target names gains the constant, by the indexed store's own addition; every
    other word stays. -/
def bumpAt (f : S4096.Idx → Elt F .f32) (t : BitVec 32) : S4096.Idx → Elt F .f32 :=
  fun j => if (j 0).val = t.toNat then Elt.idxAdd .f32 (f j) oneF else f j

/-- Position k of a block of 2048 targets (positions past the block wrap; none is ever asked for). -/
def laneIx (k : ℕ) : S2048.Idx := Shape.ofLane (d := ![2048]) ⟨k % 2048, Nat.mod_lt _ (by decide)⟩

/-- The histogram after the first k targets of the block tg, from the contents z: the targets counted in order. -/
def histAfter (z : S4096.Idx → Elt F .f32) (tg : S2048.Idx → BitVec 32) : ℕ → S4096.Idx → Elt F .f32
  | 0 => z
  | k + 1 => bumpAt (histAfter z tg k) (tg (laneIx k))

@[simp] theorem histAfter_zero (z : S4096.Idx → Elt F .f32) (tg : S2048.Idx → BitVec 32) : histAfter z tg 0 = z := rfl
theorem histAfter_succ (z : S4096.Idx → Elt F .f32) (tg : S2048.Idx → BitVec 32) (k : ℕ) :
    histAfter z tg (k + 1) = bumpAt (histAfter z tg k) (tg (laneIx k)) := rfl

end Value

/-! ## One masked lane of the indexed add-store -/

section Lane

variable [FloatOps F]

/-- A fold whose step changes the state at one element of the list only is that one change. -/
theorem foldl_single {α β : Type} [DecidableEq β] (step : α → β → α) (upd : α → α) (l : β)
    (hl : ∀ g, step g l = upd g) (hne : ∀ g k, k ≠ l → step g k = g) :
    ∀ (ks : List β), ks.Nodup → ∀ g, ks.foldl step g = if l ∈ ks then upd g else g := by
  intro ks
  induction ks with
  | nil => intro _ g; simp
  | cons k ks ih =>
    intro hnd g
    rw [List.foldl_cons]
    have hnd' := List.nodup_cons.mp hnd
    by_cases hk : k = l
    · subst hk
      rw [hl, ih hnd'.2, if_neg hnd'.1, if_pos List.mem_cons_self]
    · rw [hne g k hk, ih hnd'.2]
      by_cases hm : l ∈ ks
      · rw [if_pos hm, if_pos (List.mem_cons_of_mem _ hm)]
      · rw [if_neg hm, if_neg (fun hc => (List.mem_cons.mp hc).elim (fun e => hk e.symm) hm)]

/-- The mask "lane = c" of the sixteen-lane register: set at lane c, clear elsewhere. -/
theorem lane_mask (c : ℕ) (hc : c < 16) (x : S16.Idx) :
    cmpi .eq (iota .scVector S16 32 [0] iota_S16_d0_w32_scVector) (broadcast S16 (BitVec.ofNat 32 c)) x
      = if (x 0).val = c then 1 else 0 := by
  have hx : (x 0).val < 16 := (x 0).isLt
  simp only [cmpi, IntOp.cmpi, iota, broadcast, List.foldl_cons, List.foldl_nil]
  by_cases h : (x 0).val = c
  · rw [if_pos h, h]; simp
  · rw [if_neg h]
    have hne : BitVec.ofNat 32 (x 0).val ≠ BitVec.ofNat 32 c := by
      intro e
      have := congrArg BitVec.toNat e
      simp only [BitVec.toNat_ofNat] at this
      omega
    simp only [Nat.zero_mul, Nat.zero_add]
    rw [show (BitVec.ofNat 32 (x 0).val == BitVec.ofNat 32 c) = false from beq_false_of_ne hne]
    rfl

end Lane

section LaneStore

variable [FloatOps F]

/-- An indexed add-store of the constant vector masked to lane l alone counts lane l's target once. -/
theorem storeIdx_lane (f : Vec F S4096 .f32) (v40 : IVec S16 32) (mask : IVec S16 1) (l : Fin 16)
    (hmask : ∀ x, mask x = if (x 0).val = l.val then 1 else 0)
    (h : ∀ a x, ((![v40] : Fin 1 → IVec S16 32) a x).toNat < S4096.size a) :
    storeIdx f ![v40] (k0_pay3 (F := F)) mask true h = bumpAt f (v40 (Shape.ofLane (d := ![16]) l)) := by
  unfold storeIdx
  refine (foldl_single _ (fun g => bumpAt g (v40 (Shape.ofLane (d := ![16]) l))) l ?_ ?_ _ (List.nodup_finRange 16) f).trans
    (if_pos (List.mem_finRange l))
  · intro g
    have hm : mask (Shape.ofLane (d := ![16]) l) = 1 := by rw [hmask]; exact if_pos rfl
    simp only [hm, if_true]
    funext j
    unfold bumpAt
    by_cases hj : (j 0).val = (v40 (Shape.ofLane (d := ![16]) l)).toNat
    · have hall : ∀ a, (j a).val = ((idxAt (s := S4096) ![v40] h (Shape.ofLane (d := ![16]) l)) a).val := by
        intro a; obtain rfl : a = 0 := Subsingleton.elim _ _; exact hj
      have hji : idxAt (s := S4096) ![v40] h (Shape.ofLane (d := ![16]) l) = j := by
        funext a; exact Fin.ext (hall a).symm
      rw [if_pos hall, if_pos hj, hji]; rfl
    · have hall : ¬ ∀ a, (j a).val = ((idxAt (s := S4096) ![v40] h (Shape.ofLane (d := ![16]) l)) a).val :=
        fun hc => hj (hc 0)
      rw [if_neg hall, if_neg hj]
  · intro g k hk
    have hm : mask (Shape.ofLane (d := ![16]) k) ≠ 1 := by
      rw [hmask]
      have hkl : ¬ ((Shape.ofLane (d := ![16]) k) 0).val = l.val := fun e => hk (Fin.ext e)
      rw [if_neg hkl]; decide
    simp only [hm, if_false]

/-- Lane l of the sixteen-lane register. -/
def ln (l : Fin 16) : S16.Idx := Shape.ofLane (d := ![16]) l

theorem storeIdx_ln (f : Vec F S4096 .f32) (v40 : IVec S16 32) (mask : IVec S16 1) (l : Fin 16)
    (hmask : ∀ x, mask x = if (x 0).val = l.val then 1 else 0)
    (h : ∀ a x, ((![v40] : Fin 1 → IVec S16 32) a x).toNat < S4096.size a) :
    storeIdx f ![v40] (k0_pay3 (F := F)) mask true h = bumpAt f (v40 (ln l)) :=
  storeIdx_lane f v40 mask l hmask h

end LaneStore
/-! ## The tile's memrefs, as the program spells them -/

abbrev tgtV : Memref sig .scVector .hbm S65536 .i32 := Memref.whole main_v5_scv
abbrev zerV : Memref sig .scVector .hbm S4096 .f32 := Memref.whole main_v31_scv
abbrev hstV : Memref sig .scVector .hbm S32x4096 .f32 := Memref.whole main_v33_scv
abbrev sH : Memref sig .scVector .vmem S4096 .f32 := Memref.whole cc0_scratch0
abbrev sT : Memref sig .scVector .vmem S2048 .i32 := Memref.whole cc0_scratch1

abbrev cV (L : grid0.Coords) : Fin τ.nSC := (L 0).castLE hcore0
abbrev jV (L : grid0.Coords) : Fin τ.nSub := (L 1).castLE hsub0

/-- The tile's block of the targets, and its row of the result, as the program slices them. -/
abbrev tgtSl (L : grid0.Coords) : Memref sig .scVector .hbm S2048 .i32 :=
  (tgtV).slice (Rect.unit (s := S65536) (k0_off1 L) S2048.size (k0_off1_inb L)) (fun _ => rfl)
abbrev hstRow (L : grid0.Coords) : Memref sig .scVector .hbm S4096 .f32 :=
  ((hstV).slice (Rect.unit (s := S32x4096) (k0_off3 L) S1x4096.size (k0_off3_inb L)) (fun _ => rfl)).squeeze S4096 squeezes_S1x4096_S4096

/-- The elements of the targets the tile is handed, and of the result it writes. -/
abbrev tgtSet (L : grid0.Coords) : Finset S65536.Idx := (tgtSl L).view.set
abbrev rowSet (L : grid0.Coords) : Finset S32x4096.Idx := (hstRow L).view.set

/-- The tile's block of targets, read off the array's contents. -/
abbrev tgtOf (d : Dev nD) (L : grid0.Coords) (ft : Buf (Elt F) (dstLoc d)) : S2048.Idx → BitVec 32 :=
  (tgtSl L).view.read (Elt F) ft

/-! ## The tile's own semaphores and scratch, out of the subcore's -/

section Own

variable (d : Dev nD) (L : grid0.Coords)

abbrev c0cell : GSem nD τ sig := (V d (cV L) (jV L), .dma cc0_scoped0.sem)
abbrev c1cell : GSem nD τ sig := (V d (cV L) (jV L), .dma cc0_scoped1.sem)
abbrev c2cell : GSem nD τ sig := (V d (cV L) (jV L), .dma cc0_scoped2.sem)

theorem ownSems0_V :
    (ownSems0 (V d (cV L) (jV L)) : sProp 𝕄)
      = iprop(semVal (c0cell d L) 0 ∗ semVal (c1cell d L) 0 ∗ semVal (c2cell d L) 0
          ∗ bigSep ((((ownCells (V d (cV L) (jV L))).erase (c0cell d L)).erase (c1cell d L)).erase (c2cell d L))
              fun g => semVal g 0) := by
  unfold SparseCore.Cfg.ownSems0
  rw [SparseCore.bigSep_erase' ((mem_ownCells (g := c0cell d L)).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc0_scoped2.sem : SemLoc sig).isScoped .scVector = true; decide⟩⟩⟩)]

/-- The histogram and the index scratch are among the subcore's own buffers: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The arrays as the tile's memrefs address them are the device's arrays. -/
theorem pts_tgt (f : Buf (Elt F) (dstLoc d)) :
    ((tgtSl L).view.loc (V d (cV L) (jV L)) ↦[(tgtSl L).view.set]{fullShare} f : sProp 𝕄) = dstLoc d ↦[tgtSet L]{fullShare} f := rfl
theorem pts_zer (q : PosShare TreeShare) (f : Buf (Elt F) (z1Loc d)) :
    ((zerV).view.loc (V d (cV L) (jV L)) ↦{q} f : sProp 𝕄) = z1Loc d ↦{q} f := rfl
theorem pts_row (f : Buf (Elt F) (histLoc d)) :
    ((hstRow L).view.loc (V d (cV L) (jV L)) ↦[(hstRow L).view.set]{fullShare} f : sProp 𝕄) = histLoc d ↦[rowSet L]{fullShare} f := rfl
theorem pts_sH (f : Buf (Elt F) ((V d (cV L) (jV L)).loc cc0_scratch0)) :
    ((sH).view.loc (V d (cV L) (jV L)) ↦{fullShare} f : sProp 𝕄) = (V d (cV L) (jV L)).loc cc0_scratch0 ↦{fullShare} f := rfl
theorem pts_sT (f : Buf (Elt F) ((V d (cV L) (jV L)).loc cc0_scratch1)) :
    ((sT).view.loc (V d (cV L) (jV L)) ↦{fullShare} f : sProp 𝕄) = (V d (cV L) (jV L)).loc cc0_scratch1 ↦{fullShare} f := rfl
theorem pts_sH_whole (f : Buf (Elt F) ((V d (cV L) (jV L)).loc cc0_scratch0)) :
    (((sH).access (.whole S4096)).loc (V d (cV L) (jV L)) ↦[((sH).access (.whole S4096)).set]{fullShare} f : sProp 𝕄)
      = (V d (cV L) (jV L)).loc cc0_scratch0 ↦{fullShare} f := by
  rw [show ((sH).access (.whole S4096)).set = Finset.univ from Memref.set_access_whole (cc0_scratch0 : Ref sig .scVector)]

end Own

section Body

variable [FloatOps F] (d : Dev nD) (L : grid0.Coords)

/-- The tile's block of targets, element by element. -/
theorem tgtOf_apply (ft : Buf (Elt F) (dstLoc d)) (x : S2048.Idx) : tgtOf d L ft x = ft ((tgtSl L).view.emb x) :=
  (View.read_apply _ _).trans (cast_eq _ _)

/-- Lane l of the sixteen targets trip g loads is target 16 g + l of the block. -/
theorem trip_lane (tg : S2048.Idx → BitVec 32) (g : Fin k0_t1_loop.trips) (l : Fin 16) :
    (sT).view.readAt (Elt F) (Rect.unit (s := S2048) (k0_off2 g) S16.size (k0_off2_inb g)).toLoadRect tg (ln l)
      = tg (laneIx (16 * g.val + l.val)) := by
  have hg : g.val < 128 := lt_of_lt_of_le g.isLt k0_t1_abs.2.1
  have hidx : (Rect.unit (s := S2048) (k0_off2 g) S16.size (k0_off2_inb g)).toLoadRect.idx (ln l) = laneIx (16 * g.val + l.val) := by
    funext (a : Fin 1)
    obtain rfl : a = 0 := Subsingleton.elim _ _
    apply Fin.ext
    rw [LoadRect.idx_apply]
    show (k0_off2 g) 0 + 1 * l.val = (16 * g.val + l.val) % 2048
    rw [k0_off2_eq, Nat.mod_eq_of_lt (by have := l.isLt; omega)]
    simp
  simp only [View.readAt_apply, Memref.view_whole, View.read_whole]
  rw [hidx]

/-- The sixteen targets a trip loads are in range: the trip's check holds. -/
theorem chk_ok (ft : Buf (Elt F) (dstLoc d)) (hrange : ∀ i, (ft i).toNat < 4096) (g : Fin k0_t1_loop.trips) :
    k0_chk1 ((sT).view.readAt (Elt F) (Rect.unit (s := S2048) (k0_off2 g) S16.size (k0_off2_inb g)).toLoadRect (tgtOf d L ft)) := by
  have h1 : ∀ a x, ((![(sT).view.readAt (Elt F) (Rect.unit (s := S2048) (k0_off2 g) S16.size (k0_off2_inb g)).toLoadRect (tgtOf d L ft)] : Fin 1 → IVec S16 32) a x).toNat
      < S4096.size a := by
    intro a x
    obtain rfl : a = 0 := Subsingleton.elim _ _
    show (((sT).view.readAt (Elt F) (Rect.unit (s := S2048) (k0_off2 g) S16.size (k0_off2_inb g)).toLoadRect (tgtOf d L ft)) x).toNat < 4096
    rw [View.readAt_apply]
    show (tgtOf d L ft _).toNat < 4096
    rw [tgtOf_apply]
    exact hrange _
  exact ⟨h1, h1, h1, h1, h1, h1, h1, h1, h1, h1, h1, h1, h1, h1, h1, h1⟩

/-- Sixteen targets counted are one trip of the histogram. -/
theorem trip_value (z : S4096.Idx → Elt F .f32) (tg : S2048.Idx → BitVec 32) (k : ℕ) (v : IVec S16 32)
    (hv : ∀ l : Fin 16, v (ln l) = tg (laneIx (16 * k + l.val))) :
    bumpAt (bumpAt (bumpAt (bumpAt (bumpAt (bumpAt (bumpAt (bumpAt (bumpAt (bumpAt (bumpAt (bumpAt (bumpAt (bumpAt (bumpAt (bumpAt
      (histAfter z tg (16 * k))
      (v (ln 0))) (v (ln 1))) (v (ln 2))) (v (ln 3)))
      (v (ln 4))) (v (ln 5))) (v (ln 6))) (v (ln 7)))
      (v (ln 8))) (v (ln 9))) (v (ln 10))) (v (ln 11)))
      (v (ln 12))) (v (ln 13))) (v (ln 14))) (v (ln 15))
      = histAfter z tg (16 * (k + 1)) := by
  rw [hv 0, hv 1, hv 2, hv 3, hv 4, hv 5, hv 6, hv 7, hv 8, hv 9, hv 10, hv 11, hv 12, hv 13, hv 14, hv 15]
  rfl

/-- One lane's indexed add-store on the histogram scratch held outright: the lane's target counted. -/
theorem wp_lane (f : Buf (Elt F) (((sH).access (.whole S4096)).loc (V d (cV L) (jV L)))) (v40 : IVec S16 32) (mask : IVec S16 1) (l : Fin 16)
    (hmask : ∀ x, mask x = if (x 0).val = l.val then 1 else 0)
    (h : ∀ a x, ((![v40] : Fin 1 → IVec S16 32) a x).toNat < S4096.size a)
    (hs : ((sH).access (.whole S4096)).Stores Finset.univ)
    {α : Type} {k : PUnit → Prog (TpuEff nD τ sig (Elt F) Λ₀ (V d (cV L) (jV L)).2) α} {Q : α → sProp 𝕄} :
    (((sH).access (.whole S4096)).loc (V d (cV L) (jV L)) ↦[((sH).access (.whole S4096)).set]{fullShare} f : sProp 𝕄)
      ⊢ iprop(((((sH).access (.whole S4096)).loc (V d (cV L) (jV L)) ↦[((sH).access (.whole S4096)).set]{fullShare}
            (bumpAt f (v40 (ln l)) : Buf (Elt F) (((sH).access (.whole S4096)).loc (V d (cV L) (jV L)))))
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx (sH) ![v40] (k0_pay3 (F := F)) mask true h hs >>= k) Q) := by
  have e : ((sH).access (.whole S4096)).write (Elt F) f
      (storeIdx (((sH).access (.whole S4096)).read (Elt F) f) ![v40] (k0_pay3 (F := F)) mask true h) Finset.univ
      = bumpAt f (v40 (ln l)) := by
    have e2 : ((sH).access (.whole S4096)).read (Elt F) f = f := Memref.read_access_whole (Elt F) (cc0_scratch0 : Ref sig .scVector) f
    refine Eq.trans (Memref.write_access_whole_univ (Elt F) (cc0_scratch0 : Ref sig .scVector) f _) ?_
    rw [e2]
    exact storeIdx_ln f v40 mask l hmask h
  rw [← e]
  exact SparseCore.wp_vectorStoreIdx 𝒱₀ (V d (cV L) (jV L)) none Set.univ

theorem trips_eq : k0_t1_loop.trips = 128 := by decide +kernel

end Body

section Run

variable [FloatOps F] (d : Dev nD) (L : grid0.Coords)

/-- Before trip k: the index scratch holds the tile's block of targets, the histogram scratch the first 16 k of them counted. -/
def inv (ft : Buf (Elt F) (dstLoc d)) (z : Buf (Elt F) (z1Loc d)) (k : Nat) (_ : Unit) : sProp 𝕄 :=
  iprop(((sT).view.loc (V d (cV L) (jV L)) ↦{fullShare} (tgtOf d L ft : Buf (Elt F) ((sT).view.loc (V d (cV L) (jV L)))))
    ∗ ((sH).view.loc (V d (cV L) (jV L)) ↦{fullShare} (histAfter z (tgtOf d L ft) (16 * k) : Buf (Elt F) ((sH).view.loc (V d (cV L) (jV L))))))

theorem deg_body (q : PosShare TreeShare) (O : CellTallies nD τ sig (HIx 2)) (W : Waits sig (HIx 2)) (hO : ∀ g, O g none = 0)
    (ft : Buf (Elt F) (dstLoc d)) (z : Buf (Elt F) (z1Loc d)) (fo : Buf (Elt F) (histLoc d))
    (hrange : ∀ i, (ft i).toNat < 4096) :
    iprop((levAts (K (F := F)).L (K (F := F)).lev : sProp 𝕄)
        ∗ (dstLoc d ↦[tgtSet L]{fullShare} ft)
        ∗ (z1Loc d ↦{q} z)
        ∗ (histLoc d ↦[rowSet L]{fullShare} fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__deg_k L tgtV (Memref.isWhole_whole _) zerV (Memref.isWhole_whole _) hstV (Memref.isWhole_whole _)
            sH (Memref.isWhole_whole _) sT (Memref.isWhole_whole _) cc0_scoped0 cc0_scoped1 cc0_scoped2)
          fun _ => iprop((dstLoc d ↦[tgtSet L]{fullShare} ft)
            ∗ (z1Loc d ↦{q} z)
            ∗ (∃ fo' : Buf (Elt F) (histLoc d), ⌜∀ n : S4096.Idx, fo' ((hstRow L).view.emb n) = histAfter z (tgtOf d L ft) 2048 n⌝
                ∗ histLoc d ↦[rowSet L]{fullShare} fo')
            ∗ scopedBufs (V d (cV L) (jV L)) ∗ scopedSems0 (V d (cV L) (jV L))
            ∗ ∃ W', ⌜∀ p ∈ W', p ∈ W ∨ p.2 = none⌝ ∗ owes (V d (cV L) (jV L)) O W') := by
  sl_unfold [cc0__deg_k]
  rw [(K (F := F)).scopedBufs_V facts d (cV L) (jV L), SparseCore.Cfg.scopedSems0_V (Val := Elt F) d (cV L) (jV L), ownSems0_V, ownBufs_V]
  iintro ⟨#Hlv, Ht, Hz, Ho, ⟨⟨%fh, Hh⟩, ⟨%fs, Hs⟩, Hbufs⟩, ⟨Hsem0, Hsem1, Hsem2, Hsems⟩, HO⟩
  ihave Hmw := ((K (F := F)).mayWaits_none (thr := V d (cV L) (jV L)) hO) $$ Hlv
  ihave Ht' := (Entails.of_eq (pts_tgt (F := F) d L _).symm) $$ Ht
  ihave Hz' := (Entails.of_eq (pts_zer (F := F) d L q _).symm) $$ Hz
  ihave Ho' := (Entails.of_eq (pts_row (F := F) d L _).symm) $$ Ho
  ihave Hh' := (Entails.of_eq (pts_sH (F := F) d L _).symm) $$ Hh
  ihave Hs' := (Entails.of_eq (pts_sT (F := F) d L _).symm) $$ Hs
  -- the zero vector and the tile's block of targets, copied into the two scratches
  sl_exec
  have eH : View.write (Elt F) (sH).view fh (deg_body.sl.dma0 d z) Finset.univ = histAfter z (tgtOf d L ft) (16 * 0) :=
    (View.write_whole_univ _ _ _).trans rfl
  have eT : View.write (Elt F) (sT).view fs (deg_body.sl.dma0_1 d L ft) Finset.univ = tgtOf d L ft :=
    (View.write_whole_univ _ _ _).trans rfl
  ihave Hh0 := (Entails.of_eq (congrArg (fun f => ((sH).view.loc (V d (cV L) (jV L)) ↦{fullShare} f : sProp 𝕄)) eH)) $$ Hh'
  ihave Hs0 := (Entails.of_eq (congrArg (fun f => ((sT).view.loc (V d (cV L) (jV L)) ↦{fullShare} f : sProp 𝕄)) eT)) $$ Hs'
  sl_for (inv (F := F) d L ft z) $$ [Hs0 Hh0]
  case region =>
    intro g _
    unfold inv
    iintro ⟨Hs, Hh⟩
    have hchk := chk_ok (F := F) d L ft hrange g
    sl_exec
    ihave Hh := (Entails.of_eq ((pts_sH (F := F) d L _).trans (pts_sH_whole (F := F) d L _).symm)) $$ Hh
    iapply (wp_lane (F := F) d L _ _ _ 0 ?hm0 _ _) $$ Hh
    case hm0 => exact fun x => lane_mask 0 (by decide) x
    iintro Hh
    iapply (wp_lane (F := F) d L _ _ _ 1 ?hm1 _ _) $$ Hh
    case hm1 => exact fun x => lane_mask 1 (by decide) x
    iintro Hh
    iapply (wp_lane (F := F) d L _ _ _ 2 ?hm2 _ _) $$ Hh
    case hm2 => exact fun x => lane_mask 2 (by decide) x
    iintro Hh
    iapply (wp_lane (F := F) d L _ _ _ 3 ?hm3 _ _) $$ Hh
    case hm3 => exact fun x => lane_mask 3 (by decide) x
    iintro Hh
    iapply (wp_lane (F := F) d L _ _ _ 4 ?hm4 _ _) $$ Hh
    case hm4 => exact fun x => lane_mask 4 (by decide) x
    iintro Hh
    iapply (wp_lane (F := F) d L _ _ _ 5 ?hm5 _ _) $$ Hh
    case hm5 => exact fun x => lane_mask 5 (by decide) x
    iintro Hh
    iapply (wp_lane (F := F) d L _ _ _ 6 ?hm6 _ _) $$ Hh
    case hm6 => exact fun x => lane_mask 6 (by decide) x
    iintro Hh
    iapply (wp_lane (F := F) d L _ _ _ 7 ?hm7 _ _) $$ Hh
    case hm7 => exact fun x => lane_mask 7 (by decide) x
    iintro Hh
    iapply (wp_lane (F := F) d L _ _ _ 8 ?hm8 _ _) $$ Hh
    case hm8 => exact fun x => lane_mask 8 (by decide) x
    iintro Hh
    iapply (wp_lane (F := F) d L _ _ _ 9 ?hm9 _ _) $$ Hh
    case hm9 => exact fun x => lane_mask 9 (by decide) x
    iintro Hh
    iapply (wp_lane (F := F) d L _ _ _ 10 ?hm10 _ _) $$ Hh
    case hm10 => exact fun x => lane_mask 10 (by decide) x
    iintro Hh
    iapply (wp_lane (F := F) d L _ _ _ 11 ?hm11 _ _) $$ Hh
    case hm11 => exact fun x => lane_mask 11 (by decide) x
    iintro Hh
    iapply (wp_lane (F := F) d L _ _ _ 12 ?hm12 _ _) $$ Hh
    case hm12 => exact fun x => lane_mask 12 (by decide) x
    iintro Hh
    iapply (wp_lane (F := F) d L _ _ _ 13 ?hm13 _ _) $$ Hh
    case hm13 => exact fun x => lane_mask 13 (by decide) x
    iintro Hh
    iapply (wp_lane (F := F) d L _ _ _ 14 ?hm14 _ _) $$ Hh
    case hm14 => exact fun x => lane_mask 14 (by decide) x
    iintro Hh
    iapply (wp_lane (F := F) d L _ _ _ 15 ?hm15 _ _) $$ Hh
    case hm15 => exact fun x => lane_mask 15 (by decide) x
    iintro Hh
    sl_step
    have eV := trip_value (F := F) z (tgtOf d L ft) g.val
      ((sT).view.readAt (Elt F) (Rect.unit (s := S2048) (k0_off2 g) S16.size (k0_off2_inb g)).toLoadRect (tgtOf d L ft))
      (fun l => trip_lane (F := F) (tgtOf d L ft) g l)
    isplitl [Hs]; · iexact Hs
    ihave Hh := (Entails.of_eq ((congrArg (fun f => ((((sH).access (.whole S4096)).loc (V d (cV L) (jV L)) ↦[((sH).access (.whole S4096)).set]{fullShare} f : sProp 𝕄))) eV).trans
      ((pts_sH_whole (F := F) d L _).trans (pts_sH (F := F) d L _).symm))) $$ Hh
    iexact Hh
  · unfold inv
    isplitl [Hs0]; · iexact Hs0
    iexact Hh0
  iintro %_ HI
  unfold inv
  icases HI with ⟨Hs, Hh⟩
  -- the histogram scratch copied onto the tile's row of the result
  sl_exec
  sl_step
  isplitl [Ht']; · iexact Ht'
  isplitl [Hz']; · iexact Hz'
  isplitl [Ho']
  · iexists _; isplitr
    rotate_left
    · iexact Ho'
    · ipureintro
      intro n
      have e1 : ((hstRow L).view.writes (Elt F) fo [⟨Rect.whole S4096, deg_body.sl.dma0_2 d L ft z⟩]) ((hstRow L).view.emb n)
          = (hstRow L).view.read (Elt F) ((hstRow L).view.writes (Elt F) fo [⟨Rect.whole S4096, deg_body.sl.dma0_2 d L ft z⟩]) n :=
        ((View.read_apply _ _).trans (cast_eq _ _)).symm
      have e2 := View.read_writes_cons_emb (hstRow L).view fo (Rect.whole S4096) (deg_body.sl.dma0_2 d L ft z) [] n
      rw [Rect.emb_whole_apply] at e2
      rw [e1, e2]
      show histAfter z (tgtOf d L ft) (16 * k0_t1_loop.trips) n = _
      rw [trips_eq]
  isplitl [Hh Hs Hbufs]
  · isplitl [Hh]; · iexists _; iexact Hh
    isplitl [Hs]; · iexists _; iexact Hs
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp

end Run

/-! ## The task as the launch asks for it -/

section Obl

variable [FloatOps F]

/-- The tile's block of the targets is part w of the 32 equal parts, w = 16 (L 0) + (L 1); its row of the result is row w. -/
theorem tgtRect_eq (L : grid0.Coords) (w : Fin 32) (hw : w.val = 16 * (L 0).val + (L 1).val) :
    Rect.unit (s := S65536) (k0_off1 L) S2048.size (k0_off1_inb L) = dstPart w := by
  unfold dstPart Rect.part Rect.block
  congr 1 <;> funext a
  · rw [k0_off1_eq]
    obtain rfl : a = 0 := Subsingleton.elim _ _
    simp [Shape.partIx, Shape.partSize, hw]; omega
  · obtain rfl : a = 0 := Subsingleton.elim _ _
    simp [Shape.partSize]

theorem rowRect_eq (L : grid0.Coords) (w : Fin 32) (hw : w.val = 16 * (L 0).val + (L 1).val) :
    Rect.unit (s := S32x4096) (k0_off3 L) S1x4096.size (k0_off3_inb L) = histPart w := by
  unfold histPart Rect.part Rect.block
  congr 1 <;> funext a
  · rw [k0_off3_eq]
    match a with
    | 0 => simp [Shape.partIx, Shape.partSize, hw]
    | 1 => simp [Shape.partIx, Shape.partSize]
  · match a with
    | 0 => simp [Shape.partSize]
    | 1 => simp [Shape.partSize]

theorem tgtSet_eq (L : grid0.Coords) (w : Fin 32) (hw : w.val = 16 * (L 0).val + (L 1).val) : tgtSet L = dstSet w := by
  show ((tgtV).view.slice (Rect.unit (s := S65536) (k0_off1 L) S2048.size (k0_off1_inb L))).set = ((tgtV).view.slice (dstPart w)).set
  rw [tgtRect_eq L w hw]

theorem rowSet_eq (L : grid0.Coords) (w : Fin 32) (hw : w.val = 16 * (L 0).val + (L 1).val) : rowSet L = histSet w := by
  show (((hstV).view.slice (Rect.unit (s := S32x4096) (k0_off3 L) S1x4096.size (k0_off3_inb L))).reshape S4096 squeezes_S1x4096_S4096.numel_eq).set
    = ((hstV).view.slice (histPart w)).set
  rw [View.set_reshape]
  exact rowRect_eq L w hw ▸ rfl

theorem defs₀_vector0 (c : Fin τ.nSC) (s : Fin τ.nSub) :
    defs₀ (F := F) (.scVector c s) 0 ()
      = SparseCore.onTile hcore0 hsub0 (fun c s => cc0__deg_k (coordsV0 c s)
          tgtV (Memref.isWhole_whole _) zerV (Memref.isWhole_whole _) hstV (Memref.isWhole_whole _)
          sH (Memref.isWhole_whole _) sT (Memref.isWhole_whole _) cc0_scoped0 cc0_scoped1 cc0_scoped2) ⟨⟩ c s := rfl

/-- What the task leaves is what the launch takes back: the row at the histogram's stated contents. -/
theorem deg_post (C : Conts F)
    (hhist : ∀ d (L : grid0.Coords) n, C.hist d ((hstRow L).view.emb n) = histAfter (C.z1 d) (tgtOf d L (C.dst d)) 2048 n)
    (d : Dev nD) (L : grid0.Coords) (s : PosShare TreeShare) {thr : Thread nD τ} {A B : sProp 𝕄}
    {O : CellTallies nD τ sig (HIx 2)} {W : Waits sig (HIx 2)} {q : Fin 2} :
    iprop((dstLoc d ↦[tgtSet L]{fullShare} C.dst d) ∗ (z1Loc d ↦{s} C.z1 d)
        ∗ (∃ fo' : Buf (Elt F) (histLoc d), ⌜∀ n : S4096.Idx, fo' ((hstRow L).view.emb n) = histAfter (C.z1 d) (tgtOf d L (C.dst d)) 2048 n⌝
            ∗ histLoc d ↦[rowSet L]{fullShare} fo')
        ∗ A ∗ B ∗ ∃ W', ⌜∀ p ∈ W', p ∈ W ∨ p.2 = none⌝ ∗ owes thr O W')
      ⊢ iprop(((dstLoc d ↦[tgtSet L]{fullShare} C.dst d) ∗ (z1Loc d ↦{s} C.z1 d) ∗ histLoc d ↦[rowSet L]{fullShare} C.hist d)
        ∗ A ∗ B ∗ ∃ W', ⌜∀ p ∈ W', p ∈ W ∨ p.2 = none ∨ p.2 = some q⌝ ∗ owes thr O W') := by
  iintro ⟨Ht, Hz, ⟨%fo', %hfo, Ho⟩, HA, HB, %W', %hW', HO⟩
  have e : (histLoc d ↦[rowSet L]{fullShare} fo' : sProp 𝕄) = histLoc d ↦[rowSet L]{fullShare} C.hist d :=
    pointsTo_congr fun i hi => by
      obtain ⟨n, -, rfl⟩ := Finset.mem_map.mp hi
      exact (hfo n).trans (hhist d L n).symm
  ihave Ho' := (Entails.of_eq e) $$ Ho
  isplitl [Ht Hz Ho']
  · isplitl [Ht]; · iexact Ht
    isplitl [Hz]; · iexact Hz
    iexact Ho'
  isplitl [HA]; · iexact HA
  isplitl [HB]; · iexact HB
  iexists W'; isplitr
  · ipureintro; exact fun p hp => (hW' p hp).imp_right Or.inl
  · iexact HO

/-- The degree histogram's task obligation: every tile of the grid runs the body at its own coordinates. -/
theorem tileObl0 (C : Conts F) (hrange : ∀ d i, (C.dst d i).toNat < 4096)
    (hhist : ∀ d (L : grid0.Coords) n, C.hist d ((hstRow L).view.emb n) = histAfter (C.z1 d) (tgtOf d L (C.dst d)) 2048 n) :
    (K (F := F)).TileObl (D (F := F)) 𝒱 (P C) v₀ 0 := by
  intro d c i O W hO _ _
  -- this kernel owes nothing for a protocol of its own
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  have hw : (wid (Fin.cast nCore_zero c) (Fin.cast nSub_zero i)).val
      = 16 * ((coordsV0 ⟨_, hc.1⟩ ⟨_, hc.2⟩ : grid0.Coords) 0).val + ((coordsV0 ⟨_, hc.1⟩ ⟨_, hc.2⟩ : grid0.Coords) 1).val := rfl
  show iprop(_ ∗ _ ∗ go0 C d (wid (Fin.cast nCore_zero c) (Fin.cast nSub_zero i)) ∗ _)
    ⊢ wp _ _ _ _ (fun _ => iprop(td0 C d (wid (Fin.cast nCore_zero c) (Fin.cast nSub_zero i)) ∗ _))
  unfold go0 td0
  rw [← tgtSet_eq _ _ hw, ← rowSet_eq _ _ hw]
  iintro ⟨Hlv, -, ⟨Ht, Hz, %fo, Ho⟩, Hsb, Hss, HO⟩
  iapply ((deg_body (F := F) d (coordsV0 ⟨_, hc.1⟩ ⟨_, hc.2⟩) (rd (wid (Fin.cast nCore_zero c) (Fin.cast nSub_zero i))) O W hO (C.dst d) (C.z1 d) fo (hrange d)).trans
    (wp_mono frame _ _ fun _ => deg_post C hhist d _ _)) $$ [Hlv Ht Hz Ho Hsb Hss HO]
  isplitl [Hlv]; · iexact Hlv
  isplitl [Ht]; · iexact Ht
  isplitl [Hz]; · iexact Hz
  isplitl [Ho]; · iexact Ho
  isplitl [Hsb]; · iexact Hsb
  isplitl [Hss]; · iexact Hss
  iexact HO

end Obl

end Cert.Proof.KB

end
-- ==== Proof.Bits.ScWhole.lean ====
/-
  Each SparseCore call's result as one function of the whole array. The degree histogram: tile w of 32 (SparseCore
  w / 16, subcore w % 16) leaves in row w of the 32 x 4096 result the fold of its own 2048 targets, words
  [2048 w, 2048 w + 2048) of the 65536, over the zero vector's contents. Row w of the result is where tile w's row
  memref places its 4096 indices: a unit rectangle at (w, 0) of extent 1 x 4096 with the unit axis dropped, so index n
  of the row sits at (w, n). Hence one function of the targets and the zero vector that every tile's row agrees with.
-/
import proofs.«205814_g58841051955373_cont_9to1_m_133_55_alg».proof.Proof.Bits.DegBody
import Idealize.ShloMosaic.Lib.ValueIdxCoords

noncomputable section

namespace Cert.Proof.KB

open Cert.Kernel Cert.Kernel.Gen

open Idealize.ShloMosaic
open Idealize.ShloMosaic.SparseCore (S V T)
open Idealize.ShloMosaic.ValueIdx

variable {F : FTy → Type}

/-! ## Tiles by number -/

/-- The number of the tile at coordinates L is below 32. -/
theorem tile_lt (L : grid0.Coords) : 16 * (L 0).val + (L 1).val < 32 := by
  have h0 : (L 0).val < 2 := (L 0).isLt
  have h1 : (L 1).val < 16 := (L 1).isLt
  omega

/-- The number of the tile at coordinates L. -/
def tileNo (L : grid0.Coords) : Fin 32 := ⟨16 * (L 0).val + (L 1).val, tile_lt L⟩

/-- The coordinates of tile w of 32: SparseCore w / 16, subcore w % 16. -/
def tileOf (w : Fin 32) : grid0.Coords :=
  coordsV0 ⟨w.val / 16, by have := w.isLt; show w.val / 16 < 2; omega⟩ ⟨w.val % 16, by show w.val % 16 < 16; omega⟩

theorem tileOf_zero (w : Fin 32) : ((tileOf w) 0).val = w.val / 16 := rfl
theorem tileOf_one (w : Fin 32) : ((tileOf w) 1).val = w.val % 16 := rfl

/-- Grid coordinates are their two entries. -/
theorem coordsV0_eta (L : grid0.Coords) : coordsV0 (L 0) (L 1) = L := by
  funext a
  match a with
  | 0 => rfl
  | 1 => rfl
  | ⟨_ + 2, h⟩ => exact absurd h (Nat.not_lt.2 (Nat.le_add_left _ _))

/-- Tile number and coordinates are inverse to each other. -/
theorem tileNo_tileOf (w : Fin 32) : tileNo (tileOf w) = w := by
  apply Fin.ext
  show 16 * ((tileOf w) 0).val + ((tileOf w) 1).val = w.val
  rw [tileOf_zero, tileOf_one]; omega

theorem tileOf_tileNo (L : grid0.Coords) : tileOf (tileNo L) = L := by
  have h0 : (L 0).val < 2 := (L 0).isLt
  have h1 : (L 1).val < 16 := (L 1).isLt
  refine Eq.trans ?_ (coordsV0_eta L)
  unfold tileOf tileNo
  congr 1 <;> apply Fin.ext
  · show (16 * (L 0).val + (L 1).val) / 16 = (L 0).val; omega
  · show (16 * (L 0).val + (L 1).val) % 16 = (L 1).val; omega

/-- The launch's tile number of subcore i of SparseCore c is the number of the tile at those coordinates. -/
theorem wid_tileOf (w : Fin 32) :
    wid ⟨w.val / 16, by have := w.isLt; omega⟩ ⟨w.val % 16, Nat.mod_lt _ (by decide)⟩ = w :=
  Fin.ext (by show 16 * (w.val / 16) + w.val % 16 = w.val; omega)

theorem tileOf_wid (c : Fin 2) (i : Fin 16) : tileOf (wid c i) = coordsV0 ⟨c.val, c.isLt⟩ ⟨i.val, i.isLt⟩ := by
  have hc := c.isLt
  have hi := i.isLt
  unfold tileOf
  congr 1 <;> apply Fin.ext
  · show (16 * c.val + i.val) / 16 = c.val; omega
  · show (16 * c.val + i.val) % 16 = i.val; omega

theorem tileNo_coordsV0 (c : Fin 2) (i : Fin 16) : tileNo (coordsV0 ⟨c.val, c.isLt⟩ ⟨i.val, i.isLt⟩) = wid c i := rfl

/-! ## Where a tile's memrefs place their indices -/

/-- Index n of the row memref of the tile at L is element (16 (L 0) + (L 1), n) of the 32 x 4096 result. -/
theorem hstRow_emb (L : grid0.Coords) (n : S4096.Idx) :
    ((hstRow L).view.emb n : S32x4096.Idx) = ix2 (tileNo L) (⟨(n 0).val, (n 0).isLt⟩ : Fin 4096) := by
  have hq : Shape.reshapeEquiv (s := S1x4096) (s' := S4096) squeezes_S1x4096_S4096.numel_eq n = Fin.cons ⟨0, Nat.one_pos⟩ n :=
    Shape.reshapeEquiv_cons_one (n := 1) (d := ![4096]) _ n
  funext (a : Fin 2)
  apply Fin.ext
  show (k0_off3 L) a + 1 * ((Shape.reshapeEquiv (s := S1x4096) (s' := S4096) squeezes_S1x4096_S4096.numel_eq n) a).val = _
  rw [hq, k0_off3_eq]
  match a with
  | 0 => show (16 * (L 0).val + (L 1).val) + 1 * 0 = 16 * (L 0).val + (L 1).val; omega
  | 1 => show 0 + 1 * (n 0).val = (n 0).val; omega

/-- Index x of the targets memref of the tile at L is word 2048 (16 (L 0) + (L 1)) + x of the 65536 targets. -/
theorem tgtSl_emb (L : grid0.Coords) (x : S2048.Idx) :
    ((tgtSl L).view.emb x : S65536.Idx)
      = ix1 (⟨2048 * (tileNo L).val + (x 0).val, by have := (tileNo L).isLt; have : (x 0).val < 2048 := (x 0).isLt; omega⟩ : Fin 65536) := by
  funext (a : Fin 1)
  obtain rfl : a = 0 := Subsingleton.elim _ _
  apply Fin.ext
  show (k0_off1 L) 0 + 1 * (x 0).val = 2048 * (16 * (L 0).val + (L 1).val) + (x 0).val
  rw [k0_off1_eq]
  show (32768 * (L 0).val + 2048 * (L 1).val) + 1 * (x 0).val = 2048 * (16 * (L 0).val + (L 1).val) + (x 0).val
  omega

section Whole

variable [FloatOps F]

/-- The block of targets of the tile at L, word by word of the whole array. -/
theorem tgtOf_word (d : Dev nD) (L : grid0.Coords) (dst : Buf (Elt F) (dstLoc d)) (x : S2048.Idx) :
    tgtOf d L dst x
      = dst (ix1 (⟨2048 * (tileNo L).val + (x 0).val, by have := (tileNo L).isLt; have : (x 0).val < 2048 := (x 0).isLt; omega⟩ : Fin 65536)) := by
  rw [tgtOf_apply]
  exact congrArg dst (tgtSl_emb L x)

/-- The block of targets of tile w: words [2048 w, 2048 w + 2048). -/
theorem tgtOf_tileOf (d : Dev nD) (w : Fin 32) (dst : Buf (Elt F) (dstLoc d)) (x : S2048.Idx) :
    tgtOf d (tileOf w) dst x
      = dst (ix1 (⟨2048 * w.val + (x 0).val, by have := w.isLt; have : (x 0).val < 2048 := (x 0).isLt; omega⟩ : Fin 65536)) := by
  rw [tgtOf_word]
  congr 3
  rw [tileNo_tileOf]

/-! ## The degree histogram, whole -/

/-- The 32 x 4096 histogram the first call leaves: row w is the fold of tile w's 2048 targets over the zero vector. -/
def histWhole (d : Dev nD) (dst : Buf (Elt F) (dstLoc d)) (z : Buf (Elt F) (z1Loc d)) : Buf (Elt F) (histLoc d) :=
  fun (i : S32x4096.Idx) =>
    histAfter z (tgtOf d (tileOf ⟨(i 0).val, idx2_lt0 i⟩) dst) 2048 (ix1 (⟨(i 1).val, idx2_lt1 i⟩ : Fin 4096))

/-- The histogram at row w, column n. -/
theorem histWhole_ix2 (d : Dev nD) (dst : Buf (Elt F) (dstLoc d)) (z : Buf (Elt F) (z1Loc d)) (w : Fin 32) (n : Fin 4096) :
    histWhole d dst z (ix2 w n) = histAfter z (tgtOf d (tileOf w) dst) 2048 (ix1 n) := rfl

/-- Every tile's row of the whole histogram is that tile's fold: the body's post at the whole-array function. -/
theorem histWhole_emb (d : Dev nD) (dst : Buf (Elt F) (dstLoc d)) (z : Buf (Elt F) (z1Loc d)) (L : grid0.Coords) (n : S4096.Idx) :
    histWhole d dst z ((hstRow L).view.emb n) = histAfter z (tgtOf d L dst) 2048 n := by
  have e : histWhole d dst z ((hstRow L).view.emb n) = histWhole d dst z (ix2 (tileNo L) (⟨(n 0).val, (n 0).isLt⟩ : Fin 4096)) :=
    congrArg (histWhole d dst z) (hstRow_emb L n)
  rw [e, histWhole_ix2, tileOf_tileNo]
  exact congrArg (histAfter z (tgtOf d L dst) 2048) (eq_ix1 n).symm

/-- The first call's task obligation at the whole histogram. -/
theorem tileObl0_whole (C : Conts F) (hrange : ∀ d i, (C.dst d i).toNat < 4096)
    (hC : ∀ d, C.hist d = histWhole d (C.dst d) (C.z1 d)) :
    (K (F := F)).TileObl (D (F := F)) 𝒱 (P C) v₀ 0 :=
  tileObl0 C hrange fun d L n => by rw [hC d]; exact histWhole_emb d (C.dst d) (C.z1 d) L n

end Whole

end Cert.Proof.KB

end
-- ==== Proof.Bits.AggTrip.lean ====
/-
  One trip of the inner loop of the edge aggregation on a vector subcore. A trip reads four groups of sixteen
  sources and sixteen targets from the two index lists, gathers for each group and each of the eight rotations
  the sixteen entries of the feature rows the sources name (lane l of rotation cc reads row (cc + l) mod 8), and
  adds them into the accumulator at the columns the targets name (lane l of rotation cc into row (cc + l) mod 16:
  the sixteen lanes of one store meet sixteen different rows). The accumulator after the trip is stated as a pure
  function of the feature rows, the accumulator before and the trip's 64 sources and targets, in the order the
  stores are made.
-/
import proofs.«205814_g58841051955373_cont_9to1_m_133_55_alg».proof.Proof.Bits.Setup
import Mathlib.Data.List.Basic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The accumulator after a trip, as a pure function -/

section Pure

variable [FloatOps F]

/-- Row `r`, column `c` of the 8 × 4096 array. -/
def ix8 (r : Fin 8) (c : Fin 4096) : S8x4096.Idx :=
  fun | 0 => r | 1 => c | ⟨_ + 2, h⟩ => absurd h (Nat.not_lt.2 (Nat.le_add_left _ _))
/-- Row `r`, column `c` of the 16 × 4096 array. -/
def ix16 (r : Fin 16) (c : Fin 4096) : S16x4096.Idx :=
  fun | 0 => r | 1 => c | ⟨_ + 2, h⟩ => absurd h (Nat.not_lt.2 (Nat.le_add_left _ _))
/-- Word `k` of an 8192-word list. -/
def ix1 (k : Fin 8192) : S8192.Idx := Shape.ofLane (d := ![8192]) k

/-- The column a word names, read modulo the row length (a word below 4096 names itself). -/
def col (w : BitVec 32) : Fin 4096 := ⟨w.toNat % 4096, Nat.mod_lt _ (by decide)⟩
/-- The feature row lane `l` of rotation `cc` reads. -/
def rot8 (cc : Fin 8) (l : Fin 16) : Fin 8 := ⟨(cc.val + l.val) % 8, Nat.mod_lt _ (by decide)⟩
/-- The accumulator row lane `l` of rotation `cc` adds into. -/
def rot16 (cc : Fin 8) (l : Fin 16) : Fin 16 := ⟨(cc.val + l.val) % 16, Nat.mod_lt _ (by decide)⟩

/-- `y` added onto entry `i`. -/
def addAt (g : Vec F S16x4096 .f32) (i : S16x4096.Idx) (y : Elt F .f32) : Vec F S16x4096 .f32 :=
  fun j => if (∀ a, (j a).val = (i a).val) then FloatOps.idxAddf (g i) y else g j

/-- One indexed add-store: rotation `cc` of a group of sixteen sources `s16` and targets `d16`, lane 0 first. -/
def accAfterStore (ys : Vec F S8x4096 .f32) (s16 d16 : Fin 16 → BitVec 32) (cc : Fin 8) (g : Vec F S16x4096 .f32) : Vec F S16x4096 .f32 :=
  (List.finRange 16).foldl (fun g l => addAt g (ix16 (rot16 cc l) (col (d16 l))) (ys (ix8 (rot8 cc l) (col (s16 l))))) g

/-- The eight add-stores of one group, rotation 0 first. -/
def accAfterGroup (ys : Vec F S8x4096 .f32) (s16 d16 : Fin 16 → BitVec 32) (g : Vec F S16x4096 .f32) : Vec F S16x4096 .f32 :=
  accAfterStore ys s16 d16 7 (accAfterStore ys s16 d16 6 (accAfterStore ys s16 d16 5 (accAfterStore ys s16 d16 4
    (accAfterStore ys s16 d16 3 (accAfterStore ys s16 d16 2 (accAfterStore ys s16 d16 1 (accAfterStore ys s16 d16 0 g)))))))

/-- Group `u` of a trip's 64 words. -/
def grp (w : Fin 64 → BitVec 32) (u : Fin 4) : Fin 16 → BitVec 32 := fun l => w ⟨16 * u.val + l.val, by omega⟩

/-- The accumulator after one trip over the 64 sources `s` and targets `d`: group 0 first. -/
def accAfterTrip (ys : Vec F S8x4096 .f32) (acc : Vec F S16x4096 .f32) (s d : Fin 64 → BitVec 32) : Vec F S16x4096 .f32 :=
  accAfterGroup ys (grp s 3) (grp d 3) (accAfterGroup ys (grp s 2) (grp d 2)
    (accAfterGroup ys (grp s 1) (grp d 1) (accAfterGroup ys (grp s 0) (grp d 0) acc)))

omit [FloatOps F] in
/-- Words `64 g … 64 g + 63` of an index list: the words trip `g` reads. -/
def tripWords (b : Vec F S8192 .i32) (g : ℕ) : Fin 64 → BitVec 32 :=
  fun p => b (ix1 ⟨(64 * g + p.val) % 8192, Nat.mod_lt _ (by decide)⟩)

/-- The accumulator after the first `n` trips over the index lists `sb`, `db`. -/
def accAfterTrips (ys : Vec F S8x4096 .f32) (sb db : Vec F S8192 .i32) : ℕ → Vec F S16x4096 .f32 → Vec F S16x4096 .f32
  | 0, acc => acc
  | n + 1, acc => accAfterTrip ys (accAfterTrips ys sb db n acc) (tripWords sb n) (tripWords db n)

/-- The sixteen lanes of a vector. -/
def lanes (v : IVec S16 32) : Fin 16 → BitVec 32 := fun l => v (Shape.ofLane (d := ![16]) l)

/-- An indexed add-store of an indexed load, at row vectors that are rotation `cc` and column vectors in range, is `accAfterStore`. -/
theorem storeIdx_rot (ys : Vec F S8x4096 .f32) (a : Vec F S16x4096 .f32) (cc : Fin 8)
    (gv av s16 d16 : IVec S16 32)
    (hg : ∀ x, (gv x).toNat = (cc.val + (x 0).val) % 8) (ha : ∀ x, (av x).toNat = (cc.val + (x 0).val) % 16)
    (h1 : ∀ a x, ((![gv, s16] : Fin 2 → IVec S16 32) a x).toNat < S8x4096.size a)
    (h2 : ∀ a x, ((![av, d16] : Fin 2 → IVec S16 32) a x).toNat < S16x4096.size a) :
    storeIdx a ![av, d16] (loadIdx ys ![gv, s16] h1) (fun _ => 1#1) true h2
      = accAfterStore ys (lanes s16) (lanes d16) cc a := by
  unfold storeIdx accAfterStore
  refine List.foldl_ext _ _ _ (fun g k _ => ?_)
  have hi : idxAt ![av, d16] h2 (Shape.ofLane (d := ![16]) k) = ix16 (rot16 cc k) (col (lanes d16 k)) := by
    funext a; apply Fin.ext
    match a with
    | 0 => exact ha (Shape.ofLane (d := ![16]) k)
    | 1 => exact (Nat.mod_eq_of_lt (h2 1 (Shape.ofLane (d := ![16]) k))).symm
  have hy : loadIdx ys ![gv, s16] h1 (Shape.ofLane (d := ![16]) k) = ys (ix8 (rot8 cc k) (col (lanes s16 k))) := by
    unfold loadIdx; congr 1
    funext a; apply Fin.ext
    match a with
    | 0 => exact hg (Shape.ofLane (d := ![16]) k)
    | 1 => exact (Nat.mod_eq_of_lt (h1 1 (Shape.ofLane (d := ![16]) k))).symm
  dsimp only []
  rw [if_pos (show (1#1 : BitVec 1) = 1 from rfl), if_pos rfl, hi, hy]
  unfold addAt
  funext j
  by_cases hj : ∀ a, (j a).val = ((ix16 (rot16 cc k) (col (lanes d16 k))) a).val
  · rw [if_pos hj, if_pos hj]; rfl
  · rw [if_neg hj, if_neg hj]

end Pure

/-! ## The rotations, and the ranges the body assumes -/

/-- The sixteen row vectors of a trip are the rotations: lane `l` of the `cc`-th names row `(cc + l) mod 8` of the
    feature rows, resp. row `(cc + l) mod 16` of the accumulator. -/
def RotOK (v7 v11 v15 v19 v23 v27 v31 v35 v39 v43 v47 v51 v55 v59 v63 v67 : IVec S16 32) : Prop :=
  (∀ (cc : Fin 8) (x : S16.Idx), ((![v7, v11, v15, v19, v23, v27, v31, v35] : Fin 8 → IVec S16 32) cc x).toNat = (cc.val + (x 0).val) % 8) ∧
  (∀ (cc : Fin 8) (x : S16.Idx), ((![v39, v43, v47, v51, v55, v59, v63, v67] : Fin 8 → IVec S16 32) cc x).toNat = (cc.val + (x 0).val) % 16)

theorem inb8 {gv w : IVec S16 32} {cc : ℕ} (hg : ∀ x : S16.Idx, (gv x).toNat = (cc + (x 0).val) % 8) (hw : ∀ x, (w x).toNat < 4096) :
    ∀ a x, ((![gv, w] : Fin 2 → IVec S16 32) a x).toNat < S8x4096.size a := by
  intro a x
  match a with
  | 0 => show (gv x).toNat < 8; rw [hg]; exact Nat.mod_lt _ (by decide)
  | 1 => exact hw x

theorem inb16 {av w : IVec S16 32} {cc : ℕ} (ha : ∀ x : S16.Idx, (av x).toNat = (cc + (x 0).val) % 16) (hw : ∀ x, (w x).toNat < 4096) :
    ∀ a x, ((![av, w] : Fin 2 → IVec S16 32) a x).toNat < S16x4096.size a := by
  intro a x
  match a with
  | 0 => show (av x).toNat < 16; rw [ha]; exact Nat.mod_lt _ (by decide)
  | 1 => exact hw x

/-! ## One trip -/

section Trip

variable [FloatOps F]

local notation "𝕄" => MT nD τ sig (HIx 2) (Elt F) ℕ UU ℕ

variable (d : Dev nD) (L : grid3.Coords)

/-- The vector subcore the tile `L` of the aggregation's grid runs on. -/
abbrev thr3 : Thread nD τ := V d ((L 0).castLE hcore3) ((L 1).castLE hsub3)

/-- The tile's four scratches: the feature rows, the accumulator, the sources and the targets of a chunk. -/
abbrev ysM : Memref sig .scVector .vmem S8x4096 .f32 := Memref.whole cc3_scratch0
abbrev accM : Memref sig .scVector .vmem S16x4096 .f32 := Memref.whole cc3_scratch1
abbrev sM : Memref sig .scVector .vmem S8192 .i32 := Memref.whole cc3_scratch2
abbrev dM : Memref sig .scVector .vmem S8192 .i32 := Memref.whole cc3_scratch3

/-- The sixteen words group `r` of trip `g` reads off an index list. -/
abbrev grpRect (g : Fin k3_t2_loop.trips) (r : Fin 4) : Rect S8192 :=
  Rect.unit (s := S8192) (k3_off3 g (BitVec.ofNat 32 r.val)) S16.size (k3_off3_inb g r)

omit [FloatOps F] in
theorem grpRect_idx (g : Fin k3_t2_loop.trips) (r : Fin 4) (l : Fin 16) :
    (grpRect g r).toLoadRect.idx (Shape.ofLane (d := ![16]) l) = ix1 ⟨(64 * g.val + (16 * r.val + l.val)) % 8192, Nat.mod_lt _ (by decide)⟩ := by
  funext a; apply Fin.ext
  rw [LoadRect.idx_apply, Subsingleton.elim a 0]
  show k3_off3 g (BitVec.ofNat 32 r.val) 0 + 1 * l.val = (64 * g.val + (16 * r.val + l.val)) % 8192
  rw [k3_off3_eq g r]
  have hg : g.val < 128 := lt_of_lt_of_le g.isLt k3_t2_abs.2.1
  have hr := r.isLt; have hl := l.isLt
  show 64 * g.val + 16 * r.val + 1 * l.val = _
  rw [Nat.mod_eq_of_lt (by omega)]; omega

omit [FloatOps F] in
/-- What a trip's load of group `r` reads off the sources. -/
theorem lanes_sLoad (b : Buf (Elt F) ((thr3 d L).loc cc3_scratch2)) (g : Fin k3_t2_loop.trips) (r : Fin 4) :
    lanes ((sM).view.readAt (Elt F) (grpRect g r).toLoadRect b) = grp (tripWords b g.val) r := by
  funext l
  show (sM).view.readAt (Elt F) (grpRect g r).toLoadRect b (Shape.ofLane (d := ![16]) l) = b (ix1 ⟨(64 * g.val + (16 * r.val + l.val)) % 8192, _⟩)
  simp only [View.readAt_apply, Memref.view_whole, View.read_whole]
  rw [grpRect_idx]

omit [FloatOps F] in
/-- What a trip's load of group `r` reads off the targets. -/
theorem lanes_dLoad (b : Buf (Elt F) ((thr3 d L).loc cc3_scratch3)) (g : Fin k3_t2_loop.trips) (r : Fin 4) :
    lanes ((dM).view.readAt (Elt F) (grpRect g r).toLoadRect b) = grp (tripWords b g.val) r := by
  funext l
  show (dM).view.readAt (Elt F) (grpRect g r).toLoadRect b (Shape.ofLane (d := ![16]) l) = b (ix1 ⟨(64 * g.val + (16 * r.val + l.val)) % 8192, _⟩)
  simp only [View.readAt_apply, Memref.view_whole, View.read_whole]
  rw [grpRect_idx]

omit [FloatOps F] in
theorem sLoad_lt (b : Buf (Elt F) ((thr3 d L).loc cc3_scratch2)) (hb : ∀ i, (b i).toNat < 4096) (g : Fin k3_t2_loop.trips) (r : Fin 4) :
    ∀ x, ((sM).view.readAt (Elt F) (grpRect g r).toLoadRect b x).toNat < 4096 := by
  intro x; simp only [View.readAt_apply, Memref.view_whole, View.read_whole]; exact hb _
omit [FloatOps F] in
theorem dLoad_lt (b : Buf (Elt F) ((thr3 d L).loc cc3_scratch3)) (hb : ∀ i, (b i).toNat < 4096) (g : Fin k3_t2_loop.trips) (r : Fin 4) :
    ∀ x, ((dM).view.readAt (Elt F) (grpRect g r).toLoadRect b x).toNat < 4096 := by
  intro x; simp only [View.readAt_apply, Memref.view_whole, View.read_whole]; exact hb _

/-- An indexed load of the feature rows: the program goes on at the gather of their contents. -/
theorem wp_ysLoadIdx {α : Type} {Q : α → sProp 𝕄} (ys : Buf (Elt F) ((thr3 d L).loc cc3_scratch0))
    {idxs : Fin S8x4096.rank → IVec S16 32} {h : ∀ a x, (idxs a x).toNat < S8x4096.size a} {hl : (ysM).view.Loads}
    {k : Vec F S16 .f32 → Prog (TpuEff nD τ sig (Elt F) Λ₀ (thr3 d L).2) α} :
    ((thr3 d L).loc cc3_scratch0 ↦{fullShare} ys : sProp 𝕄)
      ⊢ iprop((((thr3 d L).loc cc3_scratch0 ↦{fullShare} ys) -∗ wp frame (wpE (defs₀ (F := F)) 𝒱₀ (thr3 d L) none) Set.univ (k (loadIdx ys idxs h)) Q)
        -∗ wp frame (wpE (defs₀ (F := F)) 𝒱₀ (thr3 d L) none) Set.univ (SparseCore.vectorLoadIdx ysM idxs h hl >>= k) Q) := by
  have := SparseCore.wp_vectorLoadIdx (defs := defs₀ (F := F)) (Q := Q) 𝒱₀ (thr3 d L) none Set.univ (base := ysM) (idxs := idxs) (h := h) (hl := hl) (k := k)
    (S := Finset.univ) (q := fullShare) (f := ys) (Finset.subset_univ _)
  have e : ((ysM).access (Rect.whole S8x4096)).read (Elt F) ys = ys := Memref.read_access_whole (Elt F) cc3_scratch0 ys
  rw [e] at this
  exact this

/-- An indexed add-store into the accumulator of an indexed load of the feature rows, at rotation `cc`. -/
theorem wp_accStoreRot {α : Type} {Q : α → sProp 𝕄} (ys : Buf (Elt F) ((thr3 d L).loc cc3_scratch0)) (acc : Buf (Elt F) ((thr3 d L).loc cc3_scratch1))
    (cc : Fin 8) {gv av sv dv : IVec S16 32} {s16 d16 : Fin 16 → BitVec 32}
    (hg : ∀ x, (gv x).toNat = (cc.val + (x 0).val) % 8) (ha : ∀ x, (av x).toNat = (cc.val + (x 0).val) % 16)
    (hsv : lanes sv = s16) (hdv : lanes dv = d16)
    {h1 : ∀ a x, ((![gv, sv] : Fin 2 → IVec S16 32) a x).toNat < S8x4096.size a}
    {h2 : ∀ a x, ((![av, dv] : Fin 2 → IVec S16 32) a x).toNat < S16x4096.size a}
    {hs : ((accM).access (.whole S16x4096)).Stores Finset.univ}
    {k : PUnit → Prog (TpuEff nD τ sig (Elt F) Λ₀ (thr3 d L).2) α} :
    ((thr3 d L).loc cc3_scratch1 ↦{fullShare} acc : sProp 𝕄)
      ⊢ iprop((((thr3 d L).loc cc3_scratch1 ↦{fullShare} accAfterStore ys s16 d16 cc acc) -∗ wp frame (wpE (defs₀ (F := F)) 𝒱₀ (thr3 d L) none) Set.univ (k ⟨⟩) Q)
        -∗ wp frame (wpE (defs₀ (F := F)) 𝒱₀ (thr3 d L) none) Set.univ
            (SparseCore.vectorStoreIdx accM ![av, dv] (loadIdx ys ![gv, sv] h1) (fun _ => 1#1) true h2 hs >>= k) Q) := by
  have := SparseCore.wp_vectorStoreIdx (defs := defs₀ (F := F)) (Q := Q) 𝒱₀ (thr3 d L) none Set.univ (base := accM) (idxs := ![av, dv])
    (v := loadIdx ys ![gv, sv] h1) (mask := fun _ => 1#1) (add := true) (h := h2) (hs := hs) (k := k) (f := acc)
  have e1 : ((accM).access (Rect.whole S16x4096)).set = Finset.univ := Memref.set_access_whole cc3_scratch1
  have e2 : ((accM).access (Rect.whole S16x4096)).read (Elt F) acc = acc := Memref.read_access_whole (Elt F) cc3_scratch1 acc
  have e3 : ∀ w, ((accM).access (Rect.whole S16x4096)).write (Elt F) acc w Finset.univ = w := Memref.write_access_whole_univ (Elt F) cc3_scratch1 acc
  rw [e1, e2, e3, storeIdx_rot ys acc cc gv av sv dv hg ha h1 h2, hsv, hdv] at this
  exact this

set_option maxHeartbeats 4000000 in
/-- One trip of the inner loop on tile `L`: holding the four scratches whole — the feature rows at `ys`, the accumulator
    at `acc`, the index lists at `sb` and `db` with every word below 4096 —, the trip ends holding them with the
    accumulator at `accAfterTrip` of the trip's 64 sources and targets. A trip waits for nothing: whatever else the
    thread holds rides in `R`. -/
theorem wp_aggTrip
    (arg2 : Memref sig .scVector .hbm S65536 .i32) (harg2 : arg2.IsWhole) (arg3 : Memref sig .scVector .hbm S65536 .i32) (harg3 : arg3.IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r2 r3 r4 : DmaSems sig S_)
    (v7 v11 v15 v19 v23 v27 v31 v35 v39 v43 v47 v51 v55 v59 v63 v67 : IVec S16 32) (hrot : RotOK v7 v11 v15 v19 v23 v27 v31 v35 v39 v43 v47 v51 v55 v59 v63 v67)
    (g : Fin k3_t2_loop.trips)
    (ys : Buf (Elt F) ((thr3 d L).loc cc3_scratch0)) (acc : Buf (Elt F) ((thr3 d L).loc cc3_scratch1))
    (sb : Buf (Elt F) ((thr3 d L).loc cc3_scratch2)) (db : Buf (Elt F) ((thr3 d L).loc cc3_scratch3))
    (hsb : ∀ i, ((sb : IVec S8192 32) i).toNat < 4096) (hdb : ∀ i, ((db : IVec S8192 32) i).toNat < 4096) (R : sProp 𝕄) :
    iprop(R ∗ ((thr3 d L).loc cc3_scratch0 ↦{fullShare} ys) ∗ ((thr3 d L).loc cc3_scratch1 ↦{fullShare} acc)
        ∗ ((thr3 d L).loc cc3_scratch2 ↦{fullShare} sb) ∗ ((thr3 d L).loc cc3_scratch3 ↦{fullShare} db))
      ⊢ wp frame (wpE (defs₀ (F := F)) 𝒱₀ (thr3 d L) none) Set.univ
          (k3_t2_body L arg2 harg2 arg3 harg3 arg4 harg4 arg5 harg5 arg6 harg6 ysM harg7 accM harg8 sM harg9 dM harg10 r0 r1 r2 r3 r4
            v7 v11 v15 v19 v23 v27 v31 v35 v39 v43 v47 v51 v55 v59 v63 v67 g ⟨⟩)
          fun _ => iprop(R ∗ ((thr3 d L).loc cc3_scratch0 ↦{fullShare} ys)
            ∗ ((thr3 d L).loc cc3_scratch1 ↦{fullShare} accAfterTrip ys acc (tripWords sb g.val) (tripWords db g.val))
            ∗ ((thr3 d L).loc cc3_scratch2 ↦{fullShare} sb) ∗ ((thr3 d L).loc cc3_scratch3 ↦{fullShare} db)) := by
  obtain ⟨hG, hA⟩ := hrot
  have hs0 := sLoad_lt d L sb hsb g 0
  have hs1 := sLoad_lt d L sb hsb g 1
  have hs2 := sLoad_lt d L sb hsb g 2
  have hs3 := sLoad_lt d L sb hsb g 3
  have hd0 := dLoad_lt d L db hdb g 0
  have hd1 := dLoad_lt d L db hdb g 1
  have hd2 := dLoad_lt d L db hdb g 2
  have hd3 := dLoad_lt d L db hdb g 3
  have c1 : k3_chk1 v7 v11 v15 v19 v23 v27 v31 v35 ((sM).view.readAt (Elt F) (Rect.unit (s := S8192) (k3_off3 g 0#32) S16.size (k3_off3_inb g 0)).toLoadRect sb) := by
    unfold k3_chk1; exact ⟨inb8 (hG 0) hs0, inb8 (hG 1) hs0, inb8 (hG 2) hs0, inb8 (hG 3) hs0, inb8 (hG 4) hs0, inb8 (hG 5) hs0, inb8 (hG 6) hs0, inb8 (hG 7) hs0⟩
  have c2 : k3_chk2 v7 v11 v15 v19 v23 v27 v31 v35 ((sM).view.readAt (Elt F) (Rect.unit (s := S8192) (k3_off3 g 1#32) S16.size (k3_off3_inb g 1)).toLoadRect sb) := by
    unfold k3_chk2; exact ⟨inb8 (hG 0) hs1, inb8 (hG 1) hs1, inb8 (hG 2) hs1, inb8 (hG 3) hs1, inb8 (hG 4) hs1, inb8 (hG 5) hs1, inb8 (hG 6) hs1, inb8 (hG 7) hs1⟩
  have c3 : k3_chk3 v7 v11 v15 v19 v23 v27 v31 v35 ((sM).view.readAt (Elt F) (Rect.unit (s := S8192) (k3_off3 g 2#32) S16.size (k3_off3_inb g 2)).toLoadRect sb) := by
    unfold k3_chk3; exact ⟨inb8 (hG 0) hs2, inb8 (hG 1) hs2, inb8 (hG 2) hs2, inb8 (hG 3) hs2, inb8 (hG 4) hs2, inb8 (hG 5) hs2, inb8 (hG 6) hs2, inb8 (hG 7) hs2⟩
  have c4 : k3_chk4 v7 v11 v15 v19 v23 v27 v31 v35 ((sM).view.readAt (Elt F) (Rect.unit (s := S8192) (k3_off3 g 3#32) S16.size (k3_off3_inb g 3)).toLoadRect sb) := by
    unfold k3_chk4; exact ⟨inb8 (hG 0) hs3, inb8 (hG 1) hs3, inb8 (hG 2) hs3, inb8 (hG 3) hs3, inb8 (hG 4) hs3, inb8 (hG 5) hs3, inb8 (hG 6) hs3, inb8 (hG 7) hs3⟩
  have c5 : k3_chk5 v39 v43 v47 v51 v55 v59 v63 v67 ((dM).view.readAt (Elt F) (Rect.unit (s := S8192) (k3_off3 g 0#32) S16.size (k3_off3_inb g 0)).toLoadRect db) := by
    unfold k3_chk5; exact ⟨inb16 (hA 0) hd0, inb16 (hA 1) hd0, inb16 (hA 2) hd0, inb16 (hA 3) hd0, inb16 (hA 4) hd0, inb16 (hA 5) hd0, inb16 (hA 6) hd0, inb16 (hA 7) hd0⟩
  have c6 : k3_chk6 v39 v43 v47 v51 v55 v59 v63 v67 ((dM).view.readAt (Elt F) (Rect.unit (s := S8192) (k3_off3 g 1#32) S16.size (k3_off3_inb g 1)).toLoadRect db) := by
    unfold k3_chk6; exact ⟨inb16 (hA 0) hd1, inb16 (hA 1) hd1, inb16 (hA 2) hd1, inb16 (hA 3) hd1, inb16 (hA 4) hd1, inb16 (hA 5) hd1, inb16 (hA 6) hd1, inb16 (hA 7) hd1⟩
  have c7 : k3_chk7 v39 v43 v47 v51 v55 v59 v63 v67 ((dM).view.readAt (Elt F) (Rect.unit (s := S8192) (k3_off3 g 2#32) S16.size (k3_off3_inb g 2)).toLoadRect db) := by
    unfold k3_chk7; exact ⟨inb16 (hA 0) hd2, inb16 (hA 1) hd2, inb16 (hA 2) hd2, inb16 (hA 3) hd2, inb16 (hA 4) hd2, inb16 (hA 5) hd2, inb16 (hA 6) hd2, inb16 (hA 7) hd2⟩
  have c8 : k3_chk8 v39 v43 v47 v51 v55 v59 v63 v67 ((dM).view.readAt (Elt F) (Rect.unit (s := S8192) (k3_off3 g 3#32) S16.size (k3_off3_inb g 3)).toLoadRect db) := by
    unfold k3_chk8; exact ⟨inb16 (hA 0) hd3, inb16 (hA 1) hd3, inb16 (hA 2) hd3, inb16 (hA 3) hd3, inb16 (hA 4) hd3, inb16 (hA 5) hd3, inb16 (hA 6) hd3, inb16 (hA 7) hd3⟩
  have g0 : ∀ x : S16.Idx, (v7 x).toNat = ((0 : Fin 8).val + (x 0).val) % 8 := hG 0
  have g1 : ∀ x : S16.Idx, (v11 x).toNat = ((1 : Fin 8).val + (x 0).val) % 8 := hG 1
  have g2 : ∀ x : S16.Idx, (v15 x).toNat = ((2 : Fin 8).val + (x 0).val) % 8 := hG 2
  have g3 : ∀ x : S16.Idx, (v19 x).toNat = ((3 : Fin 8).val + (x 0).val) % 8 := hG 3
  have g4 : ∀ x : S16.Idx, (v23 x).toNat = ((4 : Fin 8).val + (x 0).val) % 8 := hG 4
  have g5 : ∀ x : S16.Idx, (v27 x).toNat = ((5 : Fin 8).val + (x 0).val) % 8 := hG 5
  have g6 : ∀ x : S16.Idx, (v31 x).toNat = ((6 : Fin 8).val + (x 0).val) % 8 := hG 6
  have g7 : ∀ x : S16.Idx, (v35 x).toNat = ((7 : Fin 8).val + (x 0).val) % 8 := hG 7
  have a0 : ∀ x : S16.Idx, (v39 x).toNat = ((0 : Fin 8).val + (x 0).val) % 16 := hA 0
  have a1 : ∀ x : S16.Idx, (v43 x).toNat = ((1 : Fin 8).val + (x 0).val) % 16 := hA 1
  have a2 : ∀ x : S16.Idx, (v47 x).toNat = ((2 : Fin 8).val + (x 0).val) % 16 := hA 2
  have a3 : ∀ x : S16.Idx, (v51 x).toNat = ((3 : Fin 8).val + (x 0).val) % 16 := hA 3
  have a4 : ∀ x : S16.Idx, (v55 x).toNat = ((4 : Fin 8).val + (x 0).val) % 16 := hA 4
  have a5 : ∀ x : S16.Idx, (v59 x).toNat = ((5 : Fin 8).val + (x 0).val) % 16 := hA 5
  have a6 : ∀ x : S16.Idx, (v63 x).toNat = ((6 : Fin 8).val + (x 0).val) % 16 := hA 6
  have a7 : ∀ x : S16.Idx, (v67 x).toNat = ((7 : Fin 8).val + (x 0).val) % 16 := hA 7
  unfold k3_t2_body
  iintro ⟨HR, Hys, Hacc, Hs, Hd⟩
  ihave Hs' := (Entails.of_eq (show (((thr3 d L).loc cc3_scratch2 ↦{fullShare} sb : sProp 𝕄)) = ((sM).view.loc (thr3 d L) ↦{fullShare} sb) from rfl)) $$ Hs
  ihave Hd' := (Entails.of_eq (show (((thr3 d L).loc cc3_scratch3 ↦{fullShare} db : sProp 𝕄)) = ((dM).view.loc (thr3 d L) ↦{fullShare} db) from rfl)) $$ Hd
  sl_exec
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_ysLoadIdx d L ys) $$ Hys; iintro Hys
  iapply (wp_accStoreRot d L ys _ 0 g0 a0 (lanes_sLoad d L sb g 0) (lanes_dLoad d L db g 0)) $$ Hacc; iintro Hacc
  iapply (wp_accStoreRot d L ys _ 1 g1 a1 (lanes_sLoad d L sb g 0) (lanes_dLoad d L db g 0)) $$ Hacc; iintro Hacc
  iapply (wp_accStoreRot d L ys _ 2 g2 a2 (lanes_sLoad d L sb g 0) (lanes_dLoad d L db g 0)) $$ Hacc; iintro Hacc
  iapply (wp_accStoreRot d L ys _ 3 g3 a3 (lanes_sLoad d L sb g 0) (lanes_dLoad d L db g 0)) $$ Hacc; iintro Hacc
  iapply (wp_accStoreRot d L ys _ 4 g4 a4 (lanes_sLoad d L sb g 0) (lanes_dLoad d L db g 0)) $$ Hacc; iintro Hacc
  iapply (wp_accStoreRot d L ys _ 5 g5 a5 (lanes_sLoad d L sb g 0) (lanes_dLoad d L db g 0)) $$ Hacc; iintro Hacc
  iapply (wp_accStoreRot d L ys _ 6 g6 a6 (lanes_sLoad d L sb g 0) (lanes_dLoad d L db g 0)) $$ Hacc; iintro Hacc
  iapply (wp_accStoreRot d L ys _ 7 g7 a7 (lanes_sLoad d L sb g 0) (lanes_dLoad d L db g 0)) $$ Hacc; iintro Hacc
  iapply (wp_accStoreRot d L ys _ 0 g0 a0 (lanes_sLoad d L sb g 1) (lanes_dLoad d L db g 1)) $$ Hacc; iintro Hacc
  iapply (wp_accStoreRot d L ys _ 1 g1 a1 (lanes_sLoad d L sb g 1) (lanes_dLoad d L db g 1)) $$ Hacc; iintro Hacc
  iapply (wp_accStoreRot d L ys _ 2 g2 a2 (lanes_sLoad d L sb g 1) (lanes_dLoad d L db g 1)) $$ Hacc; iintro Hacc
  iapply (wp_accStoreRot d L ys _ 3 g3 a3 (lanes_sLoad d L sb g 1) (lanes_dLoad d L db g 1)) $$ Hacc; iintro Hacc
  iapply (wp_accStoreRot d L ys _ 4 g4 a4 (lanes_sLoad d L sb g 1) (lanes_dLoad d L db g 1)) $$ Hacc; iintro Hacc
  iapply (wp_accStoreRot d L ys _ 5 g5 a5 (lanes_sLoad d L sb g 1) (lanes_dLoad d L db g 1)) $$ Hacc; iintro Hacc
  iapply (wp_accStoreRot d L ys _ 6 g6 a6 (lanes_sLoad d L sb g 1) (lanes_dLoad d L db g 1)) $$ Hacc; iintro Hacc
  sl_exec
  iapply (wp_accStoreRot d L ys _ 7 g7 a7 (lanes_sLoad d L sb g 1) (lanes_dLoad d L db g 1)) $$ Hacc; iintro Hacc
  iapply (wp_accStoreRot d L ys _ 0 g0 a0 (lanes_sLoad d L sb g 2) (lanes_dLoad d L db g 2)) $$ Hacc; iintro Hacc
  iapply (wp_accStoreRot d L ys _ 1 g1 a1 (lanes_sLoad d L sb g 2) (lanes_dLoad d L db g 2)) $$ Hacc; iintro Hacc
  iapply (wp_accStoreRot d L ys _ 2 g2 a2 (lanes_sLoad d L sb g 2) (lanes_dLoad d L db g 2)) $$ Hacc; iintro Hacc
  iapply (wp_accStoreRot d L ys _ 3 g3 a3 (lanes_sLoad d L sb g 2) (lanes_dLoad d L db g 2)) $$ Hacc; iintro Hacc
  iapply (wp_accStoreRot d L ys _ 4 g4 a4 (lanes_sLoad d L sb g 2) (lanes_dLoad d L db g 2)) $$ Hacc; iintro Hacc
  iapply (wp_accStoreRot d L ys _ 5 g5 a5 (lanes_sLoad d L sb g 2) (lanes_dLoad d L db g 2)) $$ Hacc; iintro Hacc
  iapply (wp_accStoreRot d L ys _ 6 g6 a6 (lanes_sLoad d L sb g 2) (lanes_dLoad d L db g 2)) $$ Hacc; iintro Hacc
  iapply (wp_accStoreRot d L ys _ 7 g7 a7 (lanes_sLoad d L sb g 2) (lanes_dLoad d L db g 2)) $$ Hacc; iintro Hacc
  iapply (wp_accStoreRot d L ys _ 0 g0 a0 (lanes_sLoad d L sb g 3) (lanes_dLoad d L db g 3)) $$ Hacc; iintro Hacc
  iapply (wp_accStoreRot d L ys _ 1 g1 a1 (lanes_sLoad d L sb g 3) (lanes_dLoad d L db g 3)) $$ Hacc; iintro Hacc
  iapply (wp_accStoreRot d L ys _ 2 g2 a2 (lanes_sLoad d L sb g 3) (lanes_dLoad d L db g 3)) $$ Hacc; iintro Hacc
  iapply (wp_accStoreRot d L ys _ 3 g3 a3 (lanes_sLoad d L sb g 3) (lanes_dLoad d L db g 3)) $$ Hacc; iintro Hacc
  iapply (wp_accStoreRot d L ys _ 4 g4 a4 (lanes_sLoad d L sb g 3) (lanes_dLoad d L db g 3)) $$ Hacc; iintro Hacc
  iapply (wp_accStoreRot d L ys _ 5 g5 a5 (lanes_sLoad d L sb g 3) (lanes_dLoad d L db g 3)) $$ Hacc; iintro Hacc
  iapply (wp_accStoreRot d L ys _ 6 g6 a6 (lanes_sLoad d L sb g 3) (lanes_dLoad d L db g 3)) $$ Hacc; iintro Hacc
  iapply (wp_accStoreRot d L ys _ 7 g7 a7 (lanes_sLoad d L sb g 3) (lanes_dLoad d L db g 3)) $$ Hacc; iintro Hacc
  sl_step
  isplitl [HR]; · iexact HR
  isplitl [Hys]; · iexact Hys
  isplitl [Hacc]; · iexact Hacc
  isplitl [Hs']; · iexact Hs'
  iexact Hd'

end Trip

/-! ## The program's own row vectors are the rotations -/

theorem rot8_word : ∀ (cc : Fin 8) (l : Fin 16), ((BitVec.ofNat 32 cc.val + BitVec.ofNat 32 (0 * 16 + l.val)) &&& 7#32).toNat = (cc.val + l.val) % 8 := by decide
theorem rot16_word : ∀ (cc : Fin 8) (l : Fin 16), ((BitVec.ofNat 32 cc.val + BitVec.ofNat 32 (0 * 16 + l.val)) &&& 15#32).toNat = (cc.val + l.val) % 16 := by decide

/-- The sixteen row vectors the kernel computes before its loops (lane number plus the rotation, masked to three resp. four bits). -/
theorem rotOK_pay : RotOK k3_pay10 k3_pay11 k3_pay12 k3_pay13 k3_pay14 k3_pay15 (k3_pay17 k3_pay16 7#32)
    (k3_pay18 (iota .scVector S16 32 [0] iota_S16_d0_w32_scVector)) (k3_pay19 (iota .scVector S16 32 [0] iota_S16_d0_w32_scVector))
    (k3_pay20 (iota .scVector S16 32 [0] iota_S16_d0_w32_scVector)) (k3_pay21 (iota .scVector S16 32 [0] iota_S16_d0_w32_scVector))
    (k3_pay22 (iota .scVector S16 32 [0] iota_S16_d0_w32_scVector)) (k3_pay23 (iota .scVector S16 32 [0] iota_S16_d0_w32_scVector))
    (k3_pay24 (iota .scVector S16 32 [0] iota_S16_d0_w32_scVector)) (k3_pay25 (iota .scVector S16 32 [0] iota_S16_d0_w32_scVector))
    (k3_pay26 (iota .scVector S16 32 [0] iota_S16_d0_w32_scVector)) := by
  constructor
  · intro cc x
    fin_cases cc
    · exact rot8_word 0 (x 0)
    · exact rot8_word 1 (x 0)
    · exact rot8_word 2 (x 0)
    · exact rot8_word 3 (x 0)
    · exact rot8_word 4 (x 0)
    · exact rot8_word 5 (x 0)
    · exact rot8_word 6 (x 0)
    · exact rot8_word 7 (x 0)
  · intro cc x
    fin_cases cc
    · exact rot16_word 0 (x 0)
    · exact rot16_word 1 (x 0)
    · exact rot16_word 2 (x 0)
    · exact rot16_word 3 (x 0)
    · exact rot16_word 4 (x 0)
    · exact rot16_word 5 (x 0)
    · exact rot16_word 6 (x 0)
    · exact rot16_word 7 (x 0)

end Cert.Proof.KB

end
-- ==== Proof.Bits.AggChunk.lean ====
/-
  One chunk of the edge aggregation on a vector subcore: the chunk's 8192 sources and 8192 targets are copied from
  the edge lists into the two index scratches, each copy waited for before anything reads its scratch, and the 128
  trips of the inner loop run over them. The accumulator after the chunk is the 128-fold of the trip's pure function
  over the chunk's words; after `n` chunks, the `n`-fold of that.
-/
import proofs.«205814_g58841051955373_cont_9to1_m_133_55_alg».proof.Proof.Bits.AggTrip

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section Chunk

variable [FloatOps F]

local notation "𝕄" => MT nD τ sig (HIx 2) (Elt F) ℕ UU ℕ

variable (d : Dev nD) (L : grid3.Coords)

/-- The edge sources and targets as the tile addresses them. -/
abbrev srcM : Memref sig .scVector .hbm S65536 .i32 := Memref.whole main_v3_scv
abbrev dstM : Memref sig .scVector .hbm S65536 .i32 := Memref.whole main_v5_scv

omit [FloatOps F] in
/-- Words `8192 n … 8192 n + 8191` of an edge list: chunk `n`. -/
def chunkWords (b : Vec F S65536 .i32) (n : ℕ) : Vec F S8192 .i32 :=
  fun i => b (Shape.ofLane (d := ![65536]) ⟨(8192 * n + (i 0).val) % 65536, Nat.mod_lt _ (by decide)⟩)

/-- The accumulator after the first `n` chunks of the edge lists `src`, `dst`. -/
def accAfterChunks (ys : Vec F S8x4096 .f32) (src dst : Vec F S65536 .i32) : ℕ → Vec F S16x4096 .f32 → Vec F S16x4096 .f32
  | 0, acc => acc
  | n + 1, acc => accAfterTrips ys (chunkWords src n) (chunkWords dst n) k3_t2_loop.trips (accAfterChunks ys src dst n acc)

/-- The rectangle of chunk `ch` in an edge list. -/
abbrev chunkRect (ch : Fin k3_t1_loop.trips) : Rect S65536 := Rect.unit (s := S65536) (k3_off2 ch) S8192.size (k3_off2_inb ch)

omit [FloatOps F] in
theorem chunkRect_emb (ch : Fin k3_t1_loop.trips) (i : S8192.Idx) :
    (chunkRect ch).emb i = Shape.ofLane (d := ![65536]) ⟨(8192 * ch.val + (i 0).val) % 65536, Nat.mod_lt _ (by decide)⟩ := by
  funext a; apply Fin.ext
  rw [Rect.emb_apply, Subsingleton.elim a 0]
  show k3_off2 ch 0 + 1 * (i 0).val = (8192 * ch.val + (i 0).val) % 65536
  rw [k3_off2_eq ch]
  have hc : ch.val < 8 := lt_of_lt_of_le ch.isLt k3_t1_abs.2.1
  have hi : (i 0).val < 8192 := (i 0).isLt
  show 8192 * ch.val + 1 * (i 0).val = _
  rw [Nat.mod_eq_of_lt (by omega)]; omega

omit [FloatOps F] in
/-- What the copy of chunk `ch` of the sources lands. -/
theorem srcChunk_eq (ch : Fin k3_t1_loop.trips) (src : Buf (Elt F) (srcLoc d)) :
    ((srcM).slice (chunkRect ch) (fun _ => rfl)).view.read (Elt F) src = chunkWords src ch.val := by
  funext i
  refine ((View.read_apply _ _).trans (cast_eq _ _)).trans ?_
  show src ((chunkRect ch).emb i) = _
  rw [chunkRect_emb]; rfl

omit [FloatOps F] in
/-- What the copy of chunk `ch` of the targets lands. -/
theorem dstChunk_eq (ch : Fin k3_t1_loop.trips) (dst : Buf (Elt F) (dstLoc d)) :
    ((dstM).slice (chunkRect ch) (fun _ => rfl)).view.read (Elt F) dst = chunkWords dst ch.val := by
  funext i
  refine ((View.read_apply _ _).trans (cast_eq _ _)).trans ?_
  show dst ((chunkRect ch).emb i) = _
  rw [chunkRect_emb]; rfl

omit [FloatOps F] in
/-- The sources' scratch, overwritten whole. -/
theorem pts_sWritten (sb : Buf (Elt F) ((thr3 d L).loc cc3_scratch2)) {w c : Vec F S8192 .i32} (h : w = c) :
    ((sM).view.loc (thr3 d L) ↦{fullShare} View.write (Elt F) (sM).view sb w Finset.univ : sProp 𝕄) ⊢ ((thr3 d L).loc cc3_scratch2 ↦{fullShare} c) := by
  subst h
  exact Entails.of_eq (congrArg (fun c => ((thr3 d L).loc cc3_scratch2 ↦{fullShare} c : sProp 𝕄)) (View.write_whole_univ _ _ _))
omit [FloatOps F] in
/-- The targets' scratch, overwritten whole. -/
theorem pts_dWritten (db : Buf (Elt F) ((thr3 d L).loc cc3_scratch3)) {w c : Vec F S8192 .i32} (h : w = c) :
    ((dM).view.loc (thr3 d L) ↦{fullShare} View.write (Elt F) (dM).view db w Finset.univ : sProp 𝕄) ⊢ ((thr3 d L).loc cc3_scratch3 ↦{fullShare} c) := by
  subst h
  exact Entails.of_eq (congrArg (fun c => ((thr3 d L).loc cc3_scratch3 ↦{fullShare} c : sProp 𝕄)) (View.write_whole_univ _ _ _))

/-- Everything a trip leaves alone, the four scratches, and the accumulator after `k` trips of the chunk. -/
def tripInv (Rest : sProp 𝕄) (ys : Vec F S8x4096 .f32) (acc : Vec F S16x4096 .f32) (sC dC : Vec F S8192 .i32) (k : ℕ) (_ : PUnit) : sProp 𝕄 :=
  iprop(Rest ∗ ((thr3 d L).loc cc3_scratch0 ↦{fullShare} ys) ∗ ((thr3 d L).loc cc3_scratch1 ↦{fullShare} accAfterTrips ys sC dC k acc)
    ∗ ((thr3 d L).loc cc3_scratch2 ↦{fullShare} sC) ∗ ((thr3 d L).loc cc3_scratch3 ↦{fullShare} dC))

set_option maxHeartbeats 4000000 in
/-- Chunk `ch` on tile `L`: the chunk's sources and targets are copied into the index scratches (each copy waited for at
    once), then the 128 trips run. The edge lists are held at any share with every word below 4096. -/
theorem wp_aggChunk
    (harg2 : (srcM).IsWhole) (harg3 : (dstM).IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r4 : DmaSems sig S_)
    (v7 v11 v15 v19 v23 v27 v31 v35 v39 v43 v47 v51 v55 v59 v63 v67 : IVec S16 32) (hrot : RotOK v7 v11 v15 v19 v23 v27 v31 v35 v39 v43 v47 v51 v55 v59 v63 v67)
    (ch : Fin k3_t1_loop.trips)
    (O : CellTallies nD τ sig (HIx 2)) (W : Waits sig (HIx 2)) (qs qd : PosShare TreeShare)
    (src : Buf (Elt F) (srcLoc d)) (dst : Buf (Elt F) (dstLoc d))
    (hsrc : ∀ i, ((src : IVec S65536 32) i).toNat < 4096) (hdst : ∀ i, ((dst : IVec S65536 32) i).toNat < 4096)
    (ys : Buf (Elt F) ((thr3 d L).loc cc3_scratch0)) (acc : Buf (Elt F) ((thr3 d L).loc cc3_scratch1))
    (sb : Buf (Elt F) ((thr3 d L).loc cc3_scratch2)) (db : Buf (Elt F) ((thr3 d L).loc cc3_scratch3)) :
    iprop((Transfers.MayWaits (thr3 d L) (none : HIx 2) O : sProp 𝕄) ∗ (srcLoc d ↦{qs} src) ∗ (dstLoc d ↦{qd} dst)
        ∗ ((thr3 d L).loc cc3_scratch0 ↦{fullShare} ys) ∗ ((thr3 d L).loc cc3_scratch1 ↦{fullShare} acc)
        ∗ ((thr3 d L).loc cc3_scratch2 ↦{fullShare} sb) ∗ ((thr3 d L).loc cc3_scratch3 ↦{fullShare} db)
        ∗ semVal (thr3 d L, SemLoc.dma cc3_scoped2.sem) 0 ∗ semVal (thr3 d L, SemLoc.dma cc3_scoped3.sem) 0
        ∗ ∃ W', ⌜∀ p ∈ W', p ∈ W ∨ p.2 = none⌝ ∗ owes (thr3 d L) O W')
      ⊢ wp frame (wpE (defs₀ (F := F)) 𝒱₀ (thr3 d L) none) Set.univ
          (k3_t1_body L srcM harg2 dstM harg3 arg4 harg4 arg5 harg5 arg6 harg6 ysM harg7 accM harg8 sM harg9 dM harg10 r0 r1 cc3_scoped2 cc3_scoped3 r4
            v7 v11 v15 v19 v23 v27 v31 v35 v39 v43 v47 v51 v55 v59 v63 v67 ch ⟨⟩)
          fun _ => iprop((Transfers.MayWaits (thr3 d L) (none : HIx 2) O : sProp 𝕄) ∗ (srcLoc d ↦{qs} src) ∗ (dstLoc d ↦{qd} dst)
            ∗ ((thr3 d L).loc cc3_scratch0 ↦{fullShare} ys)
            ∗ ((thr3 d L).loc cc3_scratch1 ↦{fullShare} accAfterTrips ys (chunkWords src ch.val) (chunkWords dst ch.val) k3_t2_loop.trips acc)
            ∗ ((thr3 d L).loc cc3_scratch2 ↦{fullShare} chunkWords src ch.val) ∗ ((thr3 d L).loc cc3_scratch3 ↦{fullShare} chunkWords dst ch.val)
            ∗ semVal (thr3 d L, SemLoc.dma cc3_scoped2.sem) 0 ∗ semVal (thr3 d L, SemLoc.dma cc3_scoped3.sem) 0
            ∗ ∃ W', ⌜∀ p ∈ W', p ∈ W ∨ p.2 = none⌝ ∗ owes (thr3 d L) O W') := by
  have hsC : ∀ i, ((chunkWords src ch.val : IVec S8192 32) i).toNat < 4096 := fun i => hsrc _
  have hdC : ∀ i, ((chunkWords dst ch.val : IVec S8192 32) i).toNat < 4096 := fun i => hdst _
  unfold k3_t1_body
  iintro ⟨Hmw, Hsrc, Hdst, Hys, Hacc, Hs, Hd, Hsem2, Hsem3, %W', %hW', HO⟩
  ihave Hsrc' := (Entails.of_eq (show ((srcLoc d ↦{qs} src : sProp 𝕄)) = ((srcM).view.loc (thr3 d L) ↦{qs} src) from rfl)) $$ Hsrc
  ihave Hdst' := (Entails.of_eq (show ((dstLoc d ↦{qd} dst : sProp 𝕄)) = ((dstM).view.loc (thr3 d L) ↦{qd} dst) from rfl)) $$ Hdst
  ihave Hs' := (Entails.of_eq (show (((thr3 d L).loc cc3_scratch2 ↦{fullShare} sb : sProp 𝕄)) = ((sM).view.loc (thr3 d L) ↦{fullShare} sb) from rfl)) $$ Hs
  ihave Hd' := (Entails.of_eq (show (((thr3 d L).loc cc3_scratch3 ↦{fullShare} db : sProp 𝕄)) = ((dM).view.loc (thr3 d L) ↦{fullShare} db) from rfl)) $$ Hd
  sl_exec
  sl_for (tripInv d L iprop((Transfers.MayWaits (thr3 d L) (none : HIx 2) O : sProp 𝕄) ∗ ((srcM).view.loc (thr3 d L) ↦{qs} src) ∗ ((dstM).view.loc (thr3 d L) ↦{qd} dst)
      ∗ semVal (thr3 d L, SemLoc.dma cc3_scoped2.sem) 0 ∗ semVal (thr3 d L, SemLoc.dma cc3_scoped3.sem) 0
      ∗ owes (thr3 d L) O (insert (SemLoc.dma cc3_scoped3.sem, default) (insert (SemLoc.dma cc3_scoped2.sem, default) W')))
    ys acc (chunkWords src ch.val) (chunkWords dst ch.val)) $$ [Hmw Hsrc' Hdst' Hsem2 Hsem3 HO Hys Hacc Hs' Hd']
  case region =>
    intro k u
    exact wp_aggTrip d L srcM harg2 dstM harg3 arg4 harg4 arg5 harg5 arg6 harg6 harg7 harg8 harg9 harg10 r0 r1 cc3_scoped2 cc3_scoped3 r4
      v7 v11 v15 v19 v23 v27 v31 v35 v39 v43 v47 v51 v55 v59 v63 v67 hrot k ys (accAfterTrips ys (chunkWords src ch.val) (chunkWords dst ch.val) k.val acc)
      (chunkWords src ch.val) (chunkWords dst ch.val) hsC hdC _
  · unfold tripInv
    isplitl [Hmw Hsrc' Hdst' Hsem2 Hsem3 HO]
    · isplitl [Hmw]; · iexact Hmw
      isplitl [Hsrc']; · iexact Hsrc'
      isplitl [Hdst']; · iexact Hdst'
      isplitl [Hsem2]; · iexact Hsem2
      isplitl [Hsem3]; · iexact Hsem3
      iexact HO
    isplitl [Hys]; · iexact Hys
    isplitl [Hacc]; · iexact Hacc
    isplitl [Hs']
    · iapply (pts_sWritten d L sb (c := chunkWords src ch.val) ?hw)
      rotate_left
      · iexact Hs'
      · exact srcChunk_eq d ch src
    · iapply (pts_dWritten d L db (c := chunkWords dst ch.val) ?hw2)
      rotate_left
      · iexact Hd'
      · exact dstChunk_eq d ch dst
  iintro %_ HI
  unfold tripInv
  icases HI with ⟨⟨Hmw, Hsrc, Hdst, Hsem2, Hsem3, HO⟩, Hys, Hacc, Hs, Hd⟩
  sl_exec
  sl_step
  isplitl [Hmw]; · iexact Hmw
  isplitl [Hsrc]; · iexact Hsrc
  isplitl [Hdst]; · iexact Hdst
  isplitl [Hys]; · iexact Hys
  isplitl [Hacc]; · iexact Hacc
  isplitl [Hs]; · iexact Hs
  isplitl [Hd]; · iexact Hd
  isplitl [Hsem2]; · iexact Hsem2
  isplitl [Hsem3]; · iexact Hsem3
  iexists (insert (SemLoc.dma cc3_scoped3.sem, (default : HIx 2)) (insert (SemLoc.dma cc3_scoped2.sem, (default : HIx 2)) W')); isplitr
  · ipureintro; intro p hp
    rcases Finset.mem_insert.mp hp with hp | hp
    · exact .inr (hp ▸ rfl)
    rcases Finset.mem_insert.mp hp with hp | hp
    · exact .inr (hp ▸ rfl)
    · exact hW' p hp
  · iexact HO

end Chunk

end Cert.Proof.KB

end
-- ==== Proof.Bits.AggLoops.lean ====
/-
  The fold of the edge aggregation on a vector subcore: after the chunks, each of the 256 trips adds, for sixteen
  columns, each of rows 8..15 of the accumulator onto the row eight above it. A trip reads the sixteen rows'
  entries of its columns as they stood before it (no row it reads has been written in the trip) and stores the
  eight sums; so after `j` trips rows 0..7 of columns below `16 j` hold the sums, and after all of them every
  column does.
-/
import proofs.«205814_g58841051955373_cont_9to1_m_133_55_alg».proof.Proof.Bits.AggChunk

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The fold of the accumulator's upper half onto its lower half -/

section FoldPure

variable [FloatOps F]

/-- The entry eight rows below. -/
def up8 (i : S16x4096.Idx) : S16x4096.Idx := ix16 ⟨((i 0).val + 8) % 16, Nat.mod_lt _ (by decide)⟩ (i 1)

/-- Rows 0..7 of the sixteen columns `16 j … 16 j + 15` take the sum with the entry eight rows below. -/
def foldStep (A : Vec F S16x4096 .f32) (j : ℕ) : Vec F S16x4096 .f32 :=
  fun i => if (i 0).val < 8 ∧ 16 * j ≤ (i 1).val ∧ (i 1).val < 16 * j + 16 then FloatOps.addf (A i) (A (up8 i)) else A i

/-- After `n` trips of the fold: rows 0..7 of columns below `16 n` hold the sum with the entry eight rows below. -/
def foldRows (A : Vec F S16x4096 .f32) (n : ℕ) : Vec F S16x4096 .f32 :=
  fun i => if (i 0).val < 8 ∧ (i 1).val < 16 * n then FloatOps.addf (A i) (A (up8 i)) else A i

theorem foldRows_zero (A : Vec F S16x4096 .f32) : foldRows A 0 = A := by
  funext i; unfold foldRows; rw [if_neg (by omega)]

omit [FloatOps F] in
theorem up8_row (i : S16x4096.Idx) (h : (i 0).val < 8) : ((up8 i) 0).val = (i 0).val + 8 := by
  show ((i 0).val + 8) % 16 = _
  exact Nat.mod_eq_of_lt (by omega)
omit [FloatOps F] in
theorem up8_col (i : S16x4096.Idx) : ((up8 i) 1) = i 1 := rfl

theorem foldStep_foldRows (A : Vec F S16x4096 .f32) (j : ℕ) : foldStep (foldRows A j) j = foldRows A (j + 1) := by
  funext i
  unfold foldStep
  by_cases h1 : (i 0).val < 8 ∧ 16 * j ≤ (i 1).val ∧ (i 1).val < 16 * j + 16
  · rw [if_pos h1]
    have e1 : foldRows A j i = A i := by unfold foldRows; rw [if_neg (by omega)]
    have e2 : foldRows A j (up8 i) = A (up8 i) := by
      unfold foldRows; rw [if_neg (by rw [up8_row i h1.1]; omega)]
    have e3 : foldRows A (j + 1) i = FloatOps.addf (A i) (A (up8 i)) := by unfold foldRows; rw [if_pos (by omega)]
    rw [e1, e2, e3]
  · rw [if_neg h1]
    unfold foldRows
    by_cases h2 : (i 0).val < 8 ∧ (i 1).val < 16 * j
    · rw [if_pos h2, if_pos (by omega)]
    · rw [if_neg h2, if_neg (by omega)]

/-- The sum of two rows of sixteen, as the fold's payloads form it. -/
def rowSum (a b : Vec F S1x16 .f32) : FVec F S16 .f32 :=
  addf (shapeCast S16 a shapeCasts_S1x16_S16) (shapeCast S16 b shapeCasts_S1x16_S16)

omit [FloatOps F] in
theorem unit_emb2 {off : Fin 2 → ℕ} (inb : ∀ a, off a + S1x16.size a ≤ S16x4096.size a) (x : S1x16.Idx) (a : Fin 2) :
    (((Rect.unit (s := S16x4096) off S1x16.size inb).emb x) a).val = off a + (x a).val := by
  rw [Rect.emb_apply]; show off a + 1 * (x a).val = _; omega

/-- A piece of the fold at row `r`: the payload is the step's value at the piece's entries. -/
theorem piece_ok (A : Vec F S16x4096 .f32) (j r : ℕ) (hr : r < 8) {offA offB : Fin 2 → ℕ} (hA : offA = ![r, 16 * j]) (hB : offB = ![r + 8, 16 * j])
    (inbA : ∀ a, offA a + S1x16.size a ≤ S16x4096.size a) (inbB : ∀ a, offB a + S1x16.size a ≤ S16x4096.size a) (x : S1x16.Idx) :
    shapeCast S1x16 (rowSum ((accM).view.readAt (Elt F) (Rect.unit (s := S16x4096) offA S1x16.size inbA).toLoadRect A)
        ((accM).view.readAt (Elt F) (Rect.unit (s := S16x4096) offB S1x16.size inbB).toLoadRect A)) shapeCasts_S16_S1x16 x
      = foldStep A j ((Rect.unit (s := S16x4096) offA S1x16.size inbA).emb x) := by
  subst hA hB
  have hx0 : (x 0).val < 1 := (x 0).isLt
  have hx1 : (x 1).val < 16 := (x 1).isLt
  have eA : (Rect.unit (s := S16x4096) ![r, 16 * j] S1x16.size inbA).toLoadRect.idx x = (Rect.unit (s := S16x4096) ![r, 16 * j] S1x16.size inbA).emb x := rfl
  generalize he : (Rect.unit (s := S16x4096) ![r, 16 * j] S1x16.size inbA).emb x = e at eA
  have hrow : (e 0).val = r := by rw [← he, unit_emb2]; show r + (x 0).val = r; omega
  have hcol : (e 1).val = 16 * j + (x 1).val := by rw [← he, unit_emb2]; rfl
  have eB : (Rect.unit (s := S16x4096) ![r + 8, 16 * j] S1x16.size inbB).toLoadRect.idx x = up8 e := by
    funext a; apply Fin.ext
    match a with
    | 0 =>
      rw [up8_row _ (by omega), hrow, LoadRect.idx_apply]
      show (r + 8) + 1 * (x 0).val = r + 8; omega
    | 1 =>
      rw [up8_col, hcol, LoadRect.idx_apply]
      show 16 * j + 1 * (x 1).val = _; omega
  unfold foldStep
  rw [if_pos ⟨by omega, by omega, by omega⟩]
  unfold shapeCast rowSum addf shapeCast
  simp only [Shape.reshapeEquiv_reshapeEquiv, Shape.reshapeEquiv_self]
  simp only [View.readAt_apply, Memref.view_whole, View.read_whole]
  rw [eA, eB]

omit [FloatOps F] in
theorem cov_ok (y : S16x4096.Idx) (j r : ℕ) (hr : (y 0).val = r) (hc : 16 * j ≤ (y 1).val ∧ (y 1).val < 16 * j + 16) {off : Fin 2 → ℕ} (hoff : off = ![r, 16 * j])
    (inb : ∀ a, off a + S1x16.size a ≤ S16x4096.size a) : y ∈ (Rect.unit (s := S16x4096) off S1x16.size inb).set := by
  subst hoff
  rw [Rect.mem_set_unit]
  intro a
  match a with
  | 0 => show r ≤ (y 0).val ∧ (y 0).val < r + 1; omega
  | 1 => show 16 * j ≤ (y 1).val ∧ (y 1).val < 16 * j + 16; omega

end FoldPure

/-! ## The fold loop -/

section FoldLoop

variable [FloatOps F]

local notation "𝕄" => MT nD τ sig (HIx 2) (Elt F) ℕ UU ℕ

variable (d : Dev nD) (L : grid3.Coords)

omit [FloatOps F] in
/-- Writes whose payloads all agree with one function `G`, which agrees with the old contents off the pieces, leave `G`. -/
theorem writes_eq_of_pieces (A G : Vec F S16x4096 .f32) (Ls : List (View.Piece (Elt F) S16x4096 .f32))
    (hG : ∀ p ∈ Ls, ∀ x : p.1.shape.Idx, p.2 x = G (p.1.emb x)) (hout : ∀ y, (∀ p ∈ Ls, y ∉ p.1.set) → G y = A y) :
    (accM).view.writes (Elt F) A Ls = G := by
  funext y
  have hr : (accM).view.read (Elt F) ((accM).view.writes (Elt F) A Ls) y = (accM).view.writes (Elt F) A Ls y := rfl
  rw [← hr]
  by_cases h : ∃ p ∈ Ls, y ∈ p.1.set
  · exact View.read_writes_apply_of_pieces (accM).view A G Ls hG y h
  · have hn : ∀ p ∈ Ls, y ∉ p.1.set := fun p hp hy => h ⟨p, hp, hy⟩
    rw [View.read_writes_apply_of_forall_not_mem (accM).view A y Ls hn, hout y hn]
    rfl

/-- What the eight stores of trip `j` leave, over contents `A`: the step's closed form. -/
theorem foldTrip_eq (A : Vec F S16x4096 .f32) (j : Fin k3_t3_loop.trips) :
    (accM).view.writes (Elt F) A
      [⟨Rect.unit (s := S16x4096) (k3_off18 j) S1x16.size (k3_off18_inb j), shapeCast S1x16 (k3_pay1 ((accM).view.readAt (Elt F) (Rect.unit (s := S16x4096) (k3_off18 j) S1x16.size (k3_off18_inb j)).toLoadRect A) ((accM).view.readAt (Elt F) (Rect.unit (s := S16x4096) (k3_off19 j) S1x16.size (k3_off19_inb j)).toLoadRect A)) shapeCasts_S16_S1x16⟩,
       ⟨Rect.unit (s := S16x4096) (k3_off16 j) S1x16.size (k3_off16_inb j), shapeCast S1x16 (k3_pay9 ((accM).view.readAt (Elt F) (Rect.unit (s := S16x4096) (k3_off16 j) S1x16.size (k3_off16_inb j)).toLoadRect A) ((accM).view.readAt (Elt F) (Rect.unit (s := S16x4096) (k3_off17 j) S1x16.size (k3_off17_inb j)).toLoadRect A)) shapeCasts_S16_S1x16⟩,
       ⟨Rect.unit (s := S16x4096) (k3_off14 j) S1x16.size (k3_off14_inb j), shapeCast S1x16 (k3_pay8 ((accM).view.readAt (Elt F) (Rect.unit (s := S16x4096) (k3_off14 j) S1x16.size (k3_off14_inb j)).toLoadRect A) ((accM).view.readAt (Elt F) (Rect.unit (s := S16x4096) (k3_off15 j) S1x16.size (k3_off15_inb j)).toLoadRect A)) shapeCasts_S16_S1x16⟩,
       ⟨Rect.unit (s := S16x4096) (k3_off12 j) S1x16.size (k3_off12_inb j), shapeCast S1x16 (k3_pay7 ((accM).view.readAt (Elt F) (Rect.unit (s := S16x4096) (k3_off12 j) S1x16.size (k3_off12_inb j)).toLoadRect A) ((accM).view.readAt (Elt F) (Rect.unit (s := S16x4096) (k3_off13 j) S1x16.size (k3_off13_inb j)).toLoadRect A)) shapeCasts_S16_S1x16⟩,
       ⟨Rect.unit (s := S16x4096) (k3_off10 j) S1x16.size (k3_off10_inb j), shapeCast S1x16 (k3_pay6 (k3_pay5 ((accM).view.readAt (Elt F) (Rect.unit (s := S16x4096) (k3_off10 j) S1x16.size (k3_off10_inb j)).toLoadRect A)) ((accM).view.readAt (Elt F) (Rect.unit (s := S16x4096) (k3_off11 j) S1x16.size (k3_off11_inb j)).toLoadRect A)) shapeCasts_S16_S1x16⟩,
       ⟨Rect.unit (s := S16x4096) (k3_off8 j) S1x16.size (k3_off8_inb j), shapeCast S1x16 (k3_pay4 ((accM).view.readAt (Elt F) (Rect.unit (s := S16x4096) (k3_off8 j) S1x16.size (k3_off8_inb j)).toLoadRect A) ((accM).view.readAt (Elt F) (Rect.unit (s := S16x4096) (k3_off9 j) S1x16.size (k3_off9_inb j)).toLoadRect A)) shapeCasts_S16_S1x16⟩,
       ⟨Rect.unit (s := S16x4096) (k3_off6 j) S1x16.size (k3_off6_inb j), shapeCast S1x16 (k3_pay3 ((accM).view.readAt (Elt F) (Rect.unit (s := S16x4096) (k3_off6 j) S1x16.size (k3_off6_inb j)).toLoadRect A) ((accM).view.readAt (Elt F) (Rect.unit (s := S16x4096) (k3_off7 j) S1x16.size (k3_off7_inb j)).toLoadRect A)) shapeCasts_S16_S1x16⟩,
       ⟨Rect.unit (s := S16x4096) (k3_off4 j) S1x16.size (k3_off4_inb j), shapeCast S1x16 (k3_pay2 ((accM).view.readAt (Elt F) (Rect.unit (s := S16x4096) (k3_off4 j) S1x16.size (k3_off4_inb j)).toLoadRect A) ((accM).view.readAt (Elt F) (Rect.unit (s := S16x4096) (k3_off5 j) S1x16.size (k3_off5_inb j)).toLoadRect A)) shapeCasts_S16_S1x16⟩]
      = foldStep A j.val := by
  refine writes_eq_of_pieces A (foldStep A j.val) _ ?_ ?_
  · intro p hp x
    simp only [List.mem_cons, List.not_mem_nil, or_false] at hp
    rcases hp with rfl | rfl | rfl | rfl | rfl | rfl | rfl | rfl
    · exact piece_ok A j.val 7 (by decide) (k3_off18_eq j) (k3_off19_eq j) _ _ x
    · exact piece_ok A j.val 6 (by decide) (k3_off16_eq j) (k3_off17_eq j) _ _ x
    · exact piece_ok A j.val 5 (by decide) (k3_off14_eq j) (k3_off15_eq j) _ _ x
    · exact piece_ok A j.val 4 (by decide) (k3_off12_eq j) (k3_off13_eq j) _ _ x
    · exact piece_ok A j.val 3 (by decide) (k3_off10_eq j) (k3_off11_eq j) _ _ x
    · exact piece_ok A j.val 2 (by decide) (k3_off8_eq j) (k3_off9_eq j) _ _ x
    · exact piece_ok A j.val 1 (by decide) (k3_off6_eq j) (k3_off7_eq j) _ _ x
    · exact piece_ok A j.val 0 (by decide) (k3_off4_eq j) (k3_off5_eq j) _ _ x
  · intro y hn
    unfold foldStep
    rw [if_neg]
    intro hy
    have h8 := hy.1
    rcases (by omega : (y 0).val = 0 ∨ (y 0).val = 1 ∨ (y 0).val = 2 ∨ (y 0).val = 3 ∨ (y 0).val = 4 ∨ (y 0).val = 5 ∨ (y 0).val = 6 ∨ (y 0).val = 7) with h | h | h | h | h | h | h | h
    · exact hn _ (List.mem_cons_of_mem _ (List.mem_cons_of_mem _ (List.mem_cons_of_mem _ (List.mem_cons_of_mem _ (List.mem_cons_of_mem _ (List.mem_cons_of_mem _ (List.mem_cons_of_mem _ (List.mem_cons_self)))))))) (cov_ok y j.val 0 h hy.2 (k3_off4_eq j) (k3_off4_inb j))
    · exact hn _ (List.mem_cons_of_mem _ (List.mem_cons_of_mem _ (List.mem_cons_of_mem _ (List.mem_cons_of_mem _ (List.mem_cons_of_mem _ (List.mem_cons_of_mem _ (List.mem_cons_self))))))) (cov_ok y j.val 1 h hy.2 (k3_off6_eq j) (k3_off6_inb j))
    · exact hn _ (List.mem_cons_of_mem _ (List.mem_cons_of_mem _ (List.mem_cons_of_mem _ (List.mem_cons_of_mem _ (List.mem_cons_of_mem _ (List.mem_cons_self)))))) (cov_ok y j.val 2 h hy.2 (k3_off8_eq j) (k3_off8_inb j))
    · exact hn _ (List.mem_cons_of_mem _ (List.mem_cons_of_mem _ (List.mem_cons_of_mem _ (List.mem_cons_of_mem _ (List.mem_cons_self))))) (cov_ok y j.val 3 h hy.2 (k3_off10_eq j) (k3_off10_inb j))
    · exact hn _ (List.mem_cons_of_mem _ (List.mem_cons_of_mem _ (List.mem_cons_of_mem _ (List.mem_cons_self)))) (cov_ok y j.val 4 h hy.2 (k3_off12_eq j) (k3_off12_inb j))
    · exact hn _ (List.mem_cons_of_mem _ (List.mem_cons_of_mem _ (List.mem_cons_self))) (cov_ok y j.val 5 h hy.2 (k3_off14_eq j) (k3_off14_inb j))
    · exact hn _ (List.mem_cons_of_mem _ (List.mem_cons_self)) (cov_ok y j.val 6 h hy.2 (k3_off16_eq j) (k3_off16_inb j))
    · exact hn _ (List.mem_cons_self) (cov_ok y j.val 7 h hy.2 (k3_off18_eq j) (k3_off18_inb j))

set_option maxHeartbeats 4000000 in
/-- One trip of the fold on tile `L`: the accumulator at `A` becomes `foldStep A j`. -/
theorem wp_foldTrip
    (arg2 : Memref sig .scVector .hbm S65536 .i32) (harg2 : arg2.IsWhole) (arg3 : Memref sig .scVector .hbm S65536 .i32) (harg3 : arg3.IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r2 r3 r4 : DmaSems sig S_)
    (j : Fin k3_t3_loop.trips) (A : Buf (Elt F) ((thr3 d L).loc cc3_scratch1)) :
    ((thr3 d L).loc cc3_scratch1 ↦{fullShare} A : sProp 𝕄)
      ⊢ wp frame (wpE (defs₀ (F := F)) 𝒱₀ (thr3 d L) none) Set.univ
          (k3_t3_body L arg2 harg2 arg3 harg3 arg4 harg4 arg5 harg5 arg6 harg6 ysM harg7 accM harg8 sM harg9 dM harg10 r0 r1 r2 r3 r4 j ⟨⟩)
          fun _ => ((thr3 d L).loc cc3_scratch1 ↦{fullShare} foldStep A j.val) := by
  unfold k3_t3_body
  iintro Hacc
  ihave Hacc' := (Entails.of_eq (show (((thr3 d L).loc cc3_scratch1 ↦{fullShare} A : sProp 𝕄)) = ((accM).view.loc (thr3 d L) ↦{fullShare} A) from rfl)) $$ Hacc
  sl_exec
  sl_step
  iapply (Entails.of_eq (congrArg (fun c => ((thr3 d L).loc cc3_scratch1 ↦{fullShare} c : sProp 𝕄)) (foldTrip_eq A j)))
  iexact Hacc'

/-- The fold loop's invariant: before trip `k` the accumulator is `foldRows A₀ k`. -/
def foldInv (A₀ : Vec F S16x4096 .f32) (k : ℕ) (_ : PUnit) : sProp 𝕄 :=
  ((thr3 d L).loc cc3_scratch1 ↦{fullShare} foldRows A₀ k)

set_option maxHeartbeats 4000000 in
/-- The fold loop on tile `L`, at any operands: the accumulator at `A₀` becomes `foldRows A₀` of the trip count. -/
theorem wp_foldLoop
    (arg2 : Memref sig .scVector .hbm S65536 .i32) (harg2 : arg2.IsWhole) (arg3 : Memref sig .scVector .hbm S65536 .i32) (harg3 : arg3.IsWhole)
    (arg4 : Memref sig .scVector .hbm S256x4096 .f32) (harg4 : arg4.IsWhole) (arg5 : Memref sig .scVector .hbm S16x4096 .f32) (harg5 : arg5.IsWhole)
    (arg6 : Memref sig .scVector .hbm S256x4096 .f32) (harg6 : arg6.IsWhole)
    (harg7 : (ysM).IsWhole) (harg8 : (accM).IsWhole) (harg9 : (sM).IsWhole) (harg10 : (dM).IsWhole)
    (r0 r1 r2 r3 r4 : DmaSems sig S_)
    (A₀ : Buf (Elt F) ((thr3 d L).loc cc3_scratch1)) :
    ((thr3 d L).loc cc3_scratch1 ↦{fullShare} A₀ : sProp 𝕄)
      ⊢ wp frame (wpE (defs₀ (F := F)) 𝒱₀ (thr3 d L) none) Set.univ
          (Scf.Loop.for k3_t3_loop k3_t3_ok ⟨⟩ (k3_t3_body L arg2 harg2 arg3 harg3 arg4 harg4 arg5 harg5 arg6 harg6 ysM harg7 accM harg8 sM harg9 dM harg10 r0 r1 r2 r3 r4))
          fun _ => ((thr3 d L).loc cc3_scratch1 ↦{fullShare} foldRows A₀ k3_t3_loop.trips) := by
  iintro Hacc
  sl_for (foldInv d L A₀) $$ [Hacc]
  case region =>
    intro k u
    have h := wp_foldTrip d L arg2 harg2 arg3 harg3 arg4 harg4 arg5 harg5 arg6 harg6 harg7 harg8 harg9 harg10 r0 r1 r2 r3 r4 k (foldRows A₀ k.val)
    rw [foldStep_foldRows] at h
    exact h
  isplitl [Hacc]
  · unfold foldInv
    iapply (Entails.of_eq (congrArg (fun c => ((thr3 d L).loc cc3_scratch1 ↦{fullShare} c : sProp 𝕄)) (foldRows_zero A₀).symm))
    iexact Hacc
  iintro %_ HI
  unfold foldInv
  iexact HI

/-! ### What the whole loop leaves -/

theorem k3_t3_trips : k3_t3_loop.trips = 256 := by decide

/-- Rows 0..7 take the sum with the row eight below; rows 8..15 stay. -/
def foldAll (a : Vec F S16x4096 .f32) : Vec F S16x4096 .f32 :=
  fun i => if (i 0).val < 8 then FloatOps.addf (a i) (a (up8 i)) else a i

theorem foldRows_all (a : Vec F S16x4096 .f32) : foldRows a k3_t3_loop.trips = foldAll a := by
  funext i
  have hc : (i 1).val < 4096 := (i 1).isLt
  unfold foldRows foldAll
  rw [k3_t3_trips]
  by_cases h : (i 0).val < 8
  · rw [if_pos ⟨h, by omega⟩, if_pos h]
  · rw [if_neg (fun hh => h hh.1), if_neg h]

/-- Entry `(j, n)`, `j` below 8, of what the fold leaves: the sum of entries `(j, n)` and `(j + 8, n)`. -/
theorem foldAll_lo (a : Vec F S16x4096 .f32) (j : Fin 8) (n : Fin 4096) :
    foldAll a (ix16 ⟨j.val, by omega⟩ n) = FloatOps.addf (a (ix16 ⟨j.val, by omega⟩ n)) (a (ix16 ⟨j.val + 8, by omega⟩ n)) := by
  unfold foldAll
  rw [if_pos (show ((ix16 ⟨j.val, by omega⟩ n) 0).val < 8 from j.isLt)]
  congr 2
  show ix16 ⟨(j.val + 8) % 16, _⟩ n = ix16 ⟨j.val + 8, _⟩ n
  exact congrArg (fun r => ix16 r n) (Fin.ext (Nat.mod_eq_of_lt (by omega)))

/-- Entry `(j + 8, n)` of what the fold leaves: unchanged. -/
theorem foldAll_hi (a : Vec F S16x4096 .f32) (j : Fin 8) (n : Fin 4096) :
    foldAll a (ix16 ⟨j.val + 8, by omega⟩ n) = a (ix16 ⟨j.val + 8, by omega⟩ n) := by
  unfold foldAll
  rw [if_neg (show ¬ ((ix16 ⟨j.val + 8, by omega⟩ n) 0).val < 8 from by show ¬ (j.val + 8 < 8); omega)]

/-- The fold loop as the aggregation's body runs it on tile `L`: the accumulator at `a` becomes `foldAll a`. -/
theorem wp_foldAll (a : Buf (Elt F) ((thr3 d L).loc cc3_scratch1)) :
    ((thr3 d L).loc cc3_scratch1 ↦{fullShare} a : sProp 𝕄)
      ⊢ wp frame (wpE (defs₀ (F := F)) 𝒱₀ (thr3 d L) none) Set.univ
          (Scf.Loop.for k3_t3_loop k3_t3_ok ⟨⟩ (k3_t3_body L srcM (Memref.isWhole_whole _) dstM (Memref.isWhole_whole _) (Memref.whole main_v39_scv) (Memref.isWhole_whole _) (Memref.whole main_v32_scv) (Memref.isWhole_whole _)
              (Memref.whole main_v40_scv) (Memref.isWhole_whole _) ysM (Memref.isWhole_whole _) accM (Memref.isWhole_whole _)
              sM (Memref.isWhole_whole _) dM (Memref.isWhole_whole _) cc3_scoped0 cc3_scoped1 cc3_scoped2 cc3_scoped3 cc3_scoped4))
          fun _ => ((thr3 d L).loc cc3_scratch1 ↦{fullShare} (foldAll a : Buf (Elt F) ((thr3 d L).loc cc3_scratch1))) := by
  have h := wp_foldLoop d L srcM (Memref.isWhole_whole _) dstM (Memref.isWhole_whole _) (Memref.whole main_v39_scv) (Memref.isWhole_whole _)
    (Memref.whole main_v32_scv) (Memref.isWhole_whole _) (Memref.whole main_v40_scv) (Memref.isWhole_whole _)
    (Memref.isWhole_whole _) (Memref.isWhole_whole _) (Memref.isWhole_whole _) (Memref.isWhole_whole _)
    cc3_scoped0 cc3_scoped1 cc3_scoped2 cc3_scoped3 cc3_scoped4 a
  rw [foldRows_all] at h
  exact h

end FoldLoop

end Cert.Proof.KB

end
-- ==== Proof.Bits.AggBody.lean ====
/-
  The edge aggregation's task on one vector subcore, around its two loops. The tile numbered w = 16 * (L 0) + (L 1)
  of 32 copies its own eight rows of the transposed features (rows 8 w .. 8 w + 7 of 256) into its feature scratch and
  the 16 x 4096 zero block into its accumulator; runs the eight chunks of the edge lists over them; folds the
  accumulator's upper eight rows onto its lower eight; and copies the lower eight rows onto its own eight rows of the
  result. Stated once at a symbolic tile, generic in the float instance: the rows the result ends with are the lower
  rows of the folded accumulator, the accumulator that of all the chunks from the zero block's contents.
-/
import proofs.«205814_g58841051955373_cont_9to1_m_133_55_alg».proof.Proof.Bits.Pay
import proofs.«205814_g58841051955373_cont_9to1_m_133_55_alg».proof.Proof.Bits.AggLoops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The tile's memrefs, as the program spells them -/

abbrev abYst : Memref sig .scVector .hbm S256x4096 .f32 := Memref.whole main_v39_scv
abbrev abZ2 : Memref sig .scVector .hbm S16x4096 .f32 := Memref.whole main_v32_scv
abbrev abSt : Memref sig .scVector .hbm S256x4096 .f32 := Memref.whole main_v40_scv

/-- The tile's eight feature rows, its eight rows of the result, and the accumulator's lower eight rows. -/
abbrev abYsRows (L : grid3.Coords) : Memref sig .scVector .hbm S8x4096 .f32 :=
  (abYst).slice (Rect.unit (s := S256x4096) (k3_off1 L) S8x4096.size (k3_off1_inb L)) (fun _ => rfl)
abbrev abOutRows (L : grid3.Coords) : Memref sig .scVector .hbm S8x4096 .f32 :=
  (abSt).slice (Rect.unit (s := S256x4096) (k3_off20 L) S8x4096.size (k3_off20_inb L)) (fun _ => rfl)
abbrev abAccLow : Memref sig .scVector .vmem S8x4096 .f32 :=
  (accM).slice (Rect.unit (s := S16x4096) ![0, 0] S8x4096.size inb_S16x4096_S8x4096_0_0) (fun _ => rfl)

abbrev abYsSet (L : grid3.Coords) : Finset S256x4096.Idx := (abYsRows L).view.set
abbrev abOutSet (L : grid3.Coords) : Finset S256x4096.Idx := (abOutRows L).view.set

/-- The tile's eight feature rows, read off the array's contents. -/
abbrev abYsOf (d : Dev nD) (L : grid3.Coords) (fy : Buf (Elt F) (ystLoc d)) : Vec F S8x4096 .f32 :=
  (abYsRows L).view.read (Elt F) fy

/-! ## The tile's own semaphores and scratch, out of the subcore's -/

section Own

variable (d : Dev nD) (L : grid3.Coords)

abbrev abCell (s : DmaSems sig S_) : GSem nD τ sig := (thr3 d L, .dma s.sem)

theorem ab_ownSems0 :
    (ownSems0 (thr3 d L) : sProp 𝕄)
      = iprop(semVal (abCell d L cc3_scoped0) 0 ∗ semVal (abCell d L cc3_scoped1) 0 ∗ semVal (abCell d L cc3_scoped2) 0
          ∗ semVal (abCell d L cc3_scoped3) 0 ∗ semVal (abCell d L cc3_scoped4) 0
          ∗ bigSep ((((((ownCells (thr3 d L)).erase (abCell d L cc3_scoped0)).erase (abCell d L cc3_scoped1)).erase (abCell d L cc3_scoped2)).erase
              (abCell d L cc3_scoped3)).erase (abCell d L cc3_scoped4)) fun g => semVal g 0) := by
  unfold SparseCore.Cfg.ownSems0
  rw [SparseCore.bigSep_erase' ((mem_ownCells (g := abCell d L cc3_scoped0)).mpr ⟨rfl, by
      show (SemLoc.dma cc3_scoped0.sem : SemLoc sig).isScoped .scVector = true; decide⟩),
    SparseCore.bigSep_erase' (Finset.mem_erase.mpr ⟨by simp [abCell]; decide, (mem_ownCells (g := abCell d L cc3_scoped1)).mpr ⟨rfl, by
      show (SemLoc.dma cc3_scoped1.sem : SemLoc sig).isScoped .scVector = true; decide⟩⟩),
    SparseCore.bigSep_erase' (Finset.mem_erase.mpr ⟨by simp [abCell]; decide, Finset.mem_erase.mpr ⟨by simp [abCell]; decide,
      (mem_ownCells (g := abCell d L cc3_scoped2)).mpr ⟨rfl, by show (SemLoc.dma cc3_scoped2.sem : SemLoc sig).isScoped .scVector = true; decide⟩⟩⟩),
    SparseCore.bigSep_erase' (Finset.mem_erase.mpr ⟨by simp [abCell]; decide, Finset.mem_erase.mpr ⟨by simp [abCell]; decide, Finset.mem_erase.mpr ⟨by simp [abCell]; decide,
      (mem_ownCells (g := abCell d L cc3_scoped3)).mpr ⟨rfl, by show (SemLoc.dma cc3_scoped3.sem : SemLoc sig).isScoped .scVector = true; decide⟩⟩⟩⟩),
    SparseCore.bigSep_erase' (Finset.mem_erase.mpr ⟨by simp [abCell]; decide, Finset.mem_erase.mpr ⟨by simp [abCell]; decide, Finset.mem_erase.mpr ⟨by simp [abCell]; decide,
      Finset.mem_erase.mpr ⟨by simp [abCell]; decide,
      (mem_ownCells (g := abCell d L cc3_scoped4)).mpr ⟨rfl, by show (SemLoc.dma cc3_scoped4.sem : SemLoc sig).isScoped .scVector = true; decide⟩⟩⟩⟩⟩)]

abbrev abRef (b : Ref sig .scVector) : DevRef τ sig := (Proc.scVector ((L 0).castLE hcore3) ((L 1).castLE hsub3)).devRef b

/-- The four scratches are among the subcore's own buffers: they, at some contents, and the rest. -/
theorem ab_ownBufs :
    (ownBufs (thr3 d L) : sProp 𝕄)
      = iprop((∃ f, (thr3 d L).loc cc3_scratch0 ↦{fullShare} f) ∗ (∃ f, (thr3 d L).loc cc3_scratch1 ↦{fullShare} f)
          ∗ (∃ f, (thr3 d L).loc cc3_scratch2 ↦{fullShare} f) ∗ (∃ f, (thr3 d L).loc cc3_scratch3 ↦{fullShare} f)
          ∗ bigSep (((((ownRefs (τ := τ) (.scVector ((L 0).castLE hcore3) ((L 1).castLE hsub3))).erase (abRef L cc3_scratch0)).erase (abRef L cc3_scratch1)).erase
              (abRef L cc3_scratch2)).erase (abRef L cc3_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector ((L 0).castLE hcore3) ((L 1).castLE hsub3))
    (b := abRef L cc3_scratch0) rfl)).trans ?_
  rw [SparseCore.bigSep_erase' (Finset.mem_erase.mpr ⟨fun e => absurd (Proc.devRef_injective _ e) (show (cc3_scratch1 : Ref sig .scVector) ≠ cc3_scratch0 by decide),
      SparseCore.Cfg.mem_ownRefs_of_owner (p := Proc.scVector ((L 0).castLE hcore3) ((L 1).castLE hsub3)) (b := abRef L cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
      SparseCore.Cfg.mem_ownRefs_of_owner (p := Proc.scVector ((L 0).castLE hcore3) ((L 1).castLE hsub3)) (b := abRef L cc3_scratch2) rfl⟩⟩),
    SparseCore.bigSep_erase' (Finset.mem_erase.mpr ⟨fun e => absurd (Proc.devRef_injective _ e) (show (cc3_scratch3 : Ref sig .scVector) ≠ cc3_scratch2 by decide),
      Finset.mem_erase.mpr ⟨fun e => absurd (Proc.devRef_injective _ e) (show (cc3_scratch3 : Ref sig .scVector) ≠ cc3_scratch1 by decide),
      Finset.mem_erase.mpr ⟨fun e => absurd (Proc.devRef_injective _ e) (show (cc3_scratch3 : Ref sig .scVector) ≠ cc3_scratch0 by decide),
      SparseCore.Cfg.mem_ownRefs_of_owner (p := Proc.scVector ((L 0).castLE hcore3) ((L 1).castLE hsub3)) (b := abRef L cc3_scratch3) rfl⟩⟩⟩)]

end Own

section AggRun

variable [FloatOps F] (d : Dev nD) (L : grid3.Coords)

/-- Before chunk k: the edge lists and the feature rows as they were, the accumulator after the first k chunks, the two
    index scratches at anything, the chunk copies' two semaphores at rest. -/
def abChunkInv (O : CellTallies nD τ sig (HIx 2)) (W : Waits sig (HIx 2)) (qs qd : PosShare TreeShare)
    (fs : Buf (Elt F) (srcLoc d)) (fd : Buf (Elt F) (dstLoc d)) (ys : Vec F S8x4096 .f32) (acc₀ : Vec F S16x4096 .f32) (k : ℕ) (_ : Unit) : sProp 𝕄 :=
  iprop((Transfers.MayWaits (thr3 d L) (none : HIx 2) O : sProp 𝕄) ∗ (srcLoc d ↦{qs} fs) ∗ (dstLoc d ↦{qd} fd)
    ∗ ((thr3 d L).loc cc3_scratch0 ↦{fullShare} ys) ∗ ((thr3 d L).loc cc3_scratch1 ↦{fullShare} accAfterChunks ys fs fd k acc₀)
    ∗ (∃ sb, (thr3 d L).loc cc3_scratch2 ↦{fullShare} sb) ∗ (∃ db, (thr3 d L).loc cc3_scratch3 ↦{fullShare} db)
    ∗ semVal (thr3 d L, SemLoc.dma cc3_scoped2.sem) 0 ∗ semVal (thr3 d L, SemLoc.dma cc3_scoped3.sem) 0
    ∗ ∃ W', ⌜∀ p ∈ W', p ∈ W ∨ p.2 = none⌝ ∗ owes (thr3 d L) O W')

/-- One chunk takes the invariant from k to k + 1. -/
theorem ab_chunk_step (v7 v11 v15 v19 v23 v27 v31 v35 v39 v43 v47 v51 v55 v59 v63 v67 : IVec S16 32) (hrot : RotOK v7 v11 v15 v19 v23 v27 v31 v35 v39 v43 v47 v51 v55 v59 v63 v67)
    (O : CellTallies nD τ sig (HIx 2)) (W : Waits sig (HIx 2)) (qs qd : PosShare TreeShare)
    (fs : Buf (Elt F) (srcLoc d)) (fd : Buf (Elt F) (dstLoc d))
    (hfs : ∀ i, ((fs : IVec S65536 32) i).toNat < 4096) (hfd : ∀ i, ((fd : IVec S65536 32) i).toNat < 4096)
    (ys : Vec F S8x4096 .f32) (acc₀ : Vec F S16x4096 .f32) (k : Fin k3_t1_loop.trips) (u : Unit) :
    abChunkInv d L O W qs qd fs fd ys acc₀ k.val u
      ⊢ wp frame (wpE (defs₀ (F := F)) 𝒱₀ (thr3 d L) none) Set.univ
          (k3_t1_body L srcM (Memref.isWhole_whole _) dstM (Memref.isWhole_whole _) abYst (Memref.isWhole_whole _) abZ2 (Memref.isWhole_whole _)
            abSt (Memref.isWhole_whole _) ysM (Memref.isWhole_whole _) accM (Memref.isWhole_whole _) sM (Memref.isWhole_whole _) dM (Memref.isWhole_whole _)
            cc3_scoped0 cc3_scoped1 cc3_scoped2 cc3_scoped3 cc3_scoped4 v7 v11 v15 v19 v23 v27 v31 v35 v39 v43 v47 v51 v55 v59 v63 v67 k u)
          (abChunkInv d L O W qs qd fs fd ys acc₀ (k.val + 1)) := by
  unfold abChunkInv
  iintro ⟨Hmw, Hsrc, Hdst, H0, H1, ⟨%sb, H2⟩, ⟨%db, H3⟩, Hsem2, Hsem3, HW⟩
  iapply (wp_wand frame (wpE (defs₀ (F := F)) 𝒱₀ (thr3 d L) none) Set.univ) $$ [Hmw Hsrc Hdst H0 H1 H2 H3 Hsem2 Hsem3 HW]
  · iapply (wp_aggChunk (F := F) d L (Memref.isWhole_whole _) (Memref.isWhole_whole _) abYst (Memref.isWhole_whole _) abZ2 (Memref.isWhole_whole _)
      abSt (Memref.isWhole_whole _) (Memref.isWhole_whole _) (Memref.isWhole_whole _) (Memref.isWhole_whole _) (Memref.isWhole_whole _)
      cc3_scoped0 cc3_scoped1 cc3_scoped4 v7 v11 v15 v19 v23 v27 v31 v35 v39 v43 v47 v51 v55 v59 v63 v67 hrot k O W qs qd fs fd hfs hfd ys (accAfterChunks ys fs fd k.val acc₀) sb db)
    isplitl [Hmw]; · iexact Hmw
    isplitl [Hsrc]; · iexact Hsrc
    isplitl [Hdst]; · iexact Hdst
    isplitl [H0]; · iexact H0
    isplitl [H1]; · iexact H1
    isplitl [H2]; · iexact H2
    isplitl [H3]; · iexact H3
    isplitl [Hsem2]; · iexact Hsem2
    isplitl [Hsem3]; · iexact Hsem3
    iexact HW
  iintro %_ ⟨Hmw, Hsrc, Hdst, H0, H1, H2, H3, Hsem2, Hsem3, HW⟩
  isplitl [Hmw]; · iexact Hmw
  isplitl [Hsrc]; · iexact Hsrc
  isplitl [Hdst]; · iexact Hdst
  isplitl [H0]; · iexact H0
  isplitl [H1]; · iexact H1
  isplitl [H2]; · iexists _; iexact H2
  isplitl [H3]; · iexists _; iexact H3
  isplitl [Hsem2]; · iexact Hsem2
  isplitl [Hsem3]; · iexact Hsem3
  iexact HW

/-- The task on tile L, over a function FR the fold loop is known to apply to the accumulator. -/
theorem agg_body_of (FR : Vec F S16x4096 .f32 → Vec F S16x4096 .f32)
    (hfold : ∀ a : Buf (Elt F) ((thr3 d L).loc cc3_scratch1),
      ((thr3 d L).loc cc3_scratch1 ↦{fullShare} a : sProp 𝕄)
        ⊢ wp frame (wpE (defs₀ (F := F)) 𝒱₀ (thr3 d L) none) Set.univ
            (Scf.Loop.for k3_t3_loop k3_t3_ok ⟨⟩ (k3_t3_body L srcM (Memref.isWhole_whole _) dstM (Memref.isWhole_whole _) abYst (Memref.isWhole_whole _)
              abZ2 (Memref.isWhole_whole _) abSt (Memref.isWhole_whole _) ysM (Memref.isWhole_whole _) accM (Memref.isWhole_whole _)
              sM (Memref.isWhole_whole _) dM (Memref.isWhole_whole _) cc3_scoped0 cc3_scoped1 cc3_scoped2 cc3_scoped3 cc3_scoped4))
            fun _ => ((thr3 d L).loc cc3_scratch1 ↦{fullShare} (FR a : Buf (Elt F) ((thr3 d L).loc cc3_scratch1))))
    (qs qd qz : PosShare TreeShare) (O : CellTallies nD τ sig (HIx 2)) (W : Waits sig (HIx 2)) (hO : ∀ g, O g none = 0)
    (fs : Buf (Elt F) (srcLoc d)) (fd : Buf (Elt F) (dstLoc d)) (fy : Buf (Elt F) (ystLoc d)) (z2 : Buf (Elt F) (z2Loc d)) (fo : Buf (Elt F) (stLoc d))
    (hfs : ∀ i, (fs i).toNat < 4096) (hfd : ∀ i, (fd i).toNat < 4096) :
    iprop((levAts (K (F := F)).L (K (F := F)).lev : sProp 𝕄)
        ∗ (srcLoc d ↦{qs} fs) ∗ (dstLoc d ↦{qd} fd) ∗ (ystLoc d ↦[abYsSet L]{fullShare} fy) ∗ (z2Loc d ↦{qz} z2)
        ∗ (stLoc d ↦[abOutSet L]{fullShare} fo)
        ∗ scopedBufs (thr3 d L) ∗ scopedSems0 (thr3 d L) ∗ owes (thr3 d L) O W)
      ⊢ wp frame (wpE (defs₀ (F := F)) 𝒱₀ (thr3 d L) none) Set.univ
          (cc3__agg_k L srcM (Memref.isWhole_whole _) dstM (Memref.isWhole_whole _) abYst (Memref.isWhole_whole _) abZ2 (Memref.isWhole_whole _)
            abSt (Memref.isWhole_whole _) ysM (Memref.isWhole_whole _) accM (Memref.isWhole_whole _) sM (Memref.isWhole_whole _) dM (Memref.isWhole_whole _)
            cc3_scoped0 cc3_scoped1 cc3_scoped2 cc3_scoped3 cc3_scoped4)
          fun _ => iprop((srcLoc d ↦{qs} fs) ∗ (dstLoc d ↦{qd} fd) ∗ (ystLoc d ↦[abYsSet L]{fullShare} fy) ∗ (z2Loc d ↦{qz} z2)
            ∗ (∃ fo' : Buf (Elt F) (stLoc d), ⌜∀ n : S8x4096.Idx, fo' ((abOutRows L).view.emb n)
                  = FR (accAfterChunks (abYsOf d L fy) fs fd k3_t1_loop.trips z2) ((abAccLow).view.emb n)⌝
                ∗ stLoc d ↦[abOutSet L]{fullShare} fo')
            ∗ scopedBufs (thr3 d L) ∗ scopedSems0 (thr3 d L)
            ∗ ∃ W', ⌜∀ p ∈ W', p ∈ W ∨ p.2 = none⌝ ∗ owes (thr3 d L) O W') := by
  sl_unfold [cc3__agg_k]
  rw [(K (F := F)).scopedBufs_V facts d _ _, SparseCore.Cfg.scopedSems0_V (Val := Elt F) d _ _, ab_ownSems0, ab_ownBufs]
  iintro ⟨#Hlv, Hsrc, Hdst, Hy, Hz, Ho, ⟨⟨%f0, H0⟩, ⟨%f1, H1⟩, ⟨%f2, H2⟩, ⟨%f3, H3⟩, Hbufs⟩, ⟨Hsem0, Hsem1, Hsem2, Hsem3, Hsem4, Hsems⟩, HO⟩
  ihave Hmw := ((K (F := F)).mayWaits_none (thr := thr3 d L) hO) $$ Hlv
  ihave Hy' := (Entails.of_eq (show ((ystLoc d ↦[abYsSet L]{fullShare} fy : sProp 𝕄)) = ((abYsRows L).view.loc (thr3 d L) ↦[(abYsRows L).view.set]{fullShare} fy) from rfl)) $$ Hy
  ihave Hz' := (Entails.of_eq (show ((z2Loc d ↦{qz} z2 : sProp 𝕄)) = ((abZ2).view.loc (thr3 d L) ↦{qz} z2) from rfl)) $$ Hz
  ihave Ho' := (Entails.of_eq (show ((stLoc d ↦[abOutSet L]{fullShare} fo : sProp 𝕄)) = ((abOutRows L).view.loc (thr3 d L) ↦[(abOutRows L).view.set]{fullShare} fo) from rfl)) $$ Ho
  ihave H0' := (Entails.of_eq (show (((thr3 d L).loc cc3_scratch0 ↦{fullShare} f0 : sProp 𝕄)) = ((ysM).view.loc (thr3 d L) ↦{fullShare} f0) from rfl)) $$ H0
  ihave H1' := (Entails.of_eq (show (((thr3 d L).loc cc3_scratch1 ↦{fullShare} f1 : sProp 𝕄)) = ((accM).view.loc (thr3 d L) ↦{fullShare} f1) from rfl)) $$ H1
  -- the tile's feature rows and the zero block, copied into the feature scratch and the accumulator
  sl_exec
  have e0 : View.write (Elt F) (ysM).view f0 (agg_body_of.sl.dma0 d L fy) Finset.univ = abYsOf d L fy := (View.write_whole_univ _ _ _).trans rfl
  have e1 : View.write (Elt F) (accM).view f1 (agg_body_of.sl.dma0_1 d z2) Finset.univ = (z2 : Vec F S16x4096 .f32) := (View.write_whole_univ _ _ _).trans rfl
  ihave H0 := (Entails.of_eq (congrArg (fun f => ((thr3 d L).loc cc3_scratch0 ↦{fullShare} f : sProp 𝕄)) e0)) $$ H0'
  ihave H1 := (Entails.of_eq (congrArg (fun f => ((thr3 d L).loc cc3_scratch1 ↦{fullShare} f : sProp 𝕄)) e1)) $$ H1'
  -- the eight chunks
  sl_for (abChunkInv (F := F) d L O (insert (SemLoc.dma cc3_scoped1.sem, (default : HIx 2)) (insert (SemLoc.dma cc3_scoped0.sem, (default : HIx 2)) W)) qs qd fs fd (abYsOf d L fy) z2) $$ [Hmw Hsrc Hdst H0 H1 H2 H3 Hsem2 Hsem3 HO]
  case region =>
    intro k u
    exact ab_chunk_step (F := F) d L _ _ _ _ _ _ _ _ _ _ _ _ _ _ _ _ rotOK_pay O _ qs qd fs fd hfs hfd (abYsOf d L fy) z2 k u
  · unfold abChunkInv
    isplitl [Hmw]; · iexact Hmw
    isplitl [Hsrc]; · iexact Hsrc
    isplitl [Hdst]; · iexact Hdst
    isplitl [H0]; · iexact H0
    isplitl [H1]; · iexact H1
    isplitl [H2]; · iexists _; iexact H2
    isplitl [H3]; · iexists _; iexact H3
    isplitl [Hsem2]; · iexact Hsem2
    isplitl [Hsem3]; · iexact Hsem3
    iexists _; isplitr
    rotate_left
    · iexact HO
    · ipureintro; exact fun p hp => .inl hp
  iintro %_ HI
  unfold abChunkInv
  icases HI with ⟨Hmw, Hsrc, Hdst, H0, H1, ⟨%sb, H2⟩, ⟨%db, H3⟩, Hsem2, Hsem3, %W', %hW', HO⟩
  -- the fold of the upper rows onto the lower, then the lower rows copied onto the tile's rows of the result
  sl_respell []
  irw [wp_bind]
  iapply (wp_wand frame (wpE (defs₀ (F := F)) 𝒱₀ (thr3 d L) none) Set.univ) $$ [H1]
  · iapply (hfold _) $$ H1
  iintro %_ H1
  ihave H1' := (Entails.of_eq (show (((thr3 d L).loc cc3_scratch1 ↦{fullShare} (FR (accAfterChunks (abYsOf d L fy) fs fd k3_t1_loop.trips z2) : Buf (Elt F) ((thr3 d L).loc cc3_scratch1)) : sProp 𝕄))
    = ((accM).view.loc (thr3 d L) ↦{fullShare} (FR (accAfterChunks (abYsOf d L fy) fs fd k3_t1_loop.trips z2) : Buf (Elt F) ((thr3 d L).loc cc3_scratch1))) from rfl)) $$ H1
  sl_exec
  sl_step
  isplitl [Hsrc]; · iexact Hsrc
  isplitl [Hdst]; · iexact Hdst
  isplitl [Hy']; · iexact Hy'
  isplitl [Hz']; · iexact Hz'
  isplitl [Ho']
  · iexists _; isplitr
    rotate_left
    · iexact Ho'
    · ipureintro
      intro n
      have c1 : ((abOutRows L).view.writes (Elt F) fo [⟨Rect.whole S8x4096, agg_body_of.sl.dma0_2 d L FR fs fd fy z2⟩]) ((abOutRows L).view.emb n)
          = (abOutRows L).view.read (Elt F) ((abOutRows L).view.writes (Elt F) fo [⟨Rect.whole S8x4096, agg_body_of.sl.dma0_2 d L FR fs fd fy z2⟩]) n :=
        ((View.read_apply _ _).trans (cast_eq _ _)).symm
      have c2 := View.read_writes_cons_emb (abOutRows L).view fo (Rect.whole S8x4096) (agg_body_of.sl.dma0_2 d L FR fs fd fy z2) [] n
      rw [Rect.emb_whole_apply] at c2
      rw [c1, c2]
      exact (View.read_apply _ _).trans (cast_eq _ _)
  isplitl [H0 H1' H2 H3 Hbufs]
  · isplitl [H0]; · iexists _; iexact H0
    isplitl [H1']; · iexists _; iexact H1'
    isplitl [H2]; · iexists _; iexact H2
    isplitl [H3]; · iexists _; iexact H3
    iexact Hbufs
  isplitl [Hsem0 Hsem1 Hsem2 Hsem3 Hsem4 Hsems]
  · isplitl [Hsem0]; · iexact Hsem0
    isplitl [Hsem1]; · iexact Hsem1
    isplitl [Hsem2]; · iexact Hsem2
    isplitl [Hsem3]; · iexact Hsem3
    isplitl [Hsem4]; · iexact Hsem4
    iexact Hsems
  iexists _; isplitr
  rotate_left
  · iexact HO
  · ipureintro; intro p hp
    rcases Finset.mem_insert.mp hp with rfl | hp
    · exact .inr rfl
    rcases hW' p hp with h | h
    · rcases Finset.mem_insert.mp h with rfl | h
      · exact .inr rfl
      rcases Finset.mem_insert.mp h with rfl | h
      · exact .inr rfl
      · exact .inl h
    · exact .inr h

end AggRun

/-! ## The task as the launch asks for it -/

section AggObl

variable [FloatOps F]

/-- The tile's eight rows are part w of the 32 equal parts of the 256 rows, w = 16 (L 0) + (L 1). -/
theorem abYsRect_eq (L : grid3.Coords) (w : Fin 32) (hw : w.val = 16 * (L 0).val + (L 1).val) :
    Rect.unit (s := S256x4096) (k3_off1 L) S8x4096.size (k3_off1_inb L) = rowsPart w := by
  unfold rowsPart Rect.part Rect.block
  congr 1 <;> funext a
  · rw [k3_off1_eq]
    match a with
    | 0 => simp [Shape.partIx, Shape.partSize, hw]; omega
    | 1 => simp [Shape.partIx, Shape.partSize]
  · match a with
    | 0 => simp [Shape.partSize]
    | 1 => simp [Shape.partSize]

theorem abOutRect_eq (L : grid3.Coords) (w : Fin 32) (hw : w.val = 16 * (L 0).val + (L 1).val) :
    Rect.unit (s := S256x4096) (k3_off20 L) S8x4096.size (k3_off20_inb L) = rowsPart w := by
  unfold rowsPart Rect.part Rect.block
  congr 1 <;> funext a
  · rw [k3_off20_eq]
    match a with
    | 0 => simp [Shape.partIx, Shape.partSize, hw]; omega
    | 1 => simp [Shape.partIx, Shape.partSize]
  · match a with
    | 0 => simp [Shape.partSize]
    | 1 => simp [Shape.partSize]

theorem abYsSet_eq (L : grid3.Coords) (w : Fin 32) (hw : w.val = 16 * (L 0).val + (L 1).val) : abYsSet L = rowsSet w := by
  show ((abYst).view.slice (Rect.unit (s := S256x4096) (k3_off1 L) S8x4096.size (k3_off1_inb L))).set = ((abYst).view.slice (rowsPart w)).set
  rw [abYsRect_eq L w hw]

theorem abOutSet_eq (L : grid3.Coords) (w : Fin 32) (hw : w.val = 16 * (L 0).val + (L 1).val) : abOutSet L = rowsSet w := by
  show ((abSt).view.slice (Rect.unit (s := S256x4096) (k3_off20 L) S8x4096.size (k3_off20_inb L))).set = ((abYst).view.slice (rowsPart w)).set
  rw [abOutRect_eq L w hw]
  exact (View.set_slice_whole (main_v40_scv : Ref sig .scVector) (rowsPart w)).trans (View.set_slice_whole (main_v39_scv : Ref sig .scVector) (rowsPart w)).symm

theorem defs₀_vector3 (c : Fin τ.nSC) (s : Fin τ.nSub) :
    defs₀ (F := F) (.scVector c s) 3 ()
      = SparseCore.onTile hcore3 hsub3 (fun c s => cc3__agg_k (coordsV3 c s)
          srcM (Memref.isWhole_whole _) dstM (Memref.isWhole_whole _) abYst (Memref.isWhole_whole _) abZ2 (Memref.isWhole_whole _)
          abSt (Memref.isWhole_whole _) ysM (Memref.isWhole_whole _) accM (Memref.isWhole_whole _) sM (Memref.isWhole_whole _) dM (Memref.isWhole_whole _)
          cc3_scoped0 cc3_scoped1 cc3_scoped2 cc3_scoped3 cc3_scoped4) ⟨⟩ c s := rfl

/-- What the task leaves is what the launch takes back: the tile's rows of the result at the stated contents. -/
theorem agg_post (C : Conts F) (G : (d : Dev nD) → grid3.Coords → S8x4096.Idx → Elt F .f32)
    (hst : ∀ d (L : grid3.Coords) (n : S8x4096.Idx), C.st d ((abOutRows L).view.emb n) = G d L n)
    (d : Dev nD) (L : grid3.Coords) (s : PosShare TreeShare) {thr : Thread nD τ} {A B : sProp 𝕄}
    {O : CellTallies nD τ sig (HIx 2)} {W : Waits sig (HIx 2)} {q : Fin 2} :
    iprop((srcLoc d ↦{s} C.src d) ∗ (dstLoc d ↦{s} C.dst1 d) ∗ (ystLoc d ↦[abYsSet L]{fullShare} C.yst d) ∗ (z2Loc d ↦{s} C.z2 d)
        ∗ (∃ fo' : Buf (Elt F) (stLoc d), ⌜∀ n : S8x4096.Idx, fo' ((abOutRows L).view.emb n) = G d L n⌝ ∗ stLoc d ↦[abOutSet L]{fullShare} fo')
        ∗ A ∗ B ∗ ∃ W', ⌜∀ p ∈ W', p ∈ W ∨ p.2 = none⌝ ∗ owes thr O W')
      ⊢ iprop(((srcLoc d ↦{s} C.src d) ∗ (dstLoc d ↦{s} C.dst1 d) ∗ (ystLoc d ↦[abYsSet L]{fullShare} C.yst d) ∗ (z2Loc d ↦{s} C.z2 d)
          ∗ stLoc d ↦[abOutSet L]{fullShare} C.st d)
        ∗ A ∗ B ∗ ∃ W', ⌜∀ p ∈ W', p ∈ W ∨ p.2 = none ∨ p.2 = some q⌝ ∗ owes thr O W') := by
  iintro ⟨Hs, Hd, Hy, Hz, ⟨%fo', %hfo, Ho⟩, HA, HB, %W', %hW', HO⟩
  have e : (stLoc d ↦[abOutSet L]{fullShare} fo' : sProp 𝕄) = stLoc d ↦[abOutSet L]{fullShare} C.st d :=
    pointsTo_congr fun i hi => by
      obtain ⟨n, -, rfl⟩ := Finset.mem_map.mp hi
      exact (hfo n).trans (hst d L n).symm
  ihave Ho' := (Entails.of_eq e) $$ Ho
  isplitl [Hs Hd Hy Hz Ho']
  · isplitl [Hs]; · iexact Hs
    isplitl [Hd]; · iexact Hd
    isplitl [Hy]; · iexact Hy
    isplitl [Hz]; · iexact Hz
    iexact Ho'
  isplitl [HA]; · iexact HA
  isplitl [HB]; · iexact HB
  iexists W'; isplitr
  · ipureintro; exact fun p hp => (hW' p hp).imp_right Or.inl
  · iexact HO

/-- The edge aggregation's task obligation: every tile of the grid runs the body at its own coordinates. -/
theorem tileObl1_of (C : Conts F) (FR : Vec F S16x4096 .f32 → Vec F S16x4096 .f32)
    (hfold : ∀ (d : Dev nD) (L : grid3.Coords) (a : Buf (Elt F) ((thr3 d L).loc cc3_scratch1)),
      ((thr3 d L).loc cc3_scratch1 ↦{fullShare} a : sProp 𝕄)
        ⊢ wp frame (wpE (defs₀ (F := F)) 𝒱₀ (thr3 d L) none) Set.univ
            (Scf.Loop.for k3_t3_loop k3_t3_ok ⟨⟩ (k3_t3_body L srcM (Memref.isWhole_whole _) dstM (Memref.isWhole_whole _) abYst (Memref.isWhole_whole _)
              abZ2 (Memref.isWhole_whole _) abSt (Memref.isWhole_whole _) ysM (Memref.isWhole_whole _) accM (Memref.isWhole_whole _)
              sM (Memref.isWhole_whole _) dM (Memref.isWhole_whole _) cc3_scoped0 cc3_scoped1 cc3_scoped2 cc3_scoped3 cc3_scoped4))
            fun _ => ((thr3 d L).loc cc3_scratch1 ↦{fullShare} (FR a : Buf (Elt F) ((thr3 d L).loc cc3_scratch1))))
    (hsrc : ∀ d i, (C.src d i).toNat < 4096) (hdst : ∀ d i, (C.dst1 d i).toNat < 4096)
    (hst : ∀ d (L : grid3.Coords) (n : S8x4096.Idx), C.st d ((abOutRows L).view.emb n)
      = FR (accAfterChunks (abYsOf d L (C.yst d)) (C.src d) (C.dst1 d) k3_t1_loop.trips (C.z2 d)) ((abAccLow).view.emb n)) :
    (K (F := F)).TileObl (D (F := F)) 𝒱 (P C) v₀ 1 := by
  intro d c i O W hO _ _
  -- this kernel owes nothing for a protocol of its own
  simp only [show (P C).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  have hw : (wid (Fin.cast nCore_one c) (Fin.cast nSub_one i)).val
      = 16 * ((coordsV3 ⟨_, hc.1⟩ ⟨_, hc.2⟩ : grid3.Coords) 0).val + ((coordsV3 ⟨_, hc.1⟩ ⟨_, hc.2⟩ : grid3.Coords) 1).val := rfl
  show iprop(_ ∗ _ ∗ go1 C d (wid (Fin.cast nCore_one c) (Fin.cast nSub_one i)) ∗ _)
    ⊢ wp _ _ _ _ (fun _ => iprop(td1 C d (wid (Fin.cast nCore_one c) (Fin.cast nSub_one i)) ∗ _))
  unfold go1 td1
  have eY := abYsSet_eq _ _ hw
  have eO := abOutSet_eq _ _ hw
  iintro ⟨Hlv, -, ⟨Hs, Hd, Hy, Hz, %fo, Ho⟩, Hsb, Hss, HO⟩
  ihave Hy := (Entails.of_eq (congrArg (fun S => (ystLoc d ↦[S]{fullShare} C.yst d : sProp 𝕄)) eY.symm)) $$ Hy
  ihave Ho := (Entails.of_eq (congrArg (fun S => (stLoc d ↦[S]{fullShare} fo : sProp 𝕄)) eO.symm)) $$ Ho
  iapply ((agg_body_of (F := F) d (coordsV3 ⟨_, hc.1⟩ ⟨_, hc.2⟩) FR (hfold d _) (rd (wid (Fin.cast nCore_one c) (Fin.cast nSub_one i))) (rd (wid (Fin.cast nCore_one c) (Fin.cast nSub_one i)))
      (rd (wid (Fin.cast nCore_one c) (Fin.cast nSub_one i))) O W hO (C.src d) (C.dst1 d) (C.yst d) (C.z2 d) fo (hsrc d) (hdst d)).trans
    (wp_mono frame _ _ fun _ => (agg_post (q := 1) C _ hst d _ _).trans (Entails.of_eq (by rw [eY, eO]; rfl)))) $$ [Hlv Hs Hd Hy Hz Ho Hsb Hss HO]
  isplitl [Hlv]; · iexact Hlv
  isplitl [Hs]; · iexact Hs
  isplitl [Hd]; · iexact Hd
  isplitl [Hy]; · iexact Hy
  isplitl [Hz]; · iexact Hz
  isplitl [Ho]; · iexact Ho
  isplitl [Hsb]; · iexact Hsb
  isplitl [Hss]; · iexact Hss
  iexact HO

/-- The rows of the result the task leaves on tile L, from the arrays' contents: the lower rows of the folded accumulator
    after all the chunks, from the zero block's contents. -/
def aggOut (d : Dev nD) (L : grid3.Coords) (fs : Buf (Elt F) (srcLoc d)) (fd : Buf (Elt F) (dstLoc d)) (fy : Buf (Elt F) (ystLoc d))
    (z2 : Buf (Elt F) (z2Loc d)) (n : S8x4096.Idx) : Elt F .f32 :=
  foldAll (accAfterChunks (abYsOf d L fy) fs fd k3_t1_loop.trips z2) ((abAccLow).view.emb n)

/-- The task on tile L: its rows of the result end at aggOut of the arrays' contents. -/
theorem agg_body (d : Dev nD) (L : grid3.Coords) (qs qd qz : PosShare TreeShare) (O : CellTallies nD τ sig (HIx 2)) (W : Waits sig (HIx 2)) (hO : ∀ g, O g none = 0)
    (fs : Buf (Elt F) (srcLoc d)) (fd : Buf (Elt F) (dstLoc d)) (fy : Buf (Elt F) (ystLoc d)) (z2 : Buf (Elt F) (z2Loc d)) (fo : Buf (Elt F) (stLoc d))
    (hfs : ∀ i, (fs i).toNat < 4096) (hfd : ∀ i, (fd i).toNat < 4096) :
    iprop((levAts (K (F := F)).L (K (F := F)).lev : sProp 𝕄)
        ∗ (srcLoc d ↦{qs} fs) ∗ (dstLoc d ↦{qd} fd) ∗ (ystLoc d ↦[abYsSet L]{fullShare} fy) ∗ (z2Loc d ↦{qz} z2)
        ∗ (stLoc d ↦[abOutSet L]{fullShare} fo)
        ∗ scopedBufs (thr3 d L) ∗ scopedSems0 (thr3 d L) ∗ owes (thr3 d L) O W)
      ⊢ wp frame (wpE (defs₀ (F := F)) 𝒱₀ (thr3 d L) none) Set.univ
          (cc3__agg_k L srcM (Memref.isWhole_whole _) dstM (Memref.isWhole_whole _) abYst (Memref.isWhole_whole _) abZ2 (Memref.isWhole_whole _)
            abSt (Memref.isWhole_whole _) ysM (Memref.isWhole_whole _) accM (Memref.isWhole_whole _) sM (Memref.isWhole_whole _) dM (Memref.isWhole_whole _)
            cc3_scoped0 cc3_scoped1 cc3_scoped2 cc3_scoped3 cc3_scoped4)
          fun _ => iprop((srcLoc d ↦{qs} fs) ∗ (dstLoc d ↦{qd} fd) ∗ (ystLoc d ↦[abYsSet L]{fullShare} fy) ∗ (z2Loc d ↦{qz} z2)
            ∗ (∃ fo' : Buf (Elt F) (stLoc d), ⌜∀ n : S8x4096.Idx, fo' ((abOutRows L).view.emb n) = aggOut d L fs fd fy z2 n⌝
                ∗ stLoc d ↦[abOutSet L]{fullShare} fo')
            ∗ scopedBufs (thr3 d L) ∗ scopedSems0 (thr3 d L)
            ∗ ∃ W', ⌜∀ p ∈ W', p ∈ W ∨ p.2 = none⌝ ∗ owes (thr3 d L) O W') :=
  agg_body_of d L foldAll (wp_foldAll d L) qs qd qz O W hO fs fd fy z2 fo hfs hfd

/-- The edge aggregation's task obligation, at the arrays' stated contents. -/
theorem tileObl1 (C : Conts F) (hsrc : ∀ d i, (C.src d i).toNat < 4096) (hdst : ∀ d i, (C.dst1 d i).toNat < 4096)
    (hst : ∀ d (L : grid3.Coords) (n : S8x4096.Idx), C.st d ((abOutRows L).view.emb n) = aggOut d L (C.src d) (C.dst1 d) (C.yst d) (C.z2 d) n) :
    (K (F := F)).TileObl (D (F := F)) 𝒱 (P C) v₀ 1 :=
  tileObl1_of C foldAll (fun d L a => wp_foldAll d L a) hsrc hdst hst

end AggObl

end Cert.Proof.KB

end
-- ==== Proof.Bits.ScWhole1.lean ====
/-
  The edge aggregation's result as one function of the whole array. Tile w of 32 (SparseCore w / 16, subcore w % 16)
  owns rows [8 w, 8 w + 8) of the 256 x 4096 transposed features and of the result: its row memrefs are unit
  rectangles at (8 w, 0) of extent 8 x 4096, so index (r, c) of either sits at (8 w + r, c); the accumulator's lower
  eight rows are the rectangle at (0, 0) of the 16 x 4096 scratch, index (r, c) at (r, c). Row 8 w + r of the result is
  row r of tile w's folded accumulator, the accumulator that of all the chunks of the edge lists over tile w's eight
  feature rows from the zero block. Hence one function of the edge lists, the features and the zero block that every
  tile's rows agree with.
-/
import proofs.«205814_g58841051955373_cont_9to1_m_133_55_alg».proof.Proof.Bits.AggBody
import proofs.«205814_g58841051955373_cont_9to1_m_133_55_alg».proof.Proof.Bits.AggLoops
import Idealize.ShloMosaic.Lib.ValueIdxCoords

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-! ## Tiles of the second call by number -/

/-- The number of the tile at coordinates L is below 32. -/
theorem tile3_lt (L : grid3.Coords) : 16 * (L 0).val + (L 1).val < 32 := by
  have h0 : (L 0).val < 2 := (L 0).isLt
  have h1 : (L 1).val < 16 := (L 1).isLt
  omega

/-- The number of the tile at coordinates L. -/
def tileNo3 (L : grid3.Coords) : Fin 32 := ⟨16 * (L 0).val + (L 1).val, tile3_lt L⟩

/-- The coordinates of tile w of 32: SparseCore w / 16, subcore w % 16. -/
def tileOf3 (w : Fin 32) : grid3.Coords :=
  coordsV3 ⟨w.val / 16, by have := w.isLt; show w.val / 16 < 2; omega⟩ ⟨w.val % 16, by show w.val % 16 < 16; omega⟩

theorem tileOf3_zero (w : Fin 32) : ((tileOf3 w) 0).val = w.val / 16 := rfl
theorem tileOf3_one (w : Fin 32) : ((tileOf3 w) 1).val = w.val % 16 := rfl

theorem coordsV3_eta (L : grid3.Coords) : coordsV3 (L 0) (L 1) = L := by
  funext a
  match a with
  | 0 => rfl
  | 1 => rfl
  | ⟨_ + 2, h⟩ => exact absurd h (Nat.not_lt.2 (Nat.le_add_left _ _))

theorem tileNo3_tileOf3 (w : Fin 32) : tileNo3 (tileOf3 w) = w := by
  apply Fin.ext
  show 16 * ((tileOf3 w) 0).val + ((tileOf3 w) 1).val = w.val
  rw [tileOf3_zero, tileOf3_one]; omega

theorem tileOf3_tileNo3 (L : grid3.Coords) : tileOf3 (tileNo3 L) = L := by
  have h0 : (L 0).val < 2 := (L 0).isLt
  have h1 : (L 1).val < 16 := (L 1).isLt
  refine Eq.trans ?_ (coordsV3_eta L)
  unfold tileOf3 tileNo3
  congr 1 <;> apply Fin.ext
  · show (16 * (L 0).val + (L 1).val) / 16 = (L 0).val; omega
  · show (16 * (L 0).val + (L 1).val) % 16 = (L 1).val; omega

theorem tileOf3_wid (c : Fin 2) (i : Fin 16) : tileOf3 (wid c i) = coordsV3 ⟨c.val, c.isLt⟩ ⟨i.val, i.isLt⟩ := by
  have hc := c.isLt
  have hi := i.isLt
  unfold tileOf3
  congr 1 <;> apply Fin.ext
  · show (16 * c.val + i.val) / 16 = c.val; omega
  · show (16 * c.val + i.val) % 16 = i.val; omega

theorem tileNo3_coordsV3 (c : Fin 2) (i : Fin 16) : tileNo3 (coordsV3 ⟨c.val, c.isLt⟩ ⟨i.val, i.isLt⟩) = wid c i := rfl

/-! ## Rows of the 256 x 4096 arrays by tile -/

/-- Row 8 w + r of 256, for tile w of 32 and r below 8. -/
def rowAt (w : Fin 32) (r : Fin 8) : Fin 256 := ⟨8 * w.val + r.val, by have := w.isLt; have := r.isLt; omega⟩
/-- The tile that owns row i of 256, and the row's place among that tile's eight (as a row of the 16-row accumulator). -/
def rowTile (i : Fin 256) : Fin 32 := ⟨i.val / 8, by have := i.isLt; omega⟩
def rowIn (i : Fin 256) : Fin 16 := ⟨i.val % 8, by omega⟩

theorem rowTile_rowAt (w : Fin 32) (r : Fin 8) : rowTile (rowAt w r) = w :=
  Fin.ext (by have := r.isLt; show (8 * w.val + r.val) / 8 = w.val; omega)
theorem rowIn_rowAt (w : Fin 32) (r : Fin 8) : rowIn (rowAt w r) = ⟨r.val, by have := r.isLt; omega⟩ :=
  Fin.ext (by have := r.isLt; show (8 * w.val + r.val) % 8 = r.val; omega)
theorem rowAt_rowTile (i : Fin 256) : rowAt (rowTile i) ⟨i.val % 8, Nat.mod_lt _ (by decide)⟩ = i :=
  Fin.ext (by show 8 * (i.val / 8) + i.val % 8 = i.val; omega)

/-! ## Where the second call's memrefs place their indices -/

/-- Index (r, c) of the tile's rows of the result is element (8 (16 (L 0) + (L 1)) + r, c) of the 256 x 4096 array. -/
theorem abOutRows_emb (L : grid3.Coords) (n : S8x4096.Idx) :
    ((abOutRows L).view.emb n : S256x4096.Idx)
      = ix2 (rowAt (tileNo3 L) ⟨(n 0).val, (n 0).isLt⟩) (⟨(n 1).val, (n 1).isLt⟩ : Fin 4096) := by
  have h0 : (L 0).val < 2 := (L 0).isLt
  have h1 : (L 1).val < 16 := (L 1).isLt
  funext (a : Fin 2)
  apply Fin.ext
  show (k3_off20 L) a + 1 * (n a).val = _
  rw [k3_off20_eq]
  match a with
  | 0 => show (128 * (L 0).val + 8 * (L 1).val) + 1 * (n 0).val = 8 * (16 * (L 0).val + (L 1).val) + (n 0).val; omega
  | 1 => show 0 + 1 * (n 1).val = (n 1).val; omega

/-- The same for the tile's rows of the features. -/
theorem abYsRows_emb (L : grid3.Coords) (n : S8x4096.Idx) :
    ((abYsRows L).view.emb n : S256x4096.Idx)
      = ix2 (rowAt (tileNo3 L) ⟨(n 0).val, (n 0).isLt⟩) (⟨(n 1).val, (n 1).isLt⟩ : Fin 4096) := by
  have h0 : (L 0).val < 2 := (L 0).isLt
  have h1 : (L 1).val < 16 := (L 1).isLt
  funext (a : Fin 2)
  apply Fin.ext
  show (k3_off1 L) a + 1 * (n a).val = _
  rw [k3_off1_eq]
  match a with
  | 0 => show (128 * (L 0).val + 8 * (L 1).val) + 1 * (n 0).val = 8 * (16 * (L 0).val + (L 1).val) + (n 0).val; omega
  | 1 => show 0 + 1 * (n 1).val = (n 1).val; omega

/-- Index (r, c) of the accumulator's lower eight rows is element (r, c) of the 16 x 4096 accumulator. -/
theorem abAccLow_emb (n : S8x4096.Idx) :
    ((abAccLow).view.emb n : S16x4096.Idx)
      = ix16 (⟨(n 0).val, by have : (n 0).val < 8 := (n 0).isLt; omega⟩ : Fin 16) (⟨(n 1).val, (n 1).isLt⟩ : Fin 4096) := by
  funext (a : Fin 2)
  apply Fin.ext
  match a with
  | 0 => show 0 + 1 * (n 0).val = (n 0).val; omega
  | 1 => show 0 + 1 * (n 1).val = (n 1).val; omega

section Whole1

variable [FloatOps F]

/-- The tile's eight feature rows, element by element of the whole array. -/
theorem abYsOf_word (d : Dev nD) (L : grid3.Coords) (fy : Buf (Elt F) (ystLoc d)) (n : S8x4096.Idx) :
    abYsOf d L fy n = fy (ix2 (rowAt (tileNo3 L) ⟨(n 0).val, (n 0).isLt⟩) (⟨(n 1).val, (n 1).isLt⟩ : Fin 4096)) := by
  refine ((View.read_apply _ _).trans (cast_eq _ _)).trans ?_
  exact congrArg fy (abYsRows_emb L n)

/-- The feature rows of tile w: rows [8 w, 8 w + 8). -/
theorem abYsOf_tileOf3 (d : Dev nD) (w : Fin 32) (fy : Buf (Elt F) (ystLoc d)) (n : S8x4096.Idx) :
    abYsOf d (tileOf3 w) fy n = fy (ix2 (rowAt w ⟨(n 0).val, (n 0).isLt⟩) (⟨(n 1).val, (n 1).isLt⟩ : Fin 4096)) := by
  rw [abYsOf_word, tileNo3_tileOf3]

/-- The feature rows of tile w at row r, column c. -/
theorem abYsOf_ix8 (d : Dev nD) (w : Fin 32) (fy : Buf (Elt F) (ystLoc d)) (r : Fin 8) (c : Fin 4096) :
    abYsOf d (tileOf3 w) fy (ix8 r c) = fy (ix2 (rowAt w r) c) := abYsOf_tileOf3 d w fy (ix8 r c)

/-! ## The aggregate, whole -/

/-- The accumulator of tile w when its fold loop starts: all the chunks of the edge lists run over tile w's eight feature
    rows, from the zero block's contents. -/
def accOf (d : Dev nD) (src : Buf (Elt F) (srcLoc d)) (dst : Buf (Elt F) (dstLoc d)) (yst : Buf (Elt F) (ystLoc d))
    (z2 : Buf (Elt F) (z2Loc d)) (w : Fin 32) : Vec F S16x4096 .f32 :=
  accAfterChunks (abYsOf d (tileOf3 w) yst) src dst k3_t1_loop.trips z2

/-- The 256 x 4096 aggregate the second call leaves: row 8 w + r is row r of tile w's folded accumulator. -/
def stWhole (d : Dev nD) (src : Buf (Elt F) (srcLoc d)) (dst : Buf (Elt F) (dstLoc d))
    (yst : Buf (Elt F) (ystLoc d)) (z2 : Buf (Elt F) (z2Loc d)) : Buf (Elt F) (stLoc d) :=
  fun (i : S256x4096.Idx) =>
    foldAll (accOf d src dst yst z2 (rowTile ⟨(i 0).val, idx2_lt0 i⟩))
      (ix16 (rowIn ⟨(i 0).val, idx2_lt0 i⟩) (⟨(i 1).val, idx2_lt1 i⟩ : Fin 4096))

/-- The aggregate at row 8 w + r, column c. -/
theorem stWhole_ix2 (d : Dev nD) (src : Buf (Elt F) (srcLoc d)) (dst : Buf (Elt F) (dstLoc d))
    (yst : Buf (Elt F) (ystLoc d)) (z2 : Buf (Elt F) (z2Loc d)) (w : Fin 32) (r : Fin 8) (c : Fin 4096) :
    stWhole d src dst yst z2 (ix2 (rowAt w r) c)
      = foldAll (accOf d src dst yst z2 w) (ix16 (⟨r.val, by have := r.isLt; omega⟩ : Fin 16) c) := by
  show foldAll (accOf d src dst yst z2 (rowTile (rowAt w r))) (ix16 (rowIn (rowAt w r)) c) = _
  rw [rowTile_rowAt, rowIn_rowAt]

/-- The same entry as a sum: row r of tile w's accumulator plus the row eight below. -/
theorem stWhole_entry (d : Dev nD) (src : Buf (Elt F) (srcLoc d)) (dst : Buf (Elt F) (dstLoc d))
    (yst : Buf (Elt F) (ystLoc d)) (z2 : Buf (Elt F) (z2Loc d)) (w : Fin 32) (r : Fin 8) (c : Fin 4096) :
    stWhole d src dst yst z2 (ix2 (rowAt w r) c)
      = FloatOps.addf (accOf d src dst yst z2 w (ix16 (⟨r.val, by have := r.isLt; omega⟩ : Fin 16) c))
          (accOf d src dst yst z2 w (ix16 (⟨r.val + 8, by have := r.isLt; omega⟩ : Fin 16) c)) :=
  (stWhole_ix2 d src dst yst z2 w r c).trans (foldAll_lo _ r c)

/-- Every tile's rows of the whole aggregate are the rows that tile's task leaves: the body's post at the whole-array function. -/
theorem stWhole_emb (d : Dev nD) (src : Buf (Elt F) (srcLoc d)) (dst : Buf (Elt F) (dstLoc d))
    (yst : Buf (Elt F) (ystLoc d)) (z2 : Buf (Elt F) (z2Loc d)) (L : grid3.Coords) (n : S8x4096.Idx) :
    stWhole d src dst yst z2 ((abOutRows L).view.emb n) = aggOut d L src dst yst z2 n := by
  show _ = foldAll (accAfterChunks (abYsOf d L yst) src dst k3_t1_loop.trips z2) ((abAccLow).view.emb n)
  have e : stWhole d src dst yst z2 ((abOutRows L).view.emb n)
      = stWhole d src dst yst z2 (ix2 (rowAt (tileNo3 L) ⟨(n 0).val, (n 0).isLt⟩) (⟨(n 1).val, (n 1).isLt⟩ : Fin 4096)) :=
    congrArg (stWhole d src dst yst z2) (abOutRows_emb L n)
  rw [e, stWhole_ix2]
  unfold accOf
  rw [tileOf3_tileNo3]
  exact congrArg (foldAll (accAfterChunks (abYsOf d L yst) src dst k3_t1_loop.trips z2)) (abAccLow_emb n).symm

end Whole1

section Obl1

variable [FloatOps F]

/-- The second call's task obligation at the whole aggregate. -/
theorem tileObl1_whole (C : Conts F)
    (hsrc : ∀ d i, (C.src d i).toNat < 4096) (hdst : ∀ d i, (C.dst1 d i).toNat < 4096)
    (hC : ∀ d, C.st d = stWhole d (C.src d) (C.dst1 d) (C.yst d) (C.z2 d)) :
    (K (F := F)).TileObl (D (F := F)) 𝒱 (P C) v₀ 1 :=
  tileObl1 C hsrc hdst fun d L n => by
    rw [hC d]; exact stWhole_emb d (C.src d) (C.dst1 d) (C.yst d) (C.z2 d) L n

end Obl1

end Cert.Proof.KB

end
-- ==== Proof.Bits.TcRegion.lean ====
/-
  The first TensorCore call of the program, x1t[:, block i] = xft · A0[block i, :]ᵀ over a grid of 16 points,
  as a region of @main entered on the TensorCore thread between two SparseCore calls: the body's run at a
  symbolic grid point, the pipeline's proof data, the whole result as a function of the two factors, and the
  region's entailment from the whole input arrays to the whole output array.
-/
import proofs.«205814_g58841051955373_cont_9to1_m_133_55_alg».proof.Proof.Bits.Setup
import proofs.«205814_g58841051955373_cont_9to1_m_133_55_alg».proof.Proof.Bits.PipeGhost
import proofs.«205814_g58841051955373_cont_9to1_m_133_55_alg».proof.Proof.Gen.Kernel.Points
import Idealize.ShloMosaic.Lib.Pipeline.Regions
import Idealize.ShloMosaic.Lib.Pipeline.Value
import Idealize.ShloMosaic.Lib.Pipeline.FrameBody
import Idealize.ShloMosaic.Lib.Ring
import Idealize.ShloMosaic.Lib.Tactic

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body at a symbolic grid point -/

abbrev r1_in : Rect S256x4096 := Rect.unit (s := S256x4096) ![0, 0] S256x4096.size inb_S256x4096_S256x4096_0_0
abbrev r1_out : Rect S256x256 := Rect.unit (s := S256x256) ![0, 0] S256x256.size inb_S256x256_S256x256_0_0

/-- What the body leaves in the output block from the two staged input blocks: its one store, of the product
    `k1_pay1` of the blocks as loaded. -/
def out1 (x0 x1 : Vec F S256x4096 .f32) : Vec F S256x256 .f32 :=
  View.canon [⟨r1_out, k1_pay1 (View.ld x0 r1_in) (View.ld x1 r1_in)⟩]

/-- Both loads read their whole block and the store writes the whole output block: what is left is the product itself. -/
theorem out1_eq (x0 x1 : Vec F S256x4096 .f32) : out1 x0 x1 = k1_pay1 x0 x1 := by
  unfold out1
  have h2 : (![0, 0] : Fin 2 → ℕ) = fun _ => 0 := by funext a; fin_cases a <;> rfl
  rw [View.canon_unit_zero h2, View.ld_unit_zero h2, View.ld_unit_zero h2]

/-- The one store tiles the output block. -/
theorem cover1 (p0 : Vec F S256x256 .f32) (y : S256x256.Idx) :
    ∃ pc ∈ ([⟨r1_out, p0⟩] : List (View.Piece (Elt F) S256x256 .f32)), y ∈ pc.1.set :=
  View.cover_of_tiled [⟨r1_out, p0⟩] S256x256.size (by rfl) y

set_option maxHeartbeats 1000000 in
/-- The body on whole staging memrefs: the two input blocks at `x0`, `x1` stay, the output block ends at `out1 x0 x1`. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x256 .f32) (harg3 : arg3.IsWhole)
    (x0 x1 : Vec F S256x4096 .f32) (Kp : PUnit → sProp 𝕄) :
    iprop(owns (c : Thread nD τ) arg1 fullShare x0 ∗ owns (c : Thread nD τ) arg2 fullShare x1 ∗ (∃ y, owns (c : Thread nD τ) arg3 fullShare y)
        ∗ (iprop(owns (c : Thread nD τ) arg1 fullShare x0 ∗ owns (c : Thread nD τ) arg2 fullShare x1
            ∗ owns (c : Thread nD τ) arg3 fullShare (out1 x0 x1)) -∗ Kp ⟨⟩))
      ⊢ wp frame (wpE (defs₀ (F := F)) Variants.none c none) E (cc1__mm_t_body i arg1 harg1 arg2 harg2 arg3 harg3) Kp := by
  simp only [cc1__mm_t_body_eq_skeleton]; unfold cc1__mm_t_body_skel
  unfold owns
  iintro ⟨⟨%f0, %hf0, H0⟩, ⟨%f1, %hf1, H1⟩, ⟨%y, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The proof data of the pipeline -/

section Data

variable (c : Dev nD) (X : Vec F S256x4096 .f32) (A : Vec F S4096x4096 .f32) (Y₀ : Vec F S256x4096 .f32)

/-- The three arrays as the region finds them: the left factor whole, the right factor whole, the result at anything. -/
def arr1 : (w : Fin cfg1.W) → Buf (Elt F) ((cfg1.win w).arr.view.loc (c.tc : Thread nD τ))
  | ⟨0, _⟩ => X
  | ⟨1, _⟩ => A
  | ⟨2, _⟩ => Y₀

/-- Window `w`'s block at point `t`, read off its array. -/
def iblk1 (w : Fin cfg1.W) (t : Fin cfg1.N) : ((cfg1.win w).xblock (cfg1.grid.coords t)).Idx → Elt F (cfg1.win w).elt :=
  ((cfg1.win w).blk t).view.read (Elt F) (arr1 c X A Y₀ w)

/-- The proof data on core `c`: the inputs' staging buffers keep their blocks, the output's holds the body's product of
    them; the invariant is the scoped buffers no window stages; the core owes, throughout, what the TensorCore owes
    between the first and the second SparseCore call, and its recorded pairs stay at or below that call's band. -/
def dat1 : Dat τ (Elt F) (HIx 2) ℕ UU ℕ cfg1 c where
  A := arr1 c X A Y₀
  after w t := match w with
    | ⟨0, _⟩ => iblk1 c X A Y₀ 0 t
    | ⟨1, _⟩ => iblk1 c X A Y₀ 1 t
    | ⟨2, _⟩ => out1 (iblk1 c X A Y₀ 0 t) (iblk1 c X A Y₀ 1 t)
  Φ _ := Pipeline.scopedRest spec1 c
  q _ := fullShare
  owed _ := (K (F := F)).Otc c 1
  recorded _ := {p | (K (F := F)).lev ((c.tc : Thread nD τ), p.1) p.2 ≤ 8}

theorem A_eq1 (w : Fin cfg1.W) : (dat1 c X A Y₀).A w = arr1 c X A Y₀ w := by dsimp only [dat1]
theorem after1_0 (t : Fin cfg1.N) : (dat1 c X A Y₀).after 0 t = iblk1 c X A Y₀ 0 t := by dsimp only [dat1]
theorem after1_1 (t : Fin cfg1.N) : (dat1 c X A Y₀).after 1 t = iblk1 c X A Y₀ 1 t := by dsimp only [dat1]
theorem after1_2 (t : Fin cfg1.N) : (dat1 c X A Y₀).after 2 t = out1 (iblk1 c X A Y₀ 0 t) (iblk1 c X A Y₀ 1 t) := by dsimp only [dat1]

/-- Each input's current staging buffer holds its block at every point, fetched there or not. -/
theorem before1_0 (t : Fin cfg1.N) (d) : (dat1 c X A Y₀).before 0 t d = iblk1 c X A Y₀ 0 t :=
  ((dat1 c X A Y₀).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (t : Fin cfg1.N) (d) : (dat1 c X A Y₀).before 1 t d = iblk1 c X A Y₀ 1 t :=
  ((dat1 c X A Y₀).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, -/
def bodyPre1 (t : Fin cfg1.N) : sProp 𝕄 :=
  iprop((dat1 c X A Y₀).Φ t.castSucc ∗ (dat1 c X A Y₀).owesAt (none : HIx 2) t.castSucc
    ∗ (∃ d, owns (c : Thread nD τ) (st1_0 t) fullShare ((dat1 c X A Y₀).before 0 t d))
    ∗ (∃ d, owns (c : Thread nD τ) (st1_1 t) fullShare ((dat1 c X A Y₀).before 1 t d))
    ∗ (∃ d, owns (c : Thread nD τ) (st1_2 t) fullShare ((dat1 c X A Y₀).before 2 t d)))

/-- and what it returns. -/
def bodyPost1 (t : Fin cfg1.N) : sProp 𝕄 :=
  iprop((dat1 c X A Y₀).Φ t.succ ∗ (dat1 c X A Y₀).owesAt (none : HIx 2) t.succ
    ∗ owns (c : Thread nD τ) (st1_0 t) fullShare ((dat1 c X A Y₀).after 0 t)
    ∗ owns (c : Thread nD τ) (st1_1 t) fullShare ((dat1 c X A Y₀).after 1 t)
    ∗ owns (c : Thread nD τ) (st1_2 t) fullShare ((dat1 c X A Y₀).after 2 t))

/-- The body at any point: the inputs' memrefs hold their blocks; the invariant and the core's debts pass through unread. -/
theorem sound_body1 (t : Fin cfg1.N) :
    bodyPre1 c X A Y₀ t ⊢ wp frame (wpE (defs₀ (F := F)) Variants.none c none) Set.univ (bodyAt1 t) (fun _ => bodyPost1 c X A Y₀ t) := by
  unfold bodyPre1 bodyPost1 bodyAt1
  simp only [before1_0, before1_1]
  rw [show (dat1 c X A Y₀).Φ t.succ = (dat1 c X A Y₀).Φ t.castSucc from rfl,
    show (dat1 c X A Y₀).owesAt (none : HIx 2) t.succ = (dat1 c X A Y₀).owesAt (none : HIx 2) t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 c X A Y₀ 0 t) (iblk1 c X A Y₀ 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 : BodyObligation (dat1 c X A Y₀) (defs₀ (F := F)) Variants.none (none : HIx 2) Set.univ := fun t => by
  rw [bigSep_W1, bigSep_W1]
  exact sound_body1 c X A Y₀ t

end Data

/-! ## The product, block by block -/

/-- The block indices of the three windows at point `t`: the left factor whole, rows block `t` of the right factor,
    columns block `t` of the result. -/
theorem index1_0 : ∀ t : Fin grid1.N, cc1_transform_0 (grid1.coords t) = ![0, 0] := by decide +kernel
theorem index1_1 : ∀ t : Fin grid1.N, cc1_transform_1 (grid1.coords t) = ![t.val, 0] := by decide +kernel
theorem index1_2 : ∀ t : Fin grid1.N, cc1_transform_2 (grid1.coords t) = ![0, t.val] := by decide +kernel

theorem idx2_0 (t : Fin cfg1.N) : (cfg1.win 2).index t 0 = 0 := by
  show cc1_transform_2 (grid1.coords t) 0 = 0; rw [index1_2 t]; rfl
theorem idx2_1 (t : Fin cfg1.N) : (cfg1.win 2).index t 1 = t.val := by
  show cc1_transform_2 (grid1.coords t) 1 = t.val; rw [index1_2 t]; rfl
theorem idx0 (t : Fin cfg1.N) (a : Fin 2) : (cfg1.win 0).index t a = 0 := by
  show cc1_transform_0 (grid1.coords t) a = 0; rw [index1_0 t]; fin_cases a <;> rfl

/-- The column block of an index of the result, and its place in that block. -/
def tOf (i : S256x4096.Idx) : Fin cfg1.N :=
  ⟨(i 1).val / 256, by
    have h : (i 1).val < 4096 := (i 1).isLt
    show (i 1).val / 256 < grid1.N
    rw [N_1]; omega⟩
def jOf (i : S256x4096.Idx) : S256x256.Idx
  | ⟨0, _⟩ => ⟨(i 0).val, (i 0).isLt⟩
  | ⟨1, _⟩ => ⟨(i 1).val % 256, Nat.mod_lt _ (by decide)⟩

/-- Where an element of the result's block `t` sits in the array: same row, column `256 t +` its own. -/
theorem emb2_val0 (t : Fin cfg1.N) (y : ((cfg1.win 2).xblock (cfg1.grid.coords t)).Idx) :
    ((((cfg1.win 2).blk t).view.emb y) 0 : ℕ) = (y 0 : ℕ) := by
  rw [show ((cfg1.win 2).blk t).view.emb y = ((cfg1.win 2).rect t).emb y from rfl]
  exact (cfg1.win 2).rect_emb_val_of_index_zero t 0 (idx2_0 t) y
theorem emb2_val1 (t : Fin cfg1.N) (y : ((cfg1.win 2).xblock (cfg1.grid.coords t)).Idx) :
    ((((cfg1.win 2).blk t).view.emb y) 1 : ℕ) = t.val * 256 + (y 1 : ℕ) := by
  rw [show ((cfg1.win 2).blk t).view.emb y = ((cfg1.win 2).rect t).emb y from rfl]
  have h := (cfg1.win 2).rect_emb_val t y 1
  rw [idx2_1 t] at h
  exact h

theorem tOf_emb (t : Fin cfg1.N) (y : ((cfg1.win 2).xblock (cfg1.grid.coords t)).Idx) :
    tOf (((cfg1.win 2).blk t).view.emb y) = t := by
  apply Fin.ext
  show ((((cfg1.win 2).blk t).view.emb y) 1 : ℕ) / 256 = t.val
  rw [emb2_val1]
  have : (y 1 : ℕ) < 256 := (y 1).isLt
  omega
theorem jOf_emb (t : Fin cfg1.N) (y : ((cfg1.win 2).xblock (cfg1.grid.coords t)).Idx) :
    jOf (((cfg1.win 2).blk t).view.emb y) = y := by
  funext a
  match a with
  | ⟨0, _⟩ => apply Fin.ext; show ((((cfg1.win 2).blk t).view.emb y) 0 : ℕ) = (y 0 : ℕ); rw [emb2_val0]
  | ⟨1, _⟩ =>
    apply Fin.ext; show ((((cfg1.win 2).blk t).view.emb y) 1 : ℕ) % 256 = (y 1 : ℕ); rw [emb2_val1]
    have : (y 1 : ℕ) < 256 := (y 1).isLt
    omega

/-- Rows block `t` of the right factor. -/
def rowsBlk (A : Vec F S4096x4096 .f32) (t : Fin cfg1.N) : Vec F S256x4096 .f32 :=
  ((cfg1.win 1).blk t).view.read (Elt F) A

/-- The whole result as a function of the two factors: under column block `t`, the body's product of the left factor
    with rows block `t` of the right factor. -/
def x1tV (X : Vec F S256x4096 .f32) (A : Vec F S4096x4096 .f32) : Vec F S256x4096 .f32 :=
  fun i => out1 X (rowsBlk A (tOf i)) (jOf i)

/-- The same at the result array's location on device `d`. -/
def x1t (d : Dev nD) (X : Buf (Elt F) ((T d : Thread nD τ).loc main_v1)) (A : Buf (Elt F) ((T d : Thread nD τ).loc main_v35)) :
    Buf (Elt F) ((T d : Thread nD τ).loc main_v36) := x1tV X A

/-! ## What the arrays hold at the region's two ends -/

section Value

variable (c : Dev nD) (X : Vec F S256x4096 .f32) (A : Vec F S4096x4096 .f32) (Y₀ : Vec F S256x4096 .f32)

/-- Window 0's block is the whole left factor, at every point. -/
theorem iblk1_0 (t : Fin cfg1.N) : iblk1 c X A Y₀ 0 t = X := by
  funext x
  unfold iblk1
  rw [View.read_apply]
  show X (((cfg1.win 0).blk t).view.emb x) = X x
  congr 1
  funext a; apply Fin.ext
  rw [show ((cfg1.win 0).blk t).view.emb x = ((cfg1.win 0).rect t).emb x from rfl]
  exact (cfg1.win 0).rect_emb_val_of_index_zero t a (idx0 t a) x

theorem iblk1_1 (t : Fin cfg1.N) : iblk1 c X A Y₀ 1 t = rowsBlk A t := rfl

/-- What point `t` writes back is block `t` of the whole result. -/
theorem hG1 (t : Fin cfg1.N) (hf : (cfg1.win 2).flush t = true) :
    (dat1 c X A Y₀).flushed 2 t = ((cfg1.win 2).blk t).view.read (Elt F) (x1tV X A) := by
  funext y
  rw [View.read_apply]
  show (dat1 c X A Y₀).after 2 t y = x1tV X A (((cfg1.win 2).blk t).view.emb y)
  rw [after1_2, iblk1_0, iblk1_1]
  unfold x1tV
  rw [tOf_emb, jOf_emb]

/-- The sixteen column blocks cover the result. -/
theorem hcover1 (i : S256x4096.Idx) : ∃ t : Fin cfg1.N, (cfg1.win 2).flush t = true ∧ i ∈ ((cfg1.win 2).blk t).view.set := by
  refine ⟨tOf i, flush1_2 _, ?_⟩
  have h : ((cfg1.win 2).blk (tOf i)).view.emb (jOf i) = i := by
    funext a
    match a with
    | ⟨0, _⟩ => apply Fin.ext; show ((((cfg1.win 2).blk (tOf i)).view.emb (jOf i)) 0 : ℕ) = (i 0 : ℕ); rw [emb2_val0]; rfl
    | ⟨1, _⟩ =>
      apply Fin.ext; show ((((cfg1.win 2).blk (tOf i)).view.emb (jOf i)) 1 : ℕ) = (i 1 : ℕ); rw [emb2_val1]
      show (i 1).val / 256 * 256 + (i 1).val % 256 = (i 1).val
      omega
  have hm := ((cfg1.win 2).blk (tOf i)).view.emb_mem_set (jOf i)
  rw [h] at hm
  exact hm

/-- The inputs are never written; the result ends at the whole product. -/
theorem arrAt1_0 (n : ℕ) : (dat1 c X A Y₀).arrAt 0 n = X := ((dat1 c X A Y₀).arrAt_in 0 rfl n).trans (by rw [A_eq1]; rfl)
theorem arrAt1_1 (n : ℕ) : (dat1 c X A Y₀).arrAt 1 n = A := ((dat1 c X A Y₀).arrAt_in 1 rfl n).trans (by rw [A_eq1]; rfl)
theorem arrAt1_2_zero : (dat1 c X A Y₀).arrAt 2 0 = Y₀ := by show (dat1 c X A Y₀).A 2 = Y₀; rw [A_eq1]; rfl
theorem arrAt1_2 : (dat1 c X A Y₀).arrAt 2 cfg1.N = x1tV X A :=
  (dat1 c X A Y₀).arrAt_eq_of_cover 2 (x1tV X A) (hG1 c X A Y₀) hcover1

/-- The pipeline's three arrays, held whole. -/
theorem arrays1_eq (G : (w : Fin cfg1.W) → Buf (Elt F) ((cfg1.win w).arr.view.loc (c.tc : Thread nD τ))) :
    (dat1 c X A Y₀).arrays G
      = iprop((((c.tc : Thread nD τ).loc main_v1) ↦{fullShare} G 0) ∗ (((c.tc : Thread nD τ).loc main_v35) ↦{fullShare} G 1)
          ∗ (((c.tc : Thread nD τ).loc main_v36) ↦{fullShare} G 2)) := by
  unfold Dat.arrays
  rw [bigSep_W1, (arr_whole1 0).set_eq_univ, (arr_whole1 1).set_eq_univ, (arr_whole1 2).set_eq_univ]
  rfl

end Value

/-! ## The region -/

section Region

variable {lv : GSem nD τ sig → HIx 2 → ℕ} (hlv : (K (F := F)).Refines lv)
variable (Xv : Vec F S256x4096 .f32) (Av : Vec F S4096x4096 .f32) (Yv : Vec F S256x4096 .f32)

/-- Proof data that says nothing, for the two pipelines this region does not enter. -/
def idleDat (c : Dev nD) (cfg : Pipeline.Cfg sig Λ₀) : Dat τ (Elt F) (HIx 2) ℕ UU ℕ cfg c where
  A _ := Classical.arbitrary _
  after _ _ := Classical.arbitrary _
  Φ _ := iprop(emp)
  q _ := fullShare
  owed _ := 0

/-- Every pipeline's proof data, this region's at the arrays it is entered with. -/
def pdats1 : (p : Fin 3) → (c : Dev nD) → Dat τ (Elt F) (HIx 2) ℕ UU ℕ (Pipeline.pin (pcfgs (F := F)) adm p) c
  | ⟨0, _⟩ => fun c => dat1 c Xv Av Yv
  | ⟨1, _⟩ => fun c => idleDat c _
  | ⟨2, _⟩ => fun c => idleDat c _

/-- What the TensorCore owes between the first and the second SparseCore call, its recorded pairs within the first call's band. -/
abbrev owesT (c : Dev nD) : sProp 𝕄 :=
  iprop(∃ W, ⌜(K (F := F)).WBelow (T c) W (8 * 1)⌝ ∗ owes (T c : Thread nD τ) ((K (F := F)).Otc c 1) W)

/-- The TensorCore's debts are all at a call's index: none at the kernels' own. -/
theorem Otc_none (c : Dev nD) (n : ℕ) (g : GSem nD τ sig) : (K (F := F)).Otc c n g none = 0 :=
  Nat.eq_zero_of_not_pos fun h => by
    have := (K (F := F)).lev_of_Otc_pos h
    rw [SparseCore.Cfg.lev_none] at this; omega

set_option backward.isDefEq.respectTransparency.types false in
/-- The region over the thread state "what the TensorCore owes, the three arrays whole": the arrays go in as the
    pipeline's, come back with the result at the whole product; the debts ride through at the same tallies, the
    pipeline's own waits recorded at the kernels' index, level zero. -/
def reg1 : Pipeline.RegionSeg (pcfgs (F := F)) adm (pdats1 Xv Av Yv) (none : HIx 2) defs₀ 𝒱₀ (K (F := F)).L lv 0 where
  win := launch1.win.to₀
  block_pos := launch1.block_pos
  stage_whole := launch1.stage_whole
  K := PEmpty
  osem k := k.elim
  ho := Pipeline.OwnSemFacts.none _
  hbody c := (body_obligation1 c Xv Av Yv).loose
  hwaits c := Pipeline.cellsWaits_intro (Pipeline.pin (pcfgs (F := F)) adm) (pdats1 Xv Av Yv) (none : HIx 2) 0 c
    fun w s t => (K (F := F)).mayWait_none _ (Otc_none c 1) lv hlv
  pre c := iprop(owesT c ∗ (((c.tc : Thread nD τ).loc main_v1) ↦{fullShare} Xv) ∗ (((c.tc : Thread nD τ).loc main_v35) ↦{fullShare} Av)
    ∗ (((c.tc : Thread nD τ).loc main_v36) ↦{fullShare} Yv))
  post c := iprop(owesT c ∗ (((c.tc : Thread nD τ).loc main_v1) ↦{fullShare} Xv) ∗ (((c.tc : Thread nD τ).loc main_v35) ↦{fullShare} Av)
    ∗ (((c.tc : Thread nD τ).loc main_v36) ↦{fullShare} x1tV Xv Av))
  X c := iprop(emp)
  Y c := iprop(emp)
  Z c := iprop(emp)
  hentry c := by
    show iprop((owesT c ∗ (((c.tc : Thread nD τ).loc main_v1) ↦{fullShare} Xv) ∗ (((c.tc : Thread nD τ).loc main_v35) ↦{fullShare} Av)
          ∗ (((c.tc : Thread nD τ).loc main_v36) ↦{fullShare} Yv)) ∗ Pipeline.ownSems0 (fun k : PEmpty => k.elim) c ∗ levAts (K (F := F)).L lv)
      ⊢ |={Set.univ}=> iprop((dat1 c Xv Av Yv).arrays (fun w => (dat1 c Xv Av Yv).arrAt w 0)
          ∗ Pipeline.prefHeld (pcfgs (F := F) 0).pre c (fun _ => fullShare) (adm (F := F) 0).1
          ∗ (dat1 c Xv Av Yv).owesAt (none : HIx 2) 0 ∗ emp ∗ emp)
    rw [arrays1_eq]; try dsimp only
    rw [arrAt1_0, arrAt1_1, arrAt1_2_zero]
    iintro ⟨⟨HO, H1, H35, H36⟩, -, -⟩
    imodintro
    isplitl [H1 H35 H36]
    · isplitl [H1]; · iexact H1
      isplitl [H35]; · iexact H35
      iexact H36
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl <;> iempintro
  hin c := by
    show iprop(emp ∗ Pipeline.prefHeld (pcfgs (F := F) 0).pre c (fun _ => fullShare) (adm (F := F) 0).1 ∗ Pipeline.scopedRest spec1 c)
      ⊢ (Pipeline.scopedRest spec1 c : sProp 𝕄)
    iintro ⟨-, -, Hr⟩; iexact Hr
  hout c := by
    show (Pipeline.scopedRest spec1 c : sProp 𝕄) ⊢ iprop(emp ∗ Pipeline.ownSems0 (fun k : PEmpty => k.elim) c ∗ Pipeline.scopedRest spec1 c)
    rw [Pipeline.ownSems0_none]
    iintro Hr
    isplitr; · iempintro
    isplitr; · iempintro
    iexact Hr
  hexit c := by
    show iprop((dat1 c Xv Av Yv).arrays (fun w => (dat1 c Xv Av Yv).arrAt w cfg1.N)
          ∗ (dat1 c Xv Av Yv).owesAt (none : HIx 2) (Fin.last cfg1.N) ∗ emp ∗ emp)
      ⊢ |={Set.univ}=> iprop(owesT c ∗ (((c.tc : Thread nD τ).loc main_v1) ↦{fullShare} Xv) ∗ (((c.tc : Thread nD τ).loc main_v35) ↦{fullShare} Av)
          ∗ (((c.tc : Thread nD τ).loc main_v36) ↦{fullShare} x1tV Xv Av))
    rw [arrays1_eq]; try dsimp only
    rw [arrAt1_0, arrAt1_1, arrAt1_2]
    iintro ⟨⟨H1, H35, H36⟩, HO, -, -⟩
    imodintro
    isplitl [HO]
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · show (K (F := F)).lev _ none ≤ 8 * 1
          rw [SparseCore.Cfg.lev_none]; omega
      iexact HO
    isplitl [H1]; · iexact H1
    isplitl [H35]; · iexact H35
    iexact H36

end Region

set_option backward.isDefEq.respectTransparency.types false in
/-- THE REGION: between the first and the second SparseCore call the TensorCore, holding the three arrays whole and the
    first pipeline's share of the launch, runs the call to the same state with the result array at the whole product. -/
theorem region1 {lv : GSem nD τ sig → HIx 2 → ℕ} (hlv : (K (F := F)).Refines lv)
    (P : (K (F := F)).Pay (nD := nD) (Val := Elt F) (Name := ℕ) (U := UU)) (κ : GSem nD τ sig → ℕ) (d : Dev nD)
    (X : Buf (Elt F) ((T d : Thread nD τ).loc main_v1)) (A : Buf (Elt F) ((T d : Thread nD τ).loc main_v35)) :
    iprop((K (F := F)).ctx EH P κ lv ∗ (K (F := F)).tcSt EH d 1 ∗ boundary (T d : Thread nD τ) ∗ pipeGhost 0 d
        ∗ (((T d : Thread nD τ).loc main_v1) ↦{fullShare} X) ∗ (((T d : Thread nD τ).loc main_v35) ↦{fullShare} A)
        ∗ (∃ f : Buf (Elt F) ((T d : Thread nD τ).loc main_v36), ((T d : Thread nD τ).loc main_v36) ↦{fullShare} f))
      ⊢ wp frame (wpE ((K (F := F)).defs (D (F := F))) 𝒱 (T d) none) Set.univ
          (Prog.lift (.customCall (SparseCore.inner (Pipeline.entry 0)) ()))
          (fun _ => iprop((K (F := F)).tcSt EH d 1 ∗ boundary (T d : Thread nD τ)
            ∗ (((T d : Thread nD τ).loc main_v1) ↦{fullShare} X) ∗ (((T d : Thread nD τ).loc main_v35) ↦{fullShare} A)
            ∗ (((T d : Thread nD τ).loc main_v36) ↦{fullShare} x1t d X A))) := by
  unfold SparseCore.Cfg.tcSt
  iintro ⟨#Hctx, ⟨HO, Hrest⟩, Hbd, ⟨Hg, Ht⟩, H1, H35, ⟨%Y₀, H36⟩⟩
  ihave #Hla := (SparseCore.Cfg.ctx_levAts κ) $$ Hctx
  iapply ((K (F := F)).wp_liftProg (D (F := F)) 𝒱 (T d) Set.univ none
    (Prog.lift (.customCall (Pipeline.entry 0) ()) : Prog (TpuEff nD τ sig (Elt F) (ΛP (F := F)) .tc) PUnit) _)
  iapply (Pipeline.RegionSeg.wp (pcfgs (F := F)) adm (pdats1 X A Y₀) (none : HIx 2) cellOf_inj EP defs₀ 𝒱₀ (K (F := F)).L lv
    (reg1 hlv X A Y₀) d none (fun u hu => nomatch hu) (fun x => .ret x) _)
  dsimp only [reg1]
  isplitl [Hrest]
  · iintro ⟨Hbd, HO, H1, H35, H36⟩
    rw [wp_ret]; imodintro
    isplitl [HO Hrest]
    · isplitl [HO]; · iexact HO
      iexact Hrest
    isplitl [Hbd]; · iexact Hbd
    isplitl [H1]; · iexact H1
    isplitl [H35]; · iexact H35
    iexact H36
  isplitl [Hbd]; · iexact Hbd
  isplitl [HO H1 H35 H36]
  · isplitl [HO]; · iexact HO
    isplitl [H1]; · iexact H1
    isplitl [H35]; · iexact H35
    iexact H36
  isplitr; · iexact Hla
  isplitl [Hg]; · iexact Hg
  iexact Ht

end Cert.Proof.KB

end
-- ==== Proof.Bits.TcRegion2.lean ====
/-
  The second TensorCore call of the program over a grid of 16 points: at point i, from rows block i of the second
  adjacency factor, the whole first product, and column blocks i of the features and of the degree histogram, with the
  two block-diagonal weights, column block i of the staged result. As a region of @main entered on the TensorCore thread
  between the two SparseCore calls: the body's run at a symbolic grid point, the pipeline's proof data, the whole
  result as a function of the six operands, and the region's entailment.
-/
import proofs.«205814_g58841051955373_cont_9to1_m_133_55_alg».proof.Proof.Bits.Setup
import proofs.«205814_g58841051955373_cont_9to1_m_133_55_alg».proof.Proof.Bits.PipeGhost
import proofs.«205814_g58841051955373_cont_9to1_m_133_55_alg».proof.Proof.Gen.Kernel.Points
import Idealize.ShloMosaic.Lib.Pipeline.Regions
import Idealize.ShloMosaic.Lib.Pipeline.Value
import Idealize.ShloMosaic.Lib.Pipeline.FrameBody
import Idealize.ShloMosaic.Lib.Ring
import Idealize.ShloMosaic.Lib.Tactic

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body at a symbolic grid point -/

abbrev r2_w : Rect S256x4096 := Rect.unit (s := S256x4096) ![0, 0] S256x4096.size inb_S256x4096_S256x4096_0_0
abbrev r2_s (i : grid2.Coords) : Rect S256x4096 := Rect.unit (s := S256x4096) (k2_off1 i) S256x256.size (k2_off1_inb i)
abbrev r2_q : Rect S256x256 := Rect.unit (s := S256x256) ![0, 0] S256x256.size inb_S256x256_S256x256_0_0
abbrev r2_h : Rect S32x256 := Rect.unit (s := S32x256) ![0, 0] S32x256.size inb_S32x256_S32x256_0_0

/-- What the body leaves in the output block at grid coordinates `i`, from the six staged blocks: its one store, of the
    payload of the blocks as loaded (the whole first product and its own column block `i`, the adjacency rows, the first
    weight, the features, the second weight, the histogram). -/
def out2 (i : grid2.Coords) (a1 x1 : Vec F S256x4096 .f32) (xb : Vec F S256x256 .f32) (hb : Vec F S32x256 .f32)
    (w0 w1 : Vec F S256x256 .f32) : Vec F S256x256 .f32 :=
  View.canon [⟨r2_q, k2_pay1 (View.ld x1 r2_w) (View.ld x1 (r2_s i)) (View.ld a1 r2_w) (View.ld w0 r2_q) (View.ld xb r2_q)
    (View.ld w1 r2_q) (View.ld hb r2_h)⟩]

/-- The one store tiles the output block. -/
theorem cover2 (p0 : Vec F S256x256 .f32) (y : S256x256.Idx) :
    ∃ pc ∈ ([⟨r2_q, p0⟩] : List (View.Piece (Elt F) S256x256 .f32)), y ∈ pc.1.set :=
  View.cover_of_tiled [⟨r2_q, p0⟩] S256x256.size (by rfl) y

set_option maxHeartbeats 1000000 in
/-- The body on whole staging memrefs: the six input blocks stay, the output block ends at `out2` of them. -/
theorem sound_kernel2 (c : Dev nD) (E : Set ℕ) (i : grid2.Coords)
    (arg1 : Memref sig .tc .vmem S256x4096 .f32) (harg1 : arg1.IsWhole) (arg2 : Memref sig .tc .vmem S256x4096 .f32) (harg2 : arg2.IsWhole)
    (arg3 : Memref sig .tc .vmem S256x256 .f32) (harg3 : arg3.IsWhole) (arg4 : Memref sig .tc .vmem S32x256 .f32) (harg4 : arg4.IsWhole)
    (arg5 : Memref sig .tc .vmem S256x256 .f32) (harg5 : arg5.IsWhole) (arg6 : Memref sig .tc .vmem S256x256 .f32) (harg6 : arg6.IsWhole)
    (arg7 : Memref sig .tc .vmem S256x256 .f32) (harg7 : arg7.IsWhole)
    (a1 x1 : Vec F S256x4096 .f32) (xb : Vec F S256x256 .f32) (hb : Vec F S32x256 .f32) (w0 w1 : Vec F S256x256 .f32) (Kp : PUnit → sProp 𝕄) :
    iprop(owns (c : Thread nD τ) arg1 fullShare a1 ∗ owns (c : Thread nD τ) arg2 fullShare x1 ∗ owns (c : Thread nD τ) arg3 fullShare xb
        ∗ owns (c : Thread nD τ) arg4 fullShare hb ∗ owns (c : Thread nD τ) arg5 fullShare w0 ∗ owns (c : Thread nD τ) arg6 fullShare w1
        ∗ (∃ y, owns (c : Thread nD τ) arg7 fullShare y)
        ∗ (iprop(owns (c : Thread nD τ) arg1 fullShare a1 ∗ owns (c : Thread nD τ) arg2 fullShare x1 ∗ owns (c : Thread nD τ) arg3 fullShare xb
            ∗ owns (c : Thread nD τ) arg4 fullShare hb ∗ owns (c : Thread nD τ) arg5 fullShare w0 ∗ owns (c : Thread nD τ) arg6 fullShare w1
            ∗ owns (c : Thread nD τ) arg7 fullShare (out2 i a1 x1 xb hb w0 w1)) -∗ Kp ⟨⟩))
      ⊢ wp frame (wpE (defs₀ (F := F)) Variants.none c none) E
          (cc2__stage_b_body i arg1 harg1 arg2 harg2 arg3 harg3 arg4 harg4 arg5 harg5 arg6 harg6 arg7 harg7) Kp := by
  simp only [cc2__stage_b_body_eq_skeleton]; unfold cc2__stage_b_body_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%y, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2 _)

/-! ## The proof data of the pipeline -/

section Data

variable (c : Dev nD) (A1 : Vec F S4096x4096 .f32) (X1 : Vec F S256x4096 .f32) (Xf : Vec F S256x4096 .f32) (Hf : Vec F S32x4096 .f32) (W0 : Vec F S256x256 .f32) (W1 : Vec F S256x256 .f32) (Y₀ : Vec F S256x4096 .f32)

/-- The seven arrays as the region finds them: the six operands whole, the result at anything. -/
def arr2 : (w : Fin cfg2.W) → Buf (Elt F) ((cfg2.win w).arr.view.loc (c.tc : Thread nD τ))
  | ⟨0, _⟩ => A1
  | ⟨1, _⟩ => X1
  | ⟨2, _⟩ => Xf
  | ⟨3, _⟩ => Hf
  | ⟨4, _⟩ => W0
  | ⟨5, _⟩ => W1
  | ⟨6, _⟩ => Y₀

/-- Window `w`'s block at point `t`, read off its array. -/
def iblk2 (w : Fin cfg2.W) (t : Fin cfg2.N) : ((cfg2.win w).xblock (cfg2.grid.coords t)).Idx → Elt F (cfg2.win w).elt :=
  ((cfg2.win w).blk t).view.read (Elt F) (arr2 c A1 X1 Xf Hf W0 W1 Y₀ w)

/-- The proof data on core `c`: the inputs' staging buffers keep their blocks, the output's holds the body's payload of
    them; the invariant is the scoped buffers no window stages; the core owes, throughout, what the TensorCore owes
    between the first and the second SparseCore call, and its recorded pairs stay at or below that call's band. -/
def dat2 : Dat τ (Elt F) (HIx 2) ℕ UU ℕ cfg2 c where
  A := arr2 c A1 X1 Xf Hf W0 W1 Y₀
  after w t := match w with
    | ⟨0, _⟩ => iblk2 c A1 X1 Xf Hf W0 W1 Y₀ 0 t
    | ⟨1, _⟩ => iblk2 c A1 X1 Xf Hf W0 W1 Y₀ 1 t
    | ⟨2, _⟩ => iblk2 c A1 X1 Xf Hf W0 W1 Y₀ 2 t
    | ⟨3, _⟩ => iblk2 c A1 X1 Xf Hf W0 W1 Y₀ 3 t
    | ⟨4, _⟩ => iblk2 c A1 X1 Xf Hf W0 W1 Y₀ 4 t
    | ⟨5, _⟩ => iblk2 c A1 X1 Xf Hf W0 W1 Y₀ 5 t
    | ⟨6, _⟩ => out2 (grid2.coords t) (iblk2 c A1 X1 Xf Hf W0 W1 Y₀ 0 t) (iblk2 c A1 X1 Xf Hf W0 W1 Y₀ 1 t) (iblk2 c A1 X1 Xf Hf W0 W1 Y₀ 2 t) (iblk2 c A1 X1 Xf Hf W0 W1 Y₀ 3 t) (iblk2 c A1 X1 Xf Hf W0 W1 Y₀ 4 t) (iblk2 c A1 X1 Xf Hf W0 W1 Y₀ 5 t)
  Φ _ := Pipeline.scopedRest spec2 c
  q _ := fullShare
  owed _ := (K (F := F)).Otc c 1
  recorded _ := {p | (K (F := F)).lev ((c.tc : Thread nD τ), p.1) p.2 ≤ 8}

theorem A_eq2 (w : Fin cfg2.W) : (dat2 c A1 X1 Xf Hf W0 W1 Y₀).A w = arr2 c A1 X1 Xf Hf W0 W1 Y₀ w := by dsimp only [dat2]
theorem after2_0 (t : Fin cfg2.N) : (dat2 c A1 X1 Xf Hf W0 W1 Y₀).after 0 t = iblk2 c A1 X1 Xf Hf W0 W1 Y₀ 0 t := by dsimp only [dat2]
theorem after2_1 (t : Fin cfg2.N) : (dat2 c A1 X1 Xf Hf W0 W1 Y₀).after 1 t = iblk2 c A1 X1 Xf Hf W0 W1 Y₀ 1 t := by dsimp only [dat2]
theorem after2_2 (t : Fin cfg2.N) : (dat2 c A1 X1 Xf Hf W0 W1 Y₀).after 2 t = iblk2 c A1 X1 Xf Hf W0 W1 Y₀ 2 t := by dsimp only [dat2]
theorem after2_3 (t : Fin cfg2.N) : (dat2 c A1 X1 Xf Hf W0 W1 Y₀).after 3 t = iblk2 c A1 X1 Xf Hf W0 W1 Y₀ 3 t := by dsimp only [dat2]
theorem after2_4 (t : Fin cfg2.N) : (dat2 c A1 X1 Xf Hf W0 W1 Y₀).after 4 t = iblk2 c A1 X1 Xf Hf W0 W1 Y₀ 4 t := by dsimp only [dat2]
theorem after2_5 (t : Fin cfg2.N) : (dat2 c A1 X1 Xf Hf W0 W1 Y₀).after 5 t = iblk2 c A1 X1 Xf Hf W0 W1 Y₀ 5 t := by dsimp only [dat2]
theorem after2_6 (t : Fin cfg2.N) : (dat2 c A1 X1 Xf Hf W0 W1 Y₀).after 6 t
    = out2 (grid2.coords t) (iblk2 c A1 X1 Xf Hf W0 W1 Y₀ 0 t) (iblk2 c A1 X1 Xf Hf W0 W1 Y₀ 1 t) (iblk2 c A1 X1 Xf Hf W0 W1 Y₀ 2 t) (iblk2 c A1 X1 Xf Hf W0 W1 Y₀ 3 t) (iblk2 c A1 X1 Xf Hf W0 W1 Y₀ 4 t) (iblk2 c A1 X1 Xf Hf W0 W1 Y₀ 5 t) := by dsimp only [dat2]

/-- Each input's current staging buffer holds its block at every point, fetched there or not. -/
theorem before2_0 (t : Fin cfg2.N) (d) : (dat2 c A1 X1 Xf Hf W0 W1 Y₀).before 0 t d = iblk2 c A1 X1 Xf Hf W0 W1 Y₀ 0 t :=
  ((dat2 c A1 X1 Xf Hf W0 W1 Y₀).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (t : Fin cfg2.N) (d) : (dat2 c A1 X1 Xf Hf W0 W1 Y₀).before 1 t d = iblk2 c A1 X1 Xf Hf W0 W1 Y₀ 1 t :=
  ((dat2 c A1 X1 Xf Hf W0 W1 Y₀).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (t : Fin cfg2.N) (d) : (dat2 c A1 X1 Xf Hf W0 W1 Y₀).before 2 t d = iblk2 c A1 X1 Xf Hf W0 W1 Y₀ 2 t :=
  ((dat2 c A1 X1 Xf Hf W0 W1 Y₀).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (t : Fin cfg2.N) (d) : (dat2 c A1 X1 Xf Hf W0 W1 Y₀).before 3 t d = iblk2 c A1 X1 Xf Hf W0 W1 Y₀ 3 t :=
  ((dat2 c A1 X1 Xf Hf W0 W1 Y₀).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (t : Fin cfg2.N) (d) : (dat2 c A1 X1 Xf Hf W0 W1 Y₀).before 4 t d = iblk2 c A1 X1 Xf Hf W0 W1 Y₀ 4 t :=
  ((dat2 c A1 X1 Xf Hf W0 W1 Y₀).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)
theorem before2_5 (t : Fin cfg2.N) (d) : (dat2 c A1 X1 Xf Hf W0 W1 Y₀).before 5 t d = iblk2 c A1 X1 Xf Hf W0 W1 Y₀ 5 t :=
  ((dat2 c A1 X1 Xf Hf W0 W1 Y₀).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)

/-- What the body is called with at point `t`, -/
def bodyPre2 (t : Fin cfg2.N) : sProp 𝕄 :=
  iprop((dat2 c A1 X1 Xf Hf W0 W1 Y₀).Φ t.castSucc ∗ (dat2 c A1 X1 Xf Hf W0 W1 Y₀).owesAt (none : HIx 2) t.castSucc
    ∗ (∃ d, owns (c : Thread nD τ) (st2_0 t) fullShare ((dat2 c A1 X1 Xf Hf W0 W1 Y₀).before 0 t d))
    ∗ (∃ d, owns (c : Thread nD τ) (st2_1 t) fullShare ((dat2 c A1 X1 Xf Hf W0 W1 Y₀).before 1 t d))
    ∗ (∃ d, owns (c : Thread nD τ) (st2_2 t) fullShare ((dat2 c A1 X1 Xf Hf W0 W1 Y₀).before 2 t d))
    ∗ (∃ d, owns (c : Thread nD τ) (st2_3 t) fullShare ((dat2 c A1 X1 Xf Hf W0 W1 Y₀).before 3 t d))
    ∗ (∃ d, owns (c : Thread nD τ) (st2_4 t) fullShare ((dat2 c A1 X1 Xf Hf W0 W1 Y₀).before 4 t d))
    ∗ (∃ d, owns (c : Thread nD τ) (st2_5 t) fullShare ((dat2 c A1 X1 Xf Hf W0 W1 Y₀).before 5 t d))
    ∗ (∃ d, owns (c : Thread nD τ) (st2_6 t) fullShare ((dat2 c A1 X1 Xf Hf W0 W1 Y₀).before 6 t d)))

/-- and what it returns. -/
def bodyPost2 (t : Fin cfg2.N) : sProp 𝕄 :=
  iprop((dat2 c A1 X1 Xf Hf W0 W1 Y₀).Φ t.succ ∗ (dat2 c A1 X1 Xf Hf W0 W1 Y₀).owesAt (none : HIx 2) t.succ
    ∗ owns (c : Thread nD τ) (st2_0 t) fullShare ((dat2 c A1 X1 Xf Hf W0 W1 Y₀).after 0 t)
    ∗ owns (c : Thread nD τ) (st2_1 t) fullShare ((dat2 c A1 X1 Xf Hf W0 W1 Y₀).after 1 t)
    ∗ owns (c : Thread nD τ) (st2_2 t) fullShare ((dat2 c A1 X1 Xf Hf W0 W1 Y₀).after 2 t)
    ∗ owns (c : Thread nD τ) (st2_3 t) fullShare ((dat2 c A1 X1 Xf Hf W0 W1 Y₀).after 3 t)
    ∗ owns (c : Thread nD τ) (st2_4 t) fullShare ((dat2 c A1 X1 Xf Hf W0 W1 Y₀).after 4 t)
    ∗ owns (c : Thread nD τ) (st2_5 t) fullShare ((dat2 c A1 X1 Xf Hf W0 W1 Y₀).after 5 t)
    ∗ owns (c : Thread nD τ) (st2_6 t) fullShare ((dat2 c A1 X1 Xf Hf W0 W1 Y₀).after 6 t))

/-- The body at any point: the inputs' memrefs hold their blocks; the invariant and the core's debts pass through unread. -/
theorem sound_body2 (t : Fin cfg2.N) :
    bodyPre2 c A1 X1 Xf Hf W0 W1 Y₀ t ⊢ wp frame (wpE (defs₀ (F := F)) Variants.none c none) Set.univ (bodyAt2 t) (fun _ => bodyPost2 c A1 X1 Xf Hf W0 W1 Y₀ t) := by
  unfold bodyPre2 bodyPost2 bodyAt2
  simp only [before2_0, before2_1, before2_2, before2_3, before2_4, before2_5]
  rw [show (dat2 c A1 X1 Xf Hf W0 W1 Y₀).Φ t.succ = (dat2 c A1 X1 Xf Hf W0 W1 Y₀).Φ t.castSucc from rfl,
    show (dat2 c A1 X1 Xf Hf W0 W1 Y₀).owesAt (none : HIx 2) t.succ = (dat2 c A1 X1 Xf Hf W0 W1 Y₀).owesAt (none : HIx 2) t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 c A1 X1 Xf Hf W0 W1 Y₀ 0 t) (iblk2 c A1 X1 Xf Hf W0 W1 Y₀ 1 t) (iblk2 c A1 X1 Xf Hf W0 W1 Y₀ 2 t) (iblk2 c A1 X1 Xf Hf W0 W1 Y₀ 3 t) (iblk2 c A1 X1 Xf Hf W0 W1 Y₀ 4 t) (iblk2 c A1 X1 Xf Hf W0 W1 Y₀ 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 : BodyObligation (dat2 c A1 X1 Xf Hf W0 W1 Y₀) (defs₀ (F := F)) Variants.none (none : HIx 2) Set.univ := fun t => by
  rw [bigSep_W2, bigSep_W2]
  exact sound_body2 c A1 X1 Xf Hf W0 W1 Y₀ t

end Data

/-! ## The result, block by block -/

/-- The block indices at point `t`: the first product and the two weights whole, column block `t` of the result. -/
theorem index2_1 : ∀ t : Fin grid2.N, cc2_transform_1 (grid2.coords t) = ![0, 0] := by decide +kernel
theorem index2_4 : ∀ t : Fin grid2.N, cc2_transform_4 (grid2.coords t) = ![0, 0] := by decide +kernel
theorem index2_5 : ∀ t : Fin grid2.N, cc2_transform_5 (grid2.coords t) = ![0, 0] := by decide +kernel
theorem index2_6 : ∀ t : Fin grid2.N, cc2_transform_6 (grid2.coords t) = ![0, t.val] := by decide +kernel

theorem idx6_0 (t : Fin cfg2.N) : (cfg2.win 6).index t 0 = 0 := by
  show cc2_transform_6 (grid2.coords t) 0 = 0; rw [index2_6 t]; rfl
theorem idx6_1 (t : Fin cfg2.N) : (cfg2.win 6).index t 1 = t.val := by
  show cc2_transform_6 (grid2.coords t) 1 = t.val; rw [index2_6 t]; rfl
theorem idxw1 (t : Fin cfg2.N) (a : Fin 2) : (cfg2.win 1).index t a = 0 := by
  show cc2_transform_1 (grid2.coords t) a = 0; rw [index2_1 t]; fin_cases a <;> rfl
theorem idxw4 (t : Fin cfg2.N) (a : Fin 2) : (cfg2.win 4).index t a = 0 := by
  show cc2_transform_4 (grid2.coords t) a = 0; rw [index2_4 t]; fin_cases a <;> rfl
theorem idxw5 (t : Fin cfg2.N) (a : Fin 2) : (cfg2.win 5).index t a = 0 := by
  show cc2_transform_5 (grid2.coords t) a = 0; rw [index2_5 t]; fin_cases a <;> rfl

/-- The column block of an index of the result, and its place in that block. -/
def tOf2 (i : S256x4096.Idx) : Fin cfg2.N :=
  ⟨(i 1).val / 256, by
    have h : (i 1).val < 4096 := (i 1).isLt
    show (i 1).val / 256 < grid2.N
    rw [N_2]; omega⟩
def jOf2 (i : S256x4096.Idx) : S256x256.Idx
  | ⟨0, _⟩ => ⟨(i 0).val, (i 0).isLt⟩
  | ⟨1, _⟩ => ⟨(i 1).val % 256, Nat.mod_lt _ (by decide)⟩

/-- Where an element of the result's block `t` sits in the array: same row, column `256 t +` its own. -/
theorem emb6_val0 (t : Fin cfg2.N) (y : ((cfg2.win 6).xblock (cfg2.grid.coords t)).Idx) :
    ((((cfg2.win 6).blk t).view.emb y) 0 : ℕ) = (y 0 : ℕ) := by
  rw [show ((cfg2.win 6).blk t).view.emb y = ((cfg2.win 6).rect t).emb y from rfl]
  exact (cfg2.win 6).rect_emb_val_of_index_zero t 0 (idx6_0 t) y
theorem emb6_val1 (t : Fin cfg2.N) (y : ((cfg2.win 6).xblock (cfg2.grid.coords t)).Idx) :
    ((((cfg2.win 6).blk t).view.emb y) 1 : ℕ) = t.val * 256 + (y 1 : ℕ) := by
  rw [show ((cfg2.win 6).blk t).view.emb y = ((cfg2.win 6).rect t).emb y from rfl]
  have h := (cfg2.win 6).rect_emb_val t y 1
  rw [idx6_1 t] at h
  exact h

theorem tOf2_emb (t : Fin cfg2.N) (y : ((cfg2.win 6).xblock (cfg2.grid.coords t)).Idx) :
    tOf2 (((cfg2.win 6).blk t).view.emb y) = t := by
  apply Fin.ext
  show ((((cfg2.win 6).blk t).view.emb y) 1 : ℕ) / 256 = t.val
  rw [emb6_val1]
  have : (y 1 : ℕ) < 256 := (y 1).isLt
  omega
theorem jOf2_emb (t : Fin cfg2.N) (y : ((cfg2.win 6).xblock (cfg2.grid.coords t)).Idx) :
    jOf2 (((cfg2.win 6).blk t).view.emb y) = y := by
  funext a
  match a with
  | ⟨0, _⟩ => apply Fin.ext; show ((((cfg2.win 6).blk t).view.emb y) 0 : ℕ) = (y 0 : ℕ); rw [emb6_val0]
  | ⟨1, _⟩ =>
    apply Fin.ext; show ((((cfg2.win 6).blk t).view.emb y) 1 : ℕ) % 256 = (y 1 : ℕ); rw [emb6_val1]
    have : (y 1 : ℕ) < 256 := (y 1).isLt
    omega

/-- Rows block `t` of the adjacency factor, column blocks `t` of the features and of the histogram. -/
def rowsBlk2 (A1 : Vec F S4096x4096 .f32) (t : Fin cfg2.N) : Vec F S256x4096 .f32 := ((cfg2.win 0).blk t).view.read (Elt F) A1
def colBlkX (Xf : Vec F S256x4096 .f32) (t : Fin cfg2.N) : Vec F S256x256 .f32 := ((cfg2.win 2).blk t).view.read (Elt F) Xf
def colBlkH (Hf : Vec F S32x4096 .f32) (t : Fin cfg2.N) : Vec F S32x256 .f32 := ((cfg2.win 3).blk t).view.read (Elt F) Hf

/-- The whole result as a function of the six operands: under column block `t`, the body's payload at point `t`. -/
def yst2V (A1 : Vec F S4096x4096 .f32) (X1 Xf : Vec F S256x4096 .f32) (Hf : Vec F S32x4096 .f32) (W0 W1 : Vec F S256x256 .f32) :
    Vec F S256x4096 .f32 :=
  fun i => out2 (grid2.coords (tOf2 i)) (rowsBlk2 A1 (tOf2 i)) X1 (colBlkX Xf (tOf2 i)) (colBlkH Hf (tOf2 i)) W0 W1 (jOf2 i)

/-- The same at the result array's location on device `d`. -/
def yst (d : Dev nD) (A1 : Buf (Elt F) ((T d : Thread nD τ).loc main_v38)) (X1 : Buf (Elt F) ((T d : Thread nD τ).loc main_v36))
    (Xf : Buf (Elt F) ((T d : Thread nD τ).loc main_v1)) (Hf : Buf (Elt F) ((T d : Thread nD τ).loc main_v33))
    (W0 : Buf (Elt F) ((T d : Thread nD τ).loc main_v15)) (W1 : Buf (Elt F) ((T d : Thread nD τ).loc main_v19)) :
    Buf (Elt F) ((T d : Thread nD τ).loc main_v39) := yst2V A1 X1 Xf Hf W0 W1

/-! ## What the arrays hold at the region's two ends -/

section Value

variable (c : Dev nD) (A1 : Vec F S4096x4096 .f32) (X1 : Vec F S256x4096 .f32) (Xf : Vec F S256x4096 .f32) (Hf : Vec F S32x4096 .f32) (W0 : Vec F S256x256 .f32) (W1 : Vec F S256x256 .f32) (Y₀ : Vec F S256x4096 .f32)

/-- The windows over whole arrays read the arrays, at every point. -/
theorem iblk2_1 (t : Fin cfg2.N) : iblk2 c A1 X1 Xf Hf W0 W1 Y₀ 1 t = X1 := by
  funext x
  unfold iblk2
  rw [View.read_apply]
  show X1 (((cfg2.win 1).blk t).view.emb x) = X1 x
  congr 1
  funext a; apply Fin.ext
  rw [show ((cfg2.win 1).blk t).view.emb x = ((cfg2.win 1).rect t).emb x from rfl]
  exact (cfg2.win 1).rect_emb_val_of_index_zero t a (idxw1 t a) x
theorem iblk2_4 (t : Fin cfg2.N) : iblk2 c A1 X1 Xf Hf W0 W1 Y₀ 4 t = W0 := by
  funext x
  unfold iblk2
  rw [View.read_apply]
  show W0 (((cfg2.win 4).blk t).view.emb x) = W0 x
  congr 1
  funext a; apply Fin.ext
  rw [show ((cfg2.win 4).blk t).view.emb x = ((cfg2.win 4).rect t).emb x from rfl]
  exact (cfg2.win 4).rect_emb_val_of_index_zero t a (idxw4 t a) x
theorem iblk2_5 (t : Fin cfg2.N) : iblk2 c A1 X1 Xf Hf W0 W1 Y₀ 5 t = W1 := by
  funext x
  unfold iblk2
  rw [View.read_apply]
  show W1 (((cfg2.win 5).blk t).view.emb x) = W1 x
  congr 1
  funext a; apply Fin.ext
  rw [show ((cfg2.win 5).blk t).view.emb x = ((cfg2.win 5).rect t).emb x from rfl]
  exact (cfg2.win 5).rect_emb_val_of_index_zero t a (idxw5 t a) x
theorem iblk2_0 (t : Fin cfg2.N) : iblk2 c A1 X1 Xf Hf W0 W1 Y₀ 0 t = rowsBlk2 A1 t := rfl
theorem iblk2_2 (t : Fin cfg2.N) : iblk2 c A1 X1 Xf Hf W0 W1 Y₀ 2 t = colBlkX Xf t := rfl
theorem iblk2_3 (t : Fin cfg2.N) : iblk2 c A1 X1 Xf Hf W0 W1 Y₀ 3 t = colBlkH Hf t := rfl

/-- What point `t` writes back is block `t` of the whole result. -/
theorem hG2 (t : Fin cfg2.N) (hf : (cfg2.win 6).flush t = true) :
    (dat2 c A1 X1 Xf Hf W0 W1 Y₀).flushed 6 t = ((cfg2.win 6).blk t).view.read (Elt F) (yst2V A1 X1 Xf Hf W0 W1) := by
  funext y
  rw [View.read_apply]
  show (dat2 c A1 X1 Xf Hf W0 W1 Y₀).after 6 t y = yst2V A1 X1 Xf Hf W0 W1 (((cfg2.win 6).blk t).view.emb y)
  rw [after2_6, iblk2_0, iblk2_1, iblk2_2, iblk2_3, iblk2_4, iblk2_5]
  unfold yst2V
  rw [tOf2_emb, jOf2_emb]

/-- The sixteen column blocks cover the result. -/
theorem hcover2 (i : S256x4096.Idx) : ∃ t : Fin cfg2.N, (cfg2.win 6).flush t = true ∧ i ∈ ((cfg2.win 6).blk t).view.set := by
  refine ⟨tOf2 i, flush2_6 _, ?_⟩
  have h : ((cfg2.win 6).blk (tOf2 i)).view.emb (jOf2 i) = i := by
    funext a
    match a with
    | ⟨0, _⟩ => apply Fin.ext; show ((((cfg2.win 6).blk (tOf2 i)).view.emb (jOf2 i)) 0 : ℕ) = (i 0 : ℕ); rw [emb6_val0]; rfl
    | ⟨1, _⟩ =>
      apply Fin.ext; show ((((cfg2.win 6).blk (tOf2 i)).view.emb (jOf2 i)) 1 : ℕ) = (i 1 : ℕ); rw [emb6_val1]
      show (i 1).val / 256 * 256 + (i 1).val % 256 = (i 1).val
      omega
  have hm := ((cfg2.win 6).blk (tOf2 i)).view.emb_mem_set (jOf2 i)
  rw [h] at hm
  exact hm

/-- The inputs are never written; the result ends at the whole function of them. -/
theorem arrAt2_0 (n : ℕ) : (dat2 c A1 X1 Xf Hf W0 W1 Y₀).arrAt 0 n = A1 := ((dat2 c A1 X1 Xf Hf W0 W1 Y₀).arrAt_in 0 rfl n).trans (by rw [A_eq2]; rfl)
theorem arrAt2_1 (n : ℕ) : (dat2 c A1 X1 Xf Hf W0 W1 Y₀).arrAt 1 n = X1 := ((dat2 c A1 X1 Xf Hf W0 W1 Y₀).arrAt_in 1 rfl n).trans (by rw [A_eq2]; rfl)
theorem arrAt2_2 (n : ℕ) : (dat2 c A1 X1 Xf Hf W0 W1 Y₀).arrAt 2 n = Xf := ((dat2 c A1 X1 Xf Hf W0 W1 Y₀).arrAt_in 2 rfl n).trans (by rw [A_eq2]; rfl)
theorem arrAt2_3 (n : ℕ) : (dat2 c A1 X1 Xf Hf W0 W1 Y₀).arrAt 3 n = Hf := ((dat2 c A1 X1 Xf Hf W0 W1 Y₀).arrAt_in 3 rfl n).trans (by rw [A_eq2]; rfl)
theorem arrAt2_4 (n : ℕ) : (dat2 c A1 X1 Xf Hf W0 W1 Y₀).arrAt 4 n = W0 := ((dat2 c A1 X1 Xf Hf W0 W1 Y₀).arrAt_in 4 rfl n).trans (by rw [A_eq2]; rfl)
theorem arrAt2_5 (n : ℕ) : (dat2 c A1 X1 Xf Hf W0 W1 Y₀).arrAt 5 n = W1 := ((dat2 c A1 X1 Xf Hf W0 W1 Y₀).arrAt_in 5 rfl n).trans (by rw [A_eq2]; rfl)
theorem arrAt2_6_zero : (dat2 c A1 X1 Xf Hf W0 W1 Y₀).arrAt 6 0 = Y₀ := by show (dat2 c A1 X1 Xf Hf W0 W1 Y₀).A 6 = Y₀; rw [A_eq2]; rfl
theorem arrAt2_6 : (dat2 c A1 X1 Xf Hf W0 W1 Y₀).arrAt 6 cfg2.N = yst2V A1 X1 Xf Hf W0 W1 :=
  (dat2 c A1 X1 Xf Hf W0 W1 Y₀).arrAt_eq_of_cover 6 (yst2V A1 X1 Xf Hf W0 W1) (hG2 c A1 X1 Xf Hf W0 W1 Y₀) hcover2

/-- The pipeline's seven arrays, held whole. -/
theorem arrays2_eq (G : (w : Fin cfg2.W) → Buf (Elt F) ((cfg2.win w).arr.view.loc (c.tc : Thread nD τ))) :
    (dat2 c A1 X1 Xf Hf W0 W1 Y₀).arrays G
      = iprop((((c.tc : Thread nD τ).loc main_v38) ↦{fullShare} G 0)
          ∗ (((c.tc : Thread nD τ).loc main_v36) ↦{fullShare} G 1)
          ∗ (((c.tc : Thread nD τ).loc main_v1) ↦{fullShare} G 2)
          ∗ (((c.tc : Thread nD τ).loc main_v33) ↦{fullShare} G 3)
          ∗ (((c.tc : Thread nD τ).loc main_v15) ↦{fullShare} G 4)
          ∗ (((c.tc : Thread nD τ).loc main_v19) ↦{fullShare} G 5)
          ∗ (((c.tc : Thread nD τ).loc main_v39) ↦{fullShare} G 6)) := by
  rw [Pipeline.arrays_eq (P := Unit) (fun _ => cfg2) (fun _ c => dat2 c A1 X1 Xf Hf W0 W1 Y₀) () c arr_whole2
    (fun w => (dat2 c A1 X1 Xf Hf W0 W1 Y₀).share_full (fun _ => rfl) w) G, bigSep_W2]

set_option maxHeartbeats 1000000 in
/-- The arrays as the pipeline takes them at entry, -/
theorem arrays2_entry : (dat2 c A1 X1 Xf Hf W0 W1 Y₀).arrays (fun w => (dat2 c A1 X1 Xf Hf W0 W1 Y₀).arrAt w 0)
      = iprop((((c.tc : Thread nD τ).loc main_v38) ↦{fullShare} A1)
          ∗ (((c.tc : Thread nD τ).loc main_v36) ↦{fullShare} X1)
          ∗ (((c.tc : Thread nD τ).loc main_v1) ↦{fullShare} Xf)
          ∗ (((c.tc : Thread nD τ).loc main_v33) ↦{fullShare} Hf)
          ∗ (((c.tc : Thread nD τ).loc main_v15) ↦{fullShare} W0)
          ∗ (((c.tc : Thread nD τ).loc main_v19) ↦{fullShare} W1)
          ∗ (((c.tc : Thread nD τ).loc main_v39) ↦{fullShare} Y₀)) := by
  rw [arrays2_eq]
  simp only [arrAt2_0, arrAt2_1, arrAt2_2, arrAt2_3, arrAt2_4, arrAt2_5, arrAt2_6_zero]

set_option maxHeartbeats 1000000 in
/-- and as it leaves them. -/
theorem arrays2_exit : (dat2 c A1 X1 Xf Hf W0 W1 Y₀).arrays (fun w => (dat2 c A1 X1 Xf Hf W0 W1 Y₀).arrAt w cfg2.N)
      = iprop((((c.tc : Thread nD τ).loc main_v38) ↦{fullShare} A1)
          ∗ (((c.tc : Thread nD τ).loc main_v36) ↦{fullShare} X1)
          ∗ (((c.tc : Thread nD τ).loc main_v1) ↦{fullShare} Xf)
          ∗ (((c.tc : Thread nD τ).loc main_v33) ↦{fullShare} Hf)
          ∗ (((c.tc : Thread nD τ).loc main_v15) ↦{fullShare} W0)
          ∗ (((c.tc : Thread nD τ).loc main_v19) ↦{fullShare} W1)
          ∗ (((c.tc : Thread nD τ).loc main_v39) ↦{fullShare} yst2V A1 X1 Xf Hf W0 W1)) := by
  rw [arrays2_eq]
  simp only [arrAt2_0, arrAt2_1, arrAt2_2, arrAt2_3, arrAt2_4, arrAt2_5, arrAt2_6]

end Value

/-! ## The region -/

section Region

variable {lv : GSem nD τ sig → HIx 2 → ℕ} (hlv : (K (F := F)).Refines lv)
variable (A1 : Vec F S4096x4096 .f32) (X1 Xf : Vec F S256x4096 .f32) (Hf : Vec F S32x4096 .f32) (W0 W1 : Vec F S256x256 .f32) (Yv : Vec F S256x4096 .f32)

/-- Proof data that says nothing, for the two pipelines this region does not enter. -/
def idleDat2 (c : Dev nD) (cfg : Pipeline.Cfg sig Λ₀) : Dat τ (Elt F) (HIx 2) ℕ UU ℕ cfg c where
  A _ := Classical.arbitrary _
  after _ _ := Classical.arbitrary _
  Φ _ := iprop(emp)
  q _ := fullShare
  owed _ := 0

/-- Every pipeline's proof data, this region's at the arrays it is entered with. -/
def pdats2 : (p : Fin 3) → (c : Dev nD) → Dat τ (Elt F) (HIx 2) ℕ UU ℕ (Pipeline.pin (pcfgs (F := F)) adm p) c
  | ⟨0, _⟩ => fun c => idleDat2 c _
  | ⟨1, _⟩ => fun c => dat2 c A1 X1 Xf Hf W0 W1 Yv
  | ⟨2, _⟩ => fun c => idleDat2 c _

/-- What the TensorCore owes between the first and the second SparseCore call, its recorded pairs within the first call's band. -/
abbrev owesT2 (c : Dev nD) : sProp 𝕄 :=
  iprop(∃ W, ⌜(K (F := F)).WBelow (T c) W (8 * 1)⌝ ∗ owes (T c : Thread nD τ) ((K (F := F)).Otc c 1) W)

/-- The TensorCore's debts are all at a call's index: none at the kernels' own. -/
theorem Otc_none2 (c : Dev nD) (n : ℕ) (g : GSem nD τ sig) : (K (F := F)).Otc c n g none = 0 :=
  Nat.eq_zero_of_not_pos fun h => by
    have := (K (F := F)).lev_of_Otc_pos h
    rw [SparseCore.Cfg.lev_none] at this; omega

set_option maxHeartbeats 2000000 in
set_option backward.isDefEq.respectTransparency.types false in
/-- The region over the thread state "what the TensorCore owes, the seven arrays whole": the arrays go in as the
    pipeline's, come back with the result at the whole function of the operands; the debts ride through at the same
    tallies, the pipeline's own waits recorded at the kernels' index, level zero. -/
def reg2 : Pipeline.RegionSeg (pcfgs (F := F)) adm (pdats2 A1 X1 Xf Hf W0 W1 Yv) (none : HIx 2) defs₀ 𝒱₀ (K (F := F)).L lv 1 where
  win := launch2.win.to₀
  block_pos := launch2.block_pos
  stage_whole := launch2.stage_whole
  K := PEmpty
  osem k := k.elim
  ho := Pipeline.OwnSemFacts.none _
  hbody c := (body_obligation2 c A1 X1 Xf Hf W0 W1 Yv).loose
  hwaits c := Pipeline.cellsWaits_intro (Pipeline.pin (pcfgs (F := F)) adm) (pdats2 A1 X1 Xf Hf W0 W1 Yv) (none : HIx 2) 1 c
    fun w s t => (K (F := F)).mayWait_none _ (Otc_none2 c 1) lv hlv
  pre c := iprop(owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} Yv))
  post c := iprop(owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} yst2V A1 X1 Xf Hf W0 W1))
  X c := iprop(emp)
  Y c := iprop(emp)
  Z c := iprop(emp)
  hentry c := by
    show iprop((owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} Yv)) ∗ Pipeline.ownSems0 (fun k : PEmpty => k.elim) c ∗ levAts (K (F := F)).L lv)
      ⊢ |={Set.univ}=> iprop((dat2 c A1 X1 Xf Hf W0 W1 Yv).arrays (fun w => (dat2 c A1 X1 Xf Hf W0 W1 Yv).arrAt w 0)
          ∗ Pipeline.prefHeld (pcfgs (F := F) 1).pre c (fun _ => fullShare) (adm (F := F) 1).1
          ∗ (dat2 c A1 X1 Xf Hf W0 W1 Yv).owesAt (none : HIx 2) 0 ∗ emp ∗ emp)
    rw [arrays2_entry]
    iintro ⟨⟨HO, H0, H1, H2, H3, H4, H5, H6⟩, -, -⟩
    imodintro
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl <;> iempintro
  hin c := by
    show iprop(emp ∗ Pipeline.prefHeld (pcfgs (F := F) 1).pre c (fun _ => fullShare) (adm (F := F) 1).1 ∗ Pipeline.scopedRest spec2 c)
      ⊢ (Pipeline.scopedRest spec2 c : sProp 𝕄)
    iintro ⟨-, -, Hr⟩; iexact Hr
  hout c := by
    show (Pipeline.scopedRest spec2 c : sProp 𝕄) ⊢ iprop(emp ∗ Pipeline.ownSems0 (fun k : PEmpty => k.elim) c ∗ Pipeline.scopedRest spec2 c)
    rw [Pipeline.ownSems0_none]
    iintro Hr
    isplitr; · iempintro
    isplitr; · iempintro
    iexact Hr
  hexit c := by
    show iprop((dat2 c A1 X1 Xf Hf W0 W1 Yv).arrays (fun w => (dat2 c A1 X1 Xf Hf W0 W1 Yv).arrAt w cfg2.N)
          ∗ (dat2 c A1 X1 Xf Hf W0 W1 Yv).owesAt (none : HIx 2) (Fin.last cfg2.N) ∗ emp ∗ emp)
      ⊢ |={Set.univ}=> iprop(owesT2 c ∗ (((c.tc : Thread nD τ).loc main_v38) ↦{fullShare} A1)
      ∗ (((c.tc : Thread nD τ).loc main_v36) ↦{fullShare} X1)
      ∗ (((c.tc : Thread nD τ).loc main_v1) ↦{fullShare} Xf)
      ∗ (((c.tc : Thread nD τ).loc main_v33) ↦{fullShare} Hf)
      ∗ (((c.tc : Thread nD τ).loc main_v15) ↦{fullShare} W0)
      ∗ (((c.tc : Thread nD τ).loc main_v19) ↦{fullShare} W1)
      ∗ (((c.tc : Thread nD τ).loc main_v39) ↦{fullShare} yst2V A1 X1 Xf Hf W0 W1))
    rw [arrays2_exit]
    iintro ⟨⟨H0, H1, H2, H3, H4, H5, H6⟩, HO, -, -⟩
    imodintro
    isplitl [HO]
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · show (K (F := F)).lev _ none ≤ 8 * 1
          rw [SparseCore.Cfg.lev_none]; omega
      iexact HO
    isplitl [H0]; · iexact H0
    isplitl [H1]; · iexact H1
    isplitl [H2]; · iexact H2
    isplitl [H3]; · iexact H3
    isplitl [H4]; · iexact H4
    isplitl [H5]; · iexact H5
    iexact H6

end Region

set_option maxHeartbeats 2000000 in
set_option backward.isDefEq.respectTransparency.types false in
/-- THE REGION: between the first and the second SparseCore call the TensorCore, holding the seven arrays whole and the
    second pipeline's share of the launch, runs the call to the same state with the result array at the whole function
    of the six operands. -/
theorem region2 {lv : GSem nD τ sig → HIx 2 → ℕ} (hlv : (K (F := F)).Refines lv)
    (P : (K (F := F)).Pay (nD := nD) (Val := Elt F) (Name := ℕ) (U := UU)) (κ : GSem nD τ sig → ℕ) (d : Dev nD)
    (A1 : Buf (Elt F) ((T d : Thread nD τ).loc main_v38)) (X1 : Buf (Elt F) ((T d : Thread nD τ).loc main_v36))
    (Xf : Buf (Elt F) ((T d : Thread nD τ).loc main_v1)) (Hf : Buf (Elt F) ((T d : Thread nD τ).loc main_v33))
    (W0 : Buf (Elt F) ((T d : Thread nD τ).loc main_v15)) (W1 : Buf (Elt F) ((T d : Thread nD τ).loc main_v19)) :
    iprop((K (F := F)).ctx EH P κ lv ∗ (K (F := F)).tcSt EH d 1 ∗ boundary (T d : Thread nD τ) ∗ pipeGhost 1 d
        ∗ (((T d : Thread nD τ).loc main_v38) ↦{fullShare} A1)
        ∗ (((T d : Thread nD τ).loc main_v36) ↦{fullShare} X1)
        ∗ (((T d : Thread nD τ).loc main_v1) ↦{fullShare} Xf)
        ∗ (((T d : Thread nD τ).loc main_v33) ↦{fullShare} Hf)
        ∗ (((T d : Thread nD τ).loc main_v15) ↦{fullShare} W0)
        ∗ (((T d : Thread nD τ).loc main_v19) ↦{fullShare} W1)
        ∗ (∃ f : Buf (Elt F) ((T d : Thread nD τ).loc main_v39), ((T d : Thread nD τ).loc main_v39) ↦{fullShare} f))
      ⊢ wp frame (wpE ((K (F := F)).defs (D (F := F))) 𝒱 (T d) none) Set.univ
          (Prog.lift (.customCall (SparseCore.inner (Pipeline.entry 1)) ()))
          (fun _ => iprop((K (F := F)).tcSt EH d 1 ∗ boundary (T d : Thread nD τ)
        ∗ (((T d : Thread nD τ).loc main_v38) ↦{fullShare} A1)
        ∗ (((T d : Thread nD τ).loc main_v36) ↦{fullShare} X1)
        ∗ (((T d : Thread nD τ).loc main_v1) ↦{fullShare} Xf)
        ∗ (((T d : Thread nD τ).loc main_v33) ↦{fullShare} Hf)
        ∗ (((T d : Thread nD τ).loc main_v15) ↦{fullShare} W0)
        ∗ (((T d : Thread nD τ).loc main_v19) ↦{fullShare} W1)
        ∗ (((T d : Thread nD τ).loc main_v39) ↦{fullShare} yst d A1 X1 Xf Hf W0 W1))) := by
  unfold SparseCore.Cfg.tcSt
  iintro ⟨#Hctx, ⟨HO, Hrest⟩, Hbd, ⟨Hg, Ht⟩, H0, H1, H2, H3, H4, H5, ⟨%Y₀, H6⟩⟩
  ihave #Hla := (SparseCore.Cfg.ctx_levAts κ) $$ Hctx
  iapply ((K (F := F)).wp_liftProg (D (F := F)) 𝒱 (T d) Set.univ none
    (Prog.lift (.customCall (Pipeline.entry 1) ()) : Prog (TpuEff nD τ sig (Elt F) (ΛP (F := F)) .tc) PUnit) _)
  iapply (Pipeline.RegionSeg.wp (pcfgs (F := F)) adm (pdats2 A1 X1 Xf Hf W0 W1 Y₀) (none : HIx 2) cellOf_inj EP defs₀ 𝒱₀ (K (F := F)).L lv
    (reg2 hlv A1 X1 Xf Hf W0 W1 Y₀) d none (fun u hu => nomatch hu) (fun x => .ret x) _)
  dsimp only [reg2]
  isplitl [Hrest]
  · iintro ⟨Hbd, HO, H0, H1, H2, H3, H4, H5, H6⟩
    rw [wp_ret]; imodintro
    isplitl [HO Hrest]
    · isplitl [HO]; · iexact HO
      iexact Hrest
    isplitl [Hbd]; · iexact Hbd
    isplitl [H0]; · iexact H0
    isplitl [H1]; · iexact H1
    isplitl [H2]; · iexact H2
    isplitl [H3]; · iexact H3
    isplitl [H4]; · iexact H4
    isplitl [H5]; · iexact H5
    iexact H6
  isplitl [Hbd]; · iexact Hbd
  isplitl [HO H0 H1 H2 H3 H4 H5 H6]
  · isplitl [HO]; · iexact HO
    isplitl [H0]; · iexact H0
    isplitl [H1]; · iexact H1
    isplitl [H2]; · iexact H2
    isplitl [H3]; · iexact H3
    isplitl [H4]; · iexact H4
    isplitl [H5]; · iexact H5
    iexact H6
  isplitr; · iexact Hla
  isplitl [Hg]; · iexact Hg
  iexact Ht

end Cert.Proof.KB

end
-- ==== Proof.Bits.TcRegion3.lean ====
/-
  The third TensorCore call of the program over a grid of 16 points: at point i, from column blocks i of the edge
  aggregate, of the staged result and of the degree histogram, with the bias row, rows block i of the final result.
  As a region of @main entered on the TensorCore thread after the second SparseCore call: the body's run at a symbolic
  grid point, the pipeline's proof data, the whole result as a function of the four operands, and the region's
  entailment.
-/
import proofs.«205814_g58841051955373_cont_9to1_m_133_55_alg».proof.Proof.Bits.Setup
import proofs.«205814_g58841051955373_cont_9to1_m_133_55_alg».proof.Proof.Bits.PipeGhost
import proofs.«205814_g58841051955373_cont_9to1_m_133_55_alg».proof.Proof.Gen.Kernel.Points
import Idealize.ShloMosaic.Lib.Pipeline.Regions
import Idealize.ShloMosaic.Lib.Pipeline.Value
import Idealize.ShloMosaic.Lib.Pipeline.FrameBody
import Idealize.ShloMosaic.Lib.Ring
import Idealize.ShloMosaic.Lib.Tactic

noncomputable section

namespace Cert.Proof.KB

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body at a symbolic grid point -/

abbrev r4_q : Rect S256x256 := Rect.unit (s := S256x256) ![0, 0] S256x256.size inb_S256x256_S256x256_0_0
abbrev r4_h : Rect S32x256 := Rect.unit (s := S32x256) ![0, 0] S32x256.size inb_S32x256_S32x256_0_0
abbrev r4_b : Rect S1x256 := Rect.unit (s := S1x256) ![0, 0] S1x256.size inb_S1x256_S1x256_0_0

/-- What the body leaves in the output block from the four staged blocks: its one store, of the payload of the blocks
    as loaded (the aggregate, the staged result, the histogram, the bias row). -/
def out4 (s y : Vec F S256x256 .f32) (h : Vec F S32x256 .f32) (b : Vec F S1x256 .f32) : Vec F S256x256 .f32 :=
  View.canon [⟨r4_q, k4_pay1 (View.ld s r4_q) (View.ld y r4_q) (View.ld h r4_h) (View.ld b r4_b)⟩]

/-- Every load reads its whole block and the store writes the whole output block: what is left is the payload itself. -/
theorem out4_eq (s y : Vec F S256x256 .f32) (h : Vec F S32x256 .f32) (b : Vec F S1x256 .f32) : out4 s y h b = k4_pay1 s y h b := by
  unfold out4
  have h2 : (![0, 0] : Fin 2 → ℕ) = fun _ => 0 := by funext a; fin_cases a <;> rfl
  rw [View.canon_unit_zero h2, View.ld_unit_zero h2 _ s, View.ld_unit_zero h2 _ y, View.ld_unit_zero h2 _ h, View.ld_unit_zero h2 _ b]

/-- The one store tiles the output block. -/
theorem cover4 (p0 : Vec F S256x256 .f32) (y : S256x256.Idx) :
    ∃ pc ∈ ([⟨r4_q, p0⟩] : List (View.Piece (Elt F) S256x256 .f32)), y ∈ pc.1.set :=
  View.cover_of_tiled [⟨r4_q, p0⟩] S256x256.size (by rfl) y

set_option maxHeartbeats 1000000 in
/-- The body on whole staging memrefs: the four input blocks stay, the output block ends at `out4` of them. -/
theorem sound_kernel4 (c : Dev nD) (E : Set ℕ) (i : grid4.Coords)
    (arg1 : Memref sig .tc .vmem S256x256 .f32) (harg1 : arg1.IsWhole) (arg2 : Memref sig .tc .vmem S256x256 .f32) (harg2 : arg2.IsWhole)
    (arg3 : Memref sig .tc .vmem S32x256 .f32) (harg3 : arg3.IsWhole) (arg4 : Memref sig .tc .vmem S1x256 .f32) (harg4 : arg4.IsWhole)
    (arg5 : Memref sig .tc .vmem S256x256 .f32) (harg5 : arg5.IsWhole)
    (s y : Vec F S256x256 .f32) (h : Vec F S32x256 .f32) (b : Vec F S1x256 .f32) (Kp : PUnit → sProp 𝕄) :
    iprop(owns (c : Thread nD τ) arg1 fullShare s ∗ owns (c : Thread nD τ) arg2 fullShare y ∗ owns (c : Thread nD τ) arg3 fullShare h
        ∗ owns (c : Thread nD τ) arg4 fullShare b ∗ (∃ z, owns (c : Thread nD τ) arg5 fullShare z)
        ∗ (iprop(owns (c : Thread nD τ) arg1 fullShare s ∗ owns (c : Thread nD τ) arg2 fullShare y ∗ owns (c : Thread nD τ) arg3 fullShare h
            ∗ owns (c : Thread nD τ) arg4 fullShare b ∗ owns (c : Thread nD τ) arg5 fullShare (out4 s y h b)) -∗ Kp ⟨⟩))
      ⊢ wp frame (wpE (defs₀ (F := F)) Variants.none c none) E
          (cc4__combine_body i arg1 harg1 arg2 harg2 arg3 harg3 arg4 harg4 arg5 harg5) Kp := by
  simp only [cc4__combine_body_eq_skeleton]; unfold cc4__combine_body_skel
  unfold owns
  iintro ⟨⟨%f1, %hf1, H1⟩, ⟨%f2, %hf2, H2⟩, ⟨%f3, %hf3, H3⟩, ⟨%f4, %hf4, H4⟩, ⟨%z, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-! ## The proof data of the pipeline -/

section Data

variable (c : Dev nD) (ST : Vec F S256x4096 .f32) (Yf : Vec F S256x4096 .f32) (Hf : Vec F S32x4096 .f32) (Bf : Vec F S1x256 .f32) (Y₀ : Vec F S4096x256 .f32)

/-- The five arrays as the region finds them: the four operands whole, the result at anything. -/
def arr4 : (w : Fin cfg4.W) → Buf (Elt F) ((cfg4.win w).arr.view.loc (c.tc : Thread nD τ))
  | ⟨0, _⟩ => ST
  | ⟨1, _⟩ => Yf
  | ⟨2, _⟩ => Hf
  | ⟨3, _⟩ => Bf
  | ⟨4, _⟩ => Y₀

/-- Window `w`'s block at point `t`, read off its array. -/
def iblk4 (w : Fin cfg4.W) (t : Fin cfg4.N) : ((cfg4.win w).xblock (cfg4.grid.coords t)).Idx → Elt F (cfg4.win w).elt :=
  ((cfg4.win w).blk t).view.read (Elt F) (arr4 c ST Yf Hf Bf Y₀ w)

/-- The proof data on core `c`: the inputs' staging buffers keep their blocks, the output's holds the body's payload of
    them; the invariant is the scoped buffers no window stages; the core owes, throughout, what the TensorCore owes
    after the second SparseCore call, and its recorded pairs stay at or below that call's band. -/
def dat4 : Dat τ (Elt F) (HIx 2) ℕ UU ℕ cfg4 c where
  A := arr4 c ST Yf Hf Bf Y₀
  after w t := match w with
    | ⟨0, _⟩ => iblk4 c ST Yf Hf Bf Y₀ 0 t
    | ⟨1, _⟩ => iblk4 c ST Yf Hf Bf Y₀ 1 t
    | ⟨2, _⟩ => iblk4 c ST Yf Hf Bf Y₀ 2 t
    | ⟨3, _⟩ => iblk4 c ST Yf Hf Bf Y₀ 3 t
    | ⟨4, _⟩ => out4 (iblk4 c ST Yf Hf Bf Y₀ 0 t) (iblk4 c ST Yf Hf Bf Y₀ 1 t) (iblk4 c ST Yf Hf Bf Y₀ 2 t) (iblk4 c ST Yf Hf Bf Y₀ 3 t)
  Φ _ := Pipeline.scopedRest spec4 c
  q _ := fullShare
  owed _ := (K (F := F)).Otc c 2
  recorded _ := {p | (K (F := F)).lev ((c.tc : Thread nD τ), p.1) p.2 ≤ 16}

theorem A_eq4 (w : Fin cfg4.W) : (dat4 c ST Yf Hf Bf Y₀).A w = arr4 c ST Yf Hf Bf Y₀ w := by dsimp only [dat4]
theorem after4_0 (t : Fin cfg4.N) : (dat4 c ST Yf Hf Bf Y₀).after 0 t = iblk4 c ST Yf Hf Bf Y₀ 0 t := by dsimp only [dat4]
theorem after4_1 (t : Fin cfg4.N) : (dat4 c ST Yf Hf Bf Y₀).after 1 t = iblk4 c ST Yf Hf Bf Y₀ 1 t := by dsimp only [dat4]
theorem after4_2 (t : Fin cfg4.N) : (dat4 c ST Yf Hf Bf Y₀).after 2 t = iblk4 c ST Yf Hf Bf Y₀ 2 t := by dsimp only [dat4]
theorem after4_3 (t : Fin cfg4.N) : (dat4 c ST Yf Hf Bf Y₀).after 3 t = iblk4 c ST Yf Hf Bf Y₀ 3 t := by dsimp only [dat4]
theorem after4_4 (t : Fin cfg4.N) : (dat4 c ST Yf Hf Bf Y₀).after 4 t = out4 (iblk4 c ST Yf Hf Bf Y₀ 0 t) (iblk4 c ST Yf Hf Bf Y₀ 1 t) (iblk4 c ST Yf Hf Bf Y₀ 2 t) (iblk4 c ST Yf Hf Bf Y₀ 3 t) := by dsimp only [dat4]

/-- Each input's current staging buffer holds its block at every point, fetched there or not. -/
theorem before4_0 (t : Fin cfg4.N) (d) : (dat4 c ST Yf Hf Bf Y₀).before 0 t d = iblk4 c ST Yf Hf Bf Y₀ 0 t :=
  ((dat4 c ST Yf Hf Bf Y₀).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (t : Fin cfg4.N) (d) : (dat4 c ST Yf Hf Bf Y₀).before 1 t d = iblk4 c ST Yf Hf Bf Y₀ 1 t :=
  ((dat4 c ST Yf Hf Bf Y₀).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (t : Fin cfg4.N) (d) : (dat4 c ST Yf Hf Bf Y₀).before 2 t d = iblk4 c ST Yf Hf Bf Y₀ 2 t :=
  ((dat4 c ST Yf Hf Bf Y₀).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (t : Fin cfg4.N) (d) : (dat4 c ST Yf Hf Bf Y₀).before 3 t d = iblk4 c ST Yf Hf Bf Y₀ 3 t :=
  ((dat4 c ST Yf Hf Bf Y₀).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)

/-- What the body is called with at point `t`, -/
def bodyPre4 (t : Fin cfg4.N) : sProp 𝕄 :=
  iprop((dat4 c ST Yf Hf Bf Y₀).Φ t.castSucc ∗ (dat4 c ST Yf Hf Bf Y₀).owesAt (none : HIx 2) t.castSucc
    ∗ (∃ d, owns (c : Thread nD τ) (st4_0 t) fullShare ((dat4 c ST Yf Hf Bf Y₀).before 0 t d))
    ∗ (∃ d, owns (c : Thread nD τ) (st4_1 t) fullShare ((dat4 c ST Yf Hf Bf Y₀).before 1 t d))
    ∗ (∃ d, owns (c : Thread nD τ) (st4_2 t) fullShare ((dat4 c ST Yf Hf Bf Y₀).before 2 t d))
    ∗ (∃ d, owns (c : Thread nD τ) (st4_3 t) fullShare ((dat4 c ST Yf Hf Bf Y₀).before 3 t d))
    ∗ (∃ d, owns (c : Thread nD τ) (st4_4 t) fullShare ((dat4 c ST Yf Hf Bf Y₀).before 4 t d)))

/-- and what it returns. -/
def bodyPost4 (t : Fin cfg4.N) : sProp 𝕄 :=
  iprop((dat4 c ST Yf Hf Bf Y₀).Φ t.succ ∗ (dat4 c ST Yf Hf Bf Y₀).owesAt (none : HIx 2) t.succ
    ∗ owns (c : Thread nD τ) (st4_0 t) fullShare ((dat4 c ST Yf Hf Bf Y₀).after 0 t)
    ∗ owns (c : Thread nD τ) (st4_1 t) fullShare ((dat4 c ST Yf Hf Bf Y₀).after 1 t)
    ∗ owns (c : Thread nD τ) (st4_2 t) fullShare ((dat4 c ST Yf Hf Bf Y₀).after 2 t)
    ∗ owns (c : Thread nD τ) (st4_3 t) fullShare ((dat4 c ST Yf Hf Bf Y₀).after 3 t)
    ∗ owns (c : Thread nD τ) (st4_4 t) fullShare ((dat4 c ST Yf Hf Bf Y₀).after 4 t))

/-- The body at any point: the inputs' memrefs hold their blocks; the invariant and the core's debts pass through unread. -/
theorem sound_body4 (t : Fin cfg4.N) :
    bodyPre4 c ST Yf Hf Bf Y₀ t ⊢ wp frame (wpE (defs₀ (F := F)) Variants.none c none) Set.univ (bodyAt4 t) (fun _ => bodyPost4 c ST Yf Hf Bf Y₀ t) := by
  unfold bodyPre4 bodyPost4 bodyAt4
  simp only [before4_0, before4_1, before4_2, before4_3]
  rw [show (dat4 c ST Yf Hf Bf Y₀).Φ t.succ = (dat4 c ST Yf Hf Bf Y₀).Φ t.castSucc from rfl,
    show (dat4 c ST Yf Hf Bf Y₀).owesAt (none : HIx 2) t.succ = (dat4 c ST Yf Hf Bf Y₀).owesAt (none : HIx 2) t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 c ST Yf Hf Bf Y₀ 0 t) (iblk4 c ST Yf Hf Bf Y₀ 1 t) (iblk4 c ST Yf Hf Bf Y₀ 2 t) (iblk4 c ST Yf Hf Bf Y₀ 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 : BodyObligation (dat4 c ST Yf Hf Bf Y₀) (defs₀ (F := F)) Variants.none (none : HIx 2) Set.univ := fun t => by
  rw [bigSep_W4, bigSep_W4]
  exact sound_body4 c ST Yf Hf Bf Y₀ t

end Data

/-! ## The result, block by block -/

/-- The block indices at point `t`: the bias row whole, rows block `t` of the result. -/
theorem index4_3 : ∀ t : Fin grid4.N, cc4_transform_3 (grid4.coords t) = ![0, 0] := by decide +kernel
theorem index4_4 : ∀ t : Fin grid4.N, cc4_transform_4 (grid4.coords t) = ![t.val, 0] := by decide +kernel

theorem idx4_0 (t : Fin cfg4.N) : (cfg4.win 4).index t 0 = t.val := by
  show cc4_transform_4 (grid4.coords t) 0 = t.val; rw [index4_4 t]; rfl
theorem idx4_1 (t : Fin cfg4.N) : (cfg4.win 4).index t 1 = 0 := by
  show cc4_transform_4 (grid4.coords t) 1 = 0; rw [index4_4 t]; rfl
theorem idxw3 (t : Fin cfg4.N) (a : Fin 2) : (cfg4.win 3).index t a = 0 := by
  show cc4_transform_3 (grid4.coords t) a = 0; rw [index4_3 t]; fin_cases a <;> rfl

/-- The row block of an index of the result, and its place in that block. -/
def tOf4 (i : S4096x256.Idx) : Fin cfg4.N :=
  ⟨(i 0).val / 256, by
    have h : (i 0).val < 4096 := (i 0).isLt
    show (i 0).val / 256 < grid4.N
    rw [N_4]; omega⟩
def jOf4 (i : S4096x256.Idx) : S256x256.Idx
  | ⟨0, _⟩ => ⟨(i 0).val % 256, Nat.mod_lt _ (by decide)⟩
  | ⟨1, _⟩ => ⟨(i 1).val, (i 1).isLt⟩

/-- Where an element of the result's block `t` sits in the array: row `256 t +` its own, same column. -/
theorem emb4_val0 (t : Fin cfg4.N) (y : ((cfg4.win 4).xblock (cfg4.grid.coords t)).Idx) :
    ((((cfg4.win 4).blk t).view.emb y) 0 : ℕ) = t.val * 256 + (y 0 : ℕ) := by
  rw [show ((cfg4.win 4).blk t).view.emb y = ((cfg4.win 4).rect t).emb y from rfl]
  have h := (cfg4.win 4).rect_emb_val t y 0
  rw [idx4_0 t] at h
  exact h
theorem emb4_val1 (t : Fin cfg4.N) (y : ((cfg4.win 4).xblock (cfg4.grid.coords t)).Idx) :
    ((((cfg4.win 4).blk t).view.emb y) 1 : ℕ) = (y 1 : ℕ) := by
  rw [show ((cfg4.win 4).blk t).view.emb y = ((cfg4.win 4).rect t).emb y from rfl]
  exact (cfg4.win 4).rect_emb_val_of_index_zero t 1 (idx4_1 t) y

theorem tOf4_emb (t : Fin cfg4.N) (y : ((cfg4.win 4).xblock (cfg4.grid.coords t)).Idx) :
    tOf4 (((cfg4.win 4).blk t).view.emb y) = t := by
  apply Fin.ext
  show ((((cfg4.win 4).blk t).view.emb y) 0 : ℕ) / 256 = t.val
  rw [emb4_val0]
  have : (y 0 : ℕ) < 256 := (y 0).isLt
  omega
theorem jOf4_emb (t : Fin cfg4.N) (y : ((cfg4.win 4).xblock (cfg4.grid.coords t)).Idx) :
    jOf4 (((cfg4.win 4).blk t).view.emb y) = y := by
  funext a
  match a with
  | ⟨0, _⟩ =>
    apply Fin.ext; show ((((cfg4.win 4).blk t).view.emb y) 0 : ℕ) % 256 = (y 0 : ℕ); rw [emb4_val0]
    have : (y 0 : ℕ) < 256 := (y 0).isLt
    omega
  | ⟨1, _⟩ => apply Fin.ext; show ((((cfg4.win 4).blk t).view.emb y) 1 : ℕ) = (y 1 : ℕ); rw [emb4_val1]

/-- Column blocks `t` of the aggregate, of the staged result and of the histogram. -/
def colBlkS (ST : Vec F S256x4096 .f32) (t : Fin cfg4.N) : Vec F S256x256 .f32 := ((cfg4.win 0).blk t).view.read (Elt F) ST
def colBlkY (Yf : Vec F S256x4096 .f32) (t : Fin cfg4.N) : Vec F S256x256 .f32 := ((cfg4.win 1).blk t).view.read (Elt F) Yf
def colBlkH4 (Hf : Vec F S32x4096 .f32) (t : Fin cfg4.N) : Vec F S32x256 .f32 := ((cfg4.win 2).blk t).view.read (Elt F) Hf

/-- The whole result as a function of the four operands: under rows block `t`, the body's payload at point `t`. -/
def out4V (ST Yf : Vec F S256x4096 .f32) (Hf : Vec F S32x4096 .f32) (Bf : Vec F S1x256 .f32) : Vec F S4096x256 .f32 :=
  fun i => out4 (colBlkS ST (tOf4 i)) (colBlkY Yf (tOf4 i)) (colBlkH4 Hf (tOf4 i)) Bf (jOf4 i)

/-- The same at the result array's location on device `d`. -/
def out (d : Dev nD) (ST : Buf (Elt F) ((T d : Thread nD τ).loc main_v40)) (Yf : Buf (Elt F) ((T d : Thread nD τ).loc main_v39))
    (Hf : Buf (Elt F) ((T d : Thread nD τ).loc main_v33)) (Bf : Buf (Elt F) ((T d : Thread nD τ).loc main_v30)) :
    Buf (Elt F) ((T d : Thread nD τ).loc main_v41) := out4V ST Yf Hf Bf

/-! ## What the arrays hold at the region's two ends -/

section Value

variable (c : Dev nD) (ST : Vec F S256x4096 .f32) (Yf : Vec F S256x4096 .f32) (Hf : Vec F S32x4096 .f32) (Bf : Vec F S1x256 .f32) (Y₀ : Vec F S4096x256 .f32)

/-- The window over the whole bias row reads it, at every point. -/
theorem iblk4_3 (t : Fin cfg4.N) : iblk4 c ST Yf Hf Bf Y₀ 3 t = Bf := by
  funext x
  unfold iblk4
  rw [View.read_apply]
  show Bf (((cfg4.win 3).blk t).view.emb x) = Bf x
  congr 1
  funext a; apply Fin.ext
  rw [show ((cfg4.win 3).blk t).view.emb x = ((cfg4.win 3).rect t).emb x from rfl]
  exact (cfg4.win 3).rect_emb_val_of_index_zero t a (idxw3 t a) x
theorem iblk4_0 (t : Fin cfg4.N) : iblk4 c ST Yf Hf Bf Y₀ 0 t = colBlkS ST t := rfl
theorem iblk4_1 (t : Fin cfg4.N) : iblk4 c ST Yf Hf Bf Y₀ 1 t = colBlkY Yf t := rfl
theorem iblk4_2 (t : Fin cfg4.N) : iblk4 c ST Yf Hf Bf Y₀ 2 t = colBlkH4 Hf t := rfl

/-- What point `t` writes back is block `t` of the whole result. -/
theorem hG4 (t : Fin cfg4.N) (hf : (cfg4.win 4).flush t = true) :
    (dat4 c ST Yf Hf Bf Y₀).flushed 4 t = ((cfg4.win 4).blk t).view.read (Elt F) (out4V ST Yf Hf Bf) := by
  funext y
  rw [View.read_apply]
  show (dat4 c ST Yf Hf Bf Y₀).after 4 t y = out4V ST Yf Hf Bf (((cfg4.win 4).blk t).view.emb y)
  rw [after4_4, iblk4_0, iblk4_1, iblk4_2, iblk4_3]
  unfold out4V
  rw [tOf4_emb, jOf4_emb]

/-- The sixteen row blocks cover the result. -/
theorem hcover4 (i : S4096x256.Idx) : ∃ t : Fin cfg4.N, (cfg4.win 4).flush t = true ∧ i ∈ ((cfg4.win 4).blk t).view.set := by
  refine ⟨tOf4 i, flush4_4 _, ?_⟩
  have h : ((cfg4.win 4).blk (tOf4 i)).view.emb (jOf4 i) = i := by
    funext a
    match a with
    | ⟨0, _⟩ =>
      apply Fin.ext; show ((((cfg4.win 4).blk (tOf4 i)).view.emb (jOf4 i)) 0 : ℕ) = (i 0 : ℕ); rw [emb4_val0]
      show (i 0).val / 256 * 256 + (i 0).val % 256 = (i 0).val
      omega
    | ⟨1, _⟩ => apply Fin.ext; show ((((cfg4.win 4).blk (tOf4 i)).view.emb (jOf4 i)) 1 : ℕ) = (i 1 : ℕ); rw [emb4_val1]; rfl
  have hm := ((cfg4.win 4).blk (tOf4 i)).view.emb_mem_set (jOf4 i)
  rw [h] at hm
  exact hm

/-- The inputs are never written; the result ends at the whole function of them. -/
theorem arrAt4_0 (n : ℕ) : (dat4 c ST Yf Hf Bf Y₀).arrAt 0 n = ST := ((dat4 c ST Yf Hf Bf Y₀).arrAt_in 0 rfl n).trans (by rw [A_eq4]; rfl)
theorem arrAt4_1 (n : ℕ) : (dat4 c ST Yf Hf Bf Y₀).arrAt 1 n = Yf := ((dat4 c ST Yf Hf Bf Y₀).arrAt_in 1 rfl n).trans (by rw [A_eq4]; rfl)
theorem arrAt4_2 (n : ℕ) : (dat4 c ST Yf Hf Bf Y₀).arrAt 2 n = Hf := ((dat4 c ST Yf Hf Bf Y₀).arrAt_in 2 rfl n).trans (by rw [A_eq4]; rfl)
theorem arrAt4_3 (n : ℕ) : (dat4 c ST Yf Hf Bf Y₀).arrAt 3 n = Bf := ((dat4 c ST Yf Hf Bf Y₀).arrAt_in 3 rfl n).trans (by rw [A_eq4]; rfl)
theorem arrAt4_4_zero : (dat4 c ST Yf Hf Bf Y₀).arrAt 4 0 = Y₀ := by show (dat4 c ST Yf Hf Bf Y₀).A 4 = Y₀; rw [A_eq4]; rfl
theorem arrAt4_4 : (dat4 c ST Yf Hf Bf Y₀).arrAt 4 cfg4.N = out4V ST Yf Hf Bf :=
  (dat4 c ST Yf Hf Bf Y₀).arrAt_eq_of_cover 4 (out4V ST Yf Hf Bf) (hG4 c ST Yf Hf Bf Y₀) hcover4

/-- The pipeline's five arrays, held whole. -/
theorem arrays4_eq (G : (w : Fin cfg4.W) → Buf (Elt F) ((cfg4.win w).arr.view.loc (c.tc : Thread nD τ))) :
    (dat4 c ST Yf Hf Bf Y₀).arrays G
      = iprop((((c.tc : Thread nD τ).loc main_v40) ↦{fullShare} G 0)
          ∗ (((c.tc : Thread nD τ).loc main_v39) ↦{fullShare} G 1)
          ∗ (((c.tc : Thread nD τ).loc main_v33) ↦{fullShare} G 2)
          ∗ (((c.tc : Thread nD τ).loc main_v30) ↦{fullShare} G 3)
          ∗ (((c.tc : Thread nD τ).loc main_v41) ↦{fullShare} G 4)) := by
  rw [Pipeline.arrays_eq (P := Unit) (fun _ => cfg4) (fun _ c => dat4 c ST Yf Hf Bf Y₀) () c arr_whole4
    (fun w => (dat4 c ST Yf Hf Bf Y₀).share_full (fun _ => rfl) w) G, bigSep_W4]

set_option maxHeartbeats 1000000 in
/-- The arrays as the pipeline takes them at entry, -/
theorem arrays4_entry : (dat4 c ST Yf Hf Bf Y₀).arrays (fun w => (dat4 c ST Yf Hf Bf Y₀).arrAt w 0)
      = iprop((((c.tc : Thread nD τ).loc main_v40) ↦{fullShare} ST)
          ∗ (((c.tc : Thread nD τ).loc main_v39) ↦{fullShare} Yf)
          ∗ (((c.tc : Thread nD τ).loc main_v33) ↦{fullShare} Hf)
          ∗ (((c.tc : Thread nD τ).loc main_v30) ↦{fullShare} Bf)
          ∗ (((c.tc : Thread nD τ).loc main_v41) ↦{fullShare} Y₀)) := by
  rw [arrays4_eq]
  simp only [arrAt4_0, arrAt4_1, arrAt4_2, arrAt4_3, arrAt4_4_zero]

set_option maxHeartbeats 1000000 in
/-- and as it leaves them. -/
theorem arrays4_exit : (dat4 c ST Yf Hf Bf Y₀).arrays (fun w => (dat4 c ST Yf Hf Bf Y₀).arrAt w cfg4.N)
      = iprop((((c.tc : Thread nD τ).loc main_v40) ↦{fullShare} ST)
          ∗ (((c.tc : Thread nD τ).loc main_v39) ↦{fullShare} Yf)
          ∗ (((c.tc : Thread nD τ).loc main_v33) ↦{fullShare} Hf)
          ∗ (((c.tc : Thread nD τ).loc main_v30) ↦{fullShare} Bf)
          ∗ (((c.tc : Thread nD τ).loc main_v41) ↦{fullShare} out4V ST Yf Hf Bf)) := by
  rw [arrays4_eq]
  simp only [arrAt4_0, arrAt4_1, arrAt4_2, arrAt4_3, arrAt4_4]

end Value

/-! ## The region -/

section Region

variable {lv : GSem nD τ sig → HIx 2 → ℕ} (hlv : (K (F := F)).Refines lv)
variable (ST Yf : Vec F S256x4096 .f32) (Hf : Vec F S32x4096 .f32) (Bf : Vec F S1x256 .f32) (Yv : Vec F S4096x256 .f32)

/-- Proof data that says nothing, for the two pipelines this region does not enter. -/
def idleDat4 (c : Dev nD) (cfg : Pipeline.Cfg sig Λ₀) : Dat τ (Elt F) (HIx 2) ℕ UU ℕ cfg c where
  A _ := Classical.arbitrary _
  after _ _ := Classical.arbitrary _
  Φ _ := iprop(emp)
  q _ := fullShare
  owed _ := 0

/-- Every pipeline's proof data, this region's at the arrays it is entered with. -/
def pdats4 : (p : Fin 3) → (c : Dev nD) → Dat τ (Elt F) (HIx 2) ℕ UU ℕ (Pipeline.pin (pcfgs (F := F)) adm p) c
  | ⟨0, _⟩ => fun c => idleDat4 c _
  | ⟨1, _⟩ => fun c => idleDat4 c _
  | ⟨2, _⟩ => fun c => dat4 c ST Yf Hf Bf Yv

/-- What the TensorCore owes after the second SparseCore call, its recorded pairs within that call's band. -/
abbrev owesT4 (c : Dev nD) : sProp 𝕄 :=
  iprop(∃ W, ⌜(K (F := F)).WBelow (T c) W (8 * 2)⌝ ∗ owes (T c : Thread nD τ) ((K (F := F)).Otc c 2) W)

/-- The TensorCore's debts are all at a call's index: none at the kernels' own. -/
theorem Otc_none4 (c : Dev nD) (n : ℕ) (g : GSem nD τ sig) : (K (F := F)).Otc c n g none = 0 :=
  Nat.eq_zero_of_not_pos fun h => by
    have := (K (F := F)).lev_of_Otc_pos h
    rw [SparseCore.Cfg.lev_none] at this; omega

set_option maxHeartbeats 2000000 in
set_option backward.isDefEq.respectTransparency.types false in
/-- The region over the thread state "what the TensorCore owes, the five arrays whole": the arrays go in as the
    pipeline's, come back with the result at the whole function of the operands; the debts ride through at the same
    tallies, the pipeline's own waits recorded at the kernels' index, level zero. -/
def reg4 : Pipeline.RegionSeg (pcfgs (F := F)) adm (pdats4 ST Yf Hf Bf Yv) (none : HIx 2) defs₀ 𝒱₀ (K (F := F)).L lv 2 where
  win := launch4.win.to₀
  block_pos := launch4.block_pos
  stage_whole := launch4.stage_whole
  K := PEmpty
  osem k := k.elim
  ho := Pipeline.OwnSemFacts.none _
  hbody c := (body_obligation4 c ST Yf Hf Bf Yv).loose
  hwaits c := Pipeline.cellsWaits_intro (Pipeline.pin (pcfgs (F := F)) adm) (pdats4 ST Yf Hf Bf Yv) (none : HIx 2) 2 c
    fun w s t => (K (F := F)).mayWait_none _ (Otc_none4 c 2) lv hlv
  pre c := iprop(owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} Yv))
  post c := iprop(owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} out4V ST Yf Hf Bf))
  X c := iprop(emp)
  Y c := iprop(emp)
  Z c := iprop(emp)
  hentry c := by
    show iprop((owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} Yv)) ∗ Pipeline.ownSems0 (fun k : PEmpty => k.elim) c ∗ levAts (K (F := F)).L lv)
      ⊢ |={Set.univ}=> iprop((dat4 c ST Yf Hf Bf Yv).arrays (fun w => (dat4 c ST Yf Hf Bf Yv).arrAt w 0)
          ∗ Pipeline.prefHeld (pcfgs (F := F) 2).pre c (fun _ => fullShare) (adm (F := F) 2).1
          ∗ (dat4 c ST Yf Hf Bf Yv).owesAt (none : HIx 2) 0 ∗ emp ∗ emp)
    rw [arrays4_entry]
    iintro ⟨⟨HO, H0, H1, H2, H3, H4⟩, -, -⟩
    imodintro
    isplitl [H0 H1 H2 H3 H4]
    · isplitl [H0]; · iexact H0
      isplitl [H1]; · iexact H1
      isplitl [H2]; · iexact H2
      isplitl [H3]; · iexact H3
      iexact H4
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitl <;> iempintro
  hin c := by
    show iprop(emp ∗ Pipeline.prefHeld (pcfgs (F := F) 2).pre c (fun _ => fullShare) (adm (F := F) 2).1 ∗ Pipeline.scopedRest spec4 c)
      ⊢ (Pipeline.scopedRest spec4 c : sProp 𝕄)
    iintro ⟨-, -, Hr⟩; iexact Hr
  hout c := by
    show (Pipeline.scopedRest spec4 c : sProp 𝕄) ⊢ iprop(emp ∗ Pipeline.ownSems0 (fun k : PEmpty => k.elim) c ∗ Pipeline.scopedRest spec4 c)
    rw [Pipeline.ownSems0_none]
    iintro Hr
    isplitr; · iempintro
    isplitr; · iempintro
    iexact Hr
  hexit c := by
    show iprop((dat4 c ST Yf Hf Bf Yv).arrays (fun w => (dat4 c ST Yf Hf Bf Yv).arrAt w cfg4.N)
          ∗ (dat4 c ST Yf Hf Bf Yv).owesAt (none : HIx 2) (Fin.last cfg4.N) ∗ emp ∗ emp)
      ⊢ |={Set.univ}=> iprop(owesT4 c ∗ (((c.tc : Thread nD τ).loc main_v40) ↦{fullShare} ST)
      ∗ (((c.tc : Thread nD τ).loc main_v39) ↦{fullShare} Yf)
      ∗ (((c.tc : Thread nD τ).loc main_v33) ↦{fullShare} Hf)
      ∗ (((c.tc : Thread nD τ).loc main_v30) ↦{fullShare} Bf)
      ∗ (((c.tc : Thread nD τ).loc main_v41) ↦{fullShare} out4V ST Yf Hf Bf))
    rw [arrays4_exit]
    iintro ⟨⟨H0, H1, H2, H3, H4⟩, HO, -, -⟩
    imodintro
    isplitl [HO]
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · show (K (F := F)).lev _ none ≤ 8 * 2
          rw [SparseCore.Cfg.lev_none]; omega
      iexact HO
    isplitl [H0]; · iexact H0
    isplitl [H1]; · iexact H1
    isplitl [H2]; · iexact H2
    isplitl [H3]; · iexact H3
    iexact H4

end Region

set_option maxHeartbeats 2000000 in
set_option backward.isDefEq.respectTransparency.types false in
/-- THE REGION: after the second SparseCore call the TensorCore, holding the five arrays whole and the third pipeline's
    share of the launch, runs the call to the same state with the result array at the whole function of the four
    operands. -/
theorem region3 {lv : GSem nD τ sig → HIx 2 → ℕ} (hlv : (K (F := F)).Refines lv)
    (P : (K (F := F)).Pay (nD := nD) (Val := Elt F) (Name := ℕ) (U := UU)) (κ : GSem nD τ sig → ℕ) (d : Dev nD)
    (ST : Buf (Elt F) ((T d : Thread nD τ).loc main_v40)) (Yf : Buf (Elt F) ((T d : Thread nD τ).loc main_v39))
    (Hf : Buf (Elt F) ((T d : Thread nD τ).loc main_v33)) (Bf : Buf (Elt F) ((T d : Thread nD τ).loc main_v30)) :
    iprop((K (F := F)).ctx EH P κ lv ∗ (K (F := F)).tcSt EH d 2 ∗ boundary (T d : Thread nD τ) ∗ pipeGhost 2 d
        ∗ (((T d : Thread nD τ).loc main_v40) ↦{fullShare} ST)
        ∗ (((T d : Thread nD τ).loc main_v39) ↦{fullShare} Yf)
        ∗ (((T d : Thread nD τ).loc main_v33) ↦{fullShare} Hf)
        ∗ (((T d : Thread nD τ).loc main_v30) ↦{fullShare} Bf)
        ∗ (∃ f : Buf (Elt F) ((T d : Thread nD τ).loc main_v41), ((T d : Thread nD τ).loc main_v41) ↦{fullShare} f))
      ⊢ wp frame (wpE ((K (F := F)).defs (D (F := F))) 𝒱 (T d) none) Set.univ
          (Prog.lift (.customCall (SparseCore.inner (Pipeline.entry 2)) ()))
          (fun _ => iprop((K (F := F)).tcSt EH d 2 ∗ boundary (T d : Thread nD τ)
        ∗ (((T d : Thread nD τ).loc main_v40) ↦{fullShare} ST)
        ∗ (((T d : Thread nD τ).loc main_v39) ↦{fullShare} Yf)
        ∗ (((T d : Thread nD τ).loc main_v33) ↦{fullShare} Hf)
        ∗ (((T d : Thread nD τ).loc main_v30) ↦{fullShare} Bf)
        ∗ (((T d : Thread nD τ).loc main_v41) ↦{fullShare} out d ST Yf Hf Bf))) := by
  unfold SparseCore.Cfg.tcSt
  iintro ⟨#Hctx, ⟨HO, Hrest⟩, Hbd, ⟨Hg, Ht⟩, H0, H1, H2, H3, ⟨%Y₀, H4⟩⟩
  ihave #Hla := (SparseCore.Cfg.ctx_levAts κ) $$ Hctx
  iapply ((K (F := F)).wp_liftProg (D (F := F)) 𝒱 (T d) Set.univ none
    (Prog.lift (.customCall (Pipeline.entry 2) ()) : Prog (TpuEff nD τ sig (Elt F) (ΛP (F := F)) .tc) PUnit) _)
  iapply (Pipeline.RegionSeg.wp (pcfgs (F := F)) adm (pdats4 ST Yf Hf Bf Y₀) (none : HIx 2) cellOf_inj EP defs₀ 𝒱₀ (K (F := F)).L lv
    (reg4 hlv ST Yf Hf Bf Y₀) d none (fun u hu => nomatch hu) (fun x => .ret x) _)
  dsimp only [reg4]
  isplitl [Hrest]
  · iintro ⟨Hbd, HO, H0, H1, H2, H3, H4⟩
    rw [wp_ret]; imodintro
    isplitl [HO Hrest]
    · isplitl [HO]; · iexact HO
      iexact Hrest
    isplitl [Hbd]; · iexact Hbd
    isplitl [H0]; · iexact H0
    isplitl [H1]; · iexact H1
    isplitl [H2]; · iexact H2
    isplitl [H3]; · iexact H3
    iexact H4
  isplitl [Hbd]; · iexact Hbd
  isplitl [HO H0 H1 H2 H3 H4]
  · isplitl [HO]; · iexact HO
    isplitl [H0]; · iexact H0
    isplitl [H1]; · iexact H1
    isplitl [H2]; · iexact H2
    isplitl [H3]; · iexact H3
    iexact H4
  isplitr; · iexact Hla
  isplitl [Hg]; · iexact Hg
  iexact Ht

end Cert.Proof.KB

end
-- ==== Proof.Bits.Frames.lean ====
/-
  The program's run with everything instantiated: the five kernels' values (the histogram and the aggregate as whole
  arrays whose rows are the tiles' functions, the three TensorCore calls' results block by block), the five kernels'
  proofs, and the precondition's index ranges. The run names the result at the last valuation; dropping the value
  leaves the frame: the five arguments end as they were.
-/
import proofs.«205814_g58841051955373_cont_9to1_m_133_55_alg».proof.Proof.Bits.LaunchRun
import proofs.«205814_g58841051955373_cont_9to1_m_133_55_alg».proof.Proof.Bits.Ranges
import proofs.«205814_g58841051955373_cont_9to1_m_133_55_alg».proof.Proof.Bits.ScWhole
import proofs.«205814_g58841051955373_cont_9to1_m_133_55_alg».proof.Proof.Bits.ScWhole1
import proofs.«205814_g58841051955373_cont_9to1_m_133_55_alg».proof.Proof.Bits.TcRegion
import proofs.«205814_g58841051955373_cont_9to1_m_133_55_alg».proof.Proof.Bits.TcRegion2
import proofs.«205814_g58841051955373_cont_9to1_m_133_55_alg».proof.Proof.Bits.TcRegion3

noncomputable section

namespace Cert.Proof.KB

open Cert.Kernel Cert.Kernel.Gen
open Idealize.ShloMosaic Idealize.ShloMosaic.TcCoe Idealize.SL.Sem
open Idealize.ShloMosaic.SparseCore (S V T)

variable {F : FTy → Type} [FloatOps F]

/-- What each of the five kernels computes. -/
def Vl₀ : Vals F where
  hist := fun d dst z => histWhole d dst z
  x1t := fun d X A => x1t d X A
  yst := fun d A1 X1 X H W0 W1 => yst d A1 X1 X H W0 W1
  st := fun d src dst y z2 => stWhole d src dst y z2
  out := fun d ST Y H B => out d ST Y H B

set_option maxHeartbeats 2000000 in
theorem obl_r0 : Region0 (Vl₀ (F := F)) := by
  intro P κ d X A
  exact region1 (lv := (K (F := F)).lev) (K (F := F)).refines_self P κ d X A
set_option maxHeartbeats 2000000 in
theorem obl_r1 : Region1 (Vl₀ (F := F)) := by
  intro P κ d A1 X1 X H W0 W1
  exact region2 (lv := (K (F := F)).lev) (K (F := F)).refines_self P κ d A1 X1 X H W0 W1
set_option maxHeartbeats 2000000 in
theorem obl_r2 : Region2 (Vl₀ (F := F)) := by
  intro P κ d ST Y H B
  exact region3 (lv := (K (F := F)).lev) (K (F := F)).refines_self P κ d ST Y H B

variable (m : (ℓ : Loc nD τ sig) → Buf (Elt F) ℓ) (ρ : Dev nD → PrngReg)

set_option maxHeartbeats 2000000 in
/-- Under the precondition every weakly fair execution of the 35 threads terminates, faults nowhere, and ends with the
    result and the five arguments at the last valuation. -/
theorem kernel_run [∀ e, Nonempty (Elt F e)] (h : PreOK m) :
    θ_run (Cert.Kernel.defs (F := F)) (Cert.Kernel.threads (F := F)) ⟨m, fun _ => 0, ρ⟩ (QC (Vl₀ (F := F)) m) :=
  run_main (Vl₀ (F := F)) m ρ obl_r0 obl_r1 obl_r2
    (tileObl0_whole (CC (Vl₀ (F := F)) m) (fun d i => cc_dst_range (Vl₀ (F := F)) m h d i) (fun _ => rfl))
    (tileObl1_whole (CC (Vl₀ (F := F)) m) (fun d i => cc_src_range (Vl₀ (F := F)) m h d i) (fun d i => cc_dst1_range (Vl₀ (F := F)) m h d i) (fun _ => rfl))

/-- The same run names the result array: at the last valuation. -/
theorem kernel_value [∀ e, Nonempty (Elt F e)] (h : PreOK m) :
    θ_run (Cert.Kernel.defs (F := F)) (Cert.Kernel.threads (F := F)) ⟨m, fun _ => 0, ρ⟩ (fun r => ∀ c : Dev nD,
      r.2.mem ((c.tc : Thread nD τ).loc main_v42) = VF (Vl₀ (F := F)) m c v42'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ hq c => ⟨(hq c).1,
      (hq c).2.1.trans (VF_arg (Vl₀ (F := F)) m c (r := main_arg0) (by decide)),
      (hq c).2.2.1.trans (VF_arg (Vl₀ (F := F)) m c (r := main_arg1) (by decide)),
      (hq c).2.2.2.1.trans (VF_arg (Vl₀ (F := F)) m c (r := main_arg2) (by decide)),
      (hq c).2.2.2.2.1.trans (VF_arg (Vl₀ (F := F)) m c (r := main_arg3) (by decide)),
      (hq c).2.2.2.2.2.trans (VF_arg (Vl₀ (F := F)) m c (r := main_arg4) (by decide))⟩) (kernel_run m ρ h)

/-- The frame: the value dropped. -/
theorem kernel_frame [∀ e, Nonempty (Elt F e)] (h : PreOK m) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ hq c => (hq c).2) (kernel_value m ρ h)

end Cert.Proof.KB

end
-- ==== Proof.RefRun.lean ====
/-
  The reference's run. @main of the reference is a straight line of 254 host operations (its calls of `_where` and
  `_take` unfolded at their places). Here: the line as a list, in the four windows @main is cut into; that @main is
  that list run in order; what each window leaves in the buffers later windows read, as named stages of what it found;
  and, joined, that every execution ends with the result buffer at `refVal` of the arguments and the arguments as they
  were.
-/
import proofs.«205814_g58841051955373_cont_9to1_m_133_55_alg».proof.ReferenceIdeal
import proofs.«205814_g58841051955373_cont_9to1_m_133_55_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages

`reference` is three graph convolutions over one edge list: of `x`, of `A₀ x` and of `A₁ (A₀ x)`, the first two with
the weights' row 0 and the third with row 1, summed. One convolution `gcnConv x adj W b` is
`out[n] = Σ_{e : dst e = n} norm e • (x W)[src e] + b`, over the edges of `adj` followed by one self-loop per node,
`norm e = dinv (src e) * dinv (dst e)`, `dinv n = 1 / √(deg n)` where `deg n > 0` and `0` elsewhere, `deg` the
in-degree counted over the same extended edge list. Each stage below is one operation, or a short group of them, of
the program, named by what it computes. -/

/-- Row `0` of the stacked weights, as a matrix. -/
def selW0 (Ws : (⟨S3x128x128, .f32⟩ : BufTy).Contents (Elt F)) : (⟨S128x128, .f32⟩ : BufTy).Contents (Elt F) :=
  shapeCast S128x128 (extractStridedSlice S1x128x128 ![0, 0, 0] Ws slices_S3x128x128_S1x128x128_0_0_0) shapeCasts_S1x128x128_S128x128

/-- Row `1` of the stacked weights, as a matrix. -/
def selW1 (Ws : (⟨S3x128x128, .f32⟩ : BufTy).Contents (Elt F)) : (⟨S128x128, .f32⟩ : BufTy).Contents (Elt F) :=
  shapeCast S128x128 (extractStridedSlice S1x128x128 ![1, 0, 0] Ws slices_S3x128x128_S1x128x128_1_0_0) shapeCasts_S1x128x128_S128x128

/-- Row `0` of the stacked biases, as a vector. -/
def selB0 (bs : (⟨S3x128, .f32⟩ : BufTy).Contents (Elt F)) : (⟨S128, .f32⟩ : BufTy).Contents (Elt F) :=
  shapeCast S128 (extractStridedSlice S1x128 ![0, 0] bs slices_S3x128_S1x128_0_0) shapeCasts_S1x128_S128

/-- Row `1` of the stacked biases, as a vector. -/
def selB1 (bs : (⟨S3x128, .f32⟩ : BufTy).Contents (Elt F)) : (⟨S128, .f32⟩ : BufTy).Contents (Elt F) :=
  shapeCast S128 (extractStridedSlice S1x128 ![1, 0] bs slices_S3x128_S1x128_1_0) shapeCasts_S1x128_S128

/-- The first cached operator, as a matrix. -/
def selA0 (A : (⟨S2x4096x4096, .f32⟩ : BufTy).Contents (Elt F)) : (⟨S4096x4096, .f32⟩ : BufTy).Contents (Elt F) :=
  shapeCast S4096x4096 (extractStridedSlice S1x4096x4096 ![0, 0, 0] A slices_S2x4096x4096_S1x4096x4096_0_0_0) shapeCasts_S1x4096x4096_S4096x4096

/-- The second cached operator, as a matrix. -/
def selA1 (A : (⟨S2x4096x4096, .f32⟩ : BufTy).Contents (Elt F)) : (⟨S4096x4096, .f32⟩ : BufTy).Contents (Elt F) :=
  shapeCast S4096x4096 (extractStridedSlice S1x4096x4096 ![1, 0, 0] A slices_S2x4096x4096_S1x4096x4096_1_0_0) shapeCasts_S1x4096x4096_S4096x4096

/-- Two index lists, one after the other: the `65536` edges' ends, then the `4096` nodes. -/
def cat2 : (⟨S65536, .i32⟩ : BufTy).Contents (Elt F) → (⟨S4096, .i32⟩ : BufTy).Contents (Elt F) → (⟨S69632, .i32⟩ : BufTy).Contents (Elt F) :=
  fun a b => concatenate S69632 0 [⟨S65536, a⟩, ⟨S4096, b⟩] concatenates_S65536_S4096_S69632_d0

/-- The sources of the extended edge list: row `0` of `adj`, then each node once (its self-loop). -/
def srcIdx (adj : (⟨S2x65536, .i32⟩ : BufTy).Contents (Elt F)) : (⟨S69632, .i32⟩ : BufTy).Contents (Elt F) :=
  cat2 (shapeCast S65536 (extractStridedSlice S1x65536 ![0, 0] adj slices_S2x65536_S1x65536_0_0) shapeCasts_S1x65536_S65536) (iotaInDim S4096 32 0)

/-- The destinations of the extended edge list: row `1` of `adj`, then each node once. -/
def dstIdx (adj : (⟨S2x65536, .i32⟩ : BufTy).Contents (Elt F)) : (⟨S69632, .i32⟩ : BufTy).Contents (Elt F) :=
  cat2 (shapeCast S65536 (extractStridedSlice S1x65536 ![1, 0] adj slices_S2x65536_S1x65536_1_0) shapeCasts_S1x65536_S65536) (iotaInDim S4096 32 0)

/-- An index list as a column of one-element index vectors, the form `gather` and `scatter` take. -/
def col (idx : (⟨S69632, .i32⟩ : BufTy).Contents (Elt F)) : (⟨S69632x1, .i32⟩ : BufTy).Contents (Elt F) :=
  broadcastInDim S69632x1 ![0] bcast_S69632_S69632x1_0 idx

/-- The in-degree of each node over the extended edge list: ones added at the destinations, from zero. -/
def deg (adj : (⟨S2x65536, .i32⟩ : BufTy).Contents (Elt F)) : (⟨S4096, .f32⟩ : BufTy).Contents (Elt F) :=
  Host.scatterAdd scatter_S4096_S69632x1_S69632_n_0_0_1
    (broadcastInDim S4096 ![] bcast_S_S4096 (constant S_ .f32 0x00000000#32))
    (col (dstIdx adj))
    (broadcastInDim S69632 ![] bcast_S_S69632 (constant S_ .f32 0x3F800000#32))

/-- `1 / √(max deg 1e-12)` where the degree is positive, `0` elsewhere. -/
def dinv (adj : (⟨S2x65536, .i32⟩ : BufTy).Contents (Elt F)) : (⟨S4096, .f32⟩ : BufTy).Contents (Elt F) :=
  select (cmpf .ogt (deg adj) (broadcastInDim S4096 ![] bcast_S_S4096 (constant S_ .f32 0x00000000#32)))
    (Host.rsqrt (maximumf (deg adj) (broadcastInDim S4096 ![] bcast_S_S4096 (constant S_ .f32 0x2B8CBCCC#32))))
    (broadcastInDim S4096 ![] bcast_S_S4096 (id (constant S_ .f32 0x00000000#32)))

/-- An index counted from the end when negative: `i + 4096` where `i < 0`, `i` elsewhere. -/
def wrapIdx (idx : (⟨S69632, .i32⟩ : BufTy).Contents (Elt F)) : (⟨S69632, .i32⟩ : BufTy).Contents (Elt F) :=
  select (cmpi .slt idx (broadcastInDim S69632 ![] bcast_S_S69632 (constantI S_ 32 0#32)))
    (addi idx (broadcastInDim S69632 ![] bcast_S_S69632 (constantI S_ 32 4096#32)))
    idx

/-- `dinv` read at each edge's end `idx`. -/
def dinvAt (adj : (⟨S2x65536, .i32⟩ : BufTy).Contents (Elt F)) (idx : (⟨S69632, .i32⟩ : BufTy).Contents (Elt F)) : (⟨S69632, .f32⟩ : BufTy).Contents (Elt F) :=
  Host.gather gather_S4096_S69632x1_S69632_n_0_n_n_0_1_1 (dinv adj) (col (wrapIdx idx))

/-- The symmetric normalisation of each edge: `dinv` at its source times `dinv` at its destination. -/
def norm (adj : (⟨S2x65536, .i32⟩ : BufTy).Contents (Elt F)) : (⟨S69632, .f32⟩ : BufTy).Contents (Elt F) :=
  mulf (dinvAt adj (srcIdx adj)) (dinvAt adj (dstIdx adj))

/-- The linear layer: `x` times `W` along the feature axis. -/
def xw (x : (⟨S4096x2x128, .f32⟩ : BufTy).Contents (Elt F)) (W : (⟨S128x128, .f32⟩ : BufTy).Contents (Elt F)) : (⟨S4096x2x128, .f32⟩ : BufTy).Contents (Elt F) :=
  Host.dotGeneral dot_S4096x2x128_S128x128_S4096x2x128_2_0_01_1_n_n none x W

/-- Whether each (wrapped) index names a row: `0 ≤ i ≤ 4095`. -/
def inRange (idx : (⟨S69632, .i32⟩ : BufTy).Contents (Elt F)) : (⟨S69632, .i1⟩ : BufTy).Contents (Elt F) :=
  Host.reduce IntOp.andi
    (andi (cmpi .sge (col (wrapIdx idx)) (broadcastInDim S69632x1 ![] bcast_S_S69632x1 (constantI S_ 32 0#32)))
      (cmpi .sle (col (wrapIdx idx)) (broadcastInDim S69632x1 ![0, 1] bcast_S1x1_S69632x1_0_1 (broadcastInDim S1x1 ![1] bcast_S1_S1x1_1 (constantI S1 32 4095#32)))))
    (constantI S_ 1 1#1) reducesTo_S69632x1_S69632_d1 h_S_

/-- The rows of `y` at the indices `idx` (`jnp.take` along axis 0): the row gathered where the index is in range, the constant `0x7FC00000` (a NaN's bits) elsewhere. -/
def takeRows (y : (⟨S4096x2x128, .f32⟩ : BufTy).Contents (Elt F)) (idx : (⟨S69632, .i32⟩ : BufTy).Contents (Elt F)) : (⟨S69632x2x128, .f32⟩ : BufTy).Contents (Elt F) :=
  select (broadcastInDim S69632x2x128 ![0] bcast_S69632_S69632x2x128_0 (inRange idx))
    (Host.gather gather_S4096x2x128_S69632x1_S69632x2x128_12_0_n_n_0_1_12128 y (col (wrapIdx idx)))
    (broadcastInDim S69632x2x128 ![] bcast_S_S69632x2x128 (constant S_ .f32 0x7FC00000#32))

/-- An edge weight spread over its message's two trailing axes. -/
def spread (w : (⟨S69632, .f32⟩ : BufTy).Contents (Elt F)) : (⟨S69632x2x128, .f32⟩ : BufTy).Contents (Elt F) :=
  broadcastInDim S69632x2x128 ![0, 1, 2] bcast_S69632x1x1_S69632x2x128_0_1_2 (broadcastInDim S69632x1x1 ![0] bcast_S69632_S69632x1x1_0 w)

/-- The message of each edge: the transformed row of its source, scaled by the edge's normalisation. -/
def msgs (x : (⟨S4096x2x128, .f32⟩ : BufTy).Contents (Elt F)) (adj : (⟨S2x65536, .i32⟩ : BufTy).Contents (Elt F)) (W : (⟨S128x128, .f32⟩ : BufTy).Contents (Elt F)) : (⟨S69632x2x128, .f32⟩ : BufTy).Contents (Elt F) :=
  mulf (takeRows (xw x W) (srcIdx adj)) (spread (norm adj))

/-- The aggregation: each message added at its edge's destination, from zero. -/
def agg (x : (⟨S4096x2x128, .f32⟩ : BufTy).Contents (Elt F)) (adj : (⟨S2x65536, .i32⟩ : BufTy).Contents (Elt F)) (W : (⟨S128x128, .f32⟩ : BufTy).Contents (Elt F)) : (⟨S4096x2x128, .f32⟩ : BufTy).Contents (Elt F) :=
  Host.scatterAdd scatter_S4096x2x128_S69632x1_S69632x2x128_12_0_0_1
    (broadcastInDim S4096x2x128 ![] bcast_S_S4096x2x128 (constant S_ .f32 0x00000000#32))
    (col (dstIdx adj))
    (msgs x adj W)

/-- The bias spread over nodes and the middle axis. -/
def biasB (b : (⟨S128, .f32⟩ : BufTy).Contents (Elt F)) : (⟨S4096x2x128, .f32⟩ : BufTy).Contents (Elt F) :=
  broadcastInDim S4096x2x128 ![0, 1, 2] bcast_S1x1x128_S4096x2x128_0_1_2 (broadcastInDim S1x1x128 ![2] bcast_S128_S1x1x128_2 b)

/-- One graph convolution: the aggregated messages plus the bias. -/
def gcnConv (x : (⟨S4096x2x128, .f32⟩ : BufTy).Contents (Elt F)) (adj : (⟨S2x65536, .i32⟩ : BufTy).Contents (Elt F)) (W : (⟨S128x128, .f32⟩ : BufTy).Contents (Elt F)) (b : (⟨S128, .f32⟩ : BufTy).Contents (Elt F)) : (⟨S4096x2x128, .f32⟩ : BufTy).Contents (Elt F) :=
  addf (agg x adj W) (biasB b)

/-- One diffusion step: a cached operator applied along the node axis. -/
def prop (Ak : (⟨S4096x4096, .f32⟩ : BufTy).Contents (Elt F)) (x : (⟨S4096x2x128, .f32⟩ : BufTy).Contents (Elt F)) : (⟨S4096x2x128, .f32⟩ : BufTy).Contents (Elt F) :=
  Host.dotGeneral dot_S4096x4096_S4096x2x128_S4096x2x128_1_0_0_12_n_n none Ak x

/-- The reference's result as a term of its arguments: the convolution of `x`, of `A₀ x` and of `A₁ (A₀ x)`, summed. -/
def refVal (x : (⟨S4096x2x128, .f32⟩ : BufTy).Contents (Elt F)) (adj : (⟨S2x65536, .i32⟩ : BufTy).Contents (Elt F)) (A : (⟨S2x4096x4096, .f32⟩ : BufTy).Contents (Elt F)) (Ws : (⟨S3x128x128, .f32⟩ : BufTy).Contents (Elt F)) (bs : (⟨S3x128, .f32⟩ : BufTy).Contents (Elt F)) : (⟨S4096x2x128, .f32⟩ : BufTy).Contents (Elt F) :=
  addf (addf (gcnConv x adj (selW0 Ws) (selB0 bs)) (gcnConv (prop (selA0 A) x) adj (selW0 Ws) (selB0 bs)))
    (gcnConv (prop (selA1 A) (prop (selA0 A) x)) adj (selW1 Ws) (selB1 bs))

/-- The convolution of `x` (operations 1 … 82), then the first cached operator cut out of the stack (83, 84). A called function's operations stand in its call's place, over that call's buffers. -/
abbrev ops0 : List (HloOp τ sig (Elt F)) :=
  [ unary main_arg3 main_v0 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v0 main_v1 rfl shapeCasts_S1x128x128_S128x128,
    unary main_arg4 main_v2 ((extractStridedSlice S1x128 ![0, 0] · slices_S3x128_S1x128_0_0) : (⟨S3x128, .f32⟩ : BufTy).Contents (Elt F) → (⟨S1x128, .f32⟩ : BufTy).Contents (Elt F)),
    reshape main_v2 main_v3 rfl shapeCasts_S1x128_S128,
    unary main_arg1 main_v4 ((extractStridedSlice S1x65536 ![0, 0] · slices_S2x65536_S1x65536_0_0) : (⟨S2x65536, .i32⟩ : BufTy).Contents (Elt F) → (⟨S1x65536, .i32⟩ : BufTy).Contents (Elt F)),
    reshape main_v4 main_v5 rfl shapeCasts_S1x65536_S65536,
    nullary main_v6 (iotaInDim S4096 32 0),
    binary main_v5 main_v6 main_v7 (cat2 (F := F)),
    unary main_arg1 main_v8 ((extractStridedSlice S1x65536 ![1, 0] · slices_S2x65536_S1x65536_1_0) : (⟨S2x65536, .i32⟩ : BufTy).Contents (Elt F) → (⟨S1x65536, .i32⟩ : BufTy).Contents (Elt F)),
    reshape main_v8 main_v9 rfl shapeCasts_S1x65536_S65536,
    nullary main_v10 (iotaInDim S4096 32 0),
    binary main_v9 main_v10 main_v11 (cat2 (F := F)),
    nullary main_cst (constant S_ .f32 0x3F800000#32),
    unary main_cst main_v12 (broadcastInDim S69632 ![] bcast_S_S69632 : (⟨S_, .f32⟩ : BufTy).Contents (Elt F) → (⟨S69632, .f32⟩ : BufTy).Contents (Elt F)),
    nullary main_cst_0 (constant S_ .f32 0x00000000#32),
    unary main_cst_0 main_v13 (broadcastInDim S4096 ![] bcast_S_S4096 : (⟨S_, .f32⟩ : BufTy).Contents (Elt F) → (⟨S4096, .f32⟩ : BufTy).Contents (Elt F)),
    unary main_v11 main_v14 (broadcastInDim S69632x1 ![0] bcast_S69632_S69632x1_0 : (⟨S69632, .i32⟩ : BufTy).Contents (Elt F) → (⟨S69632x1, .i32⟩ : BufTy).Contents (Elt F)),
    ternary main_v13 main_v14 main_v12 main_v15 ((fun x i u => Host.scatterAdd scatter_S4096_S69632x1_S69632_n_0_0_1 x i u) : (⟨S4096, .f32⟩ : BufTy).Contents (Elt F) → (⟨S69632x1, .i32⟩ : BufTy).Contents (Elt F) → (⟨S69632, .f32⟩ : BufTy).Contents (Elt F) → (⟨S4096, .f32⟩ : BufTy).Contents (Elt F)),
    nullary main_cst_1 (constant S_ .f32 0x00000000#32),
    unary main_cst_1 main_v16 (broadcastInDim S4096 ![] bcast_S_S4096 : (⟨S_, .f32⟩ : BufTy).Contents (Elt F) → (⟨S4096, .f32⟩ : BufTy).Contents (Elt F)),
    binary main_v15 main_v16 main_v17 (cmpf .ogt : (⟨S4096, .f32⟩ : BufTy).Contents (Elt F) → (⟨S4096, .f32⟩ : BufTy).Contents (Elt F) → (⟨S4096, .i1⟩ : BufTy).Contents (Elt F)),
    nullary main_cst_2 (constant S_ .f32 0x2B8CBCCC#32),
    unary main_cst_2 main_v18 (broadcastInDim S4096 ![] bcast_S_S4096 : (⟨S_, .f32⟩ : BufTy).Contents (Elt F) → (⟨S4096, .f32⟩ : BufTy).Contents (Elt F)),
    binary main_v15 main_v18 main_v19 (maximumf : (⟨S4096, .f32⟩ : BufTy).Contents (Elt F) → (⟨S4096, .f32⟩ : BufTy).Contents (Elt F) → (⟨S4096, .f32⟩ : BufTy).Contents (Elt F)),
    unary main_v19 main_v20 (Host.rsqrt : (⟨S4096, .f32⟩ : BufTy).Contents (Elt F) → (⟨S4096, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S4096, .f32⟩) main_call0_v1) (broadcastInDim S4096 ![] bcast_S_S4096),
    TRef.ternary (TRef.of (T := ⟨S4096, .i1⟩) main_v17) (TRef.of (T := ⟨S4096, .f32⟩) main_v20) (TRef.of (T := ⟨S4096, .f32⟩) main_call0_v1) (TRef.of (T := ⟨S4096, .f32⟩) main_v21) select,
    nullary main_c (constantI S_ 32 0#32),
    unary main_c main_v22 (broadcastInDim S69632 ![] bcast_S_S69632 : (⟨S_, .i32⟩ : BufTy).Contents (Elt F) → (⟨S69632, .i32⟩ : BufTy).Contents (Elt F)),
    binary main_v7 main_v22 main_v23 (cmpi .slt : (⟨S69632, .i32⟩ : BufTy).Contents (Elt F) → (⟨S69632, .i32⟩ : BufTy).Contents (Elt F) → (⟨S69632, .i1⟩ : BufTy).Contents (Elt F)),
    nullary main_c_4 (constantI S_ 32 4096#32),
    unary main_c_4 main_v24 (broadcastInDim S69632 ![] bcast_S_S69632 : (⟨S_, .i32⟩ : BufTy).Contents (Elt F) → (⟨S69632, .i32⟩ : BufTy).Contents (Elt F)),
    binary main_v7 main_v24 main_v25 (addi : (⟨S69632, .i32⟩ : BufTy).Contents (Elt F) → (⟨S69632, .i32⟩ : BufTy).Contents (Elt F) → (⟨S69632, .i32⟩ : BufTy).Contents (Elt F)),
    ternary main_v23 main_v25 main_v7 main_v26 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F)),
    unary main_v26 main_v27 (broadcastInDim S69632x1 ![0] bcast_S69632_S69632x1_0 : (⟨S69632, .i32⟩ : BufTy).Contents (Elt F) → (⟨S69632x1, .i32⟩ : BufTy).Contents (Elt F)),
    binary main_v21 main_v27 main_v28 ((fun x i => Host.gather gather_S4096_S69632x1_S69632_n_0_n_n_0_1_1 x i) : (⟨S4096, .f32⟩ : BufTy).Contents (Elt F) → (⟨S69632x1, .i32⟩ : BufTy).Contents (Elt F) → (⟨S69632, .f32⟩ : BufTy).Contents (Elt F)),
    nullary main_c_5 (constantI S_ 32 0#32),
    unary main_c_5 main_v29 (broadcastInDim S69632 ![] bcast_S_S69632 : (⟨S_, .i32⟩ : BufTy).Contents (Elt F) → (⟨S69632, .i32⟩ : BufTy).Contents (Elt F)),
    binary main_v11 main_v29 main_v30 (cmpi .slt : (⟨S69632, .i32⟩ : BufTy).Contents (Elt F) → (⟨S69632, .i32⟩ : BufTy).Contents (Elt F) → (⟨S69632, .i1⟩ : BufTy).Contents (Elt F)),
    nullary main_c_6 (constantI S_ 32 4096#32),
    unary main_c_6 main_v31 (broadcastInDim S69632 ![] bcast_S_S69632 : (⟨S_, .i32⟩ : BufTy).Contents (Elt F) → (⟨S69632, .i32⟩ : BufTy).Contents (Elt F)),
    binary main_v11 main_v31 main_v32 (addi : (⟨S69632, .i32⟩ : BufTy).Contents (Elt F) → (⟨S69632, .i32⟩ : BufTy).Contents (Elt F) → (⟨S69632, .i32⟩ : BufTy).Contents (Elt F)),
    ternary main_v30 main_v32 main_v11 main_v33 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F)),
    unary main_v33 main_v34 (broadcastInDim S69632x1 ![0] bcast_S69632_S69632x1_0 : (⟨S69632, .i32⟩ : BufTy).Contents (Elt F) → (⟨S69632x1, .i32⟩ : BufTy).Contents (Elt F)),
    binary main_v21 main_v34 main_v35 ((fun x i => Host.gather gather_S4096_S69632x1_S69632_n_0_n_n_0_1_1 x i) : (⟨S4096, .f32⟩ : BufTy).Contents (Elt F) → (⟨S69632x1, .i32⟩ : BufTy).Contents (Elt F) → (⟨S69632, .f32⟩ : BufTy).Contents (Elt F)),
    binary main_v28 main_v35 main_v36 (mulf : (⟨S69632, .f32⟩ : BufTy).Contents (Elt F) → (⟨S69632, .f32⟩ : BufTy).Contents (Elt F) → (⟨S69632, .f32⟩ : BufTy).Contents (Elt F)),
    binary main_arg0 main_v1 main_v37 ((fun l r => Host.dotGeneral dot_S4096x2x128_S128x128_S4096x2x128_2_0_01_1_n_n none l r) : (⟨S4096x2x128, .f32⟩ : BufTy).Contents (Elt F) → (⟨S128x128, .f32⟩ : BufTy).Contents (Elt F) → (⟨S4096x2x128, .f32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S69632, .i32⟩) main_call1_v0) (broadcastInDim S69632 ![] bcast_S_S69632),
    TRef.binary (TRef.of (T := ⟨S69632, .i32⟩) main_v7) (TRef.of (T := ⟨S69632, .i32⟩) main_call1_v0) (TRef.of (T := ⟨S69632, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S69632, .i32⟩) main_call1_v2) (broadcastInDim S69632 ![] bcast_S_S69632),
    TRef.binary (TRef.of (T := ⟨S69632, .i32⟩) main_v7) (TRef.of (T := ⟨S69632, .i32⟩) main_call1_v2) (TRef.of (T := ⟨S69632, .i32⟩) main_call1_v3) addi,
    TRef.ternary (TRef.of (T := ⟨S69632, .i1⟩) main_call1_v1) (TRef.of (T := ⟨S69632, .i32⟩) main_call1_v3) (TRef.of (T := ⟨S69632, .i32⟩) main_v7) (TRef.of (T := ⟨S69632, .i32⟩) main_call1_v4) select,
    TRef.unary (TRef.of (T := ⟨S69632, .i32⟩) main_call1_v4) (TRef.of (T := ⟨S69632x1, .i32⟩) main_call1_v5) (broadcastInDim S69632x1 ![0] bcast_S69632_S69632x1_0),
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S69632x1, .i32⟩) main_call1_v6) (broadcastInDim S69632x1 ![] bcast_S_S69632x1),
    TRef.binary (TRef.of (T := ⟨S69632x1, .i32⟩) main_call1_v5) (TRef.of (T := ⟨S69632x1, .i32⟩) main_call1_v6) (TRef.of (T := ⟨S69632x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S69632x1, .i32⟩) main_call1_v9) (broadcastInDim S69632x1 ![0, 1] bcast_S1x1_S69632x1_0_1),
    TRef.binary (TRef.of (T := ⟨S69632x1, .i32⟩) main_call1_v5) (TRef.of (T := ⟨S69632x1, .i32⟩) main_call1_v9) (TRef.of (T := ⟨S69632x1, .i1⟩) main_call1_v10) (cmpi .sle),
    TRef.binary (TRef.of (T := ⟨S69632x1, .i1⟩) main_call1_v7) (TRef.of (T := ⟨S69632x1, .i1⟩) main_call1_v10) (TRef.of (T := ⟨S69632x1, .i1⟩) main_call1_v11) andi,
    TRef.nullary (TRef.of (T := ⟨S_, .i1⟩) main_call1_c_3) (constantI S_ 1 1#1),
    TRef.binary (TRef.of (T := ⟨S69632x1, .i1⟩) main_call1_v11) (TRef.of (T := ⟨S_, .i1⟩) main_call1_c_3) (TRef.of (T := ⟨S69632, .i1⟩) main_call1_v12) (fun x v => Host.reduce IntOp.andi x v reducesTo_S69632x1_S69632_d1 h_S_),
    TRef.binary (TRef.of (T := ⟨S4096x2x128, .f32⟩) main_v37) (TRef.of (T := ⟨S69632x1, .i32⟩) main_call1_v5) (TRef.of (T := ⟨S69632x2x128, .f32⟩) main_call1_v13) (fun x i => Host.gather gather_S4096x2x128_S69632x1_S69632x2x128_12_0_n_n_0_1_12128 x i),
    TRef.unary (TRef.of (T := ⟨S69632, .i1⟩) main_call1_v12) (TRef.of (T := ⟨S69632x2x128, .i1⟩) main_call1_v14) (broadcastInDim S69632x2x128 ![0] bcast_S69632_S69632x2x128_0),
    TRef.nullary (TRef.of (T := ⟨S_, .f32⟩) main_call1_cst) (constant S_ .f32 0x7FC00000#32),
    TRef.unary (TRef.of (T := ⟨S_, .f32⟩) main_call1_cst) (TRef.of (T := ⟨S69632x2x128, .f32⟩) main_call1_v15) (broadcastInDim S69632x2x128 ![] bcast_S_S69632x2x128),
    TRef.ternary (TRef.of (T := ⟨S69632x2x128, .i1⟩) main_call1_v14) (TRef.of (T := ⟨S69632x2x128, .f32⟩) main_call1_v13) (TRef.of (T := ⟨S69632x2x128, .f32⟩) main_call1_v15) (TRef.of (T := ⟨S69632x2x128, .f32⟩) main_v38) select,
    unary main_v36 main_v39 (broadcastInDim S69632x1x1 ![0] bcast_S69632_S69632x1x1_0 : (⟨S69632, .f32⟩ : BufTy).Contents (Elt F) → (⟨S69632x1x1, .f32⟩ : BufTy).Contents (Elt F)),
    unary main_v39 main_v40 (broadcastInDim S69632x2x128 ![0, 1, 2] bcast_S69632x1x1_S69632x2x128_0_1_2 : (⟨S69632x1x1, .f32⟩ : BufTy).Contents (Elt F) → (⟨S69632x2x128, .f32⟩ : BufTy).Contents (Elt F)),
    binary main_v38 main_v40 main_v41 (mulf : (⟨S69632x2x128, .f32⟩ : BufTy).Contents (Elt F) → (⟨S69632x2x128, .f32⟩ : BufTy).Contents (Elt F) → (⟨S69632x2x128, .f32⟩ : BufTy).Contents (Elt F)),
    nullary main_cst_7 (constant S_ .f32 0x00000000#32),
    unary main_cst_7 main_v42 (broadcastInDim S4096x2x128 ![] bcast_S_S4096x2x128 : (⟨S_, .f32⟩ : BufTy).Contents (Elt F) → (⟨S4096x2x128, .f32⟩ : BufTy).Contents (Elt F)),
    unary main_v11 main_v43 (broadcastInDim S69632x1 ![0] bcast_S69632_S69632x1_0 : (⟨S69632, .i32⟩ : BufTy).Contents (Elt F) → (⟨S69632x1, .i32⟩ : BufTy).Contents (Elt F)),
    ternary main_v42 main_v43 main_v41 main_v44 ((fun x i u => Host.scatterAdd scatter_S4096x2x128_S69632x1_S69632x2x128_12_0_0_1 x i u) : (⟨S4096x2x128, .f32⟩ : BufTy).Contents (Elt F) → (⟨S69632x1, .i32⟩ : BufTy).Contents (Elt F) → (⟨S69632x2x128, .f32⟩ : BufTy).Contents (Elt F) → (⟨S4096x2x128, .f32⟩ : BufTy).Contents (Elt F)),
    unary main_v3 main_v45 (broadcastInDim S1x1x128 ![2] bcast_S128_S1x1x128_2 : (⟨S128, .f32⟩ : BufTy).Contents (Elt F) → (⟨S1x1x128, .f32⟩ : BufTy).Contents (Elt F)),
    unary main_v45 main_v46 (broadcastInDim S4096x2x128 ![0, 1, 2] bcast_S1x1x128_S4096x2x128_0_1_2 : (⟨S1x1x128, .f32⟩ : BufTy).Contents (Elt F) → (⟨S4096x2x128, .f32⟩ : BufTy).Contents (Elt F)),
    binary main_v44 main_v46 main_v47 (addf : (⟨S4096x2x128, .f32⟩ : BufTy).Contents (Elt F) → (⟨S4096x2x128, .f32⟩ : BufTy).Contents (Elt F) → (⟨S4096x2x128, .f32⟩ : BufTy).Contents (Elt F)),
    unary main_arg2 main_v48 ((extractStridedSlice S1x4096x4096 ![0, 0, 0] · slices_S2x4096x4096_S1x4096x4096_0_0_0) : (⟨S2x4096x4096, .f32⟩ : BufTy).Contents (Elt F) → (⟨S1x4096x4096, .f32⟩ : BufTy).Contents (Elt F)),
    reshape main_v48 main_v49 rfl shapeCasts_S1x4096x4096_S4096x4096 ]

/-- `A₀ x` (operation 85), its convolution (86 … 167) and the first sum (168). A called function's operations stand in its call's place, over that call's buffers. -/
abbrev ops1 : List (HloOp τ sig (Elt F)) :=
  [ binary main_v49 main_arg0 main_v50 ((fun l r => Host.dotGeneral dot_S4096x4096_S4096x2x128_S4096x2x128_1_0_0_12_n_n none l r) : (⟨S4096x4096, .f32⟩ : BufTy).Contents (Elt F) → (⟨S4096x2x128, .f32⟩ : BufTy).Contents (Elt F) → (⟨S4096x2x128, .f32⟩ : BufTy).Contents (Elt F)),
    unary main_arg3 main_v51 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v51 main_v52 rfl shapeCasts_S1x128x128_S128x128,
    unary main_arg4 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    unary main_arg1 main_v55 ((extractStridedSlice S1x65536 ![0, 0] · slices_S2x65536_S1x65536_0_0) : (⟨S2x65536, .i32⟩ : BufTy).Contents (Elt F) → (⟨S1x65536, .i32⟩ : BufTy).Contents (Elt F)),
    reshape main_v55 main_v56 rfl shapeCasts_S1x65536_S65536,
    nullary main_v57 (iotaInDim S4096 32 0),
    binary main_v56 main_v57 main_v58 (cat2 (F := F)),
    unary main_arg1 main_v59 ((extractStridedSlice S1x65536 ![1, 0] · slices_S2x65536_S1x65536_1_0) : (⟨S2x65536, .i32⟩ : BufTy).Contents (Elt F) → (⟨S1x65536, .i32⟩ : BufTy).Contents (Elt F)),
    reshape main_v59 main_v60 rfl shapeCasts_S1x65536_S65536,
    nullary main_v61 (iotaInDim S4096 32 0),
    binary main_v60 main_v61 main_v62 (cat2 (F := F)),
    nullary main_cst_8 (constant S_ .f32 0x3F800000#32),
    unary main_cst_8 main_v63 (broadcastInDim S69632 ![] bcast_S_S69632 : (⟨S_, .f32⟩ : BufTy).Contents (Elt F) → (⟨S69632, .f32⟩ : BufTy).Contents (Elt F)),
    nullary main_cst_9 (constant S_ .f32 0x00000000#32),
    unary main_cst_9 main_v64 (broadcastInDim S4096 ![] bcast_S_S4096 : (⟨S_, .f32⟩ : BufTy).Contents (Elt F) → (⟨S4096, .f32⟩ : BufTy).Contents (Elt F)),
    unary main_v62 main_v65 (broadcastInDim S69632x1 ![0] bcast_S69632_S69632x1_0 : (⟨S69632, .i32⟩ : BufTy).Contents (Elt F) → (⟨S69632x1, .i32⟩ : BufTy).Contents (Elt F)),
    ternary main_v64 main_v65 main_v63 main_v66 ((fun x i u => Host.scatterAdd scatter_S4096_S69632x1_S69632_n_0_0_1 x i u) : (⟨S4096, .f32⟩ : BufTy).Contents (Elt F) → (⟨S69632x1, .i32⟩ : BufTy).Contents (Elt F) → (⟨S69632, .f32⟩ : BufTy).Contents (Elt F) → (⟨S4096, .f32⟩ : BufTy).Contents (Elt F)),
    nullary main_cst_10 (constant S_ .f32 0x00000000#32),
    unary main_cst_10 main_v67 (broadcastInDim S4096 ![] bcast_S_S4096 : (⟨S_, .f32⟩ : BufTy).Contents (Elt F) → (⟨S4096, .f32⟩ : BufTy).Contents (Elt F)),
    binary main_v66 main_v67 main_v68 (cmpf .ogt : (⟨S4096, .f32⟩ : BufTy).Contents (Elt F) → (⟨S4096, .f32⟩ : BufTy).Contents (Elt F) → (⟨S4096, .i1⟩ : BufTy).Contents (Elt F)),
    nullary main_cst_11 (constant S_ .f32 0x2B8CBCCC#32),
    unary main_cst_11 main_v69 (broadcastInDim S4096 ![] bcast_S_S4096 : (⟨S_, .f32⟩ : BufTy).Contents (Elt F) → (⟨S4096, .f32⟩ : BufTy).Contents (Elt F)),
    binary main_v66 main_v69 main_v70 (maximumf : (⟨S4096, .f32⟩ : BufTy).Contents (Elt F) → (⟨S4096, .f32⟩ : BufTy).Contents (Elt F) → (⟨S4096, .f32⟩ : BufTy).Contents (Elt F)),
    unary main_v70 main_v71 (Host.rsqrt : (⟨S4096, .f32⟩ : BufTy).Contents (Elt F) → (⟨S4096, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S4096, .f32⟩) main_call2_v1) (broadcastInDim S4096 ![] bcast_S_S4096),
    TRef.ternary (TRef.of (T := ⟨S4096, .i1⟩) main_v68) (TRef.of (T := ⟨S4096, .f32⟩) main_v71) (TRef.of (T := ⟨S4096, .f32⟩) main_call2_v1) (TRef.of (T := ⟨S4096, .f32⟩) main_v72) select,
    nullary main_c_13 (constantI S_ 32 0#32),
    unary main_c_13 main_v73 (broadcastInDim S69632 ![] bcast_S_S69632 : (⟨S_, .i32⟩ : BufTy).Contents (Elt F) → (⟨S69632, .i32⟩ : BufTy).Contents (Elt F)),
    binary main_v58 main_v73 main_v74 (cmpi .slt : (⟨S69632, .i32⟩ : BufTy).Contents (Elt F) → (⟨S69632, .i32⟩ : BufTy).Contents (Elt F) → (⟨S69632, .i1⟩ : BufTy).Contents (Elt F)),
    nullary main_c_14 (constantI S_ 32 4096#32),
    unary main_c_14 main_v75 (broadcastInDim S69632 ![] bcast_S_S69632 : (⟨S_, .i32⟩ : BufTy).Contents (Elt F) → (⟨S69632, .i32⟩ : BufTy).Contents (Elt F)),
    binary main_v58 main_v75 main_v76 (addi : (⟨S69632, .i32⟩ : BufTy).Contents (Elt F) → (⟨S69632, .i32⟩ : BufTy).Contents (Elt F) → (⟨S69632, .i32⟩ : BufTy).Contents (Elt F)),
    ternary main_v74 main_v76 main_v58 main_v77 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F)),
    unary main_v77 main_v78 (broadcastInDim S69632x1 ![0] bcast_S69632_S69632x1_0 : (⟨S69632, .i32⟩ : BufTy).Contents (Elt F) → (⟨S69632x1, .i32⟩ : BufTy).Contents (Elt F)),
    binary main_v72 main_v78 main_v79 ((fun x i => Host.gather gather_S4096_S69632x1_S69632_n_0_n_n_0_1_1 x i) : (⟨S4096, .f32⟩ : BufTy).Contents (Elt F) → (⟨S69632x1, .i32⟩ : BufTy).Contents (Elt F) → (⟨S69632, .f32⟩ : BufTy).Contents (Elt F)),
    nullary main_c_15 (constantI S_ 32 0#32),
    unary main_c_15 main_v80 (broadcastInDim S69632 ![] bcast_S_S69632 : (⟨S_, .i32⟩ : BufTy).Contents (Elt F) → (⟨S69632, .i32⟩ : BufTy).Contents (Elt F)),
    binary main_v62 main_v80 main_v81 (cmpi .slt : (⟨S69632, .i32⟩ : BufTy).Contents (Elt F) → (⟨S69632, .i32⟩ : BufTy).Contents (Elt F) → (⟨S69632, .i1⟩ : BufTy).Contents (Elt F)),
    nullary main_c_16 (constantI S_ 32 4096#32),
    unary main_c_16 main_v82 (broadcastInDim S69632 ![] bcast_S_S69632 : (⟨S_, .i32⟩ : BufTy).Contents (Elt F) → (⟨S69632, .i32⟩ : BufTy).Contents (Elt F)),
    binary main_v62 main_v82 main_v83 (addi : (⟨S69632, .i32⟩ : BufTy).Contents (Elt F) → (⟨S69632, .i32⟩ : BufTy).Contents (Elt F) → (⟨S69632, .i32⟩ : BufTy).Contents (Elt F)),
    ternary main_v81 main_v83 main_v62 main_v84 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F)),
    unary main_v84 main_v85 (broadcastInDim S69632x1 ![0] bcast_S69632_S69632x1_0 : (⟨S69632, .i32⟩ : BufTy).Contents (Elt F) → (⟨S69632x1, .i32⟩ : BufTy).Contents (Elt F)),
    binary main_v72 main_v85 main_v86 ((fun x i => Host.gather gather_S4096_S69632x1_S69632_n_0_n_n_0_1_1 x i) : (⟨S4096, .f32⟩ : BufTy).Contents (Elt F) → (⟨S69632x1, .i32⟩ : BufTy).Contents (Elt F) → (⟨S69632, .f32⟩ : BufTy).Contents (Elt F)),
    binary main_v79 main_v86 main_v87 (mulf : (⟨S69632, .f32⟩ : BufTy).Contents (Elt F) → (⟨S69632, .f32⟩ : BufTy).Contents (Elt F) → (⟨S69632, .f32⟩ : BufTy).Contents (Elt F)),
    binary main_v50 main_v52 main_v88 ((fun l r => Host.dotGeneral dot_S4096x2x128_S128x128_S4096x2x128_2_0_01_1_n_n none l r) : (⟨S4096x2x128, .f32⟩ : BufTy).Contents (Elt F) → (⟨S128x128, .f32⟩ : BufTy).Contents (Elt F) → (⟨S4096x2x128, .f32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S69632, .i32⟩) main_call3_v0) (broadcastInDim S69632 ![] bcast_S_S69632),
    TRef.binary (TRef.of (T := ⟨S69632, .i32⟩) main_v58) (TRef.of (T := ⟨S69632, .i32⟩) main_call3_v0) (TRef.of (T := ⟨S69632, .i1⟩) main_call3_v1) (cmpi .slt),
    TRef.nullary (TRef.of (T := ⟨S_, .i32⟩) main_call3_c_0) (constantI S_ 32 4096#32),
    TRef.unary (TRef.of (T := ⟨S_, .i32⟩) main_call3_c_0) (TRef.of (T := ⟨S69632, .i32⟩) main_call3_v2) (broadcastInDim S69632 ![] bcast_S_S69632),
    TRef.binary (TRef.of (T := ⟨S69632, .i32⟩) main_v58) (TRef.of (T := ⟨S69632, .i32⟩) main_call3_v2) (TRef.of (T := ⟨S69632, .i32⟩) main_call3_v3) addi,
    TRef.ternary (TRef.of (T := ⟨S69632, .i1⟩) main_call3_v1) (TRef.of (T := ⟨S69632, .i32⟩) main_call3_v3) (TRef.of (T := ⟨S69632, .i32⟩) main_v58) (TRef.of (T := ⟨S69632, .i32⟩) main_call3_v4) select,
    TRef.unary (TRef.of (T := ⟨S69632, .i32⟩) main_call3_v4) (TRef.of (T := ⟨S69632x1, .i32⟩) main_call3_v5) (broadcastInDim S69632x1 ![0] bcast_S69632_S69632x1_0),
    TRef.nullary (TRef.of (T := ⟨S1, .i32⟩) main_call3_c_1) (constantI S1 32 4095#32),
    TRef.nullary (TRef.of (T := ⟨S_, .i32⟩) main_call3_c_2) (constantI S_ 32 0#32),
    TRef.unary (TRef.of (T := ⟨S_, .i32⟩) main_call3_c_2) (TRef.of (T := ⟨S69632x1, .i32⟩) main_call3_v6) (broadcastInDim S69632x1 ![] bcast_S_S69632x1),
    TRef.binary (TRef.of (T := ⟨S69632x1, .i32⟩) main_call3_v5) (TRef.of (T := ⟨S69632x1, .i32⟩) main_call3_v6) (TRef.of (T := ⟨S69632x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S69632x1, .i32⟩) main_call3_v9) (broadcastInDim S69632x1 ![0, 1] bcast_S1x1_S69632x1_0_1),
    TRef.binary (TRef.of (T := ⟨S69632x1, .i32⟩) main_call3_v5) (TRef.of (T := ⟨S69632x1, .i32⟩) main_call3_v9) (TRef.of (T := ⟨S69632x1, .i1⟩) main_call3_v10) (cmpi .sle),
    TRef.binary (TRef.of (T := ⟨S69632x1, .i1⟩) main_call3_v7) (TRef.of (T := ⟨S69632x1, .i1⟩) main_call3_v10) (TRef.of (T := ⟨S69632x1, .i1⟩) main_call3_v11) andi,
    TRef.nullary (TRef.of (T := ⟨S_, .i1⟩) main_call3_c_3) (constantI S_ 1 1#1),
    TRef.binary (TRef.of (T := ⟨S69632x1, .i1⟩) main_call3_v11) (TRef.of (T := ⟨S_, .i1⟩) main_call3_c_3) (TRef.of (T := ⟨S69632, .i1⟩) main_call3_v12) (fun x v => Host.reduce IntOp.andi x v reducesTo_S69632x1_S69632_d1 h_S_),
    TRef.binary (TRef.of (T := ⟨S4096x2x128, .f32⟩) main_v88) (TRef.of (T := ⟨S69632x1, .i32⟩) main_call3_v5) (TRef.of (T := ⟨S69632x2x128, .f32⟩) main_call3_v13) (fun x i => Host.gather gather_S4096x2x128_S69632x1_S69632x2x128_12_0_n_n_0_1_12128 x i),
    TRef.unary (TRef.of (T := ⟨S69632, .i1⟩) main_call3_v12) (TRef.of (T := ⟨S69632x2x128, .i1⟩) main_call3_v14) (broadcastInDim S69632x2x128 ![0] bcast_S69632_S69632x2x128_0),
    TRef.nullary (TRef.of (T := ⟨S_, .f32⟩) main_call3_cst) (constant S_ .f32 0x7FC00000#32),
    TRef.unary (TRef.of (T := ⟨S_, .f32⟩) main_call3_cst) (TRef.of (T := ⟨S69632x2x128, .f32⟩) main_call3_v15) (broadcastInDim S69632x2x128 ![] bcast_S_S69632x2x128),
    TRef.ternary (TRef.of (T := ⟨S69632x2x128, .i1⟩) main_call3_v14) (TRef.of (T := ⟨S69632x2x128, .f32⟩) main_call3_v13) (TRef.of (T := ⟨S69632x2x128, .f32⟩) main_call3_v15) (TRef.of (T := ⟨S69632x2x128, .f32⟩) main_v89) select,
    unary main_v87 main_v90 (broadcastInDim S69632x1x1 ![0] bcast_S69632_S69632x1x1_0 : (⟨S69632, .f32⟩ : BufTy).Contents (Elt F) → (⟨S69632x1x1, .f32⟩ : BufTy).Contents (Elt F)),
    unary main_v90 main_v91 (broadcastInDim S69632x2x128 ![0, 1, 2] bcast_S69632x1x1_S69632x2x128_0_1_2 : (⟨S69632x1x1, .f32⟩ : BufTy).Contents (Elt F) → (⟨S69632x2x128, .f32⟩ : BufTy).Contents (Elt F)),
    binary main_v89 main_v91 main_v92 (mulf : (⟨S69632x2x128, .f32⟩ : BufTy).Contents (Elt F) → (⟨S69632x2x128, .f32⟩ : BufTy).Contents (Elt F) → (⟨S69632x2x128, .f32⟩ : BufTy).Contents (Elt F)),
    nullary main_cst_17 (constant S_ .f32 0x00000000#32),
    unary main_cst_17 main_v93 (broadcastInDim S4096x2x128 ![] bcast_S_S4096x2x128 : (⟨S_, .f32⟩ : BufTy).Contents (Elt F) → (⟨S4096x2x128, .f32⟩ : BufTy).Contents (Elt F)),
    unary main_v62 main_v94 (broadcastInDim S69632x1 ![0] bcast_S69632_S69632x1_0 : (⟨S69632, .i32⟩ : BufTy).Contents (Elt F) → (⟨S69632x1, .i32⟩ : BufTy).Contents (Elt F)),
    ternary main_v93 main_v94 main_v92 main_v95 ((fun x i u => Host.scatterAdd scatter_S4096x2x128_S69632x1_S69632x2x128_12_0_0_1 x i u) : (⟨S4096x2x128, .f32⟩ : BufTy).Contents (Elt F) → (⟨S69632x1, .i32⟩ : BufTy).Contents (Elt F) → (⟨S69632x2x128, .f32⟩ : BufTy).Contents (Elt F) → (⟨S4096x2x128, .f32⟩ : BufTy).Contents (Elt F)),
    unary main_v54 main_v96 (broadcastInDim S1x1x128 ![2] bcast_S128_S1x1x128_2 : (⟨S128, .f32⟩ : BufTy).Contents (Elt F) → (⟨S1x1x128, .f32⟩ : BufTy).Contents (Elt F)),
    unary main_v96 main_v97 (broadcastInDim S4096x2x128 ![0, 1, 2] bcast_S1x1x128_S4096x2x128_0_1_2 : (⟨S1x1x128, .f32⟩ : BufTy).Contents (Elt F) → (⟨S4096x2x128, .f32⟩ : BufTy).Contents (Elt F)),
    binary main_v95 main_v97 main_v98 (addf : (⟨S4096x2x128, .f32⟩ : BufTy).Contents (Elt F) → (⟨S4096x2x128, .f32⟩ : BufTy).Contents (Elt F) → (⟨S4096x2x128, .f32⟩ : BufTy).Contents (Elt F)),
    binary main_v47 main_v98 main_v99 (addf : (⟨S4096x2x128, .f32⟩ : BufTy).Contents (Elt F) → (⟨S4096x2x128, .f32⟩ : BufTy).Contents (Elt F) → (⟨S4096x2x128, .f32⟩ : BufTy).Contents (Elt F)) ]

/-- The second cached operator and `A₁ (A₀ x)` (operations 169 … 171), then that array's convolution up to its bias (172 … 252). A called function's operations stand in its call's place, over that call's buffers. -/
abbrev ops2 : List (HloOp τ sig (Elt F)) :=
  [ unary main_arg2 main_v100 ((extractStridedSlice S1x4096x4096 ![1, 0, 0] · slices_S2x4096x4096_S1x4096x4096_1_0_0) : (⟨S2x4096x4096, .f32⟩ : BufTy).Contents (Elt F) → (⟨S1x4096x4096, .f32⟩ : BufTy).Contents (Elt F)),
    reshape main_v100 main_v101 rfl shapeCasts_S1x4096x4096_S4096x4096,
    binary main_v101 main_v50 main_v102 ((fun l r => Host.dotGeneral dot_S4096x4096_S4096x2x128_S4096x2x128_1_0_0_12_n_n none l r) : (⟨S4096x4096, .f32⟩ : BufTy).Contents (Elt F) → (⟨S4096x2x128, .f32⟩ : BufTy).Contents (Elt F) → (⟨S4096x2x128, .f32⟩ : BufTy).Contents (Elt F)),
    unary main_arg3 main_v103 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v103 main_v104 rfl shapeCasts_S1x128x128_S128x128,
    unary main_arg4 main_v105 ((extractStridedSlice S1x128 ![1, 0] · slices_S3x128_S1x128_1_0) : (⟨S3x128, .f32⟩ : BufTy).Contents (Elt F) → (⟨S1x128, .f32⟩ : BufTy).Contents (Elt F)),
    reshape main_v105 main_v106 rfl shapeCasts_S1x128_S128,
    unary main_arg1 main_v107 ((extractStridedSlice S1x65536 ![0, 0] · slices_S2x65536_S1x65536_0_0) : (⟨S2x65536, .i32⟩ : BufTy).Contents (Elt F) → (⟨S1x65536, .i32⟩ : BufTy).Contents (Elt F)),
    reshape main_v107 main_v108 rfl shapeCasts_S1x65536_S65536,
    nullary main_v109 (iotaInDim S4096 32 0),
    binary main_v108 main_v109 main_v110 (cat2 (F := F)),
    unary main_arg1 main_v111 ((extractStridedSlice S1x65536 ![1, 0] · slices_S2x65536_S1x65536_1_0) : (⟨S2x65536, .i32⟩ : BufTy).Contents (Elt F) → (⟨S1x65536, .i32⟩ : BufTy).Contents (Elt F)),
    reshape main_v111 main_v112 rfl shapeCasts_S1x65536_S65536,
    nullary main_v113 (iotaInDim S4096 32 0),
    binary main_v112 main_v113 main_v114 (cat2 (F := F)),
    nullary main_cst_18 (constant S_ .f32 0x3F800000#32),
    unary main_cst_18 main_v115 (broadcastInDim S69632 ![] bcast_S_S69632 : (⟨S_, .f32⟩ : BufTy).Contents (Elt F) → (⟨S69632, .f32⟩ : BufTy).Contents (Elt F)),
    nullary main_cst_19 (constant S_ .f32 0x00000000#32),
    unary main_cst_19 main_v116 (broadcastInDim S4096 ![] bcast_S_S4096 : (⟨S_, .f32⟩ : BufTy).Contents (Elt F) → (⟨S4096, .f32⟩ : BufTy).Contents (Elt F)),
    unary main_v114 main_v117 (broadcastInDim S69632x1 ![0] bcast_S69632_S69632x1_0 : (⟨S69632, .i32⟩ : BufTy).Contents (Elt F) → (⟨S69632x1, .i32⟩ : BufTy).Contents (Elt F)),
    ternary main_v116 main_v117 main_v115 main_v118 ((fun x i u => Host.scatterAdd scatter_S4096_S69632x1_S69632_n_0_0_1 x i u) : (⟨S4096, .f32⟩ : BufTy).Contents (Elt F) → (⟨S69632x1, .i32⟩ : BufTy).Contents (Elt F) → (⟨S69632, .f32⟩ : BufTy).Contents (Elt F) → (⟨S4096, .f32⟩ : BufTy).Contents (Elt F)),
    nullary main_cst_20 (constant S_ .f32 0x00000000#32),
    unary main_cst_20 main_v119 (broadcastInDim S4096 ![] bcast_S_S4096 : (⟨S_, .f32⟩ : BufTy).Contents (Elt F) → (⟨S4096, .f32⟩ : BufTy).Contents (Elt F)),
    binary main_v118 main_v119 main_v120 (cmpf .ogt : (⟨S4096, .f32⟩ : BufTy).Contents (Elt F) → (⟨S4096, .f32⟩ : BufTy).Contents (Elt F) → (⟨S4096, .i1⟩ : BufTy).Contents (Elt F)),
    nullary main_cst_21 (constant S_ .f32 0x2B8CBCCC#32),
    unary main_cst_21 main_v121 (broadcastInDim S4096 ![] bcast_S_S4096 : (⟨S_, .f32⟩ : BufTy).Contents (Elt F) → (⟨S4096, .f32⟩ : BufTy).Contents (Elt F)),
    binary main_v118 main_v121 main_v122 (maximumf : (⟨S4096, .f32⟩ : BufTy).Contents (Elt F) → (⟨S4096, .f32⟩ : BufTy).Contents (Elt F) → (⟨S4096, .f32⟩ : BufTy).Contents (Elt F)),
    unary main_v122 main_v123 (Host.rsqrt : (⟨S4096, .f32⟩ : BufTy).Contents (Elt F) → (⟨S4096, .f32⟩ : BufTy).Contents (Elt F)),
    nullary main_cst_22 (constant S_ .f32 0x00000000#32),
    TRef.unary (TRef.of (T := ⟨S_, .f32⟩) main_cst_22) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v120) (TRef.of (T := ⟨S4096, .f32⟩) main_v123) (TRef.of (T := ⟨S4096, .f32⟩) main_call4_v1) (TRef.of (T := ⟨S4096, .f32⟩) main_v124) select,
    nullary main_c_23 (constantI S_ 32 0#32),
    unary main_c_23 main_v125 (broadcastInDim S69632 ![] bcast_S_S69632 : (⟨S_, .i32⟩ : BufTy).Contents (Elt F) → (⟨S69632, .i32⟩ : BufTy).Contents (Elt F)),
    binary main_v110 main_v125 main_v126 (cmpi .slt : (⟨S69632, .i32⟩ : BufTy).Contents (Elt F) → (⟨S69632, .i32⟩ : BufTy).Contents (Elt F) → (⟨S69632, .i1⟩ : BufTy).Contents (Elt F)),
    nullary main_c_24 (constantI S_ 32 4096#32),
    unary main_c_24 main_v127 (broadcastInDim S69632 ![] bcast_S_S69632 : (⟨S_, .i32⟩ : BufTy).Contents (Elt F) → (⟨S69632, .i32⟩ : BufTy).Contents (Elt F)),
    binary main_v110 main_v127 main_v128 (addi : (⟨S69632, .i32⟩ : BufTy).Contents (Elt F) → (⟨S69632, .i32⟩ : BufTy).Contents (Elt F) → (⟨S69632, .i32⟩ : BufTy).Contents (Elt F)),
    ternary main_v126 main_v128 main_v110 main_v129 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F)),
    unary main_v129 main_v130 (broadcastInDim S69632x1 ![0] bcast_S69632_S69632x1_0 : (⟨S69632, .i32⟩ : BufTy).Contents (Elt F) → (⟨S69632x1, .i32⟩ : BufTy).Contents (Elt F)),
    binary main_v124 main_v130 main_v131 ((fun x i => Host.gather gather_S4096_S69632x1_S69632_n_0_n_n_0_1_1 x i) : (⟨S4096, .f32⟩ : BufTy).Contents (Elt F) → (⟨S69632x1, .i32⟩ : BufTy).Contents (Elt F) → (⟨S69632, .f32⟩ : BufTy).Contents (Elt F)),
    nullary main_c_25 (constantI S_ 32 0#32),
    unary main_c_25 main_v132 (broadcastInDim S69632 ![] bcast_S_S69632 : (⟨S_, .i32⟩ : BufTy).Contents (Elt F) → (⟨S69632, .i32⟩ : BufTy).Contents (Elt F)),
    binary main_v114 main_v132 main_v133 (cmpi .slt : (⟨S69632, .i32⟩ : BufTy).Contents (Elt F) → (⟨S69632, .i32⟩ : BufTy).Contents (Elt F) → (⟨S69632, .i1⟩ : BufTy).Contents (Elt F)),
    nullary main_c_26 (constantI S_ 32 4096#32),
    unary main_c_26 main_v134 (broadcastInDim S69632 ![] bcast_S_S69632 : (⟨S_, .i32⟩ : BufTy).Contents (Elt F) → (⟨S69632, .i32⟩ : BufTy).Contents (Elt F)),
    binary main_v114 main_v134 main_v135 (addi : (⟨S69632, .i32⟩ : BufTy).Contents (Elt F) → (⟨S69632, .i32⟩ : BufTy).Contents (Elt F) → (⟨S69632, .i32⟩ : BufTy).Contents (Elt F)),
    ternary main_v133 main_v135 main_v114 main_v136 (select : (⟨S69632, .i1⟩ : BufTy).Contents (Elt F) → (⟨S69632, .i32⟩ : BufTy).Contents (Elt F) → (⟨S69632, .i32⟩ : BufTy).Contents (Elt F) → (⟨S69632, .i32⟩ : BufTy).Contents (Elt F)),
    unary main_v136 main_v137 (broadcastInDim S69632x1 ![0] bcast_S69632_S69632x1_0 : (⟨S69632, .i32⟩ : BufTy).Contents (Elt F) → (⟨S69632x1, .i32⟩ : BufTy).Contents (Elt F)),
    binary main_v124 main_v137 main_v138 ((fun x i => Host.gather gather_S4096_S69632x1_S69632_n_0_n_n_0_1_1 x i) : (⟨S4096, .f32⟩ : BufTy).Contents (Elt F) → (⟨S69632x1, .i32⟩ : BufTy).Contents (Elt F) → (⟨S69632, .f32⟩ : BufTy).Contents (Elt F)),
    binary main_v131 main_v138 main_v139 (mulf : (⟨S69632, .f32⟩ : BufTy).Contents (Elt F) → (⟨S69632, .f32⟩ : BufTy).Contents (Elt F) → (⟨S69632, .f32⟩ : BufTy).Contents (Elt F)),
    binary main_v102 main_v104 main_v140 ((fun l r => Host.dotGeneral dot_S4096x2x128_S128x128_S4096x2x128_2_0_01_1_n_n none l r) : (⟨S4096x2x128, .f32⟩ : BufTy).Contents (Elt F) → (⟨S128x128, .f32⟩ : BufTy).Contents (Elt F) → (⟨S4096x2x128, .f32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S69632, .i32⟩) main_call5_v0) (broadcastInDim S69632 ![] bcast_S_S69632),
    TRef.binary (TRef.of (T := ⟨S69632, .i32⟩) main_v110) (TRef.of (T := ⟨S69632, .i32⟩) main_call5_v0) (TRef.of (T := ⟨S69632, .i1⟩) main_call5_v1) (cmpi .slt),
    TRef.nullary (TRef.of (T := ⟨S_, .i32⟩) main_call5_c_0) (constantI S_ 32 4096#32),
    TRef.unary (TRef.of (T := ⟨S_, .i32⟩) main_call5_c_0) (TRef.of (T := ⟨S69632, .i32⟩) main_call5_v2) (broadcastInDim S69632 ![] bcast_S_S69632),
    TRef.binary (TRef.of (T := ⟨S69632, .i32⟩) main_v110) (TRef.of (T := ⟨S69632, .i32⟩) main_call5_v2) (TRef.of (T := ⟨S69632, .i32⟩) main_call5_v3) addi,
    TRef.ternary (TRef.of (T := ⟨S69632, .i1⟩) main_call5_v1) (TRef.of (T := ⟨S69632, .i32⟩) main_call5_v3) (TRef.of (T := ⟨S69632, .i32⟩) main_v110) (TRef.of (T := ⟨S69632, .i32⟩) main_call5_v4) select,
    TRef.unary (TRef.of (T := ⟨S69632, .i32⟩) main_call5_v4) (TRef.of (T := ⟨S69632x1, .i32⟩) main_call5_v5) (broadcastInDim S69632x1 ![0] bcast_S69632_S69632x1_0),
    TRef.nullary (TRef.of (T := ⟨S1, .i32⟩) main_call5_c_1) (constantI S1 32 4095#32),
    TRef.nullary (TRef.of (T := ⟨S_, .i32⟩) main_call5_c_2) (constantI S_ 32 0#32),
    TRef.unary (TRef.of (T := ⟨S_, .i32⟩) main_call5_c_2) (TRef.of (T := ⟨S69632x1, .i32⟩) main_call5_v6) (broadcastInDim S69632x1 ![] bcast_S_S69632x1),
    TRef.binary (TRef.of (T := ⟨S69632x1, .i32⟩) main_call5_v5) (TRef.of (T := ⟨S69632x1, .i32⟩) main_call5_v6) (TRef.of (T := ⟨S69632x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S69632x1, .i32⟩) main_call5_v9) (broadcastInDim S69632x1 ![0, 1] bcast_S1x1_S69632x1_0_1),
    TRef.binary (TRef.of (T := ⟨S69632x1, .i32⟩) main_call5_v5) (TRef.of (T := ⟨S69632x1, .i32⟩) main_call5_v9) (TRef.of (T := ⟨S69632x1, .i1⟩) main_call5_v10) (cmpi .sle),
    TRef.binary (TRef.of (T := ⟨S69632x1, .i1⟩) main_call5_v7) (TRef.of (T := ⟨S69632x1, .i1⟩) main_call5_v10) (TRef.of (T := ⟨S69632x1, .i1⟩) main_call5_v11) andi,
    TRef.nullary (TRef.of (T := ⟨S_, .i1⟩) main_call5_c_3) (constantI S_ 1 1#1),
    TRef.binary (TRef.of (T := ⟨S69632x1, .i1⟩) main_call5_v11) (TRef.of (T := ⟨S_, .i1⟩) main_call5_c_3) (TRef.of (T := ⟨S69632, .i1⟩) main_call5_v12) (fun x v => Host.reduce IntOp.andi x v reducesTo_S69632x1_S69632_d1 h_S_),
    TRef.binary (TRef.of (T := ⟨S4096x2x128, .f32⟩) main_v140) (TRef.of (T := ⟨S69632x1, .i32⟩) main_call5_v5) (TRef.of (T := ⟨S69632x2x128, .f32⟩) main_call5_v13) (fun x i => Host.gather gather_S4096x2x128_S69632x1_S69632x2x128_12_0_n_n_0_1_12128 x i),
    TRef.unary (TRef.of (T := ⟨S69632, .i1⟩) main_call5_v12) (TRef.of (T := ⟨S69632x2x128, .i1⟩) main_call5_v14) (broadcastInDim S69632x2x128 ![0] bcast_S69632_S69632x2x128_0),
    TRef.nullary (TRef.of (T := ⟨S_, .f32⟩) main_call5_cst) (constant S_ .f32 0x7FC00000#32),
    TRef.unary (TRef.of (T := ⟨S_, .f32⟩) main_call5_cst) (TRef.of (T := ⟨S69632x2x128, .f32⟩) main_call5_v15) (broadcastInDim S69632x2x128 ![] bcast_S_S69632x2x128),
    TRef.ternary (TRef.of (T := ⟨S69632x2x128, .i1⟩) main_call5_v14) (TRef.of (T := ⟨S69632x2x128, .f32⟩) main_call5_v13) (TRef.of (T := ⟨S69632x2x128, .f32⟩) main_call5_v15) (TRef.of (T := ⟨S69632x2x128, .f32⟩) main_v141) select,
    unary main_v139 main_v142 (broadcastInDim S69632x1x1 ![0] bcast_S69632_S69632x1x1_0 : (⟨S69632, .f32⟩ : BufTy).Contents (Elt F) → (⟨S69632x1x1, .f32⟩ : BufTy).Contents (Elt F)),
    unary main_v142 main_v143 (broadcastInDim S69632x2x128 ![0, 1, 2] bcast_S69632x1x1_S69632x2x128_0_1_2 : (⟨S69632x1x1, .f32⟩ : BufTy).Contents (Elt F) → (⟨S69632x2x128, .f32⟩ : BufTy).Contents (Elt F)),
    binary main_v141 main_v143 main_v144 (mulf : (⟨S69632x2x128, .f32⟩ : BufTy).Contents (Elt F) → (⟨S69632x2x128, .f32⟩ : BufTy).Contents (Elt F) → (⟨S69632x2x128, .f32⟩ : BufTy).Contents (Elt F)),
    nullary main_cst_27 (constant S_ .f32 0x00000000#32),
    unary main_cst_27 main_v145 (broadcastInDim S4096x2x128 ![] bcast_S_S4096x2x128 : (⟨S_, .f32⟩ : BufTy).Contents (Elt F) → (⟨S4096x2x128, .f32⟩ : BufTy).Contents (Elt F)),
    unary main_v114 main_v146 (broadcastInDim S69632x1 ![0] bcast_S69632_S69632x1_0 : (⟨S69632, .i32⟩ : BufTy).Contents (Elt F) → (⟨S69632x1, .i32⟩ : BufTy).Contents (Elt F)),
    ternary main_v145 main_v146 main_v144 main_v147 ((fun x i u => Host.scatterAdd scatter_S4096x2x128_S69632x1_S69632x2x128_12_0_0_1 x i u) : (⟨S4096x2x128, .f32⟩ : BufTy).Contents (Elt F) → (⟨S69632x1, .i32⟩ : BufTy).Contents (Elt F) → (⟨S69632x2x128, .f32⟩ : BufTy).Contents (Elt F) → (⟨S4096x2x128, .f32⟩ : BufTy).Contents (Elt F)),
    unary main_v106 main_v148 (broadcastInDim S1x1x128 ![2] bcast_S128_S1x1x128_2 : (⟨S128, .f32⟩ : BufTy).Contents (Elt F) → (⟨S1x1x128, .f32⟩ : BufTy).Contents (Elt F)),
    unary main_v148 main_v149 (broadcastInDim S4096x2x128 ![0, 1, 2] bcast_S1x1x128_S4096x2x128_0_1_2 : (⟨S1x1x128, .f32⟩ : BufTy).Contents (Elt F) → (⟨S4096x2x128, .f32⟩ : BufTy).Contents (Elt F)) ]

/-- The third convolution's last addition and the final sum (operations 253, 254). A called function's operations stand in its call's place, over that call's buffers. -/
abbrev ops3 : List (HloOp τ sig (Elt F)) :=
  [ binary main_v147 main_v149 main_v150 (addf : (⟨S4096x2x128, .f32⟩ : BufTy).Contents (Elt F) → (⟨S4096x2x128, .f32⟩ : BufTy).Contents (Elt F) → (⟨S4096x2x128, .f32⟩ : BufTy).Contents (Elt F)),
    binary main_v99 main_v150 main_v151 (addf : (⟨S4096x2x128, .f32⟩ : BufTy).Contents (Elt F) → (⟨S4096x2x128, .f32⟩ : BufTy).Contents (Elt F) → (⟨S4096x2x128, .f32⟩ : BufTy).Contents (Elt F)) ]

/-- The reference's 254 operations, in order. -/
abbrev ops : List (HloOp τ sig (Elt F)) := ops0 ++ (ops1 ++ (ops2 ++ ops3))

set_option maxRecDepth 8192 in
set_option maxHeartbeats 4000000 in
/-- Window 0 of @main is its operations run in order: the called functions unfold at their calls, and sequencing reassociates. -/
theorem main_part0_eq (c : Dev nD) : main_part0 (F := F) c = seq ops0 := by
  simp only [main_part0, fn_where.body, fn_take.body, fn_where_0.body, seq, bind_assoc, pure_bind]
  rfl

set_option maxRecDepth 8192 in
set_option maxHeartbeats 4000000 in
/-- Window 1 of @main is its operations run in order: the called functions unfold at their calls, and sequencing reassociates. -/
theorem main_part1_eq (c : Dev nD) : main_part1 (F := F) c = seq ops1 := by
  simp only [main_part1, fn_where.body, fn_take.body, fn_where_0.body, seq, bind_assoc, pure_bind]
  rfl

set_option maxRecDepth 8192 in
set_option maxHeartbeats 4000000 in
/-- Window 2 of @main is its operations run in order: the called functions unfold at their calls, and sequencing reassociates. -/
theorem main_part2_eq (c : Dev nD) : main_part2 (F := F) c = seq ops2 := by
  simp only [main_part2, fn_where.body, fn_take.body, fn_where_0.body, seq, bind_assoc, pure_bind]
  rfl

/-- Window 3 of @main is its two operations run in order. -/
theorem main_part3_eq (c : Dev nD) : main_part3 (F := F) c = seq ops3 := rfl

set_option maxRecDepth 8192 in
/-- @main is the whole line: its four windows one after the other. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub ..⟩

set_option maxRecDepth 8192 in
theorem ops1_sub : (ops1 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub ..⟩

set_option maxRecDepth 8192 in
theorem ops2_sub : (ops2 : List (HloOp τ sig (Elt F))).Forall fun op => op.bufs ⊆ tcRefs τ sig :=
  ⟨unary_bufs_sub .., reshape_bufs_sub .., binary_bufs_sub .., unary_bufs_sub .., reshape_bufs_sub .., unary_bufs_sub .., reshape_bufs_sub .., unary_bufs_sub .., reshape_bufs_sub .., nullary_bufs_sub .., binary_bufs_sub .., unary_bufs_sub .., reshape_bufs_sub .., nullary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., unary_bufs_sub .., unary_bufs_sub .., ternary_bufs_sub .., unary_bufs_sub .., unary_bufs_sub ..⟩

set_option maxRecDepth 8192 in
theorem ops3_sub : (ops3 : List (HloOp τ sig (Elt F))).Forall fun op => op.bufs ⊆ tcRefs τ sig :=
  ⟨binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h, List.forall_iff_forall_mem.mp ops2_sub op h, List.forall_iff_forall_mem.mp ops3_sub op h]

/-! ## What each window leaves

Each window is read from ANY contents `W` of the buffers: the buffers it computes, as the stages of what `W` holds
in the buffers it reads; the arguments, and what an earlier window left for a later one, unchanged. -/

/-- Two lines run one after the other: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The first window leaves the convolution of `x`. -/
theorem w0_v47 (W : Valuation τ sig (Elt F)) :
    after ops0 W (no_index (Proc.devRef .tc main_v47)) = gcnConv (W (Proc.devRef .tc main_arg0)) (W (Proc.devRef .tc main_arg1)) (selW0 (W (Proc.devRef .tc main_arg3))) (selB0 (W (Proc.devRef .tc main_arg4))) := by
  simp only [ops0]
  after_results_simp
  simp only [TRef.toBuf, TRef.ofBuf, cast_eq]
  rfl

set_option maxRecDepth 8192 in
set_option maxHeartbeats 4000000 in
/-- The first window leaves the first cached operator. -/
theorem w0_v49 (W : Valuation τ sig (Elt F)) :
    after ops0 W (no_index (Proc.devRef .tc main_v49)) = selA0 (W (Proc.devRef .tc main_arg2)) := by
  simp only [ops0]
  after_results_simp
  rfl

set_option maxRecDepth 8192 in
theorem w0_arg0 (W : Valuation τ sig (Elt F)) :
    after ops0 W (no_index (Proc.devRef .tc main_arg0)) = W (Proc.devRef .tc main_arg0) := by
  simp only [ops0]
  after_results_simp

set_option maxRecDepth 8192 in
theorem w0_arg1 (W : Valuation τ sig (Elt F)) :
    after ops0 W (no_index (Proc.devRef .tc main_arg1)) = W (Proc.devRef .tc main_arg1) := by
  simp only [ops0]
  after_results_simp

set_option maxRecDepth 8192 in
theorem w0_arg2 (W : Valuation τ sig (Elt F)) :
    after ops0 W (no_index (Proc.devRef .tc main_arg2)) = W (Proc.devRef .tc main_arg2) := by
  simp only [ops0]
  after_results_simp

set_option maxRecDepth 8192 in
theorem w0_arg3 (W : Valuation τ sig (Elt F)) :
    after ops0 W (no_index (Proc.devRef .tc main_arg3)) = W (Proc.devRef .tc main_arg3) := by
  simp only [ops0]
  after_results_simp

set_option maxRecDepth 8192 in
theorem w0_arg4 (W : Valuation τ sig (Elt F)) :
    after ops0 W (no_index (Proc.devRef .tc main_arg4)) = W (Proc.devRef .tc main_arg4) := by
  simp only [ops0]
  after_results_simp

set_option maxRecDepth 8192 in
set_option maxHeartbeats 4000000 in
/-- The second window leaves `A₀ x`. -/
theorem w1_v50 (W : Valuation τ sig (Elt F)) :
    after ops1 W (no_index (Proc.devRef .tc main_v50)) = prop (W (Proc.devRef .tc main_v49)) (W (Proc.devRef .tc main_arg0)) := by
  simp only [ops1]
  after_results_simp
  rfl

set_option maxRecDepth 8192 in
set_option maxHeartbeats 4000000 in
/-- The second window leaves the first convolution plus the convolution of `A₀ x`. -/
theorem w1_v99 (W : Valuation τ sig (Elt F)) :
    after ops1 W (no_index (Proc.devRef .tc main_v99)) = addf (W (Proc.devRef .tc main_v47)) (gcnConv (prop (W (Proc.devRef .tc main_v49)) (W (Proc.devRef .tc main_arg0))) (W (Proc.devRef .tc main_arg1)) (selW0 (W (Proc.devRef .tc main_arg3))) (selB0 (W (Proc.devRef .tc main_arg4)))) := by
  simp only [ops1]
  after_results_simp
  simp only [TRef.toBuf, TRef.ofBuf, cast_eq]
  rfl

set_option maxRecDepth 8192 in
theorem w1_arg0 (W : Valuation τ sig (Elt F)) :
    after ops1 W (no_index (Proc.devRef .tc main_arg0)) = W (Proc.devRef .tc main_arg0) := by
  simp only [ops1]
  after_results_simp

set_option maxRecDepth 8192 in
theorem w1_arg1 (W : Valuation τ sig (Elt F)) :
    after ops1 W (no_index (Proc.devRef .tc main_arg1)) = W (Proc.devRef .tc main_arg1) := by
  simp only [ops1]
  after_results_simp

set_option maxRecDepth 8192 in
theorem w1_arg2 (W : Valuation τ sig (Elt F)) :
    after ops1 W (no_index (Proc.devRef .tc main_arg2)) = W (Proc.devRef .tc main_arg2) := by
  simp only [ops1]
  after_results_simp

set_option maxRecDepth 8192 in
theorem w1_arg3 (W : Valuation τ sig (Elt F)) :
    after ops1 W (no_index (Proc.devRef .tc main_arg3)) = W (Proc.devRef .tc main_arg3) := by
  simp only [ops1]
  after_results_simp

set_option maxRecDepth 8192 in
theorem w1_arg4 (W : Valuation τ sig (Elt F)) :
    after ops1 W (no_index (Proc.devRef .tc main_arg4)) = W (Proc.devRef .tc main_arg4) := by
  simp only [ops1]
  after_results_simp

set_option maxRecDepth 8192 in
set_option maxHeartbeats 4000000 in
/-- The third window leaves the aggregated messages of `A₁ (A₀ x)`. -/
theorem w2_v147 (W : Valuation τ sig (Elt F)) :
    after ops2 W (no_index (Proc.devRef .tc main_v147)) = agg (prop (selA1 (W (Proc.devRef .tc main_arg2))) (W (Proc.devRef .tc main_v50))) (W (Proc.devRef .tc main_arg1)) (selW1 (W (Proc.devRef .tc main_arg3))) := by
  simp only [ops2]
  after_results_simp
  simp only [TRef.toBuf, TRef.ofBuf, cast_eq]
  rfl

set_option maxRecDepth 8192 in
set_option maxHeartbeats 4000000 in
/-- The third window leaves the third convolution's bias, spread. -/
theorem w2_v149 (W : Valuation τ sig (Elt F)) :
    after ops2 W (no_index (Proc.devRef .tc main_v149)) = biasB (selB1 (W (Proc.devRef .tc main_arg4))) := by
  simp only [ops2]
  after_results_simp
  rfl

set_option maxRecDepth 8192 in
theorem w2_v99 (W : Valuation τ sig (Elt F)) :
    after ops2 W (no_index (Proc.devRef .tc main_v99)) = W (Proc.devRef .tc main_v99) := by
  simp only [ops2]
  after_results_simp

set_option maxRecDepth 8192 in
theorem w2_arg0 (W : Valuation τ sig (Elt F)) :
    after ops2 W (no_index (Proc.devRef .tc main_arg0)) = W (Proc.devRef .tc main_arg0) := by
  simp only [ops2]
  after_results_simp

set_option maxRecDepth 8192 in
theorem w2_arg1 (W : Valuation τ sig (Elt F)) :
    after ops2 W (no_index (Proc.devRef .tc main_arg1)) = W (Proc.devRef .tc main_arg1) := by
  simp only [ops2]
  after_results_simp

set_option maxRecDepth 8192 in
theorem w2_arg2 (W : Valuation τ sig (Elt F)) :
    after ops2 W (no_index (Proc.devRef .tc main_arg2)) = W (Proc.devRef .tc main_arg2) := by
  simp only [ops2]
  after_results_simp

set_option maxRecDepth 8192 in
theorem w2_arg3 (W : Valuation τ sig (Elt F)) :
    after ops2 W (no_index (Proc.devRef .tc main_arg3)) = W (Proc.devRef .tc main_arg3) := by
  simp only [ops2]
  after_results_simp

set_option maxRecDepth 8192 in
theorem w2_arg4 (W : Valuation τ sig (Elt F)) :
    after ops2 W (no_index (Proc.devRef .tc main_arg4)) = W (Proc.devRef .tc main_arg4) := by
  simp only [ops2]
  after_results_simp

set_option maxRecDepth 8192 in
set_option maxHeartbeats 4000000 in
/-- The last window adds the third convolution's bias and sums. -/
theorem w3_v151 (W : Valuation τ sig (Elt F)) :
    after ops3 W (no_index (Proc.devRef .tc main_v151)) = addf (W (Proc.devRef .tc main_v99)) (addf (W (Proc.devRef .tc main_v147)) (W (Proc.devRef .tc main_v149))) := by
  simp only [ops3]
  after_results_simp

set_option maxRecDepth 8192 in
theorem w3_arg0 (W : Valuation τ sig (Elt F)) :
    after ops3 W (no_index (Proc.devRef .tc main_arg0)) = W (Proc.devRef .tc main_arg0) := by
  simp only [ops3]
  after_results_simp

set_option maxRecDepth 8192 in
theorem w3_arg1 (W : Valuation τ sig (Elt F)) :
    after ops3 W (no_index (Proc.devRef .tc main_arg1)) = W (Proc.devRef .tc main_arg1) := by
  simp only [ops3]
  after_results_simp

set_option maxRecDepth 8192 in
theorem w3_arg2 (W : Valuation τ sig (Elt F)) :
    after ops3 W (no_index (Proc.devRef .tc main_arg2)) = W (Proc.devRef .tc main_arg2) := by
  simp only [ops3]
  after_results_simp

set_option maxRecDepth 8192 in
theorem w3_arg3 (W : Valuation τ sig (Elt F)) :
    after ops3 W (no_index (Proc.devRef .tc main_arg3)) = W (Proc.devRef .tc main_arg3) := by
  simp only [ops3]
  after_results_simp

set_option maxRecDepth 8192 in
theorem w3_arg4 (W : Valuation τ sig (Elt F)) :
    after ops3 W (no_index (Proc.devRef .tc main_arg4)) = W (Proc.devRef .tc main_arg4) := by
  simp only [ops3]
  after_results_simp

/-! ## The whole line -/

/-- After the whole line the result buffer holds `refVal` of what the arguments held. -/
theorem after_ops_v151 (V : Valuation τ sig (Elt F)) :
    after ops V (Proc.devRef .tc main_v151) = refVal (V (Proc.devRef .tc main_arg0)) (V (Proc.devRef .tc main_arg1)) (V (Proc.devRef .tc main_arg2)) (V (Proc.devRef .tc main_arg3)) (V (Proc.devRef .tc main_arg4)) := by
  simp only [ops, after_app, w3_v151, w2_v99, w2_v147, w2_v149, w2_arg1, w2_arg2, w2_arg3, w2_arg4, w1_v99, w1_v50, w1_arg1, w1_arg2, w1_arg3, w1_arg4,
    w0_v47, w0_v49, w0_arg0, w0_arg1, w0_arg2, w0_arg3, w0_arg4]
  rfl

/-- No operation writes an argument. -/
theorem after_ops_arg0 (V : Valuation τ sig (Elt F)) : after ops V (Proc.devRef .tc main_arg0) = V (Proc.devRef .tc main_arg0) := by
  simp only [ops, after_app, w3_arg0, w2_arg0, w1_arg0, w0_arg0]

/-- No operation writes an argument. -/
theorem after_ops_arg1 (V : Valuation τ sig (Elt F)) : after ops V (Proc.devRef .tc main_arg1) = V (Proc.devRef .tc main_arg1) := by
  simp only [ops, after_app, w3_arg1, w2_arg1, w1_arg1, w0_arg1]

/-- No operation writes an argument. -/
theorem after_ops_arg2 (V : Valuation τ sig (Elt F)) : after ops V (Proc.devRef .tc main_arg2) = V (Proc.devRef .tc main_arg2) := by
  simp only [ops, after_app, w3_arg2, w2_arg2, w1_arg2, w0_arg2]

/-- No operation writes an argument. -/
theorem after_ops_arg3 (V : Valuation τ sig (Elt F)) : after ops V (Proc.devRef .tc main_arg3) = V (Proc.devRef .tc main_arg3) := by
  simp only [ops, after_app, w3_arg3, w2_arg3, w1_arg3, w0_arg3]

/-- No operation writes an argument. -/
theorem after_ops_arg4 (V : Valuation τ sig (Elt F)) : after ops V (Proc.devRef .tc main_arg4) = V (Proc.devRef .tc main_arg4) := by
  simp only [ops, after_app, w3_arg4, w2_arg4, w1_arg4, w0_arg4]

/-- On every device, for any float values, from any memory with zero counters: every weakly fair execution of @main
    terminates with the result buffer at `refVal` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v151).trans (after_ops_v151 _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _)⟩)
    (run_seq scopedRefs_eq scopedSems_eq defs main (fun _ => ops) main_eq (fun _ => ops_sub) m ρ)

end Cert.ReferenceIdeal.HandRun

end
-- ==== Proof.RefFrame.lean ====
/-
  The reference's frame: its run, read by hand operation by operation, with the value dropped.
-/
import proofs.«205814_g58841051955373_cont_9to1_m_133_55_alg».proof.Defs
import proofs.«205814_g58841051955373_cont_9to1_m_133_55_alg».proof.Proof.RefRun
import proofs.«205814_g58841051955373_cont_9to1_m_133_55_alg».proof.Proof.Gen.ReferenceIdeal
import proofs.«205814_g58841051955373_cont_9to1_m_133_55_alg».proof.Proof.Gen.Pre_input_domain

noncomputable section

namespace Cert.Proof.RefFrame

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.HandRun.run (F := Ideal) m ρ)

end Cert.Proof.RefFrame

end
-- ==== Proof.SpecAlgebra.lean ====
import Mathlib.Data.EReal.Basic
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Algebra.BigOperators.Fin
import Mathlib.Algebra.Order.BigOperators.Group.Finset
import Mathlib.Data.Fintype.BigOperators
import Mathlib.Tactic.Ring
import Mathlib.Tactic.NormNum
import Idealize.ShloMosaic.PureOps.Ideal

/-!
# The algebra joining a graph convolution to its fused form

Nodes N, edges E with endpoints src dst : E → N, features Φ, a contracted index G.
Everything is a finite sum; a sum restricted to the edges into a node n is written with
"if dst e = n then _ else 0" (Finset.sum_filter turns a filtered sum into this form).
-/

open Finset

namespace Cert.Proof.Algebra

section Defs
variable {R : Type*} [AddCommMonoid R] [Mul R]
variable {N E Φ G : Type*} [Fintype N] [DecidableEq N] [Fintype E] [Fintype G]

/-- One convolution with self loops, on the product matrix P = z·W:
    ∑_{e : dst e = n} P (src e) f · (r (src e) · r n) + P n f · (r n · r n) + b f. -/
def gcn (src dst : E → N) (r : N → R) (P : N → Φ → R) (b : Φ → R) (n : N) (f : Φ) : R :=
  (∑ e, if dst e = n then P (src e) f * (r (src e) * r n) else 0) + P n f * (r n * r n) + b f

/-- The matrix product (z·W) n f = ∑ g, z n g · W g f. -/
def mm (z : N → G → R) (W : G → Φ → R) (n : N) (f : Φ) : R := ∑ g, z n g * W g f

/-- The fused operand Y = (z₀ + z₁)·W₀ + z₂·W₁. -/
def fusedY (z0 z1 z2 : N → G → R) (W0 W1 : G → Φ → R) (n : N) (f : Φ) : R :=
  (∑ g, (z0 n g + z1 n g) * W0 g f) + ∑ g, z2 n g * W1 g f

/-- The diagonal matrix of r. -/
def diag (r : N → R) (k n : N) : R := if k = n then r n else 0

/-- yst f n = ∑ k, Y k f · diag r k n. -/
def scaled (r : N → R) (Y : N → Φ → R) (f : Φ) (n : N) : R := ∑ k, Y k f * diag r k n

/-- st f n = ∑_{e : dst e = n} yst f (src e). -/
def agg (src dst : E → N) (yst : Φ → N → R) (f : Φ) (n : N) : R :=
  ∑ e, if dst e = n then yst f (src e) else 0

/-- The fused result out n f = ∑ k, (st f k + yst f k) · diag r k n + β f. -/
def fusedOut (src dst : E → N) (r : N → R) (Y : N → Φ → R) (β : Φ → R) (n : N) (f : Φ) : R :=
  (∑ k, (agg src dst (scaled r Y) f k + scaled r Y f k) * diag r k n) + β f

end Defs

/-! ## Finite sums of reals inside the extended reals -/
section Coe
variable {ι : Type*}

theorem coe_finset_sum (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite_zero (p : Prop) [Decidable p] (a : ℝ) :
    ((if p then a else 0 : ℝ) : EReal) = if p then (a : EReal) else 0 := by
  split_ifs
  · rfl
  · exact EReal.coe_zero

theorem exists_real_add {x y : EReal} (hx : ∃ a : ℝ, x = a) (hy : ∃ b : ℝ, y = b) :
    ∃ c : ℝ, x + y = c := by
  obtain ⟨a, rfl⟩ := hx
  obtain ⟨b, rfl⟩ := hy
  exact ⟨a + b, (EReal.coe_add a b).symm⟩

theorem exists_real_mul {x y : EReal} (hx : ∃ a : ℝ, x = a) (hy : ∃ b : ℝ, y = b) :
    ∃ c : ℝ, x * y = c := by
  obtain ⟨a, rfl⟩ := hx
  obtain ⟨b, rfl⟩ := hy
  exact ⟨a * b, (EReal.coe_mul a b).symm⟩

theorem exists_real_ite (p : Prop) [Decidable p] {x y : EReal} (hx : ∃ a : ℝ, x = a)
    (hy : ∃ b : ℝ, y = b) : ∃ c : ℝ, (if p then x else y) = c := by
  split_ifs
  · exact hx
  · exact hy

theorem exists_real_sum (s : Finset ι) (f : ι → EReal) (h : ∀ i ∈ s, ∃ a : ℝ, f i = a) :
    ∃ a : ℝ, ∑ i ∈ s, f i = a := by
  choose! g hg using h
  exact ⟨∑ i ∈ s, g i, by rw [coe_finset_sum]; exact Finset.sum_congr rfl hg⟩

end Coe

/-! ## The fused result is the sum of the three convolutions -/
section Fused
variable {N E Φ G : Type*} [Fintype N] [DecidableEq N] [Fintype E] [Fintype G]

/-- A product with the diagonal matrix keeps one term. -/
theorem scaled_eq {R : Type*} [AddCommMonoid R] [Mul R] (h0 : ∀ a : R, a * 0 = 0)
    (r : N → R) (Y : N → Φ → R) (f : Φ) (n : N) : scaled r Y f n = Y n f * r n := by
  unfold scaled diag
  simp only [mul_ite, h0]
  rw [Finset.sum_ite_eq' Finset.univ n (fun k => Y k f * r n), if_pos (Finset.mem_univ n)]

theorem fusedOut_eq {R : Type*} [AddCommMonoid R] [Mul R] (h0 : ∀ a : R, a * 0 = 0)
    (src dst : E → N) (r : N → R) (Y : N → Φ → R) (β : Φ → R) (n : N) (f : Φ) :
    fusedOut src dst r Y β n f
      = ((∑ e, if dst e = n then Y (src e) f * r (src e) else 0) + Y n f * r n) * r n + β f := by
  have hs : ∀ f n, scaled r Y f n = Y n f * r n := scaled_eq h0 r Y
  unfold fusedOut agg
  simp only [hs, diag, mul_ite, h0]
  rw [Finset.sum_ite_eq' Finset.univ n
    (fun k => ((∑ e, if dst e = k then Y (src e) f * r (src e) else 0) + Y k f * r k) * r n),
    if_pos (Finset.mem_univ n)]

theorem fusedY_eq (z0 z1 z2 : N → G → ℝ) (W0 W1 : G → Φ → ℝ) (n : N) (f : Φ) :
    fusedY z0 z1 z2 W0 W1 n f = mm z0 W0 n f + mm z1 W0 n f + mm z2 W1 n f := by
  unfold fusedY mm
  simp only [add_mul, Finset.sum_add_distrib]

theorem gcn_sum_eq_of_prod (src dst : E → N) (r : N → ℝ) (P0 P1 P2 : N → Φ → ℝ)
    (b0 b1 : Φ → ℝ) (n : N) (f : Φ) :
    fusedOut src dst r (fun k f => P0 k f + P1 k f + P2 k f) (fun f => 2 * b0 f + b1 f) n f
      = gcn src dst r P0 b0 n f + gcn src dst r P1 b0 n f + gcn src dst r P2 b1 n f := by
  rw [fusedOut_eq (fun a => mul_zero a)]
  unfold gcn
  have h : ∀ P : N → Φ → ℝ,
      (∑ e, if dst e = n then P (src e) f * (r (src e) * r n) else 0)
        = (∑ e, if dst e = n then P (src e) f * r (src e) else 0) * r n := by
    intro P
    rw [Finset.sum_mul]
    refine Finset.sum_congr rfl (fun e _ => ?_)
    split_ifs <;> ring
  have h2 : (∑ e, if dst e = n then (P0 (src e) f + P1 (src e) f + P2 (src e) f) * r (src e) else 0)
      = (∑ e, if dst e = n then P0 (src e) f * r (src e) else 0)
        + (∑ e, if dst e = n then P1 (src e) f * r (src e) else 0)
        + (∑ e, if dst e = n then P2 (src e) f * r (src e) else 0) := by
    rw [← Finset.sum_add_distrib, ← Finset.sum_add_distrib]
    refine Finset.sum_congr rfl (fun e _ => ?_)
    split_ifs <;> ring
  rw [h P0, h P1, h P2, h2]
  ring

theorem gcn_sum_eq (src dst : E → N) (r : N → ℝ) (z0 z1 z2 : N → G → ℝ) (W0 W1 : G → Φ → ℝ)
    (b0 b1 : Φ → ℝ) (n : N) (f : Φ) :
    fusedOut src dst r (fusedY z0 z1 z2 W0 W1) (fun f => 2 * b0 f + b1 f) n f
      = gcn src dst r (mm z0 W0) b0 n f + gcn src dst r (mm z1 W0) b0 n f
        + gcn src dst r (mm z2 W1) b1 n f := by
  have hY : fusedY z0 z1 z2 W0 W1
      = fun k f => mm z0 W0 k f + mm z1 W0 k f + mm z2 W1 k f := by
    funext k f
    exact fusedY_eq z0 z1 z2 W0 W1 k f
  rw [hY]
  exact gcn_sum_eq_of_prod src dst r (mm z0 W0) (mm z1 W0) (mm z2 W1) b0 b1 n f

/-- The same over the extended reals, every input a real. -/
theorem gcn_sum_eq_ereal (src dst : E → N) (r : N → EReal) (z0 z1 z2 : N → G → EReal)
    (W0 W1 : G → Φ → EReal) (b0 b1 : Φ → EReal) (c : EReal)
    (hr : ∀ n, ∃ a : ℝ, r n = a)
    (hz0 : ∀ n g, ∃ a : ℝ, z0 n g = a) (hz1 : ∀ n g, ∃ a : ℝ, z1 n g = a)
    (hz2 : ∀ n g, ∃ a : ℝ, z2 n g = a)
    (hW0 : ∀ g f, ∃ a : ℝ, W0 g f = a) (hW1 : ∀ g f, ∃ a : ℝ, W1 g f = a)
    (hb0 : ∀ f, ∃ a : ℝ, b0 f = a) (hb1 : ∀ f, ∃ a : ℝ, b1 f = a)
    (hc : c = ((2 : ℝ) : EReal)) (n : N) (f : Φ) :
    fusedOut src dst r (fusedY z0 z1 z2 W0 W1) (fun f => c * b0 f + b1 f) n f
      = gcn src dst r (mm z0 W0) b0 n f + gcn src dst r (mm z1 W0) b0 n f
        + gcn src dst r (mm z2 W1) b1 n f := by
  choose r' hr' using hr
  choose z0' hz0' using hz0
  choose z1' hz1' using hz1
  choose z2' hz2' using hz2
  choose W0' hW0' using hW0
  choose W1' hW1' using hW1
  choose b0' hb0' using hb0
  choose b1' hb1' using hb1
  obtain rfl : r = fun n => (r' n : EReal) := funext hr'
  obtain rfl : z0 = fun n g => (z0' n g : EReal) := by funext n g; exact hz0' n g
  obtain rfl : z1 = fun n g => (z1' n g : EReal) := by funext n g; exact hz1' n g
  obtain rfl : z2 = fun n g => (z2' n g : EReal) := by funext n g; exact hz2' n g
  obtain rfl : W0 = fun g f => (W0' g f : EReal) := by funext g f; exact hW0' g f
  obtain rfl : W1 = fun g f => (W1' g f : EReal) := by funext g f; exact hW1' g f
  obtain rfl : b0 = fun f => (b0' f : EReal) := funext hb0'
  obtain rfl : b1 = fun f => (b1' f : EReal) := funext hb1'
  subst hc
  have key := congrArg (fun x : ℝ => (x : EReal))
    (gcn_sum_eq src dst r' z0' z1' z2' W0' W1' b0' b1' n f)
  simp only [fusedOut, agg, scaled, diag, fusedY, gcn, mm, coe_finset_sum, coe_ite_zero,
    EReal.coe_add, EReal.coe_mul] at key ⊢
  exact key

end Fused

/-! ## Counting degrees; the self loops -/
section Degree
variable {M : Type*} [AddCommMonoid M]
variable {N E W : Type*} [Fintype N] [DecidableEq N] [Fintype E] [Fintype W] [DecidableEq W]

/-- Counting slice by slice is counting over all edges. -/
theorem deg_slices (wk : E → W) (dst : E → N) (c : M) (n : N) :
    (∑ w, ∑ e, if wk e = w ∧ dst e = n then c else 0) = ∑ e, if dst e = n then c else 0 := by
  rw [Finset.sum_comm]
  refine Finset.sum_congr rfl (fun e _ => ?_)
  by_cases h : dst e = n
  · simp only [h, and_true, if_true]
    rw [Finset.sum_ite_eq Finset.univ (wk e) (fun _ => c), if_pos (Finset.mem_univ _)]
  · simp only [h, and_false, if_false, Finset.sum_const_zero]

/-- Over the edges followed by one loop per node, any sum into n is the sum over the edges
    plus the loop's term. -/
theorem sum_with_loops (src dst : E → N) (g : N → N → M) (n : N) :
    (∑ j : E ⊕ N, if Sum.elim dst id j = n then g (Sum.elim src id j) (Sum.elim dst id j) else 0)
      = (∑ e, if dst e = n then g (src e) n else 0) + g n n := by
  rw [Fintype.sum_sum_type]
  congr 1
  · refine Finset.sum_congr rfl (fun e _ => ?_)
    show (if dst e = n then g (src e) (dst e) else 0) = if dst e = n then g (src e) n else 0
    by_cases h : dst e = n
    · rw [if_pos h, if_pos h, h]
    · rw [if_neg h, if_neg h]
  · show (∑ k : N, if k = n then g k k else 0) = g n n
    rw [Finset.sum_ite_eq' Finset.univ n (fun k => g k k), if_pos (Finset.mem_univ n)]

theorem deg_with_loops (dst : E → N) (c : M) (n : N) :
    (∑ j : E ⊕ N, if Sum.elim dst id j = n then c else 0)
      = (∑ e, if dst e = n then c else 0) + c :=
  sum_with_loops dst dst (fun _ _ => c) n

theorem gcn_with_loops {R : Type*} [AddCommMonoid R] [Mul R] {Φ : Type*} (src dst : E → N)
    (r : N → R) (P : N → Φ → R) (b : Φ → R) (n : N) (f : Φ) :
    (∑ j : E ⊕ N, if Sum.elim dst id j = n then
        P (Sum.elim src id j) f * (r (Sum.elim src id j) * r (Sum.elim dst id j)) else 0) + b f
      = gcn src dst r P b n f := by
  unfold gcn
  rw [sum_with_loops src dst (fun a b => P a f * (r a * r b)) n]

/-- A sum over Fin (A + B) is a sum over the disjoint union. -/
theorem sum_fin_add (A B : ℕ) (h : Fin (A + B) → M) :
    ∑ j, h j = ∑ s : Fin A ⊕ Fin B, h (finSumFinEquiv s) :=
  (Equiv.sum_comp finSumFinEquiv h).symm

/-- A sum over A blocks of B consecutive positions is the sum over all A * B positions. -/
theorem sum_range_mul (A B : ℕ) (g : ℕ → M) :
    ∑ a ∈ range A, ∑ b ∈ range B, g (a * B + b) = ∑ e ∈ range (A * B), g e := by
  induction A with
  | zero => simp
  | succ A ih => rw [Finset.sum_range_succ, ih, add_mul, one_mul, Finset.sum_range_add]

theorem sum_fin_mul (A B : ℕ) (g : ℕ → M) :
    ∑ a : Fin A, ∑ b : Fin B, g (a.val * B + b.val) = ∑ e : Fin (A * B), g e.val := by
  rw [Fin.sum_univ_eq_sum_range (fun e => g e) (A * B), ← sum_range_mul,
    ← Fin.sum_univ_eq_sum_range (fun a => ∑ b ∈ range B, g (a * B + b)) A]
  refine Finset.sum_congr rfl (fun a _ => ?_)
  rw [Fin.sum_univ_eq_sum_range (fun b => g (a.val * B + b)) B]

end Degree

/-! ## The guard around the inverse square root -/
section Guard
variable {α β : Type*} [LinearOrder α] [Zero α]

theorem guard_eq (rsq : α → β) (z : β) {d ε : α} (hd : 0 < d) (hε : ε ≤ d) :
    (if 0 < d then rsq (max d ε) else z) = rsq d := by
  rw [if_pos hd, max_eq_left hε]

theorem guard_eq_of_one_le [One α] (h01 : (0 : α) < 1) (rsq : α → β) (z : β) {d ε : α}
    (h1 : 1 ≤ d) (hε : ε ≤ 1) : (if 0 < d then rsq (max d ε) else z) = rsq d :=
  guard_eq rsq z (lt_of_lt_of_le h01 h1) (le_trans hε h1)

end Guard

/-! ## The rotation of rows -/
section Rotation

theorem rot_mod (x : ℕ) : x % 16 % 8 = x % 8 := by
  omega

theorem and_seven (x : ℕ) : x &&& 7 = x % 8 :=
  Nat.and_two_pow_sub_one_eq_mod x 3

theorem and_fifteen (x : ℕ) : x &&& 15 = x % 16 :=
  Nat.and_two_pow_sub_one_eq_mod x 4

/-- Adding l and reducing mod 8 permutes the eight rows. -/
theorem rot_bij (l : ℕ) (ρ : Fin 8 → Fin 8) (hρ : ∀ cc, (ρ cc).val = (cc.val + l) % 8) :
    Function.Bijective ρ := by
  refine Finite.injective_iff_bijective.mp ?_
  intro a b hab
  have h := congrArg Fin.val hab
  rw [hρ, hρ] at h
  have ha := a.isLt
  have hb := b.isLt
  ext
  omega

variable {M : Type*} [AddCommMonoid M]

/-- One edge: over the eight rotated rows, rows j and j + 8 of the sixteen-row accumulator
    together receive exactly the value of row j. -/
theorem fold_rows_one (l : ℕ) (ρ : Fin 8 → Fin 8) (α : Fin 8 → Fin 16)
    (hρ : ∀ cc, (ρ cc).val = (cc.val + l) % 8) (hα : ∀ cc, (α cc).val = (cc.val + l) % 16)
    (c : Prop) [Decidable c] (v : Fin 8 → M) (j : Fin 8) :
    (∑ cc, if (α cc).val = j.val ∧ c then v (ρ cc) else 0)
      + (∑ cc, if (α cc).val = j.val + 8 ∧ c then v (ρ cc) else 0)
      = if c then v j else 0 := by
  by_cases hc : c
  · simp only [hc, and_true, if_true]
    rw [← Finset.sum_add_distrib]
    have hb := rot_bij l ρ hρ
    have key : ∀ cc, ((if (α cc).val = j.val then v (ρ cc) else 0)
        + (if (α cc).val = j.val + 8 then v (ρ cc) else 0))
        = (fun i => if i = j then v j else 0) (ρ cc) := by
      intro cc
      have h1 := hρ cc
      have h2 := hα cc
      have hj := j.isLt
      show _ = if ρ cc = j then v j else 0
      by_cases h : ρ cc = j
      · have hv : (ρ cc).val = j.val := congrArg Fin.val h
        rcases (show (α cc).val = j.val ∨ (α cc).val = j.val + 8 by omega) with h3 | h3
        · have h4 : ¬ (α cc).val = j.val + 8 := by omega
          rw [if_pos h3, if_neg h4, add_zero, if_pos h, h]
        · have h4 : ¬ (α cc).val = j.val := by omega
          rw [if_neg h4, if_pos h3, zero_add, if_pos h, h]
      · have hv : (ρ cc).val ≠ j.val := fun e => h (Fin.ext e)
        have h3 : ¬ (α cc).val = j.val := by omega
        have h4 : ¬ (α cc).val = j.val + 8 := by omega
        rw [if_neg h3, if_neg h4, add_zero, if_neg h]
    rw [Finset.sum_congr rfl (fun cc _ => key cc), hb.sum_comp (fun i => if i = j then v j else 0),
      Finset.sum_ite_eq' Finset.univ j (fun _ => v j), if_pos (Finset.mem_univ j)]
  · simp only [hc, and_false, if_false, Finset.sum_const_zero, add_zero]

/-- All edges of a finite set of positions: folding row j + 8 onto row j gives the plain
    sum over the edges into m. -/
theorem fold_rows {P N : Type*} [DecidableEq N] (s : Finset P) (lane : P → ℕ)
    (ρ : P → Fin 8 → Fin 8) (α : P → Fin 8 → Fin 16)
    (hρ : ∀ p cc, (ρ p cc).val = (cc.val + lane p) % 8)
    (hα : ∀ p cc, (α p cc).val = (cc.val + lane p) % 16)
    (src dst : P → N) (ysv : Fin 8 → N → M) (j : Fin 8) (m : N) :
    (∑ p ∈ s, ∑ cc, if (α p cc).val = j.val ∧ dst p = m then ysv (ρ p cc) (src p) else 0)
      + (∑ p ∈ s, ∑ cc, if (α p cc).val = j.val + 8 ∧ dst p = m then ysv (ρ p cc) (src p) else 0)
      = ∑ p ∈ s, if dst p = m then ysv j (src p) else 0 := by
  rw [← Finset.sum_add_distrib]
  refine Finset.sum_congr rfl (fun p _ => ?_)
  exact fold_rows_one (lane p) (ρ p) (α p) (hρ p) (hα p) (dst p = m) (fun i => ysv i (src p)) j

end Rotation

/-! ## The degree is a real at least one, and its inverse square root is a real -/
section DegreeReal
variable {N E : Type*} [DecidableEq N] [Fintype E]

/-- With unit increments the degree, one more than the number of edges into n, is a real
    number at least one. -/
theorem deg_real (dst : E → N) (c : EReal) (hc : c = ((1 : ℝ) : EReal)) (n : N) :
    ∃ d : ℝ, 1 ≤ d ∧ (∑ e, if dst e = n then c else 0) + c = (d : EReal) := by
  subst hc
  refine ⟨(∑ e, if dst e = n then (1 : ℝ) else 0) + 1, ?_, ?_⟩
  · refine le_add_of_nonneg_left (Finset.sum_nonneg (fun e _ => ?_))
    split_ifs
    · exact zero_le_one
    · exact le_refl 0
  · rw [EReal.coe_add, coe_finset_sum]
    congr 1
    refine Finset.sum_congr rfl (fun e _ => ?_)
    rw [coe_ite_zero]

open Idealize.ShloMosaic in
/-- The inverse square root of a positive real is the real 1 / √d. -/
theorem rsqrt_real {d : ℝ} (hd : 0 < d) :
    Ideal.rsqrt (d : EReal) = (((Real.sqrt d)⁻¹ : ℝ) : EReal) := by
  rw [Ideal.rsqrt_coe, if_neg (not_lt.mpr hd.le), if_neg hd.ne']

open Idealize.ShloMosaic in
/-- Hence the normalising factor of every node is a real. -/
theorem rsqrt_deg_real (dst : E → N) (c : EReal) (hc : c = ((1 : ℝ) : EReal)) (n : N) :
    ∃ a : ℝ, Ideal.rsqrt ((∑ e, if dst e = n then c else 0) + c) = (a : EReal) := by
  obtain ⟨d, hd, h⟩ := deg_real dst c hc n
  rw [h]
  exact ⟨_, rsqrt_real (lt_of_lt_of_le zero_lt_one hd)⟩

end DegreeReal

end Cert.Proof.Algebra
-- ==== Proof.RefValue.lean ====
/-
  The result of the three graph convolutions, read at an index, at the ideal values.

  Each operation the stages are made of (an indexed sum into a table, an indexed read of a table, a product of
  matrices, a broadcast, a slice) is read at one index, over the literal shapes; then each stage; then one convolution
  as the sum over the edges into a node plus the node's own loop plus the bias; then the whole result as the sum of
  three such convolutions, of x, of A₀·x and of A₁·(A₀·x).
-/
import proofs.«205814_g58841051955373_cont_9to1_m_133_55_alg».proof.Proof.RefRun
import proofs.«205814_g58841051955373_cont_9to1_m_133_55_alg».proof.Proof.SpecAlgebra
import Idealize.ShloMosaic.Lib.ValueIdx
import Idealize.ShloMosaic.Lib.ValueIdxRank1
import Idealize.ShloMosaic.Lib.StableHlo.Predicate
import Idealize.ShloMosaic.Lib.Pipeline.Value
import Idealize.ShloMosaic.Lib.IdealHost
import Idealize.ShloMosaic.PureOps.Ideal.Laws

noncomputable section

namespace Cert.Proof.RefValue

open Cert.ReferenceIdeal Cert.ReferenceIdeal.Gen Idealize.ShloMosaic Idealize.ShloMosaic.ValueIdx
open Idealize.ShloMosaic.StableHlo Cert.ReferenceIdeal.HandRun

/-! ## The operations read at an index -/

/-- The node a 32-bit index word names: its signed value, kept inside the table. -/
def node (v : BitVec 32) : Fin 4096 := ⟨min v.toInt.toNat 4095, by omega⟩

theorem node_val_of_range {v : BitVec 32} (h0 : 0 ≤ v.toInt) (h1 : v.toInt ≤ 4095) :
    ((node v).val : Int) = v.toInt := by
  unfold node
  simp only
  omega

/-- The column of one-element index vectors read at row j is the list read at j. -/
theorem col_apply (idx : IVec S69632 32) (j : Fin 69632) :
    broadcastInDim S69632x1 ![0] bcast_S69632_S69632x1_0 idx (ix2 j (0 : Fin 1)) = idx (ix1 j) := by
  refine broadcastInDim_apply _ _ idx _ (ix1 j) (fun a => ?_)
  match a with
  | ⟨0, _⟩ => rfl

theorem scatter1_start (idx : IVec S69632x1 32) (j : Fin 69632) :
    scatter_S4096_S69632x1_S69632_n_0_0_1.start (ix1 j) idx (0 : Fin 1)
      = (idx (ix2 j (0 : Fin 1))).toInt := by
  unfold ScatterDims.start
  rw [dif_pos (show (0 : Fin 1) ∈ scatter_S4096_S69632x1_S69632_n_0_0_1.scatterDimsToOperandDims from
    List.mem_singleton.mpr rfl)]
  congr 2
  funext b
  match b with
  | ⟨0, _⟩ => rfl
  | ⟨1, _⟩ => rfl

theorem scatter1_window (j : Fin 69632) :
    scatter_S4096_S69632x1_S69632_n_0_0_1.window (ix1 j) (0 : Fin 1) = 0 := by
  unfold ScatterDims.window
  rw [dif_neg (by decide)]

/-- Where the rank-1 scatter sends update j: the node its index word names, when that is a node. -/
theorem scatter1_resultIdx (idx : IVec S69632x1 32) (j : Fin 69632) (n : Fin 4096) :
    scatter_S4096_S69632x1_S69632_n_0_0_1.resultIdx? (ix1 j) idx = some (ix1 n)
      ↔ (idx (ix2 j (0 : Fin 1))).toInt = (n.val : Int) := by
  have hs := scatter1_start idx j
  have hw := scatter1_window j
  have hn := n.isLt
  unfold ScatterDims.resultIdx?
  by_cases hc : ∀ a : Fin S4096.rank, 0 ≤ scatter_S4096_S69632x1_S69632_n_0_0_1.start (ix1 j) idx a
      + scatter_S4096_S69632x1_S69632_n_0_0_1.window (ix1 j) a
      ∧ scatter_S4096_S69632x1_S69632_n_0_0_1.start (ix1 j) idx a
      + scatter_S4096_S69632x1_S69632_n_0_0_1.window (ix1 j) a < S4096.size a
  · rw [dif_pos hc]
    have h0 := hc (0 : Fin 1)
    rw [hs, hw] at h0
    constructor
    · intro h
      have h' := congrFun (Option.some.inj h) (0 : Fin 1)
      have h'' := congrArg Fin.val h'
      simp only [hs, hw] at h''
      change ((idx (ix2 j (0 : Fin 1))).toInt + ((0 : Nat) : Int)).toNat = n.val at h''
      omega
    · intro h
      refine congrArg some (funext fun a => ?_)
      obtain rfl : a = (0 : Fin 1) := Subsingleton.elim _ _
      refine Fin.ext ?_
      simp only [hs, hw]
      change ((idx (ix2 j (0 : Fin 1))).toInt + ((0 : Nat) : Int)).toNat = n.val
      omega
  · rw [dif_neg hc]
    constructor
    · intro h
      exact absurd h (by simp)
    · intro h
      exfalso
      apply hc
      intro a
      obtain rfl : a = (0 : Fin 1) := Subsingleton.elim _ _
      rw [hs, hw]
      change 0 ≤ (idx (ix2 j (0 : Fin 1))).toInt + ((0 : Nat) : Int)
        ∧ (idx (ix2 j (0 : Fin 1))).toInt + ((0 : Nat) : Int) < ((4096 : Nat) : Int)
      omega

theorem ofFin_eq_ix1 {n : Nat} (p : Fin n) : Shape.Idx.ofFin p = ix1 p := by
  funext a
  match a with
  | ⟨0, _⟩ => rfl

theorem ixP_eq_ix2 {n : Nat} (p : Fin n) : Predicate.ixP p = ix2 p (0 : Fin 1) := by
  funext a
  match a with
  | ⟨0, _⟩ => rfl
  | ⟨1, _⟩ => rfl

/-- The rank-1 scatter-add read at a node: the operand there plus the updates whose index word names the node. -/
theorem scatterAdd1_apply (x : FVec Ideal S4096 .f32) (idx : IVec S69632x1 32) (upd : FVec Ideal S69632 .f32)
    (n : Fin 4096) :
    Host.scatterAdd scatter_S4096_S69632x1_S69632_n_0_0_1 x idx upd (ix1 n)
      = x (ix1 n) + ∑ j : Fin 69632, if (idx (ix2 j (0 : Fin 1))).toInt = (n.val : Int) then upd (ix1 j) else 0 := by
  show Ideal.hostScatterAdd scatter_S4096_S69632x1_S69632_n_0_0_1 x idx upd (ix1 n) = _
  unfold Ideal.hostScatterAdd
  refine congrArg (x (ix1 n) + ·) ?_
  rw [Finset.sum_filter, ← Equiv.sum_comp (idxEquiv1 (n := 69632)).symm]
  refine Finset.sum_congr rfl (fun j _ => ?_)
  show (if scatter_S4096_S69632x1_S69632_n_0_0_1.resultIdx? (ix1 j) idx = some (ix1 n) then upd (ix1 j) else 0) = _
  simp only [scatter1_resultIdx]

/-- The linear layer read at an index: the sum over the 128 input features. -/
theorem xw_apply (x : FVec Ideal S4096x2x128 .f32) (W : FVec Ideal S128x128 .f32) (n : Fin 4096) (m : Fin 2)
    (f : Fin 128) :
    Host.dotGeneral dot_S4096x2x128_S128x128_S4096x2x128_2_0_01_1_n_n none x W (ix3 n m f)
      = ∑ d : Fin 128, x (ix3 n m d) * W (ix2 d f) := by
  simp only [Host.dotGeneral]
  rw [Ideal.dotGeneral_apply,
    ← Equiv.sum_comp (contrEquiv1 dot_S4096x2x128_S128x128_S4096x2x128_2_0_01_1_n_n 128 rfl rfl).symm]
  refine Finset.sum_congr rfl (fun d _ => ?_)
  congr 2
  · funext a
    match a with
    | ⟨0, _⟩ => rfl
    | ⟨1, _⟩ => rfl
    | ⟨2, _⟩ => exact Fin.ext (contrEquiv1_symm_val dot_S4096x2x128_S128x128_S4096x2x128_2_0_01_1_n_n 128 rfl rfl d)
  · funext a
    match a with
    | ⟨0, _⟩ => exact Fin.ext (contrEquiv1_symm_val dot_S4096x2x128_S128x128_S4096x2x128_2_0_01_1_n_n 128 rfl rfl d)
    | ⟨1, _⟩ => rfl

/-- One diffusion step read at an index: the sum over the 4096 nodes. -/
theorem prop_apply (Ak : FVec Ideal S4096x4096 .f32) (x : FVec Ideal S4096x2x128 .f32) (n : Fin 4096) (m : Fin 2)
    (d : Fin 128) :
    Host.dotGeneral dot_S4096x4096_S4096x2x128_S4096x2x128_1_0_0_12_n_n none Ak x (ix3 n m d)
      = ∑ k : Fin 4096, Ak (ix2 n k) * x (ix3 k m d) := by
  simp only [Host.dotGeneral]
  rw [Ideal.dotGeneral_apply,
    ← Equiv.sum_comp (contrEquiv1 dot_S4096x4096_S4096x2x128_S4096x2x128_1_0_0_12_n_n 4096 rfl rfl).symm]
  refine Finset.sum_congr rfl (fun k _ => ?_)
  congr 2
  · funext a
    match a with
    | ⟨0, _⟩ => rfl
    | ⟨1, _⟩ => exact Fin.ext (contrEquiv1_symm_val dot_S4096x4096_S4096x2x128_S4096x2x128_1_0_0_12_n_n 4096 rfl rfl k)
  · funext a
    match a with
    | ⟨0, _⟩ => exact Fin.ext (contrEquiv1_symm_val dot_S4096x4096_S4096x2x128_S4096x2x128_1_0_0_12_n_n 4096 rfl rfl k)
    | ⟨1, _⟩ => rfl
    | ⟨2, _⟩ => rfl

/-- The rank-1 gather read at a position: the table at the node the index word names. -/
theorem gather1_apply (x : FVec Ideal S4096 .f32) (idx : IVec S69632x1 32) (j : Fin 69632) :
    Host.gather gather_S4096_S69632x1_S69632_n_0_n_n_0_1_1 x idx (ix1 j) = x (ix1 (node (idx (ix2 j (0 : Fin 1))))) := by
  have h := Predicate.gather_take gather_S4096_S69632x1_S69632_n_0_n_n_0_1_1 rfl rfl rfl rfl x idx j (by norm_num)
  rw [ofFin_eq_ix1] at h
  rw [h]
  refine congrArg x (funext fun a => ?_)
  match a with
  | ⟨0, _⟩ =>
    refine Fin.ext ?_
    show min (idx (Predicate.ixP j)).toInt.toNat (4096 - 1) = min (idx (ix2 j (0 : Fin 1))).toInt.toNat 4095
    rw [ixP_eq_ix2]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (g : (⟨3, ![n0, n1, n2]⟩ : Shape).Idx → M) :
    ∑ i, g i = ∑ a : Fin n0, ∑ b : Fin n1, ∑ c : Fin n2, g (ix3 a b c) := by
  rw [← Equiv.sum_comp (idxEquiv3 (n0 := n0) (n1 := n1) (n2 := n2)).symm g, Fintype.sum_prod_type]
  refine Finset.sum_congr rfl (fun a _ => ?_)
  rw [Fintype.sum_prod_type]
  rfl

theorem scatter3_start0 (idx : IVec S69632x1 32) (j : Fin 69632) (m : Fin 2) (f : Fin 128) :
    scatter_S4096x2x128_S69632x1_S69632x2x128_12_0_0_1.start (ix3 j m f) idx (0 : Fin 3)
      = (idx (ix2 j (0 : Fin 1))).toInt := by
  unfold ScatterDims.start
  rw [dif_pos (show (0 : Fin 3) ∈ scatter_S4096x2x128_S69632x1_S69632x2x128_12_0_0_1.scatterDimsToOperandDims from
    List.mem_singleton.mpr rfl)]
  congr 2
  funext b
  match b with
  | ⟨0, _⟩ => rfl
  | ⟨1, _⟩ => rfl

theorem scatter3_start1 (idx : IVec S69632x1 32) (i : S69632x2x128.Idx) :
    scatter_S4096x2x128_S69632x1_S69632x2x128_12_0_0_1.start i idx (1 : Fin 3) = 0 := by
  unfold ScatterDims.start
  rw [dif_neg (by decide)]

theorem scatter3_start2 (idx : IVec S69632x1 32) (i : S69632x2x128.Idx) :
    scatter_S4096x2x128_S69632x1_S69632x2x128_12_0_0_1.start i idx (2 : Fin 3) = 0 := by
  unfold ScatterDims.start
  rw [dif_neg (by decide)]

theorem scatter3_window0 (i : S69632x2x128.Idx) :
    scatter_S4096x2x128_S69632x1_S69632x2x128_12_0_0_1.window i (0 : Fin 3) = 0 := by
  unfold ScatterDims.window
  rw [dif_neg (by decide)]

theorem scatter3_window1 (j : Fin 69632) (m : Fin 2) (f : Fin 128) :
    scatter_S4096x2x128_S69632x1_S69632x2x128_12_0_0_1.window (ix3 j m f) (1 : Fin 3) = m.val := by
  unfold ScatterDims.window
  rw [dif_pos (by decide)]
  rfl

theorem scatter3_window2 (j : Fin 69632) (m : Fin 2) (f : Fin 128) :
    scatter_S4096x2x128_S69632x1_S69632x2x128_12_0_0_1.window (ix3 j m f) (2 : Fin 3) = f.val := by
  unfold ScatterDims.window
  rw [dif_pos (by decide)]
  rfl

/-- Where the rank-3 scatter sends update (j, m', f'): row (node, m', f'), when the index word names a node. -/
theorem scatter3_resultIdx (idx : IVec S69632x1 32) (j : Fin 69632) (m' : Fin 2) (f' : Fin 128)
    (n : Fin 4096) (m : Fin 2) (f : Fin 128) :
    scatter_S4096x2x128_S69632x1_S69632x2x128_12_0_0_1.resultIdx? (ix3 j m' f') idx = some (ix3 n m f)
      ↔ ((idx (ix2 j (0 : Fin 1))).toInt = (n.val : Int) ∧ m' = m ∧ f' = f) := by
  have hs0 := scatter3_start0 idx j m' f'
  have hs1 := scatter3_start1 idx (ix3 j m' f')
  have hs2 := scatter3_start2 idx (ix3 j m' f')
  have hw0 := scatter3_window0 (ix3 j m' f')
  have hw1 := scatter3_window1 j m' f'
  have hw2 := scatter3_window2 j m' f'
  have hn := n.isLt
  have hm := m.isLt
  have hf := f.isLt
  have hm' := m'.isLt
  have hf' := f'.isLt
  unfold ScatterDims.resultIdx?
  by_cases hc : ∀ a : Fin S4096x2x128.rank,
      0 ≤ scatter_S4096x2x128_S69632x1_S69632x2x128_12_0_0_1.start (ix3 j m' f') idx a
        + scatter_S4096x2x128_S69632x1_S69632x2x128_12_0_0_1.window (ix3 j m' f') a
      ∧ scatter_S4096x2x128_S69632x1_S69632x2x128_12_0_0_1.start (ix3 j m' f') idx a
        + scatter_S4096x2x128_S69632x1_S69632x2x128_12_0_0_1.window (ix3 j m' f') a < S4096x2x128.size a
  · rw [dif_pos hc]
    have h0 := hc (0 : Fin 3)
    rw [hs0, hw0] at h0
    constructor
    · intro h
      have e := Option.some.inj h
      have e0 := congrArg Fin.val (congrFun e (0 : Fin 3))
      have e1 := congrArg Fin.val (congrFun e (1 : Fin 3))
      have e2 := congrArg Fin.val (congrFun e (2 : Fin 3))
      simp only [hs0, hw0] at e0
      simp only [hs1, hw1] at e1
      simp only [hs2, hw2] at e2
      change ((idx (ix2 j (0 : Fin 1))).toInt + ((0 : Nat) : Int)).toNat = n.val at e0
      change ((0 : Int) + (m'.val : Int)).toNat = m.val at e1
      change ((0 : Int) + (f'.val : Int)).toNat = f.val at e2
      refine ⟨by omega, Fin.ext (by omega), Fin.ext (by omega)⟩
    · rintro ⟨h, rfl, rfl⟩
      refine congrArg some (funext fun a => ?_)
      match a with
      | ⟨0, _⟩ =>
        refine Fin.ext ?_
        show ((scatter_S4096x2x128_S69632x1_S69632x2x128_12_0_0_1.start (ix3 j m' f') idx (0 : Fin 3))
          + (scatter_S4096x2x128_S69632x1_S69632x2x128_12_0_0_1.window (ix3 j m' f') (0 : Fin 3) : Int)).toNat = n.val
        rw [hs0, hw0]
        omega
      | ⟨1, _⟩ =>
        refine Fin.ext ?_
        show ((scatter_S4096x2x128_S69632x1_S69632x2x128_12_0_0_1.start (ix3 j m' f') idx (1 : Fin 3))
          + (scatter_S4096x2x128_S69632x1_S69632x2x128_12_0_0_1.window (ix3 j m' f') (1 : Fin 3) : Int)).toNat = m'.val
        rw [hs1, hw1]
        omega
      | ⟨2, _⟩ =>
        refine Fin.ext ?_
        show ((scatter_S4096x2x128_S69632x1_S69632x2x128_12_0_0_1.start (ix3 j m' f') idx (2 : Fin 3))
          + (scatter_S4096x2x128_S69632x1_S69632x2x128_12_0_0_1.window (ix3 j m' f') (2 : Fin 3) : Int)).toNat = f'.val
        rw [hs2, hw2]
        omega
  · rw [dif_neg hc]
    constructor
    · intro h
      exact absurd h (by simp)
    · rintro ⟨h, rfl, rfl⟩
      exfalso
      apply hc
      intro a
      match a with
      | ⟨0, _⟩ =>
        show 0 ≤ scatter_S4096x2x128_S69632x1_S69632x2x128_12_0_0_1.start (ix3 j m' f') idx (0 : Fin 3)
            + (scatter_S4096x2x128_S69632x1_S69632x2x128_12_0_0_1.window (ix3 j m' f') (0 : Fin 3) : Int)
          ∧ scatter_S4096x2x128_S69632x1_S69632x2x128_12_0_0_1.start (ix3 j m' f') idx (0 : Fin 3)
            + (scatter_S4096x2x128_S69632x1_S69632x2x128_12_0_0_1.window (ix3 j m' f') (0 : Fin 3) : Int) < ((4096 : Nat) : Int)
        rw [hs0, hw0]
        omega
      | ⟨1, _⟩ =>
        show 0 ≤ scatter_S4096x2x128_S69632x1_S69632x2x128_12_0_0_1.start (ix3 j m' f') idx (1 : Fin 3)
            + (scatter_S4096x2x128_S69632x1_S69632x2x128_12_0_0_1.window (ix3 j m' f') (1 : Fin 3) : Int)
          ∧ scatter_S4096x2x128_S69632x1_S69632x2x128_12_0_0_1.start (ix3 j m' f') idx (1 : Fin 3)
            + (scatter_S4096x2x128_S69632x1_S69632x2x128_12_0_0_1.window (ix3 j m' f') (1 : Fin 3) : Int) < ((2 : Nat) : Int)
        rw [hs1, hw1]
        omega
      | ⟨2, _⟩ =>
        show 0 ≤ scatter_S4096x2x128_S69632x1_S69632x2x128_12_0_0_1.start (ix3 j m' f') idx (2 : Fin 3)
            + (scatter_S4096x2x128_S69632x1_S69632x2x128_12_0_0_1.window (ix3 j m' f') (2 : Fin 3) : Int)
          ∧ scatter_S4096x2x128_S69632x1_S69632x2x128_12_0_0_1.start (ix3 j m' f') idx (2 : Fin 3)
            + (scatter_S4096x2x128_S69632x1_S69632x2x128_12_0_0_1.window (ix3 j m' f') (2 : Fin 3) : Int) < ((128 : Nat) : Int)
        rw [hs2, hw2]
        omega

/-- The rank-3 scatter-add read at (n, m, f): the operand there plus the updates' entries (j, m, f) over the
    positions j whose index word names n. -/
theorem scatterAdd3_apply (x : FVec Ideal S4096x2x128 .f32) (idx : IVec S69632x1 32)
    (upd : FVec Ideal S69632x2x128 .f32) (n : Fin 4096) (m : Fin 2) (f : Fin 128) :
    Host.scatterAdd scatter_S4096x2x128_S69632x1_S69632x2x128_12_0_0_1 x idx upd (ix3 n m f)
      = x (ix3 n m f)
        + ∑ j : Fin 69632, if (idx (ix2 j (0 : Fin 1))).toInt = (n.val : Int) then upd (ix3 j m f) else 0 := by
  show Ideal.hostScatterAdd scatter_S4096x2x128_S69632x1_S69632x2x128_12_0_0_1 x idx upd (ix3 n m f) = _
  unfold Ideal.hostScatterAdd
  refine congrArg (x (ix3 n m f) + ·) ?_
  rw [Finset.sum_filter, sum_idx3]
  refine Finset.sum_congr rfl (fun j _ => ?_)
  simp only [scatter3_resultIdx]
  by_cases hA : (idx (ix2 j (0 : Fin 1))).toInt = (n.val : Int)
  · simp only [hA, true_and, if_true]
    rw [Finset.sum_eq_single m]
    · rw [Finset.sum_eq_single f]
      · simp
      · intro f' _ hf'
        simp [hf']
      · intro h
        exact absurd (Finset.mem_univ f) h
    · intro m' _ hm'
      simp [hm']
    · intro h
      exact absurd (Finset.mem_univ m) h
  · simp [hA]

theorem gather3_start0 (idx : IVec S69632x1 32) (j : Fin 69632) (m : Fin 2) (f : Fin 128) :
    gather_S4096x2x128_S69632x1_S69632x2x128_12_0_n_n_0_1_12128.start (ix3 j m f) idx (0 : Fin 3)
      = min (idx (ix2 j (0 : Fin 1))).toInt.toNat 4095 := by
  unfold GatherDims.start
  rw [dif_pos (show (0 : Fin 3) ∈ gather_S4096x2x128_S69632x1_S69632x2x128_12_0_n_n_0_1_12128.startIndexMap from
    List.mem_singleton.mpr rfl)]
  show min (idx _).toInt.toNat (4096 - 1) = _
  congr 3
  congr 1
  funext b
  match b with
  | ⟨0, _⟩ => rfl
  | ⟨1, _⟩ => rfl

theorem gather3_start1 (idx : IVec S69632x1 32) (i : S69632x2x128.Idx) :
    gather_S4096x2x128_S69632x1_S69632x2x128_12_0_n_n_0_1_12128.start i idx (1 : Fin 3) = 0 := by
  unfold GatherDims.start
  rw [dif_neg (by decide)]

theorem gather3_start2 (idx : IVec S69632x1 32) (i : S69632x2x128.Idx) :
    gather_S4096x2x128_S69632x1_S69632x2x128_12_0_n_n_0_1_12128.start i idx (2 : Fin 3) = 0 := by
  unfold GatherDims.start
  rw [dif_neg (by decide)]

theorem gather3_off0 (i : S69632x2x128.Idx) :
    gather_S4096x2x128_S69632x1_S69632x2x128_12_0_n_n_0_1_12128.offCoord i (0 : Fin 3) = 0 := by
  unfold GatherDims.offCoord
  rw [dif_neg (by decide)]

theorem gather3_off1 (j : Fin 69632) (m : Fin 2) (f : Fin 128) :
    gather_S4096x2x128_S69632x1_S69632x2x128_12_0_n_n_0_1_12128.offCoord (ix3 j m f) (1 : Fin 3) = m.val := by
  unfold GatherDims.offCoord
  rw [dif_pos (by decide)]
  rfl

theorem gather3_off2 (j : Fin 69632) (m : Fin 2) (f : Fin 128) :
    gather_S4096x2x128_S69632x1_S69632x2x128_12_0_n_n_0_1_12128.offCoord (ix3 j m f) (2 : Fin 3) = f.val := by
  unfold GatherDims.offCoord
  rw [dif_pos (by decide)]
  rfl

/-- The rank-3 gather read at (j, m, f): the table's row at the node the index word names, entry (m, f). -/
theorem gather3_apply (y : FVec Ideal S4096x2x128 .f32) (idx : IVec S69632x1 32) (j : Fin 69632) (m : Fin 2)
    (f : Fin 128) :
    Host.gather gather_S4096x2x128_S69632x1_S69632x2x128_12_0_n_n_0_1_12128 y idx (ix3 j m f)
      = y (ix3 (node (idx (ix2 j (0 : Fin 1)))) m f) := by
  unfold Host.gather
  refine congrArg y (funext fun a => ?_)
  have hb : ∀ a : Fin 3, gather_S4096x2x128_S69632x1_S69632x2x128_12_0_n_n_0_1_12128.batchCoord (ix3 j m f) a = 0 :=
    fun a => GatherDims.batchCoord_eq_zero _ _ _ List.not_mem_nil
  match a with
  | ⟨0, _⟩ =>
    refine Fin.ext ?_
    show gather_S4096x2x128_S69632x1_S69632x2x128_12_0_n_n_0_1_12128.start (ix3 j m f) idx (0 : Fin 3)
      + gather_S4096x2x128_S69632x1_S69632x2x128_12_0_n_n_0_1_12128.batchCoord (ix3 j m f) (0 : Fin 3)
      + gather_S4096x2x128_S69632x1_S69632x2x128_12_0_n_n_0_1_12128.offCoord (ix3 j m f) (0 : Fin 3)
      = min (idx (ix2 j (0 : Fin 1))).toInt.toNat 4095
    rw [gather3_start0, hb, gather3_off0]
    omega
  | ⟨1, _⟩ =>
    refine Fin.ext ?_
    show gather_S4096x2x128_S69632x1_S69632x2x128_12_0_n_n_0_1_12128.start (ix3 j m f) idx (1 : Fin 3)
      + gather_S4096x2x128_S69632x1_S69632x2x128_12_0_n_n_0_1_12128.batchCoord (ix3 j m f) (1 : Fin 3)
      + gather_S4096x2x128_S69632x1_S69632x2x128_12_0_n_n_0_1_12128.offCoord (ix3 j m f) (1 : Fin 3)
      = m.val
    rw [gather3_start1, hb, gather3_off1]
    omega
  | ⟨2, _⟩ =>
    refine Fin.ext ?_
    show gather_S4096x2x128_S69632x1_S69632x2x128_12_0_n_n_0_1_12128.start (ix3 j m f) idx (2 : Fin 3)
      + gather_S4096x2x128_S69632x1_S69632x2x128_12_0_n_n_0_1_12128.batchCoord (ix3 j m f) (2 : Fin 3)
      + gather_S4096x2x128_S69632x1_S69632x2x128_12_0_n_n_0_1_12128.offCoord (ix3 j m f) (2 : Fin 3)
      = f.val
    rw [gather3_start2, hb, gather3_off2]
    omega

/-- Row r of the 2 × 65536 index table, as a list: entry e is adj (r, e). -/
theorem row_apply (adj : IVec S2x65536 32) (r : Fin 2) (h : S2x65536.Slices ![r.val, 0] S1x65536) (e : Fin 65536) :
    shapeCast S65536 (extractStridedSlice S1x65536 ![r.val, 0] adj h) shapeCasts_S1x65536_S65536 (ix1 e)
      = adj (ix2 r e) := by
  rw [shapeCast_dropUnit_apply (n := 1) ![65536]]
  refine extractStridedSlice_apply _ adj h _ (ix2 r e) (fun a => ?_)
  match a with
  | ⟨0, _⟩ => rfl
  | ⟨1, _⟩ =>
    show e.val = 0 + e.val
    omega

/-- The edges' ends followed by the nodes: below 65536 the edge's word … -/
theorem cat2_lo (a : IVec S65536 32) (b : IVec S4096 32) (e : Fin 65536) (j : Fin 69632) (hj : j.val = e.val) :
    concatenate S69632 0 [⟨S65536, a⟩, ⟨S4096, b⟩] concatenates_S65536_S4096_S69632_d0 (ix1 j) = a (ix1 e) := by
  refine concatenate_pair_apply_left (0 : Fin 1) a b _ (ix1 j) rfl (ix1 e) (fun c => ?_)
  match c with
  | ⟨0, _⟩ => exact hj.symm

/-- … and from 65536 on the node's. -/
theorem cat2_hi (a : IVec S65536 32) (b : IVec S4096 32) (k : Fin 4096) (j : Fin 69632)
    (hj : j.val = 65536 + k.val) :
    concatenate S69632 0 [⟨S65536, a⟩, ⟨S4096, b⟩] concatenates_S65536_S4096_S69632_d0 (ix1 j) = b (ix1 k) := by
  refine concatenate_pair_apply_right (0 : Fin 1) a b _ (ix1 j) rfl rfl (ix1 k) (fun c hc => ?_) ?_
  · match c with
    | ⟨0, _⟩ => exact absurd rfl hc
  · show k.val + 65536 = j.val
    omega

/-! ## Index words in range -/

theorem cmpi_sge_zero {v : BitVec 32} (h : 0 ≤ v.toInt) : IntOp.cmpi .sge v 0#32 = 1#1 := by
  show BitVec.ofBool ((0#32 : BitVec 32).sle v) = 1#1
  rw [Predicate.ofBool_eq_one_iff]
  simp only [BitVec.sle, decide_eq_true_eq]
  have h0 : (0#32 : BitVec 32).toInt = 0 := by decide
  omega

theorem cmpi_sle_max {v : BitVec 32} (h : v.toInt ≤ 4095) : IntOp.cmpi .sle v 4095#32 = 1#1 := by
  show BitVec.ofBool (v.sle (4095#32 : BitVec 32)) = 1#1
  rw [Predicate.ofBool_eq_one_iff]
  simp only [BitVec.sle, decide_eq_true_eq]
  have h0 : (4095#32 : BitVec 32).toInt = 4095 := by decide
  omega

theorem cmpi_slt_zero {v : BitVec 32} (h : 0 ≤ v.toInt) : IntOp.cmpi .slt v 0#32 = 0#1 := by
  show BitVec.ofBool (v.slt (0#32 : BitVec 32)) = 0#1
  have h0 : (0#32 : BitVec 32).toInt = 0 := by decide
  have : v.slt (0#32 : BitVec 32) = false := by
    simp only [BitVec.slt, decide_eq_false_iff_not]
    omega
  rw [this]
  rfl

/-- A fold of "and" over ones, from one, is one. -/
theorem foldl_andi_one {ι : Type} (l : List ι) :
    l.foldl (fun (r : BitVec 1) _ => IntOp.andi r 1#1) 1#1 = 1#1 := by
  induction l with
  | nil => rfl
  | cons a l ih =>
    rw [List.foldl_cons]
    exact ih

/-- The guard's small constant is at most one. -/
theorem eps_le_one : Ideal.ofBits .f32 0x2B8CBCCC#32 ≤ 1 := by
  have h : Ideal.ofBits .f32 0x2B8CBCCC#32 = (((9223372 : ℝ) * (2 : ℝ) ^ (-63 : Int) : ℝ) : EReal) := by
    simp [Ideal.ofBits, Ideal.ieee, -EReal.coe_mul]
  rw [h, show (1 : EReal) = ((1 : ℝ) : EReal) by norm_cast, EReal.coe_le_coe_iff]
  norm_num

/-- Member r of a stack of matrices, as a matrix: entry (d, f) is the stack's (r, d, f). -/
theorem member3_apply {R A B : Nat} (X : (⟨3, ![R, A, B]⟩ : Shape).Idx → EReal) (r : Fin R)
    (h : (⟨3, ![R, A, B]⟩ : Shape).Slices ![r.val, 0, 0] ⟨3, ![1, A, B]⟩)
    (hc : (⟨3, ![1, A, B]⟩ : Shape).ShapeCasts ⟨2, ![A, B]⟩) (d : Fin A) (f : Fin B) :
    shapeCast ⟨2, ![A, B]⟩ (extractStridedSlice ⟨3, ![1, A, B]⟩ ![r.val, 0, 0] X h) hc (ix2 d f) = X (ix3 r d f) := by
  rw [shapeCast_dropUnit_apply (n := 2) ![A, B]]
  refine extractStridedSlice_apply _ X h _ (ix3 r d f) (fun a => ?_)
  match a with
  | ⟨0, _⟩ => rfl
  | ⟨1, _⟩ =>
    show d.val = 0 + d.val
    omega
  | ⟨2, _⟩ =>
    show f.val = 0 + f.val
    omega

/-- Row r of a stack of vectors, as a vector: entry f is the stack's (r, f). -/
theorem member2_apply {R B : Nat} (X : (⟨2, ![R, B]⟩ : Shape).Idx → EReal) (r : Fin R)
    (h : (⟨2, ![R, B]⟩ : Shape).Slices ![r.val, 0] ⟨2, ![1, B]⟩)
    (hc : (⟨2, ![1, B]⟩ : Shape).ShapeCasts ⟨1, ![B]⟩) (f : Fin B) :
    shapeCast ⟨1, ![B]⟩ (extractStridedSlice ⟨2, ![1, B]⟩ ![r.val, 0] X h) hc (ix1 f) = X (ix2 r f) := by
  rw [shapeCast_dropUnit_apply (n := 1) ![B]]
  refine extractStridedSlice_apply _ X h _ (ix2 r f) (fun a => ?_)
  match a with
  | ⟨0, _⟩ => rfl
  | ⟨1, _⟩ =>
    show f.val = 0 + f.val
    omega

/-! ## The stages read at an index -/

theorem srcIdx_lo (adj : IVec S2x65536 32) (e : Fin 65536) (j : Fin 69632) (hj : j.val = e.val) :
    srcIdx (F := Ideal) adj (ix1 j) = adj (ix2 (0 : Fin 2) e) := by
  unfold srcIdx cat2
  rw [cat2_lo _ _ e j hj]
  exact row_apply adj (0 : Fin 2) _ e

theorem srcIdx_hi (adj : IVec S2x65536 32) (k : Fin 4096) (j : Fin 69632) (hj : j.val = 65536 + k.val) :
    srcIdx (F := Ideal) adj (ix1 j) = BitVec.ofNat 32 k.val := by
  unfold srcIdx cat2
  rw [cat2_hi _ _ k j hj]
  rfl

theorem dstIdx_lo (adj : IVec S2x65536 32) (e : Fin 65536) (j : Fin 69632) (hj : j.val = e.val) :
    dstIdx (F := Ideal) adj (ix1 j) = adj (ix2 (1 : Fin 2) e) := by
  unfold dstIdx cat2
  rw [cat2_lo _ _ e j hj]
  exact row_apply adj (1 : Fin 2) _ e

theorem dstIdx_hi (adj : IVec S2x65536 32) (k : Fin 4096) (j : Fin 69632) (hj : j.val = 65536 + k.val) :
    dstIdx (F := Ideal) adj (ix1 j) = BitVec.ofNat 32 k.val := by
  unfold dstIdx cat2
  rw [cat2_hi _ _ k j hj]
  rfl

theorem ofNat_range (k : Fin 4096) :
    0 ≤ (BitVec.ofNat 32 k.val).toInt ∧ (BitVec.ofNat 32 k.val).toInt ≤ 4095 := by
  have hk := k.isLt
  rw [Predicate.toInt_ofNat_small k.val (by omega)]
  omega

theorem node_ofNat (k : Fin 4096) : node (BitVec.ofNat 32 k.val) = k := by
  have hk := k.isLt
  refine Fin.ext ?_
  show min (BitVec.ofNat 32 k.val).toInt.toNat 4095 = k.val
  rw [Predicate.toInt_ofNat_small k.val (by omega)]
  omega

/-- Every entry of the extended source list names a node. -/
theorem srcIdx_range (adj : IVec S2x65536 32) (hadj : ∀ i, 0 ≤ (adj i).toInt ∧ (adj i).toInt ≤ 4095)
    (j : Fin 69632) :
    0 ≤ (srcIdx (F := Ideal) adj (ix1 j)).toInt ∧ (srcIdx (F := Ideal) adj (ix1 j)).toInt ≤ 4095 := by
  have hj := j.isLt
  by_cases h : j.val < 65536
  · rw [srcIdx_lo adj ⟨j.val, h⟩ j rfl]
    exact hadj _
  · rw [srcIdx_hi adj ⟨j.val - 65536, by omega⟩ j (by show j.val = 65536 + (j.val - 65536); omega)]
    exact ofNat_range _

theorem dstIdx_range (adj : IVec S2x65536 32) (hadj : ∀ i, 0 ≤ (adj i).toInt ∧ (adj i).toInt ≤ 4095)
    (j : Fin 69632) :
    0 ≤ (dstIdx (F := Ideal) adj (ix1 j)).toInt ∧ (dstIdx (F := Ideal) adj (ix1 j)).toInt ≤ 4095 := by
  have hj := j.isLt
  by_cases h : j.val < 65536
  · rw [dstIdx_lo adj ⟨j.val, h⟩ j rfl]
    exact hadj _
  · rw [dstIdx_hi adj ⟨j.val - 65536, by omega⟩ j (by show j.val = 65536 + (j.val - 65536); omega)]
    exact ofNat_range _

/-- An index that is not negative is left as it is. -/
theorem wrapIdx_apply (idx : IVec S69632 32) (j : Fin 69632) (h0 : 0 ≤ (idx (ix1 j)).toInt) :
    wrapIdx (F := Ideal) idx (ix1 j) = idx (ix1 j) := by
  show Scalar.select (IntOp.cmpi .slt (idx (ix1 j)) 0#32) (IntOp.addi (idx (ix1 j)) 4096#32) (idx (ix1 j)) = _
  rw [cmpi_slt_zero h0, select_zero]

theorem col_wrapIdx_apply (idx : IVec S69632 32) (j : Fin 69632) (h0 : 0 ≤ (idx (ix1 j)).toInt) :
    col (F := Ideal) (wrapIdx (F := Ideal) idx) (ix2 j (0 : Fin 1)) = idx (ix1 j) := by
  unfold col
  rw [col_apply, wrapIdx_apply idx j h0]

/-- The in-degree over the extended list: the number of entries whose destination is n. -/
theorem deg_apply (adj : IVec S2x65536 32) (n : Fin 4096) :
    deg (F := Ideal) adj (ix1 n)
      = ∑ j : Fin 69632, if (dstIdx (F := Ideal) adj (ix1 j)).toInt = (n.val : Int) then (1 : EReal) else 0 := by
  unfold deg
  rw [scatterAdd1_apply]
  have hz : broadcastInDim S4096 ![] bcast_S_S4096 (constant (F := Ideal) S_ .f32 0x00000000#32) (ix1 n) = 0 :=
    Ideal.ofBits_zero_f32
  rw [hz, zero_add]
  refine Finset.sum_congr rfl (fun j _ => ?_)
  unfold col
  rw [col_apply]
  have ho : broadcastInDim S69632 ![] bcast_S_S69632 (constant (F := Ideal) S_ .f32 0x3F800000#32) (ix1 j) = 1 :=
    Ideal.ofBits_one_f32
  rw [ho]

/-- The degree is at least one: the node's own loop is counted. -/
theorem one_le_deg (adj : IVec S2x65536 32) (n : Fin 4096) : (1 : EReal) ≤ deg (F := Ideal) adj (ix1 n) := by
  rw [deg_apply]
  have hn := n.isLt
  let j0 : Fin 69632 := ⟨65536 + n.val, by omega⟩
  have hj0 : (dstIdx (F := Ideal) adj (ix1 j0)).toInt = (n.val : Int) := by
    rw [dstIdx_hi adj n j0 rfl, Predicate.toInt_ofNat_small n.val (by omega)]
  have hle := Finset.single_le_sum (f := fun j : Fin 69632 =>
      if (dstIdx (F := Ideal) adj (ix1 j)).toInt = (n.val : Int) then (1 : EReal) else 0)
    (fun j _ => by
      show (0 : EReal) ≤ if (dstIdx (F := Ideal) adj (ix1 j)).toInt = (n.val : Int) then (1 : EReal) else 0
      split_ifs
      · exact zero_le_one
      · exact le_refl 0) (Finset.mem_univ j0)
  simp only [hj0, if_true] at hle
  exact hle

/-- The normalising factor of a node: the inverse square root of its degree. -/
theorem dinv_apply (adj : IVec S2x65536 32) (n : Fin 4096) :
    dinv (F := Ideal) adj (ix1 n) = Ideal.rsqrt (deg (F := Ideal) adj (ix1 n)) := by
  have h1 := one_le_deg adj n
  unfold dinv
  generalize deg (F := Ideal) adj = D at h1 ⊢
  have hpos : (0 : EReal) < D (ix1 n) := lt_of_lt_of_le zero_lt_one h1
  show Scalar.select (Ideal.cmp .ogt (D (ix1 n)) (Ideal.ofBits .f32 0x00000000#32))
      (Ideal.rsqrt (max (D (ix1 n)) (Ideal.ofBits .f32 0x2B8CBCCC#32)))
      (Ideal.ofBits .f32 0x00000000#32) = _
  rw [Ideal.ofBits_zero_f32]
  have hc : Ideal.cmp .ogt (D (ix1 n)) 0 = 1#1 := by
    show BitVec.ofBool (decide ((0 : EReal) < D (ix1 n))) = 1#1
    rw [Predicate.ofBool_eq_one_iff, decide_eq_true_eq]
    exact hpos
  rw [hc, select_one, max_eq_left (le_trans eps_le_one h1)]

theorem dinvAt_apply (adj : IVec S2x65536 32) (idx : IVec S69632 32) (j : Fin 69632)
    (h0 : 0 ≤ (idx (ix1 j)).toInt) :
    dinvAt (F := Ideal) adj idx (ix1 j) = dinv (F := Ideal) adj (ix1 (node (idx (ix1 j)))) := by
  unfold dinvAt
  rw [gather1_apply, col_wrapIdx_apply idx j h0]

theorem norm_apply (adj : IVec S2x65536 32) (hadj : ∀ i, 0 ≤ (adj i).toInt ∧ (adj i).toInt ≤ 4095)
    (j : Fin 69632) :
    HandRun.norm (F := Ideal) adj (ix1 j)
      = dinv (F := Ideal) adj (ix1 (node (srcIdx (F := Ideal) adj (ix1 j))))
        * dinv (F := Ideal) adj (ix1 (node (dstIdx (F := Ideal) adj (ix1 j)))) := by
  unfold HandRun.norm
  rw [mulf_apply, dinvAt_apply adj _ j (srcIdx_range adj hadj j).1, dinvAt_apply adj _ j (dstIdx_range adj hadj j).1]

/-- Every row of the list names a node, so the mask is set everywhere. -/
theorem inRange_apply (idx : IVec S69632 32)
    (hall : ∀ j : Fin 69632, 0 ≤ (idx (ix1 j)).toInt ∧ (idx (ix1 j)).toInt ≤ 4095) (j : Fin 69632) :
    inRange (F := Ideal) idx (ix1 j) = 1#1 := by
  unfold inRange
  have hX : andi (cmpi .sge (col (F := Ideal) (wrapIdx (F := Ideal) idx))
        (broadcastInDim S69632x1 ![] bcast_S_S69632x1 (constantI S_ 32 0#32)))
      (cmpi .sle (col (F := Ideal) (wrapIdx (F := Ideal) idx))
        (broadcastInDim S69632x1 ![0, 1] bcast_S1x1_S69632x1_0_1
          (broadcastInDim S1x1 ![1] bcast_S1_S1x1_1 (constantI S1 32 4095#32))))
      = fun _ => 1#1 := by
    funext i
    obtain ⟨p, q, rfl⟩ : ∃ p q, i = ix2 p q := ⟨i 0, i 1, eq_ix2 i⟩
    obtain rfl : q = (0 : Fin 1) := Subsingleton.elim _ _
    show IntOp.andi (IntOp.cmpi .sge (col (F := Ideal) (wrapIdx (F := Ideal) idx) (ix2 p (0 : Fin 1))) 0#32)
      (IntOp.cmpi .sle (col (F := Ideal) (wrapIdx (F := Ideal) idx) (ix2 p (0 : Fin 1))) 4095#32) = 1#1
    rw [col_wrapIdx_apply idx p (hall p).1, cmpi_sge_zero (hall p).1, cmpi_sle_max (hall p).2]
    rfl
  rw [hX]
  unfold Host.reduce
  exact foldl_andi_one _

theorem takeRows_apply (y : FVec Ideal S4096x2x128 .f32) (idx : IVec S69632 32)
    (hall : ∀ j : Fin 69632, 0 ≤ (idx (ix1 j)).toInt ∧ (idx (ix1 j)).toInt ≤ 4095)
    (j : Fin 69632) (m : Fin 2) (f : Fin 128) :
    takeRows (F := Ideal) y idx (ix3 j m f) = y (ix3 (node (idx (ix1 j))) m f) := by
  unfold takeRows
  rw [select_apply]
  have hm : broadcastInDim S69632x2x128 ![0] bcast_S69632_S69632x2x128_0 (inRange (F := Ideal) idx) (ix3 j m f)
      = inRange (F := Ideal) idx (ix1 j) := by
    refine broadcastInDim_apply _ _ _ _ (ix1 j) (fun a => ?_)
    match a with
    | ⟨0, _⟩ => rfl
  rw [hm, inRange_apply idx hall j, select_one, gather3_apply, col_wrapIdx_apply idx j (hall j).1]

theorem spread_apply (w : FVec Ideal S69632 .f32) (j : Fin 69632) (m : Fin 2) (f : Fin 128) :
    spread (F := Ideal) w (ix3 j m f) = w (ix1 j) := by
  unfold spread
  have h1 : broadcastInDim S69632x2x128 ![0, 1, 2] bcast_S69632x1x1_S69632x2x128_0_1_2
      (broadcastInDim S69632x1x1 ![0] bcast_S69632_S69632x1x1_0 w) (ix3 j m f)
      = broadcastInDim S69632x1x1 ![0] bcast_S69632_S69632x1x1_0 w (ix3 j (0 : Fin 1) (0 : Fin 1)) := by
    refine broadcastInDim_apply _ _ _ _ (ix3 j (0 : Fin 1) (0 : Fin 1)) (fun a => ?_)
    match a with
    | ⟨0, _⟩ => rfl
    | ⟨1, _⟩ => rfl
    | ⟨2, _⟩ => rfl
  rw [h1]
  refine broadcastInDim_apply _ _ _ _ (ix1 j) (fun a => ?_)
  match a with
  | ⟨0, _⟩ => rfl

theorem biasB_apply (b : FVec Ideal S128 .f32) (n : Fin 4096) (m : Fin 2) (f : Fin 128) :
    biasB (F := Ideal) b (ix3 n m f) = b (ix1 f) := by
  unfold biasB
  have h1 : broadcastInDim S4096x2x128 ![0, 1, 2] bcast_S1x1x128_S4096x2x128_0_1_2
      (broadcastInDim S1x1x128 ![2] bcast_S128_S1x1x128_2 b) (ix3 n m f)
      = broadcastInDim S1x1x128 ![2] bcast_S128_S1x1x128_2 b (ix3 (0 : Fin 1) (0 : Fin 1) f) := by
    refine broadcastInDim_apply _ _ _ _ (ix3 (0 : Fin 1) (0 : Fin 1) f) (fun a => ?_)
    match a with
    | ⟨0, _⟩ => rfl
    | ⟨1, _⟩ => rfl
    | ⟨2, _⟩ => rfl
  rw [h1]
  refine broadcastInDim_apply _ _ _ _ (ix1 f) (fun a => ?_)
  match a with
  | ⟨0, _⟩ => rfl

/-! ## The result in the algebra's terms -/

/-- The source and destination node of edge e. -/
def src (adj : IVec S2x65536 32) (e : Fin 65536) : Fin 4096 := node (adj (ix2 (0 : Fin 2) e))
def dst (adj : IVec S2x65536 32) (e : Fin 65536) : Fin 4096 := node (adj (ix2 (1 : Fin 2) e))

/-- The normalising factor of node n: the inverse square root of one more than the number of edges into n. -/
def rr (adj : IVec S2x65536 32) (n : Fin 4096) : EReal :=
  Ideal.rsqrt ((∑ e, if dst adj e = n then (1 : EReal) else 0) + 1)

/-- Column block m of the features, of the once diffused and of the twice diffused features. -/
def z0 (x : FVec Ideal S4096x2x128 .f32) (m : Fin 2) : Fin 4096 → Fin 128 → EReal := fun n d => x (ix3 n m d)
def z1 (x : FVec Ideal S4096x2x128 .f32) (A : FVec Ideal S2x4096x4096 .f32) (m : Fin 2) :
    Fin 4096 → Fin 128 → EReal := fun n d => ∑ k : Fin 4096, A (ix3 (0 : Fin 2) n k) * x (ix3 k m d)
def z2 (x : FVec Ideal S4096x2x128 .f32) (A : FVec Ideal S2x4096x4096 .f32) (m : Fin 2) :
    Fin 4096 → Fin 128 → EReal := fun n d => ∑ k : Fin 4096, A (ix3 (1 : Fin 2) n k) * z1 x A m k d

/-- The two weight matrices and biases in use. -/
def W0 (Ws : FVec Ideal S3x128x128 .f32) : Fin 128 → Fin 128 → EReal := fun d f => Ws (ix3 (0 : Fin 3) d f)
def W1 (Ws : FVec Ideal S3x128x128 .f32) : Fin 128 → Fin 128 → EReal := fun d f => Ws (ix3 (1 : Fin 3) d f)
def b0 (bs : FVec Ideal S3x128 .f32) : Fin 128 → EReal := fun f => bs (ix2 (0 : Fin 3) f)
def b1 (bs : FVec Ideal S3x128 .f32) : Fin 128 → EReal := fun f => bs (ix2 (1 : Fin 3) f)

theorem node_eq_iff {v : BitVec 32} (h0 : 0 ≤ v.toInt) (h1 : v.toInt ≤ 4095) (n : Fin 4096) :
    v.toInt = (n.val : Int) ↔ node v = n := by
  have h := node_val_of_range h0 h1
  constructor
  · intro e
    exact Fin.ext (by omega)
  · intro e
    rw [← e]
    omega

/-- The extended lists as nodes: an edge's end on the edges, the node itself on the loops. -/
theorem srcNode_sum (adj : IVec S2x65536 32) (s : Fin 65536 ⊕ Fin 4096) :
    node (srcIdx (F := Ideal) adj (ix1 (finSumFinEquiv s))) = Sum.elim (src adj) id s := by
  cases s with
  | inl e => rw [srcIdx_lo adj e _ (by rw [finSumFinEquiv_apply_left]; rfl)]; rfl
  | inr k => rw [srcIdx_hi adj k _ (by rw [finSumFinEquiv_apply_right]; rfl), node_ofNat]; rfl

theorem dstNode_sum (adj : IVec S2x65536 32) (s : Fin 65536 ⊕ Fin 4096) :
    node (dstIdx (F := Ideal) adj (ix1 (finSumFinEquiv s))) = Sum.elim (dst adj) id s := by
  cases s with
  | inl e => rw [dstIdx_lo adj e _ (by rw [finSumFinEquiv_apply_left]; rfl)]; rfl
  | inr k => rw [dstIdx_hi adj k _ (by rw [finSumFinEquiv_apply_right]; rfl), node_ofNat]; rfl

/-- The degree is one more than the number of edges into the node. -/
theorem deg_eq (adj : IVec S2x65536 32) (hadj : ∀ i, 0 ≤ (adj i).toInt ∧ (adj i).toInt ≤ 4095) (n : Fin 4096) :
    deg (F := Ideal) adj (ix1 n) = (∑ e, if dst adj e = n then (1 : EReal) else 0) + 1 := by
  rw [deg_apply, ← Algebra.deg_with_loops (dst adj) (1 : EReal) n,
    Algebra.sum_fin_add 65536 4096 (fun j : Fin 69632 =>
      if (dstIdx (F := Ideal) adj (ix1 j)).toInt = (n.val : Int) then (1 : EReal) else 0)]
  refine Finset.sum_congr rfl (fun s _ => ?_)
  have hr := dstIdx_range adj hadj (finSumFinEquiv s)
  simp only [node_eq_iff hr.1 hr.2 n, dstNode_sum]

theorem dinv_eq_rr (adj : IVec S2x65536 32) (hadj : ∀ i, 0 ≤ (adj i).toInt ∧ (adj i).toInt ≤ 4095) (n : Fin 4096) :
    dinv (F := Ideal) adj (ix1 n) = rr adj n := by
  rw [dinv_apply, deg_eq adj hadj n]
  rfl

/-- One convolution read at (n, m, f), in the algebra's terms. -/
theorem gcnConv_apply (x : FVec Ideal S4096x2x128 .f32) (adj : IVec S2x65536 32) (W : FVec Ideal S128x128 .f32)
    (b : FVec Ideal S128 .f32) (hadj : ∀ i, 0 ≤ (adj i).toInt ∧ (adj i).toInt ≤ 4095)
    (n : Fin 4096) (m : Fin 2) (f : Fin 128) :
    gcnConv (F := Ideal) x adj W b (ix3 n m f)
      = Algebra.gcn (src adj) (dst adj) (rr adj)
          (Algebra.mm (fun n d => x (ix3 n m d)) (fun d f => W (ix2 d f))) (fun f => b (ix1 f)) n f := by
  unfold gcnConv
  rw [addf_apply, biasB_apply]
  unfold HandRun.agg
  rw [scatterAdd3_apply]
  have hz : broadcastInDim S4096x2x128 ![] bcast_S_S4096x2x128 (constant (F := Ideal) S_ .f32 0x00000000#32)
      (ix3 n m f) = 0 := Ideal.ofBits_zero_f32
  rw [hz, zero_add, ← Algebra.gcn_with_loops (src adj) (dst adj) (rr adj)
      (Algebra.mm (fun n d => x (ix3 n m d)) (fun d f => W (ix2 d f))) (fun f => b (ix1 f)) n f,
    Algebra.sum_fin_add 65536 4096 (fun j : Fin 69632 =>
      if (col (F := Ideal) (dstIdx (F := Ideal) adj) (ix2 j (0 : Fin 1))).toInt = (n.val : Int)
        then msgs (F := Ideal) x adj W (ix3 j m f) else 0)]
  refine congrArg (· + b (ix1 f)) (Finset.sum_congr rfl (fun s _ => ?_))
  have hr := dstIdx_range adj hadj (finSumFinEquiv s)
  have hc : col (F := Ideal) (dstIdx (F := Ideal) adj) (ix2 (finSumFinEquiv s) (0 : Fin 1))
      = dstIdx (F := Ideal) adj (ix1 (finSumFinEquiv s)) := by
    unfold col
    exact col_apply _ _
  have hmsg : msgs (F := Ideal) x adj W (ix3 (finSumFinEquiv s) m f)
      = Algebra.mm (fun n d => x (ix3 n m d)) (fun d f => W (ix2 d f)) (Sum.elim (src adj) id s) f
        * (rr adj (Sum.elim (src adj) id s) * rr adj (Sum.elim (dst adj) id s)) := by
    unfold msgs
    rw [mulf_apply, takeRows_apply _ _ (srcIdx_range adj hadj), spread_apply, norm_apply adj hadj,
      srcNode_sum, dstNode_sum, dinv_eq_rr adj hadj, dinv_eq_rr adj hadj]
    unfold xw
    rw [xw_apply]
    rfl
  simp only [hc, node_eq_iff hr.1 hr.2 n, dstNode_sum, hmsg]

theorem selW0_apply (Ws : FVec Ideal S3x128x128 .f32) (d f : Fin 128) :
    selW0 (F := Ideal) Ws (ix2 d f) = W0 Ws d f :=
  member3_apply Ws (0 : Fin 3) _ _ d f

theorem selW1_apply (Ws : FVec Ideal S3x128x128 .f32) (d f : Fin 128) :
    selW1 (F := Ideal) Ws (ix2 d f) = W1 Ws d f :=
  member3_apply Ws (1 : Fin 3) _ _ d f

theorem selA0_apply (A : FVec Ideal S2x4096x4096 .f32) (n k : Fin 4096) :
    selA0 (F := Ideal) A (ix2 n k) = A (ix3 (0 : Fin 2) n k) :=
  member3_apply A (0 : Fin 2) _ _ n k

theorem selA1_apply (A : FVec Ideal S2x4096x4096 .f32) (n k : Fin 4096) :
    selA1 (F := Ideal) A (ix2 n k) = A (ix3 (1 : Fin 2) n k) :=
  member3_apply A (1 : Fin 2) _ _ n k

theorem selB0_apply (bs : FVec Ideal S3x128 .f32) (f : Fin 128) :
    selB0 (F := Ideal) bs (ix1 f) = b0 bs f :=
  member2_apply bs (0 : Fin 3) _ _ f

theorem selB1_apply (bs : FVec Ideal S3x128 .f32) (f : Fin 128) :
    selB1 (F := Ideal) bs (ix1 f) = b1 bs f :=
  member2_apply bs (1 : Fin 3) _ _ f

theorem prop0_apply (x : FVec Ideal S4096x2x128 .f32) (A : FVec Ideal S2x4096x4096 .f32) (n : Fin 4096)
    (m : Fin 2) (d : Fin 128) :
    HandRun.prop (F := Ideal) (selA0 (F := Ideal) A) x (ix3 n m d) = z1 x A m n d := by
  unfold HandRun.prop
  rw [prop_apply]
  exact Finset.sum_congr rfl (fun k _ => by rw [selA0_apply])

theorem prop1_apply (x : FVec Ideal S4096x2x128 .f32) (A : FVec Ideal S2x4096x4096 .f32) (n : Fin 4096)
    (m : Fin 2) (d : Fin 128) :
    HandRun.prop (F := Ideal) (selA1 (F := Ideal) A) (HandRun.prop (F := Ideal) (selA0 (F := Ideal) A) x) (ix3 n m d)
      = z2 x A m n d := by
  unfold HandRun.prop
  rw [prop_apply]
  refine Finset.sum_congr rfl (fun k _ => ?_)
  rw [selA1_apply]
  exact congrArg (A (ix3 (1 : Fin 2) n k) * ·) (prop0_apply x A k m d)

/-- THE RESULT READ AT (n, m, f): the three convolutions, of x, of A₀·x and of A₁·(A₀·x), in the algebra's terms. -/
theorem refVal_apply (x : FVec Ideal S4096x2x128 .f32) (adj : IVec S2x65536 32) (A : FVec Ideal S2x4096x4096 .f32)
    (Ws : FVec Ideal S3x128x128 .f32) (bs : FVec Ideal S3x128 .f32)
    (hadj : ∀ i, 0 ≤ (adj i).toInt ∧ (adj i).toInt ≤ 4095) (n : Fin 4096) (m : Fin 2) (f : Fin 128) :
    refVal (F := Ideal) x adj A Ws bs (ix3 n m f)
      = Algebra.gcn (src adj) (dst adj) (rr adj) (Algebra.mm (z0 x m) (W0 Ws)) (b0 bs) n f
        + Algebra.gcn (src adj) (dst adj) (rr adj) (Algebra.mm (z1 x A m) (W0 Ws)) (b0 bs) n f
        + Algebra.gcn (src adj) (dst adj) (rr adj) (Algebra.mm (z2 x A m) (W1 Ws)) (b1 bs) n f := by
  unfold refVal
  rw [addf_apply, addf_apply, gcnConv_apply _ adj _ _ hadj, gcnConv_apply _ adj _ _ hadj,
    gcnConv_apply _ adj _ _ hadj]
  have e0 : (fun d f => selW0 (F := Ideal) Ws (ix2 d f)) = W0 Ws := by
    funext d f; exact selW0_apply Ws d f
  have e1 : (fun d f => selW1 (F := Ideal) Ws (ix2 d f)) = W1 Ws := by
    funext d f; exact selW1_apply Ws d f
  have eb0 : (fun f => selB0 (F := Ideal) bs (ix1 f)) = b0 bs := by
    funext f; exact selB0_apply bs f
  have eb1 : (fun f => selB1 (F := Ideal) bs (ix1 f)) = b1 bs := by
    funext f; exact selB1_apply bs f
  have ez1 : (fun n d => HandRun.prop (F := Ideal) (selA0 (F := Ideal) A) x (ix3 n m d)) = z1 x A m := by
    funext n d; exact prop0_apply x A n m d
  have ez2 : (fun n d => HandRun.prop (F := Ideal) (selA1 (F := Ideal) A)
      (HandRun.prop (F := Ideal) (selA0 (F := Ideal) A) x) (ix3 n m d)) = z2 x A m := by
    funext n d; exact prop1_apply x A n m d
  rw [e0, e1, eb0, eb1, ez1, ez2]
  rfl

/-- The same result in the fused form: with every float input a real, the sum of the three convolutions is the one
    aggregation of the fused operand (z₀ + z₁)·W₀ + z₂·W₁, scaled on both sides, plus the bias 2·b₀ + b₁. -/
theorem refVal_eq_fused (x : FVec Ideal S4096x2x128 .f32) (adj : IVec S2x65536 32) (A : FVec Ideal S2x4096x4096 .f32)
    (Ws : FVec Ideal S3x128x128 .f32) (bs : FVec Ideal S3x128 .f32)
    (hx : ∀ i, ∃ a : ℝ, x i = a) (hA : ∀ i, ∃ a : ℝ, A i = a) (hWs : ∀ i, ∃ a : ℝ, Ws i = a)
    (hbs : ∀ i, ∃ a : ℝ, bs i = a) (hadj : ∀ i, 0 ≤ (adj i).toInt ∧ (adj i).toInt ≤ 4095)
    (c : EReal) (hc : c = ((2 : ℝ) : EReal)) (n : Fin 4096) (m : Fin 2) (f : Fin 128) :
    refVal (F := Ideal) x adj A Ws bs (ix3 n m f)
      = Algebra.fusedOut (src adj) (dst adj) (rr adj)
          (Algebra.fusedY (z0 x m) (z1 x A m) (z2 x A m) (W0 Ws) (W1 Ws))
          (fun f => c * b0 bs f + b1 bs f) n f := by
  have hz1 : ∀ n g, ∃ a : ℝ, z1 x A m n g = a := fun n g =>
    Algebra.exists_real_sum _ _ (fun k _ => Algebra.exists_real_mul (hA _) (hx _))
  rw [refVal_apply x adj A Ws bs hadj n m f]
  exact (Algebra.gcn_sum_eq_ereal (src adj) (dst adj) (rr adj) (z0 x m) (z1 x A m) (z2 x A m) (W0 Ws) (W1 Ws)
    (b0 bs) (b1 bs) c
    (fun n => Algebra.rsqrt_deg_real (dst adj) 1 EReal.coe_one.symm n)
    (fun n g => hx _) hz1
    (fun n g => Algebra.exists_real_sum _ _ (fun k _ => Algebra.exists_real_mul (hA _) (hz1 k g)))
    (fun g f => hWs _) (fun g f => hWs _) (fun f => hbs _) (fun f => hbs _) hc n f).symm

end Cert.Proof.RefValue

end
-- ==== Proof.KerValue.lean ====
/-
  The composed value of the fused computation, read at an index, and its agreement with the three convolutions.

  First the composition as pure algebra: the 256 fused features are two blocks of 128, the weights are
  block-diagonal, and with each computed array given at an index the result is the fused form of the algebra; no
  distributivity is used. Then the same at the arrays the run holds, the five computed arrays each given at an index
  in terms of the arrays it reads. Last the two results are equal at every index, when every float input is a real
  and every edge end is a node.
-/
import proofs.«205814_g58841051955373_cont_9to1_m_133_55_alg».proof.Proof.HostVals
import proofs.«205814_g58841051955373_cont_9to1_m_133_55_alg».proof.Proof.AggTrip
import proofs.«205814_g58841051955373_cont_9to1_m_133_55_alg».proof.Proof.RefValue
import proofs.«205814_g58841051955373_cont_9to1_m_133_55_alg».proof.Proof.SpecAlgebra
import Mathlib.Logic.Equiv.Fin.Basic

noncomputable section

open Finset

namespace Cert.Proof.KerValue

open Idealize.ShloMosaic

/-- The position of feature d of column block mm among the 256 fused features. -/
def fi (mm : Fin 2) (d : Fin 128) : Fin 256 := finProdFinEquiv (mm, d)

theorem fi_val (mm : Fin 2) (d : Fin 128) : (fi mm d).val = d.val + 128 * mm.val := rfl

/-- A sum over the 256 fused features is the sum over the blocks of the sums over a block's features. -/
theorem sum_fi {M : Type*} [AddCommMonoid M] (g : Fin 256 → M) :
    ∑ j, g j = ∑ mm : Fin 2, ∑ d : Fin 128, g (fi mm d) := by
  rw [← Fintype.sum_prod_type (fun p : Fin 2 × Fin 128 => g (fi p.1 p.2))]
  exact (Equiv.sum_comp (finProdFinEquiv (m := 2) (n := 128)) g).symm

/-- A product with a block-diagonal weight keeps the one block. -/
theorem sum_blockdiag (W : Fin 128 → Fin 128 → EReal) (wt : Fin 256 → Fin 256 → EReal)
    (hw : ∀ mm f mm' d, wt (fi mm f) (fi mm' d) = if mm' = mm then W d f else 0)
    (v : Fin 256 → EReal) (mm : Fin 2) (f : Fin 128) :
    ∑ j, wt (fi mm f) j * v j = ∑ d : Fin 128, v (fi mm d) * W d f := by
  rw [sum_fi]
  have h1 : ∀ mm' : Fin 2, (∑ d : Fin 128, wt (fi mm f) (fi mm' d) * v (fi mm' d))
      = if mm' = mm then ∑ d : Fin 128, v (fi mm d) * W d f else 0 := by
    intro mm'
    by_cases h : mm' = mm
    · subst h
      rw [if_pos rfl]
      refine Finset.sum_congr rfl (fun d _ => ?_)
      rw [hw, if_pos rfl, mul_comm]
    · rw [if_neg h]
      refine Finset.sum_eq_zero (fun d _ => ?_)
      rw [hw, if_neg h, zero_mul]
  rw [Finset.sum_congr rfl (fun mm' _ => h1 mm'),
    Finset.sum_ite_eq' Finset.univ mm (fun _ => ∑ d : Fin 128, v (fi mm d) * W d f), if_pos (Finset.mem_univ mm)]

theorem fi_div (mm : Fin 2) (d : Fin 128) : (fi mm d).val / 128 = mm.val := by
  have h := fi_val mm d
  have hd := d.isLt
  omega

theorem fi_mod (mm : Fin 2) (d : Fin 128) : (fi mm d).val % 128 = d.val := by
  have h := fi_val mm d
  have hd := d.isLt
  omega

/-- Every fused feature is feature g % 128 of block g / 128. -/
theorem eq_fi (g : Fin 256) :
    g = fi ⟨g.val / 128, by have := g.isLt; omega⟩ ⟨g.val % 128, Nat.mod_lt _ (by decide)⟩ := by
  refine Fin.ext ?_
  rw [fi_val]
  show g.val = g.val % 128 + 128 * (g.val / 128)
  omega

/-- THE FUSED COMPUTATION, stage by stage, is the fused form of the algebra: with the transposed features xft,
    the block-diagonal weights, the per-slice counts hist, and the four computed arrays each given at an index,
    the result at node n and feature (mm, f) is the fused result. No distributivity is used. -/
theorem ker_compose
    (src dst : Fin 65536 → Fin 4096)
    (x3 : Fin 4096 → Fin 2 → Fin 128 → EReal) (A0 A1 : Fin 4096 → Fin 4096 → EReal)
    (W0 W1 : Fin 128 → Fin 128 → EReal) (β : Fin 2 → Fin 128 → EReal)
    (xft : Fin 256 → Fin 4096 → EReal) (w0t w1t : Fin 256 → Fin 256 → EReal) (bias : Fin 256 → EReal)
    (hist : Fin 32 → Fin 4096 → EReal) (x1t yst st : Fin 256 → Fin 4096 → EReal) (out : Fin 4096 → Fin 256 → EReal)
    (hxft : ∀ mm d n, xft (fi mm d) n = x3 n mm d)
    (hw0 : ∀ mm f mm' d, w0t (fi mm f) (fi mm' d) = if mm' = mm then W0 d f else 0)
    (hw1 : ∀ mm f mm' d, w1t (fi mm f) (fi mm' d) = if mm' = mm then W1 d f else 0)
    (hbias : ∀ mm f, bias (fi mm f) = β mm f)
    (hdeg : ∀ n, (∑ w, hist w n) + 1 = (∑ e, if dst e = n then (1 : EReal) else 0) + 1)
    (hx1t : ∀ g n, x1t g n = ∑ k, xft g k * A0 n k)
    (hyst : ∀ g n, yst g n = ((∑ j, w0t g j * (xft j n + x1t j n)) + ∑ j, w1t g j * ∑ k, x1t j k * A1 n k)
        * Ideal.rsqrt ((∑ w, hist w n) + 1))
    (hst : ∀ g n, st g n = ∑ e, if dst e = n then yst g (src e) else 0)
    (hout : ∀ n g, out n g = (st g n + yst g n) * Ideal.rsqrt ((∑ w, hist w n) + 1) + bias g)
    (n : Fin 4096) (mm : Fin 2) (f : Fin 128) :
    out n (fi mm f)
      = Algebra.fusedOut src dst (fun n => Ideal.rsqrt ((∑ e, if dst e = n then (1 : EReal) else 0) + 1))
          (Algebra.fusedY (fun n d => x3 n mm d) (fun n d => ∑ k, A0 n k * x3 k mm d)
            (fun n d => ∑ k, A1 n k * ∑ k', A0 k k' * x3 k' mm d) W0 W1)
          (β mm) n f := by
  -- the once diffused features, transposed
  have hx1 : ∀ d n', x1t (fi mm d) n' = ∑ k, A0 n' k * x3 k mm d := by
    intro d n'
    rw [hx1t]
    exact Finset.sum_congr rfl (fun k _ => by rw [hxft, mul_comm])
  -- the scaled fused operand
  have hY : ∀ n', yst (fi mm f) n'
      = Algebra.fusedY (fun n d => x3 n mm d) (fun n d => ∑ k, A0 n k * x3 k mm d)
          (fun n d => ∑ k, A1 n k * ∑ k', A0 k k' * x3 k' mm d) W0 W1 n' f
        * Ideal.rsqrt ((∑ e, if dst e = n' then (1 : EReal) else 0) + 1) := by
    intro n'
    rw [hyst, hdeg, sum_blockdiag W0 w0t hw0, sum_blockdiag W1 w1t hw1]
    unfold Algebra.fusedY
    refine congrArg (· * Ideal.rsqrt ((∑ e, if dst e = n' then (1 : EReal) else 0) + 1)) ?_
    refine congrArg₂ (· + ·) ?_ ?_
    · exact Finset.sum_congr rfl (fun d _ => by rw [hxft, hx1])
    · refine Finset.sum_congr rfl (fun d _ => ?_)
      refine congrArg (· * W1 d f) ?_
      exact Finset.sum_congr rfl (fun k _ => by rw [hx1, mul_comm])
  rw [Algebra.fusedOut_eq (fun a => mul_zero a), hout, hst, hbias, hdeg, hY n]
  refine congrArg (· + β mm f) ?_
  refine congrArg (· * Ideal.rsqrt ((∑ e, if dst e = n then (1 : EReal) else 0) + 1)) ?_
  refine congrArg₂ (· + ·) (Finset.sum_congr rfl (fun e _ => ?_)) rfl
  rw [hY (src e)]

end Cert.Proof.KerValue

namespace Cert.Proof.KerValue

open Cert.KernelIdeal Cert.KernelIdeal.Gen Cert.Proof.KI
open Idealize.ShloMosaic Idealize.ShloMosaic.ValueIdx
open Cert.Proof.RefValue (node src dst rr z0 z1 z2 W0 W1 b0 b1)

/-- On a word that names a node, reading it modulo the table length and keeping it inside the table agree. -/
theorem col_eq_node {v : BitVec 32} (h0 : 0 ≤ v.toInt) (h1 : v.toInt ≤ 4095) : col v = node v := by
  have hlt := v.isLt
  have ht : v.toInt = (v.toNat : Int) := by
    rw [BitVec.toInt_eq_toNat_cond] at h0 ⊢
    split_ifs at h0 ⊢ with hc
    · rfl
    · omega
  refine Fin.ext ?_
  show v.toNat % 4096 = min v.toInt.toNat 4095
  omega

/-- An array of the extended reals read as such: its entries then carry the arithmetic. -/
abbrev rd {s : Shape} (v : s.Idx → EReal) : s.Idx → EReal := v

variable (Vl : Vals Ideal) (m : (ℓ : Loc nD τ sig) → Buf (Elt Ideal) ℓ) (d : Dev nD)

/-- THE COMPOSED VALUE READ AT (n, mm, f). With the five computed arrays each given at an index in terms of the
    arrays it reads (the count rows, the product A₀ against the transposed features, the scaled fused operand,
    its aggregation over the edges, and the final combination), the result is the fused result of the algebra. -/
theorem kerVal_apply
    (hadj : ∀ i, 0 ≤ (argAdj m d i).toInt ∧ (argAdj m d i).toInt ≤ 4095)
    (hHist : ∀ n : Fin 4096, ∑ w : Fin 32, rd (s := S32x4096) (cHist Vl m d) (ix2 w n)
        = ∑ e : Fin 65536, if col ((VA m d v5' : S65536.Idx → BitVec 32) (ix1 e)) = n then (1 : EReal) else 0)
    (hX1 : ∀ (g : Fin 256) (n : Fin 4096), rd (s := S256x4096) (cX1 Vl m d) (ix2 g n)
        = ∑ k : Fin 4096, rd (s := S256x4096) (VB Vl m d v1') (ix2 g k)
            * rd (s := S4096x4096) (VB Vl m d v35') (ix2 n k))
    (hYst : ∀ (g : Fin 256) (n : Fin 4096), rd (s := S256x4096) (cYst Vl m d) (ix2 g n)
        = ((∑ j : Fin 256, rd (s := S256x256) (VC Vl m d v15') (ix2 g j)
              * (rd (s := S256x4096) (VC Vl m d v1') (ix2 j n) + rd (s := S256x4096) (VC Vl m d v36') (ix2 j n)))
            + ∑ j : Fin 256, rd (s := S256x256) (VC Vl m d v19') (ix2 g j)
              * ∑ k : Fin 4096, rd (s := S256x4096) (VC Vl m d v36') (ix2 j k)
                  * rd (s := S4096x4096) (VC Vl m d v38') (ix2 n k))
          * Ideal.rsqrt ((∑ w : Fin 32, rd (s := S32x4096) (VC Vl m d v33') (ix2 w n)) + 1))
    (hSt : ∀ (g : Fin 256) (n : Fin 4096), rd (s := S256x4096) (cSt Vl m d) (ix2 g n)
        = ∑ e : Fin 65536, if col ((V3 Vl m d v5' : S65536.Idx → BitVec 32) (ix1 e)) = n
            then rd (s := S256x4096) (cYst Vl m d) (ix2 g (col ((V3 Vl m d v3' : S65536.Idx → BitVec 32) (ix1 e))))
            else 0)
    (hOut : ∀ (n : Fin 4096) (g : Fin 256), rd (s := S4096x256) (cOut Vl m d) (ix2 n g)
        = (rd (s := S256x4096) (cSt Vl m d) (ix2 g n) + rd (s := S256x4096) (V4 Vl m d v39') (ix2 g n))
            * Ideal.rsqrt ((∑ w : Fin 32, rd (s := S32x4096) (V4 Vl m d v33') (ix2 w n)) + 1)
          + rd (s := S1x256) (V4 Vl m d v30') (ix2 (0 : Fin 1) g))
    (n : Fin 4096) (mm : Fin 2) (f : Fin 128) :
    rd (s := S4096x2x128) (VF Vl m d v42') (ix3 n mm f)
      = Algebra.fusedOut (src (argAdj m d)) (dst (argAdj m d)) (rr (argAdj m d))
          (Algebra.fusedY (z0 (argX m d) mm) (z1 (argX m d) (argA m d) mm) (z2 (argX m d) (argA m d) mm)
            (W0 (argWs m d)) (W1 (argWs m d)))
          (fun f => 2 * b0 (argBs m d) f + b1 (argBs m d) f) n f := by
  have hmm := mm.isLt
  have hff := f.isLt
  -- the result array is the last computed array with each row cut into its two halves
  have hF : rd (s := S4096x2x128) (VF Vl m d v42') (ix3 n mm f) = rd (s := S4096x256) (cOut Vl m d) (ix2 n (fi mm f)) := by
    refine (VF_v42 Vl m d n mm f).trans ?_
    refine congrArg (fun g : Fin 256 => rd (s := S4096x256) (cOut Vl m d) (ix2 n g)) (Fin.ext ?_)
    rw [fi_val]
    show 128 * mm.val + f.val = f.val + 128 * mm.val
    omega
  rw [hF]
  have hnode : ∀ i, col (argAdj m d i) = node (argAdj m d i) := fun i => col_eq_node (hadj i).1 (hadj i).2
  have key := ker_compose (src (argAdj m d)) (dst (argAdj m d))
    (fun n mm d' => argX m d (ix3 n mm d')) (fun n k => argA m d (ix3 (0 : Fin 2) n k))
    (fun n k => argA m d (ix3 (1 : Fin 2) n k)) (W0 (argWs m d)) (W1 (argWs m d))
    (fun _ f => 2 * b0 (argBs m d) f + b1 (argBs m d) f)
    (fun g n => rd (s := S256x4096) (VA m d v1') (ix2 g n))
    (fun g j => rd (s := S256x256) (VA m d v15') (ix2 g j))
    (fun g j => rd (s := S256x256) (VA m d v19') (ix2 g j))
    (fun g => rd (s := S1x256) (VA m d v30') (ix2 (0 : Fin 1) g))
    (fun w n => rd (s := S32x4096) (cHist Vl m d) (ix2 w n))
    (fun g n => rd (s := S256x4096) (cX1 Vl m d) (ix2 g n))
    (fun g n => rd (s := S256x4096) (cYst Vl m d) (ix2 g n))
    (fun g n => rd (s := S256x4096) (cSt Vl m d) (ix2 g n))
    (fun n g => rd (s := S4096x256) (cOut Vl m d) (ix2 n g))
    (by
      intro mm d' n
      refine (VA_v1 m d (fi mm d') n).trans (congrArg (argX m d) ?_)
      exact congrArg₂ (ix3 n) (Fin.ext (fi_div mm d')) (Fin.ext (fi_mod mm d')))
    (by
      intro mm f mm' d'
      refine (VA_v15 m d (fi mm f) (fi mm' d')).trans ?_
      rw [fi_div, fi_div]
      by_cases hm : mm' = mm
      · subst hm
        rw [if_pos rfl, if_pos rfl]
        exact congrArg (argWs m d) (congrArg₂ (ix3 (0 : Fin 3)) (Fin.ext (fi_mod _ _)) (Fin.ext (fi_mod _ _)))
      · rw [if_neg hm, if_neg (fun h => hm (Fin.ext h.symm))])
    (by
      intro mm f mm' d'
      refine (VA_v19 m d (fi mm f) (fi mm' d')).trans ?_
      rw [fi_div, fi_div]
      by_cases hm : mm' = mm
      · subst hm
        rw [if_pos rfl, if_pos rfl]
        exact congrArg (argWs m d) (congrArg₂ (ix3 (1 : Fin 3)) (Fin.ext (fi_mod _ _)) (Fin.ext (fi_mod _ _)))
      · rw [if_neg hm, if_neg (fun h => hm (Fin.ext h.symm))])
    (by
      intro mm f
      refine (VA_v30 m d (0 : Fin 1) (fi mm f)).trans ?_
      have e : (⟨(fi mm f).val % 128, Nat.mod_lt _ (by decide)⟩ : Fin 128) = f := Fin.ext (fi_mod mm f)
      rw [e]
      rfl)
    (by
      intro n
      show (∑ w : Fin 32, rd (s := S32x4096) (cHist Vl m d) (ix2 w n)) + 1 = _
      rw [hHist n]
      refine congrArg (· + (1 : EReal)) (Finset.sum_congr rfl (fun e _ => ?_))
      rw [VA_v5 m d e, hnode]
      rfl)
    (by
      intro g n
      show rd (s := S256x4096) (cX1 Vl m d) (ix2 g n) = _
      rw [hX1 g n]
      refine Finset.sum_congr rfl (fun k _ => ?_)
      rw [VB_v1 Vl m d]
      exact congrArg (rd (s := S256x4096) (VA m d v1') (ix2 g k) * ·) (VB_v35 Vl m d n k))
    (by
      intro g n
      show rd (s := S256x4096) (cYst Vl m d) (ix2 g n) = _
      rw [hYst g n, VC_v15 Vl m d, VC_v1 Vl m d, VC_v36 Vl m d, VC_v19 Vl m d, VC_v33 Vl m d]
      simp only [rd, VC_v38 Vl m d])
    (by
      intro g n
      show rd (s := S256x4096) (cSt Vl m d) (ix2 g n) = _
      rw [hSt g n]
      refine Finset.sum_congr rfl (fun e _ => ?_)
      rw [V3_v5 Vl m d, V3_v3 Vl m d, VA_v5 m d e, VA_v3 m d e, hnode, hnode]
      rfl)
    (by
      intro n g
      show rd (s := S4096x256) (cOut Vl m d) (ix2 n g) = _
      rw [hOut n g, V4_v39 Vl m d, V4_v33 Vl m d, V4_v30 Vl m d])
    n mm f
  exact key

/-- THE TWO RESULTS AGREE AT EVERY INDEX: with every float input a real and every edge end a node, the composed
    value of the fused computation is the sum of the three convolutions. -/
theorem kernel_eq_reference
    (hx : ∀ i, ∃ a : ℝ, argX m d i = a) (hA : ∀ i, ∃ a : ℝ, argA m d i = a)
    (hWs : ∀ i, ∃ a : ℝ, argWs m d i = a) (hbs : ∀ i, ∃ a : ℝ, argBs m d i = a)
    (hadj : ∀ i, 0 ≤ (argAdj m d i).toInt ∧ (argAdj m d i).toInt ≤ 4095)
    (hHist : ∀ n : Fin 4096, ∑ w : Fin 32, rd (s := S32x4096) (cHist Vl m d) (ix2 w n)
        = ∑ e : Fin 65536, if col ((VA m d v5' : S65536.Idx → BitVec 32) (ix1 e)) = n then (1 : EReal) else 0)
    (hX1 : ∀ (g : Fin 256) (n : Fin 4096), rd (s := S256x4096) (cX1 Vl m d) (ix2 g n)
        = ∑ k : Fin 4096, rd (s := S256x4096) (VB Vl m d v1') (ix2 g k)
            * rd (s := S4096x4096) (VB Vl m d v35') (ix2 n k))
    (hYst : ∀ (g : Fin 256) (n : Fin 4096), rd (s := S256x4096) (cYst Vl m d) (ix2 g n)
        = ((∑ j : Fin 256, rd (s := S256x256) (VC Vl m d v15') (ix2 g j)
              * (rd (s := S256x4096) (VC Vl m d v1') (ix2 j n) + rd (s := S256x4096) (VC Vl m d v36') (ix2 j n)))
            + ∑ j : Fin 256, rd (s := S256x256) (VC Vl m d v19') (ix2 g j)
              * ∑ k : Fin 4096, rd (s := S256x4096) (VC Vl m d v36') (ix2 j k)
                  * rd (s := S4096x4096) (VC Vl m d v38') (ix2 n k))
          * Ideal.rsqrt ((∑ w : Fin 32, rd (s := S32x4096) (VC Vl m d v33') (ix2 w n)) + 1))
    (hSt : ∀ (g : Fin 256) (n : Fin 4096), rd (s := S256x4096) (cSt Vl m d) (ix2 g n)
        = ∑ e : Fin 65536, if col ((V3 Vl m d v5' : S65536.Idx → BitVec 32) (ix1 e)) = n
            then rd (s := S256x4096) (cYst Vl m d) (ix2 g (col ((V3 Vl m d v3' : S65536.Idx → BitVec 32) (ix1 e))))
            else 0)
    (hOut : ∀ (n : Fin 4096) (g : Fin 256), rd (s := S4096x256) (cOut Vl m d) (ix2 n g)
        = (rd (s := S256x4096) (cSt Vl m d) (ix2 g n) + rd (s := S256x4096) (V4 Vl m d v39') (ix2 g n))
            * Ideal.rsqrt ((∑ w : Fin 32, rd (s := S32x4096) (V4 Vl m d v33') (ix2 w n)) + 1)
          + rd (s := S1x256) (V4 Vl m d v30') (ix2 (0 : Fin 1) g))
    (n : Fin 4096) (mm : Fin 2) (f : Fin 128) :
    rd (s := S4096x2x128) (VF Vl m d v42') (ix3 n mm f)
      = Cert.ReferenceIdeal.HandRun.refVal (F := Ideal) (argX m d) (argAdj m d) (argA m d) (argWs m d) (argBs m d)
          (ix3 n mm f) :=
  (kerVal_apply Vl m d hadj hHist hX1 hYst hSt hOut n mm f).trans
    (Cert.Proof.RefValue.refVal_eq_fused (argX m d) (argAdj m d) (argA m d) (argWs m d) (argBs m d)
      hx hA hWs hbs hadj 2 (by norm_cast) n mm f).symm

end Cert.Proof.KerValue

end
-- ==== Proof.ScValues.lean ====
/-
  What the two accumulations on the vector subcores are over the extended reals, as finite sums.

  The degree histogram: counting one target adds the real 1 onto the word the target names, so the histogram after
  k targets is its first contents plus, at word n, the number of those targets equal to n; from zero contents and
  over a whole block of 2048 targets that is the count of the block's targets equal to n, and the 32 blocks' counts
  together are the count over all 65536 targets.

  The edge aggregation: an indexed add-store adds, lane by lane, a feature entry onto an accumulator entry. Addition
  of extended reals is commutative and associative (no finiteness is asked), so the accumulator after any number of
  trips is its first contents plus, at entry (a, n), the sum over the positions p read so far and the eight rotations
  cc with (cc + p mod 16) mod 16 = a whose target is n, of the feature entry ((cc + p mod 16) mod 8, source of p).
  For each position the eight rotations meet each feature row once, at accumulator row j or j + 8; so adding row
  j + 8 onto row j leaves at (j, n) the sum over the positions with target n of the feature entry (j, source).
-/
import proofs.«205814_g58841051955373_cont_9to1_m_133_55_alg».proof.Proof.DegBody
import proofs.«205814_g58841051955373_cont_9to1_m_133_55_alg».proof.Proof.AggTrip
import proofs.«205814_g58841051955373_cont_9to1_m_133_55_alg».proof.Proof.AggChunk
import proofs.«205814_g58841051955373_cont_9to1_m_133_55_alg».proof.Proof.SpecAlgebra
import Mathlib.Algebra.BigOperators.Fin
import Mathlib.Algebra.BigOperators.Group.Finset.Basic
import Mathlib.Algebra.BigOperators.Group.List.Basic
import Mathlib.Logic.Equiv.Fin.Basic

noncomputable section

namespace Cert.Proof.KI.ScVal

open Cert.KernelIdeal Cert.KernelIdeal.Gen
open Idealize.ShloMosaic
open Finset

/-! ## The degree histogram -/

/-- The indexed store's addition is the sum of extended reals. -/
theorem idxAdd_ideal (a b : Elt Ideal .f32) : Elt.idxAdd .f32 a b = a + b := rfl

/-- The constant the histogram adds is the real one. -/
theorem oneF_ideal' : (oneF (F := Ideal)) = (1 : EReal) := by
  show Ideal.ofBits .f32 0x3F800000#32 = 1
  simp [Ideal.ofBits, Ideal.ieee, -EReal.coe_mul]; norm_num

theorem oneF_ideal : (oneF (F := Ideal)) = ((1 : ℝ) : EReal) := oneF_ideal'.trans EReal.coe_one.symm

/-- Counting one target: the word it names gains one. -/
theorem bumpAt_ideal (f : S4096.Idx → Elt Ideal .f32) (t : BitVec 32) (n : S4096.Idx) :
    bumpAt f t n = f n + if t.toNat = (n 0).val then (1 : EReal) else 0 := by
  show (if (n 0).val = t.toNat then Elt.idxAdd .f32 (f n) oneF else f n) = _
  by_cases h : (n 0).val = t.toNat
  · rw [if_pos h, if_pos h.symm, idxAdd_ideal, oneF_ideal']
  · rw [if_neg h, if_neg (fun e => h e.symm), add_zero]

/-- The histogram after k targets: the first contents plus the number of those targets equal to n. -/
theorem histAfter_ideal (z : S4096.Idx → Elt Ideal .f32) (tg : S2048.Idx → BitVec 32) (k : ℕ) (n : S4096.Idx) :
    histAfter z tg k n = z n + ∑ i ∈ range k, if (tg (laneIx i)).toNat = (n 0).val then (1 : EReal) else 0 := by
  induction k with
  | zero => rw [Finset.range_zero, Finset.sum_empty, add_zero]; rfl
  | succ k ih =>
    show bumpAt (histAfter z tg k) (tg (laneIx k)) n = _
    rw [bumpAt_ideal, ih, Finset.sum_range_succ, add_assoc]

/-- Position i of a block, for i below 2048, is the block's own index i. -/
theorem laneIx_fin (i : Fin 2048) : laneIx i.val = Shape.ofLane (d := ![2048]) i :=
  congrArg (Shape.ofLane (d := ![2048])) (Fin.ext (Nat.mod_eq_of_lt i.isLt) : (⟨i.val % 2048, Nat.mod_lt _ (by decide)⟩ : Fin 2048) = i)

/-- From zero contents, a whole block counted: the number of the block's 2048 targets equal to n. -/
theorem histAfter_count (z : S4096.Idx → Elt Ideal .f32) (hz : ∀ n, z n = 0) (tg : S2048.Idx → BitVec 32) (n : S4096.Idx) :
    histAfter z tg 2048 n = ∑ i : Fin 2048, if (tg (Shape.ofLane (d := ![2048]) i)).toNat = (n 0).val then (1 : EReal) else 0 := by
  rw [histAfter_ideal, hz n, zero_add,
    ← Fin.sum_univ_eq_sum_range (fun i => if (tg (laneIx i)).toNat = (n 0).val then (1 : EReal) else 0) 2048]
  refine Finset.sum_congr rfl (fun i _ => ?_)
  rw [laneIx_fin]

/-! ## The edge aggregation -/

/-- Word p of an index list (positions past the list wrap; none is ever asked for). -/
def wordAt (b : Vec Ideal S8192 .i32) (p : ℕ) : BitVec 32 := b (ix1 ⟨p % 8192, Nat.mod_lt _ (by decide)⟩)

/-- The lane position p is read on. -/
def lane16 (p : ℕ) : Fin 16 := ⟨p % 16, Nat.mod_lt _ (by decide)⟩

/-- Rows j and j + 8 of the sixteen-row accumulator. -/
def lo (j : Fin 8) : Fin 16 := ⟨j.val, by omega⟩
def hi (j : Fin 8) : Fin 16 := ⟨j.val + 8, by omega⟩

theorem col_of_lt (w : BitVec 32) (h : w.toNat < 4096) : col w = ⟨w.toNat, h⟩ :=
  Fin.ext (Nat.mod_eq_of_lt h)

theorem col_eq_iff (w : BitVec 32) (h : w.toNat < 4096) (n : Fin 4096) : col w = n ↔ w.toNat = n.val := by
  rw [col_of_lt w h]; exact ⟨fun e => congrArg Fin.val e, fun e => Fin.ext e⟩

theorem eq_ix16 (j : S16x4096.Idx) : j = ix16 (j 0) (j 1) := by
  funext a
  match a with
  | 0 => rfl
  | 1 => rfl

/-- Two entries of the accumulator agree in every coordinate when their rows and their columns do. -/
theorem ix16_match (a r : Fin 16) (n c : Fin 4096) :
    (∀ x, ((ix16 a n) x).val = ((ix16 r c) x).val) ↔ (r.val = a.val ∧ c = n) := by
  constructor
  · intro h; exact ⟨(h 0).symm, Fin.ext (h 1).symm⟩
  · rintro ⟨h0, h1⟩ x
    match x with
    | 0 => exact h0.symm
    | 1 => exact congrArg Fin.val h1.symm

/-- Adding onto one entry, read at entry j. -/
theorem addAt_ideal (g : Vec Ideal S16x4096 .f32) (i j : S16x4096.Idx) (y : Elt Ideal .f32) :
    addAt g i y j = g j + if (∀ a, (j a).val = (i a).val) then (y : EReal) else 0 := by
  show (if (∀ a, (j a).val = (i a).val) then FloatOps.idxAddf (F := Ideal) (φ := .f32) (g i) y else g j) = _
  by_cases h : ∀ a, (j a).val = (i a).val
  · have e : j = i := funext fun a => Fin.ext (h a)
    rw [if_pos h, if_pos h, e]; rfl
  · rw [if_neg h, if_neg h, add_zero]

theorem addAt_ix (g : Vec Ideal S16x4096 .f32) (r a : Fin 16) (c n : Fin 4096) (y : Elt Ideal .f32) :
    addAt g (ix16 r c) y (ix16 a n) = g (ix16 a n) + if r.val = a.val ∧ c = n then (y : EReal) else 0 := by
  rw [addAt_ideal]
  congr 1
  exact if_congr (ix16_match a r n c) rfl rfl

/-- A run of such additions, read at entry (a, n): the additions that name that entry, summed. -/
theorem foldl_addAt_ix {β : Type} (R : β → Fin 16) (Cc : β → Fin 4096) (Y : β → EReal) (a : Fin 16) (n : Fin 4096) :
    ∀ (l : List β) (g : Vec Ideal S16x4096 .f32),
      (l.foldl (fun g x => addAt g (ix16 (R x) (Cc x)) (Y x)) g) (ix16 a n)
        = g (ix16 a n) + (l.map fun x => if (R x).val = a.val ∧ Cc x = n then Y x else 0).sum := by
  intro l
  induction l with
  | nil => intro g; simp
  | cons x xs ih =>
    intro g
    rw [List.foldl_cons, ih, addAt_ix, List.map_cons, List.sum_cons, add_assoc]

/-- One indexed add-store. -/
theorem accAfterStore_ideal (ys : Vec Ideal S8x4096 .f32) (s16 d16 : Fin 16 → BitVec 32) (cc : Fin 8)
    (g : Vec Ideal S16x4096 .f32) (a : Fin 16) (n : Fin 4096) :
    accAfterStore ys s16 d16 cc g (ix16 a n)
      = g (ix16 a n) + ∑ l : Fin 16, if (rot16 cc l).val = a.val ∧ col (d16 l) = n then ys (ix8 (rot8 cc l) (col (s16 l))) else 0 := by
  unfold accAfterStore
  rw [foldl_addAt_ix (fun l => rot16 cc l) (fun l => col (d16 l)) (fun l => ys (ix8 (rot8 cc l) (col (s16 l)))) a n,
    ← Fin.sum_univ_def]

/-- The eight add-stores of one group of sixteen positions. -/
theorem accAfterGroup_ideal (ys : Vec Ideal S8x4096 .f32) (s16 d16 : Fin 16 → BitVec 32)
    (g : Vec Ideal S16x4096 .f32) (a : Fin 16) (n : Fin 4096) :
    accAfterGroup ys s16 d16 g (ix16 a n)
      = g (ix16 a n) + ∑ l : Fin 16, ∑ cc : Fin 8,
          if (rot16 cc l).val = a.val ∧ col (d16 l) = n then ys (ix8 (rot8 cc l) (col (s16 l))) else 0 := by
  unfold accAfterGroup
  rw [accAfterStore_ideal, accAfterStore_ideal, accAfterStore_ideal, accAfterStore_ideal,
    accAfterStore_ideal, accAfterStore_ideal, accAfterStore_ideal, accAfterStore_ideal,
    Finset.sum_comm, Fin.sum_univ_eight]
  simp only [add_assoc]

/-- One trip: four groups. -/
theorem accAfterTrip_groups (ys : Vec Ideal S8x4096 .f32) (acc : Vec Ideal S16x4096 .f32) (s d : Fin 64 → BitVec 32)
    (a : Fin 16) (n : Fin 4096) :
    accAfterTrip ys acc s d (ix16 a n)
      = acc (ix16 a n) + ∑ u : Fin 4, ∑ l : Fin 16, ∑ cc : Fin 8,
          if (rot16 cc l).val = a.val ∧ col (grp d u l) = n then ys (ix8 (rot8 cc l) (col (grp s u l))) else 0 := by
  unfold accAfterTrip
  rw [accAfterGroup_ideal, accAfterGroup_ideal, accAfterGroup_ideal, accAfterGroup_ideal, Fin.sum_univ_four]
  simp only [add_assoc]

/-- What position p of the lists sb, db adds into entry (a, n), over its eight rotations. -/
def posTerm (ys : Vec Ideal S8x4096 .f32) (sb db : Vec Ideal S8192 .i32) (a : Fin 16) (n : Fin 4096) (p : ℕ) : EReal :=
  ∑ cc : Fin 8, if (rot16 cc (lane16 p)).val = a.val ∧ col (wordAt db p) = n then ys (ix8 (rot8 cc (lane16 p)) (col (wordAt sb p))) else 0

/-- Trip g reads positions 64 g … 64 g + 63. -/
theorem accAfterTrip_pos (ys : Vec Ideal S8x4096 .f32) (sb db : Vec Ideal S8192 .i32) (acc : Vec Ideal S16x4096 .f32)
    (g : ℕ) (a : Fin 16) (n : Fin 4096) :
    accAfterTrip ys acc (tripWords sb g) (tripWords db g) (ix16 a n)
      = acc (ix16 a n) + ∑ q ∈ range 64, posTerm ys sb db a n (64 * g + q) := by
  rw [accAfterTrip_groups]
  congr 1
  have h1 : ∀ (u : Fin 4) (l : Fin 16),
      (∑ cc : Fin 8, if (rot16 cc l).val = a.val ∧ col (grp (tripWords db g) u l) = n
          then ys (ix8 (rot8 cc l) (col (grp (tripWords sb g) u l))) else 0)
        = posTerm ys sb db a n (64 * g + (u.val * 16 + l.val)) := by
    intro u l
    have hl : lane16 (64 * g + (u.val * 16 + l.val)) = l :=
      Fin.ext (by show (64 * g + (u.val * 16 + l.val)) % 16 = l.val; have := l.isLt; omega)
    have hw : ∀ b : Vec Ideal S8192 .i32, grp (tripWords b g) u l = wordAt b (64 * g + (u.val * 16 + l.val)) := by
      intro b
      show b (ix1 ⟨(64 * g + (16 * u.val + l.val)) % 8192, _⟩) = b (ix1 ⟨(64 * g + (u.val * 16 + l.val)) % 8192, _⟩)
      have e : (64 * g + (16 * u.val + l.val)) % 8192 = (64 * g + (u.val * 16 + l.val)) % 8192 := by rw [Nat.mul_comm 16]
      exact congrArg (fun k => b (ix1 k)) (Fin.ext e)
    unfold posTerm
    rw [hl, hw, hw]
  rw [Finset.sum_congr rfl (fun u _ => Finset.sum_congr rfl (fun l _ => h1 u l)),
    Algebra.sum_fin_mul 4 16 (fun q => posTerm ys sb db a n (64 * g + q)),
    Fin.sum_univ_eq_sum_range (fun q => posTerm ys sb db a n (64 * g + q)) (4 * 16)]

theorem accAfterTrips_pos (ys : Vec Ideal S8x4096 .f32) (sb db : Vec Ideal S8192 .i32) (acc : Vec Ideal S16x4096 .f32)
    (k : ℕ) (a : Fin 16) (n : Fin 4096) :
    accAfterTrips ys sb db k acc (ix16 a n) = acc (ix16 a n) + ∑ p ∈ range (64 * k), posTerm ys sb db a n p := by
  induction k with
  | zero => simp [accAfterTrips]
  | succ k ih =>
    show accAfterTrip ys (accAfterTrips ys sb db k acc) (tripWords sb k) (tripWords db k) (ix16 a n) = _
    rw [accAfterTrip_pos, ih, Nat.mul_succ, Finset.sum_range_add, add_assoc]

/-- The accumulator after k trips over the index lists sb, db. -/
theorem accAfterTrips_ideal (ys : Vec Ideal S8x4096 .f32) (sb db : Vec Ideal S8192 .i32) (acc : Vec Ideal S16x4096 .f32)
    (k : ℕ) (a : Fin 16) (n : Fin 4096) :
    accAfterTrips ys sb db k acc (ix16 a n)
      = acc (ix16 a n) + ∑ p ∈ range (64 * k), ∑ cc : Fin 8,
          if (rot16 cc (lane16 p)).val = a.val ∧ col (wordAt db p) = n then ys (ix8 (rot8 cc (lane16 p)) (col (wordAt sb p))) else 0 :=
  accAfterTrips_pos ys sb db acc k a n

/-- A whole chunk: all 128 trips, the 8192 positions of the lists. -/
theorem accAfterChunk_ideal (ys : Vec Ideal S8x4096 .f32) (sb db : Vec Ideal S8192 .i32) (acc : Vec Ideal S16x4096 .f32)
    (a : Fin 16) (n : Fin 4096) :
    accAfterTrips ys sb db 128 acc (ix16 a n)
      = acc (ix16 a n) + ∑ p ∈ range 8192, ∑ cc : Fin 8,
          if (rot16 cc (lane16 p)).val = a.val ∧ col (wordAt db p) = n then ys (ix8 (rot8 cc (lane16 p)) (col (wordAt sb p))) else 0 :=
  accAfterTrips_ideal ys sb db acc 128 a n

/-- Row j + 8 added onto row j after a chunk: what the two rows held before, plus the sum over the chunk's positions
    with target n of feature entry (j, source). -/
theorem fold_chunk (ys : Vec Ideal S8x4096 .f32) (sb db : Vec Ideal S8192 .i32) (acc : Vec Ideal S16x4096 .f32)
    (j : Fin 8) (n : Fin 4096) :
    accAfterTrips ys sb db 128 acc (ix16 (lo j) n) + accAfterTrips ys sb db 128 acc (ix16 (hi j) n)
      = (acc (ix16 (lo j) n) + acc (ix16 (hi j) n))
        + ∑ p ∈ range 8192, if col (wordAt db p) = n then ys (ix8 j (col (wordAt sb p))) else 0 := by
  rw [accAfterChunk_ideal, accAfterChunk_ideal, add_add_add_comm]
  congr 1
  exact Algebra.fold_rows (range 8192) (fun p => p % 16) (fun p cc => rot8 cc (lane16 p)) (fun p cc => rot16 cc (lane16 p))
    (fun _ _ => rfl) (fun _ _ => rfl) (fun p => col (wordAt sb p)) (fun p => col (wordAt db p)) (fun r c => ys (ix8 r c)) j n

/-- Several chunks in a row, their lists being consecutive blocks of 8192 of one list of sources sw and one of targets dw. -/
theorem chunks_ideal (ys : Vec Ideal S8x4096 .f32) (sbs dbs : ℕ → Vec Ideal S8192 .i32) (A : ℕ → Vec Ideal S16x4096 .f32)
    (hA : ∀ c, A (c + 1) = accAfterTrips ys (sbs c) (dbs c) 128 (A c)) (sw dw : ℕ → BitVec 32)
    (hs : ∀ c p, p < 8192 → wordAt (sbs c) p = sw (c * 8192 + p)) (hd : ∀ c p, p < 8192 → wordAt (dbs c) p = dw (c * 8192 + p))
    (C : ℕ) (a : Fin 16) (n : Fin 4096) :
    A C (ix16 a n) = A 0 (ix16 a n) + ∑ e ∈ range (C * 8192), ∑ cc : Fin 8,
      if (rot16 cc (lane16 e)).val = a.val ∧ col (dw e) = n then ys (ix8 (rot8 cc (lane16 e)) (col (sw e))) else 0 := by
  induction C with
  | zero => simp
  | succ C ih =>
    rw [hA C, accAfterChunk_ideal, ih, Nat.succ_mul, Finset.sum_range_add, add_assoc]
    congr 2
    refine Finset.sum_congr rfl (fun p hp => ?_)
    have hp' : p < 8192 := Finset.mem_range.mp hp
    have hl : lane16 (C * 8192 + p) = lane16 p := Fin.ext (by show (C * 8192 + p) % 16 = p % 16; omega)
    rw [hl, hs C p hp', hd C p hp']

/-- After all chunks, row j + 8 added onto row j: what the two rows held at first, plus the sum over all positions with
    target n of feature entry (j, source). -/
theorem fold_chunks (ys : Vec Ideal S8x4096 .f32) (sbs dbs : ℕ → Vec Ideal S8192 .i32) (A : ℕ → Vec Ideal S16x4096 .f32)
    (hA : ∀ c, A (c + 1) = accAfterTrips ys (sbs c) (dbs c) 128 (A c)) (sw dw : ℕ → BitVec 32)
    (hs : ∀ c p, p < 8192 → wordAt (sbs c) p = sw (c * 8192 + p)) (hd : ∀ c p, p < 8192 → wordAt (dbs c) p = dw (c * 8192 + p))
    (C : ℕ) (j : Fin 8) (n : Fin 4096) :
    A C (ix16 (lo j) n) + A C (ix16 (hi j) n)
      = (A 0 (ix16 (lo j) n) + A 0 (ix16 (hi j) n))
        + ∑ e ∈ range (C * 8192), if col (dw e) = n then ys (ix8 j (col (sw e))) else 0 := by
  rw [chunks_ideal ys sbs dbs A hA sw dw hs hd C (lo j) n, chunks_ideal ys sbs dbs A hA sw dw hs hd C (hi j) n, add_add_add_comm]
  congr 1
  exact Algebra.fold_rows (range (C * 8192)) (fun p => p % 16) (fun p cc => rot8 cc (lane16 p)) (fun p cc => rot16 cc (lane16 p))
    (fun _ _ => rfl) (fun _ _ => rfl) (fun p => col (sw p)) (fun p => col (dw p)) (fun r c => ys (ix8 r c)) j n

/-! ## Totals -/

/-- The 32 blocks' counts together: the number of all 65536 targets equal to n. -/
theorem hist_total (z : S4096.Idx → Elt Ideal .f32) (hz : ∀ n, z n = 0) (tgs : Fin 32 → S2048.Idx → BitVec 32)
    (dw : ℕ → BitVec 32) (h : ∀ (w : Fin 32) (i : Fin 2048), tgs w (Shape.ofLane (d := ![2048]) i) = dw (w.val * 2048 + i.val))
    (n : S4096.Idx) :
    ∑ w : Fin 32, histAfter z (tgs w) 2048 n = ∑ e : Fin 65536, if (dw e.val).toNat = (n 0).val then (1 : EReal) else 0 := by
  refine Eq.trans (Finset.sum_congr rfl (fun w _ => ?_))
    (Algebra.sum_fin_mul 32 2048 (fun e => if (dw e).toNat = (n 0).val then (1 : EReal) else 0))
  rw [histAfter_count z hz]
  exact Finset.sum_congr rfl (fun i _ => by rw [h w i])

/-- The same with the targets read as columns, every target being below 4096. -/
theorem hist_total_col (z : S4096.Idx → Elt Ideal .f32) (hz : ∀ n, z n = 0) (tgs : Fin 32 → S2048.Idx → BitVec 32)
    (dw : ℕ → BitVec 32) (h : ∀ (w : Fin 32) (i : Fin 2048), tgs w (Shape.ofLane (d := ![2048]) i) = dw (w.val * 2048 + i.val))
    (hdw : ∀ e, (dw e).toNat < 4096) (n : S4096.Idx) (m : Fin 4096) (hm : (n 0).val = m.val) :
    ∑ w : Fin 32, histAfter z (tgs w) 2048 n = ∑ e : Fin 65536, if col (dw e.val) = m then (1 : EReal) else 0 := by
  rw [hist_total z hz tgs dw h n]
  refine Finset.sum_congr rfl (fun e _ => ?_)
  exact if_congr (by rw [col_eq_iff _ (hdw _), hm]) rfl rfl

/-- All eight chunks from a zero accumulator, row j + 8 added onto row j: the sum over all 65536 edges into n of the
    feature entry (j, source). -/
theorem agg_total (ys : Vec Ideal S8x4096 .f32) (sbs dbs : ℕ → Vec Ideal S8192 .i32) (A : ℕ → Vec Ideal S16x4096 .f32)
    (hA : ∀ c, A (c + 1) = accAfterTrips ys (sbs c) (dbs c) 128 (A c)) (sw dw : ℕ → BitVec 32)
    (hs : ∀ c p, p < 8192 → wordAt (sbs c) p = sw (c * 8192 + p)) (hd : ∀ c p, p < 8192 → wordAt (dbs c) p = dw (c * 8192 + p))
    (h0 : ∀ i, A 0 i = 0) (j : Fin 8) (n : Fin 4096) :
    A 8 (ix16 (lo j) n) + A 8 (ix16 (hi j) n)
      = ∑ e : Fin 65536, if col (dw e.val) = n then ys (ix8 j (col (sw e.val))) else 0 := by
  rw [fold_chunks ys sbs dbs A hA sw dw hs hd 8 j n, h0, h0, add_zero, zero_add]
  exact (Fin.sum_univ_eq_sum_range (fun e => if col (dw e) = n then ys (ix8 j (col (sw e))) else 0) 65536).symm

/-! ## The chunks of the edge lists -/

theorem trips3_eq : k3_t2_loop.trips = 128 := by decide +kernel

/-- Word e of a 65536-word edge list (positions past the list wrap; none is ever asked for). -/
def edgeAt (b : Vec Ideal S65536 .i32) (e : ℕ) : BitVec 32 :=
  b (Shape.ofLane (d := ![65536]) ⟨e % 65536, Nat.mod_lt _ (by decide)⟩)

theorem edgeAt_fin (b : Vec Ideal S65536 .i32) (e : Fin 65536) : edgeAt b e.val = b (Shape.ofLane (d := ![65536]) e) :=
  congrArg (fun k => b (Shape.ofLane (d := ![65536]) k))
    (Fin.ext (Nat.mod_eq_of_lt e.isLt) : (⟨e.val % 65536, Nat.mod_lt _ (by decide)⟩ : Fin 65536) = e)

/-- Position p of chunk c is edge 8192 c + p. -/
theorem wordAt_chunkWords (b : Vec Ideal S65536 .i32) (c p : ℕ) (hp : p < 8192) :
    wordAt (chunkWords b c) p = edgeAt b (c * 8192 + p) := by
  show b (Shape.ofLane (d := ![65536]) ⟨(8192 * c + p % 8192) % 65536, _⟩)
    = b (Shape.ofLane (d := ![65536]) ⟨(c * 8192 + p) % 65536, _⟩)
  have e : (8192 * c + p % 8192) % 65536 = (c * 8192 + p) % 65536 := by rw [Nat.mod_eq_of_lt hp, Nat.mul_comm]
  exact congrArg (fun k => b (Shape.ofLane (d := ![65536]) k)) (Fin.ext e)

theorem accAfterChunks_succ (ys : Vec Ideal S8x4096 .f32) (src dst : Vec Ideal S65536 .i32) (acc : Vec Ideal S16x4096 .f32) (c : ℕ) :
    accAfterChunks ys src dst (c + 1) acc
      = accAfterTrips ys (chunkWords src c) (chunkWords dst c) 128 (accAfterChunks ys src dst c acc) := by
  show accAfterTrips ys (chunkWords src c) (chunkWords dst c) k3_t2_loop.trips (accAfterChunks ys src dst c acc) = _
  rw [trips3_eq]

/-- The accumulator after C chunks of the edge lists src, dst. -/
theorem accAfterChunks_ideal (ys : Vec Ideal S8x4096 .f32) (src dst : Vec Ideal S65536 .i32) (acc : Vec Ideal S16x4096 .f32)
    (C : ℕ) (a : Fin 16) (n : Fin 4096) :
    accAfterChunks ys src dst C acc (ix16 a n)
      = acc (ix16 a n) + ∑ e ∈ range (C * 8192), ∑ cc : Fin 8,
          if (rot16 cc (lane16 e)).val = a.val ∧ col (edgeAt dst e) = n then ys (ix8 (rot8 cc (lane16 e)) (col (edgeAt src e))) else 0 :=
  chunks_ideal ys (chunkWords src) (chunkWords dst) (fun c => accAfterChunks ys src dst c acc)
    (fun c => accAfterChunks_succ ys src dst acc c) (edgeAt src) (edgeAt dst)
    (fun c p hp => wordAt_chunkWords src c p hp) (fun c p hp => wordAt_chunkWords dst c p hp) C a n

/-- After C chunks, row j + 8 added onto row j. -/
theorem accAfterChunks_fold (ys : Vec Ideal S8x4096 .f32) (src dst : Vec Ideal S65536 .i32) (acc : Vec Ideal S16x4096 .f32)
    (C : ℕ) (j : Fin 8) (n : Fin 4096) :
    accAfterChunks ys src dst C acc (ix16 (lo j) n) + accAfterChunks ys src dst C acc (ix16 (hi j) n)
      = (acc (ix16 (lo j) n) + acc (ix16 (hi j) n))
        + ∑ e ∈ range (C * 8192), if col (edgeAt dst e) = n then ys (ix8 j (col (edgeAt src e))) else 0 :=
  fold_chunks ys (chunkWords src) (chunkWords dst) (fun c => accAfterChunks ys src dst c acc)
    (fun c => accAfterChunks_succ ys src dst acc c) (edgeAt src) (edgeAt dst)
    (fun c p hp => wordAt_chunkWords src c p hp) (fun c p hp => wordAt_chunkWords dst c p hp) C j n

/-- All eight chunks from a zero accumulator, row j + 8 added onto row j: the sum over all 65536 edges into n of the
    feature entry (j, source). -/
theorem accAfterChunks_total (ys : Vec Ideal S8x4096 .f32) (src dst : Vec Ideal S65536 .i32) (acc : Vec Ideal S16x4096 .f32)
    (h0 : ∀ i, acc i = 0) (j : Fin 8) (n : Fin 4096) :
    accAfterChunks ys src dst 8 acc (ix16 (lo j) n) + accAfterChunks ys src dst 8 acc (ix16 (hi j) n)
      = ∑ e : Fin 65536, if col (dst (Shape.ofLane (d := ![65536]) e)) = n
          then ys (ix8 j (col (src (Shape.ofLane (d := ![65536]) e)))) else 0 := by
  rw [accAfterChunks_fold, h0, h0, add_zero, zero_add]
  refine Eq.trans ?_ (Finset.sum_congr rfl (fun e _ => by rw [edgeAt_fin, edgeAt_fin]) :
    ∑ e : Fin 65536, (if col (edgeAt dst e.val) = n then ys (ix8 j (col (edgeAt src e.val))) else 0) = _)
  exact (Fin.sum_univ_eq_sum_range (fun e => if col (edgeAt dst e) = n then ys (ix8 j (col (edgeAt src e))) else 0) 65536).symm

/-- The 32 tiles' blocks being consecutive blocks of 2048 of the target list, every target below 4096: the blocks' counts
    together are the number of all edges into m. -/
theorem hist_total_edges (z : S4096.Idx → Elt Ideal .f32) (hz : ∀ n, z n = 0) (dst : Vec Ideal S65536 .i32)
    (tgs : Fin 32 → S2048.Idx → BitVec 32)
    (h : ∀ (w : Fin 32) (i : Fin 2048), tgs w (Shape.ofLane (d := ![2048]) i) = edgeAt dst (w.val * 2048 + i.val))
    (hdst : ∀ i, ((dst : IVec S65536 32) i).toNat < 4096) (n : S4096.Idx) (m : Fin 4096) (hm : (n 0).val = m.val) :
    ∑ w : Fin 32, histAfter z (tgs w) 2048 n
      = ∑ e : Fin 65536, if col (dst (Shape.ofLane (d := ![65536]) e)) = m then (1 : EReal) else 0 := by
  rw [hist_total_col z hz tgs (edgeAt dst) h (fun e => hdst _) n m hm]
  exact Finset.sum_congr rfl (fun e _ => by rw [edgeAt_fin])

end Cert.Proof.KI.ScVal

end
-- ==== Proof.ScGlobal.lean ====
/-
  The two vector-subcore calls' results over the extended reals, read at global indices. The 32 rows of the degree
  histogram, summed, count at column n the edges whose target is n: each row counts its own block of 2048 consecutive
  targets, and the 32 blocks are the whole list. Row g of the aggregate holds at column n the sum, over the edges whose
  target is n, of the feature entry (g, source): row g = 8 w + r is row r of tile w's accumulator with the row eight
  below added, the accumulator having run all eight chunks of the edge lists over tile w's eight feature rows from zero.
-/
import proofs.«205814_g58841051955373_cont_9to1_m_133_55_alg».proof.Proof.ScWhole
import proofs.«205814_g58841051955373_cont_9to1_m_133_55_alg».proof.Proof.ScWhole1
import proofs.«205814_g58841051955373_cont_9to1_m_133_55_alg».proof.Proof.ScValues

noncomputable section

namespace Cert.Proof.KI

open Cert.KernelIdeal Cert.KernelIdeal.Gen

open Idealize.ShloMosaic
open Finset

/-! ## The arrays at global indices, as extended reals -/

/-- The column edge e of a list names. -/
def edgeCol (b : Vec Ideal S65536 .i32) (e : Fin 65536) : Fin 4096 := col (b (Shape.ofLane (d := ![65536]) e))

/-- Row w, column n of the 32 x 4096 histogram the first call leaves. -/
def histE (d : Dev nD) (dst : Vec Ideal S65536 .i32) (z : Vec Ideal S4096 .f32) (w : Fin 32) (n : Fin 4096) : EReal :=
  histWhole d dst z (ValueIdx.ix2 w n)

/-- Row g, column c of a 256 x 4096 array. -/
def rowsE (f : Vec Ideal S256x4096 .f32) (g : Fin 256) (c : Fin 4096) : EReal := f (ValueIdx.ix2 g c)

/-- Row g, column n of the 256 x 4096 aggregate the second call leaves. -/
def stE (d : Dev nD) (src dst : Vec Ideal S65536 .i32) (yst : Vec Ideal S256x4096 .f32) (z2 : Vec Ideal S16x4096 .f32)
    (g : Fin 256) (n : Fin 4096) : EReal :=
  stWhole d src dst yst z2 (ValueIdx.ix2 g n)

/-! ## The degree histogram -/

/-- Position i of the block of tile w is edge 2048 w + i of the list. -/
theorem tgtOf_edge (d : Dev nD) (dst : Vec Ideal S65536 .i32) (w : Fin 32) (i : Fin 2048) :
    tgtOf d (tileOf w) dst (Shape.ofLane (d := ![2048]) i) = ScVal.edgeAt dst (w.val * 2048 + i.val) := by
  rw [tgtOf_tileOf]
  show dst _ = dst _
  congr 1
  funext (a : Fin 1)
  obtain rfl : a = 0 := Subsingleton.elim _ _
  apply Fin.ext
  show 2048 * w.val + i.val = (w.val * 2048 + i.val) % 65536
  have hw := w.isLt; have hi := i.isLt
  rw [Nat.mod_eq_of_lt (by omega)]; omega

/-- The rows of the histogram, summed at column n: the number of edges into n. -/
theorem hist_global (d : Dev nD) (dst : Vec Ideal S65536 .i32) (z : Vec Ideal S4096 .f32)
    (hdst : ∀ i, (dst i).toNat < 4096) (hz : ∀ n, z n = 0) (n : Fin 4096) :
    ∑ w : Fin 32, histE d dst z w n = ∑ e : Fin 65536, if edgeCol dst e = n then (1 : EReal) else 0 := by
  show ∑ w : Fin 32, histAfter z (tgtOf d (tileOf w) dst) 2048 (ValueIdx.ix1 n) = _
  exact ScVal.hist_total_edges z hz dst (fun w => tgtOf d (tileOf w) dst) (fun w i => tgtOf_edge d dst w i) hdst (ValueIdx.ix1 n) n rfl

/-! ## The aggregate -/

theorem trips1_eq : k3_t1_loop.trips = 8 := by decide +kernel

/-- Every row of 256 is row r of some tile w. -/
theorem exists_rowAt (g : Fin 256) : ∃ (w : Fin 32) (r : Fin 8), g = rowAt w r :=
  ⟨rowTile g, ⟨g.val % 8, Nat.mod_lt _ (by decide)⟩, (rowAt_rowTile g).symm⟩

/-- Row g of the aggregate at column n: the sum over the edges into n of the feature entry (g, source). -/
theorem st_global (d : Dev nD) (src dst : Vec Ideal S65536 .i32) (yst : Vec Ideal S256x4096 .f32) (z2 : Vec Ideal S16x4096 .f32)
    (hz2 : ∀ i, z2 i = 0) (g : Fin 256) (n : Fin 4096) :
    stE d src dst yst z2 g n = ∑ e : Fin 65536, if edgeCol dst e = n then rowsE yst g (edgeCol src e) else 0 := by
  obtain ⟨w, r, rfl⟩ := exists_rowAt g
  unfold stE
  rw [stWhole_entry]
  show (accOf d src dst yst z2 w (ix16 (ScVal.lo r) n) : EReal) + accOf d src dst yst z2 w (ix16 (ScVal.hi r) n) = _
  unfold accOf
  rw [trips1_eq, ScVal.accAfterChunks_total (abYsOf d (tileOf3 w) yst) src dst z2 hz2 r n]
  refine Finset.sum_congr rfl (fun e _ => ?_)
  unfold edgeCol rowsE
  rw [abYsOf_ix8]

end Cert.Proof.KI

end
-- ==== Proof.TcPayloads.lean ====
/-
  The three matrix bodies' stored blocks read at an index, at the exact instance (extended reals, no rounding):
  the first is a product A · Bᵀ over 4096 columns; the second combines two weighted products and scales the columns
  by the inverse square root of one plus a column count; the last adds two blocks, scales the columns the same way,
  transposes, and adds a bias row.
-/
import proofs.«205814_g58841051955373_cont_9to1_m_133_55_alg».proof.Proof.Gen.KernelIdeal.Skeleton
import proofs.«205814_g58841051955373_cont_9to1_m_133_55_alg».proof.Proof.SpecAlgebra
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate

noncomputable section

namespace Cert.Proof.KI.Pay

open Cert.KernelIdeal Cert.KernelIdeal.Gen
open Idealize.ShloMosaic Idealize.ShloMosaic.ValueIdx
open scoped BigOperators

/-! ## The two products' operand indices, axis by axis

For the product A · Bᵀ (both operands contract their axis 1) the left index at result (p, q) and contraction
position k is (p, k) and the right one (q, k); for the plain product A · B (the left operand contracts its axis 1,
the right its axis 0) they are (p, k) and (k, q). Each coordinate computes. -/

theorem lhsNT_0 (j : S256x256.Idx) (k : dot_S256x4096_S256x4096_S256x256_1_1_0_0_n_n.contr.Idx) :
    (dot_S256x4096_S256x4096_S256x256_1_1_0_0_n_n.lhsIdx j k 0).val = (j 0).val := rfl
theorem lhsNT_1 (j : S256x256.Idx) (k : dot_S256x4096_S256x4096_S256x256_1_1_0_0_n_n.contr.Idx) :
    (dot_S256x4096_S256x4096_S256x256_1_1_0_0_n_n.lhsIdx j k 1).val = (k ⟨0, by decide⟩).val := rfl
theorem rhsNT_0 (j : S256x256.Idx) (k : dot_S256x4096_S256x4096_S256x256_1_1_0_0_n_n.contr.Idx) :
    (dot_S256x4096_S256x4096_S256x256_1_1_0_0_n_n.rhsIdx j k 0).val = (j 1).val := rfl
theorem rhsNT_1 (j : S256x256.Idx) (k : dot_S256x4096_S256x4096_S256x256_1_1_0_0_n_n.contr.Idx) :
    (dot_S256x4096_S256x4096_S256x256_1_1_0_0_n_n.rhsIdx j k 1).val = (k ⟨0, by decide⟩).val := rfl

theorem lhsNN_0 (j : S256x256.Idx) (k : dot_S256x256_S256x256_S256x256_1_0_0_1_n_n.contr.Idx) :
    (dot_S256x256_S256x256_S256x256_1_0_0_1_n_n.lhsIdx j k 0).val = (j 0).val := rfl
theorem lhsNN_1 (j : S256x256.Idx) (k : dot_S256x256_S256x256_S256x256_1_0_0_1_n_n.contr.Idx) :
    (dot_S256x256_S256x256_S256x256_1_0_0_1_n_n.lhsIdx j k 1).val = (k ⟨0, by decide⟩).val := rfl
theorem rhsNN_0 (j : S256x256.Idx) (k : dot_S256x256_S256x256_S256x256_1_0_0_1_n_n.contr.Idx) :
    (dot_S256x256_S256x256_S256x256_1_0_0_1_n_n.rhsIdx j k 0).val = (k ⟨0, by decide⟩).val := rfl
theorem rhsNN_1 (j : S256x256.Idx) (k : dot_S256x256_S256x256_S256x256_1_0_0_1_n_n.contr.Idx) :
    (dot_S256x256_S256x256_S256x256_1_0_0_1_n_n.rhsIdx j k 1).val = (j 1).val := rfl

/-- The product A · Bᵀ of two 256 × 4096 matrices into the zero block, read at (p, q): row p of A against row q of B. -/
theorem matmulNT_apply (A B : FVec Ideal S256x4096 .f32) (p q : Fin 256) :
    matmul dot_S256x4096_S256x4096_S256x256_1_1_0_0_n_n none A B (constant (F := Ideal) S256x256 .f32 0x00000000#32) (ix2 p q)
      = ∑ k : Fin 4096, A (ix2 p k) * B (ix2 q k) := by
  simp only [matmul]
  rw [Ideal.matmul_constant_zero_apply,
    ← Equiv.sum_comp (contrEquiv1 dot_S256x4096_S256x4096_S256x256_1_1_0_0_n_n 4096 rfl rfl).symm]
  refine Finset.sum_congr rfl fun c _ => ?_
  have hc := contrEquiv1_symm_val dot_S256x4096_S256x4096_S256x256_1_1_0_0_n_n 4096 rfl rfl c
  have hl : dot_S256x4096_S256x4096_S256x256_1_1_0_0_n_n.lhsIdx (ix2 p q)
      ((contrEquiv1 dot_S256x4096_S256x4096_S256x256_1_1_0_0_n_n 4096 rfl rfl).symm c) = ix2 p c := by
    funext ax; apply Fin.ext
    match ax with
    | ⟨0, _⟩ => exact lhsNT_0 _ _
    | ⟨1, _⟩ => exact (lhsNT_1 _ _).trans hc
  have hr : dot_S256x4096_S256x4096_S256x256_1_1_0_0_n_n.rhsIdx (ix2 p q)
      ((contrEquiv1 dot_S256x4096_S256x4096_S256x256_1_1_0_0_n_n 4096 rfl rfl).symm c) = ix2 q c := by
    funext ax; apply Fin.ext
    match ax with
    | ⟨0, _⟩ => exact rhsNT_0 _ _
    | ⟨1, _⟩ => exact (rhsNT_1 _ _).trans hc
  rw [hl, hr]

/-- The plain product A · B of two 256 × 256 matrices into the zero block, read at (p, q): row p of A against column q of B. -/
theorem matmulNN_apply (A B : FVec Ideal S256x256 .f32) (p q : Fin 256) :
    matmul dot_S256x256_S256x256_S256x256_1_0_0_1_n_n none A B (constant (F := Ideal) S256x256 .f32 0x00000000#32) (ix2 p q)
      = ∑ k : Fin 256, A (ix2 p k) * B (ix2 k q) := by
  simp only [matmul]
  rw [Ideal.matmul_constant_zero_apply,
    ← Equiv.sum_comp (contrEquiv1 dot_S256x256_S256x256_S256x256_1_0_0_1_n_n 256 rfl rfl).symm]
  refine Finset.sum_congr rfl fun c _ => ?_
  have hc := contrEquiv1_symm_val dot_S256x256_S256x256_S256x256_1_0_0_1_n_n 256 rfl rfl c
  have hl : dot_S256x256_S256x256_S256x256_1_0_0_1_n_n.lhsIdx (ix2 p q)
      ((contrEquiv1 dot_S256x256_S256x256_S256x256_1_0_0_1_n_n 256 rfl rfl).symm c) = ix2 p c := by
    funext ax; apply Fin.ext
    match ax with
    | ⟨0, _⟩ => exact lhsNN_0 _ _
    | ⟨1, _⟩ => exact (lhsNN_1 _ _).trans hc
  have hr : dot_S256x256_S256x256_S256x256_1_0_0_1_n_n.rhsIdx (ix2 p q)
      ((contrEquiv1 dot_S256x256_S256x256_S256x256_1_0_0_1_n_n 256 rfl rfl).symm c) = ix2 c q := by
    funext ax; apply Fin.ext
    match ax with
    | ⟨0, _⟩ => exact (rhsNN_0 _ _).trans hc
    | ⟨1, _⟩ => exact rhsNN_1 _ _
  rw [hl, hr]

/-! ## The first product -/

/-- The first product's block at (p, q): row p of the first operand against row q of the second. -/
theorem k1_pay1_apply (x0 x1 : Vec Ideal S256x4096 .f32) (p q : Fin 256) :
    k1_pay1 (F := Ideal) x0 x1 (ix2 p q) = ∑ k : Fin 4096, x0 (ix2 p k) * x1 (ix2 q k) := by
  unfold k1_pay1
  simp only [shapeCast_self]
  exact matmulNT_apply x0 x1 p q

/-! ## The diagonal factor

Both later bodies multiply on the right by the matrix that has, on its diagonal, the inverse square root of one
plus the column sums of a 32 × 256 block, and zero elsewhere. -/

/-- A select on "row number equals column number", both below 256, is the `if` on the coordinates. -/
theorem select_row_eq_col {α : Type} (k q : Fin 256) (A B : α) :
    Scalar.select (IntOp.cmpi .eq (BitVec.ofNat 32 k.val) (BitVec.ofNat 32 q.val)) A B = if k = q then A else B := by
  unfold Scalar.select
  by_cases hkq : k = q
  · subst hkq
    exact (if_pos (StableHlo.Predicate.cmpi_eq_iff.mpr rfl)).trans (if_pos rfl).symm
  · refine (if_neg ?_).trans (if_neg hkq).symm
    intro hw
    have hv := congrArg BitVec.toNat (StableHlo.Predicate.cmpi_eq_iff.mp hw)
    rw [BitVec.toNat_ofNat, BitVec.toNat_ofNat] at hv
    have hk := k.isLt
    have hq := q.isLt
    exact hkq (Fin.ext (by omega))

/-- The column sums' index with a row inserted. -/
theorem lift_col (q : Fin 256) (w : Fin 32) : reduces_S32x256_S256.lift (ix1 q) w = ix2 w q := by
  funext a; apply Fin.ext
  match a with
  | ⟨0, _⟩ => rfl
  | ⟨1, _⟩ => rfl

/-- The sum over the 32 rows of a 32 × 256 block, read at column q. -/
theorem colsum_apply (h : FVec Ideal S32x256 .f32) (hφ : FKind.Formats .f32)
    (hacc : (0x00000000#32 : BitVec 32) = FKind.add.neutral .f32 hφ) (q : Fin 256) :
    multiReduction (F := Ideal) .add [0] S256 h 0x00000000#32 reduces_S32x256_S256 hφ hacc (ix1 q)
      = ∑ w : Fin 32, h (ix2 w q) := by
  refine (Ideal.multiReduction_add_single h 0x00000000#32 reduces_S32x256_S256 hφ hacc (ix1 q)).trans ?_
  exact Finset.sum_congr rfl fun w _ => congrArg h (lift_col q w)

/-- The diagonal factor as both bodies build it, over the block of counts. -/
def Dg {F : FTy → Type} [FloatOps F] (h : Vec F S32x256 .f32) : FVec F S256x256 .f32 :=
  select (cmpi .eq (iota .tc S256x256 32 [0] iota_S256x256_d0_w32) (iota .tc S256x256 32 [1] iota_S256x256_d1_w32))
    (broadcastTo S256x256
      (shapeCast S1x256
        (rsqrt (addf
          (shapeCast S1x256
            (multiReduction .add [0] S256 (shapeCast S32x256 h shapeCasts_S32x256_S32x256) 0x00000000#32 reduces_S32x256_S256 (.inl rfl) rfl)
            shapeCasts_S256_S1x256)
          (broadcast S1x256 (Scalar.ofBits .f32 0x3F800000#32))))
        shapeCasts_S1x256_S1x256)
      broadcasts_S1x256_S256x256)
    (broadcast S256x256 (Scalar.ofBits .f32 0x00000000#32))

/-- The diagonal factor at (k, q): the inverse square root of one plus column q's sum where k = q, else zero. -/
theorem Dg_apply (h : Vec Ideal S32x256 .f32) (k q : Fin 256) :
    Dg (F := Ideal) h (ix2 k q) = if k = q then Ideal.rsqrt ((∑ w : Fin 32, h (ix2 w q)) + 1) else 0 := by
  unfold Dg
  simp only [shapeCast_self]
  rw [select_apply, broadcastTo_1b_ab_apply, broadcast_apply]
  have hc : cmpi .eq (iota .tc S256x256 32 [0] iota_S256x256_d0_w32) (iota .tc S256x256 32 [1] iota_S256x256_d1_w32) (ix2 k q)
      = IntOp.cmpi .eq (BitVec.ofNat 32 k.val) (BitVec.ofNat 32 q.val) := by
    show IntOp.cmpi .eq (iota .tc S256x256 32 [0] iota_S256x256_d0_w32 (ix2 k q)) (iota .tc S256x256 32 [1] iota_S256x256_d1_w32 (ix2 k q)) = _
    rw [iota_single_apply, iota_single_apply]
  rw [hc, select_row_eq_col]
  refine if_congr Iff.rfl ?_ Ideal.ofBits_zero_f32
  show Ideal.rsqrt (shapeCast S1x256 _ shapeCasts_S256_S1x256 (ix2 (0 : Fin 1) q) + Ideal.ofBits .f32 0x3F800000#32) = _
  rw [shapeCast_a_1a_apply, Ideal.ofBits_one_f32]
  exact congrArg (fun x => Ideal.rsqrt (x + 1)) (colsum_apply h _ _ q)

/-! ## The second body -/

/-- The second body's block at (p, q), the diagonal product left as a sum. The arguments are, in the payload's order:
    the whole 256 × 4096 matrix x1, its 256-column block, the 256 × 4096 block of the second operator, the first
    weight, the block of x0, the second weight, the block of counts. -/
theorem k2_pay1_apply_sum (x1f : Vec Ideal S256x4096 .f32) (x1b : Vec Ideal S256x256 .f32) (a1 : Vec Ideal S256x4096 .f32)
    (w0 xf w1 : Vec Ideal S256x256 .f32) (h : Vec Ideal S32x256 .f32) (p q : Fin 256) :
    k2_pay1 (F := Ideal) x1f x1b a1 w0 xf w1 h (ix2 p q)
      = ∑ k : Fin 256, ((∑ j : Fin 256, w0 (ix2 p j) * (xf (ix2 j k) + x1b (ix2 j k)))
            + ∑ j : Fin 256, w1 (ix2 p j) * ∑ m : Fin 4096, x1f (ix2 j m) * a1 (ix2 k m))
          * (if k = q then Ideal.rsqrt ((∑ w : Fin 32, h (ix2 w q)) + 1) else 0) := by
  unfold k2_pay1
  refine (matmulNN_apply _ (Dg (F := Ideal) h) p q).trans ?_
  refine Finset.sum_congr rfl fun k _ => ?_
  refine congrArg₂ (· * ·) ?_ (Dg_apply h k q)
  simp only [shapeCast_self]
  refine (addf_apply _ _ _).trans (congrArg₂ (· + ·) ?_ ?_)
  · exact (matmulNN_apply _ _ p k).trans (Finset.sum_congr rfl fun j _ => rfl)
  · exact (matmulNN_apply _ _ p k).trans
      (Finset.sum_congr rfl fun j _ => congrArg (w1 (ix2 p j) * ·) (matmulNT_apply x1f a1 j k))

/-- The second body's block at (p, q): one term of the diagonal product is left. -/
theorem k2_pay1_apply (x1f : Vec Ideal S256x4096 .f32) (x1b : Vec Ideal S256x256 .f32) (a1 : Vec Ideal S256x4096 .f32)
    (w0 xf w1 : Vec Ideal S256x256 .f32) (h : Vec Ideal S32x256 .f32) (p q : Fin 256) :
    k2_pay1 (F := Ideal) x1f x1b a1 w0 xf w1 h (ix2 p q)
      = ((∑ j : Fin 256, w0 (ix2 p j) * (xf (ix2 j q) + x1b (ix2 j q)))
            + ∑ j : Fin 256, w1 (ix2 p j) * ∑ m : Fin 4096, x1f (ix2 j m) * a1 (ix2 q m))
          * Ideal.rsqrt ((∑ w : Fin 32, h (ix2 w q)) + 1) := by
  rw [k2_pay1_apply_sum]
  exact Cert.Proof.Algebra.scaled_eq (R := EReal) mul_zero
    (fun n : Fin 256 => Ideal.rsqrt ((∑ w : Fin 32, h (ix2 w n)) + 1))
    (fun (k : Fin 256) (f : Fin 256) => (∑ j : Fin 256, w0 (ix2 f j) * (xf (ix2 j k) + x1b (ix2 j k)))
            + ∑ j : Fin 256, w1 (ix2 f j) * ∑ m : Fin 4096, x1f (ix2 j m) * a1 (ix2 k m)) p q

/-! ## The last body -/

/-- The last body's block at (p, q), the diagonal product left as a sum: the transposed scaled sum plus the bias row. -/
theorem k4_pay1_apply_sum (st yst : Vec Ideal S256x256 .f32) (h : Vec Ideal S32x256 .f32) (b : Vec Ideal S1x256 .f32)
    (p q : Fin 256) :
    k4_pay1 (F := Ideal) st yst h b (ix2 p q)
      = (∑ k : Fin 256, (st (ix2 q k) + yst (ix2 q k)) * (if k = p then Ideal.rsqrt ((∑ w : Fin 32, h (ix2 w p)) + 1) else 0))
          + b (ix2 (0 : Fin 1) q) := by
  unfold k4_pay1
  refine (addf_apply _ _ _).trans (congrArg₂ (· + ·) ?_ ?_)
  · refine (transpose_ix2_apply _ transposes_S256x256_p1_0_S256x256 p q).trans ?_
    refine (matmulNN_apply _ (Dg (F := Ideal) h) q p).trans ?_
    refine Finset.sum_congr rfl fun k _ => congrArg₂ (· * ·) ?_ (Dg_apply h k p)
    simp only [shapeCast_self]
    rfl
  · simp only [shapeCast_self]
    exact broadcastTo_1b_ab_apply b broadcasts_S1x256_S256x256 p q

/-- The last body's block at (p, q): one term of the diagonal product is left. -/
theorem k4_pay1_apply (st yst : Vec Ideal S256x256 .f32) (h : Vec Ideal S32x256 .f32) (b : Vec Ideal S1x256 .f32)
    (p q : Fin 256) :
    k4_pay1 (F := Ideal) st yst h b (ix2 p q)
      = (st (ix2 q p) + yst (ix2 q p)) * Ideal.rsqrt ((∑ w : Fin 32, h (ix2 w p)) + 1) + b (ix2 (0 : Fin 1) q) := by
  rw [k4_pay1_apply_sum]
  refine congrArg (· + b (ix2 (0 : Fin 1) q)) ?_
  exact Cert.Proof.Algebra.scaled_eq (R := EReal) mul_zero
    (fun n : Fin 256 => Ideal.rsqrt ((∑ w : Fin 32, h (ix2 w n)) + 1))
    (fun (k : Fin 256) (f : Fin 256) => st (ix2 f k) + yst (ix2 f k)) q p

end Cert.Proof.KI.Pay

end
-- ==== Proof.TcGlobal.lean ====
/-
  The first matrix product read at global coordinates. The region computes the result block by block: column block t
  of the result is the product of the left factor with rows block t of the right factor, transposed. An element's
  column n lies in block n / 256 at place n mod 256, and rows block t of the right factor holds at its row q the
  factor's row 256 t + q; so entry (g, n) of the result is the sum over k of X (g, k) · A (n, k).
-/
import proofs.«205814_g58841051955373_cont_9to1_m_133_55_alg».proof.Proof.TcRegion
import proofs.«205814_g58841051955373_cont_9to1_m_133_55_alg».proof.Proof.TcPayloads

noncomputable section

namespace Cert.Proof.KI

open Cert.KernelIdeal Cert.KernelIdeal.Gen
open Idealize.ShloMosaic Idealize.ShloMosaic.ValueIdx
open Idealize.ShloMosaic.SparseCore (S V T)
open scoped BigOperators

/-- Rows block `t` of the right factor starts at row `256 t` and spans every column. -/
theorem idx1_row (t : Fin cfg1.N) : (cfg1.win 1).index t 0 = t.val := by
  show cc1_transform_1 (grid1.coords t) 0 = t.val; rw [index1_1 t]; rfl
theorem idx1_col (t : Fin cfg1.N) : (cfg1.win 1).index t 1 = 0 := by
  show cc1_transform_1 (grid1.coords t) 1 = 0; rw [index1_1 t]; rfl

/-- Row `q` of rows block `t` is row `256 t + q` of the factor. -/
theorem rowsBlk_apply {F : FTy → Type} [FloatOps F] (A : Vec F S4096x4096 .f32) (t : Fin cfg1.N) (q : Fin 256) (k : Fin 4096)
    (h : 256 * t.val + q.val < 4096) :
    rowsBlk A t (ix2 q k) = A (ix2 (⟨256 * t.val + q.val, h⟩ : Fin 4096) k) := by
  unfold rowsBlk
  rw [View.read_apply]
  show A (((cfg1.win 1).blk t).view.emb (ix2 q k)) = A (ix2 (⟨256 * t.val + q.val, h⟩ : Fin 4096) k)
  congr 1
  funext a; apply Fin.ext
  rw [show ((cfg1.win 1).blk t).view.emb (ix2 q k) = ((cfg1.win 1).rect t).emb (ix2 q k) from rfl]
  match a with
  | ⟨0, _⟩ =>
    have e := (cfg1.win 1).rect_emb_val t (ix2 q k) 0
    rw [idx1_row t] at e
    refine e.trans ?_
    show t.val * 256 + q.val = 256 * t.val + q.val
    omega
  | ⟨1, _⟩ => exact (cfg1.win 1).rect_emb_val_of_index_zero t 1 (idx1_col t) (ix2 q k)

/-- Entry `(g, n)` of the first product: row `g` of the left factor against row `n` of the right factor. -/
theorem x1tV_apply (X : Vec Ideal S256x4096 .f32) (A : Vec Ideal S4096x4096 .f32) (g : Fin 256) (n : Fin 4096) :
    x1tV (F := Ideal) X A (ix2 g n) = ∑ k : Fin 4096, X (ix2 g k) * A (ix2 n k) := by
  have hn : n.val < 4096 := n.isLt
  have ht : (tOf (ix2 g n)).val = n.val / 256 := rfl
  have hj : jOf (ix2 g n) = ix2 g (⟨n.val % 256, Nat.mod_lt _ (by decide)⟩ : Fin 256) := by
    funext a
    match a with
    | ⟨0, _⟩ => rfl
    | ⟨1, _⟩ => rfl
  show out1 X (rowsBlk A (tOf (ix2 g n))) (jOf (ix2 g n)) = _
  rw [out1_eq, hj, Pay.k1_pay1_apply]
  refine Finset.sum_congr rfl fun k _ => ?_
  congr 1
  rw [rowsBlk_apply A (tOf (ix2 g n)) _ k (by rw [ht]; show 256 * (n.val / 256) + n.val % 256 < 4096; omega)]
  congr 1
  funext a
  match a with
  | ⟨0, _⟩ => apply Fin.ext; show 256 * (tOf (ix2 g n)).val + n.val % 256 = n.val; rw [ht]; omega
  | ⟨1, _⟩ => rfl

/-- The same at the result array's location on device `d`. -/
theorem x1t_apply (d : Dev nD) (X : Vec Ideal S256x4096 .f32) (A : Vec Ideal S4096x4096 .f32) (g : Fin 256) (n : Fin 4096) :
    (x1t (F := Ideal) d X A : Vec Ideal S256x4096 .f32) (ix2 g n) = ∑ k : Fin 4096, X (ix2 g k) * A (ix2 n k) :=
  x1tV_apply X A g n

end Cert.Proof.KI

end
-- ==== Proof.TcGlobal23.lean ====
/-
  The second and third TensorCore results read at global indices, at the exact instance: an element of the staged
  result is the two weighted products at its row and column, scaled by the inverse square root of one plus the
  column's count; an element of the final result is the transposed scaled sum of the aggregate and the staged result
  plus the bias. Underneath: where an element of each operand's block sits in its array.
-/
import proofs.«205814_g58841051955373_cont_9to1_m_133_55_alg».proof.Proof.TcRegion2
import proofs.«205814_g58841051955373_cont_9to1_m_133_55_alg».proof.Proof.TcRegion3
import proofs.«205814_g58841051955373_cont_9to1_m_133_55_alg».proof.Proof.TcPayloads

noncomputable section

namespace Cert.Proof.KI

open Cert.KernelIdeal Cert.KernelIdeal.Gen
open Idealize.ShloMosaic Idealize.ShloMosaic.TcCoe Idealize.ShloMosaic.ValueIdx
open Idealize.ShloMosaic.SparseCore (S V T)
open Idealize.ShloMosaic.Pipeline (Dat Cfg Window)
open scoped BigOperators

variable {F : FTy → Type} [FloatOps F]

/-! ## Where a block's element sits in its array

For each operand window whose block index moves with the grid point: the block index at point `t`, and the two
coordinates of the array element under an element of block `t`. -/

theorem indexG2w0 : ∀ t : Fin grid2.N, cc2_transform_0 (grid2.coords t) = ![t.val, 0] := by decide +kernel
theorem idxG2w0_0 (t : Fin cfg2.N) : (cfg2.win 0).index t 0 = t.val := by
  show cc2_transform_0 (grid2.coords t) 0 = t.val; rw [indexG2w0 t]; rfl
theorem idxG2w0_1 (t : Fin cfg2.N) : (cfg2.win 0).index t 1 = 0 := by
  show cc2_transform_0 (grid2.coords t) 1 = 0; rw [indexG2w0 t]; rfl
theorem embG2w0_0 (t : Fin cfg2.N) (y : ((cfg2.win 0).xblock (cfg2.grid.coords t)).Idx) :
    ((((cfg2.win 0).blk t).view.emb y) 0 : ℕ) = t.val * 256 + (y 0 : ℕ) := by
  rw [show ((cfg2.win 0).blk t).view.emb y = ((cfg2.win 0).rect t).emb y from rfl]
  have h := (cfg2.win 0).rect_emb_val t y 0
  rw [idxG2w0_0 t] at h
  exact h
theorem embG2w0_1 (t : Fin cfg2.N) (y : ((cfg2.win 0).xblock (cfg2.grid.coords t)).Idx) :
    ((((cfg2.win 0).blk t).view.emb y) 1 : ℕ) = (y 1 : ℕ) := by
  rw [show ((cfg2.win 0).blk t).view.emb y = ((cfg2.win 0).rect t).emb y from rfl]
  exact (cfg2.win 0).rect_emb_val_of_index_zero t 1 (idxG2w0_1 t) y

theorem indexG2w2 : ∀ t : Fin grid2.N, cc2_transform_2 (grid2.coords t) = ![0, t.val] := by decide +kernel
theorem idxG2w2_1 (t : Fin cfg2.N) : (cfg2.win 2).index t 1 = t.val := by
  show cc2_transform_2 (grid2.coords t) 1 = t.val; rw [indexG2w2 t]; rfl
theorem idxG2w2_0 (t : Fin cfg2.N) : (cfg2.win 2).index t 0 = 0 := by
  show cc2_transform_2 (grid2.coords t) 0 = 0; rw [indexG2w2 t]; rfl
theorem embG2w2_1 (t : Fin cfg2.N) (y : ((cfg2.win 2).xblock (cfg2.grid.coords t)).Idx) :
    ((((cfg2.win 2).blk t).view.emb y) 1 : ℕ) = t.val * 256 + (y 1 : ℕ) := by
  rw [show ((cfg2.win 2).blk t).view.emb y = ((cfg2.win 2).rect t).emb y from rfl]
  have h := (cfg2.win 2).rect_emb_val t y 1
  rw [idxG2w2_1 t] at h
  exact h
theorem embG2w2_0 (t : Fin cfg2.N) (y : ((cfg2.win 2).xblock (cfg2.grid.coords t)).Idx) :
    ((((cfg2.win 2).blk t).view.emb y) 0 : ℕ) = (y 0 : ℕ) := by
  rw [show ((cfg2.win 2).blk t).view.emb y = ((cfg2.win 2).rect t).emb y from rfl]
  exact (cfg2.win 2).rect_emb_val_of_index_zero t 0 (idxG2w2_0 t) y

theorem indexG2w3 : ∀ t : Fin grid2.N, cc2_transform_3 (grid2.coords t) = ![0, t.val] := by decide +kernel
theorem idxG2w3_1 (t : Fin cfg2.N) : (cfg2.win 3).index t 1 = t.val := by
  show cc2_transform_3 (grid2.coords t) 1 = t.val; rw [indexG2w3 t]; rfl
theorem idxG2w3_0 (t : Fin cfg2.N) : (cfg2.win 3).index t 0 = 0 := by
  show cc2_transform_3 (grid2.coords t) 0 = 0; rw [indexG2w3 t]; rfl
theorem embG2w3_1 (t : Fin cfg2.N) (y : ((cfg2.win 3).xblock (cfg2.grid.coords t)).Idx) :
    ((((cfg2.win 3).blk t).view.emb y) 1 : ℕ) = t.val * 256 + (y 1 : ℕ) := by
  rw [show ((cfg2.win 3).blk t).view.emb y = ((cfg2.win 3).rect t).emb y from rfl]
  have h := (cfg2.win 3).rect_emb_val t y 1
  rw [idxG2w3_1 t] at h
  exact h
theorem embG2w3_0 (t : Fin cfg2.N) (y : ((cfg2.win 3).xblock (cfg2.grid.coords t)).Idx) :
    ((((cfg2.win 3).blk t).view.emb y) 0 : ℕ) = (y 0 : ℕ) := by
  rw [show ((cfg2.win 3).blk t).view.emb y = ((cfg2.win 3).rect t).emb y from rfl]
  exact (cfg2.win 3).rect_emb_val_of_index_zero t 0 (idxG2w3_0 t) y

theorem indexG4w0 : ∀ t : Fin grid4.N, cc4_transform_0 (grid4.coords t) = ![0, t.val] := by decide +kernel
theorem idxG4w0_1 (t : Fin cfg4.N) : (cfg4.win 0).index t 1 = t.val := by
  show cc4_transform_0 (grid4.coords t) 1 = t.val; rw [indexG4w0 t]; rfl
theorem idxG4w0_0 (t : Fin cfg4.N) : (cfg4.win 0).index t 0 = 0 := by
  show cc4_transform_0 (grid4.coords t) 0 = 0; rw [indexG4w0 t]; rfl
theorem embG4w0_1 (t : Fin cfg4.N) (y : ((cfg4.win 0).xblock (cfg4.grid.coords t)).Idx) :
    ((((cfg4.win 0).blk t).view.emb y) 1 : ℕ) = t.val * 256 + (y 1 : ℕ) := by
  rw [show ((cfg4.win 0).blk t).view.emb y = ((cfg4.win 0).rect t).emb y from rfl]
  have h := (cfg4.win 0).rect_emb_val t y 1
  rw [idxG4w0_1 t] at h
  exact h
theorem embG4w0_0 (t : Fin cfg4.N) (y : ((cfg4.win 0).xblock (cfg4.grid.coords t)).Idx) :
    ((((cfg4.win 0).blk t).view.emb y) 0 : ℕ) = (y 0 : ℕ) := by
  rw [show ((cfg4.win 0).blk t).view.emb y = ((cfg4.win 0).rect t).emb y from rfl]
  exact (cfg4.win 0).rect_emb_val_of_index_zero t 0 (idxG4w0_0 t) y

theorem indexG4w1 : ∀ t : Fin grid4.N, cc4_transform_1 (grid4.coords t) = ![0, t.val] := by decide +kernel
theorem idxG4w1_1 (t : Fin cfg4.N) : (cfg4.win 1).index t 1 = t.val := by
  show cc4_transform_1 (grid4.coords t) 1 = t.val; rw [indexG4w1 t]; rfl
theorem idxG4w1_0 (t : Fin cfg4.N) : (cfg4.win 1).index t 0 = 0 := by
  show cc4_transform_1 (grid4.coords t) 0 = 0; rw [indexG4w1 t]; rfl
theorem embG4w1_1 (t : Fin cfg4.N) (y : ((cfg4.win 1).xblock (cfg4.grid.coords t)).Idx) :
    ((((cfg4.win 1).blk t).view.emb y) 1 : ℕ) = t.val * 256 + (y 1 : ℕ) := by
  rw [show ((cfg4.win 1).blk t).view.emb y = ((cfg4.win 1).rect t).emb y from rfl]
  have h := (cfg4.win 1).rect_emb_val t y 1
  rw [idxG4w1_1 t] at h
  exact h
theorem embG4w1_0 (t : Fin cfg4.N) (y : ((cfg4.win 1).xblock (cfg4.grid.coords t)).Idx) :
    ((((cfg4.win 1).blk t).view.emb y) 0 : ℕ) = (y 0 : ℕ) := by
  rw [show ((cfg4.win 1).blk t).view.emb y = ((cfg4.win 1).rect t).emb y from rfl]
  exact (cfg4.win 1).rect_emb_val_of_index_zero t 0 (idxG4w1_0 t) y

theorem indexG4w2 : ∀ t : Fin grid4.N, cc4_transform_2 (grid4.coords t) = ![0, t.val] := by decide +kernel
theorem idxG4w2_1 (t : Fin cfg4.N) : (cfg4.win 2).index t 1 = t.val := by
  show cc4_transform_2 (grid4.coords t) 1 = t.val; rw [indexG4w2 t]; rfl
theorem idxG4w2_0 (t : Fin cfg4.N) : (cfg4.win 2).index t 0 = 0 := by
  show cc4_transform_2 (grid4.coords t) 0 = 0; rw [indexG4w2 t]; rfl
theorem embG4w2_1 (t : Fin cfg4.N) (y : ((cfg4.win 2).xblock (cfg4.grid.coords t)).Idx) :
    ((((cfg4.win 2).blk t).view.emb y) 1 : ℕ) = t.val * 256 + (y 1 : ℕ) := by
  rw [show ((cfg4.win 2).blk t).view.emb y = ((cfg4.win 2).rect t).emb y from rfl]
  have h := (cfg4.win 2).rect_emb_val t y 1
  rw [idxG4w2_1 t] at h
  exact h
theorem embG4w2_0 (t : Fin cfg4.N) (y : ((cfg4.win 2).xblock (cfg4.grid.coords t)).Idx) :
    ((((cfg4.win 2).blk t).view.emb y) 0 : ℕ) = (y 0 : ℕ) := by
  rw [show ((cfg4.win 2).blk t).view.emb y = ((cfg4.win 2).rect t).emb y from rfl]
  exact (cfg4.win 2).rect_emb_val_of_index_zero t 0 (idxG4w2_0 t) y

/-! ## The operands' blocks, read at an element -/

theorem rowsBlk2_apply (Z : Vec F S4096x4096 .f32) (t : Fin cfg2.N) (p : Fin 256) (m : Fin 4096) (n : Fin 4096) (hn : n.val = t.val * 256 + p.val) :
    rowsBlk2 Z t (ix2 p m) = Z (ix2 n m) := by
  unfold rowsBlk2
  rw [View.read_apply]
  show Z (((cfg2.win 0).blk t).view.emb (ix2 p m)) = Z (ix2 n m)
  congr 1
  funext a; apply Fin.ext
  match a with
  | ⟨0, _⟩ => exact (embG2w0_0 t (ix2 p m)).trans hn.symm
  | ⟨1, _⟩ => exact embG2w0_1 t (ix2 p m)

theorem colBlkX_apply (Z : Vec F S256x4096 .f32) (t : Fin cfg2.N) (r : Fin 256) (q : Fin 256) (n : Fin 4096) (hn : n.val = t.val * 256 + q.val) :
    colBlkX Z t (ix2 r q) = Z (ix2 r n) := by
  unfold colBlkX
  rw [View.read_apply]
  show Z (((cfg2.win 2).blk t).view.emb (ix2 r q)) = Z (ix2 r n)
  congr 1
  funext a; apply Fin.ext
  match a with
  | ⟨0, _⟩ => exact embG2w2_0 t (ix2 r q)
  | ⟨1, _⟩ => exact (embG2w2_1 t (ix2 r q)).trans hn.symm

theorem colBlkH_apply (Z : Vec F S32x4096 .f32) (t : Fin cfg2.N) (r : Fin 32) (q : Fin 256) (n : Fin 4096) (hn : n.val = t.val * 256 + q.val) :
    colBlkH Z t (ix2 r q) = Z (ix2 r n) := by
  unfold colBlkH
  rw [View.read_apply]
  show Z (((cfg2.win 3).blk t).view.emb (ix2 r q)) = Z (ix2 r n)
  congr 1
  funext a; apply Fin.ext
  match a with
  | ⟨0, _⟩ => exact embG2w3_0 t (ix2 r q)
  | ⟨1, _⟩ => exact (embG2w3_1 t (ix2 r q)).trans hn.symm

theorem colBlkS_apply (Z : Vec F S256x4096 .f32) (t : Fin cfg4.N) (r : Fin 256) (q : Fin 256) (n : Fin 4096) (hn : n.val = t.val * 256 + q.val) :
    colBlkS Z t (ix2 r q) = Z (ix2 r n) := by
  unfold colBlkS
  rw [View.read_apply]
  show Z (((cfg4.win 0).blk t).view.emb (ix2 r q)) = Z (ix2 r n)
  congr 1
  funext a; apply Fin.ext
  match a with
  | ⟨0, _⟩ => exact embG4w0_0 t (ix2 r q)
  | ⟨1, _⟩ => exact (embG4w0_1 t (ix2 r q)).trans hn.symm

theorem colBlkY_apply (Z : Vec F S256x4096 .f32) (t : Fin cfg4.N) (r : Fin 256) (q : Fin 256) (n : Fin 4096) (hn : n.val = t.val * 256 + q.val) :
    colBlkY Z t (ix2 r q) = Z (ix2 r n) := by
  unfold colBlkY
  rw [View.read_apply]
  show Z (((cfg4.win 1).blk t).view.emb (ix2 r q)) = Z (ix2 r n)
  congr 1
  funext a; apply Fin.ext
  match a with
  | ⟨0, _⟩ => exact embG4w1_0 t (ix2 r q)
  | ⟨1, _⟩ => exact (embG4w1_1 t (ix2 r q)).trans hn.symm

theorem colBlkH4_apply (Z : Vec F S32x4096 .f32) (t : Fin cfg4.N) (r : Fin 32) (q : Fin 256) (n : Fin 4096) (hn : n.val = t.val * 256 + q.val) :
    colBlkH4 Z t (ix2 r q) = Z (ix2 r n) := by
  unfold colBlkH4
  rw [View.read_apply]
  show Z (((cfg4.win 2).blk t).view.emb (ix2 r q)) = Z (ix2 r n)
  congr 1
  funext a; apply Fin.ext
  match a with
  | ⟨0, _⟩ => exact embG4w2_0 t (ix2 r q)
  | ⟨1, _⟩ => exact (embG4w2_1 t (ix2 r q)).trans hn.symm

/-- The body's own load of column block `t` of the whole first product. -/
theorem off1_at : ∀ t : Fin grid2.N, k2_off1 (grid2.coords t) = ![0, 256 * t.val] := by decide +kernel

theorem ldX1_apply (X1 : Vec F S256x4096 .f32) (t : Fin cfg2.N) (r q : Fin 256) (n : Fin 4096) (hn : n.val = t.val * 256 + q.val) :
    View.ld X1 (r2_s (grid2.coords t)) (ix2 r q) = X1 (ix2 r n) := by
  show X1 ((r2_s (grid2.coords t)).idx (ix2 r q)) = X1 (ix2 r n)
  congr 1
  funext a; apply Fin.ext
  match a with
  | ⟨0, _⟩ =>
    show k2_off1 (grid2.coords t) 0 + 1 * r.val = r.val
    rw [off1_at t]; show 0 + 1 * r.val = r.val; omega
  | ⟨1, _⟩ =>
    show k2_off1 (grid2.coords t) 1 + 1 * q.val = n.val
    rw [off1_at t, hn]; show 256 * t.val + 1 * q.val = t.val * 256 + q.val; omega

/-! ## The stored blocks are the payloads -/

/-- Every load but the one of the first product's own column block reads its whole block, and the store writes the whole
    output block: what is left is the payload itself. -/
theorem out2_pay (i : grid2.Coords) (a1 x1 : Vec F S256x4096 .f32) (xb : Vec F S256x256 .f32) (hb : Vec F S32x256 .f32)
    (w0 w1 : Vec F S256x256 .f32) : out2 i a1 x1 xb hb w0 w1 = k2_pay1 x1 (View.ld x1 (r2_s i)) a1 w0 xb w1 hb := by
  unfold out2
  have h2 : (![0, 0] : Fin 2 → ℕ) = fun _ => 0 := by funext a; fin_cases a <;> rfl
  rw [View.canon_unit_zero h2, View.ld_unit_zero h2 _ x1, View.ld_unit_zero h2 _ a1, View.ld_unit_zero h2 _ w0,
    View.ld_unit_zero h2 _ xb, View.ld_unit_zero h2 _ w1, View.ld_unit_zero h2 _ hb]

/-- Every load reads its whole block and the store writes the whole output block: what is left is the payload itself. -/
theorem out4_pay (s y : Vec F S256x256 .f32) (h : Vec F S32x256 .f32) (b : Vec F S1x256 .f32) : out4 s y h b = k4_pay1 s y h b := by
  unfold out4
  have h2 : (![0, 0] : Fin 2 → ℕ) = fun _ => 0 := by funext a; fin_cases a <;> rfl
  rw [View.canon_unit_zero h2, View.ld_unit_zero h2 _ s, View.ld_unit_zero h2 _ y, View.ld_unit_zero h2 _ h, View.ld_unit_zero h2 _ b]

/-! ## The two results at global indices -/

/-- The staged result at row `g`, column `n`. -/
theorem yst2V_apply (A1 : Vec Ideal S4096x4096 .f32) (X1 Xf : Vec Ideal S256x4096 .f32) (Hf : Vec Ideal S32x4096 .f32)
    (W0 W1 : Vec Ideal S256x256 .f32) (g : Fin 256) (n : Fin 4096) :
    yst2V A1 X1 Xf Hf W0 W1 (ix2 g n)
      = ((∑ j : Fin 256, W0 (ix2 g j) * (Xf (ix2 j n) + X1 (ix2 j n)))
          + ∑ j : Fin 256, W1 (ix2 g j) * ∑ k : Fin 4096, X1 (ix2 j k) * A1 (ix2 n k))
        * Ideal.rsqrt ((∑ w : Fin 32, Hf (ix2 w n)) + 1) := by
  have hlt : n.val % 256 < 256 := Nat.mod_lt _ (by decide)
  have hn : n.val = (tOf2 (ix2 g n)).val * 256 + (⟨n.val % 256, hlt⟩ : Fin 256).val := by
    show n.val = n.val / 256 * 256 + n.val % 256; omega
  have hj : jOf2 (ix2 g n) = ix2 g (⟨n.val % 256, hlt⟩ : Fin 256) := by
    funext a; match a with | ⟨0, _⟩ => rfl | ⟨1, _⟩ => rfl
  show out2 (grid2.coords (tOf2 (ix2 g n))) (rowsBlk2 A1 (tOf2 (ix2 g n))) X1 (colBlkX Xf (tOf2 (ix2 g n)))
      (colBlkH Hf (tOf2 (ix2 g n))) W0 W1 (jOf2 (ix2 g n)) = _
  rw [hj, out2_pay, Pay.k2_pay1_apply]
  refine congrArg₂ (· * ·) (congrArg₂ (· + ·) (Finset.sum_congr rfl fun j _ => ?_) (Finset.sum_congr rfl fun j _ => ?_)) ?_
  · rw [colBlkX_apply Xf _ j _ n hn, ldX1_apply X1 _ j _ n hn]
  · refine congrArg (W1 (ix2 g j) * ·) (Finset.sum_congr rfl fun m _ => ?_)
    rw [rowsBlk2_apply A1 _ _ m n hn]
  · refine congrArg (fun x => Ideal.rsqrt (x + 1)) (Finset.sum_congr rfl fun w _ => ?_)
    rw [colBlkH_apply Hf _ w _ n hn]

/-- The final result at row `n`, column `g`. -/
theorem out4V_apply (ST Yf : Vec Ideal S256x4096 .f32) (Hf : Vec Ideal S32x4096 .f32) (Bf : Vec Ideal S1x256 .f32)
    (n : Fin 4096) (g : Fin 256) :
    out4V ST Yf Hf Bf (ix2 n g)
      = (ST (ix2 g n) + Yf (ix2 g n)) * Ideal.rsqrt ((∑ w : Fin 32, Hf (ix2 w n)) + 1) + Bf (ix2 (0 : Fin 1) g) := by
  have hlt : n.val % 256 < 256 := Nat.mod_lt _ (by decide)
  have hn : n.val = (tOf4 (ix2 n g)).val * 256 + (⟨n.val % 256, hlt⟩ : Fin 256).val := by
    show n.val = n.val / 256 * 256 + n.val % 256; omega
  have hj : jOf4 (ix2 n g) = ix2 (⟨n.val % 256, hlt⟩ : Fin 256) g := by
    funext a; match a with | ⟨0, _⟩ => rfl | ⟨1, _⟩ => rfl
  show out4 (colBlkS ST (tOf4 (ix2 n g))) (colBlkY Yf (tOf4 (ix2 n g))) (colBlkH4 Hf (tOf4 (ix2 n g))) Bf (jOf4 (ix2 n g)) = _
  rw [hj, out4_pay, Pay.k4_pay1_apply]
  refine congrArg (· + Bf (ix2 (0 : Fin 1) g)) (congrArg₂ (· * ·) ?_ ?_)
  · rw [colBlkS_apply ST _ g _ n hn, colBlkY_apply Yf _ g _ n hn]
  · refine congrArg (fun x => Ideal.rsqrt (x + 1)) (Finset.sum_congr rfl fun w _ => ?_)
    rw [colBlkH4_apply Hf _ w _ n hn]

/-- The same two for the results as the regions name them on device `d`. -/
theorem yst_apply (d : Dev nD) (A1 : Vec Ideal S4096x4096 .f32) (X1 Xf : Vec Ideal S256x4096 .f32) (Hf : Vec Ideal S32x4096 .f32)
    (W0 W1 : Vec Ideal S256x256 .f32) (g : Fin 256) (n : Fin 4096) :
    (yst d A1 X1 Xf Hf W0 W1 : Vec Ideal S256x4096 .f32) (ix2 g n)
      = ((∑ j : Fin 256, W0 (ix2 g j) * (Xf (ix2 j n) + X1 (ix2 j n)))
          + ∑ j : Fin 256, W1 (ix2 g j) * ∑ k : Fin 4096, X1 (ix2 j k) * A1 (ix2 n k))
        * Ideal.rsqrt ((∑ w : Fin 32, Hf (ix2 w n)) + 1) :=
  yst2V_apply A1 X1 Xf Hf W0 W1 g n

theorem out_apply (d : Dev nD) (ST Yf : Vec Ideal S256x4096 .f32) (Hf : Vec Ideal S32x4096 .f32) (Bf : Vec Ideal S1x256 .f32)
    (n : Fin 4096) (g : Fin 256) :
    (out d ST Yf Hf Bf : Vec Ideal S4096x256 .f32) (ix2 n g)
      = (ST (ix2 g n) + Yf (ix2 g n)) * Ideal.rsqrt ((∑ w : Fin 32, Hf (ix2 w n)) + 1) + Bf (ix2 (0 : Fin 1) g) :=
  out4V_apply ST Yf Hf Bf n g

end Cert.Proof.KI

end
-- ==== Proof.Bridge.lean ====
/-
  The value of the run, as one equation of whole arrays.

  Under the precondition every float argument is a real and every edge end is a node. Each of the five computed
  arrays, read at an index, is what the composition asks of it: the 32 count rows sum to the number of edges into a
  node, the first product is A₀ against the transposed features, the staged array is the scaled fused operand, the
  aggregate is its sum over the edges into a node, and the last array is the final combination. So at every index
  the result is the sum of the three graph convolutions of the arguments.
-/
import proofs.«205814_g58841051955373_cont_9to1_m_133_55_alg».proof.Proof.KerValue
import proofs.«205814_g58841051955373_cont_9to1_m_133_55_alg».proof.Proof.Frames
import proofs.«205814_g58841051955373_cont_9to1_m_133_55_alg».proof.Proof.ScGlobal
import proofs.«205814_g58841051955373_cont_9to1_m_133_55_alg».proof.Proof.TcGlobal
import proofs.«205814_g58841051955373_cont_9to1_m_133_55_alg».proof.Proof.TcGlobal23

noncomputable section

namespace Cert.Proof.Bridge

open Cert.KernelIdeal Cert.KernelIdeal.Gen Cert.Proof.KI
open Idealize.ShloMosaic Idealize.ShloMosaic.ValueIdx
open Idealize.ShloMosaic.SparseCore (S V T)
open Cert.Proof.KerValue (rd kernel_eq_reference)

/-- A position of a list, as the list's index. -/
theorem ofLane_eq_ix1 {n : Nat} (e : Fin n) : Shape.ofLane (d := ![n]) e = ix1 e := by
  funext a
  match a with
  | ⟨0, _⟩ => rfl

set_option maxHeartbeats 2000000 in
/-- THE VALUE: under the precondition the result array the run leaves is, as a whole array, the sum of the three
    graph convolutions of the arguments. -/
theorem value_eq (m : (ℓ : Loc nD τ sig) → Buf (Elt Ideal) ℓ) (h : PreOK m) (c : Dev nD) :
    (VF (Vl₀) m c v42' : S4096x2x128.Idx → EReal)
      = Cert.ReferenceIdeal.HandRun.refVal (F := Ideal) (argX m c) (argAdj m c) (argA m c) (argWs m c) (argBs m c) := by
  funext i
  obtain ⟨n, mm, f, rfl⟩ : ∃ n mm f, i = ix3 n mm f := ⟨i 0, i 1, i 2, eq_ix3 i⟩
  -- what the instance's five arrays are
  have eH : cHist (Vl₀) m c = histWhole c (VA m c v5') (VA m c v31') := rfl
  have eX : cX1 (Vl₀) m c = x1t c (VB (Vl₀) m c v1') (VB (Vl₀) m c v35') := rfl
  have eY : cYst (Vl₀) m c = yst c (VC (Vl₀) m c v38') (VC (Vl₀) m c v36') (VC (Vl₀) m c v1') (VC (Vl₀) m c v33')
      (VC (Vl₀) m c v15') (VC (Vl₀) m c v19') := rfl
  have eS : cSt (Vl₀) m c = stWhole c (V3 (Vl₀) m c v3') (V3 (Vl₀) m c v5') (cYst (Vl₀) m c) (V3 (Vl₀) m c v32') := rfl
  have eO : cOut (Vl₀) m c = out c (cSt (Vl₀) m c) (V4 (Vl₀) m c v39') (V4 (Vl₀) m c v33') (V4 (Vl₀) m c v30') := rfl
  have e32 : V3 (Vl₀) m c v32' = VA m c v32' := V3_v32 (Vl₀) m c
  have hd3 : ∀ i, ((V3 (Vl₀) m c v5' : S65536.Idx → BitVec 32) i).toNat < 4096 := fun i => by
    rw [V3_v5 (Vl₀) m c]
    exact dst_range m h c i
  have hHist : ∀ n : Fin 4096, ∑ w : Fin 32, rd (s := S32x4096) (cHist (Vl₀) m c) (ix2 w n)
      = ∑ e : Fin 65536, if col ((VA m c v5' : S65536.Idx → BitVec 32) (ix1 e)) = n then (1 : EReal) else 0 := by
    intro n
    rw [eH]
    refine (hist_global c (VA m c v5') (VA m c v31') (dst_range m h c)
      (fun n => congrFun (VA_v31_ideal_eq m c) n) n).trans ?_
    refine Finset.sum_congr rfl (fun e _ => ?_)
    unfold edgeCol
    rw [ofLane_eq_ix1]
  have hSt : ∀ (g : Fin 256) (n : Fin 4096), rd (s := S256x4096) (cSt (Vl₀) m c) (ix2 g n)
      = ∑ e : Fin 65536, if col ((V3 (Vl₀) m c v5' : S65536.Idx → BitVec 32) (ix1 e)) = n
          then rd (s := S256x4096) (cYst (Vl₀) m c) (ix2 g (col ((V3 (Vl₀) m c v3' : S65536.Idx → BitVec 32) (ix1 e))))
          else 0 := by
    intro g n
    rw [eS]
    refine (st_global c (V3 (Vl₀) m c v3') (V3 (Vl₀) m c v5') (cYst (Vl₀) m c) (V3 (Vl₀) m c v32')
      (fun i => by rw [e32]; exact congrFun (VA_v32_ideal_eq m c) i) g n).trans ?_
    refine Finset.sum_congr rfl (fun e _ => ?_)
    unfold edgeCol rowsE
    rw [ofLane_eq_ix1]
  have hX1 : ∀ (g : Fin 256) (n : Fin 4096), rd (s := S256x4096) (cX1 (Vl₀) m c) (ix2 g n)
      = ∑ k : Fin 4096, rd (s := S256x4096) (VB (Vl₀) m c v1') (ix2 g k)
          * rd (s := S4096x4096) (VB (Vl₀) m c v35') (ix2 n k) := by
    intro g n
    rw [eX]
    exact x1t_apply c (VB (Vl₀) m c v1') (VB (Vl₀) m c v35') g n
  have hYst := fun (g : Fin 256) (n : Fin 4096) =>
    yst_apply c (VC (Vl₀) m c v38') (VC (Vl₀) m c v36') (VC (Vl₀) m c v1') (VC (Vl₀) m c v33')
      (VC (Vl₀) m c v15') (VC (Vl₀) m c v19') g n
  have hOut := fun (n : Fin 4096) (g : Fin 256) =>
    out_apply c (cSt (Vl₀) m c) (V4 (Vl₀) m c v39') (V4 (Vl₀) m c v33') (V4 (Vl₀) m c v30') n g
  rw [← eY] at hYst
  rw [← eO] at hOut
  exact kernel_eq_reference (Vl₀) m c
    (Cert.Proof.PreFacts.x_real _ _ _ _ _ (h c)) (Cert.Proof.PreFacts.A_real _ _ _ _ _ (h c))
    (Cert.Proof.PreFacts.Ws_real _ _ _ _ _ (h c)) (Cert.Proof.PreFacts.bs_real _ _ _ _ _ (h c))
    (Cert.Proof.PreFacts.adj_range_toInt _ _ _ _ _ (h c)) hHist hX1 hYst hSt hOut n mm f

end Cert.Proof.Bridge

end
-- ==== Proof.lean ====
/-
  The certificate of a two-hop graph convolution: out = gcn(x, W₀, b₀) + gcn(A₀x, W₀, b₀) + gcn(A₁A₀x, W₁, b₁) over
  4096 nodes, 65536 edges and self-loops, gcn(z, W, b)[n] = Σ_{e : dst e = n} (zW)[src e] · r(src e) r(n) + (zW)[n] · r(n)² + b
  with r(n) the inverse square root of the degree 1 + #{e : dst e = n}.

  The kernel computes it in five launches on one device: a SparseCore histogram of the edge targets (32 tiles, 2048
  targets each, one masked lane at a time); two TensorCore products giving, with Y := (x + A₀x)W₀ + A₁A₀x W₁, the scaled
  transposed features ystᵀ[f, n] = Yᵀ[f, n] r(n) (the scaling a product with a diagonal matrix built from the 32
  histogram rows); a SparseCore aggregation st[f, n] = Σ_{e : dst e = n} yst[f, src e] (each tile 8 feature rows,
  accumulating through a 16-row rotation that no two lanes of one store share, then folding row j + 8 onto row j); and
  a last TensorCore call out[n, f] = (st[f, n] + yst[f, n]) r(n) + (2 b₀ + b₁)[f].

  Frames: the SparseCore launch theorem over the 35 threads, the two vector-subcore kernels' bodies proved once at a
  symbolic tile with their values carried in the loops' invariants, the three TensorCore calls entered as regions of
  @main between them; every edge endpoint is a node number by the precondition, so every indexed access is in range.
  The same text serves the word-level program and its idealization. The reference's run is read by hand, operation by
  operation. Equivalence over the extended reals: both sides are
  r(n) (Σ_{e : dst e = n} Y[src e, f] r(src e) + Y[n, f] r(n)) + 2 b₀[f] + b₁[f], by distributivity over finite sums
  of real numbers (the inputs are finite by the precondition, and r is real since every degree is at least 1);
  the reference's guard max(deg, ε) is deg itself. The idealization rewrote no operation, so `preserves` is trivial.
-/
import proofs.«205814_g58841051955373_cont_9to1_m_133_55_alg».proof.Defs
import proofs.«205814_g58841051955373_cont_9to1_m_133_55_alg».proof.Proof.Gen.Kernel
import proofs.«205814_g58841051955373_cont_9to1_m_133_55_alg».proof.Proof.Gen.KernelIdeal
import proofs.«205814_g58841051955373_cont_9to1_m_133_55_alg».proof.Proof.Gen.ReferenceIdeal
import proofs.«205814_g58841051955373_cont_9to1_m_133_55_alg».proof.Proof.Gen.Pre_input_domain
import proofs.«205814_g58841051955373_cont_9to1_m_133_55_alg».proof.Proof.Frames
import proofs.«205814_g58841051955373_cont_9to1_m_133_55_alg».proof.Proof.Bits.Frames
import proofs.«205814_g58841051955373_cont_9to1_m_133_55_alg».proof.Proof.RefFrame
import proofs.«205814_g58841051955373_cont_9to1_m_133_55_alg».proof.Proof.Bridge

noncomputable section

namespace Cert.Proof

open Idealize.ShloMosaic Idealize.ShloMosaic.TcCoe Idealize.SL.Sem

/-- The word-level program's frame. -/
theorem frame_p : Cert.frame_Kernel := fun m ρ hpre => Cert.Proof.KB.kernel_frame (F := Bits) m ρ hpre

/-- The idealized program's frame. -/
theorem frame_pi : Cert.frame_KernelIdeal := fun m ρ hpre => Cert.Proof.KI.kernel_frame (F := Ideal) m ρ hpre

/-- At the ideal instance the kernel's result array ends at the last valuation and the reference's at its composed
    term of arguments that agree: one function of the arguments, index by index. -/
theorem algebraic : Cert.algebraic_KernelIdeal_ReferenceIdeal := by
  intro m ρ m' ρ' hpre hagree
  refine ⟨fun c => Cert.Proof.KI.VF (Cert.Proof.KI.Vl₀ (F := Ideal)) m c Cert.Proof.KI.v42', Cert.Proof.KI.kernel_value (F := Ideal) m ρ hpre, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  exact (Cert.Proof.Bridge.value_eq m hpre c).symm

theorem claim : Cert.Claim :=
  ⟨Cert.Kernel.Gen.facts, Cert.KernelIdeal.Gen.facts, Cert.ReferenceIdeal.Gen.facts, Cert.Pre_input_domain.Gen.facts,
    frame_p, frame_pi, Cert.Proof.RefFrame.frame_ri, trivial, algebraic⟩

end Cert.Proof

end
